-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![4096, 4096]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 4096]⟩ ⟨2, ![1024, 4096]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S1024x4096 : Shape := ⟨2, ![1024, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S1024x1024 .f32) (main_arg1 : FVec F S1024x4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Pre_finite_inputs_ReferenceIdeal.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x1024 .f32) (main_arg1 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S1024x1024 : Shape := ⟨2, ![1024, 1024]⟩
abbrev S1024x4096 : Shape := ⟨2, ![1024, 4096]⟩
abbrev S256x4096 : Shape := ⟨2, ![256, 4096]⟩
abbrev S1024x512 : Shape := ⟨2, ![1024, 512]⟩
abbrev S2x256x256 : Shape := ⟨3, ![2, 256, 256]⟩
abbrev S2x4x256x256 : Shape := ⟨4, ![2, 4, 256, 256]⟩
abbrev S2x4 : Shape := ⟨2, ![2, 4]⟩
abbrev S_ : Shape := ⟨0, ![]⟩
abbrev S1024x256 : Shape := ⟨2, ![1024, 256]⟩
abbrev S1x1 : Shape := ⟨2, ![1, 1]⟩
abbrev S1x1x256x256 : Shape := ⟨4, ![1, 1, 256, 256]⟩
abbrev S256x256 : Shape := ⟨2, ![256, 256]⟩
abbrev S1x256x256 : Shape := ⟨3, ![1, 256, 256]⟩

abbrev nBuf : Space → Nat
  | .hbm => 3
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S256x4096, .f32⟩
  | .local _ .vmem, ⟨0, _⟩ => ⟨S1024x1024, .f32⟩
  | .local _ .vmem, ⟨1, _⟩ => ⟨S1024x4096, .f32⟩
  | .local _ .vmem, ⟨2, _⟩ => ⟨S256x4096, .f32⟩
  | .local _ .vmem, ⟨3, _⟩ => ⟨S1024x512, .bf16⟩
  | .local _ .vmem, ⟨4, _⟩ => ⟨S2x256x256, .bf16⟩
  | .local _ .vmem, ⟨5, _⟩ => ⟨S2x4x256x256, .bf16⟩
  | .local _ .vmem, ⟨6, _⟩ => ⟨S2x4x256x256, .bf16⟩
  | .local _ .vmem, ⟨7, _⟩ => ⟨S2x4x256x256, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v23 : BitVec 32 := Scalar.muli v2 c16_i32_10
  let v24 : BitVec 32 := Scalar.addi c0_i32_11 v23
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v25 : BitVec 32 := Scalar.muli v5 c4_i32_12
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_13 : BitVec 32 := 1#32
  let v27 : BitVec 32 := Scalar.muli v22 c1_i32_13
  let v28 : BitVec 32 := Scalar.addi v26 v27
  v28.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v40 : BitVec 32 := Scalar.muli v2 c16_i32_22
  let v41 : BitVec 32 := Scalar.addi c0_i32_23 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v42 : BitVec 32 := Scalar.muli v5 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v29 : BitVec 32 := Scalar.addi v8 c2_i32_14
  let c4_i32_15 : BitVec 32 := 4#32
  let c0_i32_16 : BitVec 32 := 0#32
  let v30 : BitVec 1 := Scalar.cmpi .eq c4_i32_15 c0_i32_16
  let c1_i32_17 : BitVec 32 := 1#32
  let v31 : BitVec 32 := Scalar.select v30 c1_i32_17 c4_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c1_i32_25 : BitVec 32 := 1#32
  let v44 : BitVec 32 := Scalar.muli v39 c1_i32_25
  let v45 : BitVec 32 := Scalar.addi v43 v44
  v45.toNat
def k0_dev3 (d0 : Dev nD) : Nat :=
  let c0_i32_34 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_33 : BitVec 32 := 16#32
  let v57 : BitVec 32 := Scalar.muli v2 c16_i32_33
  let v58 : BitVec 32 := Scalar.addi c0_i32_34 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_35 : BitVec 32 := 4#32
  let v59 : BitVec 32 := Scalar.muli v5 c4_i32_35
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v46 : BitVec 32 := Scalar.addi v8 c3_i32
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1_i32_36 : BitVec 32 := 1#32
  let v61 : BitVec 32 := Scalar.muli v56 c1_i32_36
  let v62 : BitVec 32 := Scalar.addi v60 v61
  v62.toNat
def k0_dev4 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v74 : BitVec 32 := Scalar.muli v2 c16_i32_45
  let v75 : BitVec 32 := Scalar.addi c0_i32_46 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_37 : BitVec 32 := 1#32
  let v63 : BitVec 32 := Scalar.addi v5 c1_i32_37
  let c4_i32_38 : BitVec 32 := 4#32
  let c0_i32_39 : BitVec 32 := 0#32
  let v64 : BitVec 1 := Scalar.cmpi .eq c4_i32_38 c0_i32_39
  let c1_i32_40 : BitVec 32 := 1#32
  let v65 : BitVec 32 := Scalar.select v64 c1_i32_40 c4_i32_38
  let v66 : BitVec 32 := Scalar.remsi v63 v65
  let c0_i32_42 : BitVec 32 := 0#32
  let v68 : BitVec 1 := Scalar.cmpi .slt v66 c0_i32_42
  let c0_i32_43 : BitVec 32 := 0#32
  let v69 : BitVec 1 := Scalar.cmpi .slt v65 c0_i32_43
  let v70 : BitVec 1 := Scalar.xori v68 v69
  let c0_i32_41 : BitVec 32 := 0#32
  let v67 : BitVec 1 := Scalar.cmpi .ne v66 c0_i32_41
  let v71 : BitVec 1 := Scalar.andi v70 v67
  let v72 : BitVec 32 := Scalar.addi v66 v65
  let v73 : BitVec 32 := Scalar.select v71 v72 v66
  let c4_i32_47 : BitVec 32 := 4#32
  let v76 : BitVec 32 := Scalar.muli v73 c4_i32_47
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v78 : BitVec 32 := Scalar.muli v8 c1_i32_48
  let v79 : BitVec 32 := Scalar.addi v77 v78
  v79.toNat
def k0_dev5 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v91 : BitVec 32 := Scalar.muli v2 c16_i32_57
  let v92 : BitVec 32 := Scalar.addi c0_i32_58 v91
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_49 : BitVec 32 := 2#32
  let v80 : BitVec 32 := Scalar.addi v5 c2_i32_49
  let c4_i32_50 : BitVec 32 := 4#32
  let c0_i32_51 : BitVec 32 := 0#32
  let v81 : BitVec 1 := Scalar.cmpi .eq c4_i32_50 c0_i32_51
  let c1_i32_52 : BitVec 32 := 1#32
  let v82 : BitVec 32 := Scalar.select v81 c1_i32_52 c4_i32_50
  let v83 : BitVec 32 := Scalar.remsi v80 v82
  let c0_i32_54 : BitVec 32 := 0#32
  let v85 : BitVec 1 := Scalar.cmpi .slt v83 c0_i32_54
  let c0_i32_55 : BitVec 32 := 0#32
  let v86 : BitVec 1 := Scalar.cmpi .slt v82 c0_i32_55
  let v87 : BitVec 1 := Scalar.xori v85 v86
  let c0_i32_53 : BitVec 32 := 0#32
  let v84 : BitVec 1 := Scalar.cmpi .ne v83 c0_i32_53
  let v88 : BitVec 1 := Scalar.andi v87 v84
  let v89 : BitVec 32 := Scalar.addi v83 v82
  let v90 : BitVec 32 := Scalar.select v88 v89 v83
  let c4_i32_59 : BitVec 32 := 4#32
  let v93 : BitVec 32 := Scalar.muli v90 c4_i32_59
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v95 : BitVec 32 := Scalar.muli v8 c1_i32_60
  let v96 : BitVec 32 := Scalar.addi v94 v95
  v96.toNat
def k0_dev6 (d0 : Dev nD) : Nat :=
  let c0_i32_70 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_69 : BitVec 32 := 16#32
  let v108 : BitVec 32 := Scalar.muli v2 c16_i32_69
  let v109 : BitVec 32 := Scalar.addi c0_i32_70 v108
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_61 : BitVec 32 := 3#32
  let v97 : BitVec 32 := Scalar.addi v5 c3_i32_61
  let c4_i32_62 : BitVec 32 := 4#32
  let c0_i32_63 : BitVec 32 := 0#32
  let v98 : BitVec 1 := Scalar.cmpi .eq c4_i32_62 c0_i32_63
  let c1_i32_64 : BitVec 32 := 1#32
  let v99 : BitVec 32 := Scalar.select v98 c1_i32_64 c4_i32_62
  let v100 : BitVec 32 := Scalar.remsi v97 v99
  let c0_i32_66 : BitVec 32 := 0#32
  let v102 : BitVec 1 := Scalar.cmpi .slt v100 c0_i32_66
  let c0_i32_67 : BitVec 32 := 0#32
  let v103 : BitVec 1 := Scalar.cmpi .slt v99 c0_i32_67
  let v104 : BitVec 1 := Scalar.xori v102 v103
  let c0_i32_65 : BitVec 32 := 0#32
  let v101 : BitVec 1 := Scalar.cmpi .ne v100 c0_i32_65
  let v105 : BitVec 1 := Scalar.andi v104 v101
  let v106 : BitVec 32 := Scalar.addi v100 v99
  let v107 : BitVec 32 := Scalar.select v105 v106 v100
  let c4_i32_71 : BitVec 32 := 4#32
  let v110 : BitVec 32 := Scalar.muli v107 c4_i32_71
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v112 : BitVec 32 := Scalar.muli v8 c1_i32_72
  let v113 : BitVec 32 := Scalar.addi v111 v112
  v113.toNat
def k0_dev7 (d0 : Dev nD) : Nat :=
  let c0_i32_76 : BitVec 32 := 0#32
  let c1_i32_73 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v114 : BitVec 32 := Scalar.subi c1_i32_73 v2
  let c16_i32_75 : BitVec 32 := 16#32
  let v115 : BitVec 32 := Scalar.muli v114 c16_i32_75
  let v116 : BitVec 32 := Scalar.addi c0_i32_76 v115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_77 : BitVec 32 := 4#32
  let v117 : BitVec 32 := Scalar.muli v5 c4_i32_77
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_78 : BitVec 32 := 1#32
  let v119 : BitVec 32 := Scalar.muli v8 c1_i32_78
  let v120 : BitVec 32 := Scalar.addi v118 v119
  v120.toNat
def k0_off1 (d0 : Dev nD) (c0_i32_80 : BitVec 32) : Fin 2 → Nat :=
  let c0_81 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c512_i32 : BitVec 32 := 512#32
  let v124 : BitVec 32 := Scalar.muli v10 c512_i32
  let v125 : BitVec 32 := Scalar.addi v124 c0_i32_80
  let v126 : Index := Scalar.indexCast v125
  ![0, v126.toNat]
def k0_off2 (d0 : Dev nD) (c1_i32 : BitVec 32) (c1_i32_88 : BitVec 32) : Fin 2 → Nat :=
  let c0_i32_98 : BitVec 32 := 0#32
  let v6 : BitVec 32 := Dev.word d0
  let v7 : BitVec 32 := Scalar.divsi v6 c1_i32
  let c4_i32_1 : BitVec 32 := 4#32
  let v8 : BitVec 32 := Scalar.remsi v7 c4_i32_1
  let v146 : BitVec 32 := Scalar.addi v8 c1_i32_88
  let c4_i32_89 : BitVec 32 := 4#32
  let c0_i32_90 : BitVec 32 := 0#32
  let v147 : BitVec 1 := Scalar.cmpi .eq c4_i32_89 c0_i32_90
  let c1_i32_91 : BitVec 32 := 1#32
  let v148 : BitVec 32 := Scalar.select v147 c1_i32_91 c4_i32_89
  let v149 : BitVec 32 := Scalar.remsi v146 v148
  let c0_i32_93 : BitVec 32 := 0#32
  let v151 : BitVec 1 := Scalar.cmpi .slt v149 c0_i32_93
  let c0_i32_94 : BitVec 32 := 0#32
  let v152 : BitVec 1 := Scalar.cmpi .slt v148 c0_i32_94
  let v153 : BitVec 1 := Scalar.xori v151 v152
  let c0_i32_92 : BitVec 32 := 0#32
  let v150 : BitVec 1 := Scalar.cmpi .ne v149 c0_i32_92
  let v154 : BitVec 1 := Scalar.andi v153 v150
  let v155 : BitVec 32 := Scalar.addi v149 v148
  let v156 : BitVec 32 := Scalar.select v154 v155 v149
  ![0, v156.toNat]
def k0_off3 (d0 : Dev nD) (c1_i32 : BitVec 32) : Fin 2 → Nat :=
  let c0_i32_97 : BitVec 32 := 0#32
  let v6 : BitVec 32 := Dev.word d0
  let v7 : BitVec 32 := Scalar.divsi v6 c1_i32
  let c4_i32_1 : BitVec 32 := 4#32
  let v8 : BitVec 32 := Scalar.remsi v7 c4_i32_1
  ![0, v8.toNat]
def k0_off4 (d0 : Dev nD) (c1_i32 : BitVec 32) : Fin 4 → Nat :=
  let c0_i32_96 : BitVec 32 := 0#32
  let v6 : BitVec 32 := Dev.word d0
  let v7 : BitVec 32 := Scalar.divsi v6 c1_i32
  let c4_i32_1 : BitVec 32 := 4#32
  let v8 : BitVec 32 := Scalar.remsi v7 c4_i32_1
  let c0_i32_103 : BitVec 32 := 0#32
  let c0_i32_104 : BitVec 32 := 0#32
  ![0, v8.toNat, 0, 0]
def k0_off5 (d0 : Dev nD) (c1_i32_88 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v146 : BitVec 32 := Scalar.addi v8 c1_i32_88
  let c4_i32_89 : BitVec 32 := 4#32
  let c0_i32_90 : BitVec 32 := 0#32
  let v147 : BitVec 1 := Scalar.cmpi .eq c4_i32_89 c0_i32_90
  let c1_i32_91 : BitVec 32 := 1#32
  let v148 : BitVec 32 := Scalar.select v147 c1_i32_91 c4_i32_89
  let v149 : BitVec 32 := Scalar.remsi v146 v148
  let c0_i32_93 : BitVec 32 := 0#32
  let v151 : BitVec 1 := Scalar.cmpi .slt v149 c0_i32_93
  let c0_i32_94 : BitVec 32 := 0#32
  let v152 : BitVec 1 := Scalar.cmpi .slt v148 c0_i32_94
  let v153 : BitVec 1 := Scalar.xori v151 v152
  let c0_i32_92 : BitVec 32 := 0#32
  let v150 : BitVec 1 := Scalar.cmpi .ne v149 c0_i32_92
  let v154 : BitVec 1 := Scalar.andi v153 v150
  let v155 : BitVec 32 := Scalar.addi v149 v148
  let v156 : BitVec 32 := Scalar.select v154 v155 v149
  let c256_i32_95 : BitVec 32 := 256#32
  let v157 : BitVec 32 := Scalar.muli v156 c256_i32_95
  let c0_i32_105 : BitVec 32 := 0#32
  ![v157.toNat, 0]
def k0_dev8 (d0 : Dev nD) : Nat :=
  let c0_i32_100 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_99 : BitVec 32 := 16#32
  let v158 : BitVec 32 := Scalar.muli v2 c16_i32_99
  let v159 : BitVec 32 := Scalar.addi c0_i32_100 v158
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_101 : BitVec 32 := 4#32
  let v160 : BitVec 32 := Scalar.muli v5 c4_i32_101
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v146 : BitVec 32 := Scalar.addi v8 c1_i32_88
  let c4_i32_89 : BitVec 32 := 4#32
  let c0_i32_90 : BitVec 32 := 0#32
  let v147 : BitVec 1 := Scalar.cmpi .eq c4_i32_89 c0_i32_90
  let c1_i32_91 : BitVec 32 := 1#32
  let v148 : BitVec 32 := Scalar.select v147 c1_i32_91 c4_i32_89
  let v149 : BitVec 32 := Scalar.remsi v146 v148
  let c0_i32_93 : BitVec 32 := 0#32
  let v151 : BitVec 1 := Scalar.cmpi .slt v149 c0_i32_93
  let c0_i32_94 : BitVec 32 := 0#32
  let v152 : BitVec 1 := Scalar.cmpi .slt v148 c0_i32_94
  let v153 : BitVec 1 := Scalar.xori v151 v152
  let c0_i32_92 : BitVec 32 := 0#32
  let v150 : BitVec 1 := Scalar.cmpi .ne v149 c0_i32_92
  let v154 : BitVec 1 := Scalar.andi v153 v150
  let v155 : BitVec 32 := Scalar.addi v149 v148
  let v156 : BitVec 32 := Scalar.select v154 v155 v149
  let c1_i32_102 : BitVec 32 := 1#32
  let v162 : BitVec 32 := Scalar.muli v156 c1_i32_102
  let v163 : BitVec 32 := Scalar.addi v161 v162
  v163.toNat
def k0_dev9 (d0 : Dev nD) : Nat :=
  let c0_i32_118 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_117 : BitVec 32 := 16#32
  let v183 : BitVec 32 := Scalar.muli v2 c16_i32_117
  let v184 : BitVec 32 := Scalar.addi c0_i32_118 v183
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_119 : BitVec 32 := 4#32
  let v185 : BitVec 32 := Scalar.muli v5 c4_i32_119
  let v186 : BitVec 32 := Scalar.addi v184 v185
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_106 : BitVec 32 := 2#32
  let v171 : BitVec 32 := Scalar.addi v8 c2_i32_106
  let c4_i32_107 : BitVec 32 := 4#32
  let c0_i32_108 : BitVec 32 := 0#32
  let v172 : BitVec 1 := Scalar.cmpi .eq c4_i32_107 c0_i32_108
  let c1_i32_109 : BitVec 32 := 1#32
  let v173 : BitVec 32 := Scalar.select v172 c1_i32_109 c4_i32_107
  let v174 : BitVec 32 := Scalar.remsi v171 v173
  let c0_i32_111 : BitVec 32 := 0#32
  let v176 : BitVec 1 := Scalar.cmpi .slt v174 c0_i32_111
  let c0_i32_112 : BitVec 32 := 0#32
  let v177 : BitVec 1 := Scalar.cmpi .slt v173 c0_i32_112
  let v178 : BitVec 1 := Scalar.xori v176 v177
  let c0_i32_110 : BitVec 32 := 0#32
  let v175 : BitVec 1 := Scalar.cmpi .ne v174 c0_i32_110
  let v179 : BitVec 1 := Scalar.andi v178 v175
  let v180 : BitVec 32 := Scalar.addi v174 v173
  let v181 : BitVec 32 := Scalar.select v179 v180 v174
  let c1_i32_120 : BitVec 32 := 1#32
  let v187 : BitVec 32 := Scalar.muli v181 c1_i32_120
  let v188 : BitVec 32 := Scalar.addi v186 v187
  v188.toNat
def k0_dev10 (d0 : Dev nD) : Nat :=
  let c0_i32_136 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_135 : BitVec 32 := 16#32
  let v208 : BitVec 32 := Scalar.muli v2 c16_i32_135
  let v209 : BitVec 32 := Scalar.addi c0_i32_136 v208
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_137 : BitVec 32 := 4#32
  let v210 : BitVec 32 := Scalar.muli v5 c4_i32_137
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_124 : BitVec 32 := 3#32
  let v196 : BitVec 32 := Scalar.addi v8 c3_i32_124
  let c4_i32_125 : BitVec 32 := 4#32
  let c0_i32_126 : BitVec 32 := 0#32
  let v197 : BitVec 1 := Scalar.cmpi .eq c4_i32_125 c0_i32_126
  let c1_i32_127 : BitVec 32 := 1#32
  let v198 : BitVec 32 := Scalar.select v197 c1_i32_127 c4_i32_125
  let v199 : BitVec 32 := Scalar.remsi v196 v198
  let c0_i32_129 : BitVec 32 := 0#32
  let v201 : BitVec 1 := Scalar.cmpi .slt v199 c0_i32_129
  let c0_i32_130 : BitVec 32 := 0#32
  let v202 : BitVec 1 := Scalar.cmpi .slt v198 c0_i32_130
  let v203 : BitVec 1 := Scalar.xori v201 v202
  let c0_i32_128 : BitVec 32 := 0#32
  let v200 : BitVec 1 := Scalar.cmpi .ne v199 c0_i32_128
  let v204 : BitVec 1 := Scalar.andi v203 v200
  let v205 : BitVec 32 := Scalar.addi v199 v198
  let v206 : BitVec 32 := Scalar.select v204 v205 v199
  let c1_i32_138 : BitVec 32 := 1#32
  let v212 : BitVec 32 := Scalar.muli v206 c1_i32_138
  let v213 : BitVec 32 := Scalar.addi v211 v212
  v213.toNat
def k0_off6 (d0 : Dev nD) (c1_i32 : BitVec 32) (c1_i32_142 : BitVec 32) : Fin 2 → Nat :=
  let c1_i32_152 : BitVec 32 := 1#32
  let v6 : BitVec 32 := Dev.word d0
  let v7 : BitVec 32 := Scalar.divsi v6 c1_i32
  let c4_i32_1 : BitVec 32 := 4#32
  let v8 : BitVec 32 := Scalar.remsi v7 c4_i32_1
  let v221 : BitVec 32 := Scalar.addi v8 c1_i32_142
  let c4_i32_143 : BitVec 32 := 4#32
  let c0_i32_144 : BitVec 32 := 0#32
  let v222 : BitVec 1 := Scalar.cmpi .eq c4_i32_143 c0_i32_144
  let c1_i32_145 : BitVec 32 := 1#32
  let v223 : BitVec 32 := Scalar.select v222 c1_i32_145 c4_i32_143
  let v224 : BitVec 32 := Scalar.remsi v221 v223
  let c0_i32_147 : BitVec 32 := 0#32
  let v226 : BitVec 1 := Scalar.cmpi .slt v224 c0_i32_147
  let c0_i32_148 : BitVec 32 := 0#32
  let v227 : BitVec 1 := Scalar.cmpi .slt v223 c0_i32_148
  let v228 : BitVec 1 := Scalar.xori v226 v227
  let c0_i32_146 : BitVec 32 := 0#32
  let v225 : BitVec 1 := Scalar.cmpi .ne v224 c0_i32_146
  let v229 : BitVec 1 := Scalar.andi v228 v225
  let v230 : BitVec 32 := Scalar.addi v224 v223
  let v231 : BitVec 32 := Scalar.select v229 v230 v224
  ![1, v231.toNat]
def k0_off7 (d0 : Dev nD) (c1_i32 : BitVec 32) : Fin 2 → Nat :=
  let c1_i32_151 : BitVec 32 := 1#32
  let v6 : BitVec 32 := Dev.word d0
  let v7 : BitVec 32 := Scalar.divsi v6 c1_i32
  let c4_i32_1 : BitVec 32 := 4#32
  let v8 : BitVec 32 := Scalar.remsi v7 c4_i32_1
  ![1, v8.toNat]
def k0_off8 (d0 : Dev nD) (c1_i32 : BitVec 32) : Fin 4 → Nat :=
  let c1_i32_150 : BitVec 32 := 1#32
  let v6 : BitVec 32 := Dev.word d0
  let v7 : BitVec 32 := Scalar.divsi v6 c1_i32
  let c4_i32_1 : BitVec 32 := 4#32
  let v8 : BitVec 32 := Scalar.remsi v7 c4_i32_1
  let c0_i32_157 : BitVec 32 := 0#32
  let c0_i32_158 : BitVec 32 := 0#32
  ![1, v8.toNat, 0, 0]
def k0_off9 (d0 : Dev nD) (c1_i32_142 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v221 : BitVec 32 := Scalar.addi v8 c1_i32_142
  let c4_i32_143 : BitVec 32 := 4#32
  let c0_i32_144 : BitVec 32 := 0#32
  let v222 : BitVec 1 := Scalar.cmpi .eq c4_i32_143 c0_i32_144
  let c1_i32_145 : BitVec 32 := 1#32
  let v223 : BitVec 32 := Scalar.select v222 c1_i32_145 c4_i32_143
  let v224 : BitVec 32 := Scalar.remsi v221 v223
  let c0_i32_147 : BitVec 32 := 0#32
  let v226 : BitVec 1 := Scalar.cmpi .slt v224 c0_i32_147
  let c0_i32_148 : BitVec 32 := 0#32
  let v227 : BitVec 1 := Scalar.cmpi .slt v223 c0_i32_148
  let v228 : BitVec 1 := Scalar.xori v226 v227
  let c0_i32_146 : BitVec 32 := 0#32
  let v225 : BitVec 1 := Scalar.cmpi .ne v224 c0_i32_146
  let v229 : BitVec 1 := Scalar.andi v228 v225
  let v230 : BitVec 32 := Scalar.addi v224 v223
  let v231 : BitVec 32 := Scalar.select v229 v230 v224
  let c256_i32_149 : BitVec 32 := 256#32
  let v232 : BitVec 32 := Scalar.muli v231 c256_i32_149
  let c256_i32_159 : BitVec 32 := 256#32
  ![v232.toNat, 256]
def k0_dev11 (d0 : Dev nD) : Nat :=
  let c0_i32_154 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_153 : BitVec 32 := 16#32
  let v233 : BitVec 32 := Scalar.muli v2 c16_i32_153
  let v234 : BitVec 32 := Scalar.addi c0_i32_154 v233
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_155 : BitVec 32 := 4#32
  let v235 : BitVec 32 := Scalar.muli v5 c4_i32_155
  let v236 : BitVec 32 := Scalar.addi v234 v235
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_142 : BitVec 32 := 1#32
  let v221 : BitVec 32 := Scalar.addi v8 c1_i32_142
  let c4_i32_143 : BitVec 32 := 4#32
  let c0_i32_144 : BitVec 32 := 0#32
  let v222 : BitVec 1 := Scalar.cmpi .eq c4_i32_143 c0_i32_144
  let c1_i32_145 : BitVec 32 := 1#32
  let v223 : BitVec 32 := Scalar.select v222 c1_i32_145 c4_i32_143
  let v224 : BitVec 32 := Scalar.remsi v221 v223
  let c0_i32_147 : BitVec 32 := 0#32
  let v226 : BitVec 1 := Scalar.cmpi .slt v224 c0_i32_147
  let c0_i32_148 : BitVec 32 := 0#32
  let v227 : BitVec 1 := Scalar.cmpi .slt v223 c0_i32_148
  let v228 : BitVec 1 := Scalar.xori v226 v227
  let c0_i32_146 : BitVec 32 := 0#32
  let v225 : BitVec 1 := Scalar.cmpi .ne v224 c0_i32_146
  let v229 : BitVec 1 := Scalar.andi v228 v225
  let v230 : BitVec 32 := Scalar.addi v224 v223
  let v231 : BitVec 32 := Scalar.select v229 v230 v224
  let c1_i32_156 : BitVec 32 := 1#32
  let v237 : BitVec 32 := Scalar.muli v231 c1_i32_156
  let v238 : BitVec 32 := Scalar.addi v236 v237
  v238.toNat
def k0_dev12 (d0 : Dev nD) : Nat :=
  let c0_i32_172 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_171 : BitVec 32 := 16#32
  let v258 : BitVec 32 := Scalar.muli v2 c16_i32_171
  let v259 : BitVec 32 := Scalar.addi c0_i32_172 v258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_173 : BitVec 32 := 4#32
  let v260 : BitVec 32 := Scalar.muli v5 c4_i32_173
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_160 : BitVec 32 := 2#32
  let v246 : BitVec 32 := Scalar.addi v8 c2_i32_160
  let c4_i32_161 : BitVec 32 := 4#32
  let c0_i32_162 : BitVec 32 := 0#32
  let v247 : BitVec 1 := Scalar.cmpi .eq c4_i32_161 c0_i32_162
  let c1_i32_163 : BitVec 32 := 1#32
  let v248 : BitVec 32 := Scalar.select v247 c1_i32_163 c4_i32_161
  let v249 : BitVec 32 := Scalar.remsi v246 v248
  let c0_i32_165 : BitVec 32 := 0#32
  let v251 : BitVec 1 := Scalar.cmpi .slt v249 c0_i32_165
  let c0_i32_166 : BitVec 32 := 0#32
  let v252 : BitVec 1 := Scalar.cmpi .slt v248 c0_i32_166
  let v253 : BitVec 1 := Scalar.xori v251 v252
  let c0_i32_164 : BitVec 32 := 0#32
  let v250 : BitVec 1 := Scalar.cmpi .ne v249 c0_i32_164
  let v254 : BitVec 1 := Scalar.andi v253 v250
  let v255 : BitVec 32 := Scalar.addi v249 v248
  let v256 : BitVec 32 := Scalar.select v254 v255 v249
  let c1_i32_174 : BitVec 32 := 1#32
  let v262 : BitVec 32 := Scalar.muli v256 c1_i32_174
  let v263 : BitVec 32 := Scalar.addi v261 v262
  v263.toNat
def k0_dev13 (d0 : Dev nD) : Nat :=
  let c0_i32_190 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_189 : BitVec 32 := 16#32
  let v283 : BitVec 32 := Scalar.muli v2 c16_i32_189
  let v284 : BitVec 32 := Scalar.addi c0_i32_190 v283
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_191 : BitVec 32 := 4#32
  let v285 : BitVec 32 := Scalar.muli v5 c4_i32_191
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_178 : BitVec 32 := 3#32
  let v271 : BitVec 32 := Scalar.addi v8 c3_i32_178
  let c4_i32_179 : BitVec 32 := 4#32
  let c0_i32_180 : BitVec 32 := 0#32
  let v272 : BitVec 1 := Scalar.cmpi .eq c4_i32_179 c0_i32_180
  let c1_i32_181 : BitVec 32 := 1#32
  let v273 : BitVec 32 := Scalar.select v272 c1_i32_181 c4_i32_179
  let v274 : BitVec 32 := Scalar.remsi v271 v273
  let c0_i32_183 : BitVec 32 := 0#32
  let v276 : BitVec 1 := Scalar.cmpi .slt v274 c0_i32_183
  let c0_i32_184 : BitVec 32 := 0#32
  let v277 : BitVec 1 := Scalar.cmpi .slt v273 c0_i32_184
  let v278 : BitVec 1 := Scalar.xori v276 v277
  let c0_i32_182 : BitVec 32 := 0#32
  let v275 : BitVec 1 := Scalar.cmpi .ne v274 c0_i32_182
  let v279 : BitVec 1 := Scalar.andi v278 v275
  let v280 : BitVec 32 := Scalar.addi v274 v273
  let v281 : BitVec 32 := Scalar.select v279 v280 v274
  let c1_i32_192 : BitVec 32 := 1#32
  let v287 : BitVec 32 := Scalar.muli v281 c1_i32_192
  let v288 : BitVec 32 := Scalar.addi v286 v287
  v288.toNat
def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_196 : BitVec 32 := 256#32
  let v296 : BitVec 32 := Scalar.muli v8 c256_i32_196
  let v297 : Index := Scalar.indexCast v296
  let c0_197 : Index := 0#32
  ![v297.toNat, 0]
def k0_off11 (d0 : Dev nD) (c1_i32 : BitVec 32) (c1_i32_198 : BitVec 32) : Fin 4 → Nat :=
  let c0_i32_206 : BitVec 32 := 0#32
  let v6 : BitVec 32 := Dev.word d0
  let v7 : BitVec 32 := Scalar.divsi v6 c1_i32
  let c4_i32_1 : BitVec 32 := 4#32
  let v8 : BitVec 32 := Scalar.remsi v7 c4_i32_1
  let v300 : BitVec 32 := Scalar.addi v8 c1_i32_198
  let c4_i32_199 : BitVec 32 := 4#32
  let c0_i32_200 : BitVec 32 := 0#32
  let v301 : BitVec 1 := Scalar.cmpi .eq c4_i32_199 c0_i32_200
  let c1_i32_201 : BitVec 32 := 1#32
  let v302 : BitVec 32 := Scalar.select v301 c1_i32_201 c4_i32_199
  let v303 : BitVec 32 := Scalar.remsi v300 v302
  let c0_i32_203 : BitVec 32 := 0#32
  let v305 : BitVec 1 := Scalar.cmpi .slt v303 c0_i32_203
  let c0_i32_204 : BitVec 32 := 0#32
  let v306 : BitVec 1 := Scalar.cmpi .slt v302 c0_i32_204
  let v307 : BitVec 1 := Scalar.xori v305 v306
  let c0_i32_202 : BitVec 32 := 0#32
  let v304 : BitVec 1 := Scalar.cmpi .ne v303 c0_i32_202
  let v308 : BitVec 1 := Scalar.andi v307 v304
  let v309 : BitVec 32 := Scalar.addi v303 v302
  let v310 : BitVec 32 := Scalar.select v308 v309 v303
  let c0_i32_213 : BitVec 32 := 0#32
  let c0_i32_214 : BitVec 32 := 0#32
  ![0, v310.toNat, 0, 0]
def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_205 : BitVec 32 := 256#32
  let v311 : BitVec 32 := Scalar.muli v8 c256_i32_205
  let c0_i32_215 : BitVec 32 := 0#32
  ![v311.toNat, 0]
def k0_off13 (d0 : Dev nD) (c1_i32 : BitVec 32) (c1_i32_198 : BitVec 32) : Fin 4 → Nat :=
  let c0_216 : Index := 0#32
  let v6 : BitVec 32 := Dev.word d0
  let v7 : BitVec 32 := Scalar.divsi v6 c1_i32
  let c4_i32_1 : BitVec 32 := 4#32
  let v8 : BitVec 32 := Scalar.remsi v7 c4_i32_1
  let v300 : BitVec 32 := Scalar.addi v8 c1_i32_198
  let c4_i32_199 : BitVec 32 := 4#32
  let c0_i32_200 : BitVec 32 := 0#32
  let v301 : BitVec 1 := Scalar.cmpi .eq c4_i32_199 c0_i32_200
  let c1_i32_201 : BitVec 32 := 1#32
  let v302 : BitVec 32 := Scalar.select v301 c1_i32_201 c4_i32_199
  let v303 : BitVec 32 := Scalar.remsi v300 v302
  let c0_i32_203 : BitVec 32 := 0#32
  let v305 : BitVec 1 := Scalar.cmpi .slt v303 c0_i32_203
  let c0_i32_204 : BitVec 32 := 0#32
  let v306 : BitVec 1 := Scalar.cmpi .slt v302 c0_i32_204
  let v307 : BitVec 1 := Scalar.xori v305 v306
  let c0_i32_202 : BitVec 32 := 0#32
  let v304 : BitVec 1 := Scalar.cmpi .ne v303 c0_i32_202
  let v308 : BitVec 1 := Scalar.andi v307 v304
  let v309 : BitVec 32 := Scalar.addi v303 v302
  let v310 : BitVec 32 := Scalar.select v308 v309 v303
  let v323 : Index := Scalar.indexCast v310
  let c0_217 : Index := 0#32
  let c0_218 : Index := 0#32
  ![0, v323.toNat, 0, 0]
def k0_dev14 (d0 : Dev nD) : Nat :=
  let c0_i32_276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275 : BitVec 32 := 16#32
  let v399 : BitVec 32 := Scalar.muli v2 c16_i32_275
  let v400 : BitVec 32 := Scalar.addi c0_i32_276 v399
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_264 : BitVec 32 := 1#32
  let v388 : BitVec 32 := Scalar.addi v5 c1_i32_264
  let c4_i32_265 : BitVec 32 := 4#32
  let c0_i32_266 : BitVec 32 := 0#32
  let v389 : BitVec 1 := Scalar.cmpi .eq c4_i32_265 c0_i32_266
  let c1_i32_267 : BitVec 32 := 1#32
  let v390 : BitVec 32 := Scalar.select v389 c1_i32_267 c4_i32_265
  let v391 : BitVec 32 := Scalar.remsi v388 v390
  let c0_i32_269 : BitVec 32 := 0#32
  let v393 : BitVec 1 := Scalar.cmpi .slt v391 c0_i32_269
  let c0_i32_270 : BitVec 32 := 0#32
  let v394 : BitVec 1 := Scalar.cmpi .slt v390 c0_i32_270
  let v395 : BitVec 1 := Scalar.xori v393 v394
  let c0_i32_268 : BitVec 32 := 0#32
  let v392 : BitVec 1 := Scalar.cmpi .ne v391 c0_i32_268
  let v396 : BitVec 1 := Scalar.andi v395 v392
  let v397 : BitVec 32 := Scalar.addi v391 v390
  let v398 : BitVec 32 := Scalar.select v396 v397 v391
  let c4_i32_277 : BitVec 32 := 4#32
  let v401 : BitVec 32 := Scalar.muli v398 c4_i32_277
  let v402 : BitVec 32 := Scalar.addi v400 v401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v403 : BitVec 32 := Scalar.muli v8 c1_i32_278
  let v404 : BitVec 32 := Scalar.addi v402 v403
  v404.toNat
def k0_dev15 (d0 : Dev nD) : Nat :=
  let c0_i32_295 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_294 : BitVec 32 := 16#32
  let v424 : BitVec 32 := Scalar.muli v2 c16_i32_294
  let v425 : BitVec 32 := Scalar.addi c0_i32_295 v424
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_283 : BitVec 32 := 2#32
  let v413 : BitVec 32 := Scalar.addi v5 c2_i32_283
  let c4_i32_284 : BitVec 32 := 4#32
  let c0_i32_285 : BitVec 32 := 0#32
  let v414 : BitVec 1 := Scalar.cmpi .eq c4_i32_284 c0_i32_285
  let c1_i32_286 : BitVec 32 := 1#32
  let v415 : BitVec 32 := Scalar.select v414 c1_i32_286 c4_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c4_i32_296 : BitVec 32 := 4#32
  let v426 : BitVec 32 := Scalar.muli v423 c4_i32_296
  let v427 : BitVec 32 := Scalar.addi v425 v426
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v428 : BitVec 32 := Scalar.muli v8 c1_i32_297
  let v429 : BitVec 32 := Scalar.addi v427 v428
  v429.toNat
def k0_dev16 (d0 : Dev nD) : Nat :=
  let c0_i32_314 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_313 : BitVec 32 := 16#32
  let v449 : BitVec 32 := Scalar.muli v2 c16_i32_313
  let v450 : BitVec 32 := Scalar.addi c0_i32_314 v449
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_302 : BitVec 32 := 3#32
  let v438 : BitVec 32 := Scalar.addi v5 c3_i32_302
  let c4_i32_303 : BitVec 32 := 4#32
  let c0_i32_304 : BitVec 32 := 0#32
  let v439 : BitVec 1 := Scalar.cmpi .eq c4_i32_303 c0_i32_304
  let c1_i32_305 : BitVec 32 := 1#32
  let v440 : BitVec 32 := Scalar.select v439 c1_i32_305 c4_i32_303
  let v441 : BitVec 32 := Scalar.remsi v438 v440
  let c0_i32_307 : BitVec 32 := 0#32
  let v443 : BitVec 1 := Scalar.cmpi .slt v441 c0_i32_307
  let c0_i32_308 : BitVec 32 := 0#32
  let v444 : BitVec 1 := Scalar.cmpi .slt v440 c0_i32_308
  let v445 : BitVec 1 := Scalar.xori v443 v444
  let c0_i32_306 : BitVec 32 := 0#32
  let v442 : BitVec 1 := Scalar.cmpi .ne v441 c0_i32_306
  let v446 : BitVec 1 := Scalar.andi v445 v442
  let v447 : BitVec 32 := Scalar.addi v441 v440
  let v448 : BitVec 32 := Scalar.select v446 v447 v441
  let c4_i32_315 : BitVec 32 := 4#32
  let v451 : BitVec 32 := Scalar.muli v448 c4_i32_315
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v453 : BitVec 32 := Scalar.muli v8 c1_i32_316
  let v454 : BitVec 32 := Scalar.addi v452 v453
  v454.toNat
def k0_dev17 (d0 : Dev nD) : Nat :=
  let c0_i32_327 : BitVec 32 := 0#32
  let c1_i32_321 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v463 : BitVec 32 := Scalar.subi c1_i32_321 v2
  let c16_i32_326 : BitVec 32 := 16#32
  let v464 : BitVec 32 := Scalar.muli v463 c16_i32_326
  let v465 : BitVec 32 := Scalar.addi c0_i32_327 v464
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_328 : BitVec 32 := 4#32
  let v466 : BitVec 32 := Scalar.muli v5 c4_i32_328
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_329 : BitVec 32 := 1#32
  let v468 : BitVec 32 := Scalar.muli v8 c1_i32_329
  let v469 : BitVec 32 := Scalar.addi v467 v468
  v469.toNat
def k0_off14 (d0 : Dev nD) (c0_i32_335 : BitVec 32) : Fin 2 → Nat :=
  let c0_336 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_2 : BitVec 32 := 4#32
  let v9 : BitVec 32 := Scalar.muli v2 c4_i32_2
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v10 : BitVec 32 := Scalar.addi v9 v5
  let c512_i32_334 : BitVec 32 := 512#32
  let v478 : BitVec 32 := Scalar.muli v10 c512_i32_334
  let v479 : BitVec 32 := Scalar.addi v478 c0_i32_335
  let v480 : Index := Scalar.indexCast v479
  ![0, v480.toNat]
def k0_dev18 (d0 : Dev nD) : Nat :=
  let c0_i32_362 : BitVec 32 := 0#32
  let c1_i32_356 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v505 : BitVec 32 := Scalar.subi c1_i32_356 v2
  let c16_i32_361 : BitVec 32 := 16#32
  let v506 : BitVec 32 := Scalar.muli v505 c16_i32_361
  let v507 : BitVec 32 := Scalar.addi c0_i32_362 v506
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_363 : BitVec 32 := 4#32
  let v508 : BitVec 32 := Scalar.muli v5 c4_i32_363
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v510 : BitVec 32 := Scalar.muli v8 c1_i32_364
  let v511 : BitVec 32 := Scalar.addi v509 v510
  v511.toNat
def k0_off15 (d0 : Dev nD) (c1_i32_337 : BitVec 32) (c0_i32_374 : BitVec 32) : Fin 2 → Nat :=
  let c0_375 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4_i32_369 : BitVec 32 := 4#32
  let v520 : BitVec 32 := Scalar.muli v2 c4_i32_369
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v482 : BitVec 32 := Scalar.addi v5 c1_i32_337
  let c4_i32_338 : BitVec 32 := 4#32
  let c0_i32_339 : BitVec 32 := 0#32
  let v483 : BitVec 1 := Scalar.cmpi .eq c4_i32_338 c0_i32_339
  let c1_i32_340 : BitVec 32 := 1#32
  let v484 : BitVec 32 := Scalar.select v483 c1_i32_340 c4_i32_338
  let v485 : BitVec 32 := Scalar.remsi v482 v484
  let c0_i32_342 : BitVec 32 := 0#32
  let v487 : BitVec 1 := Scalar.cmpi .slt v485 c0_i32_342
  let c0_i32_343 : BitVec 32 := 0#32
  let v488 : BitVec 1 := Scalar.cmpi .slt v484 c0_i32_343
  let v489 : BitVec 1 := Scalar.xori v487 v488
  let c0_i32_341 : BitVec 32 := 0#32
  let v486 : BitVec 1 := Scalar.cmpi .ne v485 c0_i32_341
  let v490 : BitVec 1 := Scalar.andi v489 v486
  let v491 : BitVec 32 := Scalar.addi v485 v484
  let v492 : BitVec 32 := Scalar.select v490 v491 v485
  let v521 : BitVec 32 := Scalar.addi v520 v492
  let c512_i32_373 : BitVec 32 := 512#32
  let v526 : BitVec 32 := Scalar.muli v521 c512_i32_373
  let v527 : BitVec 32 := Scalar.addi v526 c0_i32_374
  let v528 : Index := Scalar.indexCast v527
  ![0, v528.toNat]
def k0_dev19 (d0 : Dev nD) : Nat :=
  let c0_i32_401 : BitVec 32 := 0#32
  let c1_i32_395 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v553 : BitVec 32 := Scalar.subi c1_i32_395 v2
  let c16_i32_400 : BitVec 32 := 16#32
  let v554 : BitVec 32 := Scalar.muli v553 c16_i32_400
  let v555 : BitVec 32 := Scalar.addi c0_i32_401 v554
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_402 : BitVec 32 := 4#32
  let v556 : BitVec 32 := Scalar.muli v5 c4_i32_402
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_403 : BitVec 32 := 1#32
  let v558 : BitVec 32 := Scalar.muli v8 c1_i32_403
  let v559 : BitVec 32 := Scalar.addi v557 v558
  v559.toNat
def k0_dev20 (d0 : Dev nD) : Nat :=
  let c0_i32_440 : BitVec 32 := 0#32
  let c1_i32_434 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v601 : BitVec 32 := Scalar.subi c1_i32_434 v2
  let c16_i32_439 : BitVec 32 := 16#32
  let v602 : BitVec 32 := Scalar.muli v601 c16_i32_439
  let v603 : BitVec 32 := Scalar.addi c0_i32_440 v602
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_441 : BitVec 32 := 4#32
  let v604 : BitVec 32 := Scalar.muli v5 c4_i32_441
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_442 : BitVec 32 := 1#32
  let v606 : BitVec 32 := Scalar.muli v8 c1_i32_442
  let v607 : BitVec 32 := Scalar.addi v605 v606
  v607.toNat
def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_454 : BitVec 32 := 256#32
  let v626 : BitVec 32 := Scalar.muli v8 c256_i32_454
  let v627 : Index := Scalar.indexCast v626
  let c256_455 : Index := 256#32
  ![v627.toNat, 256]
def k0_off17 (d0 : Dev nD) (c1_i32 : BitVec 32) (c1_i32_456 : BitVec 32) : Fin 4 → Nat :=
  let c1_i32_464 : BitVec 32 := 1#32
  let v6 : BitVec 32 := Dev.word d0
  let v7 : BitVec 32 := Scalar.divsi v6 c1_i32
  let c4_i32_1 : BitVec 32 := 4#32
  let v8 : BitVec 32 := Scalar.remsi v7 c4_i32_1
  let v630 : BitVec 32 := Scalar.addi v8 c1_i32_456
  let c4_i32_457 : BitVec 32 := 4#32
  let c0_i32_458 : BitVec 32 := 0#32
  let v631 : BitVec 1 := Scalar.cmpi .eq c4_i32_457 c0_i32_458
  let c1_i32_459 : BitVec 32 := 1#32
  let v632 : BitVec 32 := Scalar.select v631 c1_i32_459 c4_i32_457
  let v633 : BitVec 32 := Scalar.remsi v630 v632
  let c0_i32_461 : BitVec 32 := 0#32
  let v635 : BitVec 1 := Scalar.cmpi .slt v633 c0_i32_461
  let c0_i32_462 : BitVec 32 := 0#32
  let v636 : BitVec 1 := Scalar.cmpi .slt v632 c0_i32_462
  let v637 : BitVec 1 := Scalar.xori v635 v636
  let c0_i32_460 : BitVec 32 := 0#32
  let v634 : BitVec 1 := Scalar.cmpi .ne v633 c0_i32_460
  let v638 : BitVec 1 := Scalar.andi v637 v634
  let v639 : BitVec 32 := Scalar.addi v633 v632
  let v640 : BitVec 32 := Scalar.select v638 v639 v633
  let c0_i32_471 : BitVec 32 := 0#32
  let c0_i32_472 : BitVec 32 := 0#32
  ![1, v640.toNat, 0, 0]
def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_463 : BitVec 32 := 256#32
  let v641 : BitVec 32 := Scalar.muli v8 c256_i32_463
  let c256_i32_473 : BitVec 32 := 256#32
  ![v641.toNat, 256]
def k0_off19 (d0 : Dev nD) (c1_i32 : BitVec 32) (c1_i32_456 : BitVec 32) : Fin 4 → Nat :=
  let c1 : Index := 1#32
  let v6 : BitVec 32 := Dev.word d0
  let v7 : BitVec 32 := Scalar.divsi v6 c1_i32
  let c4_i32_1 : BitVec 32 := 4#32
  let v8 : BitVec 32 := Scalar.remsi v7 c4_i32_1
  let v630 : BitVec 32 := Scalar.addi v8 c1_i32_456
  let c4_i32_457 : BitVec 32 := 4#32
  let c0_i32_458 : BitVec 32 := 0#32
  let v631 : BitVec 1 := Scalar.cmpi .eq c4_i32_457 c0_i32_458
  let c1_i32_459 : BitVec 32 := 1#32
  let v632 : BitVec 32 := Scalar.select v631 c1_i32_459 c4_i32_457
  let v633 : BitVec 32 := Scalar.remsi v630 v632
  let c0_i32_461 : BitVec 32 := 0#32
  let v635 : BitVec 1 := Scalar.cmpi .slt v633 c0_i32_461
  let c0_i32_462 : BitVec 32 := 0#32
  let v636 : BitVec 1 := Scalar.cmpi .slt v632 c0_i32_462
  let v637 : BitVec 1 := Scalar.xori v635 v636
  let c0_i32_460 : BitVec 32 := 0#32
  let v634 : BitVec 1 := Scalar.cmpi .ne v633 c0_i32_460
  let v638 : BitVec 1 := Scalar.andi v637 v634
  let v639 : BitVec 32 := Scalar.addi v633 v632
  let v640 : BitVec 32 := Scalar.select v638 v639 v633
  let v653 : Index := Scalar.indexCast v640
  let c0_474 : Index := 0#32
  let c0_475 : Index := 0#32
  ![1, v653.toNat, 0, 0]
def k0_dev21 (d0 : Dev nD) : Nat :=
  let c0_i32_533 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_532 : BitVec 32 := 16#32
  let v729 : BitVec 32 := Scalar.muli v2 c16_i32_532
  let v730 : BitVec 32 := Scalar.addi c0_i32_533 v729
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_521 : BitVec 32 := 1#32
  let v718 : BitVec 32 := Scalar.addi v5 c1_i32_521
  let c4_i32_522 : BitVec 32 := 4#32
  let c0_i32_523 : BitVec 32 := 0#32
  let v719 : BitVec 1 := Scalar.cmpi .eq c4_i32_522 c0_i32_523
  let c1_i32_524 : BitVec 32 := 1#32
  let v720 : BitVec 32 := Scalar.select v719 c1_i32_524 c4_i32_522
  let v721 : BitVec 32 := Scalar.remsi v718 v720
  let c0_i32_526 : BitVec 32 := 0#32
  let v723 : BitVec 1 := Scalar.cmpi .slt v721 c0_i32_526
  let c0_i32_527 : BitVec 32 := 0#32
  let v724 : BitVec 1 := Scalar.cmpi .slt v720 c0_i32_527
  let v725 : BitVec 1 := Scalar.xori v723 v724
  let c0_i32_525 : BitVec 32 := 0#32
  let v722 : BitVec 1 := Scalar.cmpi .ne v721 c0_i32_525
  let v726 : BitVec 1 := Scalar.andi v725 v722
  let v727 : BitVec 32 := Scalar.addi v721 v720
  let v728 : BitVec 32 := Scalar.select v726 v727 v721
  let c4_i32_534 : BitVec 32 := 4#32
  let v731 : BitVec 32 := Scalar.muli v728 c4_i32_534
  let v732 : BitVec 32 := Scalar.addi v730 v731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_535 : BitVec 32 := 1#32
  let v733 : BitVec 32 := Scalar.muli v8 c1_i32_535
  let v734 : BitVec 32 := Scalar.addi v732 v733
  v734.toNat
def k0_dev22 (d0 : Dev nD) : Nat :=
  let c0_i32_552 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_551 : BitVec 32 := 16#32
  let v754 : BitVec 32 := Scalar.muli v2 c16_i32_551
  let v755 : BitVec 32 := Scalar.addi c0_i32_552 v754
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_540 : BitVec 32 := 2#32
  let v743 : BitVec 32 := Scalar.addi v5 c2_i32_540
  let c4_i32_541 : BitVec 32 := 4#32
  let c0_i32_542 : BitVec 32 := 0#32
  let v744 : BitVec 1 := Scalar.cmpi .eq c4_i32_541 c0_i32_542
  let c1_i32_543 : BitVec 32 := 1#32
  let v745 : BitVec 32 := Scalar.select v744 c1_i32_543 c4_i32_541
  let v746 : BitVec 32 := Scalar.remsi v743 v745
  let c0_i32_545 : BitVec 32 := 0#32
  let v748 : BitVec 1 := Scalar.cmpi .slt v746 c0_i32_545
  let c0_i32_546 : BitVec 32 := 0#32
  let v749 : BitVec 1 := Scalar.cmpi .slt v745 c0_i32_546
  let v750 : BitVec 1 := Scalar.xori v748 v749
  let c0_i32_544 : BitVec 32 := 0#32
  let v747 : BitVec 1 := Scalar.cmpi .ne v746 c0_i32_544
  let v751 : BitVec 1 := Scalar.andi v750 v747
  let v752 : BitVec 32 := Scalar.addi v746 v745
  let v753 : BitVec 32 := Scalar.select v751 v752 v746
  let c4_i32_553 : BitVec 32 := 4#32
  let v756 : BitVec 32 := Scalar.muli v753 c4_i32_553
  let v757 : BitVec 32 := Scalar.addi v755 v756
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_554 : BitVec 32 := 1#32
  let v758 : BitVec 32 := Scalar.muli v8 c1_i32_554
  let v759 : BitVec 32 := Scalar.addi v757 v758
  v759.toNat
def k0_dev23 (d0 : Dev nD) : Nat :=
  let c0_i32_571 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_570 : BitVec 32 := 16#32
  let v779 : BitVec 32 := Scalar.muli v2 c16_i32_570
  let v780 : BitVec 32 := Scalar.addi c0_i32_571 v779
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_559 : BitVec 32 := 3#32
  let v768 : BitVec 32 := Scalar.addi v5 c3_i32_559
  let c4_i32_560 : BitVec 32 := 4#32
  let c0_i32_561 : BitVec 32 := 0#32
  let v769 : BitVec 1 := Scalar.cmpi .eq c4_i32_560 c0_i32_561
  let c1_i32_562 : BitVec 32 := 1#32
  let v770 : BitVec 32 := Scalar.select v769 c1_i32_562 c4_i32_560
  let v771 : BitVec 32 := Scalar.remsi v768 v770
  let c0_i32_564 : BitVec 32 := 0#32
  let v773 : BitVec 1 := Scalar.cmpi .slt v771 c0_i32_564
  let c0_i32_565 : BitVec 32 := 0#32
  let v774 : BitVec 1 := Scalar.cmpi .slt v770 c0_i32_565
  let v775 : BitVec 1 := Scalar.xori v773 v774
  let c0_i32_563 : BitVec 32 := 0#32
  let v772 : BitVec 1 := Scalar.cmpi .ne v771 c0_i32_563
  let v776 : BitVec 1 := Scalar.andi v775 v772
  let v777 : BitVec 32 := Scalar.addi v771 v770
  let v778 : BitVec 32 := Scalar.select v776 v777 v771
  let c4_i32_572 : BitVec 32 := 4#32
  let v781 : BitVec 32 := Scalar.muli v778 c4_i32_572
  let v782 : BitVec 32 := Scalar.addi v780 v781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_573 : BitVec 32 := 1#32
  let v783 : BitVec 32 := Scalar.muli v8 c1_i32_573
  let v784 : BitVec 32 := Scalar.addi v782 v783
  v784.toNat
def k0_dev24 (d0 : Dev nD) : Nat :=
  let c0_i32_584 : BitVec 32 := 0#32
  let c1_i32_578 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v793 : BitVec 32 := Scalar.subi c1_i32_578 v2
  let c16_i32_583 : BitVec 32 := 16#32
  let v794 : BitVec 32 := Scalar.muli v793 c16_i32_583
  let v795 : BitVec 32 := Scalar.addi c0_i32_584 v794
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_585 : BitVec 32 := 4#32
  let v796 : BitVec 32 := Scalar.muli v5 c4_i32_585
  let v797 : BitVec 32 := Scalar.addi v795 v796
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_586 : BitVec 32 := 1#32
  let v798 : BitVec 32 := Scalar.muli v8 c1_i32_586
  let v799 : BitVec 32 := Scalar.addi v797 v798
  v799.toNat
def k0_off20 (d0 : Dev nD) (c0_i32_611 : BitVec 32) (c0_i32_617 : BitVec 32) : Fin 2 → Nat :=
  let c0_618 : Index := 0#32
  let c1_i32_609 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v824 : BitVec 32 := Scalar.subi c1_i32_609 v2
  let c4_i32_610 : BitVec 32 := 4#32
  let v825 : BitVec 32 := Scalar.muli v824 c4_i32_610
  let v826 : BitVec 32 := Scalar.addi v825 c0_i32_611
  let c512_i32_616 : BitVec 32 := 512#32
  let v830 : BitVec 32 := Scalar.muli v826 c512_i32_616
  let v831 : BitVec 32 := Scalar.addi v830 c0_i32_617
  let v832 : Index := Scalar.indexCast v831
  ![0, v832.toNat]
def k0_dev25 (d0 : Dev nD) : Nat :=
  let c0_i32_717 : BitVec 32 := 0#32
  let c1_i32_711 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v923 : BitVec 32 := Scalar.subi c1_i32_711 v2
  let c16_i32_716 : BitVec 32 := 16#32
  let v924 : BitVec 32 := Scalar.muli v923 c16_i32_716
  let v925 : BitVec 32 := Scalar.addi c0_i32_717 v924
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_718 : BitVec 32 := 4#32
  let v926 : BitVec 32 := Scalar.muli v5 c4_i32_718
  let v927 : BitVec 32 := Scalar.addi v925 v926
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_719 : BitVec 32 := 1#32
  let v928 : BitVec 32 := Scalar.muli v8 c1_i32_719
  let v929 : BitVec 32 := Scalar.addi v927 v928
  v929.toNat
def k0_dev26 (d0 : Dev nD) : Nat :=
  let c0_i32_756 : BitVec 32 := 0#32
  let c1_i32_750 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v971 : BitVec 32 := Scalar.subi c1_i32_750 v2
  let c16_i32_755 : BitVec 32 := 16#32
  let v972 : BitVec 32 := Scalar.muli v971 c16_i32_755
  let v973 : BitVec 32 := Scalar.addi c0_i32_756 v972
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_757 : BitVec 32 := 4#32
  let v974 : BitVec 32 := Scalar.muli v5 c4_i32_757
  let v975 : BitVec 32 := Scalar.addi v973 v974
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_758 : BitVec 32 := 1#32
  let v976 : BitVec 32 := Scalar.muli v8 c1_i32_758
  let v977 : BitVec 32 := Scalar.addi v975 v976
  v977.toNat
def k0_dev27 (d0 : Dev nD) : Nat :=
  let c0_i32_795 : BitVec 32 := 0#32
  let c1_i32_789 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v1019 : BitVec 32 := Scalar.subi c1_i32_789 v2
  let c16_i32_794 : BitVec 32 := 16#32
  let v1020 : BitVec 32 := Scalar.muli v1019 c16_i32_794
  let v1021 : BitVec 32 := Scalar.addi c0_i32_795 v1020
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_796 : BitVec 32 := 4#32
  let v1022 : BitVec 32 := Scalar.muli v5 c4_i32_796
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_797 : BitVec 32 := 1#32
  let v1024 : BitVec 32 := Scalar.muli v8 c1_i32_797
  let v1025 : BitVec 32 := Scalar.addi v1023 v1024
  v1025.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  h_S1024x256 : 0 < S1024x256.numel
  shapeCasts_S1024x256_S1024x256 : S1024x256.ShapeCasts S1024x256
  inb_S1024x512_S1024x256_0_0 : ∀ a, (![0, 0] : Fin 2 → Nat) a + S1024x256.size a ≤ S1024x512.size a
  packedbf16_S1024x512_S1024x256_0_0 : (Rect.unit (s := S1024x512) ![0, 0] S1024x256.size inb_S1024x512_S1024x256_0_0).PackedRows (EltTy.packing .bf16)
  inb_S1024x512_S1024x256_0_256 : ∀ a, (![0, 256] : Fin 2 → Nat) a + S1024x256.size a ≤ S1024x512.size a
  packedbf16_S1024x512_S1024x256_0_256 : (Rect.unit (s := S1024x512) ![0, 256] S1024x256.size inb_S1024x512_S1024x256_0_256).PackedRows (EltTy.packing .bf16)
  hamt_7 : (7#32 : BitVec 32).msb = false
  squeezes_S1x1_S_ : S1x1.Squeezes S_
  squeezes_S1x1x256x256_S256x256 : S1x1x256x256.Squeezes S256x256
  h_S256x256 : 0 < S256x256.numel
  h_S1x1x256x256 : 0 < S1x1x256x256.numel
  shapeCasts_S1x1x256x256_S256x256 : S1x1x256x256.ShapeCasts S256x256
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  shapeCasts_S256x256_S1x256x256 : S256x256.ShapeCasts S1x256x256
  packedbf16_S2x256x256_S1x256x256_0_0_0 : (Rect.unit (s := S2x256x256) ![0, 0, 0] S1x256x256.size inb_S2x256x256_S1x256x256_0_0_0).PackedRows (EltTy.packing .bf16)
  squeezes_S1x256x256_S256x256 : S1x256x256.Squeezes S256x256
  wordsbf16_S2x256x256_S1x256x256_0_0_0 : (Rect.unit (s := S2x256x256) ![0, 0, 0] S1x256x256.size inb_S2x256x256_S1x256x256_0_0_0).WholeWords (EltTy.packing .bf16)
  inb_S2x256x256_S1x256x256_1_0_0 : ∀ a, (![1, 0, 0] : Fin 3 → Nat) a + S1x256x256.size a ≤ S2x256x256.size a
  packedbf16_S2x256x256_S1x256x256_1_0_0 : (Rect.unit (s := S2x256x256) ![1, 0, 0] S1x256x256.size inb_S2x256x256_S1x256x256_1_0_0).PackedRows (EltTy.packing .bf16)
  wordsbf16_S2x256x256_S1x256x256_1_0_0 : (Rect.unit (s := S2x256x256) ![1, 0, 0] S1x256x256.size inb_S2x256x256_S1x256x256_1_0_0).WholeWords (EltTy.packing .bf16)
  inb_S2x4_S1x1_0_0 : ∀ a, (![0, 0] : Fin 2 → Nat) a + S1x1.size a ≤ S2x4.size a
  inb_S2x4x256x256_S1x1x256x256_0_0_0_0 : ∀ a, (![0, 0, 0, 0] : Fin 4 → Nat) a + S1x1x256x256.size a ≤ S2x4x256x256.size a
  wordsbf16_S2x4x256x256_S1x1x256x256_0_0_0_0 : (Rect.unit (s := S2x4x256x256) ![0, 0, 0, 0] S1x1x256x256.size inb_S2x4x256x256_S1x1x256x256_0_0_0_0).WholeWords (EltTy.packing .bf16)
  inb_S2x4_S1x1_0_1 : ∀ a, (![0, 1] : Fin 2 → Nat) a + S1x1.size a ≤ S2x4.size a
  inb_S2x4x256x256_S1x1x256x256_0_1_0_0 : ∀ a, (![0, 1, 0, 0] : Fin 4 → Nat) a + S1x1x256x256.size a ≤ S2x4x256x256.size a
  wordsbf16_S2x4x256x256_S1x1x256x256_0_1_0_0 : (Rect.unit (s := S2x4x256x256) ![0, 1, 0, 0] S1x1x256x256.size inb_S2x4x256x256_S1x1x256x256_0_1_0_0).WholeWords (EltTy.packing .bf16)
  inb_S2x4_S1x1_0_2 : ∀ a, (![0, 2] : Fin 2 → Nat) a + S1x1.size a ≤ S2x4.size a
  inb_S2x4x256x256_S1x1x256x256_0_2_0_0 : ∀ a, (![0, 2, 0, 0] : Fin 4 → Nat) a + S1x1x256x256.size a ≤ S2x4x256x256.size a
  wordsbf16_S2x4x256x256_S1x1x256x256_0_2_0_0 : (Rect.unit (s := S2x4x256x256) ![0, 2, 0, 0] S1x1x256x256.size inb_S2x4x256x256_S1x1x256x256_0_2_0_0).WholeWords (EltTy.packing .bf16)
  inb_S2x4_S1x1_0_3 : ∀ a, (![0, 3] : Fin 2 → Nat) a + S1x1.size a ≤ S2x4.size a
  inb_S2x4x256x256_S1x1x256x256_0_3_0_0 : ∀ a, (![0, 3, 0, 0] : Fin 4 → Nat) a + S1x1x256x256.size a ≤ S2x4x256x256.size a
  wordsbf16_S2x4x256x256_S1x1x256x256_0_3_0_0 : (Rect.unit (s := S2x4x256x256) ![0, 3, 0, 0] S1x1x256x256.size inb_S2x4x256x256_S1x1x256x256_0_3_0_0).WholeWords (EltTy.packing .bf16)
  inb_S2x4_S1x1_1_0 : ∀ a, (![1, 0] : Fin 2 → Nat) a + S1x1.size a ≤ S2x4.size a
  inb_S2x4x256x256_S1x1x256x256_1_0_0_0 : ∀ a, (![1, 0, 0, 0] : Fin 4 → Nat) a + S1x1x256x256.size a ≤ S2x4x256x256.size a
  wordsbf16_S2x4x256x256_S1x1x256x256_1_0_0_0 : (Rect.unit (s := S2x4x256x256) ![1, 0, 0, 0] S1x1x256x256.size inb_S2x4x256x256_S1x1x256x256_1_0_0_0).WholeWords (EltTy.packing .bf16)
  inb_S2x4_S1x1_1_1 : ∀ a, (![1, 1] : Fin 2 → Nat) a + S1x1.size a ≤ S2x4.size a
  inb_S2x4x256x256_S1x1x256x256_1_1_0_0 : ∀ a, (![1, 1, 0, 0] : Fin 4 → Nat) a + S1x1x256x256.size a ≤ S2x4x256x256.size a
  wordsbf16_S2x4x256x256_S1x1x256x256_1_1_0_0 : (Rect.unit (s := S2x4x256x256) ![1, 1, 0, 0] S1x1x256x256.size inb_S2x4x256x256_S1x1x256x256_1_1_0_0).WholeWords (EltTy.packing .bf16)
  inb_S2x4_S1x1_1_2 : ∀ a, (![1, 2] : Fin 2 → Nat) a + S1x1.size a ≤ S2x4.size a
  inb_S2x4x256x256_S1x1x256x256_1_2_0_0 : ∀ a, (![1, 2, 0, 0] : Fin 4 → Nat) a + S1x1x256x256.size a ≤ S2x4x256x256.size a
  wordsbf16_S2x4x256x256_S1x1x256x256_1_2_0_0 : (Rect.unit (s := S2x4x256x256) ![1, 2, 0, 0] S1x1x256x256.size inb_S2x4x256x256_S1x1x256x256_1_2_0_0).WholeWords (EltTy.packing .bf16)
  inb_S2x4_S1x1_1_3 : ∀ a, (![1, 3] : Fin 2 → Nat) a + S1x1.size a ≤ S2x4.size a
  inb_S2x4x256x256_S1x1x256x256_1_3_0_0 : ∀ a, (![1, 3, 0, 0] : Fin 4 → Nat) a + S1x1x256x256.size a ≤ S2x4x256x256.size a
  wordsbf16_S2x4x256x256_S1x1x256x256_1_3_0_0 : (Rect.unit (s := S2x4x256x256) ![1, 3, 0, 0] S1x1x256x256.size inb_S2x4x256x256_S1x1x256x256_1_3_0_0).WholeWords (EltTy.packing .bf16)
  dot_S1024x1024_S1024x256_S1024x256_0_0_1_1_n_n_wf : DotDims.WF S1024x1024 S1024x256 S1024x256 [0] [0] [1] [1] [] []
  hcc0_scratch5 : 3 + S2x4.numel ≤ 51
  hcc0_scratch6 : 11 + S2x4.numel ≤ 51
  hcc0_scratch7 : 19 + S2x4.numel ≤ 51
  hcc0_scratch8 : 27 + S2x4.numel ≤ 51
  hcc0_scratch9 : 35 + S2x4.numel ≤ 51
  hcc0_scratch10 : 43 + S2x4.numel ≤ 51
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 2), ∀ a, (k0_off1 d0 (BitVec.ofNat 32 (256 * r.val))) a + S1024x256.size a ≤ S1024x4096.size a
  k0_off2_inb : ∀ d0 : Dev nD, ∀ (r₁ : Fin 2) (r₂ : Fin 3), ∀ a, (k0_off2 d0 (BitVec.ofNat 32 (1 + 3 * r₁.val)) (BitVec.ofNat 32 (1 + r₂.val))) a + S1x1.size a ≤ S2x4.size a
  k0_off3_inb : ∀ d0 : Dev nD, ∀ (r : Fin 2), ∀ a, (k0_off3 d0 (BitVec.ofNat 32 (1 + 3 * r.val))) a + S1x1.size a ≤ S2x4.size a
  k0_off4_inb : ∀ d0 : Dev nD, ∀ (r : Fin 2), ∀ a, (k0_off4 d0 (BitVec.ofNat 32 (1 + 3 * r.val))) a + S1x1x256x256.size a ≤ S2x4x256x256.size a
  k0_off5_inb : ∀ d0 : Dev nD, ∀ (r : Fin 3), ∀ a, (k0_off5 d0 (BitVec.ofNat 32 (1 + r.val))) a + S256x256.size a ≤ S1024x512.size a
  k0_off5_wordsbf16 : ∀ d0 : Dev nD, ∀ (r : Fin 3), (Rect.unit (s := S1024x512) (k0_off5 d0 (BitVec.ofNat 32 (1 + r.val))) S256x256.size (k0_off5_inb d0 r)).WholeWords (EltTy.packing .bf16)
  k0_off4_wordsbf16 : ∀ d0 : Dev nD, ∀ (r : Fin 2), (Rect.unit (s := S2x4x256x256) (k0_off4 d0 (BitVec.ofNat 32 (1 + 3 * r.val))) S1x1x256x256.size (k0_off4_inb d0 r)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off6_inb : ∀ d0 : Dev nD, ∀ (r₁ : Fin 2) (r₂ : Fin 3), ∀ a, (k0_off6 d0 (BitVec.ofNat 32 (1 + 3 * r₁.val)) (BitVec.ofNat 32 (1 + r₂.val))) a + S1x1.size a ≤ S2x4.size a
  k0_off7_inb : ∀ d0 : Dev nD, ∀ (r : Fin 2), ∀ a, (k0_off7 d0 (BitVec.ofNat 32 (1 + 3 * r.val))) a + S1x1.size a ≤ S2x4.size a
  k0_off8_inb : ∀ d0 : Dev nD, ∀ (r : Fin 2), ∀ a, (k0_off8 d0 (BitVec.ofNat 32 (1 + 3 * r.val))) a + S1x1x256x256.size a ≤ S2x4x256x256.size a
  k0_off9_inb : ∀ d0 : Dev nD, ∀ (r : Fin 3), ∀ a, (k0_off9 d0 (BitVec.ofNat 32 (1 + r.val))) a + S256x256.size a ≤ S1024x512.size a
  k0_off9_wordsbf16 : ∀ d0 : Dev nD, ∀ (r : Fin 3), (Rect.unit (s := S1024x512) (k0_off9 d0 (BitVec.ofNat 32 (1 + r.val))) S256x256.size (k0_off9_inb d0 r)).WholeWords (EltTy.packing .bf16)
  k0_off8_wordsbf16 : ∀ d0 : Dev nD, ∀ (r : Fin 2), (Rect.unit (s := S2x4x256x256) (k0_off8 d0 (BitVec.ofNat 32 (1 + 3 * r.val))) S1x1x256x256.size (k0_off8_inb d0 r)).WholeWords (EltTy.packing .bf16)
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_off10_inb : ∀ d0 : Dev nD, ∀ a, (k0_off10 d0) a + S256x256.size a ≤ S1024x512.size a
  k0_off11_inb : ∀ d0 : Dev nD, ∀ (r₁ : Fin 2) (r₂ : Fin 3), ∀ a, (k0_off11 d0 (BitVec.ofNat 32 (1 + 3 * r₁.val)) (BitVec.ofNat 32 (1 + r₂.val))) a + S1x1x256x256.size a ≤ S2x4x256x256.size a
  k0_off12_inb : ∀ d0 : Dev nD, ∀ a, (k0_off12 d0) a + S256x256.size a ≤ S1024x512.size a
  k0_off12_wordsbf16 : ∀ d0 : Dev nD, (Rect.unit (s := S1024x512) (k0_off12 d0) S256x256.size (k0_off12_inb d0)).WholeWords (EltTy.packing .bf16)
  k0_off11_wordsbf16 : ∀ d0 : Dev nD, ∀ (r₁ : Fin 2) (r₂ : Fin 3), (Rect.unit (s := S2x4x256x256) (k0_off11 d0 (BitVec.ofNat 32 (1 + 3 * r₁.val)) (BitVec.ofNat 32 (1 + r₂.val))) S1x1x256x256.size (k0_off11_inb d0 r₁ r₂)).WholeWords (EltTy.packing .bf16)
  k0_off13_inb : ∀ d0 : Dev nD, ∀ (r₁ : Fin 2) (r₂ : Fin 3), ∀ a, (k0_off13 d0 (BitVec.ofNat 32 (1 + 3 * r₁.val)) (BitVec.ofNat 32 (1 + r₂.val))) a + S1x1x256x256.size a ≤ S2x4x256x256.size a
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_off14_inb : ∀ d0 : Dev nD, ∀ (r : Fin 2), ∀ a, (k0_off14 d0 (BitVec.ofNat 32 (256 * r.val))) a + S256x256.size a ≤ S256x4096.size a
  k0_dev18_lt : ∀ d0 : Dev nD, (k0_dev18 d0) < nD
  k0_off15_inb : ∀ d0 : Dev nD, ∀ (r₁ : Fin 3) (r₂ : Fin 2), ∀ a, (k0_off15 d0 (BitVec.ofNat 32 (1 + r₁.val)) (BitVec.ofNat 32 (256 * r₂.val))) a + S256x256.size a ≤ S256x4096.size a
  k0_dev19_lt : ∀ d0 : Dev nD, (k0_dev19 d0) < nD
  k0_dev20_lt : ∀ d0 : Dev nD, (k0_dev20 d0) < nD
  k0_off16_inb : ∀ d0 : Dev nD, ∀ a, (k0_off16 d0) a + S256x256.size a ≤ S1024x512.size a
  k0_off17_inb : ∀ d0 : Dev nD, ∀ (r₁ : Fin 2) (r₂ : Fin 3), ∀ a, (k0_off17 d0 (BitVec.ofNat 32 (1 + 3 * r₁.val)) (BitVec.ofNat 32 (1 + r₂.val))) a + S1x1x256x256.size a ≤ S2x4x256x256.size a
  k0_off18_inb : ∀ d0 : Dev nD, ∀ a, (k0_off18 d0) a + S256x256.size a ≤ S1024x512.size a
  k0_off18_wordsbf16 : ∀ d0 : Dev nD, (Rect.unit (s := S1024x512) (k0_off18 d0) S256x256.size (k0_off18_inb d0)).WholeWords (EltTy.packing .bf16)
  k0_off17_wordsbf16 : ∀ d0 : Dev nD, ∀ (r₁ : Fin 2) (r₂ : Fin 3), (Rect.unit (s := S2x4x256x256) (k0_off17 d0 (BitVec.ofNat 32 (1 + 3 * r₁.val)) (BitVec.ofNat 32 (1 + r₂.val))) S1x1x256x256.size (k0_off17_inb d0 r₁ r₂)).WholeWords (EltTy.packing .bf16)
  k0_off19_inb : ∀ d0 : Dev nD, ∀ (r₁ : Fin 2) (r₂ : Fin 3), ∀ a, (k0_off19 d0 (BitVec.ofNat 32 (1 + 3 * r₁.val)) (BitVec.ofNat 32 (1 + r₂.val))) a + S1x1x256x256.size a ≤ S2x4x256x256.size a
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_off20_inb : ∀ d0 : Dev nD, ∀ (r₁ : Fin 4) (r₂ : Fin 2), ∀ a, (k0_off20 d0 (BitVec.ofNat 32 r₁.val) (BitVec.ofNat 32 (256 * r₂.val))) a + S256x256.size a ≤ S256x4096.size a
  k0_dev25_lt : ∀ d0 : Dev nD, (k0_dev25 d0) < nD
  k0_dev26_lt : ∀ d0 : Dev nD, (k0_dev26 d0) < nD
  k0_dev27_lt : ∀ d0 : Dev nD, (k0_dev27 d0) < nD
  hstage0_0 : ∀ j, (stage0_0 j).IsWhole
  hstage0_1 : ∀ j, (stage0_1 j).IsWhole
  hstage0_2 : ∀ j, (stage0_2 j).IsWhole

variable [Facts₀]

abbrev cc0_scratch5 : DmaSems sig S2x4 := SemArray.consecutive 3 S2x4 hcc0_scratch5
abbrev cc0_scratch6 : DmaSems sig S2x4 := SemArray.consecutive 11 S2x4 hcc0_scratch6
abbrev cc0_scratch7 : DmaSems sig S2x4 := SemArray.consecutive 19 S2x4 hcc0_scratch7
abbrev cc0_scratch8 : DmaSems sig S2x4 := SemArray.consecutive 27 S2x4 hcc0_scratch8
abbrev cc0_scratch9 : DmaSems sig S2x4 := SemArray.consecutive 35 S2x4 hcc0_scratch9
abbrev cc0_scratch10 : DmaSems sig S2x4 := SemArray.consecutive 43 S2x4 hcc0_scratch10
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S4096x1024_S1024x4096_1_0 : S4096x1024.Transposes [1, 0] S1024x4096
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.RefAlgebra.lean ====
import Idealize.ShloMosaic.Lib.ValueIdx
import Idealize.ShloMosaic.Lib.Layout
import Idealize.ShloMosaic.Signature.Static
import Idealize.ShloMosaic.PureOps.Ideal
import Mathlib.Algebra.BigOperators.Fin
import Mathlib.Logic.Equiv.Fin.Basic
import Mathlib.Tactic.Abel
import Mathlib.Tactic.FinCases

/-!
  The reference's value as one function of the two whole arrays, and the pure facts that join it to
  the blocks the devices of the 2 × 4 × 4 mesh hold.

  The whole arrays are `X : [4096, 1024]` and `Y : [4096, 4096]`; the result is `Xᵀ · Y : [1024, 4096]`,
  entry `(i, j)` being `∑ k, X (k, i) * Y (k, j)`. Both arguments are cut along their rows into four
  blocks of 1024 rows, the result along its rows into four blocks of 256 rows, and a device holds the
  block its coordinate on the mesh's last axis names: `c % 4` for device `c`.

  Splitting the contraction index `k = 1024 · z + k'` writes every entry of the result as the sum over
  the four blocks `z` of the block products: only commutativity and associativity of `+` on the
  extended reals are used, so nothing here needs the entries to be finite.
-/

open scoped BigOperators
open Idealize.ShloMosaic Idealize.ShloMosaic.ValueIdx

noncomputable section

namespace Cert.RefValue

/-! ## The specification -/

/-- `Xᵀ · Y`, entry by entry. -/
def refSpec (X : (⟨2, ![4096, 1024]⟩ : Shape).Idx → EReal) (Y : (⟨2, ![4096, 4096]⟩ : Shape).Idx → EReal) :
    (⟨2, ![1024, 4096]⟩ : Shape).Idx → EReal :=
  fun i => ∑ k : Fin 4096, X (ix2 k (i 0 : Fin 1024)) * Y (ix2 k (i 1 : Fin 4096))

theorem refSpec_apply (X : (⟨2, ![4096, 1024]⟩ : Shape).Idx → EReal) (Y : (⟨2, ![4096, 4096]⟩ : Shape).Idx → EReal)
    (i : Fin 1024) (j : Fin 4096) :
    refSpec X Y (ix2 i j) = ∑ k : Fin 4096, X (ix2 k i) * Y (ix2 k j) := rfl

/-! ## Which block a device holds -/

/-- Device `c`'s coordinate on the last axis of the 2 × 4 × 4 mesh is `c % 4`. -/
theorem meshLin_z (c : Nat) : Layout.meshLin [2, 4, 4] c [2] = c % 4 := by
  simp [Layout.meshLin, Layout.meshCoord, Layout.cutSize]

/-- A dimension that is not cut is one block. -/
theorem meshLin_nil (c : Nat) : Layout.meshLin [2, 4, 4] c [] = 0 := rfl

/-- Row `k` of device `c`'s block of `X` is row `1024 · (c % 4) + k` of `X`. -/
theorem blk_x {α : Type} (c : Dev 32) (X : (⟨2, ![4096, 1024]⟩ : Shape).Idx → α) (k i : Fin 1024) :
    (Layout.blockN ⟨2, ![1024, 1024]⟩ ⟨2, ![4096, 1024]⟩ (Layout.meshBlock [2, 4, 4] ![[2], []] c) X) (ix2 k i)
      = X (ix2 (⟨1024 * (c.val % 4) + k.val, by omega⟩ : Fin 4096) i) := by
  rw [Layout.blockN_apply]
  congr 1
  funext b
  match b with
  | ⟨0, _⟩ =>
    refine Fin.ext ?_
    show Layout.meshLin [2, 4, 4] c.val [2] * 1024 + k.val = 1024 * (c.val % 4) + k.val
    rw [meshLin_z]; omega
  | ⟨1, _⟩ =>
    refine Fin.ext ?_
    show Layout.meshLin [2, 4, 4] c.val [] * 1024 + i.val = i.val
    rw [meshLin_nil]; omega

/-- Row `k` of device `c`'s block of `Y` is row `1024 · (c % 4) + k` of `Y`. -/
theorem blk_y {α : Type} (c : Dev 32) (Y : (⟨2, ![4096, 4096]⟩ : Shape).Idx → α) (k : Fin 1024) (j : Fin 4096) :
    (Layout.blockN ⟨2, ![1024, 4096]⟩ ⟨2, ![4096, 4096]⟩ (Layout.meshBlock [2, 4, 4] ![[2], []] c) Y) (ix2 k j)
      = Y (ix2 (⟨1024 * (c.val % 4) + k.val, by omega⟩ : Fin 4096) j) := by
  rw [Layout.blockN_apply]
  congr 1
  funext b
  match b with
  | ⟨0, _⟩ =>
    refine Fin.ext ?_
    show Layout.meshLin [2, 4, 4] c.val [2] * 1024 + k.val = 1024 * (c.val % 4) + k.val
    rw [meshLin_z]; omega
  | ⟨1, _⟩ =>
    refine Fin.ext ?_
    show Layout.meshLin [2, 4, 4] c.val [] * 4096 + j.val = j.val
    rw [meshLin_nil]; omega

/-- Row `r` of device `c`'s block of the result is row `256 · (c % 4) + r` of the result. -/
theorem blk_out {α : Type} (c : Dev 32) (v : (⟨2, ![1024, 4096]⟩ : Shape).Idx → α) (r : Fin 256) (col : Fin 4096) :
    (Layout.blockN ⟨2, ![256, 4096]⟩ ⟨2, ![1024, 4096]⟩ (Layout.meshBlock [2, 4, 4] ![[2], []] c) v) (ix2 r col)
      = v (ix2 (⟨256 * (c.val % 4) + r.val, by omega⟩ : Fin 1024) col) := by
  rw [Layout.blockN_apply]
  congr 1
  funext b
  match b with
  | ⟨0, _⟩ =>
    refine Fin.ext ?_
    show Layout.meshLin [2, 4, 4] c.val [2] * 256 + r.val = 256 * (c.val % 4) + r.val
    rw [meshLin_z]; omega
  | ⟨1, _⟩ =>
    refine Fin.ext ?_
    show Layout.meshLin [2, 4, 4] c.val [] * 4096 + col.val = col.val
    rw [meshLin_nil]; omega

/-! ## Regrouping the contraction -/

/-- A sum over 4096 indices is the sum over four stretches of 1024. -/
theorem sum_split {M : Type*} [AddCommMonoid M] (f : Fin 4096 → M) :
    ∑ k : Fin 4096, f k = ∑ z : Fin 4, ∑ k : Fin 1024, f ⟨1024 * z.val + k.val, by omega⟩ := by
  refine (Equiv.sum_comp (finProdFinEquiv (m := 4) (n := 1024)) f).symm.trans ?_
  rw [Fintype.sum_prod_type]
  refine Finset.sum_congr rfl fun z _ => Finset.sum_congr rfl fun k _ => ?_
  congr 1
  refine Fin.ext ?_
  show k.val + 1024 * z.val = 1024 * z.val + k.val
  omega

/-- Entry `(256 · (c % 4) + r, col)` of `Xᵀ · Y` — entry `(r, col)` of device `c`'s block of the result — is the
    sum over the four row blocks `z` of the products of the blocks, block `z` read from ANY device `d z`
    whose last mesh coordinate is `z`. -/
theorem spec_by_blocks_of (X : (⟨2, ![4096, 1024]⟩ : Shape).Idx → EReal) (Y : (⟨2, ![4096, 4096]⟩ : Shape).Idx → EReal)
    (d : Fin 4 → Dev 32) (hd : ∀ z, (d z).val % 4 = z.val) (c : Dev 32) (r : Fin 256) (col : Fin 4096) :
    refSpec X Y (ix2 (⟨256 * (c.val % 4) + r.val, by omega⟩ : Fin 1024) col)
      = ∑ z : Fin 4, ∑ k : Fin 1024,
          (Layout.blockN ⟨2, ![1024, 1024]⟩ ⟨2, ![4096, 1024]⟩ (Layout.meshBlock [2, 4, 4] ![[2], []] (d z)) X)
              (ix2 k (⟨256 * (c.val % 4) + r.val, by omega⟩ : Fin 1024))
            * (Layout.blockN ⟨2, ![1024, 4096]⟩ ⟨2, ![4096, 4096]⟩ (Layout.meshBlock [2, 4, 4] ![[2], []] (d z)) Y)
              (ix2 k col) := by
  rw [refSpec_apply, sum_split]
  refine Finset.sum_congr rfl fun z _ => Finset.sum_congr rfl fun k _ => ?_
  rw [blk_x, blk_y]
  simp only [hd z]

/-- The same with block `z` read from the device at mesh coordinates `(x, y, z)`, for any `x` and `y`. -/
theorem spec_by_blocks (X : (⟨2, ![4096, 1024]⟩ : Shape).Idx → EReal) (Y : (⟨2, ![4096, 4096]⟩ : Shape).Idx → EReal)
    (x : Fin 2) (y : Fin 4) (c : Dev 32) (r : Fin 256) (col : Fin 4096) :
    refSpec X Y (ix2 (⟨256 * (c.val % 4) + r.val, by omega⟩ : Fin 1024) col)
      = ∑ z : Fin 4, ∑ k : Fin 1024,
          (Layout.blockN ⟨2, ![1024, 1024]⟩ ⟨2, ![4096, 1024]⟩
              (Layout.meshBlock [2, 4, 4] ![[2], []] (⟨16 * x.val + 4 * y.val + z.val, by omega⟩ : Dev 32)) X)
              (ix2 k (⟨256 * (c.val % 4) + r.val, by omega⟩ : Fin 1024))
            * (Layout.blockN ⟨2, ![1024, 4096]⟩ ⟨2, ![4096, 4096]⟩
              (Layout.meshBlock [2, 4, 4] ![[2], []] (⟨16 * x.val + 4 * y.val + z.val, by omega⟩ : Dev 32)) Y)
              (ix2 k col) :=
  spec_by_blocks_of X Y (fun z => ⟨16 * x.val + 4 * y.val + z.val, by omega⟩)
    (fun z => by show (16 * x.val + 4 * y.val + z.val) % 4 = z.val; omega) c r col

/-! ## The four blocks in ring order -/

/-- The four blocks summed in ring order from any starting block, grouped from the left, are the sum over the blocks. -/
theorem sum_ring4 {M : Type*} [AddCommMonoid M] (f : Fin 4 → M) (z0 : Fin 4) :
    f z0 + f (z0 + 1) + f (z0 + 2) + f (z0 + 3) = ∑ z : Fin 4, f z := by
  rw [Fin.sum_univ_four]
  fin_cases z0
  · show f 0 + f 1 + f 2 + f 3 = f 0 + f 1 + f 2 + f 3
    rfl
  · show f 1 + f 2 + f 3 + f 0 = f 0 + f 1 + f 2 + f 3
    abel
  · show f 2 + f 3 + f 0 + f 1 = f 0 + f 1 + f 2 + f 3
    abel
  · show f 3 + f 0 + f 1 + f 2 = f 0 + f 1 + f 2 + f 3
    abel

/-- The same over block numbers written as naturals modulo four. -/
theorem sum_ring4_nat {M : Type*} [AddCommMonoid M] (g : ℕ → M) (z0 : ℕ) (h : z0 < 4) :
    g z0 + g ((z0 + 1) % 4) + g ((z0 + 2) % 4) + g ((z0 + 3) % 4) = g 0 + g 1 + g 2 + g 3 := by
  obtain rfl | rfl | rfl | rfl : z0 = 0 ∨ z0 = 1 ∨ z0 = 2 ∨ z0 = 3 := by omega
  · show g 0 + g 1 + g 2 + g 3 = g 0 + g 1 + g 2 + g 3
    rfl
  · show g 1 + g 2 + g 3 + g 0 = g 0 + g 1 + g 2 + g 3
    abel
  · show g 2 + g 3 + g 0 + g 1 = g 0 + g 1 + g 2 + g 3
    abel
  · show g 3 + g 0 + g 1 + g 2 = g 0 + g 1 + g 2 + g 3
    abel

/-- info: 'Cert.RefValue.spec_by_blocks' depends on axioms: [propext, Classical.choice, Quot.sound] -/
#guard_msgs in #print axioms spec_by_blocks

end Cert.RefValue

end
-- ==== Proof.RefValue.lean ====
import proofs.«901051_g7700000000001052_dist_rsdw_v7x_xyz2x4x4_z_m1024_d1024_f4096_bf16_1_alg».proof.Defs
import proofs.«901051_g7700000000001052_dist_rsdw_v7x_xyz2x4x4_z_m1024_d1024_f4096_bf16_1_alg».proof.Proof.Gen.ReferenceIdeal.Run
import proofs.«901051_g7700000000001052_dist_rsdw_v7x_xyz2x4x4_z_m1024_d1024_f4096_bf16_1_alg».proof.Proof.Gen.ReferenceIdeal.Read
import proofs.«901051_g7700000000001052_dist_rsdw_v7x_xyz2x4x4_z_m1024_d1024_f4096_bf16_1_alg».proof.Proof.RefAlgebra
import Idealize.ShloMosaic.Lib.ValueIdx
import Idealize.ShloMosaic.Lib.Pipeline.Value
import Idealize.ShloMosaic.PureOps.Ideal.Laws
import Idealize.ShloMosaic.Lib.Layout

/-!
  The reference side. The reference transposes `X` and contracts the transpose with `Y` over the 4096
  rows: entry `(i, j)` of its result is `∑ k, X (k, i) * Y (k, j)`, the function `refSpec`. Its run
  leaves that function in the result buffer and both arguments as they were.
-/

open scoped BigOperators
open Idealize.ShloMosaic Idealize.SL.Sem Idealize.ShloMosaic.ValueIdx

noncomputable section

namespace Cert.RefValue

/-- The reference runs to the end, faults nowhere and leaves its arguments unchanged: its run with the
    result's value dropped. -/
theorem ref_frame [hReferenceIdeal : Cert.ReferenceIdeal.Facts]
    [hPre_finite_inputs_ReferenceIdeal : Cert.Pre_finite_inputs_ReferenceIdeal.Facts] :
    Cert.frame_ReferenceIdeal :=
  fun m ρ _ => (θ_run Cert.ReferenceIdeal.defs _ _).mono (fun _ h c => (h c).2)
    (Cert.ReferenceIdeal.Value.run (F := Ideal) m ρ)

/-- The transpose read at the contraction's left index is `X` at `(k, i 0)`. -/
theorem lidx_eq (i : Cert.ReferenceIdeal.S1024x4096.Idx) (k : Fin 4096) :
    Cert.ReferenceIdeal.Read.idx_main_v0 (Cert.ReferenceIdeal.Read.lidx_main_v1 i k) = ix2 k (i 0 : Fin 1024) :=
  funext fun a => Fin.ext (by match a with | ⟨0, _⟩ => rfl | ⟨1, _⟩ => rfl)

/-- The contraction's right index is `(k, i 1)`. -/
theorem ridx_eq (i : Cert.ReferenceIdeal.S1024x4096.Idx) (k : Fin 4096) :
    Cert.ReferenceIdeal.Read.ridx_main_v1 i k = ix2 k (i 1 : Fin 4096) :=
  funext fun a => Fin.ext (by match a with | ⟨0, _⟩ => rfl | ⟨1, _⟩ => rfl)

/-- The reference's composed term is `refSpec` of its two arguments. -/
theorem ref_is_spec
    (x0 : (⟨Cert.ReferenceIdeal.S4096x1024, .f32⟩ : BufTy).Contents (Elt Ideal))
    (x1 : (⟨Cert.ReferenceIdeal.S4096x4096, .f32⟩ : BufTy).Contents (Elt Ideal)) :
    Cert.ReferenceIdeal.Read.val_main_v1 (F := Ideal) x0 x1 = refSpec x0 x1 := by
  funext i
  rw [Cert.ReferenceIdeal.Read.val_main_v1_apply]
  show _ = ∑ k : Fin 4096, x0 (ix2 k (i 0 : Fin 1024)) * x1 (ix2 k (i 1 : Fin 4096))
  refine Finset.sum_congr rfl fun k _ => ?_
  rw [Cert.ReferenceIdeal.Read.val_main_v0_apply, lidx_eq, ridx_eq] <;> rfl

/-- From any memory, the reference ends with `refSpec` of its two argument arrays in its result and the
    arguments unchanged. -/
theorem ref_run [hReferenceIdeal : Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1)
              = refSpec (m' (((0 : Dev Cert.ReferenceIdeal.nD).tc : Thread Cert.ReferenceIdeal.nD Cert.ReferenceIdeal.τ).loc Cert.ReferenceIdeal.main_arg0))
                  (m' (((0 : Dev Cert.ReferenceIdeal.nD).tc : Thread Cert.ReferenceIdeal.nD Cert.ReferenceIdeal.τ).loc Cert.ReferenceIdeal.main_arg1))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans ((Cert.ReferenceIdeal.Read.val_main_v1_eq _ _).trans (ref_is_spec _ _)), (h 0).2⟩)
    (Cert.ReferenceIdeal.Value.run (F := Ideal) m' g')

/-- info: 'Cert.RefValue.ref_run' depends on axioms: [propext, Classical.choice, Quot.sound] -/
#guard_msgs in #print axioms ref_run

end Cert.RefValue

end
-- ==== Proof.Mesh.lean ====
/- The mesh of thirty-two devices as 2 × 4 × 4: a device's three coordinates, its peers along each axis,
   and the closed forms of the device ids and slice offsets the kernel computes from its own position. -/
import proofs.«901051_g7700000000001052_dist_rsdw_v7x_xyz2x4x4_z_m1024_d1024_f4096_bf16_1_alg».proof.Proof.Gen.KernelIdeal

noncomputable section

namespace Cert.KernelIdeal.Mesh

open Cert.KernelIdeal Cert.KernelIdeal.Gen Idealize.ShloMosaic

/-- The x, y and z coordinates of device `c` = 16 x + 4 y + z. -/
def xc (c : Dev nD) : ℕ := c.val / 16
def yc (c : Dev nD) : ℕ := (c.val / 4) % 4
def zc (c : Dev nD) : ℕ := c.val % 4

theorem xc_lt (c : Dev nD) : xc c < 2 := by unfold xc; have : c.val < 32 := c.isLt; omega
theorem yc_lt (c : Dev nD) : yc c < 4 := by unfold yc; omega
theorem zc_lt (c : Dev nD) : zc c < 4 := by unfold zc; omega
theorem val_eq (c : Dev nD) : c.val = 16 * xc c + 4 * yc c + zc c := by unfold xc yc zc; omega

/-- The device `d` steps further along the z axis (cyclically), same x and y. -/
def zP (c : Dev nD) (d : ℕ) : Dev nD := ⟨16 * xc c + 4 * yc c + (zc c + d) % 4, by have := xc_lt c; have := yc_lt c; show _ < 32; omega⟩
/-- The device `d` steps further along the y axis (cyclically), same x and z. -/
def yP (c : Dev nD) (d : ℕ) : Dev nD := ⟨16 * xc c + 4 * ((yc c + d) % 4) + zc c, by have := xc_lt c; have := zc_lt c; show _ < 32; omega⟩
/-- The other device along the x axis, same y and z. -/
def xP (c : Dev nD) : Dev nD := ⟨16 * (1 - xc c) + 4 * yc c + zc c, by have := yc_lt c; have := zc_lt c; show _ < 32; omega⟩

theorem zP_zP (c : Dev nD) : ∀ d : Fin 4, zP (zP c d.val) (4 - d.val) = c := by revert c; decide
theorem yP_yP (c : Dev nD) : ∀ d : Fin 4, yP (yP c d.val) (4 - d.val) = c := by revert c; decide
theorem xP_xP (c : Dev nD) : xP (xP c) = c := by revert c; decide
theorem zc_zP (c : Dev nD) (d : ℕ) : zc (zP c d) = (zc c + d) % 4 := by have := xc_lt c; have := yc_lt c; have := zc_lt c; show (16 * xc c + 4 * yc c + (zc c + d) % 4) % 4 = _; omega
theorem yc_zP (c : Dev nD) (d : ℕ) : yc (zP c d) = yc c := by have := xc_lt c; have := yc_lt c; have := zc_lt c; show ((16 * xc c + 4 * yc c + (zc c + d) % 4) / 4) % 4 = _; omega
theorem xc_zP (c : Dev nD) (d : ℕ) : xc (zP c d) = xc c := by have := xc_lt c; have := yc_lt c; have := zc_lt c; show (16 * xc c + 4 * yc c + (zc c + d) % 4) / 16 = _; omega
theorem zc_yP (c : Dev nD) (d : ℕ) : zc (yP c d) = zc c := by have := xc_lt c; have := yc_lt c; have := zc_lt c; show (16 * xc c + 4 * ((yc c + d) % 4) + zc c) % 4 = _; omega
theorem yc_yP (c : Dev nD) (d : ℕ) : yc (yP c d) = (yc c + d) % 4 := by have := xc_lt c; have := yc_lt c; have := zc_lt c; show ((16 * xc c + 4 * ((yc c + d) % 4) + zc c) / 4) % 4 = _; omega
theorem xc_yP (c : Dev nD) (d : ℕ) : xc (yP c d) = xc c := by have := xc_lt c; have := yc_lt c; have := zc_lt c; show (16 * xc c + 4 * ((yc c + d) % 4) + zc c) / 16 = _; omega
theorem zc_xP (c : Dev nD) : zc (xP c) = zc c := by have := xc_lt c; have := yc_lt c; have := zc_lt c; show (16 * (1 - xc c) + 4 * yc c + zc c) % 4 = _; omega
theorem yc_xP (c : Dev nD) : yc (xP c) = yc c := by have := xc_lt c; have := yc_lt c; have := zc_lt c; show ((16 * (1 - xc c) + 4 * yc c + zc c) / 4) % 4 = _; omega
theorem xc_xP (c : Dev nD) : xc (xP c) = 1 - xc c := by have := xc_lt c; have := yc_lt c; have := zc_lt c; show (16 * (1 - xc c) + 4 * yc c + zc c) / 16 = _; omega

/-! ## The device ids the kernel computes -/

theorem dev1_eq : ∀ c : Dev nD, (⟨k0_dev1 c, k0_dev1_lt c⟩ : Dev nD) = zP c 1 := by decide +kernel
theorem dev2_eq : ∀ c : Dev nD, (⟨k0_dev2 c, k0_dev2_lt c⟩ : Dev nD) = zP c 2 := by decide +kernel
theorem dev3_eq : ∀ c : Dev nD, (⟨k0_dev3 c, k0_dev3_lt c⟩ : Dev nD) = zP c 3 := by decide +kernel
theorem dev4_eq : ∀ c : Dev nD, (⟨k0_dev4 c, k0_dev4_lt c⟩ : Dev nD) = yP c 1 := by decide +kernel
theorem dev5_eq : ∀ c : Dev nD, (⟨k0_dev5 c, k0_dev5_lt c⟩ : Dev nD) = yP c 2 := by decide +kernel
theorem dev6_eq : ∀ c : Dev nD, (⟨k0_dev6 c, k0_dev6_lt c⟩ : Dev nD) = yP c 3 := by decide +kernel
theorem dev7_eq : ∀ c : Dev nD, (⟨k0_dev7 c, k0_dev7_lt c⟩ : Dev nD) = xP c := by decide +kernel
theorem dev8_eq : ∀ c : Dev nD, (⟨k0_dev8 c, k0_dev8_lt c⟩ : Dev nD) = zP c 1 := by decide +kernel
theorem dev9_eq : ∀ c : Dev nD, (⟨k0_dev9 c, k0_dev9_lt c⟩ : Dev nD) = zP c 2 := by decide +kernel
theorem dev10_eq : ∀ c : Dev nD, (⟨k0_dev10 c, k0_dev10_lt c⟩ : Dev nD) = zP c 3 := by decide +kernel
theorem dev11_eq : ∀ c : Dev nD, (⟨k0_dev11 c, k0_dev11_lt c⟩ : Dev nD) = zP c 1 := by decide +kernel
theorem dev12_eq : ∀ c : Dev nD, (⟨k0_dev12 c, k0_dev12_lt c⟩ : Dev nD) = zP c 2 := by decide +kernel
theorem dev13_eq : ∀ c : Dev nD, (⟨k0_dev13 c, k0_dev13_lt c⟩ : Dev nD) = zP c 3 := by decide +kernel
theorem dev14_eq : ∀ c : Dev nD, (⟨k0_dev14 c, k0_dev14_lt c⟩ : Dev nD) = yP c 1 := by decide +kernel
theorem dev15_eq : ∀ c : Dev nD, (⟨k0_dev15 c, k0_dev15_lt c⟩ : Dev nD) = yP c 2 := by decide +kernel
theorem dev16_eq : ∀ c : Dev nD, (⟨k0_dev16 c, k0_dev16_lt c⟩ : Dev nD) = yP c 3 := by decide +kernel
theorem dev17_eq : ∀ c : Dev nD, (⟨k0_dev17 c, k0_dev17_lt c⟩ : Dev nD) = xP c := by decide +kernel
theorem dev18_eq : ∀ c : Dev nD, (⟨k0_dev18 c, k0_dev18_lt c⟩ : Dev nD) = xP c := by decide +kernel
theorem dev19_eq : ∀ c : Dev nD, (⟨k0_dev19 c, k0_dev19_lt c⟩ : Dev nD) = xP c := by decide +kernel
theorem dev20_eq : ∀ c : Dev nD, (⟨k0_dev20 c, k0_dev20_lt c⟩ : Dev nD) = xP c := by decide +kernel
theorem dev21_eq : ∀ c : Dev nD, (⟨k0_dev21 c, k0_dev21_lt c⟩ : Dev nD) = yP c 1 := by decide +kernel
theorem dev22_eq : ∀ c : Dev nD, (⟨k0_dev22 c, k0_dev22_lt c⟩ : Dev nD) = yP c 2 := by decide +kernel
theorem dev23_eq : ∀ c : Dev nD, (⟨k0_dev23 c, k0_dev23_lt c⟩ : Dev nD) = yP c 3 := by decide +kernel
theorem dev24_eq : ∀ c : Dev nD, (⟨k0_dev24 c, k0_dev24_lt c⟩ : Dev nD) = xP c := by decide +kernel
theorem dev25_eq : ∀ c : Dev nD, (⟨k0_dev25 c, k0_dev25_lt c⟩ : Dev nD) = xP c := by decide +kernel
theorem dev26_eq : ∀ c : Dev nD, (⟨k0_dev26 c, k0_dev26_lt c⟩ : Dev nD) = xP c := by decide +kernel
theorem dev27_eq : ∀ c : Dev nD, (⟨k0_dev27 c, k0_dev27_lt c⟩ : Dev nD) = xP c := by decide +kernel

/-! ## The slice offsets the kernel computes -/

theorem off2_1_1 : ∀ c : Dev nD, k0_off2 c 1#32 1#32 = ![0, (zc c + 1) % 4] := by decide +kernel
theorem off6_1_1 : ∀ c : Dev nD, k0_off6 c 1#32 1#32 = ![1, (zc c + 1) % 4] := by decide +kernel
theorem off11_1_1 : ∀ c : Dev nD, k0_off11 c 1#32 1#32 = ![0, (zc c + 1) % 4, 0, 0] := by decide +kernel
theorem off13_1_1 : ∀ c : Dev nD, k0_off13 c 1#32 1#32 = ![0, (zc c + 1) % 4, 0, 0] := by decide +kernel
theorem off17_1_1 : ∀ c : Dev nD, k0_off17 c 1#32 1#32 = ![1, (zc c + 1) % 4, 0, 0] := by decide +kernel
theorem off19_1_1 : ∀ c : Dev nD, k0_off19 c 1#32 1#32 = ![1, (zc c + 1) % 4, 0, 0] := by decide +kernel
theorem off2_1_2 : ∀ c : Dev nD, k0_off2 c 1#32 2#32 = ![0, (zc c + 2) % 4] := by decide +kernel
theorem off6_1_2 : ∀ c : Dev nD, k0_off6 c 1#32 2#32 = ![1, (zc c + 2) % 4] := by decide +kernel
theorem off11_1_2 : ∀ c : Dev nD, k0_off11 c 1#32 2#32 = ![0, (zc c + 2) % 4, 0, 0] := by decide +kernel
theorem off13_1_2 : ∀ c : Dev nD, k0_off13 c 1#32 2#32 = ![0, (zc c + 2) % 4, 0, 0] := by decide +kernel
theorem off17_1_2 : ∀ c : Dev nD, k0_off17 c 1#32 2#32 = ![1, (zc c + 2) % 4, 0, 0] := by decide +kernel
theorem off19_1_2 : ∀ c : Dev nD, k0_off19 c 1#32 2#32 = ![1, (zc c + 2) % 4, 0, 0] := by decide +kernel
theorem off2_1_3 : ∀ c : Dev nD, k0_off2 c 1#32 3#32 = ![0, (zc c + 3) % 4] := by decide +kernel
theorem off6_1_3 : ∀ c : Dev nD, k0_off6 c 1#32 3#32 = ![1, (zc c + 3) % 4] := by decide +kernel
theorem off11_1_3 : ∀ c : Dev nD, k0_off11 c 1#32 3#32 = ![0, (zc c + 3) % 4, 0, 0] := by decide +kernel
theorem off13_1_3 : ∀ c : Dev nD, k0_off13 c 1#32 3#32 = ![0, (zc c + 3) % 4, 0, 0] := by decide +kernel
theorem off17_1_3 : ∀ c : Dev nD, k0_off17 c 1#32 3#32 = ![1, (zc c + 3) % 4, 0, 0] := by decide +kernel
theorem off19_1_3 : ∀ c : Dev nD, k0_off19 c 1#32 3#32 = ![1, (zc c + 3) % 4, 0, 0] := by decide +kernel
theorem off3_1 : ∀ c : Dev nD, k0_off3 c 1#32 = ![0, zc c] := by decide +kernel
theorem off7_1 : ∀ c : Dev nD, k0_off7 c 1#32 = ![1, zc c] := by decide +kernel
theorem off4_1 : ∀ c : Dev nD, k0_off4 c 1#32 = ![0, zc c, 0, 0] := by decide +kernel
theorem off8_1 : ∀ c : Dev nD, k0_off8 c 1#32 = ![1, zc c, 0, 0] := by decide +kernel
theorem off2_4_1 : ∀ c : Dev nD, k0_off2 c 4#32 1#32 = ![0, (yc c + 1) % 4] := by decide +kernel
theorem off6_4_1 : ∀ c : Dev nD, k0_off6 c 4#32 1#32 = ![1, (yc c + 1) % 4] := by decide +kernel
theorem off11_4_1 : ∀ c : Dev nD, k0_off11 c 4#32 1#32 = ![0, (yc c + 1) % 4, 0, 0] := by decide +kernel
theorem off13_4_1 : ∀ c : Dev nD, k0_off13 c 4#32 1#32 = ![0, (yc c + 1) % 4, 0, 0] := by decide +kernel
theorem off17_4_1 : ∀ c : Dev nD, k0_off17 c 4#32 1#32 = ![1, (yc c + 1) % 4, 0, 0] := by decide +kernel
theorem off19_4_1 : ∀ c : Dev nD, k0_off19 c 4#32 1#32 = ![1, (yc c + 1) % 4, 0, 0] := by decide +kernel
theorem off2_4_2 : ∀ c : Dev nD, k0_off2 c 4#32 2#32 = ![0, (yc c + 2) % 4] := by decide +kernel
theorem off6_4_2 : ∀ c : Dev nD, k0_off6 c 4#32 2#32 = ![1, (yc c + 2) % 4] := by decide +kernel
theorem off11_4_2 : ∀ c : Dev nD, k0_off11 c 4#32 2#32 = ![0, (yc c + 2) % 4, 0, 0] := by decide +kernel
theorem off13_4_2 : ∀ c : Dev nD, k0_off13 c 4#32 2#32 = ![0, (yc c + 2) % 4, 0, 0] := by decide +kernel
theorem off17_4_2 : ∀ c : Dev nD, k0_off17 c 4#32 2#32 = ![1, (yc c + 2) % 4, 0, 0] := by decide +kernel
theorem off19_4_2 : ∀ c : Dev nD, k0_off19 c 4#32 2#32 = ![1, (yc c + 2) % 4, 0, 0] := by decide +kernel
theorem off2_4_3 : ∀ c : Dev nD, k0_off2 c 4#32 3#32 = ![0, (yc c + 3) % 4] := by decide +kernel
theorem off6_4_3 : ∀ c : Dev nD, k0_off6 c 4#32 3#32 = ![1, (yc c + 3) % 4] := by decide +kernel
theorem off11_4_3 : ∀ c : Dev nD, k0_off11 c 4#32 3#32 = ![0, (yc c + 3) % 4, 0, 0] := by decide +kernel
theorem off13_4_3 : ∀ c : Dev nD, k0_off13 c 4#32 3#32 = ![0, (yc c + 3) % 4, 0, 0] := by decide +kernel
theorem off17_4_3 : ∀ c : Dev nD, k0_off17 c 4#32 3#32 = ![1, (yc c + 3) % 4, 0, 0] := by decide +kernel
theorem off19_4_3 : ∀ c : Dev nD, k0_off19 c 4#32 3#32 = ![1, (yc c + 3) % 4, 0, 0] := by decide +kernel
theorem off3_4 : ∀ c : Dev nD, k0_off3 c 4#32 = ![0, yc c] := by decide +kernel
theorem off7_4 : ∀ c : Dev nD, k0_off7 c 4#32 = ![1, yc c] := by decide +kernel
theorem off4_4 : ∀ c : Dev nD, k0_off4 c 4#32 = ![0, yc c, 0, 0] := by decide +kernel
theorem off8_4 : ∀ c : Dev nD, k0_off8 c 4#32 = ![1, yc c, 0, 0] := by decide +kernel
theorem off5_1 : ∀ c : Dev nD, k0_off5 c 1#32 = ![256 * ((zc c + 1) % 4), 0] := by decide +kernel
theorem off9_1 : ∀ c : Dev nD, k0_off9 c 1#32 = ![256 * ((zc c + 1) % 4), 256] := by decide +kernel
theorem off5_2 : ∀ c : Dev nD, k0_off5 c 2#32 = ![256 * ((zc c + 2) % 4), 0] := by decide +kernel
theorem off9_2 : ∀ c : Dev nD, k0_off9 c 2#32 = ![256 * ((zc c + 2) % 4), 256] := by decide +kernel
theorem off5_3 : ∀ c : Dev nD, k0_off5 c 3#32 = ![256 * ((zc c + 3) % 4), 0] := by decide +kernel
theorem off9_3 : ∀ c : Dev nD, k0_off9 c 3#32 = ![256 * ((zc c + 3) % 4), 256] := by decide +kernel
theorem off10 : ∀ c : Dev nD, k0_off10 c = ![256 * zc c, 0] := by decide +kernel
theorem off12 : ∀ c : Dev nD, k0_off12 c = ![256 * zc c, 0] := by decide +kernel
theorem off16 : ∀ c : Dev nD, k0_off16 c = ![256 * zc c, 256] := by decide +kernel
theorem off18 : ∀ c : Dev nD, k0_off18 c = ![256 * zc c, 256] := by decide +kernel
theorem off1_0 : ∀ c : Dev nD, k0_off1 c 0#32 = ![0, 2048 * xc c + 512 * yc c + 0] := by decide +kernel
theorem off14_0 : ∀ c : Dev nD, k0_off14 c 0#32 = ![0, 2048 * xc c + 512 * yc c + 0] := by decide +kernel
theorem off15_1_0 : ∀ c : Dev nD, k0_off15 c 1#32 0#32 = ![0, 2048 * xc c + 512 * ((yc c + 1) % 4) + 0] := by decide +kernel
theorem off15_2_0 : ∀ c : Dev nD, k0_off15 c 2#32 0#32 = ![0, 2048 * xc c + 512 * ((yc c + 2) % 4) + 0] := by decide +kernel
theorem off15_3_0 : ∀ c : Dev nD, k0_off15 c 3#32 0#32 = ![0, 2048 * xc c + 512 * ((yc c + 3) % 4) + 0] := by decide +kernel
theorem off20_0_0 : ∀ c : Dev nD, k0_off20 c 0#32 0#32 = ![0, 2048 * (1 - xc c) + 512 * 0 + 0] := by decide +kernel
theorem off20_1_0 : ∀ c : Dev nD, k0_off20 c 1#32 0#32 = ![0, 2048 * (1 - xc c) + 512 * 1 + 0] := by decide +kernel
theorem off20_2_0 : ∀ c : Dev nD, k0_off20 c 2#32 0#32 = ![0, 2048 * (1 - xc c) + 512 * 2 + 0] := by decide +kernel
theorem off20_3_0 : ∀ c : Dev nD, k0_off20 c 3#32 0#32 = ![0, 2048 * (1 - xc c) + 512 * 3 + 0] := by decide +kernel
theorem off1_256 : ∀ c : Dev nD, k0_off1 c 256#32 = ![0, 2048 * xc c + 512 * yc c + 256] := by decide +kernel
theorem off14_256 : ∀ c : Dev nD, k0_off14 c 256#32 = ![0, 2048 * xc c + 512 * yc c + 256] := by decide +kernel
theorem off15_1_256 : ∀ c : Dev nD, k0_off15 c 1#32 256#32 = ![0, 2048 * xc c + 512 * ((yc c + 1) % 4) + 256] := by decide +kernel
theorem off15_2_256 : ∀ c : Dev nD, k0_off15 c 2#32 256#32 = ![0, 2048 * xc c + 512 * ((yc c + 2) % 4) + 256] := by decide +kernel
theorem off15_3_256 : ∀ c : Dev nD, k0_off15 c 3#32 256#32 = ![0, 2048 * xc c + 512 * ((yc c + 3) % 4) + 256] := by decide +kernel
theorem off20_0_256 : ∀ c : Dev nD, k0_off20 c 0#32 256#32 = ![0, 2048 * (1 - xc c) + 512 * 0 + 256] := by decide +kernel
theorem off20_1_256 : ∀ c : Dev nD, k0_off20 c 1#32 256#32 = ![0, 2048 * (1 - xc c) + 512 * 1 + 256] := by decide +kernel
theorem off20_2_256 : ∀ c : Dev nD, k0_off20 c 2#32 256#32 = ![0, 2048 * (1 - xc c) + 512 * 2 + 256] := by decide +kernel
theorem off20_3_256 : ∀ c : Dev nD, k0_off20 c 3#32 256#32 = ![0, 2048 * (1 - xc c) + 512 * 3 + 256] := by decide +kernel

end Cert.KernelIdeal.Mesh

end
-- ==== Proof.Cells.lean ====
/- The collective's cells, buffers and values: the runtime's barrier semaphore and the forty-eight DMA semaphores of a
   device; the 256 × 256 slots of its scratch buffers through which blocks travel; and, per device, the values that
   travel — the partial products, the sums over the z axis, and what is gathered over y and exchanged over x. -/
import proofs.«901051_g7700000000001052_dist_rsdw_v7x_xyz2x4x4_z_m1024_d1024_f4096_bf16_1_alg».proof.Proof.Mesh
import proofs.«901051_g7700000000001052_dist_rsdw_v7x_xyz2x4x4_z_m1024_d1024_f4096_bf16_1_alg».proof.Proof.Gen.KernelIdeal.Skeleton
import proofs.«901051_g7700000000001052_dist_rsdw_v7x_xyz2x4x4_z_m1024_d1024_f4096_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' (duties named by `Fin 7`: a barrier cell's seven
    neighbours; a DMA cell's one duty is `0`) -/

abbrev DN : Type := Fin 7
abbrev UB : Type := URounds (GSem nD τ sig) DN
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Coordinates as `Fin 4`, the neighbours -/

def zF (c : Dev nD) : Fin 4 := ⟨zc c, zc_lt c⟩
def yF (c : Dev nD) : Fin 4 := ⟨yc c, yc_lt c⟩
/-- The z coordinate `d` steps on. -/
def zj (c : Dev nD) (d : ℕ) : Fin 4 := ⟨(zc c + d) % 4, Nat.mod_lt _ (by decide)⟩
def yj (c : Dev nD) (d : ℕ) : Fin 4 := ⟨(yc c + d) % 4, Nat.mod_lt _ (by decide)⟩
/-- The device with `c`'s x and y and the z coordinate `j`; with its x and z and the y coordinate `j`; with the
    other x, the y coordinate `j` and its z. -/
def atZ (c : Dev nD) (j : Fin 4) : Dev nD := ⟨16 * xc c + 4 * yc c + j.val, by have := xc_lt c; have := yc_lt c; have := j.isLt; show _ < 32; omega⟩
def atY (c : Dev nD) (j : Fin 4) : Dev nD := ⟨16 * xc c + 4 * j.val + zc c, by have := xc_lt c; have := zc_lt c; have := j.isLt; show _ < 32; omega⟩
def atXY (c : Dev nD) (j : Fin 4) : Dev nD := ⟨16 * (1 - xc c) + 4 * j.val + zc c, by have := zc_lt c; have := j.isLt; show _ < 32; omega⟩

/-- A device's seven neighbours: three along z, three along y, one along x. -/
def nb (c : Dev nD) : DN → Dev nD
  | ⟨0, _⟩ => zP c 1 | ⟨1, _⟩ => zP c 2 | ⟨2, _⟩ => zP c 3
  | ⟨3, _⟩ => yP c 1 | ⟨4, _⟩ => yP c 2 | ⟨5, _⟩ => yP c 3
  | _ => xP c
/-- The name under which `c` is the neighbour of its `n`-th neighbour. -/
def inv : DN → DN
  | ⟨0, _⟩ => 2 | ⟨1, _⟩ => 1 | ⟨2, _⟩ => 0
  | ⟨3, _⟩ => 5 | ⟨4, _⟩ => 4 | ⟨5, _⟩ => 3
  | _ => 6
theorem nb_nb : ∀ (c : Dev nD) (n : DN), nb (nb c n) (inv n) = c := by decide
theorem inv_inv : ∀ n : DN, inv (inv n) = n := by decide

/-! ## The semaphores and cells -/

/-- The runtime's barrier semaphore of collective id 0. -/
abbrev barS : Sem sig := (SemArray.scalar (sig.barrier 0 rfl) : Sems sig S_).sem
/-- The DMA semaphore `[h, j]` of the kernel's `a`-th semaphore array (0, 1: the z phase's send and receive; 2, 3: the
    y phase's; 4, 5: the x phase's). -/
def dsem (a : Fin 6) (h : Fin 2) (j : Fin 4) : DmaSem sig :=
  ⟨3 + 8 * a.val + 4 * h.val + j.val, by have := a.isLt; have := h.isLt; have := j.isLt; show _ < 51; omega⟩

abbrev barC (c : Dev nD) : GSem nD τ sig := ((c : Thread nD τ), .reg barS)
abbrev dC (c : Dev nD) (a : Fin 6) (h : Fin 2) (j : Fin 4) : GSem nD τ sig := ((c : Thread nD τ), .dma (dsem a h j))

/-! ## The buffers and their slots -/

abbrev xM : Memref sig .tc .vmem S1024x1024 .f32 := Memref.whole cc0_stg0_0
abbrev yM : Memref sig .tc .vmem S1024x4096 .f32 := Memref.whole cc0_stg1_0
abbrev oM : Memref sig .tc .vmem S256x4096 .f32 := Memref.whole cc0_stg2_0
abbrev pbM : Memref sig .tc .vmem S1024x512 .bf16 := Memref.whole cc0_scratch0
abbrev redM : Memref sig .tc .vmem S2x256x256 .bf16 := Memref.whole cc0_scratch1
abbrev rbM : Memref sig .tc .vmem S2x4x256x256 .bf16 := Memref.whole cc0_scratch2
abbrev r1M : Memref sig .tc .vmem S2x4x256x256 .bf16 := Memref.whole cc0_scratch3
abbrev r2M : Memref sig .tc .vmem S2x4x256x256 .bf16 := Memref.whole cc0_scratch4

theorem pb_inb (j : Fin 4) (h : Fin 2) : ∀ a, (![256 * j.val, 256 * h.val] : Fin 2 → Nat) a + S256x256.size a ≤ S1024x512.size a := by
  revert j h; decide
theorem red_inb (h : Fin 2) : ∀ a, (![h.val, 0, 0] : Fin 3 → Nat) a + S1x256x256.size a ≤ S2x256x256.size a := by
  revert h; decide
theorem r4_inb (h : Fin 2) (j : Fin 4) : ∀ a, (![h.val, j.val, 0, 0] : Fin 4 → Nat) a + S1x1x256x256.size a ≤ S2x4x256x256.size a := by
  revert h j; decide
theorem o_inb (q : Fin 8) (h : Fin 2) : ∀ a, (![0, 512 * q.val + 256 * h.val] : Fin 2 → Nat) a + S256x256.size a ≤ S256x4096.size a := by
  revert q h; decide

/-- Block `(j, h)` of the partial products: rows `256 j …`, columns `256 h …`. -/
abbrev pbR (j : Fin 4) (h : Fin 2) : Rect S1024x512 := Rect.unit (s := S1024x512) ![256 * j.val, 256 * h.val] S256x256.size (pb_inb j h)
abbrev redR (h : Fin 2) : Rect S2x256x256 := Rect.unit (s := S2x256x256) ![h.val, 0, 0] S1x256x256.size (red_inb h)
abbrev r4R (h : Fin 2) (j : Fin 4) : Rect S2x4x256x256 := Rect.unit (s := S2x4x256x256) ![h.val, j.val, 0, 0] S1x1x256x256.size (r4_inb h j)
/-- Column block `q` (512 wide), half `h`, of the result. -/
abbrev oR (q : Fin 8) (h : Fin 2) : Rect S256x4096 := Rect.unit (s := S256x4096) ![0, 512 * q.val + 256 * h.val] S256x256.size (o_inb q h)

/-- The result's column blocks: the device's own, the one of the device `d` steps on along y, and the one of the device at y
    coordinate `ys` on the other side of x. -/
def qOwn (c : Dev nD) : Fin 8 := ⟨4 * xc c + yc c, by have := xc_lt c; have := yc_lt c; omega⟩
def qY (c : Dev nD) (d : ℕ) : Fin 8 := ⟨4 * xc c + (yc c + d) % 4, by have := xc_lt c; omega⟩
def qX (c : Dev nD) (ys : Fin 4) : Fin 8 := ⟨4 * (1 - xc c) + ys.val, by have := ys.isLt; omega⟩

theorem vec2_congr {a b : ℕ} (h : a = b) : (![0, a] : Fin 2 → ℕ) = ![0, b] := by rw [h]

/-- The slots as 256 × 256 memrefs: what a transfer names. -/
abbrev pbSlot (j : Fin 4) (h : Fin 2) : Memref sig .tc .vmem S256x256 .bf16 := pbM.slice (pbR j h) (fun _ => rfl)
abbrev redSlot (h : Fin 2) : Memref sig .tc .vmem S256x256 .bf16 := (redM.slice (redR h) (fun _ => rfl)).squeeze S256x256 squeezes_S1x256x256_S256x256
abbrev rbSlot (h : Fin 2) (j : Fin 4) : Memref sig .tc .vmem S256x256 .bf16 := (rbM.slice (r4R h j) (fun _ => rfl)).squeeze S256x256 squeezes_S1x1x256x256_S256x256
abbrev r1Slot (h : Fin 2) (j : Fin 4) : Memref sig .tc .vmem S256x256 .bf16 := (r1M.slice (r4R h j) (fun _ => rfl)).squeeze S256x256 squeezes_S1x1x256x256_S256x256
abbrev r2Slot (h : Fin 2) (j : Fin 4) : Memref sig .tc .vmem S256x256 .bf16 := (r2M.slice (r4R h j) (fun _ => rfl)).squeeze S256x256 squeezes_S1x1x256x256_S256x256

/-- The credit of one 256 × 256 transfer of sixteen-bit floats. -/
abbrev N : ℕ := (pbSlot 0 0 : Memref sig .tc .vmem S256x256 .bf16).view.dmaCredit
theorem N_pos : 0 < N := View.dmaCredit_pos _ (by decide)

/-- A slot of device `c` at contents `f` (of the whole buffer; only the slot's elements matter), at share `q`. -/
def slotPts {s : Shape} {e : EltTy} (c : Dev nD) (M : Memref sig .tc .vmem s e) (q : PosShare TreeShare) (f : Buf (Elt F) (M.view.loc (c : Thread nD τ))) : sProp 𝕄 :=
  M.view.loc (c : Thread nD τ) ↦[M.view.set]{q} f

end Cert.KernelIdeal.Coll

end
-- ==== Proof.Vals.lean ====
/- The values that travel, per device, as pure terms of the devices' blocks of the two arguments: each device's partial
   product (its block of x, transposed, times the 512 columns of its block of dy that it is responsible for), cut in
   256 × 256 blocks; the sum of four devices' blocks along the z axis; and that sum as the sixteen-bit block that is then
   gathered along y and exchanged along x. -/
import proofs.«901051_g7700000000001052_dist_rsdw_v7x_xyz2x4x4_z_m1024_d1024_f4096_bf16_1_alg».proof.Proof.Cells
import Idealize.ShloMosaic.Lib.ValueIdx

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Device `c`'s block of x and of dy, as its staging buffers hold them. -/
def xV (c : Dev nD) : Vec F S1024x1024 .f32 :=
  (win0_0.blk (0 : Fin 1)).view.read (Elt F) (m ((c : Thread nD τ).loc main_arg0))
def yV (c : Dev nD) : Vec F S1024x4096 .f32 :=
  (win0_1.blk (0 : Fin 1)).view.read (Elt F) (m ((c : Thread nD τ).loc main_arg1))

/-- The 256 columns of dy a device multiplies by for half `0` and half `1`: columns `512 (4 x + y) + 256 h …`. -/
def yHalf0 (c : Dev nD) : Vec F S1024x256 .f32 :=
  (yM : Memref sig .tc .vmem S1024x4096 .f32).view.readAt (Elt F) (Rect.unit (s := S1024x4096) (k0_off1 c 0#32) S1024x256.size (k0_off1_inb c 0)).toLoadRect (yV m c)
def yHalf1 (c : Dev nD) : Vec F S1024x256 .f32 :=
  (yM : Memref sig .tc .vmem S1024x4096 .f32).view.readAt (Elt F) (Rect.unit (s := S1024x4096) (k0_off1 c 256#32) S1024x256.size (k0_off1_inb c 1)).toLoadRect (yV m c)

/-- The partial product, half `h`: 1024 rows (the columns of x) by 256 columns, in sixteen-bit floats. -/
def pbFull (c : Dev nD) : Fin 2 → Vec F S1024x256 .bf16
  | ⟨0, _⟩ => k0_pay2 (xV m c) (yHalf0 m c)
  | _ => k0_pay3 (k0_pay1 (xV m c)) (yHalf1 m c)

/-- Its block of rows `256 j …`. -/
def pbVal (c : Dev nD) (j : Fin 4) (h : Fin 2) : Vec F S256x256 .bf16 :=
  fun i => pbFull m c h (ValueIdx.ix2 ⟨256 * j.val + (i 0).val, by have := j.isLt; have : (i 0).val < 256 := (i 0).isLt; show _ < 1024; omega⟩ (i 1))

/-- A 256 × 256 vector as the 1 × 1 × 256 × 256 vector a load of a slot returns, and a 1 × 256 × 256 vector as 256 × 256. -/
def up4 {e : EltTy} (v : Vec F S256x256 e) : Vec F S1x1x256x256 e := fun i => v (ValueIdx.ix2 (i 2) (i 3))
def dn3 {e : EltTy} (v : Vec F S1x256x256 e) : Vec F S256x256 e := fun i => v (ValueIdx.ix3 0 (i 0) (i 1))

/-- What device `c` receives in slot `(h, j)` of its z-phase buffer: block `z(c)` of the partial product of the device at z
    coordinate `j`. -/
def rbVal (c : Dev nD) (h : Fin 2) (j : Fin 4) : Vec F S256x256 .bf16 := pbVal m (atZ c j) (zF c) h

/-- The sum over the z axis of block `z(c)`, half `h`, in the kernel's order — its own block, then the devices one, two and
    three steps on — as thirty-two-bit floats. -/
def accVal (c : Dev nD) : Fin 2 → FVec F S256x256 .f32
  | ⟨0, _⟩ => k0_pay7 (k0_pay6 (k0_pay5 (k0_pay4 (pbVal m c (zF c) 0)) (up4 (rbVal m c 0 (zj c 1)))) (up4 (rbVal m c 0 (zj c 2)))) (up4 (rbVal m c 0 (zj c 3)))
  | _ => k0_pay15 (k0_pay14 (k0_pay13 (k0_pay12 (pbVal m c (zF c) 1)) (up4 (rbVal m c 1 (zj c 1)))) (up4 (rbVal m c 1 (zj c 2)))) (up4 (rbVal m c 1 (zj c 3)))
/-- The same as the sixteen-bit block the device stores and sends on. -/
def redVal (c : Dev nD) : Fin 2 → Vec F S1x256x256 .bf16
  | ⟨0, _⟩ => k0_pay8 (k0_pay6 (k0_pay5 (k0_pay4 (pbVal m c (zF c) 0)) (up4 (rbVal m c 0 (zj c 1)))) (up4 (rbVal m c 0 (zj c 2)))) (up4 (rbVal m c 0 (zj c 3)))
  | _ => k0_pay16 (k0_pay14 (k0_pay13 (k0_pay12 (pbVal m c (zF c) 1)) (up4 (rbVal m c 1 (zj c 1)))) (up4 (rbVal m c 1 (zj c 2)))) (up4 (rbVal m c 1 (zj c 3)))
def red2 (c : Dev nD) (h : Fin 2) : Vec F S256x256 .bf16 := dn3 (redVal m c h)

/-- A received sixteen-bit block widened for the result (the kernel's own widening of a loaded slot). -/
def widen (v : Vec F S256x256 .bf16) : FVec F S256x256 .f32 := k0_pay9 (up4 v)

/-- Column block `q` = 4 x' + y' (512 columns), half `h`, of device `c`'s result: the z-sum of the device at `(x', y', z(c))`
    — its own in thirty-two bits, another's through the sixteen-bit block it sent. -/
def outPiece (c : Dev nD) (q : Fin 8) (h : Fin 2) : Vec F S256x256 .f32 :=
  if q.val = 4 * xc c + yc c then accVal m c h
  else if q.val / 4 = xc c then widen (red2 m (atY c ⟨q.val % 4, Nat.mod_lt _ (by decide)⟩) h)
  else widen (red2 m (atXY c ⟨q.val % 4, Nat.mod_lt _ (by decide)⟩) h)

/-- Device `c`'s whole result: its sixteen pieces side by side. -/
def outAt (c : Dev nD) : Vec F S256x4096 .f32 := fun i =>
  outPiece m c ⟨(i 1).val / 512, by have : (i 1).val < 4096 := (i 1).isLt; show _ < 8; omega⟩ ⟨((i 1).val / 256) % 2, Nat.mod_lt _ (by decide)⟩
    (ValueIdx.ix2 (i 0) ⟨(i 1).val % 256, Nat.mod_lt _ (by decide)⟩)

end Cert.KernelIdeal.Coll

end
-- ==== Proof.Sched.lean ====
/- The protocol as a schedule of one round. A device's barrier cell has seven duties, one per neighbour, each of one
   unit: the neighbour's signal hands the device the slots of the neighbour's buffers that the device will write. A DMA
   cell that is used has one duty of a block's credit: a receive cell's hands its owner the slot with the block landed,
   a send cell's hands back the share of the source the transfer read. -/
import proofs.«901051_g7700000000001052_dist_rsdw_v7x_xyz2x4x4_z_m1024_d1024_f4096_bf16_1_alg».proof.Proof.Vals

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Shares: a sum block is read by four transfers at once, a gathered block by its relay and by a load -/

def qS (j : Fin 4) : PosShare TreeShare := Transfers.shareTokN fullShare j.val
/-- The share a relay lends of the gathered block it forwards. -/
def qR : PosShare TreeShare := Transfers.shareTokN fullShare 0

/-! ## Payloads -/

/-- A slot at some contents. -/
def anyPts {s : Shape} {e : EltTy} (c : Dev nD) (M : Memref sig .tc .vmem s e) (q : PosShare TreeShare) : sProp 𝕄 :=
  iprop(∃ f, slotPts c M q f)
/-- A 256 × 256 slot, whole, holding the block `v`. -/
def holds (c : Dev nD) (M : Memref sig .tc .vmem S256x256 .bf16) (v : Vec F S256x256 .bf16) : sProp 𝕄 :=
  iprop(∃ f, slotPts c M fullShare f ∗ ⌜M.view.read (Elt F) f = v⌝)

/-- What neighbour `n` of `c` (the device `p = nb c n`) hands `c` with its barrier signal: the slots of `p`'s receive buffers
    that `c` writes. -/
def barPay (c : Dev nD) (n : DN) : sProp 𝕄 :=
  if n.val < 3 then iprop(anyPts (nb c n) (rbSlot 0 (zF c)) fullShare ∗ anyPts (nb c n) (rbSlot 1 (zF c)) fullShare)
  else if n.val < 6 then iprop(anyPts (nb c n) (r1Slot 0 (yF c)) fullShare ∗ anyPts (nb c n) (r1Slot 1 (yF c)) fullShare)
  else iprop((anyPts (nb c n) (r2Slot 0 0) fullShare ∗ anyPts (nb c n) (r2Slot 0 1) fullShare ∗ anyPts (nb c n) (r2Slot 0 2) fullShare ∗ anyPts (nb c n) (r2Slot 0 3) fullShare)
    ∗ (anyPts (nb c n) (r2Slot 1 0) fullShare ∗ anyPts (nb c n) (r2Slot 1 1) fullShare ∗ anyPts (nb c n) (r2Slot 1 2) fullShare ∗ anyPts (nb c n) (r2Slot 1 3) fullShare))

/-- The payload of the one duty of DMA cell `(a, h, j)` of device `c`. -/
def dmaPay (c : Dev nD) (a : Fin 6) (h : Fin 2) (j : Fin 4) : sProp 𝕄 :=
  match a with
  | ⟨0, _⟩ => anyPts c (pbSlot j h) fullShare
  | ⟨1, _⟩ => holds c (rbSlot h j) (rbVal m c h j)
  | ⟨2, _⟩ => anyPts c (redSlot h) (qS j)
  | ⟨3, _⟩ => holds c (r1Slot h j) (red2 m (atY c j) h)
  | ⟨4, _⟩ => if j = yF c then anyPts c (redSlot h) (qS j) else anyPts c (r1Slot h j) qR
  | _ => holds c (r2Slot h j) (red2 m (atXY c j) h)

/-- Whether DMA cell `(a, h, j)` of `c` carries a transfer: the z phase skips the device's own z, the y phase its own y. -/
def used (c : Dev nD) (a : Fin 6) (j : Fin 4) : Prop :=
  if a.val < 2 then j ≠ zF c else if a.val < 4 then j ≠ yF c else True
instance (c : Dev nD) (a : Fin 6) (j : Fin 4) : Decidable (used c a j) := by unfold used; infer_instance

/-- A DMA semaphore's place in the kernel's arrays. -/
def aOf (s : DmaSem sig) : Fin 6 := ⟨((s.val - 3) / 8) % 6, Nat.mod_lt _ (by decide)⟩
def hOf (s : DmaSem sig) : Fin 2 := ⟨((s.val - 3) / 4) % 2, Nat.mod_lt _ (by decide)⟩
def jOf (s : DmaSem sig) : Fin 4 := ⟨(s.val - 3) % 4, Nat.mod_lt _ (by decide)⟩
theorem aOf_dsem : ∀ (a : Fin 6) (h : Fin 2) (j : Fin 4), aOf (dsem a h j) = a := by decide
theorem hOf_dsem : ∀ (a : Fin 6) (h : Fin 2) (j : Fin 4), hOf (dsem a h j) = h := by decide
theorem jOf_dsem : ∀ (a : Fin 6) (h : Fin 2) (j : Fin 4), jOf (dsem a h j) = j := by decide
theorem dsem_ge : ∀ (a : Fin 6) (h : Fin 2) (j : Fin 4), 3 ≤ (dsem a h j).val := by decide

/-- One round. -/
def Rd : Rounds.Schedule (GSem nD τ sig) DN 𝕄 where
  duties g r :=
    if r = 0 ∧ g.1.2 = .tc then
      match g.2 with
      | .reg s => if s = barS then Finset.univ else ∅
      | .dma s => if 3 ≤ s.val ∧ used g.1.1 (aOf s) (jOf s) then {0} else ∅
    else ∅
  unitless _ := False
  amount g _ _ := match g.2 with | .reg _ => 1 | .dma _ => N
  payload g _ d := match g.2 with
    | .reg _ => barPay g.1.1 d
    | .dma s => dmaPay m g.1.1 (aOf s) (hOf s) (jOf s)
  amount_pos g _ _ _ := by
    cases g.2 with
    | reg _ => exact Nat.one_pos
    | dma _ => exact N_pos

end Cert.KernelIdeal.Coll

end
-- ==== Proof.Proto.lean ====
/- What each device owes at launch and in what order it pays; the levels that order the waits; the ghost state a device
   starts from; and the pipeline's proof data: one point, the result's staging buffer ending at the device's sixteen
   pieces. -/
import proofs.«901051_g7700000000001052_dist_rsdw_v7x_xyz2x4x4_z_m1024_d1024_f4096_bf16_1_alg».proof.Proof.Sched

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## What a device pays, in program order: its seven barrier signals, the six z-phase transfers, then per half the three
    y-phase transfers, the direct x-phase transfer and the three relays (half 0 before half 1) -/

def pays (c : Dev nD) : List (GSem nD τ sig × ℕ) :=
  [ (barC (zP c 1), 1), (barC (zP c 2), 1), (barC (zP c 3), 1), (barC (yP c 1), 1), (barC (yP c 2), 1), (barC (yP c 3), 1), (barC (xP c), 1),
    (dC (zP c 1) 1 0 (zF c), N), (dC (zP c 2) 1 0 (zF c), N), (dC (zP c 3) 1 0 (zF c), N),
    (dC (zP c 1) 1 1 (zF c), N), (dC (zP c 2) 1 1 (zF c), N), (dC (zP c 3) 1 1 (zF c), N),
    (dC (yP c 1) 3 0 (yF c), N), (dC (yP c 2) 3 0 (yF c), N), (dC (yP c 3) 3 0 (yF c), N),
    (dC (xP c) 5 0 (yF c), N),
    (dC (xP c) 5 0 (yj c 1), N), (dC (xP c) 5 0 (yj c 2), N), (dC (xP c) 5 0 (yj c 3), N),
    (dC (yP c 1) 3 1 (yF c), N), (dC (yP c 2) 3 1 (yF c), N), (dC (yP c 3) 3 1 (yF c), N),
    (dC (xP c) 5 1 (yF c), N),
    (dC (xP c) 5 1 (yj c 1), N), (dC (xP c) 5 1 (yj c 2), N), (dC (xP c) 5 1 (yj c 3), N) ]

/-- The tallies of a list of payments, the FIRST to be paid outermost on the right: `(… + t₂) + t₁`. -/
def tallies : List (GSem nD τ sig × ℕ) → CellTallies nD τ sig Unit
  | [] => 0
  | p :: l => tallies l + tallyAt p.1 () p.2

/-- What device `c` still owes after its first `k` payments. -/
def owedFrom (c : Dev nD) (k : ℕ) : CellTallies nD τ sig Unit := tallies ((pays c).drop k)

/-! ## Levels: the barrier below the z phase's receive cells, below the y phase's of half 0, below the x phase's of
    half 0, below the y phase's of half 1, below the x phase's of half 1; everything else (staging, send cells) lowest -/

def L (g : GSem nD τ sig) : Finset Unit := if g.1.2 = .tc then {()} else ∅
def lvD (s : DmaSem sig) : ℕ :=
  if s.val < 3 then 0
  else if (aOf s).val = 1 then 2
  else if (aOf s).val = 3 then (if (hOf s).val = 0 then 3 else 5)
  else if (aOf s).val = 5 then (if (hOf s).val = 0 then 4 else 6)
  else 0
def lv (g : GSem nD τ sig) (_ : Unit) : ℕ := match g.2 with | .reg _ => 1 | .dma s => lvD s

/-! ## The ghost state a device starts from -/

/-- Every cell of the collective: (device, barrier or DMA semaphore index). -/
abbrev CK : Type := Option (Fin 6 × Fin 2 × Fin 4)
def csem : CK → SemLoc sig
  | none => .reg barS
  | some i => .dma (dsem i.1 i.2.1 i.2.2)
abbrev kcell (ck : Dev nD × CK) : GSem nD τ sig := ((ck.1 : Thread nD τ), csem ck.2)

/-- The invariants of all cells of all devices, at the names the launch gave them, and that round 0 of each is reached:
    persistent, every device holds them. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

/-- The tokens of the duties device `c` pays: at its neighbours' barrier cells (under the name it has there), at the
    receive cells it sends to, and at its own send cells. -/
def payToks (c : Dev nD) : sProp 𝕄 :=
  iprop((bigSep Finset.univ fun n : DN => dutyTok ER (barC (nb c n)) 0 (inv n))
    ∗ (bigSep ((pays c).drop 7).toFinset fun p => dutyTok ER p.1 0 (0 : DN))
    ∗ bigSep (Finset.univ.filter fun i : Fin 6 × Fin 2 × Fin 4 => i.1.val % 2 = 0 ∧ used c i.1 i.2.2) fun i => dutyTok ER (dC c i.1 i.2.1 i.2.2) 0 (0 : DN))

/-- Its positions: at the start of round 0 of each of its cells. -/
def positions (c : Dev nD) : sProp 𝕄 :=
  bigSep Finset.univ fun k : CK => atPos ER (kcell (c, k)) 0 ∅ 0

def ghost (K : Dev nD × CK → ℕ) (c : Dev nD) : sProp 𝕄 :=
  iprop(records m K ∗ positions c ∗ payToks c)

/-- The credit dealt at launch for what others owe its cells: seven units on its barrier cell, a block's credit on each
    receive cell that is used. -/
def launchCreds (c : Dev nD) : sProp 𝕄 :=
  iprop(cred (tallyAt (barC c) () 7)
    ∗ bigSep (Finset.univ.filter fun i : Fin 6 × Fin 2 × Fin 4 => i.1.val % 2 = 1 ∧ used c i.1 i.2.2) fun i => cred (tallyAt (dC c i.1 i.2.1 i.2.2) () N))

/-- What device `c`'s body starts from. -/
def start (c : Dev nD) : sProp 𝕄 :=
  iprop((∃ K, ghost m K c) ∗ launchCreds c ∗ levAts L lv)

/-- The five scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m c ∗ scratch c)
/-- After the point: the scratch buffers whole again, the forty-eight own cells closed at zero. -/
def Φ₁ (c : Dev nD) : sProp 𝕄 :=
  iprop(scratch c ∗ bigSep Finset.univ fun i : Fin 6 × Fin 2 × Fin 4 => semVal (dC c i.1 i.2.1 i.2.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => yV m c
    | ⟨2, _⟩ => outAt m c
  Φ t := match t with
    | ⟨0, _⟩ => Φ₀ m c
    | ⟨_ + 1, _⟩ => Φ₁ c
  q _ := fullShare
  owed t := match t with
    | ⟨0, _⟩ => owedFrom c 0
    | ⟨_ + 1, _⟩ => 0

abbrev 𝒱₀ : Variants := Variants.none

end Cert.KernelIdeal.Coll

end
-- ==== Proof.Tables.lean ====
/- The schedule's one round, cell by cell: which duties a barrier cell and a DMA cell have, how much each contributes,
   what a round expects and what each duty hands over; that every payload can be stored in a cell's invariant; what a device
   still owes after each of its twenty-seven payments; and the order of the waits: a device's barrier cell lies below the
   z phase's receive cells, these below the y phase's of half 0, below the x phase's of half 0, below the y phase's of
   half 1, below the x phase's of half 1, so that at each wait everything the device still owes lies strictly above the
   cell it waits on. -/
import proofs.«901051_g7700000000001052_dist_rsdw_v7x_xyz2x4x4_z_m1024_d1024_f4096_bf16_1_alg».proof.Proof.Proto

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables of the one round -/

section Tables

theorem duties_bar (c : Dev nD) : (Rd (F := F) m).duties (barC c) 0 = Finset.univ := by
  dsimp only [Rd]
  rw [if_pos (⟨rfl, rfl⟩ : (0 : ℕ) = 0 ∧ (Proc.tc : Proc τ) = .tc)]
  exact if_pos rfl

theorem duties_dma (c : Dev nD) (a : Fin 6) (h : Fin 2) (j : Fin 4) (hu : used c a j) :
    (Rd (F := F) m).duties (dC c a h j) 0 = {0} := by
  dsimp only [Rd]
  rw [if_pos (⟨rfl, rfl⟩ : (0 : ℕ) = 0 ∧ (Proc.tc : Proc τ) = .tc)]
  exact if_pos ⟨dsem_ge a h j, by rw [aOf_dsem, jOf_dsem]; exact hu⟩

theorem duties_dma_unused (c : Dev nD) (a : Fin 6) (h : Fin 2) (j : Fin 4) (hu : ¬ used c a j) :
    (Rd (F := F) m).duties (dC c a h j) 0 = ∅ := by
  dsimp only [Rd]
  rw [if_pos (⟨rfl, rfl⟩ : (0 : ℕ) = 0 ∧ (Proc.tc : Proc τ) = .tc)]
  exact if_neg fun h' => hu (by have h2 := h'.2; rw [aOf_dsem, jOf_dsem] at h2; exact h2)

theorem duties_later (g : GSem nD τ sig) : ∀ r, 1 ≤ r → (Rd (F := F) m).duties g r = ∅ :=
  fun r hr => by dsimp only [Rd]; exact if_neg fun h => by have := h.1; omega

theorem duties_unused_all (c : Dev nD) (a : Fin 6) (h : Fin 2) (j : Fin 4) (hu : ¬ used c a j) :
    ∀ r, 0 ≤ r → (Rd (F := F) m).duties (dC c a h j) r = ∅ := fun r _ => by
  rcases Nat.eq_zero_or_pos r with rfl | hr
  · exact duties_dma_unused m c a h j hu
  · exact duties_later m _ r hr

theorem amount_bar (c : Dev nD) (d : DN) : (Rd (F := F) m).amount (barC c) 0 d = 1 := rfl
theorem amount_dma (c : Dev nD) (a : Fin 6) (h : Fin 2) (j : Fin 4) (d : DN) : (Rd (F := F) m).amount (dC c a h j) 0 d = N := rfl

theorem expect_bar (c : Dev nD) : (Rd (F := F) m).expect (barC c) 0 = 7 := by
  unfold Schedule.expect Schedule.amountOf
  rw [duties_bar, Finset.sum_congr rfl fun d _ => amount_bar m c d, Finset.sum_const, Finset.card_univ, Fintype.card_fin, smul_eq_mul]
theorem expect_dma (c : Dev nD) (a : Fin 6) (h : Fin 2) (j : Fin 4) (hu : used c a j) : (Rd (F := F) m).expect (dC c a h j) 0 = N := by
  unfold Schedule.expect Schedule.amountOf
  rw [duties_dma m c a h j hu, Finset.sum_singleton, amount_dma]

theorem payload_bar (c : Dev nD) (n : DN) : (Rd (F := F) m).payload (barC c) 0 n = barPay c n := rfl
theorem payload_dma (c : Dev nD) (a : Fin 6) (h : Fin 2) (j : Fin 4) (d : DN) : (Rd (F := F) m).payload (dC c a h j) 0 d = dmaPay m c a h j := by
  show dmaPay m c (aOf (dsem a h j)) (hOf (dsem a h j)) (jOf (dsem a h j)) = _
  rw [aOf_dsem, hOf_dsem, jOf_dsem]

/-- The whole of a barrier cell's round, no duty taken: the seven neighbours' payloads in the order of their names. -/
theorem rest_bar (c : Dev nD) :
    bigSep ((Rd (F := F) m).duties (barC c) 0 \ ∅) (fun d => (Rd (F := F) m).payload (barC c) 0 d)
      = iprop(barPay c 0 ∗ barPay c 1 ∗ barPay c 2 ∗ barPay c 3 ∗ barPay c 4 ∗ barPay c 5 ∗ barPay c 6) := by
  rw [Finset.sdiff_empty, duties_bar, bigSep_univ_eq_bigSepL [(0 : DN), 1, 2, 3, 4, 5, 6] (by decide) (by decide)]
  rfl
theorem rest_dma (c : Dev nD) (a : Fin 6) (h : Fin 2) (j : Fin 4) (hu : used c a j) :
    bigSep ((Rd (F := F) m).duties (dC c a h j) 0 \ ∅) (fun d => (Rd (F := F) m).payload (dC c a h j) 0 d) = dmaPay m c a h j := by
  rw [Finset.sdiff_empty, duties_dma m c a h j hu, bigSep_singleton, payload_dma]

end Tables

/-! ## Payloads can be stored in a cell's invariant -/

instance anyPts_storable {s : Shape} {e : EltTy} (c : Dev nD) (M : Memref sig .tc .vmem s e) (q : PosShare TreeShare) :
    BI.Storable (upEmb : UEmb _ 𝕄) (anyPts (F := F) c M q) := by unfold anyPts slotPts; infer_instance
instance holds_storable (c : Dev nD) (M : Memref sig .tc .vmem S256x256 .bf16) (v : Vec F S256x256 .bf16) :
    BI.Storable (upEmb : UEmb _ 𝕄) (holds c M v) := by unfold holds slotPts; infer_instance
instance barPay_storable (c : Dev nD) (n : DN) : BI.Storable (upEmb : UEmb _ 𝕄) (barPay (F := F) c n) := by
  unfold barPay
  split
  · infer_instance
  · split <;> infer_instance
instance dmaPay_storable (c : Dev nD) (a : Fin 6) (h : Fin 2) (j : Fin 4) : BI.Storable (upEmb : UEmb _ 𝕄) (dmaPay m c a h j) := by
  unfold dmaPay
  split <;> first | infer_instance | (split <;> infer_instance)
instance payload_storable (g : GSem nD τ sig) (r : ℕ) (d : DN) : BI.Storable (upEmb : UEmb _ 𝕄) ((Rd (F := F) m).payload g r d) := by
  rcases g with ⟨t, sm⟩
  cases sm with
  | reg s => exact barPay_storable t.1 d
  | dma s => exact dmaPay_storable m t.1 (aOf s) (hOf s) (jOf s)

attribute [sl_rounds] duties_bar amount_bar amount_dma expect_bar payload_bar payload_dma

/-! ## The barrier cell's payloads, name by name

    As the receiver reads them (`barPay c n`: what its `n`-th neighbour hands `c`), and as the payer reads them: the payload of
    the duty that `c` pays at a neighbour's barrier cell is made of `c`'s own slots. -/

theorem zF_zP (c : Dev nD) (d : ℕ) : zF (zP c d) = zj c d := Fin.ext (zc_zP c d)
theorem yF_yP (c : Dev nD) (d : ℕ) : yF (yP c d) = yj c d := Fin.ext (yc_yP c d)

theorem barPay_0 (c : Dev nD) : barPay (F := F) c 0 = iprop(anyPts (zP c 1) (rbSlot 0 (zF c)) fullShare ∗ anyPts (zP c 1) (rbSlot 1 (zF c)) fullShare) := rfl
theorem barPay_1 (c : Dev nD) : barPay (F := F) c 1 = iprop(anyPts (zP c 2) (rbSlot 0 (zF c)) fullShare ∗ anyPts (zP c 2) (rbSlot 1 (zF c)) fullShare) := rfl
theorem barPay_2 (c : Dev nD) : barPay (F := F) c 2 = iprop(anyPts (zP c 3) (rbSlot 0 (zF c)) fullShare ∗ anyPts (zP c 3) (rbSlot 1 (zF c)) fullShare) := rfl
theorem barPay_3 (c : Dev nD) : barPay (F := F) c 3 = iprop(anyPts (yP c 1) (r1Slot 0 (yF c)) fullShare ∗ anyPts (yP c 1) (r1Slot 1 (yF c)) fullShare) := rfl
theorem barPay_4 (c : Dev nD) : barPay (F := F) c 4 = iprop(anyPts (yP c 2) (r1Slot 0 (yF c)) fullShare ∗ anyPts (yP c 2) (r1Slot 1 (yF c)) fullShare) := rfl
theorem barPay_5 (c : Dev nD) : barPay (F := F) c 5 = iprop(anyPts (yP c 3) (r1Slot 0 (yF c)) fullShare ∗ anyPts (yP c 3) (r1Slot 1 (yF c)) fullShare) := rfl
theorem barPay_6 (c : Dev nD) : barPay (F := F) c 6 =
    iprop((anyPts (xP c) (r2Slot 0 0) fullShare ∗ anyPts (xP c) (r2Slot 0 1) fullShare ∗ anyPts (xP c) (r2Slot 0 2) fullShare ∗ anyPts (xP c) (r2Slot 0 3) fullShare)
      ∗ (anyPts (xP c) (r2Slot 1 0) fullShare ∗ anyPts (xP c) (r2Slot 1 1) fullShare ∗ anyPts (xP c) (r2Slot 1 2) fullShare ∗ anyPts (xP c) (r2Slot 1 3) fullShare)) := rfl

theorem pay_bar_z1 (c : Dev nD) : (Rd (F := F) m).payload (barC (zP c 1)) 0 2 = iprop(anyPts c (rbSlot 0 (zj c 1)) fullShare ∗ anyPts c (rbSlot 1 (zj c 1)) fullShare) := by
  have h1 : zP (zP c 1) 3 = c := nb_nb c 0
  show barPay (zP c 1) 2 = _
  rw [barPay_2, h1, zF_zP]
theorem pay_bar_z2 (c : Dev nD) : (Rd (F := F) m).payload (barC (zP c 2)) 0 1 = iprop(anyPts c (rbSlot 0 (zj c 2)) fullShare ∗ anyPts c (rbSlot 1 (zj c 2)) fullShare) := by
  have h1 : zP (zP c 2) 2 = c := nb_nb c 1
  show barPay (zP c 2) 1 = _
  rw [barPay_1, h1, zF_zP]
theorem pay_bar_z3 (c : Dev nD) : (Rd (F := F) m).payload (barC (zP c 3)) 0 0 = iprop(anyPts c (rbSlot 0 (zj c 3)) fullShare ∗ anyPts c (rbSlot 1 (zj c 3)) fullShare) := by
  have h1 : zP (zP c 3) 1 = c := nb_nb c 2
  show barPay (zP c 3) 0 = _
  rw [barPay_0, h1, zF_zP]
theorem pay_bar_y1 (c : Dev nD) : (Rd (F := F) m).payload (barC (yP c 1)) 0 5 = iprop(anyPts c (r1Slot 0 (yj c 1)) fullShare ∗ anyPts c (r1Slot 1 (yj c 1)) fullShare) := by
  have h1 : yP (yP c 1) 3 = c := nb_nb c 3
  show barPay (yP c 1) 5 = _
  rw [barPay_5, h1, yF_yP]
theorem pay_bar_y2 (c : Dev nD) : (Rd (F := F) m).payload (barC (yP c 2)) 0 4 = iprop(anyPts c (r1Slot 0 (yj c 2)) fullShare ∗ anyPts c (r1Slot 1 (yj c 2)) fullShare) := by
  have h1 : yP (yP c 2) 2 = c := nb_nb c 4
  show barPay (yP c 2) 4 = _
  rw [barPay_4, h1, yF_yP]
theorem pay_bar_y3 (c : Dev nD) : (Rd (F := F) m).payload (barC (yP c 3)) 0 3 = iprop(anyPts c (r1Slot 0 (yj c 3)) fullShare ∗ anyPts c (r1Slot 1 (yj c 3)) fullShare) := by
  have h1 : yP (yP c 3) 1 = c := nb_nb c 5
  show barPay (yP c 3) 3 = _
  rw [barPay_3, h1, yF_yP]
theorem pay_bar_x (c : Dev nD) : (Rd (F := F) m).payload (barC (xP c)) 0 6 =
    iprop((anyPts c (r2Slot 0 0) fullShare ∗ anyPts c (r2Slot 0 1) fullShare ∗ anyPts c (r2Slot 0 2) fullShare ∗ anyPts c (r2Slot 0 3) fullShare)
      ∗ (anyPts c (r2Slot 1 0) fullShare ∗ anyPts c (r2Slot 1 1) fullShare ∗ anyPts c (r2Slot 1 2) fullShare ∗ anyPts c (r2Slot 1 3) fullShare)) := by
  have h1 : xP (xP c) = c := nb_nb c 6
  show barPay (xP c) 6 = _
  rw [barPay_6, h1]

/-! ## What is owed, payment by payment -/

theorem pays_length (c : Dev nD) : (pays c).length = 27 := rfl

/-- All twenty-seven summands, the first payment outermost. -/
theorem owedFrom_zero_eq (c : Dev nD) : owedFrom c 0 =
    (0 : CellTallies nD τ sig Unit)
      + tallyAt (dC (xP c) 5 1 (yj c 3)) () N
      + tallyAt (dC (xP c) 5 1 (yj c 2)) () N
      + tallyAt (dC (xP c) 5 1 (yj c 1)) () N
      + tallyAt (dC (xP c) 5 1 (yF c)) () N
      + tallyAt (dC (yP c 3) 3 1 (yF c)) () N
      + tallyAt (dC (yP c 2) 3 1 (yF c)) () N
      + tallyAt (dC (yP c 1) 3 1 (yF c)) () N
      + tallyAt (dC (xP c) 5 0 (yj c 3)) () N
      + tallyAt (dC (xP c) 5 0 (yj c 2)) () N
      + tallyAt (dC (xP c) 5 0 (yj c 1)) () N
      + tallyAt (dC (xP c) 5 0 (yF c)) () N
      + tallyAt (dC (yP c 3) 3 0 (yF c)) () N
      + tallyAt (dC (yP c 2) 3 0 (yF c)) () N
      + tallyAt (dC (yP c 1) 3 0 (yF c)) () N
      + tallyAt (dC (zP c 3) 1 1 (zF c)) () N
      + tallyAt (dC (zP c 2) 1 1 (zF c)) () N
      + tallyAt (dC (zP c 1) 1 1 (zF c)) () N
      + tallyAt (dC (zP c 3) 1 0 (zF c)) () N
      + tallyAt (dC (zP c 2) 1 0 (zF c)) () N
      + tallyAt (dC (zP c 1) 1 0 (zF c)) () N
      + tallyAt (barC (xP c)) () 1
      + tallyAt (barC (yP c 3)) () 1
      + tallyAt (barC (yP c 2)) () 1
      + tallyAt (barC (yP c 1)) () 1
      + tallyAt (barC (zP c 3)) () 1
      + tallyAt (barC (zP c 2)) () 1
      + tallyAt (barC (zP c 1)) () 1 := rfl

theorem owedFrom_step (c : Dev nD) (k : Fin 27) :
    owedFrom c k.val = owedFrom c (k.val + 1)
      + tallyAt ((pays c).get ⟨k.val, by rw [pays_length]; exact k.isLt⟩).1 () ((pays c).get ⟨k.val, by rw [pays_length]; exact k.isLt⟩).2 := by
  fin_cases k <;> rfl

theorem owedFrom_end (c : Dev nD) : owedFrom c 27 = 0 := rfl

/-- A cell at which a list of payments tallies something is the cell of one of them. -/
theorem tallies_pos {l : List (GSem nD τ sig × ℕ)} {g : GSem nD τ sig} {u : Unit} (h : 0 < tallies l g u) : ∃ p ∈ l, g = p.1 := by
  induction l with
  | nil =>
    rw [tallies, Pi.zero_apply, Finsupp.coe_zero, Pi.zero_apply] at h
    exact absurd h (Nat.lt_irrefl 0)
  | cons p l ih =>
    rw [tallies, Pi.add_apply, Finsupp.add_apply, tallyAt_apply] at h
    by_cases hg : g = p.1
    · exact ⟨p, List.mem_cons.mpr (Or.inl rfl), hg⟩
    · rw [if_neg (fun h' => hg h'.1), Nat.add_zero] at h
      obtain ⟨q, hq, hgq⟩ := ih h
      exact ⟨q, List.mem_cons.mpr (Or.inr hq), hgq⟩

/-- Every payment is addressed to a TensorCore's cell. -/
theorem pays_tc (c : Dev nD) : ∀ p ∈ pays c, p.1.1.2 = Proc.tc := by
  intro p hp
  simp only [pays, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl <;> rfl

/-! ## Levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := rfl
theorem lv_dC (c : Dev nD) (a : Fin 6) (h : Fin 2) (j : Fin 4) : lv (dC c a h j) ()
    = (if a.val = 1 then 2 else if a.val = 3 then (if h.val = 0 then 3 else 5) else if a.val = 5 then (if h.val = 0 then 4 else 6) else 0) := by
  show lvD (dsem a h j) = _
  unfold lvD
  rw [if_neg (Nat.not_lt.mpr (dsem_ge a h j)), aOf_dsem, hOf_dsem]
theorem lv_stage (c : Dev nD) (q : DmaSem sig) (hq : q.val < 3) : lv ((c : Thread nD τ), .dma q) () = 0 := by
  show lvD q = 0
  unfold lvD
  exact if_pos hq

/-- The levels of the twenty-seven payments, in order: they never fall. -/
theorem pays_lv (c : Dev nD) : (pays c).map (fun p => lv p.1 ())
    = [1, 1, 1, 1, 1, 1, 1, 2, 2, 2, 2, 2, 2, 3, 3, 3, 4, 4, 4, 4, 5, 5, 5, 6, 6, 6, 6] := by
  simp only [pays, List.map_cons, List.map_nil, lv_bar, lv_dC]
  rfl

theorem mem_drop_of_le {α : Type} {l : List α} {k₀ k : ℕ} (hk : k₀ ≤ k) {x : α} (hx : x ∈ l.drop k) : x ∈ l.drop k₀ := by
  exact (List.drop_suffix_drop_left l hk).subset hx

/-- From payment `k₀` on every payment's cell lies above `b`, if the levels from `k₀` on do. -/
theorem lv_lt_of_drop (c : Dev nD) (b k₀ : ℕ)
    (hdec : ∀ x ∈ ([1, 1, 1, 1, 1, 1, 1, 2, 2, 2, 2, 2, 2, 3, 3, 3, 4, 4, 4, 4, 5, 5, 5, 6, 6, 6, 6] : List ℕ).drop k₀, b < x)
    (k : ℕ) (hk : k₀ ≤ k) : ∀ p ∈ (pays c).drop k, b < lv p.1 () := by
  intro p hp
  have hp0 := mem_drop_of_le hk hp
  have hmem : lv p.1 () ∈ ((pays c).map (fun p => lv p.1 ())).drop k₀ := by
    rw [← List.map_drop]; exact List.mem_map.mpr ⟨p, hp0, rfl⟩
  rw [pays_lv] at hmem
  exact hdec _ hmem

/-- The wait lemma: a device may wait on a cell of its own that lies below every cell it still owes to. -/
theorem mayWait_from (c : Dev nD) (sm : SemLoc sig) (k : ℕ)
    (hlev : ∀ p ∈ (pays c).drop k, lv ((c : Thread nD τ), sm) () < lv p.1 ()) :
    (levAts L lv : sProp 𝕄) ⊢ MayWait (c : Thread nD τ) sm () (owedFrom c k) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := tallies_pos hg
      rw [L, if_pos (pays_tc c p (List.mem_of_mem_drop hp))]; exact Finset.mem_singleton_self _)
    (fun p hp => by obtain rfl := Finset.mem_singleton.mp hp; exact Nat.le_refl _)
    (fun g u hg => by
      obtain ⟨p, hp, rfl⟩ := tallies_pos hg
      exact hlev p hp)

theorem mayWait_bar (c : Dev nD) : (levAts L lv : sProp 𝕄) ⊢ MayWait (c : Thread nD τ) (.reg barS) () (owedFrom c 7) :=
  mayWait_from c (.reg barS) 7 (lv_lt_of_drop c 1 7 (by decide) 7 (Nat.le_refl _))

theorem mayWait_bR (c : Dev nD) (h : Fin 2) (j : Fin 4) (k : ℕ) (hk : 13 ≤ k) :
    (levAts L lv : sProp 𝕄) ⊢ MayWait (c : Thread nD τ) (.dma (dsem 1 h j)) () (owedFrom c k) :=
  mayWait_from c (.dma (dsem 1 h j)) k (by
    rw [show lv ((c : Thread nD τ), SemLoc.dma (dsem 1 h j)) () = 2 from (lv_dC c 1 h j).trans (if_pos rfl)]
    exact lv_lt_of_drop c 2 13 (by decide) k hk)

theorem mayWait_c1R0 (c : Dev nD) (j : Fin 4) (k : ℕ) (hk : 16 ≤ k) :
    (levAts L lv : sProp 𝕄) ⊢ MayWait (c : Thread nD τ) (.dma (dsem 3 0 j)) () (owedFrom c k) :=
  mayWait_from c (.dma (dsem 3 0 j)) k (by
    rw [show lv ((c : Thread nD τ), SemLoc.dma (dsem 3 0 j)) () = 3 from (lv_dC c 3 0 j).trans (by decide)]
    exact lv_lt_of_drop c 3 16 (by decide) k hk)

theorem mayWait_c2R0 (c : Dev nD) (j : Fin 4) (k : ℕ) (hk : 24 ≤ k) :
    (levAts L lv : sProp 𝕄) ⊢ MayWait (c : Thread nD τ) (.dma (dsem 5 0 j)) () (owedFrom c k) :=
  mayWait_from c (.dma (dsem 5 0 j)) k (by
    rw [show lv ((c : Thread nD τ), SemLoc.dma (dsem 5 0 j)) () = 4 from (lv_dC c 5 0 j).trans (by decide)]
    exact lv_lt_of_drop c 4 24 (by decide) k hk)

theorem mayWait_c1R1 (c : Dev nD) (j : Fin 4) (k : ℕ) (hk : 23 ≤ k) :
    (levAts L lv : sProp 𝕄) ⊢ MayWait (c : Thread nD τ) (.dma (dsem 3 1 j)) () (owedFrom c k) :=
  mayWait_from c (.dma (dsem 3 1 j)) k (by
    rw [show lv ((c : Thread nD τ), SemLoc.dma (dsem 3 1 j)) () = 5 from (lv_dC c 3 1 j).trans (by decide)]
    exact lv_lt_of_drop c 5 23 (by decide) k hk)

/-- After the last payment nothing is owed: any wait is allowed. -/
theorem mayWait_end (c : Dev nD) (sm : SemLoc sig) :
    (levAts L lv : sProp 𝕄) ⊢ MayWait (c : Thread nD τ) sm () (owedFrom c 27) := by
  rw [owedFrom_end, MayWait_zero]; iintro -; iempintro

theorem mayWait_c2R1 (c : Dev nD) (j : Fin 4) :
    (levAts L lv : sProp 𝕄) ⊢ MayWait (c : Thread nD τ) (.dma (dsem 5 1 j)) () (owedFrom c 27) := mayWait_end c _

/-- The pipeline's staging semaphores lie at level 0, below every cell a device ever pays. -/
theorem mayWait_stage_from (c : Dev nD) (q : DmaSem sig) (hq : q.val < 3) (k : ℕ) :
    (levAts L lv : sProp 𝕄) ⊢ MayWait (c : Thread nD τ) (.dma q) () (owedFrom c k) :=
  mayWait_from c (.dma q) k (by
    rw [lv_stage c q hq]
    exact lv_lt_of_drop c 0 0 (by decide) k (Nat.zero_le _))

theorem mayWait_stage (c : Dev nD) (q : DmaSem sig) (hq : q.val < 3) (O : CellTallies nD τ sig Unit) (hO : O = owedFrom c 0 ∨ O = 0) :
    (levAts L lv : sProp 𝕄) ⊢ MayWait (c : Thread nD τ) (.dma q) () O := by
  rcases hO with rfl | rfl
  · exact mayWait_stage_from c q hq 0
  · rw [MayWait_zero]; iintro -; iempintro

/-! ## What the main statements depend on: the three standard principles only -/

/-- info: 'Cert.KernelIdeal.Coll.mayWait_from' depends on axioms: [propext, Classical.choice, Quot.sound] -/
#guard_msgs in #print axioms mayWait_from

/-- info: 'Cert.KernelIdeal.Coll.payload_storable' depends on axioms: [propext, Classical.choice, Quot.sound] -/
#guard_msgs in #print axioms payload_storable

/-- info: 'Cert.KernelIdeal.Coll.owedFrom_step' depends on axioms: [propext, Classical.choice, Quot.sound] -/
#guard_msgs in #print axioms owedFrom_step

end Cert.KernelIdeal.Coll

end
-- ==== Proof.Canon.lean ====
/- The kernel's slices at the offsets it computes from its own position, renamed to the slots and cells of Cells.lean:
   each printed slice of a scratch buffer is the slot at the coordinates the offset's closed form names, each printed
   slice of a semaphore array names the cell at those coordinates. -/
import proofs.«901051_g7700000000001052_dist_rsdw_v7x_xyz2x4x4_z_m1024_d1024_f4096_bf16_1_alg».proof.Proof.Cells

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

@[sl_canon] theorem c_arg10_off2_4_1 : ∀ c : Dev nD,
    ((cc0_scratch7.slice (Rect.unit (s := S2x4) (k0_off2 c 4#32 1#32) S1x1.size (k0_off2_inb c 1 0))).squeeze S_ squeezes_S1x1_S_).sem = dsem 2 0 (yj c 1) := by decide +kernel
@[sl_canon] theorem c_arg10_off2_4_2 : ∀ c : Dev nD,
    ((cc0_scratch7.slice (Rect.unit (s := S2x4) (k0_off2 c 4#32 2#32) S1x1.size (k0_off2_inb c 1 1))).squeeze S_ squeezes_S1x1_S_).sem = dsem 2 0 (yj c 2) := by decide +kernel
@[sl_canon] theorem c_arg10_off2_4_3 : ∀ c : Dev nD,
    ((cc0_scratch7.slice (Rect.unit (s := S2x4) (k0_off2 c 4#32 3#32) S1x1.size (k0_off2_inb c 1 2))).squeeze S_ squeezes_S1x1_S_).sem = dsem 2 0 (yj c 3) := by decide +kernel
@[sl_canon] theorem c_arg10_off6_4_1 : ∀ c : Dev nD,
    ((cc0_scratch7.slice (Rect.unit (s := S2x4) (k0_off6 c 4#32 1#32) S1x1.size (k0_off6_inb c 1 0))).squeeze S_ squeezes_S1x1_S_).sem = dsem 2 1 (yj c 1) := by decide +kernel
@[sl_canon] theorem c_arg10_off6_4_2 : ∀ c : Dev nD,
    ((cc0_scratch7.slice (Rect.unit (s := S2x4) (k0_off6 c 4#32 2#32) S1x1.size (k0_off6_inb c 1 1))).squeeze S_ squeezes_S1x1_S_).sem = dsem 2 1 (yj c 2) := by decide +kernel
@[sl_canon] theorem c_arg10_off6_4_3 : ∀ c : Dev nD,
    ((cc0_scratch7.slice (Rect.unit (s := S2x4) (k0_off6 c 4#32 3#32) S1x1.size (k0_off6_inb c 1 2))).squeeze S_ squeezes_S1x1_S_).sem = dsem 2 1 (yj c 3) := by decide +kernel
@[sl_canon] theorem c_arg11_off2_4_1 : ∀ c : Dev nD,
    ((cc0_scratch8.slice (Rect.unit (s := S2x4) (k0_off2 c 4#32 1#32) S1x1.size (k0_off2_inb c 1 0))).squeeze S_ squeezes_S1x1_S_).sem = dsem 3 0 (yj c 1) := by decide +kernel
@[sl_canon] theorem c_arg11_off2_4_2 : ∀ c : Dev nD,
    ((cc0_scratch8.slice (Rect.unit (s := S2x4) (k0_off2 c 4#32 2#32) S1x1.size (k0_off2_inb c 1 1))).squeeze S_ squeezes_S1x1_S_).sem = dsem 3 0 (yj c 2) := by decide +kernel
@[sl_canon] theorem c_arg11_off2_4_3 : ∀ c : Dev nD,
    ((cc0_scratch8.slice (Rect.unit (s := S2x4) (k0_off2 c 4#32 3#32) S1x1.size (k0_off2_inb c 1 2))).squeeze S_ squeezes_S1x1_S_).sem = dsem 3 0 (yj c 3) := by decide +kernel
@[sl_canon] theorem c_arg11_off3_4 : ∀ c : Dev nD,
    ((cc0_scratch8.slice (Rect.unit (s := S2x4) (k0_off3 c 4#32) S1x1.size (k0_off3_inb c 1))).squeeze S_ squeezes_S1x1_S_).sem = dsem 3 0 (yF c) := by decide +kernel
@[sl_canon] theorem c_arg11_off6_4_1 : ∀ c : Dev nD,
    ((cc0_scratch8.slice (Rect.unit (s := S2x4) (k0_off6 c 4#32 1#32) S1x1.size (k0_off6_inb c 1 0))).squeeze S_ squeezes_S1x1_S_).sem = dsem 3 1 (yj c 1) := by decide +kernel
@[sl_canon] theorem c_arg11_off6_4_2 : ∀ c : Dev nD,
    ((cc0_scratch8.slice (Rect.unit (s := S2x4) (k0_off6 c 4#32 2#32) S1x1.size (k0_off6_inb c 1 1))).squeeze S_ squeezes_S1x1_S_).sem = dsem 3 1 (yj c 2) := by decide +kernel
@[sl_canon] theorem c_arg11_off6_4_3 : ∀ c : Dev nD,
    ((cc0_scratch8.slice (Rect.unit (s := S2x4) (k0_off6 c 4#32 3#32) S1x1.size (k0_off6_inb c 1 2))).squeeze S_ squeezes_S1x1_S_).sem = dsem 3 1 (yj c 3) := by decide +kernel
@[sl_canon] theorem c_arg11_off7_4 : ∀ c : Dev nD,
    ((cc0_scratch8.slice (Rect.unit (s := S2x4) (k0_off7 c 4#32) S1x1.size (k0_off7_inb c 1))).squeeze S_ squeezes_S1x1_S_).sem = dsem 3 1 (yF c) := by decide +kernel
@[sl_canon] theorem c_arg12_off2_4_1 : ∀ c : Dev nD,
    ((cc0_scratch9.slice (Rect.unit (s := S2x4) (k0_off2 c 4#32 1#32) S1x1.size (k0_off2_inb c 1 0))).squeeze S_ squeezes_S1x1_S_).sem = dsem 4 0 (yj c 1) := by decide +kernel
@[sl_canon] theorem c_arg12_off2_4_2 : ∀ c : Dev nD,
    ((cc0_scratch9.slice (Rect.unit (s := S2x4) (k0_off2 c 4#32 2#32) S1x1.size (k0_off2_inb c 1 1))).squeeze S_ squeezes_S1x1_S_).sem = dsem 4 0 (yj c 2) := by decide +kernel
@[sl_canon] theorem c_arg12_off2_4_3 : ∀ c : Dev nD,
    ((cc0_scratch9.slice (Rect.unit (s := S2x4) (k0_off2 c 4#32 3#32) S1x1.size (k0_off2_inb c 1 2))).squeeze S_ squeezes_S1x1_S_).sem = dsem 4 0 (yj c 3) := by decide +kernel
@[sl_canon] theorem c_arg12_off3_4 : ∀ c : Dev nD,
    ((cc0_scratch9.slice (Rect.unit (s := S2x4) (k0_off3 c 4#32) S1x1.size (k0_off3_inb c 1))).squeeze S_ squeezes_S1x1_S_).sem = dsem 4 0 (yF c) := by decide +kernel
@[sl_canon] theorem c_arg12_off6_4_1 : ∀ c : Dev nD,
    ((cc0_scratch9.slice (Rect.unit (s := S2x4) (k0_off6 c 4#32 1#32) S1x1.size (k0_off6_inb c 1 0))).squeeze S_ squeezes_S1x1_S_).sem = dsem 4 1 (yj c 1) := by decide +kernel
@[sl_canon] theorem c_arg12_off6_4_2 : ∀ c : Dev nD,
    ((cc0_scratch9.slice (Rect.unit (s := S2x4) (k0_off6 c 4#32 2#32) S1x1.size (k0_off6_inb c 1 1))).squeeze S_ squeezes_S1x1_S_).sem = dsem 4 1 (yj c 2) := by decide +kernel
@[sl_canon] theorem c_arg12_off6_4_3 : ∀ c : Dev nD,
    ((cc0_scratch9.slice (Rect.unit (s := S2x4) (k0_off6 c 4#32 3#32) S1x1.size (k0_off6_inb c 1 2))).squeeze S_ squeezes_S1x1_S_).sem = dsem 4 1 (yj c 3) := by decide +kernel
@[sl_canon] theorem c_arg12_off7_4 : ∀ c : Dev nD,
    ((cc0_scratch9.slice (Rect.unit (s := S2x4) (k0_off7 c 4#32) S1x1.size (k0_off7_inb c 1))).squeeze S_ squeezes_S1x1_S_).sem = dsem 4 1 (yF c) := by decide +kernel
@[sl_canon] theorem c_arg13_off2_4_1 : ∀ c : Dev nD,
    ((cc0_scratch10.slice (Rect.unit (s := S2x4) (k0_off2 c 4#32 1#32) S1x1.size (k0_off2_inb c 1 0))).squeeze S_ squeezes_S1x1_S_).sem = dsem 5 0 (yj c 1) := by decide +kernel
@[sl_canon] theorem c_arg13_off2_4_2 : ∀ c : Dev nD,
    ((cc0_scratch10.slice (Rect.unit (s := S2x4) (k0_off2 c 4#32 2#32) S1x1.size (k0_off2_inb c 1 1))).squeeze S_ squeezes_S1x1_S_).sem = dsem 5 0 (yj c 2) := by decide +kernel
@[sl_canon] theorem c_arg13_off2_4_3 : ∀ c : Dev nD,
    ((cc0_scratch10.slice (Rect.unit (s := S2x4) (k0_off2 c 4#32 3#32) S1x1.size (k0_off2_inb c 1 2))).squeeze S_ squeezes_S1x1_S_).sem = dsem 5 0 (yj c 3) := by decide +kernel
@[sl_canon] theorem c_arg13_off3_4 : ∀ c : Dev nD,
    ((cc0_scratch10.slice (Rect.unit (s := S2x4) (k0_off3 c 4#32) S1x1.size (k0_off3_inb c 1))).squeeze S_ squeezes_S1x1_S_).sem = dsem 5 0 (yF c) := by decide +kernel
@[sl_canon] theorem c_arg13_off6_4_1 : ∀ c : Dev nD,
    ((cc0_scratch10.slice (Rect.unit (s := S2x4) (k0_off6 c 4#32 1#32) S1x1.size (k0_off6_inb c 1 0))).squeeze S_ squeezes_S1x1_S_).sem = dsem 5 1 (yj c 1) := by decide +kernel
@[sl_canon] theorem c_arg13_off6_4_2 : ∀ c : Dev nD,
    ((cc0_scratch10.slice (Rect.unit (s := S2x4) (k0_off6 c 4#32 2#32) S1x1.size (k0_off6_inb c 1 1))).squeeze S_ squeezes_S1x1_S_).sem = dsem 5 1 (yj c 2) := by decide +kernel
@[sl_canon] theorem c_arg13_off6_4_3 : ∀ c : Dev nD,
    ((cc0_scratch10.slice (Rect.unit (s := S2x4) (k0_off6 c 4#32 3#32) S1x1.size (k0_off6_inb c 1 2))).squeeze S_ squeezes_S1x1_S_).sem = dsem 5 1 (yj c 3) := by decide +kernel
@[sl_canon] theorem c_arg13_off7_4 : ∀ c : Dev nD,
    ((cc0_scratch10.slice (Rect.unit (s := S2x4) (k0_off7 c 4#32) S1x1.size (k0_off7_inb c 1))).squeeze S_ squeezes_S1x1_S_).sem = dsem 5 1 (yF c) := by decide +kernel
@[sl_canon] theorem c_arg3_off12 (c : Dev nD) (hs) :
    (pbM : Memref sig .tc .vmem S1024x512 .bf16).slice (Rect.unit (s := S1024x512) (k0_off12 c) S256x256.size (k0_off12_inb c)) hs = pbM.slice (pbR (zF c) 0) (fun _ => rfl) :=
  Memref.slice_unit_congr _ ((Mesh.off12 c).trans rfl) _ _ _ _
@[sl_canon] theorem c_arg3_off18 (c : Dev nD) (hs) :
    (pbM : Memref sig .tc .vmem S1024x512 .bf16).slice (Rect.unit (s := S1024x512) (k0_off18 c) S256x256.size (k0_off18_inb c)) hs = pbM.slice (pbR (zF c) 1) (fun _ => rfl) :=
  Memref.slice_unit_congr _ ((Mesh.off18 c).trans rfl) _ _ _ _
@[sl_canon] theorem c_arg3_off5_1 (c : Dev nD) (hs) :
    (pbM : Memref sig .tc .vmem S1024x512 .bf16).slice (Rect.unit (s := S1024x512) (k0_off5 c 1#32) S256x256.size (k0_off5_inb c 0)) hs = pbM.slice (pbR (zj c 1) 0) (fun _ => rfl) :=
  Memref.slice_unit_congr _ ((Mesh.off5_1 c).trans rfl) _ _ _ _
@[sl_canon] theorem c_arg3_off5_2 (c : Dev nD) (hs) :
    (pbM : Memref sig .tc .vmem S1024x512 .bf16).slice (Rect.unit (s := S1024x512) (k0_off5 c 2#32) S256x256.size (k0_off5_inb c 1)) hs = pbM.slice (pbR (zj c 2) 0) (fun _ => rfl) :=
  Memref.slice_unit_congr _ ((Mesh.off5_2 c).trans rfl) _ _ _ _
@[sl_canon] theorem c_arg3_off5_3 (c : Dev nD) (hs) :
    (pbM : Memref sig .tc .vmem S1024x512 .bf16).slice (Rect.unit (s := S1024x512) (k0_off5 c 3#32) S256x256.size (k0_off5_inb c 2)) hs = pbM.slice (pbR (zj c 3) 0) (fun _ => rfl) :=
  Memref.slice_unit_congr _ ((Mesh.off5_3 c).trans rfl) _ _ _ _
@[sl_canon] theorem c_arg3_off9_1 (c : Dev nD) (hs) :
    (pbM : Memref sig .tc .vmem S1024x512 .bf16).slice (Rect.unit (s := S1024x512) (k0_off9 c 1#32) S256x256.size (k0_off9_inb c 0)) hs = pbM.slice (pbR (zj c 1) 1) (fun _ => rfl) :=
  Memref.slice_unit_congr _ ((Mesh.off9_1 c).trans rfl) _ _ _ _
@[sl_canon] theorem c_arg3_off9_2 (c : Dev nD) (hs) :
    (pbM : Memref sig .tc .vmem S1024x512 .bf16).slice (Rect.unit (s := S1024x512) (k0_off9 c 2#32) S256x256.size (k0_off9_inb c 1)) hs = pbM.slice (pbR (zj c 2) 1) (fun _ => rfl) :=
  Memref.slice_unit_congr _ ((Mesh.off9_2 c).trans rfl) _ _ _ _
@[sl_canon] theorem c_arg3_off9_3 (c : Dev nD) (hs) :
    (pbM : Memref sig .tc .vmem S1024x512 .bf16).slice (Rect.unit (s := S1024x512) (k0_off9 c 3#32) S256x256.size (k0_off9_inb c 2)) hs = pbM.slice (pbR (zj c 3) 1) (fun _ => rfl) :=
  Memref.slice_unit_congr _ ((Mesh.off9_3 c).trans rfl) _ _ _ _
@[sl_canon] theorem c_arg5_off11_1_1 (c : Dev nD) (hs) :
    (rbM : Memref sig .tc .vmem S2x4x256x256 .bf16).slice (Rect.unit (s := S2x4x256x256) (k0_off11 c 1#32 1#32) S1x1x256x256.size (k0_off11_inb c 0 0)) hs = rbM.slice (r4R 0 (zj c 1)) (fun _ => rfl) :=
  Memref.slice_unit_congr _ ((Mesh.off11_1_1 c).trans rfl) _ _ _ _
@[sl_canon] theorem c_arg5_off11_1_2 (c : Dev nD) (hs) :
    (rbM : Memref sig .tc .vmem S2x4x256x256 .bf16).slice (Rect.unit (s := S2x4x256x256) (k0_off11 c 1#32 2#32) S1x1x256x256.size (k0_off11_inb c 0 1)) hs = rbM.slice (r4R 0 (zj c 2)) (fun _ => rfl) :=
  Memref.slice_unit_congr _ ((Mesh.off11_1_2 c).trans rfl) _ _ _ _
@[sl_canon] theorem c_arg5_off11_1_3 (c : Dev nD) (hs) :
    (rbM : Memref sig .tc .vmem S2x4x256x256 .bf16).slice (Rect.unit (s := S2x4x256x256) (k0_off11 c 1#32 3#32) S1x1x256x256.size (k0_off11_inb c 0 2)) hs = rbM.slice (r4R 0 (zj c 3)) (fun _ => rfl) :=
  Memref.slice_unit_congr _ ((Mesh.off11_1_3 c).trans rfl) _ _ _ _
@[sl_canon] theorem c_arg5_off17_1_1 (c : Dev nD) (hs) :
    (rbM : Memref sig .tc .vmem S2x4x256x256 .bf16).slice (Rect.unit (s := S2x4x256x256) (k0_off17 c 1#32 1#32) S1x1x256x256.size (k0_off17_inb c 0 0)) hs = rbM.slice (r4R 1 (zj c 1)) (fun _ => rfl) :=
  Memref.slice_unit_congr _ ((Mesh.off17_1_1 c).trans rfl) _ _ _ _
@[sl_canon] theorem c_arg5_off17_1_2 (c : Dev nD) (hs) :
    (rbM : Memref sig .tc .vmem S2x4x256x256 .bf16).slice (Rect.unit (s := S2x4x256x256) (k0_off17 c 1#32 2#32) S1x1x256x256.size (k0_off17_inb c 0 1)) hs = rbM.slice (r4R 1 (zj c 2)) (fun _ => rfl) :=
  Memref.slice_unit_congr _ ((Mesh.off17_1_2 c).trans rfl) _ _ _ _
@[sl_canon] theorem c_arg5_off17_1_3 (c : Dev nD) (hs) :
    (rbM : Memref sig .tc .vmem S2x4x256x256 .bf16).slice (Rect.unit (s := S2x4x256x256) (k0_off17 c 1#32 3#32) S1x1x256x256.size (k0_off17_inb c 0 2)) hs = rbM.slice (r4R 1 (zj c 3)) (fun _ => rfl) :=
  Memref.slice_unit_congr _ ((Mesh.off17_1_3 c).trans rfl) _ _ _ _
@[sl_canon] theorem c_arg5_off4_1 (c : Dev nD) (hs) :
    (rbM : Memref sig .tc .vmem S2x4x256x256 .bf16).slice (Rect.unit (s := S2x4x256x256) (k0_off4 c 1#32) S1x1x256x256.size (k0_off4_inb c 0)) hs = rbM.slice (r4R 0 (zF c)) (fun _ => rfl) :=
  Memref.slice_unit_congr _ ((Mesh.off4_1 c).trans rfl) _ _ _ _
@[sl_canon] theorem c_arg5_off8_1 (c : Dev nD) (hs) :
    (rbM : Memref sig .tc .vmem S2x4x256x256 .bf16).slice (Rect.unit (s := S2x4x256x256) (k0_off8 c 1#32) S1x1x256x256.size (k0_off8_inb c 0)) hs = rbM.slice (r4R 1 (zF c)) (fun _ => rfl) :=
  Memref.slice_unit_congr _ ((Mesh.off8_1 c).trans rfl) _ _ _ _
@[sl_canon] theorem c_arg6_off11_4_1 (c : Dev nD) (hs) :
    (r1M : Memref sig .tc .vmem S2x4x256x256 .bf16).slice (Rect.unit (s := S2x4x256x256) (k0_off11 c 4#32 1#32) S1x1x256x256.size (k0_off11_inb c 1 0)) hs = r1M.slice (r4R 0 (yj c 1)) (fun _ => rfl) :=
  Memref.slice_unit_congr _ ((Mesh.off11_4_1 c).trans rfl) _ _ _ _
@[sl_canon] theorem c_arg6_off11_4_2 (c : Dev nD) (hs) :
    (r1M : Memref sig .tc .vmem S2x4x256x256 .bf16).slice (Rect.unit (s := S2x4x256x256) (k0_off11 c 4#32 2#32) S1x1x256x256.size (k0_off11_inb c 1 1)) hs = r1M.slice (r4R 0 (yj c 2)) (fun _ => rfl) :=
  Memref.slice_unit_congr _ ((Mesh.off11_4_2 c).trans rfl) _ _ _ _
@[sl_canon] theorem c_arg6_off11_4_3 (c : Dev nD) (hs) :
    (r1M : Memref sig .tc .vmem S2x4x256x256 .bf16).slice (Rect.unit (s := S2x4x256x256) (k0_off11 c 4#32 3#32) S1x1x256x256.size (k0_off11_inb c 1 2)) hs = r1M.slice (r4R 0 (yj c 3)) (fun _ => rfl) :=
  Memref.slice_unit_congr _ ((Mesh.off11_4_3 c).trans rfl) _ _ _ _
@[sl_canon] theorem c_arg6_off17_4_1 (c : Dev nD) (hs) :
    (r1M : Memref sig .tc .vmem S2x4x256x256 .bf16).slice (Rect.unit (s := S2x4x256x256) (k0_off17 c 4#32 1#32) S1x1x256x256.size (k0_off17_inb c 1 0)) hs = r1M.slice (r4R 1 (yj c 1)) (fun _ => rfl) :=
  Memref.slice_unit_congr _ ((Mesh.off17_4_1 c).trans rfl) _ _ _ _
@[sl_canon] theorem c_arg6_off17_4_2 (c : Dev nD) (hs) :
    (r1M : Memref sig .tc .vmem S2x4x256x256 .bf16).slice (Rect.unit (s := S2x4x256x256) (k0_off17 c 4#32 2#32) S1x1x256x256.size (k0_off17_inb c 1 1)) hs = r1M.slice (r4R 1 (yj c 2)) (fun _ => rfl) :=
  Memref.slice_unit_congr _ ((Mesh.off17_4_2 c).trans rfl) _ _ _ _
@[sl_canon] theorem c_arg6_off17_4_3 (c : Dev nD) (hs) :
    (r1M : Memref sig .tc .vmem S2x4x256x256 .bf16).slice (Rect.unit (s := S2x4x256x256) (k0_off17 c 4#32 3#32) S1x1x256x256.size (k0_off17_inb c 1 2)) hs = r1M.slice (r4R 1 (yj c 3)) (fun _ => rfl) :=
  Memref.slice_unit_congr _ ((Mesh.off17_4_3 c).trans rfl) _ _ _ _
@[sl_canon] theorem c_arg6_off4_4 (c : Dev nD) (hs) :
    (r1M : Memref sig .tc .vmem S2x4x256x256 .bf16).slice (Rect.unit (s := S2x4x256x256) (k0_off4 c 4#32) S1x1x256x256.size (k0_off4_inb c 1)) hs = r1M.slice (r4R 0 (yF c)) (fun _ => rfl) :=
  Memref.slice_unit_congr _ ((Mesh.off4_4 c).trans rfl) _ _ _ _
@[sl_canon] theorem c_arg6_off8_4 (c : Dev nD) (hs) :
    (r1M : Memref sig .tc .vmem S2x4x256x256 .bf16).slice (Rect.unit (s := S2x4x256x256) (k0_off8 c 4#32) S1x1x256x256.size (k0_off8_inb c 1)) hs = r1M.slice (r4R 1 (yF c)) (fun _ => rfl) :=
  Memref.slice_unit_congr _ ((Mesh.off8_4 c).trans rfl) _ _ _ _
@[sl_canon] theorem c_arg7_off11_4_1 (c : Dev nD) (hs) :
    (r2M : Memref sig .tc .vmem S2x4x256x256 .bf16).slice (Rect.unit (s := S2x4x256x256) (k0_off11 c 4#32 1#32) S1x1x256x256.size (k0_off11_inb c 1 0)) hs = r2M.slice (r4R 0 (yj c 1)) (fun _ => rfl) :=
  Memref.slice_unit_congr _ ((Mesh.off11_4_1 c).trans rfl) _ _ _ _
@[sl_canon] theorem c_arg7_off11_4_2 (c : Dev nD) (hs) :
    (r2M : Memref sig .tc .vmem S2x4x256x256 .bf16).slice (Rect.unit (s := S2x4x256x256) (k0_off11 c 4#32 2#32) S1x1x256x256.size (k0_off11_inb c 1 1)) hs = r2M.slice (r4R 0 (yj c 2)) (fun _ => rfl) :=
  Memref.slice_unit_congr _ ((Mesh.off11_4_2 c).trans rfl) _ _ _ _
@[sl_canon] theorem c_arg7_off11_4_3 (c : Dev nD) (hs) :
    (r2M : Memref sig .tc .vmem S2x4x256x256 .bf16).slice (Rect.unit (s := S2x4x256x256) (k0_off11 c 4#32 3#32) S1x1x256x256.size (k0_off11_inb c 1 2)) hs = r2M.slice (r4R 0 (yj c 3)) (fun _ => rfl) :=
  Memref.slice_unit_congr _ ((Mesh.off11_4_3 c).trans rfl) _ _ _ _
@[sl_canon] theorem c_arg7_off17_4_1 (c : Dev nD) (hs) :
    (r2M : Memref sig .tc .vmem S2x4x256x256 .bf16).slice (Rect.unit (s := S2x4x256x256) (k0_off17 c 4#32 1#32) S1x1x256x256.size (k0_off17_inb c 1 0)) hs = r2M.slice (r4R 1 (yj c 1)) (fun _ => rfl) :=
  Memref.slice_unit_congr _ ((Mesh.off17_4_1 c).trans rfl) _ _ _ _
@[sl_canon] theorem c_arg7_off17_4_2 (c : Dev nD) (hs) :
    (r2M : Memref sig .tc .vmem S2x4x256x256 .bf16).slice (Rect.unit (s := S2x4x256x256) (k0_off17 c 4#32 2#32) S1x1x256x256.size (k0_off17_inb c 1 1)) hs = r2M.slice (r4R 1 (yj c 2)) (fun _ => rfl) :=
  Memref.slice_unit_congr _ ((Mesh.off17_4_2 c).trans rfl) _ _ _ _
@[sl_canon] theorem c_arg7_off17_4_3 (c : Dev nD) (hs) :
    (r2M : Memref sig .tc .vmem S2x4x256x256 .bf16).slice (Rect.unit (s := S2x4x256x256) (k0_off17 c 4#32 3#32) S1x1x256x256.size (k0_off17_inb c 1 2)) hs = r2M.slice (r4R 1 (yj c 3)) (fun _ => rfl) :=
  Memref.slice_unit_congr _ ((Mesh.off17_4_3 c).trans rfl) _ _ _ _
@[sl_canon] theorem c_arg7_off4_4 (c : Dev nD) (hs) :
    (r2M : Memref sig .tc .vmem S2x4x256x256 .bf16).slice (Rect.unit (s := S2x4x256x256) (k0_off4 c 4#32) S1x1x256x256.size (k0_off4_inb c 1)) hs = r2M.slice (r4R 0 (yF c)) (fun _ => rfl) :=
  Memref.slice_unit_congr _ ((Mesh.off4_4 c).trans rfl) _ _ _ _
@[sl_canon] theorem c_arg7_off8_4 (c : Dev nD) (hs) :
    (r2M : Memref sig .tc .vmem S2x4x256x256 .bf16).slice (Rect.unit (s := S2x4x256x256) (k0_off8 c 4#32) S1x1x256x256.size (k0_off8_inb c 1)) hs = r2M.slice (r4R 1 (yF c)) (fun _ => rfl) :=
  Memref.slice_unit_congr _ ((Mesh.off8_4 c).trans rfl) _ _ _ _
@[sl_canon] theorem c_arg8_off2_1_1 : ∀ c : Dev nD,
    ((cc0_scratch5.slice (Rect.unit (s := S2x4) (k0_off2 c 1#32 1#32) S1x1.size (k0_off2_inb c 0 0))).squeeze S_ squeezes_S1x1_S_).sem = dsem 0 0 (zj c 1) := by decide +kernel
@[sl_canon] theorem c_arg8_off2_1_2 : ∀ c : Dev nD,
    ((cc0_scratch5.slice (Rect.unit (s := S2x4) (k0_off2 c 1#32 2#32) S1x1.size (k0_off2_inb c 0 1))).squeeze S_ squeezes_S1x1_S_).sem = dsem 0 0 (zj c 2) := by decide +kernel
@[sl_canon] theorem c_arg8_off2_1_3 : ∀ c : Dev nD,
    ((cc0_scratch5.slice (Rect.unit (s := S2x4) (k0_off2 c 1#32 3#32) S1x1.size (k0_off2_inb c 0 2))).squeeze S_ squeezes_S1x1_S_).sem = dsem 0 0 (zj c 3) := by decide +kernel
@[sl_canon] theorem c_arg8_off6_1_1 : ∀ c : Dev nD,
    ((cc0_scratch5.slice (Rect.unit (s := S2x4) (k0_off6 c 1#32 1#32) S1x1.size (k0_off6_inb c 0 0))).squeeze S_ squeezes_S1x1_S_).sem = dsem 0 1 (zj c 1) := by decide +kernel
@[sl_canon] theorem c_arg8_off6_1_2 : ∀ c : Dev nD,
    ((cc0_scratch5.slice (Rect.unit (s := S2x4) (k0_off6 c 1#32 2#32) S1x1.size (k0_off6_inb c 0 1))).squeeze S_ squeezes_S1x1_S_).sem = dsem 0 1 (zj c 2) := by decide +kernel
@[sl_canon] theorem c_arg8_off6_1_3 : ∀ c : Dev nD,
    ((cc0_scratch5.slice (Rect.unit (s := S2x4) (k0_off6 c 1#32 3#32) S1x1.size (k0_off6_inb c 0 2))).squeeze S_ squeezes_S1x1_S_).sem = dsem 0 1 (zj c 3) := by decide +kernel
@[sl_canon] theorem c_arg9_off2_1_1 : ∀ c : Dev nD,
    ((cc0_scratch6.slice (Rect.unit (s := S2x4) (k0_off2 c 1#32 1#32) S1x1.size (k0_off2_inb c 0 0))).squeeze S_ squeezes_S1x1_S_).sem = dsem 1 0 (zj c 1) := by decide +kernel
@[sl_canon] theorem c_arg9_off2_1_2 : ∀ c : Dev nD,
    ((cc0_scratch6.slice (Rect.unit (s := S2x4) (k0_off2 c 1#32 2#32) S1x1.size (k0_off2_inb c 0 1))).squeeze S_ squeezes_S1x1_S_).sem = dsem 1 0 (zj c 2) := by decide +kernel
@[sl_canon] theorem c_arg9_off2_1_3 : ∀ c : Dev nD,
    ((cc0_scratch6.slice (Rect.unit (s := S2x4) (k0_off2 c 1#32 3#32) S1x1.size (k0_off2_inb c 0 2))).squeeze S_ squeezes_S1x1_S_).sem = dsem 1 0 (zj c 3) := by decide +kernel
@[sl_canon] theorem c_arg9_off3_1 : ∀ c : Dev nD,
    ((cc0_scratch6.slice (Rect.unit (s := S2x4) (k0_off3 c 1#32) S1x1.size (k0_off3_inb c 0))).squeeze S_ squeezes_S1x1_S_).sem = dsem 1 0 (zF c) := by decide +kernel
@[sl_canon] theorem c_arg9_off6_1_1 : ∀ c : Dev nD,
    ((cc0_scratch6.slice (Rect.unit (s := S2x4) (k0_off6 c 1#32 1#32) S1x1.size (k0_off6_inb c 0 0))).squeeze S_ squeezes_S1x1_S_).sem = dsem 1 1 (zj c 1) := by decide +kernel
@[sl_canon] theorem c_arg9_off6_1_2 : ∀ c : Dev nD,
    ((cc0_scratch6.slice (Rect.unit (s := S2x4) (k0_off6 c 1#32 2#32) S1x1.size (k0_off6_inb c 0 1))).squeeze S_ squeezes_S1x1_S_).sem = dsem 1 1 (zj c 2) := by decide +kernel
@[sl_canon] theorem c_arg9_off6_1_3 : ∀ c : Dev nD,
    ((cc0_scratch6.slice (Rect.unit (s := S2x4) (k0_off6 c 1#32 3#32) S1x1.size (k0_off6_inb c 0 2))).squeeze S_ squeezes_S1x1_S_).sem = dsem 1 1 (zj c 3) := by decide +kernel
@[sl_canon] theorem c_arg9_off7_1 : ∀ c : Dev nD,
    ((cc0_scratch6.slice (Rect.unit (s := S2x4) (k0_off7 c 1#32) S1x1.size (k0_off7_inb c 0))).squeeze S_ squeezes_S1x1_S_).sem = dsem 1 1 (zF c) := by decide +kernel
@[sl_canon] theorem c_r2lit_0_0 (hs) :
    (r2M : Memref sig .tc .vmem S2x4x256x256 .bf16).slice (Rect.unit (s := S2x4x256x256) ![0, 0, 0, 0] S1x1x256x256.size inb_S2x4x256x256_S1x1x256x256_0_0_0_0) hs = r2M.slice (r4R 0 0) (fun _ => rfl) :=
  Memref.slice_unit_congr _ rfl _ _ _ _
@[sl_canon] theorem c_c2Rlit_0_0 :
    ((cc0_scratch10.slice (Rect.unit (s := S2x4) ![0, 0] S1x1.size inb_S2x4_S1x1_0_0)).squeeze S_ squeezes_S1x1_S_).sem = dsem 5 0 0 := by decide +kernel
@[sl_canon] theorem c_r2lit_0_1 (hs) :
    (r2M : Memref sig .tc .vmem S2x4x256x256 .bf16).slice (Rect.unit (s := S2x4x256x256) ![0, 1, 0, 0] S1x1x256x256.size inb_S2x4x256x256_S1x1x256x256_0_1_0_0) hs = r2M.slice (r4R 0 1) (fun _ => rfl) :=
  Memref.slice_unit_congr _ rfl _ _ _ _
@[sl_canon] theorem c_c2Rlit_0_1 :
    ((cc0_scratch10.slice (Rect.unit (s := S2x4) ![0, 1] S1x1.size inb_S2x4_S1x1_0_1)).squeeze S_ squeezes_S1x1_S_).sem = dsem 5 0 1 := by decide +kernel
@[sl_canon] theorem c_r2lit_0_2 (hs) :
    (r2M : Memref sig .tc .vmem S2x4x256x256 .bf16).slice (Rect.unit (s := S2x4x256x256) ![0, 2, 0, 0] S1x1x256x256.size inb_S2x4x256x256_S1x1x256x256_0_2_0_0) hs = r2M.slice (r4R 0 2) (fun _ => rfl) :=
  Memref.slice_unit_congr _ rfl _ _ _ _
@[sl_canon] theorem c_c2Rlit_0_2 :
    ((cc0_scratch10.slice (Rect.unit (s := S2x4) ![0, 2] S1x1.size inb_S2x4_S1x1_0_2)).squeeze S_ squeezes_S1x1_S_).sem = dsem 5 0 2 := by decide +kernel
@[sl_canon] theorem c_r2lit_0_3 (hs) :
    (r2M : Memref sig .tc .vmem S2x4x256x256 .bf16).slice (Rect.unit (s := S2x4x256x256) ![0, 3, 0, 0] S1x1x256x256.size inb_S2x4x256x256_S1x1x256x256_0_3_0_0) hs = r2M.slice (r4R 0 3) (fun _ => rfl) :=
  Memref.slice_unit_congr _ rfl _ _ _ _
@[sl_canon] theorem c_c2Rlit_0_3 :
    ((cc0_scratch10.slice (Rect.unit (s := S2x4) ![0, 3] S1x1.size inb_S2x4_S1x1_0_3)).squeeze S_ squeezes_S1x1_S_).sem = dsem 5 0 3 := by decide +kernel
@[sl_canon] theorem c_r2lit_1_0 (hs) :
    (r2M : Memref sig .tc .vmem S2x4x256x256 .bf16).slice (Rect.unit (s := S2x4x256x256) ![1, 0, 0, 0] S1x1x256x256.size inb_S2x4x256x256_S1x1x256x256_1_0_0_0) hs = r2M.slice (r4R 1 0) (fun _ => rfl) :=
  Memref.slice_unit_congr _ rfl _ _ _ _
@[sl_canon] theorem c_c2Rlit_1_0 :
    ((cc0_scratch10.slice (Rect.unit (s := S2x4) ![1, 0] S1x1.size inb_S2x4_S1x1_1_0)).squeeze S_ squeezes_S1x1_S_).sem = dsem 5 1 0 := by decide +kernel
@[sl_canon] theorem c_r2lit_1_1 (hs) :
    (r2M : Memref sig .tc .vmem S2x4x256x256 .bf16).slice (Rect.unit (s := S2x4x256x256) ![1, 1, 0, 0] S1x1x256x256.size inb_S2x4x256x256_S1x1x256x256_1_1_0_0) hs = r2M.slice (r4R 1 1) (fun _ => rfl) :=
  Memref.slice_unit_congr _ rfl _ _ _ _
@[sl_canon] theorem c_c2Rlit_1_1 :
    ((cc0_scratch10.slice (Rect.unit (s := S2x4) ![1, 1] S1x1.size inb_S2x4_S1x1_1_1)).squeeze S_ squeezes_S1x1_S_).sem = dsem 5 1 1 := by decide +kernel
@[sl_canon] theorem c_r2lit_1_2 (hs) :
    (r2M : Memref sig .tc .vmem S2x4x256x256 .bf16).slice (Rect.unit (s := S2x4x256x256) ![1, 2, 0, 0] S1x1x256x256.size inb_S2x4x256x256_S1x1x256x256_1_2_0_0) hs = r2M.slice (r4R 1 2) (fun _ => rfl) :=
  Memref.slice_unit_congr _ rfl _ _ _ _
@[sl_canon] theorem c_c2Rlit_1_2 :
    ((cc0_scratch10.slice (Rect.unit (s := S2x4) ![1, 2] S1x1.size inb_S2x4_S1x1_1_2)).squeeze S_ squeezes_S1x1_S_).sem = dsem 5 1 2 := by decide +kernel
@[sl_canon] theorem c_r2lit_1_3 (hs) :
    (r2M : Memref sig .tc .vmem S2x4x256x256 .bf16).slice (Rect.unit (s := S2x4x256x256) ![1, 3, 0, 0] S1x1x256x256.size inb_S2x4x256x256_S1x1x256x256_1_3_0_0) hs = r2M.slice (r4R 1 3) (fun _ => rfl) :=
  Memref.slice_unit_congr _ rfl _ _ _ _
@[sl_canon] theorem c_c2Rlit_1_3 :
    ((cc0_scratch10.slice (Rect.unit (s := S2x4) ![1, 3] S1x1.size inb_S2x4_S1x1_1_3)).squeeze S_ squeezes_S1x1_S_).sem = dsem 5 1 3 := by decide +kernel
@[sl_canon] theorem c_redlit_0 (hs) :
    (redM : Memref sig .tc .vmem S2x256x256 .bf16).slice (Rect.unit (s := S2x256x256) ![0, 0, 0] S1x256x256.size inb_S2x256x256_S1x256x256_0_0_0) hs = redM.slice (redR 0) (fun _ => rfl) :=
  Memref.slice_unit_congr _ rfl _ _ _ _
@[sl_canon] theorem c_redlit_1 (hs) :
    (redM : Memref sig .tc .vmem S2x256x256 .bf16).slice (Rect.unit (s := S2x256x256) ![1, 0, 0] S1x256x256.size inb_S2x256x256_S1x256x256_1_0_0) hs = redM.slice (redR 1) (fun _ => rfl) :=
  Memref.slice_unit_congr _ rfl _ _ _ _

/-- The devices the kernel addresses, as the neighbours. -/
@[sl_canon] theorem c_dev1 (c : Dev nD) : (⟨k0_dev1 c, k0_dev1_lt c⟩ : Dev nD) = zP c 1 := Mesh.dev1_eq c
@[sl_canon] theorem c_dev2 (c : Dev nD) : (⟨k0_dev2 c, k0_dev2_lt c⟩ : Dev nD) = zP c 2 := Mesh.dev2_eq c
@[sl_canon] theorem c_dev3 (c : Dev nD) : (⟨k0_dev3 c, k0_dev3_lt c⟩ : Dev nD) = zP c 3 := Mesh.dev3_eq c
@[sl_canon] theorem c_dev4 (c : Dev nD) : (⟨k0_dev4 c, k0_dev4_lt c⟩ : Dev nD) = yP c 1 := Mesh.dev4_eq c
@[sl_canon] theorem c_dev5 (c : Dev nD) : (⟨k0_dev5 c, k0_dev5_lt c⟩ : Dev nD) = yP c 2 := Mesh.dev5_eq c
@[sl_canon] theorem c_dev6 (c : Dev nD) : (⟨k0_dev6 c, k0_dev6_lt c⟩ : Dev nD) = yP c 3 := Mesh.dev6_eq c
@[sl_canon] theorem c_dev7 (c : Dev nD) : (⟨k0_dev7 c, k0_dev7_lt c⟩ : Dev nD) = xP c := Mesh.dev7_eq c
@[sl_canon] theorem c_dev8 (c : Dev nD) : (⟨k0_dev8 c, k0_dev8_lt c⟩ : Dev nD) = zP c 1 := Mesh.dev8_eq c
@[sl_canon] theorem c_dev9 (c : Dev nD) : (⟨k0_dev9 c, k0_dev9_lt c⟩ : Dev nD) = zP c 2 := Mesh.dev9_eq c
@[sl_canon] theorem c_dev10 (c : Dev nD) : (⟨k0_dev10 c, k0_dev10_lt c⟩ : Dev nD) = zP c 3 := Mesh.dev10_eq c
@[sl_canon] theorem c_dev11 (c : Dev nD) : (⟨k0_dev11 c, k0_dev11_lt c⟩ : Dev nD) = zP c 1 := Mesh.dev11_eq c
@[sl_canon] theorem c_dev12 (c : Dev nD) : (⟨k0_dev12 c, k0_dev12_lt c⟩ : Dev nD) = zP c 2 := Mesh.dev12_eq c
@[sl_canon] theorem c_dev13 (c : Dev nD) : (⟨k0_dev13 c, k0_dev13_lt c⟩ : Dev nD) = zP c 3 := Mesh.dev13_eq c
@[sl_canon] theorem c_dev14 (c : Dev nD) : (⟨k0_dev14 c, k0_dev14_lt c⟩ : Dev nD) = yP c 1 := Mesh.dev14_eq c
@[sl_canon] theorem c_dev15 (c : Dev nD) : (⟨k0_dev15 c, k0_dev15_lt c⟩ : Dev nD) = yP c 2 := Mesh.dev15_eq c
@[sl_canon] theorem c_dev16 (c : Dev nD) : (⟨k0_dev16 c, k0_dev16_lt c⟩ : Dev nD) = yP c 3 := Mesh.dev16_eq c
@[sl_canon] theorem c_dev17 (c : Dev nD) : (⟨k0_dev17 c, k0_dev17_lt c⟩ : Dev nD) = xP c := Mesh.dev17_eq c
@[sl_canon] theorem c_dev18 (c : Dev nD) : (⟨k0_dev18 c, k0_dev18_lt c⟩ : Dev nD) = xP c := Mesh.dev18_eq c
@[sl_canon] theorem c_dev19 (c : Dev nD) : (⟨k0_dev19 c, k0_dev19_lt c⟩ : Dev nD) = xP c := Mesh.dev19_eq c
@[sl_canon] theorem c_dev20 (c : Dev nD) : (⟨k0_dev20 c, k0_dev20_lt c⟩ : Dev nD) = xP c := Mesh.dev20_eq c
@[sl_canon] theorem c_dev21 (c : Dev nD) : (⟨k0_dev21 c, k0_dev21_lt c⟩ : Dev nD) = yP c 1 := Mesh.dev21_eq c
@[sl_canon] theorem c_dev22 (c : Dev nD) : (⟨k0_dev22 c, k0_dev22_lt c⟩ : Dev nD) = yP c 2 := Mesh.dev22_eq c
@[sl_canon] theorem c_dev23 (c : Dev nD) : (⟨k0_dev23 c, k0_dev23_lt c⟩ : Dev nD) = yP c 3 := Mesh.dev23_eq c
@[sl_canon] theorem c_dev24 (c : Dev nD) : (⟨k0_dev24 c, k0_dev24_lt c⟩ : Dev nD) = xP c := Mesh.dev24_eq c
@[sl_canon] theorem c_dev25 (c : Dev nD) : (⟨k0_dev25 c, k0_dev25_lt c⟩ : Dev nD) = xP c := Mesh.dev25_eq c
@[sl_canon] theorem c_dev26 (c : Dev nD) : (⟨k0_dev26 c, k0_dev26_lt c⟩ : Dev nD) = xP c := Mesh.dev26_eq c
@[sl_canon] theorem c_dev27 (c : Dev nD) : (⟨k0_dev27 c, k0_dev27_lt c⟩ : Dev nD) = xP c := Mesh.dev27_eq c

end Cert.KernelIdeal.Coll

end
-- ==== Proof.Slots.lean ====
/- A device's scratch buffers held slot by slot. The element set of a 256 × 256 slot is a unit rectangle of its
   buffer, in closed form; the slots of one buffer are pairwise disjoint and cover it, so the buffer's points-to is
   the separating conjunction of its slots' and the slots held at any contents join back to the buffer; and a
   conjunction over the four coordinates of an axis may be listed from the device's own coordinate onwards. -/
import proofs.«901051_g7700000000001052_dist_rsdw_v7x_xyz2x4x4_z_m1024_d1024_f4096_bf16_1_alg».proof.Proof.Cells
import Idealize.ShloMosaic.Lib.Ring
import Idealize.ShloMosaic.Rules.PointsTo

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The element sets of the slots -/

theorem pbSlot_set (j : Fin 4) (h : Fin 2) : (pbSlot j h).view.set = (pbR j h).set :=
  View.set_slice_whole cc0_scratch0 (pbR j h)

theorem redSlot_set (h : Fin 2) : (redSlot h).view.set = (redR h).set :=
  (View.set_reshape (redM.slice (redR h) (fun _ => rfl)).view squeezes_S1x256x256_S256x256.numel_eq).trans
    (View.set_slice_whole cc0_scratch1 (redR h))

theorem rbSlot_set (h : Fin 2) (j : Fin 4) : (rbSlot h j).view.set = (r4R h j).set :=
  (View.set_reshape (rbM.slice (r4R h j) (fun _ => rfl)).view squeezes_S1x1x256x256_S256x256.numel_eq).trans
    (View.set_slice_whole cc0_scratch2 (r4R h j))

theorem r1Slot_set (h : Fin 2) (j : Fin 4) : (r1Slot h j).view.set = (r4R h j).set :=
  (View.set_reshape (r1M.slice (r4R h j) (fun _ => rfl)).view squeezes_S1x1x256x256_S256x256.numel_eq).trans
    (View.set_slice_whole cc0_scratch3 (r4R h j))

theorem r2Slot_set (h : Fin 2) (j : Fin 4) : (r2Slot h j).view.set = (r4R h j).set :=
  (View.set_reshape (r2M.slice (r4R h j) (fun _ => rfl)).view squeezes_S1x1x256x256_S256x256.numel_eq).trans
    (View.set_slice_whole cc0_scratch4 (r4R h j))

/-! ## Membership in closed form -/

theorem mem_r4R {h : Fin 2} {j : Fin 4} {i : S2x4x256x256.Idx} :
    i ∈ (r4R h j).set ↔ (i 0).val = h.val ∧ (i 1).val = j.val := by
  rw [Rect.mem_set_unit]
  constructor
  · intro H
    have h0 : h.val ≤ (i 0).val ∧ (i 0).val < h.val + 1 := H 0
    have h1 : j.val ≤ (i 1).val ∧ (i 1).val < j.val + 1 := H 1
    omega
  · rintro ⟨h0, h1⟩ a
    have h2 : (i 2).val < 256 := (i 2).isLt
    have h3 : (i 3).val < 256 := (i 3).isLt
    fin_cases a
    · show h.val ≤ (i 0).val ∧ (i 0).val < h.val + 1; omega
    · show j.val ≤ (i 1).val ∧ (i 1).val < j.val + 1; omega
    · show 0 ≤ (i 2).val ∧ (i 2).val < 0 + 256; omega
    · show 0 ≤ (i 3).val ∧ (i 3).val < 0 + 256; omega

theorem mem_pbR {j : Fin 4} {h : Fin 2} {i : S1024x512.Idx} :
    i ∈ (pbR j h).set ↔ 256 * j.val ≤ (i 0).val ∧ (i 0).val < 256 * j.val + 256 ∧ 256 * h.val ≤ (i 1).val ∧ (i 1).val < 256 * h.val + 256 := by
  rw [Rect.mem_set_unit]
  constructor
  · intro H
    have h0 : 256 * j.val ≤ (i 0).val ∧ (i 0).val < 256 * j.val + 256 := H 0
    have h1 : 256 * h.val ≤ (i 1).val ∧ (i 1).val < 256 * h.val + 256 := H 1
    exact ⟨h0.1, h0.2, h1.1, h1.2⟩
  · rintro ⟨h0, h0', h1, h1'⟩ a
    fin_cases a
    · exact ⟨h0, h0'⟩
    · exact ⟨h1, h1'⟩

theorem mem_redR {h : Fin 2} {i : S2x256x256.Idx} : i ∈ (redR h).set ↔ (i 0).val = h.val := by
  rw [Rect.mem_set_unit]
  constructor
  · intro H
    have h0 : h.val ≤ (i 0).val ∧ (i 0).val < h.val + 1 := H 0
    omega
  · intro h0 a
    have h1 : (i 1).val < 256 := (i 1).isLt
    have h2 : (i 2).val < 256 := (i 2).isLt
    fin_cases a
    · show h.val ≤ (i 0).val ∧ (i 0).val < h.val + 1; omega
    · show 0 ≤ (i 1).val ∧ (i 1).val < 0 + 256; omega
    · show 0 ≤ (i 2).val ∧ (i 2).val < 0 + 256; omega

theorem mem_oR {q : Fin 8} {h : Fin 2} {i : S256x4096.Idx} :
    i ∈ (oR q h).set ↔ 512 * q.val + 256 * h.val ≤ (i 1).val ∧ (i 1).val < 512 * q.val + 256 * h.val + 256 := by
  rw [Rect.mem_set_unit]
  constructor
  · intro H; exact H 1
  · intro h1 a
    have h0 : (i 0).val < 256 := (i 0).isLt
    fin_cases a
    · show 0 ≤ (i 0).val ∧ (i 0).val < 0 + 256; omega
    · exact h1

/-! ## The rectangles of one buffer: pairwise disjoint, and every element in one -/

theorem r4R_disjoint (a b : Fin 2 × Fin 4) (hab : a ≠ b) : Disjoint (r4R a.1 a.2).set (r4R b.1 b.2).set := by
  rw [Finset.disjoint_left]
  intro i hi hi'
  have h1 := mem_r4R.mp hi
  have h2 := mem_r4R.mp hi'
  exact hab (Prod.ext (Fin.ext (h1.1.symm.trans h2.1)) (Fin.ext (h1.2.symm.trans h2.2)))

theorem r4R_covers (i : S2x4x256x256.Idx) : ∃ a : Fin 2 × Fin 4, i ∈ (r4R a.1 a.2).set :=
  ⟨(⟨(i 0).val, (i 0).isLt⟩, ⟨(i 1).val, (i 1).isLt⟩), mem_r4R.mpr ⟨rfl, rfl⟩⟩

theorem redR_disjoint (a b : Fin 2) (hab : a ≠ b) : Disjoint (redR a).set (redR b).set := by
  rw [Finset.disjoint_left]
  intro i hi hi'
  exact hab (Fin.ext ((mem_redR.mp hi).symm.trans (mem_redR.mp hi')))

theorem redR_covers (i : S2x256x256.Idx) : ∃ a : Fin 2, i ∈ (redR a).set :=
  ⟨⟨(i 0).val, (i 0).isLt⟩, mem_redR.mpr rfl⟩

theorem pbR_disjoint (a b : Fin 4 × Fin 2) (hab : a ≠ b) : Disjoint (pbR a.1 a.2).set (pbR b.1 b.2).set := by
  rw [Finset.disjoint_left]
  intro i hi hi'
  have h1 := mem_pbR.mp hi
  have h2 := mem_pbR.mp hi'
  exact hab (Prod.ext (Fin.ext (by omega)) (Fin.ext (by omega)))

theorem pbR_covers (i : S1024x512.Idx) : ∃ a : Fin 4 × Fin 2, i ∈ (pbR a.1 a.2).set := by
  have h0 : (i 0).val < 1024 := (i 0).isLt
  have h1 : (i 1).val < 512 := (i 1).isLt
  refine ⟨(⟨(i 0).val / 256, by omega⟩, ⟨(i 1).val / 256, by omega⟩), mem_pbR.mpr ?_⟩
  show 256 * ((i 0).val / 256) ≤ (i 0).val ∧ (i 0).val < 256 * ((i 0).val / 256) + 256
    ∧ 256 * ((i 1).val / 256) ≤ (i 1).val ∧ (i 1).val < 256 * ((i 1).val / 256) + 256
  omega

/-! ## Conjunctions over small index types, listed -/

theorem bigSep_fin2 (Φ : Fin 2 → sProp 𝕄) : bigSep Finset.univ Φ = iprop(Φ 0 ∗ Φ 1) :=
  bigSep_univ_eq_bigSepL [0, 1] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_fin2x4 (Φ : Fin 2 × Fin 4 → sProp 𝕄) :
    bigSep Finset.univ Φ = iprop((Φ (0, 0) ∗ Φ (0, 1) ∗ Φ (0, 2) ∗ Φ (0, 3)) ∗ (Φ (1, 0) ∗ Φ (1, 1) ∗ Φ (1, 2) ∗ Φ (1, 3))) := by
  rw [bigSep_univ_prod, bigSep_fin2, bigSep_fin4, bigSep_fin4]

theorem bigSep_fin4x2 (Φ : Fin 4 × Fin 2 → sProp 𝕄) :
    bigSep Finset.univ Φ = iprop((Φ (0, 0) ∗ Φ (0, 1)) ∗ (Φ (1, 0) ∗ Φ (1, 1)) ∗ (Φ (2, 0) ∗ Φ (2, 1)) ∗ (Φ (3, 0) ∗ Φ (3, 1))) := by
  rw [bigSep_univ_prod, bigSep_fin4, bigSep_fin2, bigSep_fin2, bigSep_fin2, bigSep_fin2]

/-! ## The four coordinates of an axis, listed from the device's own -/

/-- `d ↦ (z + d) mod 4`: a rotation of the four z coordinates. -/
def zrot (c : Dev nD) : Fin 4 ≃ Fin 4 where
  toFun d := zj c d.val
  invFun k := ⟨(k.val + 4 - zc c) % 4, Nat.mod_lt _ (by decide)⟩
  left_inv d := by
    apply Fin.ext; have := zc_lt c; have := d.isLt
    show ((zc c + d.val) % 4 + 4 - zc c) % 4 = d.val
    omega
  right_inv k := by
    apply Fin.ext; have := zc_lt c; have := k.isLt
    show (zc c + (k.val + 4 - zc c) % 4) % 4 = k.val
    omega

/-- `d ↦ (y + d) mod 4`: a rotation of the four y coordinates. -/
def yrot (c : Dev nD) : Fin 4 ≃ Fin 4 where
  toFun d := yj c d.val
  invFun k := ⟨(k.val + 4 - yc c) % 4, Nat.mod_lt _ (by decide)⟩
  left_inv d := by
    apply Fin.ext; have := yc_lt c; have := d.isLt
    show ((yc c + d.val) % 4 + 4 - yc c) % 4 = d.val
    omega
  right_inv k := by
    apply Fin.ext; have := yc_lt c; have := k.isLt
    show (yc c + (k.val + 4 - yc c) % 4) % 4 = k.val
    omega

theorem zj_zero (c : Dev nD) : zj c 0 = zF c := Fin.ext (Nat.mod_eq_of_lt (zc_lt c))
theorem yj_zero (c : Dev nD) : yj c 0 = yF c := Fin.ext (Nat.mod_eq_of_lt (yc_lt c))

theorem bigSep_zrot (c : Dev nD) (Φ : Fin 4 → sProp 𝕄) :
    bigSep Finset.univ Φ = iprop(Φ (zF c) ∗ Φ (zj c 1) ∗ Φ (zj c 2) ∗ Φ (zj c 3)) := by
  rw [bigSep_univ_equiv (zrot c) Φ, bigSep_fin4, ← zj_zero c] <;> rfl

theorem bigSep_yrot (c : Dev nD) (Φ : Fin 4 → sProp 𝕄) :
    bigSep Finset.univ Φ = iprop(Φ (yF c) ∗ Φ (yj c 1) ∗ Φ (yj c 2) ∗ Φ (yj c 3)) := by
  rw [bigSep_univ_equiv (yrot c) Φ, bigSep_fin4, ← yj_zero c] <;> rfl

/-! ## A buffer as its blocks, and back -/

/-- Blocks each held at some contents join to the buffer at some contents; the contents a join over no block at all
    would have to name are read off a block that is there. -/
theorem blocks_join {ℓ : Loc nD τ sig} {B : Type} [Fintype B] [DecidableEq B] (I : B → Finset (Idealize.ShloMosaic.Idx ℓ))
    (hd : ∀ b b', b ≠ b' → Disjoint (I b) (I b')) (hc : Finset.univ.biUnion I = Finset.univ) (b0 : B) {q : PosShare TreeShare} :
    bigSep Finset.univ (fun b => iprop(∃ f, ℓ ↦[I b]{q} f)) ⊢ (iprop(∃ g, ℓ ↦{q} g) : sProp 𝕄) := by
  have hs : bigSep Finset.univ (fun b => (iprop(∃ f, ℓ ↦[I b]{q} f) : sProp 𝕄))
      = iprop((∃ f, ℓ ↦[I b0]{q} f) ∗ bigSep (Finset.univ.erase b0) (fun b => iprop(∃ f, ℓ ↦[I b]{q} f))) := by
    exact (congrArg (fun s : Finset B => bigSep s (fun b => (iprop(∃ f, ℓ ↦[I b]{q} f) : sProp 𝕄)))
      (Finset.insert_erase (Finset.mem_univ b0)).symm).trans (bigSep_insert (Finset.notMem_erase b0 _))
  refine (Entails.of_eq hs).trans ?_
  iintro ⟨⟨%f0, H0⟩, Hr⟩
  iapply (Ring.pointsTo_blocks_join_exists I hd hc f0)
  iapply (Entails.of_eq hs.symm)
  isplitl [H0]
  · iexists f0; iexact H0
  · iexact Hr

/-! ### The partial products `cc0_scratch0` by their eight blocks `pbSlot j h` -/

/-- The slots' element sets, as sets of elements of the device's buffer. -/
abbrev pbI (c : Dev nD) : Fin 4 × Fin 2 → Finset (Idealize.ShloMosaic.Idx ((c : Thread nD τ).loc cc0_scratch0)) :=
  fun a => (pbSlot a.1 a.2).view.set

theorem pb_hd (c : Dev nD) : ∀ a b : Fin 4 × Fin 2, a ≠ b → Disjoint (pbI c a) (pbI c b) := by
  intro a b hab
  show Disjoint (pbSlot a.1 a.2).view.set (pbSlot b.1 b.2).view.set
  rw [pbSlot_set, pbSlot_set]
  exact pbR_disjoint a b hab

theorem pb_hc (c : Dev nD) : Finset.univ.biUnion (pbI c) = Finset.univ := by
  ext i
  simp only [Finset.mem_biUnion, Finset.mem_univ, true_and, iff_true]
  obtain ⟨a, ha⟩ := pbR_covers i
  refine ⟨a, ?_⟩
  show i ∈ (pbSlot a.1 a.2).view.set
  rw [pbSlot_set]; exact ha

/-- The buffer held whole is its slots, each held by its own elements. -/
theorem pb_split (c : Dev nD) (q : PosShare TreeShare) (f : Buf (Elt F) ((c : Thread nD τ).loc cc0_scratch0)) :
    (((c : Thread nD τ).loc cc0_scratch0) ↦{q} f : sProp 𝕄)
      = bigSep Finset.univ fun jh : Fin 4 × Fin 2 => slotPts c (pbSlot jh.1 jh.2) q f :=
  Ring.pointsTo_blocks (pbI c) (pb_hd c) (pb_hc c) f

/-- The slots, each at some contents, are the buffer at some contents. -/
theorem pb_join (c : Dev nD) :
    bigSep Finset.univ (fun jh : Fin 4 × Fin 2 => iprop(∃ f, slotPts (F := F) c (pbSlot jh.1 jh.2) fullShare f))
      ⊢ iprop(∃ g, ((c : Thread nD τ).loc cc0_scratch0) ↦{fullShare} g) :=
  blocks_join (pbI c) (pb_hd c) (pb_hc c) (0, 0)

/-! ### The sums `cc0_scratch1` by their two halves `redSlot h` -/

/-- The slots' element sets, as sets of elements of the device's buffer. -/
abbrev redI (c : Dev nD) : Fin 2 → Finset (Idealize.ShloMosaic.Idx ((c : Thread nD τ).loc cc0_scratch1)) :=
  fun a => (redSlot a).view.set

theorem red_hd (c : Dev nD) : ∀ a b : Fin 2, a ≠ b → Disjoint (redI c a) (redI c b) := by
  intro a b hab
  show Disjoint (redSlot a).view.set (redSlot b).view.set
  rw [redSlot_set, redSlot_set]
  exact redR_disjoint a b hab

theorem red_hc (c : Dev nD) : Finset.univ.biUnion (redI c) = Finset.univ := by
  ext i
  simp only [Finset.mem_biUnion, Finset.mem_univ, true_and, iff_true]
  obtain ⟨a, ha⟩ := redR_covers i
  refine ⟨a, ?_⟩
  show i ∈ (redSlot a).view.set
  rw [redSlot_set]; exact ha

/-- The buffer held whole is its slots, each held by its own elements. -/
theorem red_split (c : Dev nD) (q : PosShare TreeShare) (f : Buf (Elt F) ((c : Thread nD τ).loc cc0_scratch1)) :
    (((c : Thread nD τ).loc cc0_scratch1) ↦{q} f : sProp 𝕄)
      = bigSep Finset.univ fun h : Fin 2 => slotPts c (redSlot h) q f :=
  Ring.pointsTo_blocks (redI c) (red_hd c) (red_hc c) f

/-- The slots, each at some contents, are the buffer at some contents. -/
theorem red_join (c : Dev nD) :
    bigSep Finset.univ (fun h : Fin 2 => iprop(∃ f, slotPts (F := F) c (redSlot h) fullShare f))
      ⊢ iprop(∃ g, ((c : Thread nD τ).loc cc0_scratch1) ↦{fullShare} g) :=
  blocks_join (redI c) (red_hd c) (red_hc c) 0

/-! ### The z phase's receive buffer `cc0_scratch2` by its eight slots `rbSlot h j` -/

/-- The slots' element sets, as sets of elements of the device's buffer. -/
abbrev rbI (c : Dev nD) : Fin 2 × Fin 4 → Finset (Idealize.ShloMosaic.Idx ((c : Thread nD τ).loc cc0_scratch2)) :=
  fun a => (rbSlot a.1 a.2).view.set

theorem rb_hd (c : Dev nD) : ∀ a b : Fin 2 × Fin 4, a ≠ b → Disjoint (rbI c a) (rbI c b) := by
  intro a b hab
  show Disjoint (rbSlot a.1 a.2).view.set (rbSlot b.1 b.2).view.set
  rw [rbSlot_set, rbSlot_set]
  exact r4R_disjoint a b hab

theorem rb_hc (c : Dev nD) : Finset.univ.biUnion (rbI c) = Finset.univ := by
  ext i
  simp only [Finset.mem_biUnion, Finset.mem_univ, true_and, iff_true]
  obtain ⟨a, ha⟩ := r4R_covers i
  refine ⟨a, ?_⟩
  show i ∈ (rbSlot a.1 a.2).view.set
  rw [rbSlot_set]; exact ha

/-- The buffer held whole is its slots, each held by its own elements. -/
theorem rb_split (c : Dev nD) (q : PosShare TreeShare) (f : Buf (Elt F) ((c : Thread nD τ).loc cc0_scratch2)) :
    (((c : Thread nD τ).loc cc0_scratch2) ↦{q} f : sProp 𝕄)
      = bigSep Finset.univ fun hj : Fin 2 × Fin 4 => slotPts c (rbSlot hj.1 hj.2) q f :=
  Ring.pointsTo_blocks (rbI c) (rb_hd c) (rb_hc c) f

/-- The slots, each at some contents, are the buffer at some contents. -/
theorem rb_join (c : Dev nD) :
    bigSep Finset.univ (fun hj : Fin 2 × Fin 4 => iprop(∃ f, slotPts (F := F) c (rbSlot hj.1 hj.2) fullShare f))
      ⊢ iprop(∃ g, ((c : Thread nD τ).loc cc0_scratch2) ↦{fullShare} g) :=
  blocks_join (rbI c) (rb_hd c) (rb_hc c) (0, 0)

/-! ### The y phase's receive buffer `cc0_scratch3` by its eight slots `r1Slot h j` -/

/-- The slots' element sets, as sets of elements of the device's buffer. -/
abbrev r1I (c : Dev nD) : Fin 2 × Fin 4 → Finset (Idealize.ShloMosaic.Idx ((c : Thread nD τ).loc cc0_scratch3)) :=
  fun a => (r1Slot a.1 a.2).view.set

theorem r1_hd (c : Dev nD) : ∀ a b : Fin 2 × Fin 4, a ≠ b → Disjoint (r1I c a) (r1I c b) := by
  intro a b hab
  show Disjoint (r1Slot a.1 a.2).view.set (r1Slot b.1 b.2).view.set
  rw [r1Slot_set, r1Slot_set]
  exact r4R_disjoint a b hab

theorem r1_hc (c : Dev nD) : Finset.univ.biUnion (r1I c) = Finset.univ := by
  ext i
  simp only [Finset.mem_biUnion, Finset.mem_univ, true_and, iff_true]
  obtain ⟨a, ha⟩ := r4R_covers i
  refine ⟨a, ?_⟩
  show i ∈ (r1Slot a.1 a.2).view.set
  rw [r1Slot_set]; exact ha

/-- The buffer held whole is its slots, each held by its own elements. -/
theorem r1_split (c : Dev nD) (q : PosShare TreeShare) (f : Buf (Elt F) ((c : Thread nD τ).loc cc0_scratch3)) :
    (((c : Thread nD τ).loc cc0_scratch3) ↦{q} f : sProp 𝕄)
      = bigSep Finset.univ fun hj : Fin 2 × Fin 4 => slotPts c (r1Slot hj.1 hj.2) q f :=
  Ring.pointsTo_blocks (r1I c) (r1_hd c) (r1_hc c) f

/-- The slots, each at some contents, are the buffer at some contents. -/
theorem r1_join (c : Dev nD) :
    bigSep Finset.univ (fun hj : Fin 2 × Fin 4 => iprop(∃ f, slotPts (F := F) c (r1Slot hj.1 hj.2) fullShare f))
      ⊢ iprop(∃ g, ((c : Thread nD τ).loc cc0_scratch3) ↦{fullShare} g) :=
  blocks_join (r1I c) (r1_hd c) (r1_hc c) (0, 0)

/-! ### The x phase's receive buffer `cc0_scratch4` by its eight slots `r2Slot h j` -/

/-- The slots' element sets, as sets of elements of the device's buffer. -/
abbrev r2I (c : Dev nD) : Fin 2 × Fin 4 → Finset (Idealize.ShloMosaic.Idx ((c : Thread nD τ).loc cc0_scratch4)) :=
  fun a => (r2Slot a.1 a.2).view.set

theorem r2_hd (c : Dev nD) : ∀ a b : Fin 2 × Fin 4, a ≠ b → Disjoint (r2I c a) (r2I c b) := by
  intro a b hab
  show Disjoint (r2Slot a.1 a.2).view.set (r2Slot b.1 b.2).view.set
  rw [r2Slot_set, r2Slot_set]
  exact r4R_disjoint a b hab

theorem r2_hc (c : Dev nD) : Finset.univ.biUnion (r2I c) = Finset.univ := by
  ext i
  simp only [Finset.mem_biUnion, Finset.mem_univ, true_and, iff_true]
  obtain ⟨a, ha⟩ := r4R_covers i
  refine ⟨a, ?_⟩
  show i ∈ (r2Slot a.1 a.2).view.set
  rw [r2Slot_set]; exact ha

/-- The buffer held whole is its slots, each held by its own elements. -/
theorem r2_split (c : Dev nD) (q : PosShare TreeShare) (f : Buf (Elt F) ((c : Thread nD τ).loc cc0_scratch4)) :
    (((c : Thread nD τ).loc cc0_scratch4) ↦{q} f : sProp 𝕄)
      = bigSep Finset.univ fun hj : Fin 2 × Fin 4 => slotPts c (r2Slot hj.1 hj.2) q f :=
  Ring.pointsTo_blocks (r2I c) (r2_hd c) (r2_hc c) f

/-- The slots, each at some contents, are the buffer at some contents. -/
theorem r2_join (c : Dev nD) :
    bigSep Finset.univ (fun hj : Fin 2 × Fin 4 => iprop(∃ f, slotPts (F := F) c (r2Slot hj.1 hj.2) fullShare f))
      ⊢ iprop(∃ g, ((c : Thread nD τ).loc cc0_scratch4) ↦{fullShare} g) :=
  blocks_join (r2I c) (r2_hd c) (r2_hc c) (0, 0)

/-- info: 'Cert.KernelIdeal.Coll.rb_split' depends on axioms: [propext, Classical.choice, Quot.sound] -/
#guard_msgs in #print axioms rb_split

/-- info: 'Cert.KernelIdeal.Coll.rb_join' depends on axioms: [propext, Classical.choice, Quot.sound] -/
#guard_msgs in #print axioms rb_join

end Cert.KernelIdeal.Coll

end
-- ==== Proof.SlotShares.lean ====
/- Shares of a slot. A sum block is read by four transfers at once and a gathered block by its relay and a load: the
   slot held in full is the remainder of the full share beside the read shares, and back; and two shares of the same
   elements, each at contents known only to exist, join to their composite at some contents, because holders of the
   same elements agree on what they hold. -/
import proofs.«901051_g7700000000001052_dist_rsdw_v7x_xyz2x4x4_z_m1024_d1024_f4096_bf16_1_alg».proof.Proof.Sched
import Idealize.ShloMosaic.Lib.Transfers
import Idealize.ShloMosaic.Rules.PointsTo

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ UU ℕ

/-! ## The full share as a remainder and read shares -/

/-- The full share of a sum block: what is kept beside the four shares its four transfers read through. -/
theorem red_shares (c : Dev nD) (h : Fin 2) (f : Buf (Elt F) ((redSlot h).view.loc (c : Thread nD τ))) :
    slotPts (F := F) c (redSlot h) fullShare f
      ⊣⊢ iprop(slotPts c (redSlot h) (Transfers.shareDrop fullShare 4) f ∗ slotPts c (redSlot h) (qS 0) f ∗ slotPts c (redSlot h) (qS 1) f
        ∗ slotPts c (redSlot h) (qS 2) f ∗ slotPts c (redSlot h) (qS 3) f) := by
  have hh := Transfers.pointsTo_toks (nD := nD) (τ := τ) (sig := sig) (Ix := Unit) (Val := Elt F) (Name := ℕ) (U := UU) (Lvl := ℕ)
    (ℓ := (redSlot h).view.loc (c : Thread nD τ)) (S := (redSlot h).view.set) (f := f) fullShare 4
  rw [bigSep_univ_eq_bigSepL [0, 1, 2, 3] (by decide) (by decide)] at hh
  exact hh

/-- The full share of a gathered block: what is kept beside the share its relay reads through. -/
theorem r1_shares (c : Dev nD) (h : Fin 2) (j : Fin 4) (f : Buf (Elt F) ((r1Slot h j).view.loc (c : Thread nD τ))) :
    slotPts (F := F) c (r1Slot h j) fullShare f
      ⊣⊢ iprop(slotPts c (r1Slot h j) (Transfers.shareDrop fullShare 1) f ∗ slotPts c (r1Slot h j) qR f) :=
  pointsTo_share (PosShare.mem_left_op_right fullShare)

/-! ## Joining shares held at contents known only to exist -/

section Join

variable {ℓ : Loc nD τ sig} {I : Finset (Idx ℓ)} {q q₁ q₂ : PosShare TreeShare}

/-- Two shares of the same elements, at contents that must agree there, are their composite at the first's contents. -/
theorem join_pair (hq : q ∈ q₁ ·? q₂) (f g : Buf (Elt F) ℓ) :
    iprop((ℓ ↦[I]{q₁} f) ∗ ℓ ↦[I]{q₂} g) ⊢ (ℓ ↦[I]{q} f : sProp 𝕄) :=
  Laws.pure_elim _ pointsTo_agree fun hfg => by
    have e : (ℓ ↦[I]{q₂} g : sProp 𝕄) = ℓ ↦[I]{q₂} f :=
      pointsTo_congr fun i hi => ((hfg i (Finset.mem_inter.mpr ⟨hi, hi⟩)).1).symm
    rw [e]; exact (pointsTo_share hq).2

theorem join_any (hq : q ∈ q₁ ·? q₂) :
    iprop((∃ f, ℓ ↦[I]{q₁} f) ∗ (∃ g, ℓ ↦[I]{q₂} g)) ⊢ (iprop(∃ f, ℓ ↦[I]{q} f) : sProp 𝕄) := by
  iintro ⟨⟨%f, H1⟩, ⟨%g, H2⟩⟩
  iexists f
  iapply (join_pair hq f g)
  isplitl [H1]
  · iexact H1
  · iexact H2

end Join

/-- info: 'Cert.KernelIdeal.Coll.red_shares' depends on axioms: [propext, Classical.choice, Quot.sound] -/
#guard_msgs in #print axioms red_shares

/-- info: 'Cert.KernelIdeal.Coll.join_any' depends on axioms: [propext, Classical.choice, Quot.sound] -/
#guard_msgs in #print axioms join_any

end Cert.KernelIdeal.Coll

end
-- ==== Proof.SlotsRel.lean ====
/- The scratch buffers of a device as the separating conjunction of their slots, written out as chains in the order the
   body meets them: the receive buffers of the z and y phases and the partial products by the coordinate counted from the
   device's own, the x phase's receive buffer by the eight slots as they are numbered, the sums by their two halves; and
   the same chains of slots, each at some contents, joined back to the buffer at some contents. -/
import proofs.«901051_g7700000000001052_dist_rsdw_v7x_xyz2x4x4_z_m1024_d1024_f4096_bf16_1_alg».proof.Proof.Slots
import proofs.«901051_g7700000000001052_dist_rsdw_v7x_xyz2x4x4_z_m1024_d1024_f4096_bf16_1_alg».proof.Proof.Sched

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over two halves and four coordinates, the coordinates counted from the device's own -/

theorem bigSep_2x4_zrel (c : Dev nD) (Φ : Fin 2 × Fin 4 → sProp 𝕄) :
    bigSep Finset.univ Φ = iprop((Φ (0, zF c) ∗ Φ (0, zj c 1) ∗ Φ (0, zj c 2) ∗ Φ (0, zj c 3))
      ∗ (Φ (1, zF c) ∗ Φ (1, zj c 1) ∗ Φ (1, zj c 2) ∗ Φ (1, zj c 3))) := by
  rw [bigSep_univ_prod, bigSep_fin2, bigSep_zrot c, bigSep_zrot c]

theorem bigSep_2x4_yrel (c : Dev nD) (Φ : Fin 2 × Fin 4 → sProp 𝕄) :
    bigSep Finset.univ Φ = iprop((Φ (0, yF c) ∗ Φ (0, yj c 1) ∗ Φ (0, yj c 2) ∗ Φ (0, yj c 3))
      ∗ (Φ (1, yF c) ∗ Φ (1, yj c 1) ∗ Φ (1, yj c 2) ∗ Φ (1, yj c 3))) := by
  rw [bigSep_univ_prod, bigSep_fin2, bigSep_yrot c, bigSep_yrot c]

/-- The same with the coordinate first and the half second, the halves still outermost. -/
theorem bigSep_4x2_zrel (c : Dev nD) (Φ : Fin 4 × Fin 2 → sProp 𝕄) :
    bigSep Finset.univ Φ = iprop((Φ (zF c, 0) ∗ Φ (zj c 1, 0) ∗ Φ (zj c 2, 0) ∗ Φ (zj c 3, 0))
      ∗ (Φ (zF c, 1) ∗ Φ (zj c 1, 1) ∗ Φ (zj c 2, 1) ∗ Φ (zj c 3, 1))) := by
  rw [bigSep_univ_equiv (Equiv.prodComm (Fin 2) (Fin 4)) Φ, bigSep_univ_prod, bigSep_fin2, bigSep_zrot c, bigSep_zrot c] <;> rfl

/-! ## The buffers held whole as chains of slots -/

theorem rb_rel (c : Dev nD) (f : Buf (Elt F) ((c : Thread nD τ).loc cc0_scratch2)) :
    (((c : Thread nD τ).loc cc0_scratch2) ↦{fullShare} f : sProp 𝕄)
      = iprop((slotPts c (rbSlot 0 (zF c)) fullShare f ∗ slotPts c (rbSlot 0 (zj c 1)) fullShare f ∗ slotPts c (rbSlot 0 (zj c 2)) fullShare f ∗ slotPts c (rbSlot 0 (zj c 3)) fullShare f) ∗ (slotPts c (rbSlot 1 (zF c)) fullShare f ∗ slotPts c (rbSlot 1 (zj c 1)) fullShare f ∗ slotPts c (rbSlot 1 (zj c 2)) fullShare f ∗ slotPts c (rbSlot 1 (zj c 3)) fullShare f)) :=
  (rb_split c fullShare f).trans (bigSep_2x4_zrel c _)

theorem r1_rel (c : Dev nD) (f : Buf (Elt F) ((c : Thread nD τ).loc cc0_scratch3)) :
    (((c : Thread nD τ).loc cc0_scratch3) ↦{fullShare} f : sProp 𝕄)
      = iprop((slotPts c (r1Slot 0 (yF c)) fullShare f ∗ slotPts c (r1Slot 0 (yj c 1)) fullShare f ∗ slotPts c (r1Slot 0 (yj c 2)) fullShare f ∗ slotPts c (r1Slot 0 (yj c 3)) fullShare f) ∗ (slotPts c (r1Slot 1 (yF c)) fullShare f ∗ slotPts c (r1Slot 1 (yj c 1)) fullShare f ∗ slotPts c (r1Slot 1 (yj c 2)) fullShare f ∗ slotPts c (r1Slot 1 (yj c 3)) fullShare f)) :=
  (r1_split c fullShare f).trans (bigSep_2x4_yrel c _)

theorem r2_abs (c : Dev nD) (f : Buf (Elt F) ((c : Thread nD τ).loc cc0_scratch4)) :
    (((c : Thread nD τ).loc cc0_scratch4) ↦{fullShare} f : sProp 𝕄)
      = iprop((slotPts c (r2Slot 0 0) fullShare f ∗ slotPts c (r2Slot 0 1) fullShare f ∗ slotPts c (r2Slot 0 2) fullShare f ∗ slotPts c (r2Slot 0 3) fullShare f) ∗ (slotPts c (r2Slot 1 0) fullShare f ∗ slotPts c (r2Slot 1 1) fullShare f ∗ slotPts c (r2Slot 1 2) fullShare f ∗ slotPts c (r2Slot 1 3) fullShare f)) :=
  (r2_split c fullShare f).trans (bigSep_fin2x4 _)

theorem pb_rel (c : Dev nD) (f : Buf (Elt F) ((c : Thread nD τ).loc cc0_scratch0)) :
    (((c : Thread nD τ).loc cc0_scratch0) ↦{fullShare} f : sProp 𝕄)
      = iprop((slotPts c (pbSlot (zF c) 0) fullShare f ∗ slotPts c (pbSlot (zj c 1) 0) fullShare f ∗ slotPts c (pbSlot (zj c 2) 0) fullShare f ∗ slotPts c (pbSlot (zj c 3) 0) fullShare f) ∗ (slotPts c (pbSlot (zF c) 1) fullShare f ∗ slotPts c (pbSlot (zj c 1) 1) fullShare f ∗ slotPts c (pbSlot (zj c 2) 1) fullShare f ∗ slotPts c (pbSlot (zj c 3) 1) fullShare f)) :=
  (pb_split c fullShare f).trans (bigSep_4x2_zrel c _)

theorem red_two (c : Dev nD) (f : Buf (Elt F) ((c : Thread nD τ).loc cc0_scratch1)) :
    (((c : Thread nD τ).loc cc0_scratch1) ↦{fullShare} f : sProp 𝕄)
      = iprop(slotPts c (redSlot 0) fullShare f ∗ slotPts c (redSlot 1) fullShare f) :=
  (red_split c fullShare f).trans (bigSep_fin2 _)

/-! ## The chains of slots, each at some contents, joined back -/

theorem rb_rel_join (c : Dev nD) :
    iprop(((∃ f, slotPts (F := F) c (rbSlot 0 (zF c)) fullShare f) ∗ (∃ f, slotPts (F := F) c (rbSlot 0 (zj c 1)) fullShare f) ∗ (∃ f, slotPts (F := F) c (rbSlot 0 (zj c 2)) fullShare f) ∗ (∃ f, slotPts (F := F) c (rbSlot 0 (zj c 3)) fullShare f)) ∗ ((∃ f, slotPts (F := F) c (rbSlot 1 (zF c)) fullShare f) ∗ (∃ f, slotPts (F := F) c (rbSlot 1 (zj c 1)) fullShare f) ∗ (∃ f, slotPts (F := F) c (rbSlot 1 (zj c 2)) fullShare f) ∗ (∃ f, slotPts (F := F) c (rbSlot 1 (zj c 3)) fullShare f)))
      ⊢ iprop(∃ g, ((c : Thread nD τ).loc cc0_scratch2) ↦{fullShare} g) :=
  (Entails.of_eq (bigSep_2x4_zrel c (fun hj : Fin 2 × Fin 4 => iprop(∃ f, slotPts (F := F) c (rbSlot hj.1 hj.2) fullShare f))).symm).trans (rb_join c)

theorem r1_rel_join (c : Dev nD) :
    iprop(((∃ f, slotPts (F := F) c (r1Slot 0 (yF c)) fullShare f) ∗ (∃ f, slotPts (F := F) c (r1Slot 0 (yj c 1)) fullShare f) ∗ (∃ f, slotPts (F := F) c (r1Slot 0 (yj c 2)) fullShare f) ∗ (∃ f, slotPts (F := F) c (r1Slot 0 (yj c 3)) fullShare f)) ∗ ((∃ f, slotPts (F := F) c (r1Slot 1 (yF c)) fullShare f) ∗ (∃ f, slotPts (F := F) c (r1Slot 1 (yj c 1)) fullShare f) ∗ (∃ f, slotPts (F := F) c (r1Slot 1 (yj c 2)) fullShare f) ∗ (∃ f, slotPts (F := F) c (r1Slot 1 (yj c 3)) fullShare f)))
      ⊢ iprop(∃ g, ((c : Thread nD τ).loc cc0_scratch3) ↦{fullShare} g) :=
  (Entails.of_eq (bigSep_2x4_yrel c (fun hj : Fin 2 × Fin 4 => iprop(∃ f, slotPts (F := F) c (r1Slot hj.1 hj.2) fullShare f))).symm).trans (r1_join c)

theorem r2_abs_join (c : Dev nD) :
    iprop(((∃ f, slotPts (F := F) c (r2Slot 0 0) fullShare f) ∗ (∃ f, slotPts (F := F) c (r2Slot 0 1) fullShare f) ∗ (∃ f, slotPts (F := F) c (r2Slot 0 2) fullShare f) ∗ (∃ f, slotPts (F := F) c (r2Slot 0 3) fullShare f)) ∗ ((∃ f, slotPts (F := F) c (r2Slot 1 0) fullShare f) ∗ (∃ f, slotPts (F := F) c (r2Slot 1 1) fullShare f) ∗ (∃ f, slotPts (F := F) c (r2Slot 1 2) fullShare f) ∗ (∃ f, slotPts (F := F) c (r2Slot 1 3) fullShare f)))
      ⊢ iprop(∃ g, ((c : Thread nD τ).loc cc0_scratch4) ↦{fullShare} g) :=
  (Entails.of_eq (bigSep_fin2x4 (fun hj : Fin 2 × Fin 4 => iprop(∃ f, slotPts (F := F) c (r2Slot hj.1 hj.2) fullShare f))).symm).trans (r2_join c)

theorem pb_rel_join (c : Dev nD) :
    iprop(((∃ f, slotPts (F := F) c (pbSlot (zF c) 0) fullShare f) ∗ (∃ f, slotPts (F := F) c (pbSlot (zj c 1) 0) fullShare f) ∗ (∃ f, slotPts (F := F) c (pbSlot (zj c 2) 0) fullShare f) ∗ (∃ f, slotPts (F := F) c (pbSlot (zj c 3) 0) fullShare f)) ∗ ((∃ f, slotPts (F := F) c (pbSlot (zF c) 1) fullShare f) ∗ (∃ f, slotPts (F := F) c (pbSlot (zj c 1) 1) fullShare f) ∗ (∃ f, slotPts (F := F) c (pbSlot (zj c 2) 1) fullShare f) ∗ (∃ f, slotPts (F := F) c (pbSlot (zj c 3) 1) fullShare f)))
      ⊢ iprop(∃ g, ((c : Thread nD τ).loc cc0_scratch0) ↦{fullShare} g) :=
  (Entails.of_eq (bigSep_4x2_zrel c (fun jh : Fin 4 × Fin 2 => iprop(∃ f, slotPts (F := F) c (pbSlot jh.1 jh.2) fullShare f))).symm).trans (pb_join c)

theorem red_two_join (c : Dev nD) :
    iprop((∃ f, slotPts (F := F) c (redSlot 0) fullShare f) ∗ (∃ f, slotPts (F := F) c (redSlot 1) fullShare f))
      ⊢ iprop(∃ g, ((c : Thread nD τ).loc cc0_scratch1) ↦{fullShare} g) :=
  (Entails.of_eq (bigSep_fin2 (fun h : Fin 2 => iprop(∃ f, slotPts (F := F) c (redSlot h) fullShare f))).symm).trans (red_join c)

/-- info: 'Cert.KernelIdeal.Coll.rb_rel' depends on axioms: [propext, Classical.choice, Quot.sound] -/
#guard_msgs in #print axioms rb_rel

/-- info: 'Cert.KernelIdeal.Coll.pb_rel_join' depends on axioms: [propext, Classical.choice, Quot.sound] -/
#guard_msgs in #print axioms pb_rel_join

end Cert.KernelIdeal.Coll

end
-- ==== Proof.Wire.lean ====
/- What a slot of a device's scratch buffers reads after a load, a store or a landed transfer. A slot is a 256 × 256
   rectangle of its buffer, seen with its leading unit axes dropped: a load through the whole buffer at the rectangle is
   the slot's contents with the unit axes put back, a store through the rectangle is read back through the slot as its
   payload with the unit axes dropped, and is not seen through a slot on a disjoint rectangle. A store of 1024 rows through
   one half of the partial-product buffer is read back block of rows by block of rows. Last, the result: an unmasked
   store through a rectangle changes the rectangle's elements to the payload and no others; the sixteen rectangles
   cover the result; and the result's value at an element of a rectangle is that piece's. -/
import proofs.«901051_g7700000000001052_dist_rsdw_v7x_xyz2x4x4_z_m1024_d1024_f4096_bf16_1_alg».proof.Proof.Vals
import Idealize.ShloMosaic.Lib.Pipeline.Value
import Idealize.ShloMosaic.Lib.ValueIdx
import Idealize.ShloMosaic.Lib.ValueLayout

noncomputable section

namespace Cert.KernelIdeal.Coll

open Cert.KernelIdeal Cert.KernelIdeal.Gen Cert.KernelIdeal.Mesh

open Idealize.ShloMosaic
open Idealize.ShloMosaic.TcCoe
open Idealize.ShloMosaic.ValueIdx

variable {F : FTy → Type} [FloatOps F]

namespace Wire

/-! ## Views: a rectangle of a view, re-indexed; two rectangles of one view -/

section Views
variable {sig' : RefSig} {κ : Kind} {sp : Space} {s : Shape} {e : EltTy} {Val : EltTy → Type}

/-- A read through a re-indexed view is the view's read, re-indexed. -/
theorem read_reshape (v : View sig' κ sp s e) (s' : Shape) (hn : s'.numel = s.numel) (g : v.ty.Contents Val) :
    (v.reshape s' hn).read Val g = shapeCast s' (v.read Val g) hn := rfl

/-- Written through a rectangle, read back through the same rectangle re-indexed: the payload, re-indexed. -/
theorem read_reshape_write_same (v : View sig' κ sp s e) (r : Rect s) (s' : Shape) (hn : s'.numel = r.shape.numel)
    (f : v.ty.Contents Val) (w : r.shape.Idx → Val e) :
    ((v.slice r).reshape s' hn).read Val ((v.slice r).write Val f w Finset.univ) = shapeCast s' w hn := by
  show shapeCast s' ((v.slice r).read Val ((v.slice r).write Val f w Finset.univ)) hn = _
  rw [View.read_write_univ]

/-- Disjoint rectangles of a view lie on disjoint elements of its buffer. -/
theorem disjoint_slice_sets (v : View sig' κ sp s e) (r r' : Rect s) (hd : Disjoint r'.set r.set) :
    Disjoint (v.slice r').set ((v.slice r).setOn Finset.univ) := by
  rw [View.setOn_univ, View.set_slice, View.set_slice]
  exact (Finset.disjoint_map v.emb).mpr hd

/-- A write through one rectangle is not seen through a disjoint one, -/
theorem read_slice_write_other (v : View sig' κ sp s e) (r r' : Rect s) (hd : Disjoint r'.set r.set)
    (f : v.ty.Contents Val) (w : r.shape.Idx → Val e) :
    (v.slice r').read Val ((v.slice r).write Val f w Finset.univ) = (v.slice r').read Val f :=
  View.read_slice_write_slice_of_disjoint r' r f w Finset.univ (disjoint_slice_sets v r r' hd)

/-- however the disjoint one is re-indexed. -/
theorem read_reshape_write_other (v : View sig' κ sp s e) (r r' : Rect s) (hd : Disjoint r'.set r.set) (s' : Shape)
    (hn : s'.numel = r'.shape.numel) (f : v.ty.Contents Val) (w : r.shape.Idx → Val e) :
    ((v.slice r').reshape s' hn).read Val ((v.slice r).write Val f w Finset.univ) = ((v.slice r').reshape s' hn).read Val f := by
  show shapeCast s' ((v.slice r').read Val ((v.slice r).write Val f w Finset.univ)) hn = shapeCast s' ((v.slice r').read Val f) hn
  rw [read_slice_write_other v r r' hd]

/-- Written through a rectangle R, read through a rectangle r at an index that R places where r does: the payload there. -/
theorem read_slice_write_sub (v : View sig' κ sp s e) (R r : Rect s) (f : v.ty.Contents Val) (w : R.shape.Idx → Val e)
    (i : r.shape.Idx) (x : R.shape.Idx) (hx : r.emb i = R.emb x) :
    (v.slice r).read Val ((v.slice R).write Val f w Finset.univ) i = w x := by
  show v.read Val ((v.slice R).write Val f w Finset.univ) (r.emb i) = w x
  rw [hx, View.read_slice_write_emb _ _ _ (Finset.mem_univ x)]

/-- An unmasked store through a rectangle of a whole buffer changes the rectangle's elements, to the payload, and no
    others: contents that agree with g on W, after a store of g's values on the rectangle, agree with g on both. -/
theorem write_whole_slice_agree (b : Ref sig' κ) (r : Rect b.ty.shape) (f : b.ty.Contents Val) (w : r.shape.Idx → Val b.ty.elt)
    (g : b.ty.Contents Val) (W : Finset b.ty.Idx) (hW : ∀ i ∈ W, f i = g i) (hw : ∀ y : r.shape.Idx, w y = g (r.emb y)) :
    ∀ i ∈ W ∪ r.set, ((View.whole b).slice r).write Val f w Finset.univ i = g i := by
  intro i hi
  by_cases hin : i ∈ r.set
  · rw [← Rect.map_emb_univ] at hin
    obtain ⟨y, -, rfl⟩ := Finset.mem_map.mp hin
    have := View.read_slice_write_emb (v := View.whole b) r f w (Finset.mem_univ y)
    rw [View.read_whole] at this
    rw [this, hw y]
  · rw [View.write_of_not_mem _ _ _ (by rw [View.setOn_univ, View.set_slice_whole]; exact hin)]
    exact hW i ((Finset.mem_union.mp hi).resolve_right hin)

end Views

/-! ## Unit axes put back and dropped -/

/-- A 256 × 256 vector as the 1 × 256 × 256 vector a load of a slot of a rank-3 buffer returns. -/
def up3 {e : EltTy} (v : Vec F S256x256 e) : Vec F S1x256x256 e := fun i => v (ix2 (i 1) (i 2))

theorem ix4_00 (i : S1x1x256x256.Idx) : ix4 (⟨0, Nat.one_pos⟩ : Fin 1) (⟨0, Nat.one_pos⟩ : Fin 1) (i 2) (i 3) = i := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem ix3_0 (i : S1x256x256.Idx) : ix3 (⟨0, Nat.one_pos⟩ : Fin 1) (i 1) (i 2) = i := by
  funext a
  match a with
  | ⟨0, _⟩ => exact Subsingleton.elim (α := Fin 1) _ _
  | ⟨1, _⟩ => rfl
  | ⟨2, _⟩ => rfl

/-- Two unit axes put back and dropped again: the vector. -/
theorem shapeCast_up4 {e : EltTy} (v : Vec F S256x256 e) :
    shapeCast S256x256 (up4 v) shapeCasts_S1x1x256x256_S256x256 = v := by
  funext j
  have hj : j = ix2 (j 0) (j 1) := eq_ix2 j
  have e1 : Shape.reshapeEquiv shapeCasts_S1x1x256x256_S256x256 (ix2 (j 0) (j 1))
      = ix4 (⟨0, Nat.one_pos⟩ : Fin 1) (⟨0, Nat.one_pos⟩ : Fin 1) (j 0) (j 1) :=
    reshapeEquiv_ix2_11ab (a := 256) (b := 256) shapeCasts_S1x1x256x256_S256x256 (j 0) (j 1)
  calc shapeCast S256x256 (up4 v) shapeCasts_S1x1x256x256_S256x256 j
      = up4 v (Shape.reshapeEquiv shapeCasts_S1x1x256x256_S256x256 (ix2 (j 0) (j 1))) :=
        congrArg (fun k => up4 v (Shape.reshapeEquiv shapeCasts_S1x1x256x256_S256x256 k)) hj
    _ = up4 v (ix4 (⟨0, Nat.one_pos⟩ : Fin 1) (⟨0, Nat.one_pos⟩ : Fin 1) (j 0) (j 1)) := congrArg (up4 v) e1
    _ = v (ix2 (j 0) (j 1)) := rfl
    _ = v j := congrArg v hj.symm

/-- Two unit axes dropped and put back: the vector. -/
theorem up4_shapeCast {e : EltTy} (w : Vec F S1x1x256x256 e) :
    up4 (shapeCast S256x256 w shapeCasts_S1x1x256x256_S256x256) = w := by
  funext i
  have e1 : Shape.reshapeEquiv shapeCasts_S1x1x256x256_S256x256 (ix2 (i 2) (i 3))
      = ix4 (⟨0, Nat.one_pos⟩ : Fin 1) (⟨0, Nat.one_pos⟩ : Fin 1) (i 2) (i 3) :=
    reshapeEquiv_ix2_11ab (a := 256) (b := 256) shapeCasts_S1x1x256x256_S256x256 (i 2) (i 3)
  calc up4 (shapeCast S256x256 w shapeCasts_S1x1x256x256_S256x256) i
      = w (Shape.reshapeEquiv shapeCasts_S1x1x256x256_S256x256 (ix2 (i 2) (i 3))) := rfl
    _ = w (ix4 (⟨0, Nat.one_pos⟩ : Fin 1) (⟨0, Nat.one_pos⟩ : Fin 1) (i 2) (i 3)) := congrArg w e1
    _ = w i := congrArg w (ix4_00 i)

/-- One unit axis dropped, by a cast of the vector: the vector read behind the coordinate 0. -/
theorem shapeCast_dn3 {e : EltTy} (w : Vec F S1x256x256 e) :
    shapeCast S256x256 w shapeCasts_S1x256x256_S256x256 = dn3 w := by
  funext j
  have hj : j = ix2 (j 0) (j 1) := eq_ix2 j
  have e1 : Shape.reshapeEquiv shapeCasts_S1x256x256_S256x256 (ix2 (j 0) (j 1)) = ix3 (⟨0, Nat.one_pos⟩ : Fin 1) (j 0) (j 1) :=
    reshapeEquiv_ix2_1ab (a := 256) (b := 256) shapeCasts_S1x256x256_S256x256 (j 0) (j 1)
  calc shapeCast S256x256 w shapeCasts_S1x256x256_S256x256 j
      = w (Shape.reshapeEquiv shapeCasts_S1x256x256_S256x256 (ix2 (j 0) (j 1))) :=
        congrArg (fun k => w (Shape.reshapeEquiv shapeCasts_S1x256x256_S256x256 k)) hj
    _ = w (ix3 (⟨0, Nat.one_pos⟩ : Fin 1) (j 0) (j 1)) := congrArg w e1
    _ = dn3 w j := rfl

/-- One unit axis dropped and put back: the vector. -/
theorem up3_shapeCast {e : EltTy} (w : Vec F S1x256x256 e) :
    up3 (shapeCast S256x256 w shapeCasts_S1x256x256_S256x256) = w := by
  funext i
  have e1 : Shape.reshapeEquiv shapeCasts_S1x256x256_S256x256 (ix2 (i 1) (i 2)) = ix3 (⟨0, Nat.one_pos⟩ : Fin 1) (i 1) (i 2) :=
    reshapeEquiv_ix2_1ab (a := 256) (b := 256) shapeCasts_S1x256x256_S256x256 (i 1) (i 2)
  calc up3 (shapeCast S256x256 w shapeCasts_S1x256x256_S256x256) i
      = w (Shape.reshapeEquiv shapeCasts_S1x256x256_S256x256 (ix2 (i 1) (i 2))) := rfl
    _ = w (ix3 (⟨0, Nat.one_pos⟩ : Fin 1) (i 1) (i 2)) := congrArg w e1
    _ = w i := congrArg w (ix3_0 i)

/-- One unit axis put back by a cast, then dropped: the vector. -/
theorem dn3_shapeCast {e : EltTy} (v : Vec F S256x256 e) :
    dn3 (shapeCast S1x256x256 v shapeCasts_S256x256_S1x256x256) = v := by
  funext j
  have hj : j = ix2 (j 0) (j 1) := eq_ix2 j
  calc dn3 (shapeCast S1x256x256 v shapeCasts_S256x256_S1x256x256) j
      = shapeCast S1x256x256 v shapeCasts_S256x256_S1x256x256 (ix3 (0 : Fin 1) (j 0) (j 1)) := rfl
    _ = v (ix2 (j 0) (j 1)) :=
        shapeCast_ab_1ab_apply (a := 256) (b := 256) v shapeCasts_S256x256_S1x256x256 (0 : Fin 1) (j 0) (j 1)
    _ = v j := congrArg v hj.symm

theorem dn3_up3 {e : EltTy} (v : Vec F S256x256 e) : dn3 (up3 v) = v := by
  funext j
  exact congrArg v (eq_ix2 j).symm

theorem up3_dn3 {e : EltTy} (w : Vec F S1x256x256 e) : up3 (dn3 w) = w := by
  funext i
  exact congrArg w (ix3_0 i)

end Wire

open Wire

/-! ## A landed transfer -/

/-- A view read back after an unmasked write through the same view: the payload. -/
theorem landed {s : Shape} {e : EltTy} (M : Memref sig .tc .vmem s e) (c : Dev nD)
    (fd : Buf (Elt F) (M.view.loc (c : Thread nD τ))) (v : Vec F s e) :
    M.view.read (Elt F) (M.view.write (Elt F) fd v Finset.univ) = v :=
  View.read_write_univ (v := M.view) (Val := Elt F) fd v

/-! ## Loads through the whole buffers at the slots' rectangles -/

/-- A load of slot (h, j) of the z phase's receive buffer: the slot's contents, two unit axes put back. -/
theorem rb_readAt (h : Fin 2) (j : Fin 4) (f : (cc0_scratch2 : Ref sig .tc).ty.Contents (Elt F)) :
    (rbM : Memref sig .tc .vmem S2x4x256x256 .bf16).view.readAt (Elt F) (r4R h j).toLoadRect f
      = up4 ((rbSlot h j).view.read (Elt F) f) := by
  have e1 := Memref.read_squeeze_slice (Val := Elt F) (rbM : Memref sig .tc .vmem S2x4x256x256 .bf16) (r4R h j) (fun _ => rfl)
    squeezes_S1x1x256x256_S256x256 shapeCasts_S1x1x256x256_S256x256 f
  exact ((congrArg (up4 (F := F) (e := .bf16)) e1).trans (up4_shapeCast _)).symm

/-- The same of the y phase's receive buffer, -/
theorem r1_readAt (h : Fin 2) (j : Fin 4) (f : (cc0_scratch3 : Ref sig .tc).ty.Contents (Elt F)) :
    (r1M : Memref sig .tc .vmem S2x4x256x256 .bf16).view.readAt (Elt F) (r4R h j).toLoadRect f
      = up4 ((r1Slot h j).view.read (Elt F) f) := by
  have e1 := Memref.read_squeeze_slice (Val := Elt F) (r1M : Memref sig .tc .vmem S2x4x256x256 .bf16) (r4R h j) (fun _ => rfl)
    squeezes_S1x1x256x256_S256x256 shapeCasts_S1x1x256x256_S256x256 f
  exact ((congrArg (up4 (F := F) (e := .bf16)) e1).trans (up4_shapeCast _)).symm

/-- and of the x phase's. -/
theorem r2_readAt (h : Fin 2) (j : Fin 4) (f : (cc0_scratch4 : Ref sig .tc).ty.Contents (Elt F)) :
    (r2M : Memref sig .tc .vmem S2x4x256x256 .bf16).view.readAt (Elt F) (r4R h j).toLoadRect f
      = up4 ((r2Slot h j).view.read (Elt F) f) := by
  have e1 := Memref.read_squeeze_slice (Val := Elt F) (r2M : Memref sig .tc .vmem S2x4x256x256 .bf16) (r4R h j) (fun _ => rfl)
    squeezes_S1x1x256x256_S256x256 shapeCasts_S1x1x256x256_S256x256 f
  exact ((congrArg (up4 (F := F) (e := .bf16)) e1).trans (up4_shapeCast _)).symm

/-- A load of block (j, h) of the partial products is the block's contents. -/
theorem pb_readAt (j : Fin 4) (h : Fin 2) (f : (cc0_scratch0 : Ref sig .tc).ty.Contents (Elt F)) :
    (pbM : Memref sig .tc .vmem S1024x512 .bf16).view.readAt (Elt F) (pbR j h).toLoadRect f = (pbSlot j h).view.read (Elt F) f :=
  rfl

/-- A load of half h of the sums: the slot's contents, the unit axis put back. -/
theorem red_readAt (h : Fin 2) (f : (cc0_scratch1 : Ref sig .tc).ty.Contents (Elt F)) :
    (redM : Memref sig .tc .vmem S2x256x256 .bf16).view.readAt (Elt F) (redR h).toLoadRect f
      = fun i => (redSlot h).view.read (Elt F) f (ix2 (i 1) (i 2)) := by
  show _ = up3 ((redSlot h).view.read (Elt F) f)
  have e1 := Memref.read_squeeze_slice (Val := Elt F) (redM : Memref sig .tc .vmem S2x256x256 .bf16) (redR h) (fun _ => rfl)
    squeezes_S1x256x256_S256x256 shapeCasts_S1x256x256_S256x256 f
  exact ((congrArg (up3 (F := F) (e := .bf16)) e1).trans (up3_shapeCast _)).symm

/-! ## Stores of the sums -/

theorem Wire.redR_disj (h h' : Fin 2) (hne : h' ≠ h) : Disjoint (redR h').set (redR h).set := by
  have hv : h'.val ≠ h.val := fun e => hne (Fin.ext e)
  refine Rect.unit_disjoint (s := S2x256x256) (0 : Fin 3) ?_
  show h'.val + 1 ≤ h.val ∨ h.val + 1 ≤ h'.val
  omega

/-- The sum of half h, stored, is read back through its slot with the unit axis dropped; -/
theorem red_store (h : Fin 2) (f : (cc0_scratch1 : Ref sig .tc).ty.Contents (Elt F)) (w : Vec F S1x256x256 .bf16) :
    (redSlot h).view.read (Elt F) (((redM : Memref sig .tc .vmem S2x256x256 .bf16).access (redR h)).write (Elt F) f w Finset.univ)
      = dn3 w :=
  (read_reshape_write_same (Val := Elt F) (redM : Memref sig .tc .vmem S2x256x256 .bf16).view (redR h) S256x256
      squeezes_S1x256x256_S256x256.numel_eq f w).trans (shapeCast_dn3 w)

/-- the other half's slot reads what it read. -/
theorem red_store_other (h h' : Fin 2) (hne : h' ≠ h) (f : (cc0_scratch1 : Ref sig .tc).ty.Contents (Elt F))
    (w : Vec F S1x256x256 .bf16) :
    (redSlot h').view.read (Elt F) (((redM : Memref sig .tc .vmem S2x256x256 .bf16).access (redR h)).write (Elt F) f w Finset.univ)
      = (redSlot h').view.read (Elt F) f :=
  read_reshape_write_other (Val := Elt F) (redM : Memref sig .tc .vmem S2x256x256 .bf16).view (redR h) (redR h')
    (Wire.redR_disj h h' hne) S256x256 squeezes_S1x256x256_S256x256.numel_eq f w

/-! ## The result -/

/-- A store of piece (q, h): contents that agree with g on W agree with it on W and the piece's rectangle after the
    store of g's values there. -/
theorem out_store (q : Fin 8) (h : Fin 2) (f : (cc0_stg2_0 : Ref sig .tc).ty.Contents (Elt F)) (w : Vec F S256x256 .f32)
    (g : Vec F S256x4096 .f32) (W : Finset S256x4096.Idx) (hW : ∀ i ∈ W, f i = g i)
    (hw : ∀ y : S256x256.Idx, w y = g ((oR q h).emb y)) :
    ∀ i ∈ W ∪ (oR q h).set, (((oM : Memref sig .tc .vmem S256x4096 .f32).access (oR q h)).write (Elt F) f w Finset.univ) i = g i :=
  write_whole_slice_agree (Val := Elt F) (cc0_stg2_0 : Ref sig .tc) (oR q h) f w g W hW hw

/-- The sixteen rectangles cover the result. -/
theorem out_cover : (Finset.univ : Finset (Fin 8 × Fin 2)).biUnion (fun qh => (oR qh.1 qh.2).set) = Finset.univ := by
  ext i
  simp only [Finset.mem_biUnion, Finset.mem_univ, true_and, iff_true]
  have h0 : (i 0).val < 256 := idx2_lt0 i
  have h1 : (i 1).val < 4096 := idx2_lt1 i
  refine ⟨(⟨(i 1).val / 512, by omega⟩, ⟨((i 1).val / 256) % 2, Nat.mod_lt _ (by decide)⟩), ?_⟩
  refine Rect.mem_set_unit.mpr fun a => ?_
  match a with
  | ⟨0, _⟩ =>
    show 0 ≤ (i 0).val ∧ (i 0).val < 0 + 256
    omega
  | ⟨1, _⟩ =>
    show 512 * ((i 1).val / 512) + 256 * (((i 1).val / 256) % 2) ≤ (i 1).val
      ∧ (i 1).val < 512 * ((i 1).val / 512) + 256 * (((i 1).val / 256) % 2) + 256
    omega

variable (m : (ℓ : Loc nD τ sig) → Buf (Elt F) ℓ)

theorem Wire.outPiece_congr (c : Dev nD) {q q' : Fin 8} {h h' : Fin 2} {y y' : S256x256.Idx} (eq : q = q') (eh : h = h')
    (ey : y = y') : outPiece m c q h y = outPiece m c q' h' y' := by
  subst eq eh ey; rfl

/-- The result at an element of piece (q, h)'s rectangle is the piece there. -/
theorem outAt_piece (c : Dev nD) (q : Fin 8) (h : Fin 2) (y : S256x256.Idx) :
    outAt m c ((oR q h).emb y) = outPiece m c q h y := by
  have hh := h.isLt
  have hy0 : (y 0).val < 256 := idx2_lt0 y
  have hy1 : (y 1).val < 256 := idx2_lt1 y
  have e0 : ((oR q h).emb y 0).val = (y 0).val := by
    show 0 + 1 * (y 0).val = (y 0).val
    omega
  have e1 : ((oR q h).emb y 1).val = 512 * q.val + 256 * h.val + (y 1).val := by
    show 512 * q.val + 256 * h.val + 1 * (y 1).val = 512 * q.val + 256 * h.val + (y 1).val
    omega
  refine Wire.outPiece_congr m c (Fin.ext ?_) (Fin.ext ?_) ?_
  · show ((oR q h).emb y 1).val / 512 = q.val
    rw [e1]; omega
  · show (((oR q h).emb y 1).val / 256) % 2 = h.val
    rw [e1]; omega
  · funext a
    match a with
    | ⟨0, _⟩ => exact Fin.ext e0
    | ⟨1, _⟩ =>
      refine Fin.ext ?_
      show ((oR q h).emb y 1).val % 256 = (y 1).val
      rw [e1]; omega

/-- The store of a piece's own value: contents that agree with the device's result on W agree with it on W and the
    piece's rectangle afterwards. -/
theorem out_store_piece (c : Dev nD) (q : Fin 8) (h : Fin 2) (f : (cc0_stg2_0 : Ref sig .tc).ty.Contents (Elt F))
    (W : Finset S256x4096.Idx) (hW : ∀ i ∈ W, f i = outAt m c i) :
    ∀ i ∈ W ∪ (oR q h).set,
      (((oM : Memref sig .tc .vmem S256x4096 .f32).access (oR q h)).write (Elt F) f (outPiece m c q h) Finset.univ) i = outAt m c i :=
  out_store q h f (outPiece m c q h) (outAt m c) W hW (fun y => (outAt_piece m c q h y).symm)

/-- Contents that agree with g on all sixteen rectangles are g. -/
theorem out_full (f : (cc0_stg2_0 : Ref sig .tc).ty.Contents (Elt F)) (g : Vec F S256x4096 .f32)
    (hfg : ∀ i ∈ (Finset.univ : Finset (Fin 8 × Fin 2)).biUnion (fun qh => (oR qh.1 qh.2).set), f i = g i) : f = g :=
  funext fun i => hfg i (out_cover ▸ Finset.mem_univ i)

/-! ## Stores of the partial products: 1024 rows through one half of the buffer, read back block by block -/

/-- The rectangles of the two stores: all 1024 rows, columns 0 … 255 and 256 … 511. -/
abbrev Wire.pbH0 : Rect S1024x512 := Rect.unit (s := S1024x512) ![0, 0] S1024x256.size inb_S1024x512_S1024x256_0_0
abbrev Wire.pbH1 : Rect S1024x512 := Rect.unit (s := S1024x512) ![0, 256] S1024x256.size inb_S1024x512_S1024x256_0_256

/-- Rows 256 j … of a 1024-row vector. -/
def Wire.rows4 {e : EltTy} (w : Vec F S1024x256 e) (j : Fin 4) : Vec F S256x256 e :=
  fun i => w (ix2 ⟨256 * j.val + (i 0).val, by have := j.isLt; have := idx2_lt0 i; omega⟩ (i 1))

theorem Wire.pbVal_eq (c : Dev nD) (j : Fin 4) (h : Fin 2) : pbVal m c j h = rows4 (pbFull m c h) j := rfl

theorem pb_store0 (j : Fin 4) (f : (cc0_scratch0 : Ref sig .tc).ty.Contents (Elt F)) (w : Vec F S1024x256 .bf16) :
    (pbSlot j 0).view.read (Elt F) (((pbM : Memref sig .tc .vmem S1024x512 .bf16).access pbH0).write (Elt F) f w Finset.univ)
      = rows4 w j := by
  funext i
  refine read_slice_write_sub (Val := Elt F) (pbM : Memref sig .tc .vmem S1024x512 .bf16).view pbH0 (pbR j 0) f w i _ ?_
  funext a
  match a with
  | ⟨0, _⟩ =>
    refine Fin.ext ?_
    show 256 * j.val + 1 * (i 0).val = 0 + 1 * (256 * j.val + (i 0).val)
    omega
  | ⟨1, _⟩ =>
    refine Fin.ext ?_
    show 256 * 0 + 1 * (i 1).val = 0 + 1 * (i 1).val
    omega

theorem pb_store1 (j : Fin 4) (f : (cc0_scratch0 : Ref sig .tc).ty.Contents (Elt F)) (w : Vec F S1024x256 .bf16) :
    (pbSlot j 1).view.read (Elt F) (((pbM : Memref sig .tc .vmem S1024x512 .bf16).access pbH1).write (Elt F) f w Finset.univ)
      = rows4 w j := by
  funext i
  refine read_slice_write_sub (Val := Elt F) (pbM : Memref sig .tc .vmem S1024x512 .bf16).view pbH1 (pbR j 1) f w i _ ?_
  funext a
  match a with
  | ⟨0, _⟩ =>
    refine Fin.ext ?_
    show 256 * j.val + 1 * (i 0).val = 0 + 1 * (256 * j.val + (i 0).val)
    omega
  | ⟨1, _⟩ =>
    refine Fin.ext ?_
    show 256 * 1 + 1 * (i 1).val = 256 + 1 * (i 1).val
    omega

/-- The store of half 1 leaves the blocks of half 0 as they were, -/
theorem pb_store1_other (j : Fin 4) (f : (cc0_scratch0 : Ref sig .tc).ty.Contents (Elt F)) (w : Vec F S1024x256 .bf16) :
    (pbSlot j 0).view.read (Elt F) (((pbM : Memref sig .tc .vmem S1024x512 .bf16).access pbH1).write (Elt F) f w Finset.univ)
      = (pbSlot j 0).view.read (Elt F) f :=
  read_slice_write_other (Val := Elt F) (pbM : Memref sig .tc .vmem S1024x512 .bf16).view pbH1 (pbR j 0)
    (Rect.unit_disjoint (s := S1024x512) (1 : Fin 2) (Or.inl (by show 256 * 0 + 256 ≤ 256; omega))) f w

/-- and the store of half 0 those of half 1. -/
theorem pb_store0_other (j : Fin 4) (f : (cc0_scratch0 : Ref sig .tc).ty.Contents (Elt F)) (w : Vec F S1024x256 .bf16) :
    (pbSlot j 1).view.read (Elt F) (((pbM : Memref sig .tc .vmem S1024x512 .bf16).access pbH0).write (Elt F) f w Finset.univ)
      = (pbSlot j 1).view.read (Elt F) f :=
  read_slice_write_other (Val := Elt F) (pbM : Memref sig .tc .vmem S1024x512 .bf16).view pbH0 (pbR j 1)
    (Rect.unit_disjoint (s := S1024x512) (1 : Fin 2) (Or.inr (by show 0 + 256 ≤ 256 * 1; omega))) f w

/-- After the two stores, of any two payloads, block (j, h) holds rows 256 j … of the payload of half h. -/
theorem Wire.pb_after' (f₀ : (cc0_scratch0 : Ref sig .tc).ty.Contents (Elt F)) (w0 w1 : Vec F S1024x256 .bf16) (j : Fin 4) :
    (pbSlot j 0).view.read (Elt F) (((pbM : Memref sig .tc .vmem S1024x512 .bf16).access pbH1).write (Elt F)
        (((pbM : Memref sig .tc .vmem S1024x512 .bf16).access pbH0).write (Elt F) f₀ w0 Finset.univ) w1 Finset.univ) = rows4 w0 j
    ∧ (pbSlot j 1).view.read (Elt F) (((pbM : Memref sig .tc .vmem S1024x512 .bf16).access pbH1).write (Elt F)
        (((pbM : Memref sig .tc .vmem S1024x512 .bf16).access pbH0).write (Elt F) f₀ w0 Finset.univ) w1 Finset.univ) = rows4 w1 j :=
  ⟨(pb_store1_other j _ w1).trans (pb_store0 j f₀ w0), pb_store1 j _ w1⟩

/-- After the two stores of the device's partial products, every block holds its value. -/
theorem pb_after (c : Dev nD) (f₀ : (cc0_scratch0 : Ref sig .tc).ty.Contents (Elt F)) (j : Fin 4) (h : Fin 2) :
    (pbSlot j h).view.read (Elt F) (((pbM : Memref sig .tc .vmem S1024x512 .bf16).access pbH1).write (Elt F)
        (((pbM : Memref sig .tc .vmem S1024x512 .bf16).access pbH0).write (Elt F) f₀ (pbFull m c 0) Finset.univ) (pbFull m c 1) Finset.univ)
      = pbVal m c j h := by
  match h with
  | ⟨0, _⟩ => exact (Wire.pb_after' f₀ (pbFull m c 0) (pbFull m c 1) j).1
  | ⟨1, _⟩ => exact (Wire.pb_after' f₀ (pbFull m c 0) (pbFull m c 1) j).2

/-- info: 'Cert.KernelIdeal.Coll.pb_after' depends on axioms: [propext, Classical.choice, Quot.sound] -/
#guard_msgs in #print axioms pb_after

/-- info: 'Cert.KernelIdeal.Coll.outAt_piece' depends on axioms: [propext, Classical.choice, Quot.sound] -/
#guard_msgs in #print axioms outAt_piece

end Cert.KernelIdeal.Coll

end
-- ==== Proof.Wrap.lean ====
/- The rounds library's rules at this schedule's cells: a barrier signal to a neighbour, the barrier wait, a block's
   transfer to a peer's slot, and the waits on a receive cell and on a send cell — each with the schedule's side
   conditions discharged from its tables. -/
import proofs.«901051_g7700000000001052_dist_rsdw_v7x_xyz2x4x4_z_m1024_d1024_f4096_bf16_1_alg».proof.Proof.Tables

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "WP" => wp frame

section Wrap

/-- Device `c` signals neighbour `p`'s barrier cell, paying its duty `d` there with the duty's payload. -/
theorem wp_sig (c p : Dev nD) (d : DN) (κ : ℕ) (O O' : CellTallies nD τ sig Unit) (hO : O = O' + tallyAt (barC p) () 1) (W : Waits sig Unit)
    {α : Type} {Q : α → sProp 𝕄} {k : PUnit → Prog (TpuEff nD τ sig (Elt F) Λ₀ .tc) α} :
    iprop(cellInv ER (Rd m) κ (barC p) ∗ owes (c : Thread nD τ) O W ∗ dutyTok ER (barC p) 0 d ∗ barPay (F := F) p d ∗ reached ER (barC p) 0)
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS 1) k) Q) := by
  rw [← payload_bar m p d]
  exact Rounds.wp_signal 𝒱₀ ER (Rd m) (c : Thread nD τ) none (dst := (p : Thread nD τ)) (sem := barS) (κ := κ) (r := 0) (d := d)
    (by rw [duties_bar]; exact Finset.mem_univ _) (amount_bar m p d) () O' hO

/-- Device `c` waits for the seven units of its barrier cell, owing `O`: its neighbours' seven payloads come back. -/
theorem wp_barwait (c : Dev nD) (κ : ℕ) (O : CellTallies nD τ sig Unit) (W : Waits sig Unit)
    {α : Type} {Q : α → sProp 𝕄} {k : PUnit → Prog (TpuEff nD τ sig (Elt F) Λ₀ .tc) α} :
    iprop(cellInv ER (Rd m) κ (barC c) ∗ cred (tallyAt (barC c) () 7) ∗ owes (c : Thread nD τ) O W ∗ MayWait (c : Thread nD τ) (.reg barS) () O ∗ atPos ER (barC c) 0 ∅ 0)
      ⊢ iprop(((owes (c : Thread nD τ) O (insert (SemLoc.reg barS, ()) W) ∗ atPos ER (barC c) 1 ∅ 0 ∗ reached ER (barC c) 1
              ∗ (barPay (F := F) c 0 ∗ barPay c 1 ∗ barPay c 2 ∗ barPay c 3 ∗ barPay c 4 ∗ barPay c 5 ∗ barPay c 6))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  rw [← rest_bar m c]
  exact Rounds.wp_wait_rest_token 𝒱₀ ER (Rd m) (c : Thread nD τ) none (κ := κ)
    (wpE_semWait_eq 𝒱₀ (c : Thread nD τ) none Set.univ) (Set.mem_univ _) () (O := O) (W := W) (R := 0) (m := 0) (T := ∅)
    (by rw [Nat.zero_add, expect_bar])

/-- Device `c` waits on its used DMA cell `(a, h, j)` for a block's credit, owing `O`: the cell's payload comes back. -/
theorem wp_dmawait (c : Dev nD) (a : Fin 6) (h : Fin 2) (j : Fin 4) (hu : used c a j) (κ : ℕ) (O : CellTallies nD τ sig Unit) (W : Waits sig Unit)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (Rd m) κ (dC c a h j) ∗ cred (tallyAt (dC c a h j) () N) ∗ owes (c : Thread nD τ) O W ∗ MayWait (c : Thread nD τ) (.dma (dsem a h j)) () O ∗ atPos ER (dC c a h j) 0 ∅ 0)
      ⊢ iprop(((owes (c : Thread nD τ) O (insert (SemLoc.dma (dsem a h j), ()) W) ∗ atPos ER (dC c a h j) 1 ∅ 0 ∗ reached ER (dC c a h j) 1 ∗ dmaPay m c a h j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem a h j) src dst hsrc hdst) k) Q) := by
  rw [← rest_dma m c a h j hu, ← hN]
  exact Rounds.wp_wait_rest_token 𝒱₀ ER (Rd m) (c : Thread nD τ) none (κ := κ)
    (wpE_waitDma2_eq 𝒱₀ (c : Thread nD τ) none Set.univ) (Set.mem_univ _) () (O := O) (W := W) (R := 0) (m := 0) (T := ∅)
    (by rw [Nat.zero_add, hN, expect_dma m c a h j hu])

/-- Device `c` sends the block under `src` (held at share `q`, contents `fs`) into `dst` on device `p` (held whole, contents
    `fd`), paying the duty of its send cell `(as, hs, js)` with the source's share and the duty of `p`'s receive cell
    `(ar, hr, jr)` with the block landed. -/
theorem wp_xfer (c p : Dev nD) (a₁ : Fin 6) (h₁ : Fin 2) (j₁ : Fin 4) (a₂ : Fin 6) (h₂ : Fin 2) (j₂ : Fin 4)
    (hus : used c a₁ j₁) (hur : used p a₂ j₂) (κ₁ κ₂ : ℕ)
    {src : Memref sig .tc .vmem S256x256 .bf16} {dst : Memref sig .tc .vmem S256x256 .bf16} {hsc : dst.view.ref.isScScratch = false}
    {hsrc : src.view.WordExact} {hdst : dst.view.WordExact}
    {hsem : DmaTarget.Typed .vmem (.dma (dsem a₂ h₂ j₂)) (.remote (p : Thread nD τ) dst (.dma (dsem a₁ h₁ j₁)) hsc)}
    (hN : dst.view.dmaCredit = N) (q : PosShare TreeShare)
    (fs : Buf (Elt F) (src.view.loc (c : Thread nD τ))) (fd : Buf (Elt F) (dst.view.loc (p : Thread nD τ)))
    (O O' : CellTallies nD τ sig Unit) (hO : O = O' + tallyAt (dC p a₂ h₂ j₂) () N) (W : Waits sig Unit)
    (hpay₁ : (src.view.loc (c : Thread nD τ) ↦[src.view.set]{q} fs : sProp 𝕄) ⊢ dmaPay m c a₁ h₁ j₁)
    (hpay₂ : (dst.view.loc (p : Thread nD τ) ↦[dst.view.set]{fullShare} (dst.view.write (Elt F) fd (src.view.read (Elt F) fs) Finset.univ) : sProp 𝕄) ⊢ dmaPay m p a₂ h₂ j₂)
    {α : Type} {Q : α → sProp 𝕄} {k : PUnit → Prog (TpuEff nD τ sig (Elt F) Λ₀ .tc) α} :
    iprop(cellInv ER (Rd m) κ₁ (dC c a₁ h₁ j₁) ∗ cellInv ER (Rd m) κ₂ (dC p a₂ h₂ j₂)
        ∗ (src.view.loc (c : Thread nD τ) ↦[src.view.set]{q} fs) ∗ (dst.view.loc (p : Thread nD τ) ↦[dst.view.set]{fullShare} fd)
        ∗ owes (c : Thread nD τ) O W
        ∗ dutyTok ER (dC c a₁ h₁ j₁) 0 (0 : DN) ∗ reached ER (dC c a₁ h₁ j₁) 0
        ∗ dutyTok ER (dC p a₂ h₂ j₂) 0 (0 : DN) ∗ reached ER (dC p a₂ h₂ j₂) 0)
      ⊢ iprop(((cred (tallyAt (dC c a₁ h₁ j₁) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (p : Thread nD τ) dst (.dma (dsem a₁ h₁ j₁)) hsc) (.dma (dsem a₂ h₂ j₂)) hsrc hdst hsem) k) Q) :=
  Rounds.wp_send_pointsTo 𝒱₀ ER (Rd m) (c : Thread nD τ) none (κ₁ := κ₁) (κ₂ := κ₂)
    (r₁ := 0) (r₂ := 0) (d₁ := (0 : DN)) (d₂ := (0 : DN)) (fs := fs) (fd := fd) (q := q)
    (by rw [duties_dma m c a₁ h₁ j₁ hus]; exact Finset.mem_singleton_self _) (by rw [duties_dma m p a₂ h₂ j₂ hur]; exact Finset.mem_singleton_self _)
    () () N (show dst.view.amount (.dma (dsem a₂ h₂ j₂)) = N from hN) (amount_dma m c a₁ h₁ j₁ 0) (amount_dma m p a₂ h₂ j₂ 0) O' hO (W := W)
    (by rw [payload_dma]; exact hpay₁)
    (by rw [payload_dma]; exact hpay₂)

/-- The same with the peer named as the program names it, equal to `p`. -/
theorem wp_xfer' (c p p' : Dev nD) (hp : p' = p) (a₁ : Fin 6) (h₁ : Fin 2) (j₁ : Fin 4) (a₂ : Fin 6) (h₂ : Fin 2) (j₂ : Fin 4)
    (hus : used c a₁ j₁) (hur : used p a₂ j₂) (κ₁ κ₂ : ℕ)
    {src : Memref sig .tc .vmem S256x256 .bf16} {dst : Memref sig .tc .vmem S256x256 .bf16} {hsc : dst.view.ref.isScScratch = false}
    {hsrc : src.view.WordExact} {hdst : dst.view.WordExact}
    {hsem : DmaTarget.Typed .vmem (.dma (dsem a₂ h₂ j₂)) (.remote (p' : Thread nD τ) dst (.dma (dsem a₁ h₁ j₁)) hsc)}
    (hN : dst.view.dmaCredit = N) (q : PosShare TreeShare)
    (fs : Buf (Elt F) (src.view.loc (c : Thread nD τ))) (fd : Buf (Elt F) (dst.view.loc (p : Thread nD τ)))
    (O O' : CellTallies nD τ sig Unit) (hO : O = O' + tallyAt (dC p a₂ h₂ j₂) () N) (W : Waits sig Unit)
    (hpay₁ : (src.view.loc (c : Thread nD τ) ↦[src.view.set]{q} fs : sProp 𝕄) ⊢ dmaPay m c a₁ h₁ j₁)
    (hpay₂ : (dst.view.loc (p : Thread nD τ) ↦[dst.view.set]{fullShare} (dst.view.write (Elt F) fd (src.view.read (Elt F) fs) Finset.univ) : sProp 𝕄) ⊢ dmaPay m p a₂ h₂ j₂)
    {α : Type} {Q : α → sProp 𝕄} {k : PUnit → Prog (TpuEff nD τ sig (Elt F) Λ₀ .tc) α} :
    iprop(cellInv ER (Rd m) κ₁ (dC c a₁ h₁ j₁) ∗ cellInv ER (Rd m) κ₂ (dC p a₂ h₂ j₂)
        ∗ (src.view.loc (c : Thread nD τ) ↦[src.view.set]{q} fs) ∗ (dst.view.loc (p : Thread nD τ) ↦[dst.view.set]{fullShare} fd)
        ∗ owes (c : Thread nD τ) O W
        ∗ dutyTok ER (dC c a₁ h₁ j₁) 0 (0 : DN) ∗ reached ER (dC c a₁ h₁ j₁) 0
        ∗ dutyTok ER (dC p a₂ h₂ j₂) 0 (0 : DN) ∗ reached ER (dC p a₂ h₂ j₂) 0)
      ⊢ iprop(((cred (tallyAt (dC c a₁ h₁ j₁) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (p' : Thread nD τ) dst (.dma (dsem a₁ h₁ j₁)) hsc) (.dma (dsem a₂ h₂ j₂)) hsrc hdst hsem) k) Q) := by
  subst hp
  exact wp_xfer m c p' a₁ h₁ j₁ a₂ h₂ j₂ hus hur κ₁ κ₂ hN q fs fd O O' hO W hpay₁ hpay₂

end Wrap

end Cert.KernelIdeal.Coll

end
-- ==== Proof.BodyAux.lean ====
/- Small facts the body's transfers cite: which cells carry a transfer, that a block sent to a peer is the block the peer's
   schedule expects, and the two forms of a payload (a slot at some contents; a slot holding a named block). -/
import proofs.«901051_g7700000000001052_dist_rsdw_v7x_xyz2x4x4_z_m1024_d1024_f4096_bf16_1_alg».proof.Proof.Tables
import proofs.«901051_g7700000000001052_dist_rsdw_v7x_xyz2x4x4_z_m1024_d1024_f4096_bf16_1_alg».proof.Proof.Wire
import proofs.«901051_g7700000000001052_dist_rsdw_v7x_xyz2x4x4_z_m1024_d1024_f4096_bf16_1_alg».proof.Proof.Wrap

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem used0_z1 : ∀ c : Dev nD, used c 0 (zj c 1) := by decide
theorem used1_z1 : ∀ c : Dev nD, used (zP c 1) 1 (zF c) := by decide
theorem used1_own_z1 : ∀ c : Dev nD, used c 1 (zj c 1) := by decide
theorem used2_y1 : ∀ c : Dev nD, used c 2 (yj c 1) := by decide
theorem used3_y1 : ∀ c : Dev nD, used (yP c 1) 3 (yF c) := by decide
theorem used3_own_y1 : ∀ c : Dev nD, used c 3 (yj c 1) := by decide
theorem atZ_zP1 : ∀ c : Dev nD, atZ (zP c 1) (zF c) = c := by decide
theorem atY_yP1 : ∀ c : Dev nD, atY (yP c 1) (yF c) = c := by decide
theorem atXY_xP_y1 : ∀ c : Dev nD, atXY (xP c) (yj c 1) = atY c (yj c 1) := by decide
theorem zF_zP1 : ∀ c : Dev nD, zF (zP c 1) = zj c 1 := by decide
theorem used0_z2 : ∀ c : Dev nD, used c 0 (zj c 2) := by decide
theorem used1_z2 : ∀ c : Dev nD, used (zP c 2) 1 (zF c) := by decide
theorem used1_own_z2 : ∀ c : Dev nD, used c 1 (zj c 2) := by decide
theorem used2_y2 : ∀ c : Dev nD, used c 2 (yj c 2) := by decide
theorem used3_y2 : ∀ c : Dev nD, used (yP c 2) 3 (yF c) := by decide
theorem used3_own_y2 : ∀ c : Dev nD, used c 3 (yj c 2) := by decide
theorem atZ_zP2 : ∀ c : Dev nD, atZ (zP c 2) (zF c) = c := by decide
theorem atY_yP2 : ∀ c : Dev nD, atY (yP c 2) (yF c) = c := by decide
theorem atXY_xP_y2 : ∀ c : Dev nD, atXY (xP c) (yj c 2) = atY c (yj c 2) := by decide
theorem zF_zP2 : ∀ c : Dev nD, zF (zP c 2) = zj c 2 := by decide
theorem used0_z3 : ∀ c : Dev nD, used c 0 (zj c 3) := by decide
theorem used1_z3 : ∀ c : Dev nD, used (zP c 3) 1 (zF c) := by decide
theorem used1_own_z3 : ∀ c : Dev nD, used c 1 (zj c 3) := by decide
theorem used2_y3 : ∀ c : Dev nD, used c 2 (yj c 3) := by decide
theorem used3_y3 : ∀ c : Dev nD, used (yP c 3) 3 (yF c) := by decide
theorem used3_own_y3 : ∀ c : Dev nD, used c 3 (yj c 3) := by decide
theorem atZ_zP3 : ∀ c : Dev nD, atZ (zP c 3) (zF c) = c := by decide
theorem atY_yP3 : ∀ c : Dev nD, atY (yP c 3) (yF c) = c := by decide
theorem atXY_xP_y3 : ∀ c : Dev nD, atXY (xP c) (yj c 3) = atY c (yj c 3) := by decide
theorem zF_zP3 : ∀ c : Dev nD, zF (zP c 3) = zj c 3 := by decide
theorem atXY_xP : ∀ c : Dev nD, atXY (xP c) (yF c) = c := by decide
theorem used4 (c : Dev nD) (j : Fin 4) : used c 4 j := by unfold used; simp
theorem used5 (c : Dev nD) (j : Fin 4) : used c 5 j := by unfold used; simp

/-- A slot held at contents `f` is a slot at some contents. -/
theorem to_any {s : Shape} {e : EltTy} (c : Dev nD) (M : Memref sig .tc .vmem s e) (q : PosShare TreeShare) (f : Buf (Elt F) (M.view.loc (c : Thread nD τ))) :
    (M.view.loc (c : Thread nD τ) ↦[M.view.set]{q} f : sProp 𝕄) ⊢ anyPts c M q := by
  unfold anyPts slotPts; iintro H; iexists f; iexact H

/-- A slot into which the block `v` has landed holds `v`. -/
theorem to_holds (p : Dev nD) (M : Memref sig .tc .vmem S256x256 .bf16) (fd : Buf (Elt F) (M.view.loc (p : Thread nD τ))) (v : Vec F S256x256 .bf16) :
    (M.view.loc (p : Thread nD τ) ↦[M.view.set]{fullShare} (M.view.write (Elt F) fd v Finset.univ) : sProp 𝕄) ⊢ holds p M v := by
  unfold holds slotPts; iintro H; iexists _; isplitl [H]; · iexact H
  ipureintro; exact landed M p fd v

/-- What a device sends along z is what the receiver's schedule names. -/
theorem rbVal_z1 (c : Dev nD) (h : Fin 2) : rbVal m (zP c 1) h (zF c) = pbVal m c (zj c 1) h := by unfold rbVal; rw [atZ_zP1, zF_zP1]
theorem red2_y1 (c : Dev nD) (h : Fin 2) : red2 m (atY (yP c 1) (yF c)) h = red2 m c h := by rw [atY_yP1]
theorem red2_xr1 (c : Dev nD) (h : Fin 2) : red2 m (atXY (xP c) (yj c 1)) h = red2 m (atY c (yj c 1)) h := by rw [atXY_xP_y1]
theorem rbVal_z2 (c : Dev nD) (h : Fin 2) : rbVal m (zP c 2) h (zF c) = pbVal m c (zj c 2) h := by unfold rbVal; rw [atZ_zP2, zF_zP2]
theorem red2_y2 (c : Dev nD) (h : Fin 2) : red2 m (atY (yP c 2) (yF c)) h = red2 m c h := by rw [atY_yP2]
theorem red2_xr2 (c : Dev nD) (h : Fin 2) : red2 m (atXY (xP c) (yj c 2)) h = red2 m (atY c (yj c 2)) h := by rw [atXY_xP_y2]
theorem rbVal_z3 (c : Dev nD) (h : Fin 2) : rbVal m (zP c 3) h (zF c) = pbVal m c (zj c 3) h := by unfold rbVal; rw [atZ_zP3, zF_zP3]
theorem red2_y3 (c : Dev nD) (h : Fin 2) : red2 m (atY (yP c 3) (yF c)) h = red2 m c h := by rw [atY_yP3]
theorem red2_xr3 (c : Dev nD) (h : Fin 2) : red2 m (atXY (xP c) (yj c 3)) h = red2 m (atY c (yj c 3)) h := by rw [atXY_xP_y3]
theorem red2_x (c : Dev nD) (h : Fin 2) : red2 m (atXY (xP c) (yF c)) h = red2 m c h := by rw [atXY_xP]

end Cert.KernelIdeal.Coll

end
-- ==== Proof.Families.lean ====
/- The families of a device's launch, written out. Its positions, one per cell; the tokens of the duties it pays at the
   receive cells it sends to and at its own send cells; and the credit dealt at launch on its receive cells: each family
   over a finite index set is the separating conjunction of its members, listed here array by array, half by half, and
   within a half by the coordinate counted from the device's own (the x phase's by the coordinate as numbered). A cell that
   carries no transfer contributes nothing. -/
import proofs.«901051_g7700000000001052_dist_rsdw_v7x_xyz2x4x4_z_m1024_d1024_f4096_bf16_1_alg».proof.Proof.Tables
import proofs.«901051_g7700000000001052_dist_rsdw_v7x_xyz2x4x4_z_m1024_d1024_f4096_bf16_1_alg».proof.Proof.SlotsRel

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions listed -/

theorem emp_sep_eq (P : sProp 𝕄) : iprop(emp ∗ P) = P := equiv_iff.mp emp_sep
theorem sep_emp_eq (P : sProp 𝕄) : iprop(P ∗ emp) = P := equiv_iff.mp sep_emp
theorem emp_sep_eq' (P : sProp 𝕄) : iprop((BI.emp : sProp 𝕄) ∗ P) = P := equiv_iff.mp emp_sep
theorem sep_emp_eq' (P : sProp 𝕄) : iprop(P ∗ (BI.emp : sProp 𝕄)) = P := equiv_iff.mp sep_emp

/-- Over an optional index: the member at no index, and those at the indices. -/
theorem bigSep_opt {α : Type} [Fintype α] [DecidableEq α] (Ψ : Option α → sProp 𝕄) :
    bigSep Finset.univ Ψ = iprop(Ψ none ∗ bigSep Finset.univ fun a => Ψ (some a)) := by
  have h : (Finset.univ.erase (none : Option α)) = Finset.univ.map Function.Embedding.some := by
    ext x
    cases x with
    | none => simp
    | some a => simp
  rw [bigSep_univ_at Ψ none, h, bigSep_map]
  rfl

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A family over a device's forty-eight DMA cells, listed: the z phase's arrays by the z coordinate counted from the device's
    own, the y phase's and the x phase's send array by the y coordinate so counted, the x phase's receive array as numbered. -/
theorem bigSep_cells (c : Dev nD) (T : Fin 6 → Fin 2 → Fin 4 → sProp 𝕄) :
    bigSep Finset.univ (fun i : Fin 6 × Fin 2 × Fin 4 => T i.1 i.2.1 i.2.2)
      = iprop(((T 0 0 (zF c) ∗ T 0 0 (zj c 1) ∗ T 0 0 (zj c 2) ∗ T 0 0 (zj c 3)) ∗ (T 0 1 (zF c) ∗ T 0 1 (zj c 1) ∗ T 0 1 (zj c 2) ∗ T 0 1 (zj c 3)))
      ∗ ((T 1 0 (zF c) ∗ T 1 0 (zj c 1) ∗ T 1 0 (zj c 2) ∗ T 1 0 (zj c 3)) ∗ (T 1 1 (zF c) ∗ T 1 1 (zj c 1) ∗ T 1 1 (zj c 2) ∗ T 1 1 (zj c 3)))
      ∗ ((T 2 0 (yF c) ∗ T 2 0 (yj c 1) ∗ T 2 0 (yj c 2) ∗ T 2 0 (yj c 3)) ∗ (T 2 1 (yF c) ∗ T 2 1 (yj c 1) ∗ T 2 1 (yj c 2) ∗ T 2 1 (yj c 3)))
      ∗ ((T 3 0 (yF c) ∗ T 3 0 (yj c 1) ∗ T 3 0 (yj c 2) ∗ T 3 0 (yj c 3)) ∗ (T 3 1 (yF c) ∗ T 3 1 (yj c 1) ∗ T 3 1 (yj c 2) ∗ T 3 1 (yj c 3)))
      ∗ ((T 4 0 (yF c) ∗ T 4 0 (yj c 1) ∗ T 4 0 (yj c 2) ∗ T 4 0 (yj c 3)) ∗ (T 4 1 (yF c) ∗ T 4 1 (yj c 1) ∗ T 4 1 (yj c 2) ∗ T 4 1 (yj c 3)))
      ∗ ((T 5 0 0 ∗ T 5 0 1 ∗ T 5 0 2 ∗ T 5 0 3) ∗ (T 5 1 0 ∗ T 5 1 1 ∗ T 5 1 2 ∗ T 5 1 3))) := by
  rw [bigSep_univ_prod, bigSep_fin6,
    bigSep_2x4_zrel c (fun hj => T 0 hj.1 hj.2), bigSep_2x4_zrel c (fun hj => T 1 hj.1 hj.2),
    bigSep_2x4_yrel c (fun hj => T 2 hj.1 hj.2), bigSep_2x4_yrel c (fun hj => T 3 hj.1 hj.2), bigSep_2x4_yrel c (fun hj => T 4 hj.1 hj.2),
    bigSep_fin2x4 (fun hj => T 5 hj.1 hj.2)] <;> rfl

/-! ## Which cells carry a transfer -/

theorem zj_ne (c : Dev nD) (d : ℕ) (hd : d % 4 ≠ 0) : zj c d ≠ zF c := fun h => by
  have h' : (zc c + d) % 4 = zc c := congrArg Fin.val h
  have := zc_lt c
  omega
theorem yj_ne (c : Dev nD) (d : ℕ) (hd : d % 4 ≠ 0) : yj c d ≠ yF c := fun h => by
  have h' : (yc c + d) % 4 = yc c := congrArg Fin.val h
  have := yc_lt c
  omega

theorem used_z (c : Dev nD) (a : Fin 6) (ha : a.val < 2) (j : Fin 4) : used c a j ↔ j ≠ zF c := by
  unfold used; rw [if_pos ha]
theorem used_y (c : Dev nD) (a : Fin 6) (ha : ¬ a.val < 2) (ha' : a.val < 4) (j : Fin 4) : used c a j ↔ j ≠ yF c := by
  unfold used; rw [if_neg ha, if_pos ha']
theorem used_x (c : Dev nD) (a : Fin 6) (ha : ¬ a.val < 2) (ha' : ¬ a.val < 4) (j : Fin 4) : used c a j := by
  unfold used; rw [if_neg ha, if_neg ha']; trivial

/-- A member chosen by a conjunction whose first part fails is nothing. -/
theorem sel_neg {P Q : Prop} [Decidable (P ∧ Q)] (hP : ¬ P) (X : sProp 𝕄) : (if P ∧ Q then X else (BI.emp : sProp 𝕄)) = iprop(emp) :=
  if_neg fun h => hP h.1
theorem sel_pos {P Q : Prop} [Decidable (P ∧ Q)] (hP : P) (hQ : Q) (X : sProp 𝕄) : (if P ∧ Q then X else (BI.emp : sProp 𝕄)) = X :=
  if_pos ⟨hP, hQ⟩
theorem sel_neg' {P Q : Prop} [Decidable (P ∧ Q)] (hQ : ¬ Q) (X : sProp 𝕄) : (if P ∧ Q then X else (BI.emp : sProp 𝕄)) = iprop(emp) :=
  if_neg fun h => hQ h.2

/-! ## The positions -/

theorem pos_rel (c : Dev nD) : positions (F := F) c
    = iprop(atPos ER (barC c) 0 ∅ 0
      ∗ ((atPos ER (dC c 0 0 (zF c)) 0 ∅ 0 ∗ atPos ER (dC c 0 0 (zj c 1)) 0 ∅ 0 ∗ atPos ER (dC c 0 0 (zj c 2)) 0 ∅ 0 ∗ atPos ER (dC c 0 0 (zj c 3)) 0 ∅ 0) ∗ (atPos ER (dC c 0 1 (zF c)) 0 ∅ 0 ∗ atPos ER (dC c 0 1 (zj c 1)) 0 ∅ 0 ∗ atPos ER (dC c 0 1 (zj c 2)) 0 ∅ 0 ∗ atPos ER (dC c 0 1 (zj c 3)) 0 ∅ 0))
      ∗ ((atPos ER (dC c 1 0 (zF c)) 0 ∅ 0 ∗ atPos ER (dC c 1 0 (zj c 1)) 0 ∅ 0 ∗ atPos ER (dC c 1 0 (zj c 2)) 0 ∅ 0 ∗ atPos ER (dC c 1 0 (zj c 3)) 0 ∅ 0) ∗ (atPos ER (dC c 1 1 (zF c)) 0 ∅ 0 ∗ atPos ER (dC c 1 1 (zj c 1)) 0 ∅ 0 ∗ atPos ER (dC c 1 1 (zj c 2)) 0 ∅ 0 ∗ atPos ER (dC c 1 1 (zj c 3)) 0 ∅ 0))
      ∗ ((atPos ER (dC c 2 0 (yF c)) 0 ∅ 0 ∗ atPos ER (dC c 2 0 (yj c 1)) 0 ∅ 0 ∗ atPos ER (dC c 2 0 (yj c 2)) 0 ∅ 0 ∗ atPos ER (dC c 2 0 (yj c 3)) 0 ∅ 0) ∗ (atPos ER (dC c 2 1 (yF c)) 0 ∅ 0 ∗ atPos ER (dC c 2 1 (yj c 1)) 0 ∅ 0 ∗ atPos ER (dC c 2 1 (yj c 2)) 0 ∅ 0 ∗ atPos ER (dC c 2 1 (yj c 3)) 0 ∅ 0))
      ∗ ((atPos ER (dC c 3 0 (yF c)) 0 ∅ 0 ∗ atPos ER (dC c 3 0 (yj c 1)) 0 ∅ 0 ∗ atPos ER (dC c 3 0 (yj c 2)) 0 ∅ 0 ∗ atPos ER (dC c 3 0 (yj c 3)) 0 ∅ 0) ∗ (atPos ER (dC c 3 1 (yF c)) 0 ∅ 0 ∗ atPos ER (dC c 3 1 (yj c 1)) 0 ∅ 0 ∗ atPos ER (dC c 3 1 (yj c 2)) 0 ∅ 0 ∗ atPos ER (dC c 3 1 (yj c 3)) 0 ∅ 0))
      ∗ ((atPos ER (dC c 4 0 (yF c)) 0 ∅ 0 ∗ atPos ER (dC c 4 0 (yj c 1)) 0 ∅ 0 ∗ atPos ER (dC c 4 0 (yj c 2)) 0 ∅ 0 ∗ atPos ER (dC c 4 0 (yj c 3)) 0 ∅ 0) ∗ (atPos ER (dC c 4 1 (yF c)) 0 ∅ 0 ∗ atPos ER (dC c 4 1 (yj c 1)) 0 ∅ 0 ∗ atPos ER (dC c 4 1 (yj c 2)) 0 ∅ 0 ∗ atPos ER (dC c 4 1 (yj c 3)) 0 ∅ 0))
      ∗ ((atPos ER (dC c 5 0 0) 0 ∅ 0 ∗ atPos ER (dC c 5 0 1) 0 ∅ 0 ∗ atPos ER (dC c 5 0 2) 0 ∅ 0 ∗ atPos ER (dC c 5 0 3) 0 ∅ 0) ∗ (atPos ER (dC c 5 1 0) 0 ∅ 0 ∗ atPos ER (dC c 5 1 1) 0 ∅ 0 ∗ atPos ER (dC c 5 1 2) 0 ∅ 0 ∗ atPos ER (dC c 5 1 3) 0 ∅ 0))) := by
  unfold positions
  rw [bigSep_opt]
  exact congrArg (fun X : sProp 𝕄 => iprop(atPos ER (barC c) 0 ∅ 0 ∗ X)) (bigSep_cells (F := F) c fun a h j => atPos ER (dC c a h j) 0 ∅ 0)

/-! ## The tokens of the duties paid at other devices' receive cells -/

/-- A payment's cell by two numbers: its device and its semaphore. -/
def cellKey (p : GSem nD τ sig × ℕ) : ℕ × ℕ := (p.1.1.1.val, match p.1.2 with | .reg s => s.val | .dma s => 1 + s.val)

theorem pays_drop7_keys_nodup : ∀ c : Dev nD, (((pays c).drop 7).map cellKey).Nodup := by decide +kernel

/-- The twenty transfers of a device go to twenty different cells. -/
theorem pays_drop7_nodup (c : Dev nD) : ((pays c).drop 7).Nodup := List.Nodup.of_map _ (pays_drop7_keys_nodup c)

theorem toks_recv_eq (c : Dev nD) :
    (bigSep ((pays c).drop 7).toFinset fun p => (dutyTok ER p.1 0 (0 : DN) : sProp 𝕄))
      = iprop(dutyTok ER (dC (zP c 1) 1 0 (zF c)) 0 (0 : DN)
      ∗ dutyTok ER (dC (zP c 2) 1 0 (zF c)) 0 (0 : DN)
      ∗ dutyTok ER (dC (zP c 3) 1 0 (zF c)) 0 (0 : DN)
      ∗ dutyTok ER (dC (zP c 1) 1 1 (zF c)) 0 (0 : DN)
      ∗ dutyTok ER (dC (zP c 2) 1 1 (zF c)) 0 (0 : DN)
      ∗ dutyTok ER (dC (zP c 3) 1 1 (zF c)) 0 (0 : DN)
      ∗ dutyTok ER (dC (yP c 1) 3 0 (yF c)) 0 (0 : DN)
      ∗ dutyTok ER (dC (yP c 2) 3 0 (yF c)) 0 (0 : DN)
      ∗ dutyTok ER (dC (yP c 3) 3 0 (yF c)) 0 (0 : DN)
      ∗ dutyTok ER (dC (xP c) 5 0 (yF c)) 0 (0 : DN)
      ∗ dutyTok ER (dC (xP c) 5 0 (yj c 1)) 0 (0 : DN)
      ∗ dutyTok ER (dC (xP c) 5 0 (yj c 2)) 0 (0 : DN)
      ∗ dutyTok ER (dC (xP c) 5 0 (yj c 3)) 0 (0 : DN)
      ∗ dutyTok ER (dC (yP c 1) 3 1 (yF c)) 0 (0 : DN)
      ∗ dutyTok ER (dC (yP c 2) 3 1 (yF c)) 0 (0 : DN)
      ∗ dutyTok ER (dC (yP c 3) 3 1 (yF c)) 0 (0 : DN)
      ∗ dutyTok ER (dC (xP c) 5 1 (yF c)) 0 (0 : DN)
      ∗ dutyTok ER (dC (xP c) 5 1 (yj c 1)) 0 (0 : DN)
      ∗ dutyTok ER (dC (xP c) 5 1 (yj c 2)) 0 (0 : DN)
      ∗ dutyTok ER (dC (xP c) 5 1 (yj c 3)) 0 (0 : DN)) := by
  rw [bigSep_eq_bigSepL _ (pays_drop7_nodup c)]
  rfl

theorem toks_recv_rel (c : Dev nD) :
    (bigSep ((pays c).drop 7).toFinset fun p => (dutyTok ER p.1 0 (0 : DN) : sProp 𝕄))
      ⊢ iprop(dutyTok ER (dC (zP c 1) 1 0 (zF c)) 0 (0 : DN)
      ∗ dutyTok ER (dC (zP c 2) 1 0 (zF c)) 0 (0 : DN)
      ∗ dutyTok ER (dC (zP c 3) 1 0 (zF c)) 0 (0 : DN)
      ∗ dutyTok ER (dC (zP c 1) 1 1 (zF c)) 0 (0 : DN)
      ∗ dutyTok ER (dC (zP c 2) 1 1 (zF c)) 0 (0 : DN)
      ∗ dutyTok ER (dC (zP c 3) 1 1 (zF c)) 0 (0 : DN)
      ∗ dutyTok ER (dC (yP c 1) 3 0 (yF c)) 0 (0 : DN)
      ∗ dutyTok ER (dC (yP c 2) 3 0 (yF c)) 0 (0 : DN)
      ∗ dutyTok ER (dC (yP c 3) 3 0 (yF c)) 0 (0 : DN)
      ∗ dutyTok ER (dC (xP c) 5 0 (yF c)) 0 (0 : DN)
      ∗ dutyTok ER (dC (xP c) 5 0 (yj c 1)) 0 (0 : DN)
      ∗ dutyTok ER (dC (xP c) 5 0 (yj c 2)) 0 (0 : DN)
      ∗ dutyTok ER (dC (xP c) 5 0 (yj c 3)) 0 (0 : DN)
      ∗ dutyTok ER (dC (yP c 1) 3 1 (yF c)) 0 (0 : DN)
      ∗ dutyTok ER (dC (yP c 2) 3 1 (yF c)) 0 (0 : DN)
      ∗ dutyTok ER (dC (yP c 3) 3 1 (yF c)) 0 (0 : DN)
      ∗ dutyTok ER (dC (xP c) 5 1 (yF c)) 0 (0 : DN)
      ∗ dutyTok ER (dC (xP c) 5 1 (yj c 1)) 0 (0 : DN)
      ∗ dutyTok ER (dC (xP c) 5 1 (yj c 2)) 0 (0 : DN)
      ∗ dutyTok ER (dC (xP c) 5 1 (yj c 3)) 0 (0 : DN)) := Entails.of_eq (toks_recv_eq c)

/-! ## The tokens of the duties paid at the device's own send cells -/

theorem toks_send_eq (c : Dev nD) :
    (bigSep (Finset.univ.filter fun i : Fin 6 × Fin 2 × Fin 4 => i.1.val % 2 = 0 ∧ used c i.1 i.2.2) fun i => (dutyTok ER (dC c i.1 i.2.1 i.2.2) 0 (0 : DN) : sProp 𝕄))
      = iprop(((dutyTok ER (dC c 0 0 (zj c 1)) 0 (0 : DN) ∗ dutyTok ER (dC c 0 0 (zj c 2)) 0 (0 : DN) ∗ dutyTok ER (dC c 0 0 (zj c 3)) 0 (0 : DN)) ∗ (dutyTok ER (dC c 0 1 (zj c 1)) 0 (0 : DN) ∗ dutyTok ER (dC c 0 1 (zj c 2)) 0 (0 : DN) ∗ dutyTok ER (dC c 0 1 (zj c 3)) 0 (0 : DN)))
      ∗ ((dutyTok ER (dC c 2 0 (yj c 1)) 0 (0 : DN) ∗ dutyTok ER (dC c 2 0 (yj c 2)) 0 (0 : DN) ∗ dutyTok ER (dC c 2 0 (yj c 3)) 0 (0 : DN)) ∗ (dutyTok ER (dC c 2 1 (yj c 1)) 0 (0 : DN) ∗ dutyTok ER (dC c 2 1 (yj c 2)) 0 (0 : DN) ∗ dutyTok ER (dC c 2 1 (yj c 3)) 0 (0 : DN)))
      ∗ ((dutyTok ER (dC c 4 0 (yF c)) 0 (0 : DN) ∗ dutyTok ER (dC c 4 0 (yj c 1)) 0 (0 : DN) ∗ dutyTok ER (dC c 4 0 (yj c 2)) 0 (0 : DN) ∗ dutyTok ER (dC c 4 0 (yj c 3)) 0 (0 : DN)) ∗ (dutyTok ER (dC c 4 1 (yF c)) 0 (0 : DN) ∗ dutyTok ER (dC c 4 1 (yj c 1)) 0 (0 : DN) ∗ dutyTok ER (dC c 4 1 (yj c 2)) 0 (0 : DN) ∗ dutyTok ER (dC c 4 1 (yj c 3)) 0 (0 : DN)))) := by
  rw [bigSep_filter, bigSep_cells (F := F) c (fun a h j => if a.val % 2 = 0 ∧ used c a j then (dutyTok ER (dC c a h j) 0 (0 : DN) : sProp 𝕄) else BI.emp)]
  simp only [sel_neg (show ¬ (1 : Fin 6).val % 2 = 0 by decide), sel_neg (show ¬ (3 : Fin 6).val % 2 = 0 by decide), sel_neg (show ¬ (5 : Fin 6).val % 2 = 0 by decide),
    sel_neg' (show ¬ used c 0 (zF c) from fun h => (used_z c 0 (by decide) _).mp h rfl),
    sel_pos (show (0 : Fin 6).val % 2 = 0 by decide) ((used_z c 0 (by decide) _).mpr (zj_ne c 1 (by decide))),
    sel_pos (show (0 : Fin 6).val % 2 = 0 by decide) ((used_z c 0 (by decide) _).mpr (zj_ne c 2 (by decide))),
    sel_pos (show (0 : Fin 6).val % 2 = 0 by decide) ((used_z c 0 (by decide) _).mpr (zj_ne c 3 (by decide))),
    sel_neg' (show ¬ used c 2 (yF c) from fun h => (used_y c 2 (by decide) (by decide) _).mp h rfl),
    sel_pos (show (2 : Fin 6).val % 2 = 0 by decide) ((used_y c 2 (by decide) (by decide) _).mpr (yj_ne c 1 (by decide))),
    sel_pos (show (2 : Fin 6).val % 2 = 0 by decide) ((used_y c 2 (by decide) (by decide) _).mpr (yj_ne c 2 (by decide))),
    sel_pos (show (2 : Fin 6).val % 2 = 0 by decide) ((used_y c 2 (by decide) (by decide) _).mpr (yj_ne c 3 (by decide))),
    sel_pos (show (4 : Fin 6).val % 2 = 0 by decide) (used_x c 4 (by decide) (by decide) (yF c)),
    sel_pos (show (4 : Fin 6).val % 2 = 0 by decide) (used_x c 4 (by decide) (by decide) (yj c 1)),
    sel_pos (show (4 : Fin 6).val % 2 = 0 by decide) (used_x c 4 (by decide) (by decide) (yj c 2)),
    sel_pos (show (4 : Fin 6).val % 2 = 0 by decide) (used_x c 4 (by decide) (by decide) (yj c 3)),
    emp_sep_eq, sep_emp_eq, emp_sep_eq', sep_emp_eq']

theorem toks_send_rel (c : Dev nD) :
    (bigSep (Finset.univ.filter fun i : Fin 6 × Fin 2 × Fin 4 => i.1.val % 2 = 0 ∧ used c i.1 i.2.2) fun i => (dutyTok ER (dC c i.1 i.2.1 i.2.2) 0 (0 : DN) : sProp 𝕄))
      ⊢ iprop(((dutyTok ER (dC c 0 0 (zj c 1)) 0 (0 : DN) ∗ dutyTok ER (dC c 0 0 (zj c 2)) 0 (0 : DN) ∗ dutyTok ER (dC c 0 0 (zj c 3)) 0 (0 : DN)) ∗ (dutyTok ER (dC c 0 1 (zj c 1)) 0 (0 : DN) ∗ dutyTok ER (dC c 0 1 (zj c 2)) 0 (0 : DN) ∗ dutyTok ER (dC c 0 1 (zj c 3)) 0 (0 : DN)))
      ∗ ((dutyTok ER (dC c 2 0 (yj c 1)) 0 (0 : DN) ∗ dutyTok ER (dC c 2 0 (yj c 2)) 0 (0 : DN) ∗ dutyTok ER (dC c 2 0 (yj c 3)) 0 (0 : DN)) ∗ (dutyTok ER (dC c 2 1 (yj c 1)) 0 (0 : DN) ∗ dutyTok ER (dC c 2 1 (yj c 2)) 0 (0 : DN) ∗ dutyTok ER (dC c 2 1 (yj c 3)) 0 (0 : DN)))
      ∗ ((dutyTok ER (dC c 4 0 (yF c)) 0 (0 : DN) ∗ dutyTok ER (dC c 4 0 (yj c 1)) 0 (0 : DN) ∗ dutyTok ER (dC c 4 0 (yj c 2)) 0 (0 : DN) ∗ dutyTok ER (dC c 4 0 (yj c 3)) 0 (0 : DN)) ∗ (dutyTok ER (dC c 4 1 (yF c)) 0 (0 : DN) ∗ dutyTok ER (dC c 4 1 (yj c 1)) 0 (0 : DN) ∗ dutyTok ER (dC c 4 1 (yj c 2)) 0 (0 : DN) ∗ dutyTok ER (dC c 4 1 (yj c 3)) 0 (0 : DN)))) := Entails.of_eq (toks_send_eq c)

/-! ## The credit dealt at launch on the device's receive cells -/

theorem creds_eq (c : Dev nD) :
    (bigSep (Finset.univ.filter fun i : Fin 6 × Fin 2 × Fin 4 => i.1.val % 2 = 1 ∧ used c i.1 i.2.2) fun i => (cred (tallyAt (dC c i.1 i.2.1 i.2.2) () N) : sProp 𝕄))
      = iprop(((cred (tallyAt (dC c 1 0 (zj c 1)) () N) ∗ cred (tallyAt (dC c 1 0 (zj c 2)) () N) ∗ cred (tallyAt (dC c 1 0 (zj c 3)) () N)) ∗ (cred (tallyAt (dC c 1 1 (zj c 1)) () N) ∗ cred (tallyAt (dC c 1 1 (zj c 2)) () N) ∗ cred (tallyAt (dC c 1 1 (zj c 3)) () N)))
      ∗ ((cred (tallyAt (dC c 3 0 (yj c 1)) () N) ∗ cred (tallyAt (dC c 3 0 (yj c 2)) () N) ∗ cred (tallyAt (dC c 3 0 (yj c 3)) () N)) ∗ (cred (tallyAt (dC c 3 1 (yj c 1)) () N) ∗ cred (tallyAt (dC c 3 1 (yj c 2)) () N) ∗ cred (tallyAt (dC c 3 1 (yj c 3)) () N)))
      ∗ ((cred (tallyAt (dC c 5 0 0) () N) ∗ cred (tallyAt (dC c 5 0 1) () N) ∗ cred (tallyAt (dC c 5 0 2) () N) ∗ cred (tallyAt (dC c 5 0 3) () N)) ∗ (cred (tallyAt (dC c 5 1 0) () N) ∗ cred (tallyAt (dC c 5 1 1) () N) ∗ cred (tallyAt (dC c 5 1 2) () N) ∗ cred (tallyAt (dC c 5 1 3) () N)))) := by
  rw [bigSep_filter, bigSep_cells (F := F) c (fun a h j => if a.val % 2 = 1 ∧ used c a j then (cred (tallyAt (dC c a h j) () N) : sProp 𝕄) else BI.emp)]
  simp only [sel_neg (show ¬ (0 : Fin 6).val % 2 = 1 by decide), sel_neg (show ¬ (2 : Fin 6).val % 2 = 1 by decide), sel_neg (show ¬ (4 : Fin 6).val % 2 = 1 by decide),
    sel_neg' (show ¬ used c 1 (zF c) from fun h => (used_z c 1 (by decide) _).mp h rfl),
    sel_pos (show (1 : Fin 6).val % 2 = 1 by decide) ((used_z c 1 (by decide) _).mpr (zj_ne c 1 (by decide))),
    sel_pos (show (1 : Fin 6).val % 2 = 1 by decide) ((used_z c 1 (by decide) _).mpr (zj_ne c 2 (by decide))),
    sel_pos (show (1 : Fin 6).val % 2 = 1 by decide) ((used_z c 1 (by decide) _).mpr (zj_ne c 3 (by decide))),
    sel_neg' (show ¬ used c 3 (yF c) from fun h => (used_y c 3 (by decide) (by decide) _).mp h rfl),
    sel_pos (show (3 : Fin 6).val % 2 = 1 by decide) ((used_y c 3 (by decide) (by decide) _).mpr (yj_ne c 1 (by decide))),
    sel_pos (show (3 : Fin 6).val % 2 = 1 by decide) ((used_y c 3 (by decide) (by decide) _).mpr (yj_ne c 2 (by decide))),
    sel_pos (show (3 : Fin 6).val % 2 = 1 by decide) ((used_y c 3 (by decide) (by decide) _).mpr (yj_ne c 3 (by decide))),
    sel_pos (show (5 : Fin 6).val % 2 = 1 by decide) (used_x c 5 (by decide) (by decide) 0),
    sel_pos (show (5 : Fin 6).val % 2 = 1 by decide) (used_x c 5 (by decide) (by decide) 1),
    sel_pos (show (5 : Fin 6).val % 2 = 1 by decide) (used_x c 5 (by decide) (by decide) 2),
    sel_pos (show (5 : Fin 6).val % 2 = 1 by decide) (used_x c 5 (by decide) (by decide) 3),
    emp_sep_eq, sep_emp_eq, emp_sep_eq', sep_emp_eq']

theorem creds_rel (c : Dev nD) :
    (bigSep (Finset.univ.filter fun i : Fin 6 × Fin 2 × Fin 4 => i.1.val % 2 = 1 ∧ used c i.1 i.2.2) fun i => (cred (tallyAt (dC c i.1 i.2.1 i.2.2) () N) : sProp 𝕄))
      ⊢ iprop(((cred (tallyAt (dC c 1 0 (zj c 1)) () N) ∗ cred (tallyAt (dC c 1 0 (zj c 2)) () N) ∗ cred (tallyAt (dC c 1 0 (zj c 3)) () N)) ∗ (cred (tallyAt (dC c 1 1 (zj c 1)) () N) ∗ cred (tallyAt (dC c 1 1 (zj c 2)) () N) ∗ cred (tallyAt (dC c 1 1 (zj c 3)) () N)))
      ∗ ((cred (tallyAt (dC c 3 0 (yj c 1)) () N) ∗ cred (tallyAt (dC c 3 0 (yj c 2)) () N) ∗ cred (tallyAt (dC c 3 0 (yj c 3)) () N)) ∗ (cred (tallyAt (dC c 3 1 (yj c 1)) () N) ∗ cred (tallyAt (dC c 3 1 (yj c 2)) () N) ∗ cred (tallyAt (dC c 3 1 (yj c 3)) () N)))
      ∗ ((cred (tallyAt (dC c 5 0 0) () N) ∗ cred (tallyAt (dC c 5 0 1) () N) ∗ cred (tallyAt (dC c 5 0 2) () N) ∗ cred (tallyAt (dC c 5 0 3) () N)) ∗ (cred (tallyAt (dC c 5 1 0) () N) ∗ cred (tallyAt (dC c 5 1 1) () N) ∗ cred (tallyAt (dC c 5 1 2) () N) ∗ cred (tallyAt (dC c 5 1 3) () N)))) := Entails.of_eq (creds_eq c)

/-- info: 'Cert.KernelIdeal.Coll.pos_rel' depends on axioms: [propext, Classical.choice, Quot.sound] -/
#guard_msgs in #print axioms pos_rel

/-- info: 'Cert.KernelIdeal.Coll.toks_recv_eq' depends on axioms: [propext, Classical.choice, Quot.sound] -/
#guard_msgs in #print axioms toks_recv_eq

/-- info: 'Cert.KernelIdeal.Coll.toks_send_eq' depends on axioms: [propext, Classical.choice, Quot.sound] -/
#guard_msgs in #print axioms toks_send_eq

/-- info: 'Cert.KernelIdeal.Coll.creds_eq' depends on axioms: [propext, Classical.choice, Quot.sound] -/
#guard_msgs in #print axioms creds_eq

end Cert.KernelIdeal.Coll

end
-- ==== Proof.Incl.lean ====
/- The rectangles a device's body loads and stores through its whole scratch and result buffers, at the offsets it computes
   from its own position, are the rectangles of the slots and of the result's pieces at the coordinates those offsets name;
   and the elements such an access goes through lie in the slot that holds them, so that the access needs the slot only. -/
import proofs.«901051_g7700000000001052_dist_rsdw_v7x_xyz2x4x4_z_m1024_d1024_f4096_bf16_1_alg».proof.Proof.Canon
import proofs.«901051_g7700000000001052_dist_rsdw_v7x_xyz2x4x4_z_m1024_d1024_f4096_bf16_1_alg».proof.Proof.Slots

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The rectangles, renamed -/

theorem rect_off10 (c : Dev nD) : Rect.unit (s := S1024x512) (k0_off10 c) S256x256.size (k0_off10_inb c) = pbR (zF c) 0 :=
  Rect.unit_congr ((Mesh.off10 c).trans rfl) _ _
theorem rect_off12 (c : Dev nD) : Rect.unit (s := S1024x512) (k0_off12 c) S256x256.size (k0_off12_inb c) = pbR (zF c) 0 :=
  Rect.unit_congr ((Mesh.off12 c).trans rfl) _ _
theorem rect_off16 (c : Dev nD) : Rect.unit (s := S1024x512) (k0_off16 c) S256x256.size (k0_off16_inb c) = pbR (zF c) 1 :=
  Rect.unit_congr ((Mesh.off16 c).trans rfl) _ _
theorem rect_off18 (c : Dev nD) : Rect.unit (s := S1024x512) (k0_off18 c) S256x256.size (k0_off18_inb c) = pbR (zF c) 1 :=
  Rect.unit_congr ((Mesh.off18 c).trans rfl) _ _
theorem rect_off13_1_1 (c : Dev nD) : Rect.unit (s := S2x4x256x256) (k0_off13 c 1#32 1#32) S1x1x256x256.size (k0_off13_inb c 0 0) = r4R 0 (zj c 1) :=
  Rect.unit_congr ((Mesh.off13_1_1 c).trans rfl) _ _
theorem rect_off13_1_2 (c : Dev nD) : Rect.unit (s := S2x4x256x256) (k0_off13 c 1#32 2#32) S1x1x256x256.size (k0_off13_inb c 0 1) = r4R 0 (zj c 2) :=
  Rect.unit_congr ((Mesh.off13_1_2 c).trans rfl) _ _
theorem rect_off13_1_3 (c : Dev nD) : Rect.unit (s := S2x4x256x256) (k0_off13 c 1#32 3#32) S1x1x256x256.size (k0_off13_inb c 0 2) = r4R 0 (zj c 3) :=
  Rect.unit_congr ((Mesh.off13_1_3 c).trans rfl) _ _
theorem rect_off13_4_1 (c : Dev nD) : Rect.unit (s := S2x4x256x256) (k0_off13 c 4#32 1#32) S1x1x256x256.size (k0_off13_inb c 1 0) = r4R 0 (yj c 1) :=
  Rect.unit_congr ((Mesh.off13_4_1 c).trans rfl) _ _
theorem rect_off13_4_2 (c : Dev nD) : Rect.unit (s := S2x4x256x256) (k0_off13 c 4#32 2#32) S1x1x256x256.size (k0_off13_inb c 1 1) = r4R 0 (yj c 2) :=
  Rect.unit_congr ((Mesh.off13_4_2 c).trans rfl) _ _
theorem rect_off13_4_3 (c : Dev nD) : Rect.unit (s := S2x4x256x256) (k0_off13 c 4#32 3#32) S1x1x256x256.size (k0_off13_inb c 1 2) = r4R 0 (yj c 3) :=
  Rect.unit_congr ((Mesh.off13_4_3 c).trans rfl) _ _
theorem rect_off19_1_1 (c : Dev nD) : Rect.unit (s := S2x4x256x256) (k0_off19 c 1#32 1#32) S1x1x256x256.size (k0_off19_inb c 0 0) = r4R 1 (zj c 1) :=
  Rect.unit_congr ((Mesh.off19_1_1 c).trans rfl) _ _
theorem rect_off19_1_2 (c : Dev nD) : Rect.unit (s := S2x4x256x256) (k0_off19 c 1#32 2#32) S1x1x256x256.size (k0_off19_inb c 0 1) = r4R 1 (zj c 2) :=
  Rect.unit_congr ((Mesh.off19_1_2 c).trans rfl) _ _
theorem rect_off19_1_3 (c : Dev nD) : Rect.unit (s := S2x4x256x256) (k0_off19 c 1#32 3#32) S1x1x256x256.size (k0_off19_inb c 0 2) = r4R 1 (zj c 3) :=
  Rect.unit_congr ((Mesh.off19_1_3 c).trans rfl) _ _
theorem rect_off19_4_1 (c : Dev nD) : Rect.unit (s := S2x4x256x256) (k0_off19 c 4#32 1#32) S1x1x256x256.size (k0_off19_inb c 1 0) = r4R 1 (yj c 1) :=
  Rect.unit_congr ((Mesh.off19_4_1 c).trans rfl) _ _
theorem rect_off19_4_2 (c : Dev nD) : Rect.unit (s := S2x4x256x256) (k0_off19 c 4#32 2#32) S1x1x256x256.size (k0_off19_inb c 1 1) = r4R 1 (yj c 2) :=
  Rect.unit_congr ((Mesh.off19_4_2 c).trans rfl) _ _
theorem rect_off19_4_3 (c : Dev nD) : Rect.unit (s := S2x4x256x256) (k0_off19 c 4#32 3#32) S1x1x256x256.size (k0_off19_inb c 1 2) = r4R 1 (yj c 3) :=
  Rect.unit_congr ((Mesh.off19_4_3 c).trans rfl) _ _
theorem rect_off14_0 (c : Dev nD) : Rect.unit (s := S256x4096) (k0_off14 c 0#32) S256x256.size (k0_off14_inb c 0) = oR (qOwn c) 0 :=
  Rect.unit_congr ((Mesh.off14_0 c).trans (vec2_congr (by show (2048 * xc c + 512 * yc c + 0 : ℕ) = 512 * (4 * xc c + yc c) + 256 * 0; omega))) _ _
theorem rect_off14_256 (c : Dev nD) : Rect.unit (s := S256x4096) (k0_off14 c 256#32) S256x256.size (k0_off14_inb c 1) = oR (qOwn c) 1 :=
  Rect.unit_congr ((Mesh.off14_256 c).trans (vec2_congr (by show (2048 * xc c + 512 * yc c + 256 : ℕ) = 512 * (4 * xc c + yc c) + 256 * 1; omega))) _ _
theorem rect_off15_1_0 (c : Dev nD) : Rect.unit (s := S256x4096) (k0_off15 c 1#32 0#32) S256x256.size (k0_off15_inb c 0 0) = oR (qY c 1) 0 :=
  Rect.unit_congr ((Mesh.off15_1_0 c).trans (vec2_congr (by show (2048 * xc c + 512 * ((yc c + 1) % 4) + 0 : ℕ) = 512 * (4 * xc c + (yc c + 1) % 4) + 256 * 0; omega))) _ _
theorem rect_off15_1_256 (c : Dev nD) : Rect.unit (s := S256x4096) (k0_off15 c 1#32 256#32) S256x256.size (k0_off15_inb c 0 1) = oR (qY c 1) 1 :=
  Rect.unit_congr ((Mesh.off15_1_256 c).trans (vec2_congr (by show (2048 * xc c + 512 * ((yc c + 1) % 4) + 256 : ℕ) = 512 * (4 * xc c + (yc c + 1) % 4) + 256 * 1; omega))) _ _
theorem rect_off15_2_0 (c : Dev nD) : Rect.unit (s := S256x4096) (k0_off15 c 2#32 0#32) S256x256.size (k0_off15_inb c 1 0) = oR (qY c 2) 0 :=
  Rect.unit_congr ((Mesh.off15_2_0 c).trans (vec2_congr (by show (2048 * xc c + 512 * ((yc c + 2) % 4) + 0 : ℕ) = 512 * (4 * xc c + (yc c + 2) % 4) + 256 * 0; omega))) _ _
theorem rect_off15_2_256 (c : Dev nD) : Rect.unit (s := S256x4096) (k0_off15 c 2#32 256#32) S256x256.size (k0_off15_inb c 1 1) = oR (qY c 2) 1 :=
  Rect.unit_congr ((Mesh.off15_2_256 c).trans (vec2_congr (by show (2048 * xc c + 512 * ((yc c + 2) % 4) + 256 : ℕ) = 512 * (4 * xc c + (yc c + 2) % 4) + 256 * 1; omega))) _ _
theorem rect_off15_3_0 (c : Dev nD) : Rect.unit (s := S256x4096) (k0_off15 c 3#32 0#32) S256x256.size (k0_off15_inb c 2 0) = oR (qY c 3) 0 :=
  Rect.unit_congr ((Mesh.off15_3_0 c).trans (vec2_congr (by show (2048 * xc c + 512 * ((yc c + 3) % 4) + 0 : ℕ) = 512 * (4 * xc c + (yc c + 3) % 4) + 256 * 0; omega))) _ _
theorem rect_off15_3_256 (c : Dev nD) : Rect.unit (s := S256x4096) (k0_off15 c 3#32 256#32) S256x256.size (k0_off15_inb c 2 1) = oR (qY c 3) 1 :=
  Rect.unit_congr ((Mesh.off15_3_256 c).trans (vec2_congr (by show (2048 * xc c + 512 * ((yc c + 3) % 4) + 256 : ℕ) = 512 * (4 * xc c + (yc c + 3) % 4) + 256 * 1; omega))) _ _
theorem rect_off20_0_0 (c : Dev nD) : Rect.unit (s := S256x4096) (k0_off20 c 0#32 0#32) S256x256.size (k0_off20_inb c 0 0) = oR (qX c 0) 0 :=
  Rect.unit_congr ((Mesh.off20_0_0 c).trans (vec2_congr (by show (2048 * (1 - xc c) + 512 * 0 + 0 : ℕ) = 512 * (4 * (1 - xc c) + 0) + 256 * 0; omega))) _ _
theorem rect_off20_0_256 (c : Dev nD) : Rect.unit (s := S256x4096) (k0_off20 c 0#32 256#32) S256x256.size (k0_off20_inb c 0 1) = oR (qX c 0) 1 :=
  Rect.unit_congr ((Mesh.off20_0_256 c).trans (vec2_congr (by show (2048 * (1 - xc c) + 512 * 0 + 256 : ℕ) = 512 * (4 * (1 - xc c) + 0) + 256 * 1; omega))) _ _
theorem rect_off20_1_0 (c : Dev nD) : Rect.unit (s := S256x4096) (k0_off20 c 1#32 0#32) S256x256.size (k0_off20_inb c 1 0) = oR (qX c 1) 0 :=
  Rect.unit_congr ((Mesh.off20_1_0 c).trans (vec2_congr (by show (2048 * (1 - xc c) + 512 * 1 + 0 : ℕ) = 512 * (4 * (1 - xc c) + 1) + 256 * 0; omega))) _ _
theorem rect_off20_1_256 (c : Dev nD) : Rect.unit (s := S256x4096) (k0_off20 c 1#32 256#32) S256x256.size (k0_off20_inb c 1 1) = oR (qX c 1) 1 :=
  Rect.unit_congr ((Mesh.off20_1_256 c).trans (vec2_congr (by show (2048 * (1 - xc c) + 512 * 1 + 256 : ℕ) = 512 * (4 * (1 - xc c) + 1) + 256 * 1; omega))) _ _
theorem rect_off20_2_0 (c : Dev nD) : Rect.unit (s := S256x4096) (k0_off20 c 2#32 0#32) S256x256.size (k0_off20_inb c 2 0) = oR (qX c 2) 0 :=
  Rect.unit_congr ((Mesh.off20_2_0 c).trans (vec2_congr (by show (2048 * (1 - xc c) + 512 * 2 + 0 : ℕ) = 512 * (4 * (1 - xc c) + 2) + 256 * 0; omega))) _ _
theorem rect_off20_2_256 (c : Dev nD) : Rect.unit (s := S256x4096) (k0_off20 c 2#32 256#32) S256x256.size (k0_off20_inb c 2 1) = oR (qX c 2) 1 :=
  Rect.unit_congr ((Mesh.off20_2_256 c).trans (vec2_congr (by show (2048 * (1 - xc c) + 512 * 2 + 256 : ℕ) = 512 * (4 * (1 - xc c) + 2) + 256 * 1; omega))) _ _
theorem rect_off20_3_0 (c : Dev nD) : Rect.unit (s := S256x4096) (k0_off20 c 3#32 0#32) S256x256.size (k0_off20_inb c 3 0) = oR (qX c 3) 0 :=
  Rect.unit_congr ((Mesh.off20_3_0 c).trans (vec2_congr (by show (2048 * (1 - xc c) + 512 * 3 + 0 : ℕ) = 512 * (4 * (1 - xc c) + 3) + 256 * 0; omega))) _ _
theorem rect_off20_3_256 (c : Dev nD) : Rect.unit (s := S256x4096) (k0_off20 c 3#32 256#32) S256x256.size (k0_off20_inb c 3 1) = oR (qX c 3) 1 :=
  Rect.unit_congr ((Mesh.off20_3_256 c).trans (vec2_congr (by show (2048 * (1 - xc c) + 512 * 3 + 256 : ℕ) = 512 * (4 * (1 - xc c) + 3) + 256 * 1; omega))) _ _

theorem rect_r4_0_0 : Rect.unit (s := S2x4x256x256) ![0, 0, 0, 0] S1x1x256x256.size inb_S2x4x256x256_S1x1x256x256_0_0_0_0 = r4R 0 0 :=
  Rect.unit_congr rfl _ _
theorem rect_r4_0_1 : Rect.unit (s := S2x4x256x256) ![0, 1, 0, 0] S1x1x256x256.size inb_S2x4x256x256_S1x1x256x256_0_1_0_0 = r4R 0 1 :=
  Rect.unit_congr rfl _ _
theorem rect_r4_0_2 : Rect.unit (s := S2x4x256x256) ![0, 2, 0, 0] S1x1x256x256.size inb_S2x4x256x256_S1x1x256x256_0_2_0_0 = r4R 0 2 :=
  Rect.unit_congr rfl _ _
theorem rect_r4_0_3 : Rect.unit (s := S2x4x256x256) ![0, 3, 0, 0] S1x1x256x256.size inb_S2x4x256x256_S1x1x256x256_0_3_0_0 = r4R 0 3 :=
  Rect.unit_congr rfl _ _
theorem rect_r4_1_0 : Rect.unit (s := S2x4x256x256) ![1, 0, 0, 0] S1x1x256x256.size inb_S2x4x256x256_S1x1x256x256_1_0_0_0 = r4R 1 0 :=
  Rect.unit_congr rfl _ _
theorem rect_r4_1_1 : Rect.unit (s := S2x4x256x256) ![1, 1, 0, 0] S1x1x256x256.size inb_S2x4x256x256_S1x1x256x256_1_1_0_0 = r4R 1 1 :=
  Rect.unit_congr rfl _ _
theorem rect_r4_1_2 : Rect.unit (s := S2x4x256x256) ![1, 2, 0, 0] S1x1x256x256.size inb_S2x4x256x256_S1x1x256x256_1_2_0_0 = r4R 1 2 :=
  Rect.unit_congr rfl _ _
theorem rect_r4_1_3 : Rect.unit (s := S2x4x256x256) ![1, 3, 0, 0] S1x1x256x256.size inb_S2x4x256x256_S1x1x256x256_1_3_0_0 = r4R 1 3 :=
  Rect.unit_congr rfl _ _
theorem rect_red_0 : Rect.unit (s := S2x256x256) ![0, 0, 0] S1x256x256.size inb_S2x256x256_S1x256x256_0_0_0 = redR 0 :=
  Rect.unit_congr rfl _ _
theorem rect_red_1 : Rect.unit (s := S2x256x256) ![1, 0, 0] S1x256x256.size inb_S2x256x256_S1x256x256_1_0_0 = redR 1 :=
  Rect.unit_congr rfl _ _

/-! ## An access through the whole buffer stays inside the slot -/

theorem incl_pb_acc (j : Fin 4) (h : Fin 2) : ((pbM : Memref sig .tc .vmem S1024x512 .bf16).access (pbR j h)).set ⊆ (pbSlot j h).view.set :=
  Finset.Subset.refl _
theorem incl_pb (j : Fin 4) (h : Fin 2) : (pbM : Memref sig .tc .vmem S1024x512 .bf16).view.setOn (pbR j h).set ⊆ (pbSlot j h).view.set :=
  (Finset.Subset.trans (View.set_slice (pbM : Memref sig .tc .vmem S1024x512 .bf16).view (pbR j h)).ge (incl_pb_acc j h))
theorem incl_pb_load (j : Fin 4) (h : Fin 2) : (pbM : Memref sig .tc .vmem S1024x512 .bf16).view.setOn (pbR j h).toLoadRect.set ⊆ (pbSlot j h).view.set :=
  incl_pb j h

theorem incl_red_acc (h : Fin 2) : ((redM : Memref sig .tc .vmem S2x256x256 .bf16).access (redR h)).set ⊆ (redSlot h).view.set :=
  (View.set_reshape ((redM : Memref sig .tc .vmem S2x256x256 .bf16).view.slice (redR h)) _).ge
theorem incl_red (h : Fin 2) : (redM : Memref sig .tc .vmem S2x256x256 .bf16).view.setOn (redR h).set ⊆ (redSlot h).view.set :=
  (Finset.Subset.trans (View.set_slice (redM : Memref sig .tc .vmem S2x256x256 .bf16).view (redR h)).ge (incl_red_acc h))
theorem incl_red_load (h : Fin 2) : (redM : Memref sig .tc .vmem S2x256x256 .bf16).view.setOn (redR h).toLoadRect.set ⊆ (redSlot h).view.set :=
  incl_red h

theorem incl_rb_acc (h : Fin 2) (j : Fin 4) : ((rbM : Memref sig .tc .vmem S2x4x256x256 .bf16).access (r4R h j)).set ⊆ (rbSlot h j).view.set :=
  (View.set_reshape ((rbM : Memref sig .tc .vmem S2x4x256x256 .bf16).view.slice (r4R h j)) _).ge
theorem incl_rb (h : Fin 2) (j : Fin 4) : (rbM : Memref sig .tc .vmem S2x4x256x256 .bf16).view.setOn (r4R h j).set ⊆ (rbSlot h j).view.set :=
  (Finset.Subset.trans (View.set_slice (rbM : Memref sig .tc .vmem S2x4x256x256 .bf16).view (r4R h j)).ge (incl_rb_acc h j))
theorem incl_rb_load (h : Fin 2) (j : Fin 4) : (rbM : Memref sig .tc .vmem S2x4x256x256 .bf16).view.setOn (r4R h j).toLoadRect.set ⊆ (rbSlot h j).view.set :=
  incl_rb h j

theorem incl_r1_acc (h : Fin 2) (j : Fin 4) : ((r1M : Memref sig .tc .vmem S2x4x256x256 .bf16).access (r4R h j)).set ⊆ (r1Slot h j).view.set :=
  (View.set_reshape ((r1M : Memref sig .tc .vmem S2x4x256x256 .bf16).view.slice (r4R h j)) _).ge
theorem incl_r1 (h : Fin 2) (j : Fin 4) : (r1M : Memref sig .tc .vmem S2x4x256x256 .bf16).view.setOn (r4R h j).set ⊆ (r1Slot h j).view.set :=
  (Finset.Subset.trans (View.set_slice (r1M : Memref sig .tc .vmem S2x4x256x256 .bf16).view (r4R h j)).ge (incl_r1_acc h j))
theorem incl_r1_load (h : Fin 2) (j : Fin 4) : (r1M : Memref sig .tc .vmem S2x4x256x256 .bf16).view.setOn (r4R h j).toLoadRect.set ⊆ (r1Slot h j).view.set :=
  incl_r1 h j

theorem incl_r2_acc (h : Fin 2) (j : Fin 4) : ((r2M : Memref sig .tc .vmem S2x4x256x256 .bf16).access (r4R h j)).set ⊆ (r2Slot h j).view.set :=
  (View.set_reshape ((r2M : Memref sig .tc .vmem S2x4x256x256 .bf16).view.slice (r4R h j)) _).ge
theorem incl_r2 (h : Fin 2) (j : Fin 4) : (r2M : Memref sig .tc .vmem S2x4x256x256 .bf16).view.setOn (r4R h j).set ⊆ (r2Slot h j).view.set :=
  (Finset.Subset.trans (View.set_slice (r2M : Memref sig .tc .vmem S2x4x256x256 .bf16).view (r4R h j)).ge (incl_r2_acc h j))
theorem incl_r2_load (h : Fin 2) (j : Fin 4) : (r2M : Memref sig .tc .vmem S2x4x256x256 .bf16).view.setOn (r4R h j).toLoadRect.set ⊆ (r2Slot h j).view.set :=
  incl_r2 h j

/-- info: 'Cert.KernelIdeal.Coll.rect_off20_3_256' depends on axioms: [propext, Classical.choice, Quot.sound] -/
#guard_msgs in #print axioms rect_off20_3_256

/-- info: 'Cert.KernelIdeal.Coll.incl_rb_load' depends on axioms: [propext, Classical.choice, Quot.sound] -/
#guard_msgs in #print axioms incl_rb_load

end Cert.KernelIdeal.Coll

end
-- ==== Proof.Rot.lean ====
/- Chains over the four coordinates of an axis, re-listed from the device's own coordinate: the chain itself, the four
   read shares of a sum block, and the four slots of a neighbour's receive buffer along x. -/
import proofs.«901051_g7700000000001052_dist_rsdw_v7x_xyz2x4x4_z_m1024_d1024_f4096_bf16_1_alg».proof.Proof.SlotsRel
import proofs.«901051_g7700000000001052_dist_rsdw_v7x_xyz2x4x4_z_m1024_d1024_f4096_bf16_1_alg».proof.Proof.SlotShares

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem chain_yrot (c : Dev nD) (Φ : Fin 4 → sProp 𝕄) :
    iprop(Φ 0 ∗ Φ 1 ∗ Φ 2 ∗ Φ 3) = iprop(Φ (yF c) ∗ Φ (yj c 1) ∗ Φ (yj c 2) ∗ Φ (yj c 3)) :=
  (bigSep_fin4 Φ).symm.trans (bigSep_yrot c Φ)

theorem chain_zrot (c : Dev nD) (Φ : Fin 4 → sProp 𝕄) :
    iprop(Φ 0 ∗ Φ 1 ∗ Φ 2 ∗ Φ 3) = iprop(Φ (zF c) ∗ Φ (zj c 1) ∗ Φ (zj c 2) ∗ Φ (zj c 3)) :=
  (bigSep_fin4 Φ).symm.trans (bigSep_zrot c Φ)

/-- The full share of a sum block as the remainder and the four read shares, the shares listed from the device's own y
    coordinate. -/
theorem red_shares_rel (c : Dev nD) (h : Fin 2) (f : Buf (Elt F) ((redSlot h).view.loc (c : Thread nD τ))) :
    slotPts (F := F) c (redSlot h) fullShare f
      ⊢ iprop(slotPts c (redSlot h) (Transfers.shareDrop fullShare 4) f ∗ slotPts c (redSlot h) (qS (yF c)) f ∗ slotPts c (redSlot h) (qS (yj c 1)) f
        ∗ slotPts c (redSlot h) (qS (yj c 2)) f ∗ slotPts c (redSlot h) (qS (yj c 3)) f) := by
  have e : iprop(slotPts (F := F) c (redSlot h) (qS 0) f ∗ slotPts c (redSlot h) (qS 1) f ∗ slotPts c (redSlot h) (qS 2) f ∗ slotPts c (redSlot h) (qS 3) f)
      = iprop(slotPts c (redSlot h) (qS (yF c)) f ∗ slotPts c (redSlot h) (qS (yj c 1)) f ∗ slotPts c (redSlot h) (qS (yj c 2)) f ∗ slotPts c (redSlot h) (qS (yj c 3)) f) :=
    chain_yrot c (fun j : Fin 4 => slotPts (F := F) c (redSlot h) (qS j) f)
  iintro H
  ihave H' := (red_shares c h f).1 $$ H
  icases H' with ⟨Hd, Ht⟩
  isplitl [Hd]
  · iexact Hd
  · iapply (Entails.of_eq e); iexact Ht

/-- The four slots of a half of a device's x-phase receive buffer, re-listed from another device's y coordinate. -/
theorem xslots_rel (c p : Dev nD) (h : Fin 2) :
    iprop(anyPts (F := F) p (r2Slot h 0) fullShare ∗ anyPts p (r2Slot h 1) fullShare ∗ anyPts p (r2Slot h 2) fullShare ∗ anyPts p (r2Slot h 3) fullShare)
      ⊢ iprop(anyPts p (r2Slot h (yF c)) fullShare ∗ anyPts p (r2Slot h (yj c 1)) fullShare ∗ anyPts p (r2Slot h (yj c 2)) fullShare ∗ anyPts p (r2Slot h (yj c 3)) fullShare) :=
  Entails.of_eq (chain_yrot c (fun j : Fin 4 => anyPts (F := F) p (r2Slot h j) fullShare))

/-- info: 'Cert.KernelIdeal.Coll.red_shares_rel' depends on axioms: [propext, Classical.choice, Quot.sound] -/
#guard_msgs in #print axioms red_shares_rel

end Cert.KernelIdeal.Coll

end
-- ==== Proof.Epilogue.lean ====
/- The end of a device's body. Its forty-eight DMA cells, each past its one round (or, where the cell carries no
   transfer, at a round from which it has no duty), are closed and hand back their counters at zero; and the five scratch
   buffers, held slot by slot — a sum block as the remainder of the full share beside the four shares its transfers read
   through, a gathered block as the remainder beside the share its relay read through — join back to whole buffers at some
   contents: shares of the same elements agree on what they hold, so their contents need not be known to be the same. -/
import proofs.«901051_g7700000000001052_dist_rsdw_v7x_xyz2x4x4_z_m1024_d1024_f4096_bf16_1_alg».proof.Proof.Tables
import proofs.«901051_g7700000000001052_dist_rsdw_v7x_xyz2x4x4_z_m1024_d1024_f4096_bf16_1_alg».proof.Proof.Slots
import proofs.«901051_g7700000000001052_dist_rsdw_v7x_xyz2x4x4_z_m1024_d1024_f4096_bf16_1_alg».proof.Proof.SlotShares

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device holds when its last wait is over: each own DMA cell at the start of the round after its last (round 1 if
    the cell carried a transfer, round 0 if it never had a duty), and every slot of its scratch buffers at some contents —
    the sum blocks and the relayed gathered blocks by the shares they were cut into. -/
def endState (c : Dev nD) : sProp 𝕄 := iprop(
  (bigSep Finset.univ fun i : Fin 6 × Fin 2 × Fin 4 => atPos ER (dC c i.1 i.2.1 i.2.2) (if used c i.1 i.2.2 then 1 else 0) ∅ 0)
  ∗ (bigSep Finset.univ fun jh : Fin 4 × Fin 2 => anyPts (F := F) c (pbSlot jh.1 jh.2) fullShare)
  ∗ (bigSep Finset.univ fun h : Fin 2 => iprop(anyPts (F := F) c (redSlot h) (Transfers.shareDrop fullShare 4) ∗ bigSep Finset.univ fun j : Fin 4 => anyPts (F := F) c (redSlot h) (qS j)))
  ∗ (bigSep Finset.univ fun hj : Fin 2 × Fin 4 => anyPts (F := F) c (rbSlot hj.1 hj.2) fullShare)
  ∗ (bigSep Finset.univ fun hj : Fin 2 × Fin 4 => if hj.2 = yF c then anyPts (F := F) c (r1Slot hj.1 hj.2) fullShare else iprop(anyPts (F := F) c (r1Slot hj.1 hj.2) (Transfers.shareDrop fullShare 1) ∗ anyPts (F := F) c (r1Slot hj.1 hj.2) qR))
  ∗ (bigSep Finset.univ fun hj : Fin 2 × Fin 4 => anyPts (F := F) c (r2Slot hj.1 hj.2) fullShare))

/-! ## The cells close -/

/-- One own DMA cell: from its invariant and its position past its last duty, the counter at zero. -/
theorem cell_close_one (K : Dev nD × CK → ℕ) (c : Dev nD) (i : Fin 6 × Fin 2 × Fin 4) :
    iprop(cellInv ER (Rd (F := F) m) (K (c, some i)) (dC c i.1 i.2.1 i.2.2) ∗ atPos ER (dC c i.1 i.2.1 i.2.2) (if used c i.1 i.2.2 then 1 else 0) ∅ 0)
      ⊢ |={Set.univ}=> semVal (dC c i.1 i.2.1 i.2.2) 0 := by
  by_cases hu : used c i.1 i.2.2
  · rw [if_pos hu]
    exact Rounds.cell_close ER (Rd m) (Set.mem_univ _) (fun h => h) (R := 1) (duties_later m _)
  · rw [if_neg hu]
    exact Rounds.cell_close ER (Rd m) (Set.mem_univ _) (fun h => h) (R := 0) (duties_unused_all m c i.1 i.2.1 i.2.2 hu)

/-- All forty-eight. -/
theorem cells_close (K : Dev nD × CK → ℕ) (c : Dev nD) :
    iprop(records (F := F) m K ∗ bigSep Finset.univ fun i : Fin 6 × Fin 2 × Fin 4 => atPos ER (dC c i.1 i.2.1 i.2.2) (if used c i.1 i.2.2 then 1 else 0) ∅ 0)
      ⊢ |={Set.univ}=> bigSep Finset.univ fun i : Fin 6 × Fin 2 × Fin 4 => semVal (dC c i.1 i.2.1 i.2.2) 0 := by
  haveI : BI.Persistent (records (F := F) m K) := by unfold records; infer_instance
  have hinv : records (F := F) m K ⊢ bigSep Finset.univ fun i : Fin 6 × Fin 2 × Fin 4 => cellInv ER (Rd (F := F) m) (K (c, some i)) (dC c i.1 i.2.1 i.2.2) :=
    bigSep_intro_persistent fun i _ => by
      unfold records
      have h1 : ∀ (A B : sProp 𝕄), iprop(A ∗ B) ⊢ A := fun A B => by iintro ⟨H, -⟩; iexact H
      exact (h1 _ _).trans (bigSep_elim (Finset.mem_univ ((c, some i) : Dev nD × CK)))
  refine (sep_mono_left hinv).trans ?_
  rw [← bigSep_sep']
  exact (bigSep_mono fun i _ => cell_close_one m K c i).trans (bigSep_fupd _ _)

/-! ## The scratch buffers whole again -/

/-- The remainder after `k + 1` read shares and the `k`-th read share, each at some contents, are the remainder after `k`. -/
theorem any_join_tok {s : Shape} {e : EltTy} (c : Dev nD) (M : Memref sig .tc .vmem s e) (q : PosShare TreeShare) (k : ℕ) :
    iprop(anyPts (F := F) c M (Transfers.shareDrop q (k + 1)) ∗ anyPts (F := F) c M (Transfers.shareTokN q k))
      ⊢ anyPts (F := F) c M (Transfers.shareDrop q k) := by
  unfold anyPts slotPts
  exact join_any (PosShare.mem_left_op_right (Transfers.shareDrop q k))

/-- A sum block: the remainder and the four read shares are the block in full. -/
theorem red_half (c : Dev nD) (h : Fin 2) :
    iprop(anyPts (F := F) c (redSlot h) (Transfers.shareDrop fullShare 4) ∗ bigSep Finset.univ fun j : Fin 4 => anyPts (F := F) c (redSlot h) (qS j))
      ⊢ iprop(∃ f, slotPts (F := F) c (redSlot h) fullShare f) := by
  rw [bigSep_fin4]
  show iprop(anyPts (F := F) c (redSlot h) (Transfers.shareDrop fullShare 4) ∗ anyPts (F := F) c (redSlot h) (Transfers.shareTokN fullShare 0)
      ∗ anyPts (F := F) c (redSlot h) (Transfers.shareTokN fullShare 1) ∗ anyPts (F := F) c (redSlot h) (Transfers.shareTokN fullShare 2)
      ∗ anyPts (F := F) c (redSlot h) (Transfers.shareTokN fullShare 3))
    ⊢ anyPts (F := F) c (redSlot h) (Transfers.shareDrop fullShare 0)
  iintro ⟨D4, T0, T1, T2, T3⟩
  ihave D3 := (any_join_tok (F := F) c (redSlot h) fullShare 3) $$ [D4 T3]
  · isplitl [D4] <;> iassumption
  ihave D2 := (any_join_tok (F := F) c (redSlot h) fullShare 2) $$ [D3 T2]
  · isplitl [D3] <;> iassumption
  ihave D1 := (any_join_tok (F := F) c (redSlot h) fullShare 1) $$ [D2 T1]
  · isplitl [D2] <;> iassumption
  ihave D0 := (any_join_tok (F := F) c (redSlot h) fullShare 0) $$ [D1 T0]
  · isplitl [D1] <;> iassumption
  iexact D0

/-- A gathered block: whole, or the remainder beside the share its relay read through. -/
theorem r1_slot_whole (c : Dev nD) (hj : Fin 2 × Fin 4) :
    (if hj.2 = yF c then anyPts (F := F) c (r1Slot hj.1 hj.2) fullShare
      else iprop(anyPts (F := F) c (r1Slot hj.1 hj.2) (Transfers.shareDrop fullShare 1) ∗ anyPts (F := F) c (r1Slot hj.1 hj.2) qR))
      ⊢ iprop(∃ f, slotPts (F := F) c (r1Slot hj.1 hj.2) fullShare f) := by
  split
  · exact .rfl
  · exact any_join_tok (F := F) c (r1Slot hj.1 hj.2) fullShare 0

theorem scratch_whole (c : Dev nD) :
    iprop((bigSep Finset.univ fun jh : Fin 4 × Fin 2 => anyPts (F := F) c (pbSlot jh.1 jh.2) fullShare)
      ∗ (bigSep Finset.univ fun h : Fin 2 => iprop(anyPts (F := F) c (redSlot h) (Transfers.shareDrop fullShare 4) ∗ bigSep Finset.univ fun j : Fin 4 => anyPts (F := F) c (redSlot h) (qS j)))
      ∗ (bigSep Finset.univ fun hj : Fin 2 × Fin 4 => anyPts (F := F) c (rbSlot hj.1 hj.2) fullShare)
      ∗ (bigSep Finset.univ fun hj : Fin 2 × Fin 4 => if hj.2 = yF c then anyPts (F := F) c (r1Slot hj.1 hj.2) fullShare else iprop(anyPts (F := F) c (r1Slot hj.1 hj.2) (Transfers.shareDrop fullShare 1) ∗ anyPts (F := F) c (r1Slot hj.1 hj.2) qR))
      ∗ (bigSep Finset.univ fun hj : Fin 2 × Fin 4 => anyPts (F := F) c (r2Slot hj.1 hj.2) fullShare))
      ⊢ scratch (F := F) c := by
  have hred : (bigSep Finset.univ fun h : Fin 2 => iprop(anyPts (F := F) c (redSlot h) (Transfers.shareDrop fullShare 4) ∗ bigSep Finset.univ fun j : Fin 4 => anyPts (F := F) c (redSlot h) (qS j)))
      ⊢ iprop(∃ g, ((c : Thread nD τ).loc cc0_scratch1) ↦{fullShare} g) :=
    (bigSep_mono fun h _ => red_half (F := F) c h).trans (red_join (F := F) c)
  have hr1 : (bigSep Finset.univ fun hj : Fin 2 × Fin 4 => if hj.2 = yF c then anyPts (F := F) c (r1Slot hj.1 hj.2) fullShare else iprop(anyPts (F := F) c (r1Slot hj.1 hj.2) (Transfers.shareDrop fullShare 1) ∗ anyPts (F := F) c (r1Slot hj.1 hj.2) qR))
      ⊢ iprop(∃ g, ((c : Thread nD τ).loc cc0_scratch3) ↦{fullShare} g) :=
    (bigSep_mono fun hj _ => r1_slot_whole (F := F) c hj).trans (r1_join (F := F) c)
  unfold scratch
  iintro ⟨Hpb, Hred, Hrb, Hr1, Hr2⟩
  isplitl [Hpb]
  · iapply (pb_join (F := F) c); iexact Hpb
  isplitl [Hred]
  · iapply hred; iexact Hred
  isplitl [Hrb]
  · iapply (rb_join (F := F) c); iexact Hrb
  isplitl [Hr1]
  · iapply hr1; iexact Hr1
  · iapply (r2_join (F := F) c); iexact Hr2

/-! ## The end -/

theorem epilogue (K : Dev nD × CK → ℕ) (c : Dev nD) :
    iprop(records (F := F) m K ∗ endState (F := F) c) ⊢ |={Set.univ}=> Φ₁ (F := F) c := by
  unfold endState Φ₁
  iintro ⟨Hrec, Hat, Hpb, Hred, Hrb, Hr1, Hr2⟩
  imod (cells_close (F := F) m K c) $$ [Hrec Hat] with Hsem
  · isplitl [Hrec] <;> iassumption
  imodintro
  isplitl [Hpb Hred Hrb Hr1 Hr2]
  · iapply (scratch_whole (F := F) c)
    isplitl [Hpb]; · iexact Hpb
    isplitl [Hred]; · iexact Hred
    isplitl [Hrb]; · iexact Hrb
    isplitl [Hr1] <;> iassumption
  · iexact Hsem

/-- info: 'Cert.KernelIdeal.Coll.epilogue' depends on axioms: [propext, Classical.choice, Quot.sound] -/
#guard_msgs in #print axioms epilogue

end Cert.KernelIdeal.Coll

end
-- ==== Proof.EndPos.lean ====
/- The positions a device holds at its end, written out cell by cell: the family of final positions — each own DMA cell at
   round 1 if it carried a transfer, at round 0 if it never had a duty — is the chain of those positions, array by array. -/
import proofs.«901051_g7700000000001052_dist_rsdw_v7x_xyz2x4x4_z_m1024_d1024_f4096_bf16_1_alg».proof.Proof.Families

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The final positions -/

theorem chain_sep_eq {A A' B B' : sProp 𝕄} (hA : A = A') (hB : B = B') : iprop(A ∗ B) = iprop(A' ∗ B') := by rw [hA, hB]
theorem atPos_round_eq (g : GSem nD τ sig) {R R' : ℕ} (h : R = R') : (atPos ER g R ∅ 0 : sProp 𝕄) = atPos ER g R' ∅ 0 := by rw [h]

/-- The chain of a device's DMA cells, each past its last duty — at round 1 where the cell carried a transfer, at round 0
    where it never had a duty — is the family of its final positions. -/
theorem end_pos_eq (c : Dev nD) :
    (bigSep Finset.univ fun i : Fin 6 × Fin 2 × Fin 4 => (atPos ER (dC c i.1 i.2.1 i.2.2) (if used c i.1 i.2.2 then 1 else 0) ∅ 0 : sProp 𝕄))
      = iprop(((atPos ER (dC c 0 0 (zF c)) 0 ∅ 0 ∗ atPos ER (dC c 0 0 (zj c 1)) 1 ∅ 0 ∗ atPos ER (dC c 0 0 (zj c 2)) 1 ∅ 0 ∗ atPos ER (dC c 0 0 (zj c 3)) 1 ∅ 0) ∗ (atPos ER (dC c 0 1 (zF c)) 0 ∅ 0 ∗ atPos ER (dC c 0 1 (zj c 1)) 1 ∅ 0 ∗ atPos ER (dC c 0 1 (zj c 2)) 1 ∅ 0 ∗ atPos ER (dC c 0 1 (zj c 3)) 1 ∅ 0))
      ∗ ((atPos ER (dC c 1 0 (zF c)) 0 ∅ 0 ∗ atPos ER (dC c 1 0 (zj c 1)) 1 ∅ 0 ∗ atPos ER (dC c 1 0 (zj c 2)) 1 ∅ 0 ∗ atPos ER (dC c 1 0 (zj c 3)) 1 ∅ 0) ∗ (atPos ER (dC c 1 1 (zF c)) 0 ∅ 0 ∗ atPos ER (dC c 1 1 (zj c 1)) 1 ∅ 0 ∗ atPos ER (dC c 1 1 (zj c 2)) 1 ∅ 0 ∗ atPos ER (dC c 1 1 (zj c 3)) 1 ∅ 0))
      ∗ ((atPos ER (dC c 2 0 (yF c)) 0 ∅ 0 ∗ atPos ER (dC c 2 0 (yj c 1)) 1 ∅ 0 ∗ atPos ER (dC c 2 0 (yj c 2)) 1 ∅ 0 ∗ atPos ER (dC c 2 0 (yj c 3)) 1 ∅ 0) ∗ (atPos ER (dC c 2 1 (yF c)) 0 ∅ 0 ∗ atPos ER (dC c 2 1 (yj c 1)) 1 ∅ 0 ∗ atPos ER (dC c 2 1 (yj c 2)) 1 ∅ 0 ∗ atPos ER (dC c 2 1 (yj c 3)) 1 ∅ 0))
      ∗ ((atPos ER (dC c 3 0 (yF c)) 0 ∅ 0 ∗ atPos ER (dC c 3 0 (yj c 1)) 1 ∅ 0 ∗ atPos ER (dC c 3 0 (yj c 2)) 1 ∅ 0 ∗ atPos ER (dC c 3 0 (yj c 3)) 1 ∅ 0) ∗ (atPos ER (dC c 3 1 (yF c)) 0 ∅ 0 ∗ atPos ER (dC c 3 1 (yj c 1)) 1 ∅ 0 ∗ atPos ER (dC c 3 1 (yj c 2)) 1 ∅ 0 ∗ atPos ER (dC c 3 1 (yj c 3)) 1 ∅ 0))
      ∗ ((atPos ER (dC c 4 0 (yF c)) 1 ∅ 0 ∗ atPos ER (dC c 4 0 (yj c 1)) 1 ∅ 0 ∗ atPos ER (dC c 4 0 (yj c 2)) 1 ∅ 0 ∗ atPos ER (dC c 4 0 (yj c 3)) 1 ∅ 0) ∗ (atPos ER (dC c 4 1 (yF c)) 1 ∅ 0 ∗ atPos ER (dC c 4 1 (yj c 1)) 1 ∅ 0 ∗ atPos ER (dC c 4 1 (yj c 2)) 1 ∅ 0 ∗ atPos ER (dC c 4 1 (yj c 3)) 1 ∅ 0))
      ∗ ((atPos ER (dC c 5 0 0) 1 ∅ 0 ∗ atPos ER (dC c 5 0 1) 1 ∅ 0 ∗ atPos ER (dC c 5 0 2) 1 ∅ 0 ∗ atPos ER (dC c 5 0 3) 1 ∅ 0) ∗ (atPos ER (dC c 5 1 0) 1 ∅ 0 ∗ atPos ER (dC c 5 1 1) 1 ∅ 0 ∗ atPos ER (dC c 5 1 2) 1 ∅ 0 ∗ atPos ER (dC c 5 1 3) 1 ∅ 0))) := by
  have z0 : ∀ a : Fin 6, a.val < 2 → (if used c a (zF c) then 1 else 0) = 0 := fun a ha => if_neg fun h => (used_z c a ha _).mp h rfl
  have z1 : ∀ a : Fin 6, a.val < 2 → ∀ d : ℕ, d % 4 ≠ 0 → (if used c a (zj c d) then 1 else 0) = 1 := fun a ha d hd => if_pos ((used_z c a ha _).mpr (zj_ne c d hd))
  have y0 : ∀ a : Fin 6, ¬ a.val < 2 → a.val < 4 → (if used c a (yF c) then 1 else 0) = 0 := fun a ha ha' => if_neg fun h => (used_y c a ha ha' _).mp h rfl
  have y1 : ∀ a : Fin 6, ¬ a.val < 2 → a.val < 4 → ∀ d : ℕ, d % 4 ≠ 0 → (if used c a (yj c d) then 1 else 0) = 1 := fun a ha ha' d hd => if_pos ((used_y c a ha ha' _).mpr (yj_ne c d hd))
  have x1 : ∀ a : Fin 6, ¬ a.val < 2 → ¬ a.val < 4 → ∀ j : Fin 4, (if used c a j then 1 else 0) = 1 := fun a ha ha' j => if_pos (used_x c a ha ha' j)
  refine (bigSep_cells (F := F) c fun a h j => atPos ER (dC c a h j) (if used c a j then 1 else 0) ∅ 0).trans ?_
  exact (chain_sep_eq (chain_sep_eq (chain_sep_eq (atPos_round_eq _ (z0 0 (by decide))) (chain_sep_eq (atPos_round_eq _ (z1 0 (by decide) 1 (by decide))) (chain_sep_eq (atPos_round_eq _ (z1 0 (by decide) 2 (by decide))) (atPos_round_eq _ (z1 0 (by decide) 3 (by decide)))))) (chain_sep_eq (atPos_round_eq _ (z0 0 (by decide))) (chain_sep_eq (atPos_round_eq _ (z1 0 (by decide) 1 (by decide))) (chain_sep_eq (atPos_round_eq _ (z1 0 (by decide) 2 (by decide))) (atPos_round_eq _ (z1 0 (by decide) 3 (by decide)))))))
    (chain_sep_eq (chain_sep_eq (chain_sep_eq (atPos_round_eq _ (z0 1 (by decide))) (chain_sep_eq (atPos_round_eq _ (z1 1 (by decide) 1 (by decide))) (chain_sep_eq (atPos_round_eq _ (z1 1 (by decide) 2 (by decide))) (atPos_round_eq _ (z1 1 (by decide) 3 (by decide)))))) (chain_sep_eq (atPos_round_eq _ (z0 1 (by decide))) (chain_sep_eq (atPos_round_eq _ (z1 1 (by decide) 1 (by decide))) (chain_sep_eq (atPos_round_eq _ (z1 1 (by decide) 2 (by decide))) (atPos_round_eq _ (z1 1 (by decide) 3 (by decide)))))))
    (chain_sep_eq (chain_sep_eq (chain_sep_eq (atPos_round_eq _ (y0 2 (by decide) (by decide))) (chain_sep_eq (atPos_round_eq _ (y1 2 (by decide) (by decide) 1 (by decide))) (chain_sep_eq (atPos_round_eq _ (y1 2 (by decide) (by decide) 2 (by decide))) (atPos_round_eq _ (y1 2 (by decide) (by decide) 3 (by decide)))))) (chain_sep_eq (atPos_round_eq _ (y0 2 (by decide) (by decide))) (chain_sep_eq (atPos_round_eq _ (y1 2 (by decide) (by decide) 1 (by decide))) (chain_sep_eq (atPos_round_eq _ (y1 2 (by decide) (by decide) 2 (by decide))) (atPos_round_eq _ (y1 2 (by decide) (by decide) 3 (by decide)))))))
    (chain_sep_eq (chain_sep_eq (chain_sep_eq (atPos_round_eq _ (y0 3 (by decide) (by decide))) (chain_sep_eq (atPos_round_eq _ (y1 3 (by decide) (by decide) 1 (by decide))) (chain_sep_eq (atPos_round_eq _ (y1 3 (by decide) (by decide) 2 (by decide))) (atPos_round_eq _ (y1 3 (by decide) (by decide) 3 (by decide)))))) (chain_sep_eq (atPos_round_eq _ (y0 3 (by decide) (by decide))) (chain_sep_eq (atPos_round_eq _ (y1 3 (by decide) (by decide) 1 (by decide))) (chain_sep_eq (atPos_round_eq _ (y1 3 (by decide) (by decide) 2 (by decide))) (atPos_round_eq _ (y1 3 (by decide) (by decide) 3 (by decide)))))))
    (chain_sep_eq (chain_sep_eq (chain_sep_eq (atPos_round_eq _ (x1 4 (by decide) (by decide) (yF c))) (chain_sep_eq (atPos_round_eq _ (x1 4 (by decide) (by decide) (yj c 1))) (chain_sep_eq (atPos_round_eq _ (x1 4 (by decide) (by decide) (yj c 2))) (atPos_round_eq _ (x1 4 (by decide) (by decide) (yj c 3)))))) (chain_sep_eq (atPos_round_eq _ (x1 4 (by decide) (by decide) (yF c))) (chain_sep_eq (atPos_round_eq _ (x1 4 (by decide) (by decide) (yj c 1))) (chain_sep_eq (atPos_round_eq _ (x1 4 (by decide) (by decide) (yj c 2))) (atPos_round_eq _ (x1 4 (by decide) (by decide) (yj c 3)))))))
    (chain_sep_eq (chain_sep_eq (atPos_round_eq _ (x1 5 (by decide) (by decide) 0)) (chain_sep_eq (atPos_round_eq _ (x1 5 (by decide) (by decide) 1)) (chain_sep_eq (atPos_round_eq _ (x1 5 (by decide) (by decide) 2)) (atPos_round_eq _ (x1 5 (by decide) (by decide) 3))))) (chain_sep_eq (atPos_round_eq _ (x1 5 (by decide) (by decide) 0)) (chain_sep_eq (atPos_round_eq _ (x1 5 (by decide) (by decide) 1)) (chain_sep_eq (atPos_round_eq _ (x1 5 (by decide) (by decide) 2)) (atPos_round_eq _ (x1 5 (by decide) (by decide) 3)))))))))))

/-- The direction the end of the body uses. -/
theorem end_pos (c : Dev nD) :
    iprop(((atPos ER (dC c 0 0 (zF c)) 0 ∅ 0 ∗ atPos ER (dC c 0 0 (zj c 1)) 1 ∅ 0 ∗ atPos ER (dC c 0 0 (zj c 2)) 1 ∅ 0 ∗ atPos ER (dC c 0 0 (zj c 3)) 1 ∅ 0) ∗ (atPos ER (dC c 0 1 (zF c)) 0 ∅ 0 ∗ atPos ER (dC c 0 1 (zj c 1)) 1 ∅ 0 ∗ atPos ER (dC c 0 1 (zj c 2)) 1 ∅ 0 ∗ atPos ER (dC c 0 1 (zj c 3)) 1 ∅ 0))
      ∗ ((atPos ER (dC c 1 0 (zF c)) 0 ∅ 0 ∗ atPos ER (dC c 1 0 (zj c 1)) 1 ∅ 0 ∗ atPos ER (dC c 1 0 (zj c 2)) 1 ∅ 0 ∗ atPos ER (dC c 1 0 (zj c 3)) 1 ∅ 0) ∗ (atPos ER (dC c 1 1 (zF c)) 0 ∅ 0 ∗ atPos ER (dC c 1 1 (zj c 1)) 1 ∅ 0 ∗ atPos ER (dC c 1 1 (zj c 2)) 1 ∅ 0 ∗ atPos ER (dC c 1 1 (zj c 3)) 1 ∅ 0))
      ∗ ((atPos ER (dC c 2 0 (yF c)) 0 ∅ 0 ∗ atPos ER (dC c 2 0 (yj c 1)) 1 ∅ 0 ∗ atPos ER (dC c 2 0 (yj c 2)) 1 ∅ 0 ∗ atPos ER (dC c 2 0 (yj c 3)) 1 ∅ 0) ∗ (atPos ER (dC c 2 1 (yF c)) 0 ∅ 0 ∗ atPos ER (dC c 2 1 (yj c 1)) 1 ∅ 0 ∗ atPos ER (dC c 2 1 (yj c 2)) 1 ∅ 0 ∗ atPos ER (dC c 2 1 (yj c 3)) 1 ∅ 0))
      ∗ ((atPos ER (dC c 3 0 (yF c)) 0 ∅ 0 ∗ atPos ER (dC c 3 0 (yj c 1)) 1 ∅ 0 ∗ atPos ER (dC c 3 0 (yj c 2)) 1 ∅ 0 ∗ atPos ER (dC c 3 0 (yj c 3)) 1 ∅ 0) ∗ (atPos ER (dC c 3 1 (yF c)) 0 ∅ 0 ∗ atPos ER (dC c 3 1 (yj c 1)) 1 ∅ 0 ∗ atPos ER (dC c 3 1 (yj c 2)) 1 ∅ 0 ∗ atPos ER (dC c 3 1 (yj c 3)) 1 ∅ 0))
      ∗ ((atPos ER (dC c 4 0 (yF c)) 1 ∅ 0 ∗ atPos ER (dC c 4 0 (yj c 1)) 1 ∅ 0 ∗ atPos ER (dC c 4 0 (yj c 2)) 1 ∅ 0 ∗ atPos ER (dC c 4 0 (yj c 3)) 1 ∅ 0) ∗ (atPos ER (dC c 4 1 (yF c)) 1 ∅ 0 ∗ atPos ER (dC c 4 1 (yj c 1)) 1 ∅ 0 ∗ atPos ER (dC c 4 1 (yj c 2)) 1 ∅ 0 ∗ atPos ER (dC c 4 1 (yj c 3)) 1 ∅ 0))
      ∗ ((atPos ER (dC c 5 0 0) 1 ∅ 0 ∗ atPos ER (dC c 5 0 1) 1 ∅ 0 ∗ atPos ER (dC c 5 0 2) 1 ∅ 0 ∗ atPos ER (dC c 5 0 3) 1 ∅ 0) ∗ (atPos ER (dC c 5 1 0) 1 ∅ 0 ∗ atPos ER (dC c 5 1 1) 1 ∅ 0 ∗ atPos ER (dC c 5 1 2) 1 ∅ 0 ∗ atPos ER (dC c 5 1 3) 1 ∅ 0)))
      ⊢ (bigSep Finset.univ fun i : Fin 6 × Fin 2 × Fin 4 => (atPos ER (dC c i.1 i.2.1 i.2.2) (if used c i.1 i.2.2 then 1 else 0) ∅ 0 : sProp 𝕄)) :=
  Entails.of_eq (end_pos_eq c).symm

/-- info: 'Cert.KernelIdeal.Coll.end_pos_eq' depends on axioms: [propext, Classical.choice, Quot.sound] -/
#guard_msgs in #print axioms end_pos_eq

end Cert.KernelIdeal.Coll

end
-- ==== Proof.EpilogueRel.lean ====
/- The end of a device's body once more, from what the body holds as it stands there: its final positions and the slots of
   its scratch buffers as chains, listed array by array and by the coordinate counted from the device's own. -/
import proofs.«901051_g7700000000001052_dist_rsdw_v7x_xyz2x4x4_z_m1024_d1024_f4096_bf16_1_alg».proof.Proof.Epilogue
import proofs.«901051_g7700000000001052_dist_rsdw_v7x_xyz2x4x4_z_m1024_d1024_f4096_bf16_1_alg».proof.Proof.EndPos
import proofs.«901051_g7700000000001052_dist_rsdw_v7x_xyz2x4x4_z_m1024_d1024_f4096_bf16_1_alg».proof.Proof.SlotsRel
import proofs.«901051_g7700000000001052_dist_rsdw_v7x_xyz2x4x4_z_m1024_d1024_f4096_bf16_1_alg».proof.Proof.Rot

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The scratch buffers from the chains of their slots -/

/-- A slot at some contents, spelt out. -/
theorem any_ex {s : Shape} {e : EltTy} (c : Dev nD) (M : Memref sig .tc .vmem s e) (q : PosShare TreeShare) :
    anyPts (F := F) c M q ⊢ iprop(∃ f, slotPts (F := F) c M q f) := by
  unfold anyPts; exact .rfl

/-- A sum block: the remainder and the four read shares, listed from the device's own y coordinate. -/
theorem red_half_rel (c : Dev nD) (h : Fin 2) :
    iprop(anyPts (F := F) c (redSlot h) (Transfers.shareDrop fullShare 4) ∗ anyPts (F := F) c (redSlot h) (qS (yF c)) ∗ anyPts (F := F) c (redSlot h) (qS (yj c 1)) ∗ anyPts (F := F) c (redSlot h) (qS (yj c 2)) ∗ anyPts (F := F) c (redSlot h) (qS (yj c 3)))
      ⊢ iprop(∃ f, slotPts (F := F) c (redSlot h) fullShare f) :=
  (sep_mono_right (Entails.of_eq (bigSep_yrot c (fun j : Fin 4 => anyPts (F := F) c (redSlot h) (qS j))).symm)).trans (red_half (F := F) c h)

/-- One half of the y phase's receive buffer: the device's own slot whole, the three gathered blocks each as the remainder
    beside the share its relay read through. -/
theorem r1_half_rel (c : Dev nD) (h : Fin 2) :
    iprop(anyPts (F := F) c (r1Slot h (yF c)) fullShare ∗ (anyPts (F := F) c (r1Slot h (yj c 1)) (Transfers.shareDrop fullShare 1) ∗ anyPts (F := F) c (r1Slot h (yj c 1)) qR) ∗ (anyPts (F := F) c (r1Slot h (yj c 2)) (Transfers.shareDrop fullShare 1) ∗ anyPts (F := F) c (r1Slot h (yj c 2)) qR) ∗ (anyPts (F := F) c (r1Slot h (yj c 3)) (Transfers.shareDrop fullShare 1) ∗ anyPts (F := F) c (r1Slot h (yj c 3)) qR))
      ⊢ iprop((∃ f, slotPts (F := F) c (r1Slot h (yF c)) fullShare f) ∗ (∃ f, slotPts (F := F) c (r1Slot h (yj c 1)) fullShare f) ∗ (∃ f, slotPts (F := F) c (r1Slot h (yj c 2)) fullShare f) ∗ (∃ f, slotPts (F := F) c (r1Slot h (yj c 3)) fullShare f)) :=
  BIClass.sep_mono (any_ex (F := F) c (r1Slot h (yF c)) fullShare) (BIClass.sep_mono (any_join_tok (F := F) c (r1Slot h (yj c 1)) fullShare 0)
    (BIClass.sep_mono (any_join_tok (F := F) c (r1Slot h (yj c 2)) fullShare 0) (any_join_tok (F := F) c (r1Slot h (yj c 3)) fullShare 0)))

theorem scratch_rel (c : Dev nD) :
    iprop(((anyPts (F := F) c (pbSlot (zF c) 0) fullShare ∗ anyPts (F := F) c (pbSlot (zj c 1) 0) fullShare ∗ anyPts (F := F) c (pbSlot (zj c 2) 0) fullShare ∗ anyPts (F := F) c (pbSlot (zj c 3) 0) fullShare) ∗ (anyPts (F := F) c (pbSlot (zF c) 1) fullShare ∗ anyPts (F := F) c (pbSlot (zj c 1) 1) fullShare ∗ anyPts (F := F) c (pbSlot (zj c 2) 1) fullShare ∗ anyPts (F := F) c (pbSlot (zj c 3) 1) fullShare))
      ∗ ((anyPts (F := F) c (redSlot 0) (Transfers.shareDrop fullShare 4) ∗ anyPts (F := F) c (redSlot 0) (qS (yF c)) ∗ anyPts (F := F) c (redSlot 0) (qS (yj c 1)) ∗ anyPts (F := F) c (redSlot 0) (qS (yj c 2)) ∗ anyPts (F := F) c (redSlot 0) (qS (yj c 3))) ∗ (anyPts (F := F) c (redSlot 1) (Transfers.shareDrop fullShare 4) ∗ anyPts (F := F) c (redSlot 1) (qS (yF c)) ∗ anyPts (F := F) c (redSlot 1) (qS (yj c 1)) ∗ anyPts (F := F) c (redSlot 1) (qS (yj c 2)) ∗ anyPts (F := F) c (redSlot 1) (qS (yj c 3))))
      ∗ ((anyPts (F := F) c (rbSlot 0 (zF c)) fullShare ∗ anyPts (F := F) c (rbSlot 0 (zj c 1)) fullShare ∗ anyPts (F := F) c (rbSlot 0 (zj c 2)) fullShare ∗ anyPts (F := F) c (rbSlot 0 (zj c 3)) fullShare) ∗ (anyPts (F := F) c (rbSlot 1 (zF c)) fullShare ∗ anyPts (F := F) c (rbSlot 1 (zj c 1)) fullShare ∗ anyPts (F := F) c (rbSlot 1 (zj c 2)) fullShare ∗ anyPts (F := F) c (rbSlot 1 (zj c 3)) fullShare))
      ∗ ((anyPts (F := F) c (r1Slot 0 (yF c)) fullShare ∗ (anyPts (F := F) c (r1Slot 0 (yj c 1)) (Transfers.shareDrop fullShare 1) ∗ anyPts (F := F) c (r1Slot 0 (yj c 1)) qR) ∗ (anyPts (F := F) c (r1Slot 0 (yj c 2)) (Transfers.shareDrop fullShare 1) ∗ anyPts (F := F) c (r1Slot 0 (yj c 2)) qR) ∗ (anyPts (F := F) c (r1Slot 0 (yj c 3)) (Transfers.shareDrop fullShare 1) ∗ anyPts (F := F) c (r1Slot 0 (yj c 3)) qR)) ∗ (anyPts (F := F) c (r1Slot 1 (yF c)) fullShare ∗ (anyPts (F := F) c (r1Slot 1 (yj c 1)) (Transfers.shareDrop fullShare 1) ∗ anyPts (F := F) c (r1Slot 1 (yj c 1)) qR) ∗ (anyPts (F := F) c (r1Slot 1 (yj c 2)) (Transfers.shareDrop fullShare 1) ∗ anyPts (F := F) c (r1Slot 1 (yj c 2)) qR) ∗ (anyPts (F := F) c (r1Slot 1 (yj c 3)) (Transfers.shareDrop fullShare 1) ∗ anyPts (F := F) c (r1Slot 1 (yj c 3)) qR)))
      ∗ ((anyPts (F := F) c (r2Slot 0 0) fullShare ∗ anyPts (F := F) c (r2Slot 0 1) fullShare ∗ anyPts (F := F) c (r2Slot 0 2) fullShare ∗ anyPts (F := F) c (r2Slot 0 3) fullShare) ∗ (anyPts (F := F) c (r2Slot 1 0) fullShare ∗ anyPts (F := F) c (r2Slot 1 1) fullShare ∗ anyPts (F := F) c (r2Slot 1 2) fullShare ∗ anyPts (F := F) c (r2Slot 1 3) fullShare)))
      ⊢ scratch (F := F) c := by
  unfold scratch
  exact BIClass.sep_mono (pb_rel_join (F := F) c)
    (BIClass.sep_mono ((BIClass.sep_mono (red_half_rel (F := F) c 0) (red_half_rel (F := F) c 1)).trans (red_two_join (F := F) c))
    (BIClass.sep_mono (rb_rel_join (F := F) c)
    (BIClass.sep_mono ((BIClass.sep_mono (r1_half_rel (F := F) c 0) (r1_half_rel (F := F) c 1)).trans (r1_rel_join (F := F) c))
    (r2_abs_join (F := F) c))))

/-! ## The end -/

theorem epilogue_rel (K : Dev nD × CK → ℕ) (c : Dev nD) :
    iprop(records (F := F) m K
      ∗ (((atPos ER (dC c 0 0 (zF c)) 0 ∅ 0 ∗ atPos ER (dC c 0 0 (zj c 1)) 1 ∅ 0 ∗ atPos ER (dC c 0 0 (zj c 2)) 1 ∅ 0 ∗ atPos ER (dC c 0 0 (zj c 3)) 1 ∅ 0) ∗ (atPos ER (dC c 0 1 (zF c)) 0 ∅ 0 ∗ atPos ER (dC c 0 1 (zj c 1)) 1 ∅ 0 ∗ atPos ER (dC c 0 1 (zj c 2)) 1 ∅ 0 ∗ atPos ER (dC c 0 1 (zj c 3)) 1 ∅ 0))
      ∗ ((atPos ER (dC c 1 0 (zF c)) 0 ∅ 0 ∗ atPos ER (dC c 1 0 (zj c 1)) 1 ∅ 0 ∗ atPos ER (dC c 1 0 (zj c 2)) 1 ∅ 0 ∗ atPos ER (dC c 1 0 (zj c 3)) 1 ∅ 0) ∗ (atPos ER (dC c 1 1 (zF c)) 0 ∅ 0 ∗ atPos ER (dC c 1 1 (zj c 1)) 1 ∅ 0 ∗ atPos ER (dC c 1 1 (zj c 2)) 1 ∅ 0 ∗ atPos ER (dC c 1 1 (zj c 3)) 1 ∅ 0))
      ∗ ((atPos ER (dC c 2 0 (yF c)) 0 ∅ 0 ∗ atPos ER (dC c 2 0 (yj c 1)) 1 ∅ 0 ∗ atPos ER (dC c 2 0 (yj c 2)) 1 ∅ 0 ∗ atPos ER (dC c 2 0 (yj c 3)) 1 ∅ 0) ∗ (atPos ER (dC c 2 1 (yF c)) 0 ∅ 0 ∗ atPos ER (dC c 2 1 (yj c 1)) 1 ∅ 0 ∗ atPos ER (dC c 2 1 (yj c 2)) 1 ∅ 0 ∗ atPos ER (dC c 2 1 (yj c 3)) 1 ∅ 0))
      ∗ ((atPos ER (dC c 3 0 (yF c)) 0 ∅ 0 ∗ atPos ER (dC c 3 0 (yj c 1)) 1 ∅ 0 ∗ atPos ER (dC c 3 0 (yj c 2)) 1 ∅ 0 ∗ atPos ER (dC c 3 0 (yj c 3)) 1 ∅ 0) ∗ (atPos ER (dC c 3 1 (yF c)) 0 ∅ 0 ∗ atPos ER (dC c 3 1 (yj c 1)) 1 ∅ 0 ∗ atPos ER (dC c 3 1 (yj c 2)) 1 ∅ 0 ∗ atPos ER (dC c 3 1 (yj c 3)) 1 ∅ 0))
      ∗ ((atPos ER (dC c 4 0 (yF c)) 1 ∅ 0 ∗ atPos ER (dC c 4 0 (yj c 1)) 1 ∅ 0 ∗ atPos ER (dC c 4 0 (yj c 2)) 1 ∅ 0 ∗ atPos ER (dC c 4 0 (yj c 3)) 1 ∅ 0) ∗ (atPos ER (dC c 4 1 (yF c)) 1 ∅ 0 ∗ atPos ER (dC c 4 1 (yj c 1)) 1 ∅ 0 ∗ atPos ER (dC c 4 1 (yj c 2)) 1 ∅ 0 ∗ atPos ER (dC c 4 1 (yj c 3)) 1 ∅ 0))
      ∗ ((atPos ER (dC c 5 0 0) 1 ∅ 0 ∗ atPos ER (dC c 5 0 1) 1 ∅ 0 ∗ atPos ER (dC c 5 0 2) 1 ∅ 0 ∗ atPos ER (dC c 5 0 3) 1 ∅ 0) ∗ (atPos ER (dC c 5 1 0) 1 ∅ 0 ∗ atPos ER (dC c 5 1 1) 1 ∅ 0 ∗ atPos ER (dC c 5 1 2) 1 ∅ 0 ∗ atPos ER (dC c 5 1 3) 1 ∅ 0)))
      ∗ ((anyPts (F := F) c (pbSlot (zF c) 0) fullShare ∗ anyPts (F := F) c (pbSlot (zj c 1) 0) fullShare ∗ anyPts (F := F) c (pbSlot (zj c 2) 0) fullShare ∗ anyPts (F := F) c (pbSlot (zj c 3) 0) fullShare) ∗ (anyPts (F := F) c (pbSlot (zF c) 1) fullShare ∗ anyPts (F := F) c (pbSlot (zj c 1) 1) fullShare ∗ anyPts (F := F) c (pbSlot (zj c 2) 1) fullShare ∗ anyPts (F := F) c (pbSlot (zj c 3) 1) fullShare))
      ∗ ((anyPts (F := F) c (redSlot 0) (Transfers.shareDrop fullShare 4) ∗ anyPts (F := F) c (redSlot 0) (qS (yF c)) ∗ anyPts (F := F) c (redSlot 0) (qS (yj c 1)) ∗ anyPts (F := F) c (redSlot 0) (qS (yj c 2)) ∗ anyPts (F := F) c (redSlot 0) (qS (yj c 3))) ∗ (anyPts (F := F) c (redSlot 1) (Transfers.shareDrop fullShare 4) ∗ anyPts (F := F) c (redSlot 1) (qS (yF c)) ∗ anyPts (F := F) c (redSlot 1) (qS (yj c 1)) ∗ anyPts (F := F) c (redSlot 1) (qS (yj c 2)) ∗ anyPts (F := F) c (redSlot 1) (qS (yj c 3))))
      ∗ ((anyPts (F := F) c (rbSlot 0 (zF c)) fullShare ∗ anyPts (F := F) c (rbSlot 0 (zj c 1)) fullShare ∗ anyPts (F := F) c (rbSlot 0 (zj c 2)) fullShare ∗ anyPts (F := F) c (rbSlot 0 (zj c 3)) fullShare) ∗ (anyPts (F := F) c (rbSlot 1 (zF c)) fullShare ∗ anyPts (F := F) c (rbSlot 1 (zj c 1)) fullShare ∗ anyPts (F := F) c (rbSlot 1 (zj c 2)) fullShare ∗ anyPts (F := F) c (rbSlot 1 (zj c 3)) fullShare))
      ∗ ((anyPts (F := F) c (r1Slot 0 (yF c)) fullShare ∗ (anyPts (F := F) c (r1Slot 0 (yj c 1)) (Transfers.shareDrop fullShare 1) ∗ anyPts (F := F) c (r1Slot 0 (yj c 1)) qR) ∗ (anyPts (F := F) c (r1Slot 0 (yj c 2)) (Transfers.shareDrop fullShare 1) ∗ anyPts (F := F) c (r1Slot 0 (yj c 2)) qR) ∗ (anyPts (F := F) c (r1Slot 0 (yj c 3)) (Transfers.shareDrop fullShare 1) ∗ anyPts (F := F) c (r1Slot 0 (yj c 3)) qR)) ∗ (anyPts (F := F) c (r1Slot 1 (yF c)) fullShare ∗ (anyPts (F := F) c (r1Slot 1 (yj c 1)) (Transfers.shareDrop fullShare 1) ∗ anyPts (F := F) c (r1Slot 1 (yj c 1)) qR) ∗ (anyPts (F := F) c (r1Slot 1 (yj c 2)) (Transfers.shareDrop fullShare 1) ∗ anyPts (F := F) c (r1Slot 1 (yj c 2)) qR) ∗ (anyPts (F := F) c (r1Slot 1 (yj c 3)) (Transfers.shareDrop fullShare 1) ∗ anyPts (F := F) c (r1Slot 1 (yj c 3)) qR)))
      ∗ ((anyPts (F := F) c (r2Slot 0 0) fullShare ∗ anyPts (F := F) c (r2Slot 0 1) fullShare ∗ anyPts (F := F) c (r2Slot 0 2) fullShare ∗ anyPts (F := F) c (r2Slot 0 3) fullShare) ∗ (anyPts (F := F) c (r2Slot 1 0) fullShare ∗ anyPts (F := F) c (r2Slot 1 1) fullShare ∗ anyPts (F := F) c (r2Slot 1 2) fullShare ∗ anyPts (F := F) c (r2Slot 1 3) fullShare)))
      ⊢ |={Set.univ}=> Φ₁ (F := F) c := by
  unfold Φ₁
  iintro ⟨Hrec, Hpos, Hpb, Hred, Hrb, Hr1, Hr2⟩
  ihave Hat := (end_pos (F := F) c) $$ Hpos
  imod (cells_close (F := F) m K c) $$ [Hrec Hat] with Hsem
  · isplitl [Hrec] <;> iassumption
  imodintro
  isplitl [Hpb Hred Hrb Hr1 Hr2]
  · iapply (scratch_rel (F := F) c)
    isplitl [Hpb]; · iexact Hpb
    isplitl [Hred]; · iexact Hred
    isplitl [Hrb]; · iexact Hrb
    isplitl [Hr1] <;> iassumption
  · iexact Hsem

/-- info: 'Cert.KernelIdeal.Coll.epilogue_rel' depends on axioms: [propext, Classical.choice, Quot.sound] -/
#guard_msgs in #print axioms epilogue_rel

end Cert.KernelIdeal.Coll

end
-- ==== Proof.Wire2.lean ====
/- The partial-product buffer and the result held as a list of stores over some earlier contents: after the two
   stores of 1024 rows, each 256 × 256 block of the partial products reads its rows of its half's payload; after stores
   that lay each of the sixteen pieces of the device's result on its rectangle, in any order and however the rectangles'
   offsets are spelt, the buffer holds the device's result. -/
import proofs.«901051_g7700000000001052_dist_rsdw_v7x_xyz2x4x4_z_m1024_d1024_f4096_bf16_1_alg».proof.Proof.Wire
import Idealize.ShloMosaic.Lib.Writes

noncomputable section

namespace Cert.KernelIdeal.Coll

open Cert.KernelIdeal Cert.KernelIdeal.Gen Cert.KernelIdeal.Mesh

open Idealize.ShloMosaic
open Idealize.ShloMosaic.TcCoe
open Idealize.ShloMosaic.ValueIdx
open Wire

variable {F : FTy → Type} [FloatOps F]

/-! ## The partial products after their two stores (the later store first in the list) -/

theorem pb_writes (f0 : (cc0_scratch0 : Ref sig .tc).ty.Contents (Elt F)) (w0 w1 : Vec F S1024x256 .bf16) (j : Fin 4) :
    (pbSlot j 0).view.read (Elt F)
        ((pbM : Memref sig .tc .vmem S1024x512 .bf16).view.writes (Elt F) f0 [⟨Wire.pbH1, w1⟩, ⟨Wire.pbH0, w0⟩]) = Wire.rows4 w0 j
    ∧ (pbSlot j 1).view.read (Elt F)
        ((pbM : Memref sig .tc .vmem S1024x512 .bf16).view.writes (Elt F) f0 [⟨Wire.pbH1, w1⟩, ⟨Wire.pbH0, w0⟩]) = Wire.rows4 w1 j :=
  Wire.pb_after' f0 w0 w1 j

/-- With the device's partial products as the payloads, every block holds its value. -/
theorem pb_writes_val (m : (ℓ : Loc nD τ sig) → Buf (Elt F) ℓ) (c : Dev nD) (f0 : (cc0_scratch0 : Ref sig .tc).ty.Contents (Elt F))
    (j : Fin 4) (h : Fin 2) :
    (pbSlot j h).view.read (Elt F)
        ((pbM : Memref sig .tc .vmem S1024x512 .bf16).view.writes (Elt F) f0 [⟨Wire.pbH1, pbFull m c 1⟩, ⟨Wire.pbH0, pbFull m c 0⟩])
      = pbVal m c j h :=
  pb_after m c f0 j h

/-! ## A load of a whole argument block -/

theorem Wire.vec00 : (![0, 0] : Fin 2 → ℕ) = fun _ => 0 := by
  funext a
  match a with
  | ⟨0, _⟩ => rfl
  | ⟨1, _⟩ => rfl

theorem x_readAt (f : (cc0_stg0_0 : Ref sig .tc).ty.Contents (Elt F)) :
    (xM : Memref sig .tc .vmem S1024x1024 .f32).view.readAt (Elt F)
        (Rect.unit (s := S1024x1024) ![0, 0] S1024x1024.size inb_S1024x1024_S1024x1024_0_0).toLoadRect f = f :=
  Memref.readAt_unit_zero (Elt F) (cc0_stg0_0 : Ref sig .tc) (off := ![0, 0]) Wire.vec00 inb_S1024x1024_S1024x1024_0_0 f

/-! ## The result after its sixteen stores -/

variable (m : (ℓ : Loc nD τ sig) → Buf (Elt F) ℓ)

/-- A store at offsets equal to piece (q, h)'s, of that piece's value: its payload is the device's result on its
    rectangle, and its rectangle has piece (q, h)'s elements. -/
theorem out_piece_ok (c : Dev nD) (q : Fin 8) (h : Fin 2) {off : Fin 2 → ℕ} {n : ℕ} (hoff : off = ![0, n])
    (hn : n = 512 * q.val + 256 * h.val) (inb : ∀ a, off a + S256x256.size a ≤ S256x4096.size a)
    (w : Vec F S256x256 .f32) (hw : w = outPiece m c q h) :
    (∀ x : S256x256.Idx, w x = outAt m c ((Rect.unit (s := S256x4096) off S256x256.size inb).emb x))
      ∧ (Rect.unit (s := S256x4096) off S256x256.size inb).set = (oR q h).set := by
  subst hn; subst hoff; subst hw
  exact ⟨fun x => (outAt_piece m c q h x).symm, rfl⟩

/-- The eight column blocks of a device's result: its own, those of the three devices further along y, and those of the
    four devices on the other side of x. -/
theorem q_cases : ∀ (c : Dev nD) (q : Fin 8),
    q = qOwn c ∨ q = qY c 1 ∨ q = qY c 2 ∨ q = qY c 3 ∨ q = qX c 0 ∨ q = qX c 1 ∨ q = qX c 2 ∨ q = qX c 3 := by
  decide

/-- Stores whose payloads are the device's result on their rectangles, and among whose rectangles each of the sixteen
    pieces' occurs, leave the device's result, whatever the buffer held and in whatever order they were made. -/
theorem out_writes (c : Dev nD) (g : (cc0_stg2_0 : Ref sig .tc).ty.Contents (Elt F))
    (L : List (View.Piece (Elt F) S256x4096 .f32))
    (hL : ∀ p ∈ L, ∀ x : p.1.shape.Idx, p.2 x = outAt m c (p.1.emb x))
    (hcov : ∀ (q : Fin 8) (h : Fin 2), ∃ p ∈ L, p.1.set = (oR q h).set) :
    (oM : Memref sig .tc .vmem S256x4096 .f32).view.writes (Elt F) g L = outAt m c := by
  funext y
  have hy : y ∈ (Finset.univ : Finset (Fin 8 × Fin 2)).biUnion (fun qh => (oR qh.1 qh.2).set) := by
    rw [out_cover]; exact Finset.mem_univ y
  obtain ⟨qh, -, hyq⟩ := Finset.mem_biUnion.mp hy
  obtain ⟨p, hp, hset⟩ := hcov qh.1 qh.2
  exact View.read_writes_apply_of_pieces (oM : Memref sig .tc .vmem S256x4096 .f32).view g (outAt m c) L hL y
    ⟨p, hp, hset ▸ hyq⟩

/-- In particular the sixteen pieces themselves, listed in any order. -/
theorem out_writes_pairs (c : Dev nD) (g : (cc0_stg2_0 : Ref sig .tc).ty.Contents (Elt F)) (P : List (Fin 8 × Fin 2))
    (hP : ∀ qh : Fin 8 × Fin 2, qh ∈ P) :
    (oM : Memref sig .tc .vmem S256x4096 .f32).view.writes (Elt F) g
        (P.map fun qh => (⟨oR qh.1 qh.2, outPiece m c qh.1 qh.2⟩ : View.Piece (Elt F) S256x4096 .f32)) = outAt m c :=
  out_writes m c g _
    (fun p hp => by
      obtain ⟨qh, -, rfl⟩ := List.mem_map.mp hp
      exact fun x => (outAt_piece m c qh.1 qh.2 x).symm)
    (fun q h => ⟨_, List.mem_map.mpr ⟨(q, h), hP (q, h), rfl⟩, rfl⟩)

/-- info: 'Cert.KernelIdeal.Coll.out_writes' depends on axioms: [propext, Classical.choice, Quot.sound] -/
#guard_msgs in #print axioms out_writes

/-- info: 'Cert.KernelIdeal.Coll.pb_writes' depends on axioms: [propext, Classical.choice, Quot.sound] -/
#guard_msgs in #print axioms pb_writes

end Cert.KernelIdeal.Coll

end
-- ==== Proof.ValA.lean ====
/- The contents a device's body leaves in its partial-product buffer and in its result, as values: the two stores of
   the products of its block of x with the two halves of its columns of dy leave every block of the partial products at
   its value; the sixteen stores of the result — its own two sums, the six blocks gathered along y and the eight
   exchanged along x, each widened — leave the device's result. -/
import proofs.«901051_g7700000000001052_dist_rsdw_v7x_xyz2x4x4_z_m1024_d1024_f4096_bf16_1_alg».proof.Proof.Wire2
import proofs.«901051_g7700000000001052_dist_rsdw_v7x_xyz2x4x4_z_m1024_d1024_f4096_bf16_1_alg».proof.Proof.Incl

noncomputable section

namespace Cert.KernelIdeal.Coll

open Cert.KernelIdeal Cert.KernelIdeal.Gen Cert.KernelIdeal.Mesh

open Idealize.ShloMosaic
open Idealize.ShloMosaic.TcCoe
open Idealize.ShloMosaic.ValueIdx
open Wire

variable {F : FTy → Type} [FloatOps F]

variable (m : (ℓ : Loc nD τ sig) → Buf (Elt F) ℓ)

/-! ## The partial products -/

theorem Wire.pb_fact' (c : Dev nD) (f0 : (cc0_scratch0 : Ref sig .tc).ty.Contents (Elt F)) (j : Fin 4) (h : Fin 2)
    (X : Vec F S1024x1024 .f32) (hX : X = xV m c) :
    (pbSlot j h).view.read (Elt F) ((Memref.whole cc0_scratch0).view.writes (Elt F) f0
      (⟨Rect.unit (s := S1024x512) ![0, 256] S1024x256.size inb_S1024x512_S1024x256_0_256, k0_pay3 (k0_pay1 X) (yHalf1 m c)⟩ ::
        [⟨Rect.unit (s := S1024x512) ![0, 0] S1024x256.size inb_S1024x512_S1024x256_0_0, k0_pay2 X (yHalf0 m c)⟩]))
      = pbVal m c j h := by
  subst hX
  exact pb_writes_val m c f0 j h

/-- After the two stores of the products of the loaded block of x with the two loaded halves of dy's columns, block
    (j, h) of the partial products holds its value. -/
theorem pb_fact (c : Dev nD) (f0 : (cc0_scratch0 : Ref sig .tc).ty.Contents (Elt F)) (j : Fin 4) (h : Fin 2) :
    (pbSlot j h).view.read (Elt F) ((Memref.whole cc0_scratch0).view.writes (Elt F) f0
      (⟨Rect.unit (s := S1024x512) ![0, 256] S1024x256.size inb_S1024x512_S1024x256_0_256,
          k0_pay3 (k0_pay1 ((xM : Memref sig .tc .vmem S1024x1024 .f32).view.readAt (Elt F) (Rect.unit (s := S1024x1024) ![0, 0] S1024x1024.size inb_S1024x1024_S1024x1024_0_0).toLoadRect (xV m c))) (yHalf1 m c)⟩ ::
        [⟨Rect.unit (s := S1024x512) ![0, 0] S1024x256.size inb_S1024x512_S1024x256_0_0,
          k0_pay2 ((xM : Memref sig .tc .vmem S1024x1024 .f32).view.readAt (Elt F) (Rect.unit (s := S1024x1024) ![0, 0] S1024x1024.size inb_S1024x1024_S1024x1024_0_0).toLoadRect (xV m c)) (yHalf0 m c)⟩]))
      = pbVal m c j h :=
  Wire.pb_fact' m c f0 j h _ (x_readAt (xV m c))

/-! ## The pieces of the result, by whose sum they are -/

theorem Wire.outPiece_own (c : Dev nD) (h : Fin 2) : outPiece m c (qOwn c) h = accVal m c h := by
  unfold outPiece
  exact if_pos rfl

theorem Wire.outPiece_Y (c : Dev nD) (d : ℕ) (hd : d % 4 ≠ 0) (h : Fin 2) :
    outPiece m c (qY c d) h = widen (red2 m (atY c (yj c d)) h) := by
  have hx := xc_lt c
  have hy := yc_lt c
  have e : (qY c d).val = 4 * xc c + (yc c + d) % 4 := rfl
  have h1 : ¬ ((qY c d).val = 4 * xc c + yc c) := by rw [e]; omega
  have h2 : (qY c d).val / 4 = xc c := by rw [e]; omega
  unfold outPiece
  rw [if_neg h1, if_pos h2]
  exact congrArg (fun j => widen (red2 m (atY c j) h)) (Fin.ext (by show (qY c d).val % 4 = (yc c + d) % 4; rw [e]; omega))

theorem Wire.outPiece_X (c : Dev nD) (ys : Fin 4) (h : Fin 2) :
    outPiece m c (qX c ys) h = widen (red2 m (atXY c ys) h) := by
  have hx := xc_lt c
  have hy := yc_lt c
  have hys := ys.isLt
  have e : (qX c ys).val = 4 * (1 - xc c) + ys.val := rfl
  have h1 : ¬ ((qX c ys).val = 4 * xc c + yc c) := by rw [e]; omega
  have h2 : ¬ ((qX c ys).val / 4 = xc c) := by rw [e]; omega
  unfold outPiece
  rw [if_neg h1, if_neg h2]
  exact congrArg (fun j => widen (red2 m (atXY c j) h)) (Fin.ext (by show (qX c ys).val % 4 = ys.val; rw [e]; omega))

/-! ## Lists of stores, one store at a time -/

theorem Wire.good_nil (c : Dev nD) :
    ∀ p ∈ ([] : List (View.Piece (Elt F) S256x4096 .f32)), ∀ x : p.1.shape.Idx, p.2 x = outAt m c (p.1.emb x) :=
  fun p hp => absurd hp List.not_mem_nil

theorem Wire.good_cons (c : Dev nD) {off : Fin 2 → ℕ} {inb : ∀ a, off a + S256x256.size a ≤ S256x4096.size a} {q : Fin 8}
    {h : Fin 2} (hR : Rect.unit (s := S256x4096) off S256x256.size inb = oR q h) {w : Vec F S256x256 .f32}
    (hw : w = outPiece m c q h) {L : List (View.Piece (Elt F) S256x4096 .f32)}
    (hL : ∀ p ∈ L, ∀ x : p.1.shape.Idx, p.2 x = outAt m c (p.1.emb x)) :
    ∀ p ∈ ((⟨Rect.unit (s := S256x4096) off S256x256.size inb, w⟩ : View.Piece (Elt F) S256x4096 .f32) :: L),
      ∀ x : p.1.shape.Idx, p.2 x = outAt m c (p.1.emb x) := by
  intro p hp
  rcases List.mem_cons.mp hp with rfl | hp
  · have hoff : off = ![0, 512 * q.val + 256 * h.val] := congrArg (fun r : Rect S256x4096 => r.off) hR
    exact (out_piece_ok m c q h hoff rfl inb w hw).1
  · exact hL p hp

theorem Wire.cov_here {off : Fin 2 → ℕ} {inb : ∀ a, off a + S256x256.size a ≤ S256x4096.size a} {q : Fin 8} {h : Fin 2}
    (hR : Rect.unit (s := S256x4096) off S256x256.size inb = oR q h) {w : Vec F S256x256 .f32}
    {L : List (View.Piece (Elt F) S256x4096 .f32)} :
    ∃ p ∈ ((⟨Rect.unit (s := S256x4096) off S256x256.size inb, w⟩ : View.Piece (Elt F) S256x4096 .f32) :: L),
      p.1.set = (oR q h).set :=
  ⟨_, List.mem_cons_self, congrArg (fun r : Rect S256x4096 => r.set) hR⟩

theorem Wire.cov_there {p₀ : View.Piece (Elt F) S256x4096 .f32} {L : List (View.Piece (Elt F) S256x4096 .f32)} {q : Fin 8}
    {h : Fin 2} (hc : ∃ p ∈ L, p.1.set = (oR q h).set) : ∃ p ∈ p₀ :: L, p.1.set = (oR q h).set :=
  let ⟨p, hp, hs⟩ := hc
  ⟨p, List.mem_cons_of_mem _ hp, hs⟩

/-! ## The result -/

/-- After the sixteen stores of the result, the last one first — the eight blocks received across x (half 1, then half
    0 further down), the six gathered along y, and the device's own two sums — the buffer holds the device's result. -/
theorem out_fact (c : Dev nD) (g : (cc0_stg2_0 : Ref sig .tc).ty.Contents (Elt F)) (a0 a1 : FVec F S256x256 .f32)
    (ha0 : a0 = accVal m c 0) (ha1 : a1 = accVal m c 1) (u : Fin 2 → Fin 3 → Vec F S1x1x256x256 .bf16)
    (hu : ∀ h d, u h d = up4 (red2 m (atY c (yj c (d.val + 1))) h)) (t : Fin 2 → Fin 4 → Vec F S1x1x256x256 .bf16)
    (ht : ∀ h ys, t h ys = up4 (red2 m (atXY c ys) h)) :
    (Memref.whole cc0_stg2_0).view.writes (Elt F) g [
        ⟨Rect.unit (s := S256x4096) (k0_off20 c 3#32 256#32) S256x256.size (k0_off20_inb c 3 1), k0_pay27 (t 1 3)⟩,
        ⟨Rect.unit (s := S256x4096) (k0_off20 c 2#32 256#32) S256x256.size (k0_off20_inb c 2 1), k0_pay26 (t 1 2)⟩,
        ⟨Rect.unit (s := S256x4096) (k0_off20 c 1#32 256#32) S256x256.size (k0_off20_inb c 1 1), k0_pay25 (t 1 1)⟩,
        ⟨Rect.unit (s := S256x4096) (k0_off20 c 0#32 256#32) S256x256.size (k0_off20_inb c 0 1), k0_pay24 (t 1 0)⟩,
        ⟨Rect.unit (s := S256x4096) (k0_off15 c 3#32 256#32) S256x256.size (k0_off15_inb c 2 1), k0_pay23 (u 1 2)⟩,
        ⟨Rect.unit (s := S256x4096) (k0_off15 c 2#32 256#32) S256x256.size (k0_off15_inb c 1 1), k0_pay22 (u 1 1)⟩,
        ⟨Rect.unit (s := S256x4096) (k0_off15 c 1#32 256#32) S256x256.size (k0_off15_inb c 0 1), k0_pay21 (u 1 0)⟩,
        ⟨Rect.unit (s := S256x4096) (k0_off20 c 3#32 0#32) S256x256.size (k0_off20_inb c 3 0), k0_pay20 (t 0 3)⟩,
        ⟨Rect.unit (s := S256x4096) (k0_off20 c 2#32 0#32) S256x256.size (k0_off20_inb c 2 0), k0_pay19 (t 0 2)⟩,
        ⟨Rect.unit (s := S256x4096) (k0_off20 c 1#32 0#32) S256x256.size (k0_off20_inb c 1 0), k0_pay18 (t 0 1)⟩,
        ⟨Rect.unit (s := S256x4096) (k0_off20 c 0#32 0#32) S256x256.size (k0_off20_inb c 0 0), k0_pay17 (t 0 0)⟩,
        ⟨Rect.unit (s := S256x4096) (k0_off14 c 256#32) S256x256.size (k0_off14_inb c 1), a1⟩,
        ⟨Rect.unit (s := S256x4096) (k0_off15 c 3#32 0#32) S256x256.size (k0_off15_inb c 2 0), k0_pay11 (u 0 2)⟩,
        ⟨Rect.unit (s := S256x4096) (k0_off15 c 2#32 0#32) S256x256.size (k0_off15_inb c 1 0), k0_pay10 (u 0 1)⟩,
        ⟨Rect.unit (s := S256x4096) (k0_off15 c 1#32 0#32) S256x256.size (k0_off15_inb c 0 0), k0_pay9 (u 0 0)⟩,
        ⟨Rect.unit (s := S256x4096) (k0_off14 c 0#32) S256x256.size (k0_off14_inb c 0), a0⟩]
      = outAt m c := by
  have hA0 : a0 = outPiece m c (qOwn c) 0 := ha0.trans (Wire.outPiece_own m c 0).symm
  have hA1 : a1 = outPiece m c (qOwn c) 1 := ha1.trans (Wire.outPiece_own m c 1).symm
  have wX : ∀ (h : Fin 2) (ys : Fin 4), k0_pay9 (t h ys) = outPiece m c (qX c ys) h := fun h ys => by
    rw [ht h ys, Wire.outPiece_X]; rfl
  have wY : ∀ (h : Fin 2) (d : Fin 3), k0_pay9 (u h d) = outPiece m c (qY c (d.val + 1)) h := fun h d => by
    rw [hu h d, Wire.outPiece_Y m c (d.val + 1) (by have := d.isLt; omega)]; rfl
  refine out_writes m c g _ ?_ ?_
  · exact Wire.good_cons m c (rect_off20_3_256 c) (wX 1 3) <|
      Wire.good_cons m c (rect_off20_2_256 c) (wX 1 2) <|
      Wire.good_cons m c (rect_off20_1_256 c) (wX 1 1) <|
      Wire.good_cons m c (rect_off20_0_256 c) (wX 1 0) <|
      Wire.good_cons m c (rect_off15_3_256 c) (wY 1 2) <|
      Wire.good_cons m c (rect_off15_2_256 c) (wY 1 1) <|
      Wire.good_cons m c (rect_off15_1_256 c) (wY 1 0) <|
      Wire.good_cons m c (rect_off20_3_0 c) (wX 0 3) <|
      Wire.good_cons m c (rect_off20_2_0 c) (wX 0 2) <|
      Wire.good_cons m c (rect_off20_1_0 c) (wX 0 1) <|
      Wire.good_cons m c (rect_off20_0_0 c) (wX 0 0) <|
      Wire.good_cons m c (rect_off14_256 c) (hA1) <|
      Wire.good_cons m c (rect_off15_3_0 c) (wY 0 2) <|
      Wire.good_cons m c (rect_off15_2_0 c) (wY 0 1) <|
      Wire.good_cons m c (rect_off15_1_0 c) (wY 0 0) <|
      Wire.good_cons m c (rect_off14_0 c) (hA0) <|
      Wire.good_nil m c
  · intro q h
    rcases q_cases c q with rfl | rfl | rfl | rfl | rfl | rfl | rfl | rfl
    · match h with
      | ⟨0, _⟩ => exact Wire.cov_there (Wire.cov_there (Wire.cov_there (Wire.cov_there (Wire.cov_there (Wire.cov_there (Wire.cov_there (Wire.cov_there (Wire.cov_there (Wire.cov_there (Wire.cov_there (Wire.cov_there (Wire.cov_there (Wire.cov_there (Wire.cov_there (Wire.cov_here (rect_off14_0 c))))))))))))))))
      | ⟨1, _⟩ => exact Wire.cov_there (Wire.cov_there (Wire.cov_there (Wire.cov_there (Wire.cov_there (Wire.cov_there (Wire.cov_there (Wire.cov_there (Wire.cov_there (Wire.cov_there (Wire.cov_there (Wire.cov_here (rect_off14_256 c))))))))))))
    · match h with
      | ⟨0, _⟩ => exact Wire.cov_there (Wire.cov_there (Wire.cov_there (Wire.cov_there (Wire.cov_there (Wire.cov_there (Wire.cov_there (Wire.cov_there (Wire.cov_there (Wire.cov_there (Wire.cov_there (Wire.cov_there (Wire.cov_there (Wire.cov_there (Wire.cov_here (rect_off15_1_0 c)))))))))))))))
      | ⟨1, _⟩ => exact Wire.cov_there (Wire.cov_there (Wire.cov_there (Wire.cov_there (Wire.cov_there (Wire.cov_there (Wire.cov_here (rect_off15_1_256 c)))))))
    · match h with
      | ⟨0, _⟩ => exact Wire.cov_there (Wire.cov_there (Wire.cov_there (Wire.cov_there (Wire.cov_there (Wire.cov_there (Wire.cov_there (Wire.cov_there (Wire.cov_there (Wire.cov_there (Wire.cov_there (Wire.cov_there (Wire.cov_there (Wire.cov_here (rect_off15_2_0 c))))))))))))))
      | ⟨1, _⟩ => exact Wire.cov_there (Wire.cov_there (Wire.cov_there (Wire.cov_there (Wire.cov_there (Wire.cov_here (rect_off15_2_256 c))))))
    · match h with
      | ⟨0, _⟩ => exact Wire.cov_there (Wire.cov_there (Wire.cov_there (Wire.cov_there (Wire.cov_there (Wire.cov_there (Wire.cov_there (Wire.cov_there (Wire.cov_there (Wire.cov_there (Wire.cov_there (Wire.cov_there (Wire.cov_here (rect_off15_3_0 c)))))))))))))
      | ⟨1, _⟩ => exact Wire.cov_there (Wire.cov_there (Wire.cov_there (Wire.cov_there (Wire.cov_here (rect_off15_3_256 c)))))
    · match h with
      | ⟨0, _⟩ => exact Wire.cov_there (Wire.cov_there (Wire.cov_there (Wire.cov_there (Wire.cov_there (Wire.cov_there (Wire.cov_there (Wire.cov_there (Wire.cov_there (Wire.cov_there (Wire.cov_here (rect_off20_0_0 c)))))))))))
      | ⟨1, _⟩ => exact Wire.cov_there (Wire.cov_there (Wire.cov_there (Wire.cov_here (rect_off20_0_256 c))))
    · match h with
      | ⟨0, _⟩ => exact Wire.cov_there (Wire.cov_there (Wire.cov_there (Wire.cov_there (Wire.cov_there (Wire.cov_there (Wire.cov_there (Wire.cov_there (Wire.cov_there (Wire.cov_here (rect_off20_1_0 c))))))))))
      | ⟨1, _⟩ => exact Wire.cov_there (Wire.cov_there (Wire.cov_here (rect_off20_1_256 c)))
    · match h with
      | ⟨0, _⟩ => exact Wire.cov_there (Wire.cov_there (Wire.cov_there (Wire.cov_there (Wire.cov_there (Wire.cov_there (Wire.cov_there (Wire.cov_there (Wire.cov_here (rect_off20_2_0 c)))))))))
      | ⟨1, _⟩ => exact Wire.cov_there (Wire.cov_here (rect_off20_2_256 c))
    · match h with
      | ⟨0, _⟩ => exact Wire.cov_there (Wire.cov_there (Wire.cov_there (Wire.cov_there (Wire.cov_there (Wire.cov_there (Wire.cov_there (Wire.cov_here (rect_off20_3_0 c))))))))
      | ⟨1, _⟩ => exact Wire.cov_here (rect_off20_3_256 c)

/-- info: 'Cert.KernelIdeal.Coll.out_fact' depends on axioms: [propext, Classical.choice, Quot.sound] -/
#guard_msgs in #print axioms out_fact

/-- info: 'Cert.KernelIdeal.Coll.pb_fact' depends on axioms: [propext, Classical.choice, Quot.sound] -/
#guard_msgs in #print axioms pb_fact

end Cert.KernelIdeal.Coll

end
-- ==== Proof.ValB.lean ====
/- What a device's sum over the z axis is, read off what its loads return: its own block of the partial products and the
   three blocks received along z, summed in the kernel's order, are the device's z-sum — as thirty-two-bit floats for its own
   piece of the result, and, stored as sixteen-bit floats and read back through the sum's slot, the block it sends on. -/
import proofs.«901051_g7700000000001052_dist_rsdw_v7x_xyz2x4x4_z_m1024_d1024_f4096_bf16_1_alg».proof.Proof.Wire2
import proofs.«901051_g7700000000001052_dist_rsdw_v7x_xyz2x4x4_z_m1024_d1024_f4096_bf16_1_alg».proof.Proof.BodyAux
import proofs.«901051_g7700000000001052_dist_rsdw_v7x_xyz2x4x4_z_m1024_d1024_f4096_bf16_1_alg».proof.Proof.Incl

noncomputable section

namespace Cert.KernelIdeal.Coll

open Cert.KernelIdeal Cert.KernelIdeal.Gen Cert.KernelIdeal.Mesh

open Idealize.ShloMosaic
open Idealize.ShloMosaic.TcCoe
open Idealize.ShloMosaic.ValueIdx
open Wire

variable {F : FTy → Type} [FloatOps F]

variable (m : (ℓ : Loc nD τ sig) → Buf (Elt F) ℓ)

/-! ## The loads -/

/-- A load of the device's own block of the partial products, half `h`, at offsets that are that block's. -/
theorem pb_load_own (c : Dev nD) (F0 : (cc0_scratch0 : Ref sig .tc).ty.Contents (Elt F))
    (hpb : ∀ j h, (pbSlot j h).view.read (Elt F) F0 = pbVal m c j h) (h : Fin 2) (off : Fin 2 → ℕ)
    (p : ∀ a, off a + S256x256.size a ≤ S1024x512.size a) (hoff : off = ![256 * (zF c).val, 256 * h.val]) :
    (pbM : Memref sig .tc .vmem S1024x512 .bf16).view.readAt (Elt F) (Rect.unit (s := S1024x512) off S256x256.size p).toLoadRect F0 = pbVal m c (zF c) h := by
  subst hoff
  exact (pb_readAt (F := F) (zF c) h F0).trans (hpb _ _)

/-- A load of a slot of the z phase's receive buffer that holds the block it was sent. -/
theorem rb_load (c : Dev nD) (h : Fin 2) (j : Fin 4) (off : Fin 4 → ℕ)
    (p : ∀ a, off a + S1x1x256x256.size a ≤ S2x4x256x256.size a) (hoff : off = ![h.val, j.val, 0, 0])
    (fb : (cc0_scratch2 : Ref sig .tc).ty.Contents (Elt F)) (hfb : (rbSlot h j).view.read (Elt F) fb = rbVal m c h j) :
    (rbM : Memref sig .tc .vmem S2x4x256x256 .bf16).view.readAt (Elt F) (Rect.unit (s := S2x4x256x256) off S1x1x256x256.size p).toLoadRect fb = up4 (rbVal m c h j) := by
  subst hoff
  exact (rb_readAt (F := F) h j fb).trans (congrArg up4 hfb)

/-! ## The sums -/

theorem acc0_fact (c : Dev nD) (F0 : (cc0_scratch0 : Ref sig .tc).ty.Contents (Elt F))
    (hpb : ∀ j h, (pbSlot j h).view.read (Elt F) F0 = pbVal m c j h)
    (fb1 : Buf (Elt F) ((rbSlot 0 (zj c 1)).view.loc (c : Thread nD τ))) (fb2 : Buf (Elt F) ((rbSlot 0 (zj c 2)).view.loc (c : Thread nD τ))) (fb3 : Buf (Elt F) ((rbSlot 0 (zj c 3)).view.loc (c : Thread nD τ)))
    (h1 : (rbSlot 0 (zj c 1)).view.read (Elt F) fb1 = rbVal m c 0 (zj c 1)) (h2 : (rbSlot 0 (zj c 2)).view.read (Elt F) fb2 = rbVal m c 0 (zj c 2)) (h3 : (rbSlot 0 (zj c 3)).view.read (Elt F) fb3 = rbVal m c 0 (zj c 3)) :
    (k0_pay7 (k0_pay6 (k0_pay5 (k0_pay4 ((pbM : Memref sig .tc .vmem S1024x512 .bf16).view.readAt (Elt F) (Rect.unit (s := S1024x512) (k0_off10 c) S256x256.size (k0_off10_inb c)).toLoadRect F0)) ((rbM : Memref sig .tc .vmem S2x4x256x256 .bf16).view.readAt (Elt F) (Rect.unit (s := S2x4x256x256) (k0_off13 c 1#32 1#32) S1x1x256x256.size (k0_off13_inb c 0 0)).toLoadRect fb1)) ((rbM : Memref sig .tc .vmem S2x4x256x256 .bf16).view.readAt (Elt F) (Rect.unit (s := S2x4x256x256) (k0_off13 c 1#32 2#32) S1x1x256x256.size (k0_off13_inb c 0 1)).toLoadRect fb2)) ((rbM : Memref sig .tc .vmem S2x4x256x256 .bf16).view.readAt (Elt F) (Rect.unit (s := S2x4x256x256) (k0_off13 c 1#32 3#32) S1x1x256x256.size (k0_off13_inb c 0 2)).toLoadRect fb3)) = accVal m c 0 := by
  rw [pb_load_own m c F0 hpb 0 (k0_off10 c) (k0_off10_inb c) ((Mesh.off10 c).trans rfl),
    rb_load m c 0 (zj c 1) (k0_off13 c 1#32 1#32) (k0_off13_inb c 0 0) ((Mesh.off13_1_1 c).trans rfl) fb1 h1,
    rb_load m c 0 (zj c 2) (k0_off13 c 1#32 2#32) (k0_off13_inb c 0 1) ((Mesh.off13_1_2 c).trans rfl) fb2 h2,
    rb_load m c 0 (zj c 3) (k0_off13 c 1#32 3#32) (k0_off13_inb c 0 2) ((Mesh.off13_1_3 c).trans rfl) fb3 h3] <;> rfl

theorem red0_payload (c : Dev nD) (F0 : (cc0_scratch0 : Ref sig .tc).ty.Contents (Elt F))
    (hpb : ∀ j h, (pbSlot j h).view.read (Elt F) F0 = pbVal m c j h)
    (fb1 : Buf (Elt F) ((rbSlot 0 (zj c 1)).view.loc (c : Thread nD τ))) (fb2 : Buf (Elt F) ((rbSlot 0 (zj c 2)).view.loc (c : Thread nD τ))) (fb3 : Buf (Elt F) ((rbSlot 0 (zj c 3)).view.loc (c : Thread nD τ)))
    (h1 : (rbSlot 0 (zj c 1)).view.read (Elt F) fb1 = rbVal m c 0 (zj c 1)) (h2 : (rbSlot 0 (zj c 2)).view.read (Elt F) fb2 = rbVal m c 0 (zj c 2)) (h3 : (rbSlot 0 (zj c 3)).view.read (Elt F) fb3 = rbVal m c 0 (zj c 3)) :
    (k0_pay8 (k0_pay6 (k0_pay5 (k0_pay4 ((pbM : Memref sig .tc .vmem S1024x512 .bf16).view.readAt (Elt F) (Rect.unit (s := S1024x512) (k0_off10 c) S256x256.size (k0_off10_inb c)).toLoadRect F0)) ((rbM : Memref sig .tc .vmem S2x4x256x256 .bf16).view.readAt (Elt F) (Rect.unit (s := S2x4x256x256) (k0_off13 c 1#32 1#32) S1x1x256x256.size (k0_off13_inb c 0 0)).toLoadRect fb1)) ((rbM : Memref sig .tc .vmem S2x4x256x256 .bf16).view.readAt (Elt F) (Rect.unit (s := S2x4x256x256) (k0_off13 c 1#32 2#32) S1x1x256x256.size (k0_off13_inb c 0 1)).toLoadRect fb2)) ((rbM : Memref sig .tc .vmem S2x4x256x256 .bf16).view.readAt (Elt F) (Rect.unit (s := S2x4x256x256) (k0_off13 c 1#32 3#32) S1x1x256x256.size (k0_off13_inb c 0 2)).toLoadRect fb3)) = redVal m c 0 := by
  rw [pb_load_own m c F0 hpb 0 (k0_off10 c) (k0_off10_inb c) ((Mesh.off10 c).trans rfl),
    rb_load m c 0 (zj c 1) (k0_off13 c 1#32 1#32) (k0_off13_inb c 0 0) ((Mesh.off13_1_1 c).trans rfl) fb1 h1,
    rb_load m c 0 (zj c 2) (k0_off13 c 1#32 2#32) (k0_off13_inb c 0 1) ((Mesh.off13_1_2 c).trans rfl) fb2 h2,
    rb_load m c 0 (zj c 3) (k0_off13 c 1#32 3#32) (k0_off13_inb c 0 2) ((Mesh.off13_1_3 c).trans rfl) fb3 h3] <;> rfl

theorem red0_fact (c : Dev nD) (F0 : (cc0_scratch0 : Ref sig .tc).ty.Contents (Elt F))
    (hpb : ∀ j h, (pbSlot j h).view.read (Elt F) F0 = pbVal m c j h)
    (fb1 : Buf (Elt F) ((rbSlot 0 (zj c 1)).view.loc (c : Thread nD τ))) (fb2 : Buf (Elt F) ((rbSlot 0 (zj c 2)).view.loc (c : Thread nD τ))) (fb3 : Buf (Elt F) ((rbSlot 0 (zj c 3)).view.loc (c : Thread nD τ)))
    (h1 : (rbSlot 0 (zj c 1)).view.read (Elt F) fb1 = rbVal m c 0 (zj c 1)) (h2 : (rbSlot 0 (zj c 2)).view.read (Elt F) fb2 = rbVal m c 0 (zj c 2)) (h3 : (rbSlot 0 (zj c 3)).view.read (Elt F) fb3 = rbVal m c 0 (zj c 3)) (f1 : (cc0_scratch1 : Ref sig .tc).ty.Contents (Elt F)) :
    (redSlot 0).view.read (Elt F) ((Memref.whole cc0_scratch1 : Memref sig .tc .vmem S2x256x256 .bf16).view.writes (Elt F) f1
      [⟨Rect.unit (s := S2x256x256) ![0, 0, 0] S1x256x256.size inb_S2x256x256_S1x256x256_0_0_0, (k0_pay8 (k0_pay6 (k0_pay5 (k0_pay4 ((pbM : Memref sig .tc .vmem S1024x512 .bf16).view.readAt (Elt F) (Rect.unit (s := S1024x512) (k0_off10 c) S256x256.size (k0_off10_inb c)).toLoadRect F0)) ((rbM : Memref sig .tc .vmem S2x4x256x256 .bf16).view.readAt (Elt F) (Rect.unit (s := S2x4x256x256) (k0_off13 c 1#32 1#32) S1x1x256x256.size (k0_off13_inb c 0 0)).toLoadRect fb1)) ((rbM : Memref sig .tc .vmem S2x4x256x256 .bf16).view.readAt (Elt F) (Rect.unit (s := S2x4x256x256) (k0_off13 c 1#32 2#32) S1x1x256x256.size (k0_off13_inb c 0 1)).toLoadRect fb2)) ((rbM : Memref sig .tc .vmem S2x4x256x256 .bf16).view.readAt (Elt F) (Rect.unit (s := S2x4x256x256) (k0_off13 c 1#32 3#32) S1x1x256x256.size (k0_off13_inb c 0 2)).toLoadRect fb3))⟩]) = red2 m c 0 :=
  (red_store (F := F) 0 f1 (k0_pay8 (k0_pay6 (k0_pay5 (k0_pay4 ((pbM : Memref sig .tc .vmem S1024x512 .bf16).view.readAt (Elt F) (Rect.unit (s := S1024x512) (k0_off10 c) S256x256.size (k0_off10_inb c)).toLoadRect F0)) ((rbM : Memref sig .tc .vmem S2x4x256x256 .bf16).view.readAt (Elt F) (Rect.unit (s := S2x4x256x256) (k0_off13 c 1#32 1#32) S1x1x256x256.size (k0_off13_inb c 0 0)).toLoadRect fb1)) ((rbM : Memref sig .tc .vmem S2x4x256x256 .bf16).view.readAt (Elt F) (Rect.unit (s := S2x4x256x256) (k0_off13 c 1#32 2#32) S1x1x256x256.size (k0_off13_inb c 0 1)).toLoadRect fb2)) ((rbM : Memref sig .tc .vmem S2x4x256x256 .bf16).view.readAt (Elt F) (Rect.unit (s := S2x4x256x256) (k0_off13 c 1#32 3#32) S1x1x256x256.size (k0_off13_inb c 0 2)).toLoadRect fb3))).trans (congrArg dn3 (red0_payload m c F0 hpb fb1 fb2 fb3 h1 h2 h3))

theorem acc1_fact (c : Dev nD) (F0 : (cc0_scratch0 : Ref sig .tc).ty.Contents (Elt F))
    (hpb : ∀ j h, (pbSlot j h).view.read (Elt F) F0 = pbVal m c j h)
    (fb1' : Buf (Elt F) ((rbSlot 1 (zj c 1)).view.loc (c : Thread nD τ))) (fb2' : Buf (Elt F) ((rbSlot 1 (zj c 2)).view.loc (c : Thread nD τ))) (fb3' : Buf (Elt F) ((rbSlot 1 (zj c 3)).view.loc (c : Thread nD τ)))
    (h1 : (rbSlot 1 (zj c 1)).view.read (Elt F) fb1' = rbVal m c 1 (zj c 1)) (h2 : (rbSlot 1 (zj c 2)).view.read (Elt F) fb2' = rbVal m c 1 (zj c 2)) (h3 : (rbSlot 1 (zj c 3)).view.read (Elt F) fb3' = rbVal m c 1 (zj c 3)) :
    (k0_pay15 (k0_pay14 (k0_pay13 (k0_pay12 ((pbM : Memref sig .tc .vmem S1024x512 .bf16).view.readAt (Elt F) (Rect.unit (s := S1024x512) (k0_off16 c) S256x256.size (k0_off16_inb c)).toLoadRect F0)) ((rbM : Memref sig .tc .vmem S2x4x256x256 .bf16).view.readAt (Elt F) (Rect.unit (s := S2x4x256x256) (k0_off19 c 1#32 1#32) S1x1x256x256.size (k0_off19_inb c 0 0)).toLoadRect fb1')) ((rbM : Memref sig .tc .vmem S2x4x256x256 .bf16).view.readAt (Elt F) (Rect.unit (s := S2x4x256x256) (k0_off19 c 1#32 2#32) S1x1x256x256.size (k0_off19_inb c 0 1)).toLoadRect fb2')) ((rbM : Memref sig .tc .vmem S2x4x256x256 .bf16).view.readAt (Elt F) (Rect.unit (s := S2x4x256x256) (k0_off19 c 1#32 3#32) S1x1x256x256.size (k0_off19_inb c 0 2)).toLoadRect fb3')) = accVal m c 1 := by
  rw [pb_load_own m c F0 hpb 1 (k0_off16 c) (k0_off16_inb c) ((Mesh.off16 c).trans rfl),
    rb_load m c 1 (zj c 1) (k0_off19 c 1#32 1#32) (k0_off19_inb c 0 0) ((Mesh.off19_1_1 c).trans rfl) fb1' h1,
    rb_load m c 1 (zj c 2) (k0_off19 c 1#32 2#32) (k0_off19_inb c 0 1) ((Mesh.off19_1_2 c).trans rfl) fb2' h2,
    rb_load m c 1 (zj c 3) (k0_off19 c 1#32 3#32) (k0_off19_inb c 0 2) ((Mesh.off19_1_3 c).trans rfl) fb3' h3] <;> rfl

theorem red1_payload (c : Dev nD) (F0 : (cc0_scratch0 : Ref sig .tc).ty.Contents (Elt F))
    (hpb : ∀ j h, (pbSlot j h).view.read (Elt F) F0 = pbVal m c j h)
    (fb1' : Buf (Elt F) ((rbSlot 1 (zj c 1)).view.loc (c : Thread nD τ))) (fb2' : Buf (Elt F) ((rbSlot 1 (zj c 2)).view.loc (c : Thread nD τ))) (fb3' : Buf (Elt F) ((rbSlot 1 (zj c 3)).view.loc (c : Thread nD τ)))
    (h1 : (rbSlot 1 (zj c 1)).view.read (Elt F) fb1' = rbVal m c 1 (zj c 1)) (h2 : (rbSlot 1 (zj c 2)).view.read (Elt F) fb2' = rbVal m c 1 (zj c 2)) (h3 : (rbSlot 1 (zj c 3)).view.read (Elt F) fb3' = rbVal m c 1 (zj c 3)) :
    (k0_pay16 (k0_pay14 (k0_pay13 (k0_pay12 ((pbM : Memref sig .tc .vmem S1024x512 .bf16).view.readAt (Elt F) (Rect.unit (s := S1024x512) (k0_off16 c) S256x256.size (k0_off16_inb c)).toLoadRect F0)) ((rbM : Memref sig .tc .vmem S2x4x256x256 .bf16).view.readAt (Elt F) (Rect.unit (s := S2x4x256x256) (k0_off19 c 1#32 1#32) S1x1x256x256.size (k0_off19_inb c 0 0)).toLoadRect fb1')) ((rbM : Memref sig .tc .vmem S2x4x256x256 .bf16).view.readAt (Elt F) (Rect.unit (s := S2x4x256x256) (k0_off19 c 1#32 2#32) S1x1x256x256.size (k0_off19_inb c 0 1)).toLoadRect fb2')) ((rbM : Memref sig .tc .vmem S2x4x256x256 .bf16).view.readAt (Elt F) (Rect.unit (s := S2x4x256x256) (k0_off19 c 1#32 3#32) S1x1x256x256.size (k0_off19_inb c 0 2)).toLoadRect fb3')) = redVal m c 1 := by
  rw [pb_load_own m c F0 hpb 1 (k0_off16 c) (k0_off16_inb c) ((Mesh.off16 c).trans rfl),
    rb_load m c 1 (zj c 1) (k0_off19 c 1#32 1#32) (k0_off19_inb c 0 0) ((Mesh.off19_1_1 c).trans rfl) fb1' h1,
    rb_load m c 1 (zj c 2) (k0_off19 c 1#32 2#32) (k0_off19_inb c 0 1) ((Mesh.off19_1_2 c).trans rfl) fb2' h2,
    rb_load m c 1 (zj c 3) (k0_off19 c 1#32 3#32) (k0_off19_inb c 0 2) ((Mesh.off19_1_3 c).trans rfl) fb3' h3] <;> rfl

theorem red1_fact (c : Dev nD) (F0 : (cc0_scratch0 : Ref sig .tc).ty.Contents (Elt F))
    (hpb : ∀ j h, (pbSlot j h).view.read (Elt F) F0 = pbVal m c j h)
    (fb1' : Buf (Elt F) ((rbSlot 1 (zj c 1)).view.loc (c : Thread nD τ))) (fb2' : Buf (Elt F) ((rbSlot 1 (zj c 2)).view.loc (c : Thread nD τ))) (fb3' : Buf (Elt F) ((rbSlot 1 (zj c 3)).view.loc (c : Thread nD τ)))
    (h1 : (rbSlot 1 (zj c 1)).view.read (Elt F) fb1' = rbVal m c 1 (zj c 1)) (h2 : (rbSlot 1 (zj c 2)).view.read (Elt F) fb2' = rbVal m c 1 (zj c 2)) (h3 : (rbSlot 1 (zj c 3)).view.read (Elt F) fb3' = rbVal m c 1 (zj c 3)) (F1 : (cc0_scratch1 : Ref sig .tc).ty.Contents (Elt F)) :
    (redSlot 1).view.read (Elt F) (((redM : Memref sig .tc .vmem S2x256x256 .bf16).access (Rect.unit (s := S2x256x256) ![1, 0, 0] S1x256x256.size inb_S2x256x256_S1x256x256_1_0_0)).write (Elt F) F1
      (k0_pay16 (k0_pay14 (k0_pay13 (k0_pay12 ((pbM : Memref sig .tc .vmem S1024x512 .bf16).view.readAt (Elt F) (Rect.unit (s := S1024x512) (k0_off16 c) S256x256.size (k0_off16_inb c)).toLoadRect F0)) ((rbM : Memref sig .tc .vmem S2x4x256x256 .bf16).view.readAt (Elt F) (Rect.unit (s := S2x4x256x256) (k0_off19 c 1#32 1#32) S1x1x256x256.size (k0_off19_inb c 0 0)).toLoadRect fb1')) ((rbM : Memref sig .tc .vmem S2x4x256x256 .bf16).view.readAt (Elt F) (Rect.unit (s := S2x4x256x256) (k0_off19 c 1#32 2#32) S1x1x256x256.size (k0_off19_inb c 0 1)).toLoadRect fb2')) ((rbM : Memref sig .tc .vmem S2x4x256x256 .bf16).view.readAt (Elt F) (Rect.unit (s := S2x4x256x256) (k0_off19 c 1#32 3#32) S1x1x256x256.size (k0_off19_inb c 0 2)).toLoadRect fb3')) Finset.univ) = red2 m c 1 :=
  (red_store (F := F) 1 F1 (k0_pay16 (k0_pay14 (k0_pay13 (k0_pay12 ((pbM : Memref sig .tc .vmem S1024x512 .bf16).view.readAt (Elt F) (Rect.unit (s := S1024x512) (k0_off16 c) S256x256.size (k0_off16_inb c)).toLoadRect F0)) ((rbM : Memref sig .tc .vmem S2x4x256x256 .bf16).view.readAt (Elt F) (Rect.unit (s := S2x4x256x256) (k0_off19 c 1#32 1#32) S1x1x256x256.size (k0_off19_inb c 0 0)).toLoadRect fb1')) ((rbM : Memref sig .tc .vmem S2x4x256x256 .bf16).view.readAt (Elt F) (Rect.unit (s := S2x4x256x256) (k0_off19 c 1#32 2#32) S1x1x256x256.size (k0_off19_inb c 0 1)).toLoadRect fb2')) ((rbM : Memref sig .tc .vmem S2x4x256x256 .bf16).view.readAt (Elt F) (Rect.unit (s := S2x4x256x256) (k0_off19 c 1#32 3#32) S1x1x256x256.size (k0_off19_inb c 0 2)).toLoadRect fb3'))).trans (congrArg dn3 (red1_payload m c F0 hpb fb1' fb2' fb3' h1 h2 h3))

/-- info: 'Cert.KernelIdeal.Coll.red0_fact' depends on axioms: [propext, Classical.choice, Quot.sound] -/
#guard_msgs in #print axioms red0_fact

/-- info: 'Cert.KernelIdeal.Coll.red1_fact' depends on axioms: [propext, Classical.choice, Quot.sound] -/
#guard_msgs in #print axioms red1_fact

end Cert.KernelIdeal.Coll

end
-- ==== Proof.Body.lean ====
/- One device's body, run once at a symbolic device: from the ghost state and buffers the launch hands it to the result's
   staging buffer at the device's sixteen pieces, the scratch buffers whole again and its own cells closed. -/
import proofs.«901051_g7700000000001052_dist_rsdw_v7x_xyz2x4x4_z_m1024_d1024_f4096_bf16_1_alg».proof.Proof.Tables
import proofs.«901051_g7700000000001052_dist_rsdw_v7x_xyz2x4x4_z_m1024_d1024_f4096_bf16_1_alg».proof.Proof.Canon
import proofs.«901051_g7700000000001052_dist_rsdw_v7x_xyz2x4x4_z_m1024_d1024_f4096_bf16_1_alg».proof.Proof.Slots
import proofs.«901051_g7700000000001052_dist_rsdw_v7x_xyz2x4x4_z_m1024_d1024_f4096_bf16_1_alg».proof.Proof.SlotShares
import proofs.«901051_g7700000000001052_dist_rsdw_v7x_xyz2x4x4_z_m1024_d1024_f4096_bf16_1_alg».proof.Proof.SlotsRel
import proofs.«901051_g7700000000001052_dist_rsdw_v7x_xyz2x4x4_z_m1024_d1024_f4096_bf16_1_alg».proof.Proof.Wire
import proofs.«901051_g7700000000001052_dist_rsdw_v7x_xyz2x4x4_z_m1024_d1024_f4096_bf16_1_alg».proof.Proof.Wrap
import proofs.«901051_g7700000000001052_dist_rsdw_v7x_xyz2x4x4_z_m1024_d1024_f4096_bf16_1_alg».proof.Proof.BodyAux
import proofs.«901051_g7700000000001052_dist_rsdw_v7x_xyz2x4x4_z_m1024_d1024_f4096_bf16_1_alg».proof.Proof.Families
import proofs.«901051_g7700000000001052_dist_rsdw_v7x_xyz2x4x4_z_m1024_d1024_f4096_bf16_1_alg».proof.Proof.Incl
import proofs.«901051_g7700000000001052_dist_rsdw_v7x_xyz2x4x4_z_m1024_d1024_f4096_bf16_1_alg».proof.Proof.Rot
import proofs.«901051_g7700000000001052_dist_rsdw_v7x_xyz2x4x4_z_m1024_d1024_f4096_bf16_1_alg».proof.Proof.EpilogueRel
import proofs.«901051_g7700000000001052_dist_rsdw_v7x_xyz2x4x4_z_m1024_d1024_f4096_bf16_1_alg».proof.Proof.ValA
import proofs.«901051_g7700000000001052_dist_rsdw_v7x_xyz2x4x4_z_m1024_d1024_f4096_bf16_1_alg».proof.Proof.ValB
import proofs.«901051_g7700000000001052_dist_rsdw_v7x_xyz2x4x4_z_m1024_d1024_f4096_bf16_1_alg».proof.Proof.Gen.KernelIdeal.Points

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xV m c) ∗ stg c cc0_stg1_0 (yV m c) ∗ stg c cc0_stg2_0 (outAt m c))

/-! ## Reading the launch's families -/

theorem inv_bar (K : Dev nD × CK → ℕ) (p : Dev nD) :
    (bigSep Finset.univ fun ck : Dev nD × CK => (cellInv ER (Rd m) (K ck) (kcell ck) : sProp 𝕄)) ⊢ cellInv ER (Rd m) (K (p, none)) (barC p) :=
  bigSep_elim (Φ := fun ck : Dev nD × CK => (cellInv ER (Rd m) (K ck) (kcell ck) : sProp 𝕄)) (Finset.mem_univ (p, none))
theorem inv_dC (K : Dev nD × CK → ℕ) (p : Dev nD) (a : Fin 6) (h : Fin 2) (j : Fin 4) :
    (bigSep Finset.univ fun ck : Dev nD × CK => (cellInv ER (Rd m) (K ck) (kcell ck) : sProp 𝕄)) ⊢ cellInv ER (Rd m) (K (p, some (a, h, j))) (dC p a h j) :=
  bigSep_elim (Φ := fun ck : Dev nD × CK => (cellInv ER (Rd m) (K ck) (kcell ck) : sProp 𝕄)) (Finset.mem_univ (p, some (a, h, j)))
theorem reached_bar (p : Dev nD) :
    (bigSep Finset.univ fun ck : Dev nD × CK => (reached ER (kcell ck) 0 : sProp 𝕄)) ⊢ reached ER (barC p) 0 :=
  bigSep_elim (Φ := fun ck : Dev nD × CK => (reached ER (kcell ck) 0 : sProp 𝕄)) (Finset.mem_univ (p, none))
theorem reached_dC (p : Dev nD) (a : Fin 6) (h : Fin 2) (j : Fin 4) :
    (bigSep Finset.univ fun ck : Dev nD × CK => (reached ER (kcell ck) 0 : sProp 𝕄)) ⊢ reached ER (dC p a h j) 0 :=
  bigSep_elim (Φ := fun ck : Dev nD × CK => (reached ER (kcell ck) 0 : sProp 𝕄)) (Finset.mem_univ (p, some (a, h, j)))

/-- The seven barrier tokens a device pays with, neighbour by neighbour. -/
theorem toks_bar_eq (c : Dev nD) : (bigSep Finset.univ fun n : DN => (dutyTok ER (barC (nb c n)) 0 (inv n) : sProp 𝕄))
    = iprop(dutyTok ER (barC (zP c 1)) 0 (2 : DN) ∗ dutyTok ER (barC (zP c 2)) 0 (1 : DN) ∗ dutyTok ER (barC (zP c 3)) 0 (0 : DN)
      ∗ dutyTok ER (barC (yP c 1)) 0 (5 : DN) ∗ dutyTok ER (barC (yP c 2)) 0 (4 : DN) ∗ dutyTok ER (barC (yP c 3)) 0 (3 : DN) ∗ dutyTok ER (barC (xP c)) 0 (6 : DN)) := by
  rw [bigSep_univ_eq_bigSepL [(0 : DN), 1, 2, 3, 4, 5, 6] (by decide) (by decide)]
  rfl

/-- What a device hands each neighbour with its barrier signal: its own slots the neighbour writes. -/
theorem bp_z1 (m : (ℓ : Loc nD τ sig) → Buf (Elt F) ℓ) (c : Dev nD) : barPay (F := F) (zP c 1) 2 = iprop(anyPts c (rbSlot 0 (zj c 1)) fullShare ∗ anyPts c (rbSlot 1 (zj c 1)) fullShare) := pay_bar_z1 m c
theorem bp_z2 (m : (ℓ : Loc nD τ sig) → Buf (Elt F) ℓ) (c : Dev nD) : barPay (F := F) (zP c 2) 1 = iprop(anyPts c (rbSlot 0 (zj c 2)) fullShare ∗ anyPts c (rbSlot 1 (zj c 2)) fullShare) := pay_bar_z2 m c
theorem bp_z3 (m : (ℓ : Loc nD τ sig) → Buf (Elt F) ℓ) (c : Dev nD) : barPay (F := F) (zP c 3) 0 = iprop(anyPts c (rbSlot 0 (zj c 3)) fullShare ∗ anyPts c (rbSlot 1 (zj c 3)) fullShare) := pay_bar_z3 m c
theorem bp_y1 (m : (ℓ : Loc nD τ sig) → Buf (Elt F) ℓ) (c : Dev nD) : barPay (F := F) (yP c 1) 5 = iprop(anyPts c (r1Slot 0 (yj c 1)) fullShare ∗ anyPts c (r1Slot 1 (yj c 1)) fullShare) := pay_bar_y1 m c
theorem bp_y2 (m : (ℓ : Loc nD τ sig) → Buf (Elt F) ℓ) (c : Dev nD) : barPay (F := F) (yP c 2) 4 = iprop(anyPts c (r1Slot 0 (yj c 2)) fullShare ∗ anyPts c (r1Slot 1 (yj c 2)) fullShare) := pay_bar_y2 m c
theorem bp_y3 (m : (ℓ : Loc nD τ sig) → Buf (Elt F) ℓ) (c : Dev nD) : barPay (F := F) (yP c 3) 3 = iprop(anyPts c (r1Slot 0 (yj c 3)) fullShare ∗ anyPts c (r1Slot 1 (yj c 3)) fullShare) := pay_bar_y3 m c
theorem bp_x (m : (ℓ : Loc nD τ sig) → Buf (Elt F) ℓ) (c : Dev nD) : barPay (F := F) (xP c) 6 =
    iprop((anyPts c (r2Slot 0 0) fullShare ∗ anyPts c (r2Slot 0 1) fullShare ∗ anyPts c (r2Slot 0 2) fullShare ∗ anyPts c (r2Slot 0 3) fullShare)
      ∗ (anyPts c (r2Slot 1 0) fullShare ∗ anyPts c (r2Slot 1 1) fullShare ∗ anyPts c (r2Slot 1 2) fullShare ∗ anyPts c (r2Slot 1 3) fullShare)) := pay_bar_x m c

theorem whole_pts (c : Dev nD) (b : Ref sig .tc) (f : Buf (Elt F) ((c : Thread nD τ).loc b)) :
    (((c : Thread nD τ).loc b) ↦{fullShare} f : sProp 𝕄) ⊢ ((Memref.whole b).view.loc (c : Thread nD τ) ↦{fullShare} f) := BI.Entails.refl _

theorem yj_ne_yF1 : ∀ c : Dev nD, ¬ yj c 1 = yF c := by decide
theorem yj_ne_yF2 : ∀ c : Dev nD, ¬ yj c 2 = yF c := by decide
theorem yj_ne_yF3 : ∀ c : Dev nD, ¬ yj c 3 = yF c := by decide

/-- The share splits, with the slots spelt as the points-to assertions themselves. -/
theorem red_split' (c : Dev nD) (h : Fin 2) (f : Buf (Elt F) ((redSlot h).view.loc (c : Thread nD τ))) :
    ((redSlot h).view.loc (c : Thread nD τ) ↦[(redSlot h).view.set]{fullShare} f : sProp 𝕄)
      ⊢ iprop(((redSlot h).view.loc (c : Thread nD τ) ↦[(redSlot h).view.set]{Transfers.shareDrop fullShare 4} f)
        ∗ ((redSlot h).view.loc (c : Thread nD τ) ↦[(redSlot h).view.set]{qS (yF c)} f)
        ∗ ((redSlot h).view.loc (c : Thread nD τ) ↦[(redSlot h).view.set]{qS (yj c 1)} f)
        ∗ ((redSlot h).view.loc (c : Thread nD τ) ↦[(redSlot h).view.set]{qS (yj c 2)} f)
        ∗ ((redSlot h).view.loc (c : Thread nD τ) ↦[(redSlot h).view.set]{qS (yj c 3)} f)) := red_shares_rel c h f
theorem r1_split' (c : Dev nD) (h : Fin 2) (j : Fin 4) (f : Buf (Elt F) ((r1Slot h j).view.loc (c : Thread nD τ))) :
    ((r1Slot h j).view.loc (c : Thread nD τ) ↦[(r1Slot h j).view.set]{fullShare} f : sProp 𝕄)
      ⊢ iprop(((r1Slot h j).view.loc (c : Thread nD τ) ↦[(r1Slot h j).view.set]{Transfers.shareDrop fullShare 1} f)
        ∗ ((r1Slot h j).view.loc (c : Thread nD τ) ↦[(r1Slot h j).view.set]{qR} f)) := (r1_shares c h j f).1

/-- A load of a gathered or exchanged slot at any offsets equal to the slot's reads the block the slot holds. -/
theorem r1_load (h : Fin 2) (j : Fin 4) (off : Fin 4 → ℕ) (p : ∀ a, off a + S1x1x256x256.size a ≤ S2x4x256x256.size a) (hoff : off = ![h.val, j.val, 0, 0])
    (fb : (cc0_scratch3 : Ref sig .tc).ty.Contents (Elt F)) (v : Vec F S256x256 .bf16) (hfb : (r1Slot h j).view.read (Elt F) fb = v) :
    (r1M : Memref sig .tc .vmem S2x4x256x256 .bf16).view.readAt (Elt F) (Rect.unit (s := S2x4x256x256) off S1x1x256x256.size p).toLoadRect fb = up4 v := by
  subst hoff; exact (r1_readAt (F := F) h j fb).trans (congrArg up4 hfb)
theorem r2_load (h : Fin 2) (j : Fin 4) (off : Fin 4 → ℕ) (p : ∀ a, off a + S1x1x256x256.size a ≤ S2x4x256x256.size a) (hoff : off = ![h.val, j.val, 0, 0])
    (fb : (cc0_scratch4 : Ref sig .tc).ty.Contents (Elt F)) (v : Vec F S256x256 .bf16) (hfb : (r2Slot h j).view.read (Elt F) fb = v) :
    (r2M : Memref sig .tc .vmem S2x4x256x256 .bf16).view.readAt (Elt F) (Rect.unit (s := S2x4x256x256) off S1x1x256x256.size p).toLoadRect fb = up4 v := by
  subst hoff; exact (r2_readAt (F := F) h j fb).trans (congrArg up4 hfb)

/-- Naming the contents a points-to holds. -/
theorem name_it {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  iexact H

section Body

set_option maxHeartbeats 0 in
theorem sound_body (c : Dev nD) (Kt : PUnit → sProp 𝕄) :
    iprop(bodyPre' m ρ c ∗ (bodyPost m ρ c -∗ Kt ⟨⟩))
      ⊢ wp frame (wpE (defs₀ (F := F)) 𝒱₀ c none) Set.univ
          (cc0_body xM (Memref.isWhole_whole _) yM (Memref.isWhole_whole _) oM (Memref.isWhole_whole _)
            pbM (Memref.isWhole_whole _) redM (Memref.isWhole_whole _) rbM (Memref.isWhole_whole _) r1M (Memref.isWhole_whole _) r2M (Memref.isWhole_whole _)
            cc0_scratch5 cc0_scratch6 cc0_scratch7 cc0_scratch8 cc0_scratch9 cc0_scratch10) Kt := by
  -- the rectangles the body loads and stores through lie in the slots held
  have hi_pb0 : (pbM : Memref sig .tc .vmem S1024x512 .bf16).view.setOn (Rect.unit (s := S1024x512) (k0_off10 c) S256x256.size (k0_off10_inb c)).set ⊆ (pbSlot (zF c) 0).view.set := by rw [rect_off10]; exact incl_pb _ _
  have hi_pb1 : (pbM : Memref sig .tc .vmem S1024x512 .bf16).view.setOn (Rect.unit (s := S1024x512) (k0_off16 c) S256x256.size (k0_off16_inb c)).set ⊆ (pbSlot (zF c) 1).view.set := by rw [rect_off16]; exact incl_pb _ _
  have hi_rb0_1 : (rbM : Memref sig .tc .vmem S2x4x256x256 .bf16).view.setOn (Rect.unit (s := S2x4x256x256) (k0_off13 c 1#32 1#32) S1x1x256x256.size (k0_off13_inb c 0 0)).set ⊆ (rbSlot 0 (zj c 1)).view.set := by rw [rect_off13_1_1]; exact incl_rb _ _
  have hi_rb1_1 : (rbM : Memref sig .tc .vmem S2x4x256x256 .bf16).view.setOn (Rect.unit (s := S2x4x256x256) (k0_off19 c 1#32 1#32) S1x1x256x256.size (k0_off19_inb c 0 0)).set ⊆ (rbSlot 1 (zj c 1)).view.set := by rw [rect_off19_1_1]; exact incl_rb _ _
  have hi_r10_1 : (r1M : Memref sig .tc .vmem S2x4x256x256 .bf16).view.setOn (Rect.unit (s := S2x4x256x256) (k0_off13 c 4#32 1#32) S1x1x256x256.size (k0_off13_inb c 1 0)).set ⊆ (r1Slot 0 (yj c 1)).view.set := by rw [rect_off13_4_1]; exact incl_r1 _ _
  have hi_r11_1 : (r1M : Memref sig .tc .vmem S2x4x256x256 .bf16).view.setOn (Rect.unit (s := S2x4x256x256) (k0_off19 c 4#32 1#32) S1x1x256x256.size (k0_off19_inb c 1 0)).set ⊆ (r1Slot 1 (yj c 1)).view.set := by rw [rect_off19_4_1]; exact incl_r1 _ _
  have hi_rb0_2 : (rbM : Memref sig .tc .vmem S2x4x256x256 .bf16).view.setOn (Rect.unit (s := S2x4x256x256) (k0_off13 c 1#32 2#32) S1x1x256x256.size (k0_off13_inb c 0 1)).set ⊆ (rbSlot 0 (zj c 2)).view.set := by rw [rect_off13_1_2]; exact incl_rb _ _
  have hi_rb1_2 : (rbM : Memref sig .tc .vmem S2x4x256x256 .bf16).view.setOn (Rect.unit (s := S2x4x256x256) (k0_off19 c 1#32 2#32) S1x1x256x256.size (k0_off19_inb c 0 1)).set ⊆ (rbSlot 1 (zj c 2)).view.set := by rw [rect_off19_1_2]; exact incl_rb _ _
  have hi_r10_2 : (r1M : Memref sig .tc .vmem S2x4x256x256 .bf16).view.setOn (Rect.unit (s := S2x4x256x256) (k0_off13 c 4#32 2#32) S1x1x256x256.size (k0_off13_inb c 1 1)).set ⊆ (r1Slot 0 (yj c 2)).view.set := by rw [rect_off13_4_2]; exact incl_r1 _ _
  have hi_r11_2 : (r1M : Memref sig .tc .vmem S2x4x256x256 .bf16).view.setOn (Rect.unit (s := S2x4x256x256) (k0_off19 c 4#32 2#32) S1x1x256x256.size (k0_off19_inb c 1 1)).set ⊆ (r1Slot 1 (yj c 2)).view.set := by rw [rect_off19_4_2]; exact incl_r1 _ _
  have hi_rb0_3 : (rbM : Memref sig .tc .vmem S2x4x256x256 .bf16).view.setOn (Rect.unit (s := S2x4x256x256) (k0_off13 c 1#32 3#32) S1x1x256x256.size (k0_off13_inb c 0 2)).set ⊆ (rbSlot 0 (zj c 3)).view.set := by rw [rect_off13_1_3]; exact incl_rb _ _
  have hi_rb1_3 : (rbM : Memref sig .tc .vmem S2x4x256x256 .bf16).view.setOn (Rect.unit (s := S2x4x256x256) (k0_off19 c 1#32 3#32) S1x1x256x256.size (k0_off19_inb c 0 2)).set ⊆ (rbSlot 1 (zj c 3)).view.set := by rw [rect_off19_1_3]; exact incl_rb _ _
  have hi_r10_3 : (r1M : Memref sig .tc .vmem S2x4x256x256 .bf16).view.setOn (Rect.unit (s := S2x4x256x256) (k0_off13 c 4#32 3#32) S1x1x256x256.size (k0_off13_inb c 1 2)).set ⊆ (r1Slot 0 (yj c 3)).view.set := by rw [rect_off13_4_3]; exact incl_r1 _ _
  have hi_r11_3 : (r1M : Memref sig .tc .vmem S2x4x256x256 .bf16).view.setOn (Rect.unit (s := S2x4x256x256) (k0_off19 c 4#32 3#32) S1x1x256x256.size (k0_off19_inb c 1 2)).set ⊆ (r1Slot 1 (yj c 3)).view.set := by rw [rect_off19_4_3]; exact incl_r1 _ _
  have hi_r2_0_0 : (r2M : Memref sig .tc .vmem S2x4x256x256 .bf16).view.setOn (Rect.unit (s := S2x4x256x256) ![0, 0, 0, 0] S1x1x256x256.size inb_S2x4x256x256_S1x1x256x256_0_0_0_0).set ⊆ (r2Slot 0 0).view.set := by rw [rect_r4_0_0]; exact incl_r2 _ _
  have hi_r2_0_1 : (r2M : Memref sig .tc .vmem S2x4x256x256 .bf16).view.setOn (Rect.unit (s := S2x4x256x256) ![0, 1, 0, 0] S1x1x256x256.size inb_S2x4x256x256_S1x1x256x256_0_1_0_0).set ⊆ (r2Slot 0 1).view.set := by rw [rect_r4_0_1]; exact incl_r2 _ _
  have hi_r2_0_2 : (r2M : Memref sig .tc .vmem S2x4x256x256 .bf16).view.setOn (Rect.unit (s := S2x4x256x256) ![0, 2, 0, 0] S1x1x256x256.size inb_S2x4x256x256_S1x1x256x256_0_2_0_0).set ⊆ (r2Slot 0 2).view.set := by rw [rect_r4_0_2]; exact incl_r2 _ _
  have hi_r2_0_3 : (r2M : Memref sig .tc .vmem S2x4x256x256 .bf16).view.setOn (Rect.unit (s := S2x4x256x256) ![0, 3, 0, 0] S1x1x256x256.size inb_S2x4x256x256_S1x1x256x256_0_3_0_0).set ⊆ (r2Slot 0 3).view.set := by rw [rect_r4_0_3]; exact incl_r2 _ _
  have hi_red_0 : (redM : Memref sig .tc .vmem S2x256x256 .bf16).view.setOn (Rect.unit (s := S2x256x256) ![0, 0, 0] S1x256x256.size inb_S2x256x256_S1x256x256_0_0_0).set ⊆ (redSlot 0).view.set := by rw [rect_red_0]; exact incl_red _
  have hi_reds_0 : ((redM : Memref sig .tc .vmem S2x256x256 .bf16).access (Rect.unit (s := S2x256x256) ![0, 0, 0] S1x256x256.size inb_S2x256x256_S1x256x256_0_0_0)).set ⊆ (redSlot 0).view.set := by rw [rect_red_0]; exact incl_red_acc _
  have hi_r2_1_0 : (r2M : Memref sig .tc .vmem S2x4x256x256 .bf16).view.setOn (Rect.unit (s := S2x4x256x256) ![1, 0, 0, 0] S1x1x256x256.size inb_S2x4x256x256_S1x1x256x256_1_0_0_0).set ⊆ (r2Slot 1 0).view.set := by rw [rect_r4_1_0]; exact incl_r2 _ _
  have hi_r2_1_1 : (r2M : Memref sig .tc .vmem S2x4x256x256 .bf16).view.setOn (Rect.unit (s := S2x4x256x256) ![1, 1, 0, 0] S1x1x256x256.size inb_S2x4x256x256_S1x1x256x256_1_1_0_0).set ⊆ (r2Slot 1 1).view.set := by rw [rect_r4_1_1]; exact incl_r2 _ _
  have hi_r2_1_2 : (r2M : Memref sig .tc .vmem S2x4x256x256 .bf16).view.setOn (Rect.unit (s := S2x4x256x256) ![1, 2, 0, 0] S1x1x256x256.size inb_S2x4x256x256_S1x1x256x256_1_2_0_0).set ⊆ (r2Slot 1 2).view.set := by rw [rect_r4_1_2]; exact incl_r2 _ _
  have hi_r2_1_3 : (r2M : Memref sig .tc .vmem S2x4x256x256 .bf16).view.setOn (Rect.unit (s := S2x4x256x256) ![1, 3, 0, 0] S1x1x256x256.size inb_S2x4x256x256_S1x1x256x256_1_3_0_0).set ⊆ (r2Slot 1 3).view.set := by rw [rect_r4_1_3]; exact incl_r2 _ _
  have hi_red_1 : (redM : Memref sig .tc .vmem S2x256x256 .bf16).view.setOn (Rect.unit (s := S2x256x256) ![1, 0, 0] S1x256x256.size inb_S2x256x256_S1x256x256_1_0_0).set ⊆ (redSlot 1).view.set := by rw [rect_red_1]; exact incl_red _
  have hi_reds_1 : ((redM : Memref sig .tc .vmem S2x256x256 .bf16).access (Rect.unit (s := S2x256x256) ![1, 0, 0] S1x256x256.size inb_S2x256x256_S1x256x256_1_0_0)).set ⊆ (redSlot 1).view.set := by rw [rect_red_1]; exact incl_red_acc _
  unfold bodyPre' Φ₀ start ghost records payToks launchCreds scratch
  iintro ⟨⟨⟨⟨⟨%K, ⟨#HI, #HR⟩, Hpos, Htb, Htr, Hts⟩, ⟨HcB, HcR⟩, #Hlev⟩, ⟨⟨%f0, Hs0⟩, ⟨%f1, Hs1⟩, ⟨%f2, Hs2⟩, ⟨%f3, Hs3⟩, ⟨%f4, Hs4⟩⟩⟩, Ho, ⟨%d0, %g0, %hg0, Hx⟩, ⟨%d1, %g1, %hg1, Hy⟩, ⟨%d2, %g2, %hg2, Hout⟩⟩, Hk⟩
  unfold Dat.owesAt Pipeline.owesWithin
  icases Ho with ⟨%W, %hW, HO⟩
  rw [show (dats m ρ 0 c).owed t₀.castSucc = owedFrom c 0 from rfl, owedFrom_zero_eq]
  -- the seven barrier tokens; the receive buffers slot by slot
  ihave Htb' := (Entails.of_eq (toks_bar_eq c)) $$ Htb
  icases Htb' with ⟨Htz1, Htz2, Htz3, Hty1, Hty2, Hty3, Htx⟩
  ihave Hrb := (Entails.of_eq (rb_rel c f2)) $$ Hs2
  icases Hrb with ⟨⟨Hb0_0, Hb0_1, Hb0_2, Hb0_3⟩, ⟨Hb1_0, Hb1_1, Hb1_2, Hb1_3⟩⟩
  ihave Hr1 := (Entails.of_eq (r1_rel c f3)) $$ Hs3
  icases Hr1 with ⟨⟨Hc0_0, Hc0_1, Hc0_2, Hc0_3⟩, ⟨Hc1_0, Hc1_1, Hc1_2, Hc1_3⟩⟩
  ihave Hr2 := (Entails.of_eq (r2_abs c f4)) $$ Hs4
  icases Hr2 with ⟨⟨Hd00, Hd01, Hd02, Hd03⟩, ⟨Hd10, Hd11, Hd12, Hd13⟩⟩
  ihave Hpos' := (Entails.of_eq (pos_rel c)) $$ Hpos
  icases Hpos' with ⟨HatB, ⟨⟨At00_0, At00_1, At00_2, At00_3⟩, ⟨At01_0, At01_1, At01_2, At01_3⟩⟩, ⟨⟨At10_0, At10_1, At10_2, At10_3⟩, ⟨At11_0, At11_1, At11_2, At11_3⟩⟩,
    ⟨⟨At20_0, At20_1, At20_2, At20_3⟩, ⟨At21_0, At21_1, At21_2, At21_3⟩⟩, ⟨⟨At30_0, At30_1, At30_2, At30_3⟩, ⟨At31_0, At31_1, At31_2, At31_3⟩⟩,
    ⟨⟨At40_0, At40_1, At40_2, At40_3⟩, ⟨At41_0, At41_1, At41_2, At41_3⟩⟩, ⟨⟨At50_0, At50_1, At50_2, At50_3⟩, ⟨At51_0, At51_1, At51_2, At51_3⟩⟩⟩
  ihave Htr' := (toks_recv_rel c) $$ Htr
  icases Htr' with ⟨TrB0_1, TrB0_2, TrB0_3, TrB1_1, TrB1_2, TrB1_3, TrC0_1, TrC0_2, TrC0_3, TrX0, TrR0_1, TrR0_2, TrR0_3, TrC1_1, TrC1_2, TrC1_3, TrX1, TrR1_1, TrR1_2, TrR1_3⟩
  ihave Hts' := (toks_send_rel c) $$ Hts
  icases Hts' with ⟨⟨⟨TsB0_1, TsB0_2, TsB0_3⟩, ⟨TsB1_1, TsB1_2, TsB1_3⟩⟩, ⟨⟨TsC0_1, TsC0_2, TsC0_3⟩, ⟨TsC1_1, TsC1_2, TsC1_3⟩⟩, ⟨⟨TsX0, TsR0_1, TsR0_2, TsR0_3⟩, ⟨TsX1, TsR1_1, TsR1_2, TsR1_3⟩⟩⟩
  ihave HcR' := (creds_rel c) $$ HcR
  icases HcR' with ⟨⟨⟨CrB0_1, CrB0_2, CrB0_3⟩, ⟨CrB1_1, CrB1_2, CrB1_3⟩⟩, ⟨⟨CrC0_1, CrC0_2, CrC0_3⟩, ⟨CrC1_1, CrC1_2, CrC1_3⟩⟩, ⟨⟨CrX0_0, CrX0_1, CrX0_2, CrX0_3⟩, ⟨CrX1_0, CrX1_1, CrX1_2, CrX1_3⟩⟩⟩
  have hx : g0 = xV m c := by rw [hg0]; unfold Dat.before; rw [if_pos (Gen.fetch0_0 t₀)]; rfl
  have hy : g1 = yV m c := by rw [hg1]; unfold Dat.before; rw [if_pos (Gen.fetch0_1 t₀)]; rfl
  subst hx; subst hy
  ihave HX := (whole_pts c cc0_stg0_0 _) $$ Hx
  ihave HY := (whole_pts c cc0_stg1_0 _) $$ Hy
  ihave HOut := (whole_pts c cc0_stg2_0 _) $$ Hout
  ihave HPb := (whole_pts c cc0_scratch0 _) $$ Hs0
  ihave HRed := (whole_pts c cc0_scratch1 _) $$ Hs1
  sl_exec_parts
  -- signal 1: to zP c 1
  ihave #HI_zP1 := (inv_bar m K (zP c 1)) $$ HI
  ihave #HR_zP1 := (reached_bar (F := F) (zP c 1)) $$ HR
  iapply (wp_sig m c (zP c 1) 2 (K (zP c 1, none)) _ _ rfl W) $$ [HO Htz1 Hb0_1 Hb1_1]
  · isplitr; · iexact HI_zP1
    isplitl [HO]; · iexact HO
    isplitl [Htz1]; · iexact Htz1
    isplitr [HR_zP1]
    · rw [bp_z1 m c]; unfold anyPts
      isplitl [Hb0_1]; · iexists f2; iexact Hb0_1
      iexists f2; iexact Hb1_1
    iexact HR_zP1
  iintro HO
  rw [wp_ret]; imodintro
  sl_exec_parts
  -- signal 2: to zP c 2
  ihave #HI_zP2 := (inv_bar m K (zP c 2)) $$ HI
  ihave #HR_zP2 := (reached_bar (F := F) (zP c 2)) $$ HR
  iapply (wp_sig m c (zP c 2) 1 (K (zP c 2, none)) _ _ rfl W) $$ [HO Htz2 Hb0_2 Hb1_2]
  · isplitr; · iexact HI_zP2
    isplitl [HO]; · iexact HO
    isplitl [Htz2]; · iexact Htz2
    isplitr [HR_zP2]
    · rw [bp_z2 m c]; unfold anyPts
      isplitl [Hb0_2]; · iexists f2; iexact Hb0_2
      iexists f2; iexact Hb1_2
    iexact HR_zP2
  iintro HO
  rw [wp_ret]; imodintro
  sl_exec_parts
  -- signal 3: to zP c 3
  ihave #HI_zP3 := (inv_bar m K (zP c 3)) $$ HI
  ihave #HR_zP3 := (reached_bar (F := F) (zP c 3)) $$ HR
  iapply (wp_sig m c (zP c 3) 0 (K (zP c 3, none)) _ _ rfl W) $$ [HO Htz3 Hb0_3 Hb1_3]
  · isplitr; · iexact HI_zP3
    isplitl [HO]; · iexact HO
    isplitl [Htz3]; · iexact Htz3
    isplitr [HR_zP3]
    · rw [bp_z3 m c]; unfold anyPts
      isplitl [Hb0_3]; · iexists f2; iexact Hb0_3
      iexists f2; iexact Hb1_3
    iexact HR_zP3
  iintro HO
  rw [wp_ret]; imodintro
  sl_exec_parts
  -- signal 4: to yP c 1
  ihave #HI_yP1 := (inv_bar m K (yP c 1)) $$ HI
  ihave #HR_yP1 := (reached_bar (F := F) (yP c 1)) $$ HR
  iapply (wp_sig m c (yP c 1) 5 (K (yP c 1, none)) _ _ rfl W) $$ [HO Hty1 Hc0_1 Hc1_1]
  · isplitr; · iexact HI_yP1
    isplitl [HO]; · iexact HO
    isplitl [Hty1]; · iexact Hty1
    isplitr [HR_yP1]
    · rw [bp_y1 m c]; unfold anyPts
      isplitl [Hc0_1]; · iexists f3; iexact Hc0_1
      iexists f3; iexact Hc1_1
    iexact HR_yP1
  iintro HO
  rw [wp_ret]; imodintro
  sl_exec_parts
  -- signal 5: to yP c 2
  ihave #HI_yP2 := (inv_bar m K (yP c 2)) $$ HI
  ihave #HR_yP2 := (reached_bar (F := F) (yP c 2)) $$ HR
  iapply (wp_sig m c (yP c 2) 4 (K (yP c 2, none)) _ _ rfl W) $$ [HO Hty2 Hc0_2 Hc1_2]
  · isplitr; · iexact HI_yP2
    isplitl [HO]; · iexact HO
    isplitl [Hty2]; · iexact Hty2
    isplitr [HR_yP2]
    · rw [bp_y2 m c]; unfold anyPts
      isplitl [Hc0_2]; · iexists f3; iexact Hc0_2
      iexists f3; iexact Hc1_2
    iexact HR_yP2
  iintro HO
  rw [wp_ret]; imodintro
  sl_exec_parts
  -- signal 6: to yP c 3
  ihave #HI_yP3 := (inv_bar m K (yP c 3)) $$ HI
  ihave #HR_yP3 := (reached_bar (F := F) (yP c 3)) $$ HR
  iapply (wp_sig m c (yP c 3) 3 (K (yP c 3, none)) _ _ rfl W) $$ [HO Hty3 Hc0_3 Hc1_3]
  · isplitr; · iexact HI_yP3
    isplitl [HO]; · iexact HO
    isplitl [Hty3]; · iexact Hty3
    isplitr [HR_yP3]
    · rw [bp_y3 m c]; unfold anyPts
      isplitl [Hc0_3]; · iexists f3; iexact Hc0_3
      iexists f3; iexact Hc1_3
    iexact HR_yP3
  iintro HO
  rw [wp_ret]; imodintro
  sl_exec_parts
  -- signal 7: to xP c
  ihave #HI_xP := (inv_bar m K (xP c)) $$ HI
  ihave #HR_xP := (reached_bar (F := F) (xP c)) $$ HR
  iapply (wp_sig m c (xP c) 6 (K (xP c, none)) _ _ rfl W) $$ [HO Htx Hd00 Hd01 Hd02 Hd03 Hd10 Hd11 Hd12 Hd13]
  · isplitr; · iexact HI_xP
    isplitl [HO]; · iexact HO
    isplitl [Htx]; · iexact Htx
    isplitr [HR_xP]
    · rw [bp_x m c]; unfold anyPts
      isplitl [Hd00 Hd01 Hd02 Hd03]
      · isplitl [Hd00]; · iexists f4; iexact Hd00
        isplitl [Hd01]; · iexists f4; iexact Hd01
        isplitl [Hd02]; · iexists f4; iexact Hd02
        iexists f4; iexact Hd03
      · isplitl [Hd10]; · iexists f4; iexact Hd10
        isplitl [Hd11]; · iexists f4; iexact Hd11
        isplitl [Hd12]; · iexists f4; iexact Hd12
        iexists f4; iexact Hd13
    iexact HR_xP
  iintro HO
  rw [wp_ret]; imodintro
  sl_exec_parts
  -- the barrier wait: seven units, the neighbours' slots come back
  ihave #HI_c := (inv_bar m K c) $$ HI
  iapply (wp_barwait m c (K (c, none)) (owedFrom c 7) W) $$ [HcB HO HatB]
  · isplitr; · iexact HI_c
    isplitl [HcB]; · iexact HcB
    isplitl [HO]; · iexact HO
    isplitr; · iapply (mayWait_bar c); iexact Hlev
    iexact HatB
  iintro ⟨HO, HatB, #HrB1, Hpay⟩
  rw [barPay_0, barPay_1, barPay_2, barPay_3, barPay_4, barPay_5, barPay_6]
  icases Hpay with ⟨Hz1, Hz2, Hz3, Hy1, Hy2, Hy3, Hxs0, Hxs1⟩
  ihave Hxr0 := (xslots_rel c (xP c) 0) $$ Hxs0
  ihave Hxr1 := (xslots_rel c (xP c) 1) $$ Hxs1
  unfold anyPts
  icases Hz1 with ⟨⟨%e0z1, He0z1⟩, ⟨%e1z1, He1z1⟩⟩
  icases Hz2 with ⟨⟨%e0z2, He0z2⟩, ⟨%e1z2, He1z2⟩⟩
  icases Hz3 with ⟨⟨%e0z3, He0z3⟩, ⟨%e1z3, He1z3⟩⟩
  icases Hy1 with ⟨⟨%e0y1, He0y1⟩, ⟨%e1y1, He1y1⟩⟩
  icases Hy2 with ⟨⟨%e0y2, He0y2⟩, ⟨%e1y2, He1y2⟩⟩
  icases Hy3 with ⟨⟨%e0y3, He0y3⟩, ⟨%e1y3, He1y3⟩⟩
  icases Hxr0 with ⟨⟨%e0x0, He0x_0⟩, ⟨%e0x1, He0x_1⟩, ⟨%e0x2, He0x_2⟩, ⟨%e0x3, He0x_3⟩⟩
  icases Hxr1 with ⟨⟨%e1x0, He1x_0⟩, ⟨%e1x1, He1x_1⟩, ⟨%e1x2, He1x_2⟩, ⟨%e1x3, He1x_3⟩⟩
  rw [wp_ret]; imodintro
  sl_exec_parts
  -- the partial products, block by block
  generalize hF0 : (Memref.whole cc0_scratch0).view.writes (Elt F) f0 _ = F0
  have hpb : ∀ (j : Fin 4) (h : Fin 2), (pbSlot j h).view.read (Elt F) F0 = pbVal m c j h := by
    subst hF0; intro j h; exact pb_fact m c f0 j h
  ihave Hp := (Entails.of_eq (pb_rel c F0)) $$ HPb
  icases Hp with ⟨⟨Hp0_0, Hp0_1, Hp0_2, Hp0_3⟩, ⟨Hp1_0, Hp1_1, Hp1_2, Hp1_3⟩⟩
  unfold slotPts
  -- transfer z phase, half 0, 1 steps on
  ihave #HIs_B0_1 := (inv_dC m K c 0 0 (zj c 1)) $$ HI
  ihave #HIr_B0_1 := (inv_dC m K (zP c 1) 1 0 (zF c)) $$ HI
  ihave #HRs_B0_1 := (reached_dC (F := F) c 0 0 (zj c 1)) $$ HR
  ihave #HRr_B0_1 := (reached_dC (F := F) (zP c 1) 1 0 (zF c)) $$ HR
  iapply (wp_xfer' m c (zP c 1) _ (Mesh.dev8_eq c) 0 0 (zj c 1) 1 0 (zF c) (used0_z1 c) (used1_z1 c) (K (c, some (0, 0, zj c 1))) (K (zP c 1, some (1, 0, zF c)))
      (src := pbSlot (zj c 1) 0) (dst := rbSlot 0 (zF c)) rfl fullShare _ e0z1 (owedFrom c 7) (owedFrom c 8) rfl _
      (to_any c _ _ _) (by rw [hpb (zj c 1) 0, ← rbVal_z1 m c 0]; exact to_holds _ _ _ _)) $$ [Hp0_1 He0z1 HO TsB0_1 TrB0_1]
  · isplitr; · iexact HIs_B0_1
    isplitr; · iexact HIr_B0_1
    isplitl [Hp0_1]; · iexact Hp0_1
    isplitl [He0z1]; · iexact He0z1
    isplitl [HO]; · iexact HO
    isplitl [TsB0_1]; · iexact TsB0_1
    isplitr; · iexact HRs_B0_1
    isplitl [TrB0_1]; · iexact TrB0_1
    iexact HRr_B0_1
  iintro ⟨CsB0_1, HO⟩
  sl_exec_parts
  -- transfer z phase, half 0, 2 steps on
  ihave #HIs_B0_2 := (inv_dC m K c 0 0 (zj c 2)) $$ HI
  ihave #HIr_B0_2 := (inv_dC m K (zP c 2) 1 0 (zF c)) $$ HI
  ihave #HRs_B0_2 := (reached_dC (F := F) c 0 0 (zj c 2)) $$ HR
  ihave #HRr_B0_2 := (reached_dC (F := F) (zP c 2) 1 0 (zF c)) $$ HR
  iapply (wp_xfer' m c (zP c 2) _ (Mesh.dev9_eq c) 0 0 (zj c 2) 1 0 (zF c) (used0_z2 c) (used1_z2 c) (K (c, some (0, 0, zj c 2))) (K (zP c 2, some (1, 0, zF c)))
      (src := pbSlot (zj c 2) 0) (dst := rbSlot 0 (zF c)) rfl fullShare _ e0z2 (owedFrom c 8) (owedFrom c 9) rfl _
      (to_any c _ _ _) (by rw [hpb (zj c 2) 0, ← rbVal_z2 m c 0]; exact to_holds _ _ _ _)) $$ [Hp0_2 He0z2 HO TsB0_2 TrB0_2]
  · isplitr; · iexact HIs_B0_2
    isplitr; · iexact HIr_B0_2
    isplitl [Hp0_2]; · iexact Hp0_2
    isplitl [He0z2]; · iexact He0z2
    isplitl [HO]; · iexact HO
    isplitl [TsB0_2]; · iexact TsB0_2
    isplitr; · iexact HRs_B0_2
    isplitl [TrB0_2]; · iexact TrB0_2
    iexact HRr_B0_2
  iintro ⟨CsB0_2, HO⟩
  sl_exec_parts
  -- transfer z phase, half 0, 3 steps on
  ihave #HIs_B0_3 := (inv_dC m K c 0 0 (zj c 3)) $$ HI
  ihave #HIr_B0_3 := (inv_dC m K (zP c 3) 1 0 (zF c)) $$ HI
  ihave #HRs_B0_3 := (reached_dC (F := F) c 0 0 (zj c 3)) $$ HR
  ihave #HRr_B0_3 := (reached_dC (F := F) (zP c 3) 1 0 (zF c)) $$ HR
  iapply (wp_xfer' m c (zP c 3) _ (Mesh.dev10_eq c) 0 0 (zj c 3) 1 0 (zF c) (used0_z3 c) (used1_z3 c) (K (c, some (0, 0, zj c 3))) (K (zP c 3, some (1, 0, zF c)))
      (src := pbSlot (zj c 3) 0) (dst := rbSlot 0 (zF c)) rfl fullShare _ e0z3 (owedFrom c 9) (owedFrom c 10) rfl _
      (to_any c _ _ _) (by rw [hpb (zj c 3) 0, ← rbVal_z3 m c 0]; exact to_holds _ _ _ _)) $$ [Hp0_3 He0z3 HO TsB0_3 TrB0_3]
  · isplitr; · iexact HIs_B0_3
    isplitr; · iexact HIr_B0_3
    isplitl [Hp0_3]; · iexact Hp0_3
    isplitl [He0z3]; · iexact He0z3
    isplitl [HO]; · iexact HO
    isplitl [TsB0_3]; · iexact TsB0_3
    isplitr; · iexact HRs_B0_3
    isplitl [TrB0_3]; · iexact TrB0_3
    iexact HRr_B0_3
  iintro ⟨CsB0_3, HO⟩
  sl_exec_parts
  -- transfer z phase, half 1, 1 steps on
  ihave #HIs_B1_1 := (inv_dC m K c 0 1 (zj c 1)) $$ HI
  ihave #HIr_B1_1 := (inv_dC m K (zP c 1) 1 1 (zF c)) $$ HI
  ihave #HRs_B1_1 := (reached_dC (F := F) c 0 1 (zj c 1)) $$ HR
  ihave #HRr_B1_1 := (reached_dC (F := F) (zP c 1) 1 1 (zF c)) $$ HR
  iapply (wp_xfer' m c (zP c 1) _ (Mesh.dev11_eq c) 0 1 (zj c 1) 1 1 (zF c) (used0_z1 c) (used1_z1 c) (K (c, some (0, 1, zj c 1))) (K (zP c 1, some (1, 1, zF c)))
      (src := pbSlot (zj c 1) 1) (dst := rbSlot 1 (zF c)) rfl fullShare _ e1z1 (owedFrom c 10) (owedFrom c 11) rfl _
      (to_any c _ _ _) (by rw [hpb (zj c 1) 1, ← rbVal_z1 m c 1]; exact to_holds _ _ _ _)) $$ [Hp1_1 He1z1 HO TsB1_1 TrB1_1]
  · isplitr; · iexact HIs_B1_1
    isplitr; · iexact HIr_B1_1
    isplitl [Hp1_1]; · iexact Hp1_1
    isplitl [He1z1]; · iexact He1z1
    isplitl [HO]; · iexact HO
    isplitl [TsB1_1]; · iexact TsB1_1
    isplitr; · iexact HRs_B1_1
    isplitl [TrB1_1]; · iexact TrB1_1
    iexact HRr_B1_1
  iintro ⟨CsB1_1, HO⟩
  sl_exec_parts
  -- transfer z phase, half 1, 2 steps on
  ihave #HIs_B1_2 := (inv_dC m K c 0 1 (zj c 2)) $$ HI
  ihave #HIr_B1_2 := (inv_dC m K (zP c 2) 1 1 (zF c)) $$ HI
  ihave #HRs_B1_2 := (reached_dC (F := F) c 0 1 (zj c 2)) $$ HR
  ihave #HRr_B1_2 := (reached_dC (F := F) (zP c 2) 1 1 (zF c)) $$ HR
  iapply (wp_xfer' m c (zP c 2) _ (Mesh.dev12_eq c) 0 1 (zj c 2) 1 1 (zF c) (used0_z2 c) (used1_z2 c) (K (c, some (0, 1, zj c 2))) (K (zP c 2, some (1, 1, zF c)))
      (src := pbSlot (zj c 2) 1) (dst := rbSlot 1 (zF c)) rfl fullShare _ e1z2 (owedFrom c 11) (owedFrom c 12) rfl _
      (to_any c _ _ _) (by rw [hpb (zj c 2) 1, ← rbVal_z2 m c 1]; exact to_holds _ _ _ _)) $$ [Hp1_2 He1z2 HO TsB1_2 TrB1_2]
  · isplitr; · iexact HIs_B1_2
    isplitr; · iexact HIr_B1_2
    isplitl [Hp1_2]; · iexact Hp1_2
    isplitl [He1z2]; · iexact He1z2
    isplitl [HO]; · iexact HO
    isplitl [TsB1_2]; · iexact TsB1_2
    isplitr; · iexact HRs_B1_2
    isplitl [TrB1_2]; · iexact TrB1_2
    iexact HRr_B1_2
  iintro ⟨CsB1_2, HO⟩
  sl_exec_parts
  -- transfer z phase, half 1, 3 steps on
  ihave #HIs_B1_3 := (inv_dC m K c 0 1 (zj c 3)) $$ HI
  ihave #HIr_B1_3 := (inv_dC m K (zP c 3) 1 1 (zF c)) $$ HI
  ihave #HRs_B1_3 := (reached_dC (F := F) c 0 1 (zj c 3)) $$ HR
  ihave #HRr_B1_3 := (reached_dC (F := F) (zP c 3) 1 1 (zF c)) $$ HR
  iapply (wp_xfer' m c (zP c 3) _ (Mesh.dev13_eq c) 0 1 (zj c 3) 1 1 (zF c) (used0_z3 c) (used1_z3 c) (K (c, some (0, 1, zj c 3))) (K (zP c 3, some (1, 1, zF c)))
      (src := pbSlot (zj c 3) 1) (dst := rbSlot 1 (zF c)) rfl fullShare _ e1z3 (owedFrom c 12) (owedFrom c 13) rfl _
      (to_any c _ _ _) (by rw [hpb (zj c 3) 1, ← rbVal_z3 m c 1]; exact to_holds _ _ _ _)) $$ [Hp1_3 He1z3 HO TsB1_3 TrB1_3]
  · isplitr; · iexact HIs_B1_3
    isplitr; · iexact HIr_B1_3
    isplitl [Hp1_3]; · iexact Hp1_3
    isplitl [He1z3]; · iexact He1z3
    isplitl [HO]; · iexact HO
    isplitl [TsB1_3]; · iexact TsB1_3
    isplitr; · iexact HRs_B1_3
    isplitl [TrB1_3]; · iexact TrB1_3
    iexact HRr_B1_3
  iintro ⟨CsB1_3, HO⟩
  sl_exec_parts
  -- wait: z phase half 0, from 1 steps on
  ihave #HIw_bR0_1 := (inv_dC m K c 1 0 (zj c 1)) $$ HI
  iapply (wp_dmawait m c 1 0 (zj c 1) (used1_own_z1 c) (K (c, some (1, 0, zj c 1))) (owedFrom c 13) _ (dst := rbSlot 0 (zj c 1)) rfl) $$ [CrB0_1 HO At10_1]
  · isplitr; · iexact HIw_bR0_1
    isplitl [CrB0_1]; · iexact CrB0_1
    isplitl [HO]; · iexact HO
    isplitr; · iapply (mayWait_bR c 0 (zj c 1) 13 (by decide)); iexact Hlev
    iexact At10_1
  rw [show dmaPay m c 1 0 (zj c 1) = holds c (rbSlot 0 (zj c 1)) (rbVal m c 0 (zj c 1)) from rfl]
  unfold holds slotPts
  iintro ⟨HO, At10_1, #Hr1_bR0_1, ⟨%fb0_1, Hb0_1, %hfb0_1⟩⟩
  sl_exec_parts
  -- wait: z phase half 0, from 2 steps on
  ihave #HIw_bR0_2 := (inv_dC m K c 1 0 (zj c 2)) $$ HI
  iapply (wp_dmawait m c 1 0 (zj c 2) (used1_own_z2 c) (K (c, some (1, 0, zj c 2))) (owedFrom c 13) _ (dst := rbSlot 0 (zj c 2)) rfl) $$ [CrB0_2 HO At10_2]
  · isplitr; · iexact HIw_bR0_2
    isplitl [CrB0_2]; · iexact CrB0_2
    isplitl [HO]; · iexact HO
    isplitr; · iapply (mayWait_bR c 0 (zj c 2) 13 (by decide)); iexact Hlev
    iexact At10_2
  rw [show dmaPay m c 1 0 (zj c 2) = holds c (rbSlot 0 (zj c 2)) (rbVal m c 0 (zj c 2)) from rfl]
  unfold holds slotPts
  iintro ⟨HO, At10_2, #Hr1_bR0_2, ⟨%fb0_2, Hb0_2, %hfb0_2⟩⟩
  sl_exec_parts
  -- wait: z phase half 0, from 3 steps on
  ihave #HIw_bR0_3 := (inv_dC m K c 1 0 (zj c 3)) $$ HI
  iapply (wp_dmawait m c 1 0 (zj c 3) (used1_own_z3 c) (K (c, some (1, 0, zj c 3))) (owedFrom c 13) _ (dst := rbSlot 0 (zj c 3)) rfl) $$ [CrB0_3 HO At10_3]
  · isplitr; · iexact HIw_bR0_3
    isplitl [CrB0_3]; · iexact CrB0_3
    isplitl [HO]; · iexact HO
    isplitr; · iapply (mayWait_bR c 0 (zj c 3) 13 (by decide)); iexact Hlev
    iexact At10_3
  rw [show dmaPay m c 1 0 (zj c 3) = holds c (rbSlot 0 (zj c 3)) (rbVal m c 0 (zj c 3)) from rfl]
  unfold holds slotPts
  iintro ⟨HO, At10_3, #Hr1_bR0_3, ⟨%fb0_3, Hb0_3, %hfb0_3⟩⟩
  sl_exec_parts
  -- the sum of half 0: its slot, then its four lent shares
  generalize hF1 : (Memref.whole cc0_scratch1).view.writes (Elt F) f1 _ = F1
  have hred0 : (redSlot 0).view.read (Elt F) F1 = red2 m c 0 := by
    subst hF1; exact red0_fact m c F0 hpb fb0_1 fb0_2 fb0_3 hfb0_1 hfb0_2 hfb0_3 f1
  ihave Hr := (Entails.of_eq (red_two c F1)) $$ HRed
  icases Hr with ⟨Hred0, Hred1⟩
  unfold slotPts
  ihave Hr0 := (red_split' c 0 F1) $$ Hred0
  icases Hr0 with ⟨Hred0_k, Hred0_q0, Hred0_q1, Hred0_q2, Hred0_q3⟩
  -- transfer y phase, half 0, 1 steps on
  ihave #HIs_C0_1 := (inv_dC m K c 2 0 (yj c 1)) $$ HI
  ihave #HIr_C0_1 := (inv_dC m K (yP c 1) 3 0 (yF c)) $$ HI
  ihave #HRs_C0_1 := (reached_dC (F := F) c 2 0 (yj c 1)) $$ HR
  ihave #HRr_C0_1 := (reached_dC (F := F) (yP c 1) 3 0 (yF c)) $$ HR
  iapply (wp_xfer' m c (yP c 1) _ (Mesh.dev14_eq c) 2 0 (yj c 1) 3 0 (yF c) (used2_y1 c) (used3_y1 c) (K (c, some (2, 0, yj c 1))) (K (yP c 1, some (3, 0, yF c)))
      (src := redSlot 0) (dst := r1Slot 0 (yF c)) rfl (qS (yj c 1)) F1 e0y1 (owedFrom c 13) (owedFrom c 14) rfl _
      (to_any c _ _ _) (by rw [hred0, ← red2_y1 m c 0]; exact to_holds _ _ _ _)) $$ [Hred0_q1 He0y1 HO TsC0_1 TrC0_1]
  · isplitr; · iexact HIs_C0_1
    isplitr; · iexact HIr_C0_1
    isplitl [Hred0_q1]; · iexact Hred0_q1
    isplitl [He0y1]; · iexact He0y1
    isplitl [HO]; · iexact HO
    isplitl [TsC0_1]; · iexact TsC0_1
    isplitr; · iexact HRs_C0_1
    isplitl [TrC0_1]; · iexact TrC0_1
    iexact HRr_C0_1
  iintro ⟨CsC0_1, HO⟩
  sl_exec_parts
  -- transfer y phase, half 0, 2 steps on
  ihave #HIs_C0_2 := (inv_dC m K c 2 0 (yj c 2)) $$ HI
  ihave #HIr_C0_2 := (inv_dC m K (yP c 2) 3 0 (yF c)) $$ HI
  ihave #HRs_C0_2 := (reached_dC (F := F) c 2 0 (yj c 2)) $$ HR
  ihave #HRr_C0_2 := (reached_dC (F := F) (yP c 2) 3 0 (yF c)) $$ HR
  iapply (wp_xfer' m c (yP c 2) _ (Mesh.dev15_eq c) 2 0 (yj c 2) 3 0 (yF c) (used2_y2 c) (used3_y2 c) (K (c, some (2, 0, yj c 2))) (K (yP c 2, some (3, 0, yF c)))
      (src := redSlot 0) (dst := r1Slot 0 (yF c)) rfl (qS (yj c 2)) F1 e0y2 (owedFrom c 14) (owedFrom c 15) rfl _
      (to_any c _ _ _) (by rw [hred0, ← red2_y2 m c 0]; exact to_holds _ _ _ _)) $$ [Hred0_q2 He0y2 HO TsC0_2 TrC0_2]
  · isplitr; · iexact HIs_C0_2
    isplitr; · iexact HIr_C0_2
    isplitl [Hred0_q2]; · iexact Hred0_q2
    isplitl [He0y2]; · iexact He0y2
    isplitl [HO]; · iexact HO
    isplitl [TsC0_2]; · iexact TsC0_2
    isplitr; · iexact HRs_C0_2
    isplitl [TrC0_2]; · iexact TrC0_2
    iexact HRr_C0_2
  iintro ⟨CsC0_2, HO⟩
  sl_exec_parts
  -- transfer y phase, half 0, 3 steps on
  ihave #HIs_C0_3 := (inv_dC m K c 2 0 (yj c 3)) $$ HI
  ihave #HIr_C0_3 := (inv_dC m K (yP c 3) 3 0 (yF c)) $$ HI
  ihave #HRs_C0_3 := (reached_dC (F := F) c 2 0 (yj c 3)) $$ HR
  ihave #HRr_C0_3 := (reached_dC (F := F) (yP c 3) 3 0 (yF c)) $$ HR
  iapply (wp_xfer' m c (yP c 3) _ (Mesh.dev16_eq c) 2 0 (yj c 3) 3 0 (yF c) (used2_y3 c) (used3_y3 c) (K (c, some (2, 0, yj c 3))) (K (yP c 3, some (3, 0, yF c)))
      (src := redSlot 0) (dst := r1Slot 0 (yF c)) rfl (qS (yj c 3)) F1 e0y3 (owedFrom c 15) (owedFrom c 16) rfl _
      (to_any c _ _ _) (by rw [hred0, ← red2_y3 m c 0]; exact to_holds _ _ _ _)) $$ [Hred0_q3 He0y3 HO TsC0_3 TrC0_3]
  · isplitr; · iexact HIs_C0_3
    isplitr; · iexact HIr_C0_3
    isplitl [Hred0_q3]; · iexact Hred0_q3
    isplitl [He0y3]; · iexact He0y3
    isplitl [HO]; · iexact HO
    isplitl [TsC0_3]; · iexact TsC0_3
    isplitr; · iexact HRs_C0_3
    isplitl [TrC0_3]; · iexact TrC0_3
    iexact HRr_C0_3
  iintro ⟨CsC0_3, HO⟩
  sl_exec_parts
  -- transfer x phase, half 0, direct
  ihave #HIs_X0 := (inv_dC m K c 4 0 (yF c)) $$ HI
  ihave #HIr_X0 := (inv_dC m K (xP c) 5 0 (yF c)) $$ HI
  ihave #HRs_X0 := (reached_dC (F := F) c 4 0 (yF c)) $$ HR
  ihave #HRr_X0 := (reached_dC (F := F) (xP c) 5 0 (yF c)) $$ HR
  iapply (wp_xfer' m c (xP c) _ (Mesh.dev17_eq c) 4 0 (yF c) 5 0 (yF c) (used4 c _) (used5 (xP c) _) (K (c, some (4, 0, yF c))) (K (xP c, some (5, 0, yF c)))
      (src := redSlot 0) (dst := r2Slot 0 (yF c)) rfl (qS (yF c)) F1 e0x0 (owedFrom c 16) (owedFrom c 17) rfl _
      (by rw [show dmaPay m c 4 0 (yF c) = anyPts c (redSlot 0) (qS (yF c)) from if_pos rfl]; exact to_any c _ _ _) (by rw [hred0, ← red2_x m c 0]; exact to_holds _ _ _ _)) $$ [Hred0_q0 He0x_0 HO TsX0 TrX0]
  · isplitr; · iexact HIs_X0
    isplitr; · iexact HIr_X0
    isplitl [Hred0_q0]; · iexact Hred0_q0
    isplitl [He0x_0]; · iexact He0x_0
    isplitl [HO]; · iexact HO
    isplitl [TsX0]; · iexact TsX0
    isplitr; · iexact HRs_X0
    isplitl [TrX0]; · iexact TrX0
    iexact HRr_X0
  iintro ⟨CsX0, HO⟩
  sl_exec_parts
  -- wait: y phase half 0, from 1 steps on
  ihave #HIw_c1R0_1 := (inv_dC m K c 3 0 (yj c 1)) $$ HI
  iapply (wp_dmawait m c 3 0 (yj c 1) (used3_own_y1 c) (K (c, some (3, 0, yj c 1))) (owedFrom c 17) _ (dst := r1Slot 0 (yj c 1)) rfl) $$ [CrC0_1 HO At30_1]
  · isplitr; · iexact HIw_c1R0_1
    isplitl [CrC0_1]; · iexact CrC0_1
    isplitl [HO]; · iexact HO
    isplitr; · iapply (mayWait_c1R0 c (yj c 1) 17 (by decide)); iexact Hlev
    iexact At30_1
  rw [show dmaPay m c 3 0 (yj c 1) = holds c (r1Slot 0 (yj c 1)) (red2 m (atY c (yj c 1)) 0) from rfl]
  unfold holds slotPts
  iintro ⟨HO, At30_1, #Hr1_c1R0_1, ⟨%fc0_1, Hc0_1, %hfc0_1⟩⟩
  ihave Hsh := (r1_split' c 0 (yj c 1) fc0_1) $$ Hc0_1
  icases Hsh with ⟨Hc0_1, Hc0_1q⟩
  sl_exec_parts
  -- transfer x phase, half 0, relay of 1 steps on
  ihave #HIs_R0_1 := (inv_dC m K c 4 0 (yj c 1)) $$ HI
  ihave #HIr_R0_1 := (inv_dC m K (xP c) 5 0 (yj c 1)) $$ HI
  ihave #HRs_R0_1 := (reached_dC (F := F) c 4 0 (yj c 1)) $$ HR
  ihave #HRr_R0_1 := (reached_dC (F := F) (xP c) 5 0 (yj c 1)) $$ HR
  iapply (wp_xfer' m c (xP c) _ (Mesh.dev18_eq c) 4 0 (yj c 1) 5 0 (yj c 1) (used4 c _) (used5 (xP c) _) (K (c, some (4, 0, yj c 1))) (K (xP c, some (5, 0, yj c 1)))
      (src := r1Slot 0 (yj c 1)) (dst := r2Slot 0 (yj c 1)) rfl qR fc0_1 e0x1 (owedFrom c 17) (owedFrom c 18) rfl _
      (by rw [show dmaPay m c 4 0 (yj c 1) = anyPts c (r1Slot 0 (yj c 1)) qR from if_neg (yj_ne_yF1 c)]; exact to_any c _ _ _) (by rw [hfc0_1, ← red2_xr1 m c 0]; exact to_holds _ _ _ _)) $$ [Hc0_1q He0x_1 HO TsR0_1 TrR0_1]
  · isplitr; · iexact HIs_R0_1
    isplitr; · iexact HIr_R0_1
    isplitl [Hc0_1q]; · iexact Hc0_1q
    isplitl [He0x_1]; · iexact He0x_1
    isplitl [HO]; · iexact HO
    isplitl [TsR0_1]; · iexact TsR0_1
    isplitr; · iexact HRs_R0_1
    isplitl [TrR0_1]; · iexact TrR0_1
    iexact HRr_R0_1
  iintro ⟨CsR0_1, HO⟩
  sl_exec_parts
  -- wait: y phase half 0, from 2 steps on
  ihave #HIw_c1R0_2 := (inv_dC m K c 3 0 (yj c 2)) $$ HI
  iapply (wp_dmawait m c 3 0 (yj c 2) (used3_own_y2 c) (K (c, some (3, 0, yj c 2))) (owedFrom c 18) _ (dst := r1Slot 0 (yj c 2)) rfl) $$ [CrC0_2 HO At30_2]
  · isplitr; · iexact HIw_c1R0_2
    isplitl [CrC0_2]; · iexact CrC0_2
    isplitl [HO]; · iexact HO
    isplitr; · iapply (mayWait_c1R0 c (yj c 2) 18 (by decide)); iexact Hlev
    iexact At30_2
  rw [show dmaPay m c 3 0 (yj c 2) = holds c (r1Slot 0 (yj c 2)) (red2 m (atY c (yj c 2)) 0) from rfl]
  unfold holds slotPts
  iintro ⟨HO, At30_2, #Hr1_c1R0_2, ⟨%fc0_2, Hc0_2, %hfc0_2⟩⟩
  ihave Hsh := (r1_split' c 0 (yj c 2) fc0_2) $$ Hc0_2
  icases Hsh with ⟨Hc0_2, Hc0_2q⟩
  sl_exec_parts
  -- transfer x phase, half 0, relay of 2 steps on
  ihave #HIs_R0_2 := (inv_dC m K c 4 0 (yj c 2)) $$ HI
  ihave #HIr_R0_2 := (inv_dC m K (xP c) 5 0 (yj c 2)) $$ HI
  ihave #HRs_R0_2 := (reached_dC (F := F) c 4 0 (yj c 2)) $$ HR
  ihave #HRr_R0_2 := (reached_dC (F := F) (xP c) 5 0 (yj c 2)) $$ HR
  iapply (wp_xfer' m c (xP c) _ (Mesh.dev19_eq c) 4 0 (yj c 2) 5 0 (yj c 2) (used4 c _) (used5 (xP c) _) (K (c, some (4, 0, yj c 2))) (K (xP c, some (5, 0, yj c 2)))
      (src := r1Slot 0 (yj c 2)) (dst := r2Slot 0 (yj c 2)) rfl qR fc0_2 e0x2 (owedFrom c 18) (owedFrom c 19) rfl _
      (by rw [show dmaPay m c 4 0 (yj c 2) = anyPts c (r1Slot 0 (yj c 2)) qR from if_neg (yj_ne_yF2 c)]; exact to_any c _ _ _) (by rw [hfc0_2, ← red2_xr2 m c 0]; exact to_holds _ _ _ _)) $$ [Hc0_2q He0x_2 HO TsR0_2 TrR0_2]
  · isplitr; · iexact HIs_R0_2
    isplitr; · iexact HIr_R0_2
    isplitl [Hc0_2q]; · iexact Hc0_2q
    isplitl [He0x_2]; · iexact He0x_2
    isplitl [HO]; · iexact HO
    isplitl [TsR0_2]; · iexact TsR0_2
    isplitr; · iexact HRs_R0_2
    isplitl [TrR0_2]; · iexact TrR0_2
    iexact HRr_R0_2
  iintro ⟨CsR0_2, HO⟩
  sl_exec_parts
  -- wait: y phase half 0, from 3 steps on
  ihave #HIw_c1R0_3 := (inv_dC m K c 3 0 (yj c 3)) $$ HI
  iapply (wp_dmawait m c 3 0 (yj c 3) (used3_own_y3 c) (K (c, some (3, 0, yj c 3))) (owedFrom c 19) _ (dst := r1Slot 0 (yj c 3)) rfl) $$ [CrC0_3 HO At30_3]
  · isplitr; · iexact HIw_c1R0_3
    isplitl [CrC0_3]; · iexact CrC0_3
    isplitl [HO]; · iexact HO
    isplitr; · iapply (mayWait_c1R0 c (yj c 3) 19 (by decide)); iexact Hlev
    iexact At30_3
  rw [show dmaPay m c 3 0 (yj c 3) = holds c (r1Slot 0 (yj c 3)) (red2 m (atY c (yj c 3)) 0) from rfl]
  unfold holds slotPts
  iintro ⟨HO, At30_3, #Hr1_c1R0_3, ⟨%fc0_3, Hc0_3, %hfc0_3⟩⟩
  ihave Hsh := (r1_split' c 0 (yj c 3) fc0_3) $$ Hc0_3
  icases Hsh with ⟨Hc0_3, Hc0_3q⟩
  sl_exec_parts
  -- transfer x phase, half 0, relay of 3 steps on
  ihave #HIs_R0_3 := (inv_dC m K c 4 0 (yj c 3)) $$ HI
  ihave #HIr_R0_3 := (inv_dC m K (xP c) 5 0 (yj c 3)) $$ HI
  ihave #HRs_R0_3 := (reached_dC (F := F) c 4 0 (yj c 3)) $$ HR
  ihave #HRr_R0_3 := (reached_dC (F := F) (xP c) 5 0 (yj c 3)) $$ HR
  iapply (wp_xfer' m c (xP c) _ (Mesh.dev20_eq c) 4 0 (yj c 3) 5 0 (yj c 3) (used4 c _) (used5 (xP c) _) (K (c, some (4, 0, yj c 3))) (K (xP c, some (5, 0, yj c 3)))
      (src := r1Slot 0 (yj c 3)) (dst := r2Slot 0 (yj c 3)) rfl qR fc0_3 e0x3 (owedFrom c 19) (owedFrom c 20) rfl _
      (by rw [show dmaPay m c 4 0 (yj c 3) = anyPts c (r1Slot 0 (yj c 3)) qR from if_neg (yj_ne_yF3 c)]; exact to_any c _ _ _) (by rw [hfc0_3, ← red2_xr3 m c 0]; exact to_holds _ _ _ _)) $$ [Hc0_3q He0x_3 HO TsR0_3 TrR0_3]
  · isplitr; · iexact HIs_R0_3
    isplitr; · iexact HIr_R0_3
    isplitl [Hc0_3q]; · iexact Hc0_3q
    isplitl [He0x_3]; · iexact He0x_3
    isplitl [HO]; · iexact HO
    isplitl [TsR0_3]; · iexact TsR0_3
    isplitr; · iexact HRs_R0_3
    isplitl [TrR0_3]; · iexact TrR0_3
    iexact HRr_R0_3
  iintro ⟨CsR0_3, HO⟩
  sl_exec_parts
  -- wait: z phase half 1, from 1 steps on
  ihave #HIw_bR1_1 := (inv_dC m K c 1 1 (zj c 1)) $$ HI
  iapply (wp_dmawait m c 1 1 (zj c 1) (used1_own_z1 c) (K (c, some (1, 1, zj c 1))) (owedFrom c 20) _ (dst := rbSlot 1 (zj c 1)) rfl) $$ [CrB1_1 HO At11_1]
  · isplitr; · iexact HIw_bR1_1
    isplitl [CrB1_1]; · iexact CrB1_1
    isplitl [HO]; · iexact HO
    isplitr; · iapply (mayWait_bR c 1 (zj c 1) 20 (by decide)); iexact Hlev
    iexact At11_1
  rw [show dmaPay m c 1 1 (zj c 1) = holds c (rbSlot 1 (zj c 1)) (rbVal m c 1 (zj c 1)) from rfl]
  unfold holds slotPts
  iintro ⟨HO, At11_1, #Hr1_bR1_1, ⟨%fb1_1, Hb1_1, %hfb1_1⟩⟩
  sl_exec_parts
  -- wait: z phase half 1, from 2 steps on
  ihave #HIw_bR1_2 := (inv_dC m K c 1 1 (zj c 2)) $$ HI
  iapply (wp_dmawait m c 1 1 (zj c 2) (used1_own_z2 c) (K (c, some (1, 1, zj c 2))) (owedFrom c 20) _ (dst := rbSlot 1 (zj c 2)) rfl) $$ [CrB1_2 HO At11_2]
  · isplitr; · iexact HIw_bR1_2
    isplitl [CrB1_2]; · iexact CrB1_2
    isplitl [HO]; · iexact HO
    isplitr; · iapply (mayWait_bR c 1 (zj c 2) 20 (by decide)); iexact Hlev
    iexact At11_2
  rw [show dmaPay m c 1 1 (zj c 2) = holds c (rbSlot 1 (zj c 2)) (rbVal m c 1 (zj c 2)) from rfl]
  unfold holds slotPts
  iintro ⟨HO, At11_2, #Hr1_bR1_2, ⟨%fb1_2, Hb1_2, %hfb1_2⟩⟩
  sl_exec_parts
  -- wait: z phase half 1, from 3 steps on
  ihave #HIw_bR1_3 := (inv_dC m K c 1 1 (zj c 3)) $$ HI
  iapply (wp_dmawait m c 1 1 (zj c 3) (used1_own_z3 c) (K (c, some (1, 1, zj c 3))) (owedFrom c 20) _ (dst := rbSlot 1 (zj c 3)) rfl) $$ [CrB1_3 HO At11_3]
  · isplitr; · iexact HIw_bR1_3
    isplitl [CrB1_3]; · iexact CrB1_3
    isplitl [HO]; · iexact HO
    isplitr; · iapply (mayWait_bR c 1 (zj c 3) 20 (by decide)); iexact Hlev
    iexact At11_3
  rw [show dmaPay m c 1 1 (zj c 3) = holds c (rbSlot 1 (zj c 3)) (rbVal m c 1 (zj c 3)) from rfl]
  unfold holds slotPts
  iintro ⟨HO, At11_3, #Hr1_bR1_3, ⟨%fb1_3, Hb1_3, %hfb1_3⟩⟩
  sl_exec_parts
  -- the sum of half 1: its slot, then its four lent shares
  ihave Hn1 := (name_it _) $$ Hred1
  icases Hn1 with ⟨%F1', %hF1', Hred1⟩
  have hred1 : (redSlot 1).view.read (Elt F) F1' = red2 m c 1 := by
    rw [hF1']; exact red1_fact m c F0 hpb fb1_1 fb1_2 fb1_3 hfb1_1 hfb1_2 hfb1_3 F1
  ihave Hr1 := (red_split' c 1 F1') $$ Hred1
  icases Hr1 with ⟨Hred1_k, Hred1_q0, Hred1_q1, Hred1_q2, Hred1_q3⟩
  -- transfer y phase, half 1, 1 steps on
  ihave #HIs_C1_1 := (inv_dC m K c 2 1 (yj c 1)) $$ HI
  ihave #HIr_C1_1 := (inv_dC m K (yP c 1) 3 1 (yF c)) $$ HI
  ihave #HRs_C1_1 := (reached_dC (F := F) c 2 1 (yj c 1)) $$ HR
  ihave #HRr_C1_1 := (reached_dC (F := F) (yP c 1) 3 1 (yF c)) $$ HR
  iapply (wp_xfer' m c (yP c 1) _ (Mesh.dev21_eq c) 2 1 (yj c 1) 3 1 (yF c) (used2_y1 c) (used3_y1 c) (K (c, some (2, 1, yj c 1))) (K (yP c 1, some (3, 1, yF c)))
      (src := redSlot 1) (dst := r1Slot 1 (yF c)) rfl (qS (yj c 1)) F1' e1y1 (owedFrom c 20) (owedFrom c 21) rfl _
      (to_any c _ _ _) (by rw [hred1, ← red2_y1 m c 1]; exact to_holds _ _ _ _)) $$ [Hred1_q1 He1y1 HO TsC1_1 TrC1_1]
  · isplitr; · iexact HIs_C1_1
    isplitr; · iexact HIr_C1_1
    isplitl [Hred1_q1]; · iexact Hred1_q1
    isplitl [He1y1]; · iexact He1y1
    isplitl [HO]; · iexact HO
    isplitl [TsC1_1]; · iexact TsC1_1
    isplitr; · iexact HRs_C1_1
    isplitl [TrC1_1]; · iexact TrC1_1
    iexact HRr_C1_1
  iintro ⟨CsC1_1, HO⟩
  sl_exec_parts
  -- transfer y phase, half 1, 2 steps on
  ihave #HIs_C1_2 := (inv_dC m K c 2 1 (yj c 2)) $$ HI
  ihave #HIr_C1_2 := (inv_dC m K (yP c 2) 3 1 (yF c)) $$ HI
  ihave #HRs_C1_2 := (reached_dC (F := F) c 2 1 (yj c 2)) $$ HR
  ihave #HRr_C1_2 := (reached_dC (F := F) (yP c 2) 3 1 (yF c)) $$ HR
  iapply (wp_xfer' m c (yP c 2) _ (Mesh.dev22_eq c) 2 1 (yj c 2) 3 1 (yF c) (used2_y2 c) (used3_y2 c) (K (c, some (2, 1, yj c 2))) (K (yP c 2, some (3, 1, yF c)))
      (src := redSlot 1) (dst := r1Slot 1 (yF c)) rfl (qS (yj c 2)) F1' e1y2 (owedFrom c 21) (owedFrom c 22) rfl _
      (to_any c _ _ _) (by rw [hred1, ← red2_y2 m c 1]; exact to_holds _ _ _ _)) $$ [Hred1_q2 He1y2 HO TsC1_2 TrC1_2]
  · isplitr; · iexact HIs_C1_2
    isplitr; · iexact HIr_C1_2
    isplitl [Hred1_q2]; · iexact Hred1_q2
    isplitl [He1y2]; · iexact He1y2
    isplitl [HO]; · iexact HO
    isplitl [TsC1_2]; · iexact TsC1_2
    isplitr; · iexact HRs_C1_2
    isplitl [TrC1_2]; · iexact TrC1_2
    iexact HRr_C1_2
  iintro ⟨CsC1_2, HO⟩
  sl_exec_parts
  -- transfer y phase, half 1, 3 steps on
  ihave #HIs_C1_3 := (inv_dC m K c 2 1 (yj c 3)) $$ HI
  ihave #HIr_C1_3 := (inv_dC m K (yP c 3) 3 1 (yF c)) $$ HI
  ihave #HRs_C1_3 := (reached_dC (F := F) c 2 1 (yj c 3)) $$ HR
  ihave #HRr_C1_3 := (reached_dC (F := F) (yP c 3) 3 1 (yF c)) $$ HR
  iapply (wp_xfer' m c (yP c 3) _ (Mesh.dev23_eq c) 2 1 (yj c 3) 3 1 (yF c) (used2_y3 c) (used3_y3 c) (K (c, some (2, 1, yj c 3))) (K (yP c 3, some (3, 1, yF c)))
      (src := redSlot 1) (dst := r1Slot 1 (yF c)) rfl (qS (yj c 3)) F1' e1y3 (owedFrom c 22) (owedFrom c 23) rfl _
      (to_any c _ _ _) (by rw [hred1, ← red2_y3 m c 1]; exact to_holds _ _ _ _)) $$ [Hred1_q3 He1y3 HO TsC1_3 TrC1_3]
  · isplitr; · iexact HIs_C1_3
    isplitr; · iexact HIr_C1_3
    isplitl [Hred1_q3]; · iexact Hred1_q3
    isplitl [He1y3]; · iexact He1y3
    isplitl [HO]; · iexact HO
    isplitl [TsC1_3]; · iexact TsC1_3
    isplitr; · iexact HRs_C1_3
    isplitl [TrC1_3]; · iexact TrC1_3
    iexact HRr_C1_3
  iintro ⟨CsC1_3, HO⟩
  sl_exec_parts
  -- transfer x phase, half 1, direct
  ihave #HIs_X1 := (inv_dC m K c 4 1 (yF c)) $$ HI
  ihave #HIr_X1 := (inv_dC m K (xP c) 5 1 (yF c)) $$ HI
  ihave #HRs_X1 := (reached_dC (F := F) c 4 1 (yF c)) $$ HR
  ihave #HRr_X1 := (reached_dC (F := F) (xP c) 5 1 (yF c)) $$ HR
  iapply (wp_xfer' m c (xP c) _ (Mesh.dev24_eq c) 4 1 (yF c) 5 1 (yF c) (used4 c _) (used5 (xP c) _) (K (c, some (4, 1, yF c))) (K (xP c, some (5, 1, yF c)))
      (src := redSlot 1) (dst := r2Slot 1 (yF c)) rfl (qS (yF c)) F1' e1x0 (owedFrom c 23) (owedFrom c 24) rfl _
      (by rw [show dmaPay m c 4 1 (yF c) = anyPts c (redSlot 1) (qS (yF c)) from if_pos rfl]; exact to_any c _ _ _) (by rw [hred1, ← red2_x m c 1]; exact to_holds _ _ _ _)) $$ [Hred1_q0 He1x_0 HO TsX1 TrX1]
  · isplitr; · iexact HIs_X1
    isplitr; · iexact HIr_X1
    isplitl [Hred1_q0]; · iexact Hred1_q0
    isplitl [He1x_0]; · iexact He1x_0
    isplitl [HO]; · iexact HO
    isplitl [TsX1]; · iexact TsX1
    isplitr; · iexact HRs_X1
    isplitl [TrX1]; · iexact TrX1
    iexact HRr_X1
  iintro ⟨CsX1, HO⟩
  sl_exec_parts
  -- wait: x phase half 0, slot 0
  ihave #HIw_c2R0_0 := (inv_dC m K c 5 0 (0)) $$ HI
  iapply (wp_dmawait m c 5 0 (0) (used5 c _) (K (c, some (5, 0, 0))) (owedFrom c 24) _ (dst := r2Slot 0 0) rfl) $$ [CrX0_0 HO At50_0]
  · isplitr; · iexact HIw_c2R0_0
    isplitl [CrX0_0]; · iexact CrX0_0
    isplitl [HO]; · iexact HO
    isplitr; · iapply (mayWait_c2R0 c 0 24 (by decide)); iexact Hlev
    iexact At50_0
  rw [show dmaPay m c 5 0 (0) = holds c (r2Slot 0 0) (red2 m (atXY c 0) 0) from rfl]
  unfold holds slotPts
  iintro ⟨HO, At50_0, #Hr1_c2R0_0, ⟨%fd0_0, Hd0_0, %hfd0_0⟩⟩
  sl_exec_parts
  -- wait: x phase half 0, slot 1
  ihave #HIw_c2R0_1 := (inv_dC m K c 5 0 (1)) $$ HI
  iapply (wp_dmawait m c 5 0 (1) (used5 c _) (K (c, some (5, 0, 1))) (owedFrom c 24) _ (dst := r2Slot 0 1) rfl) $$ [CrX0_1 HO At50_1]
  · isplitr; · iexact HIw_c2R0_1
    isplitl [CrX0_1]; · iexact CrX0_1
    isplitl [HO]; · iexact HO
    isplitr; · iapply (mayWait_c2R0 c 1 24 (by decide)); iexact Hlev
    iexact At50_1
  rw [show dmaPay m c 5 0 (1) = holds c (r2Slot 0 1) (red2 m (atXY c 1) 0) from rfl]
  unfold holds slotPts
  iintro ⟨HO, At50_1, #Hr1_c2R0_1, ⟨%fd0_1, Hd0_1, %hfd0_1⟩⟩
  sl_exec_parts
  -- wait: x phase half 0, slot 2
  ihave #HIw_c2R0_2 := (inv_dC m K c 5 0 (2)) $$ HI
  iapply (wp_dmawait m c 5 0 (2) (used5 c _) (K (c, some (5, 0, 2))) (owedFrom c 24) _ (dst := r2Slot 0 2) rfl) $$ [CrX0_2 HO At50_2]
  · isplitr; · iexact HIw_c2R0_2
    isplitl [CrX0_2]; · iexact CrX0_2
    isplitl [HO]; · iexact HO
    isplitr; · iapply (mayWait_c2R0 c 2 24 (by decide)); iexact Hlev
    iexact At50_2
  rw [show dmaPay m c 5 0 (2) = holds c (r2Slot 0 2) (red2 m (atXY c 2) 0) from rfl]
  unfold holds slotPts
  iintro ⟨HO, At50_2, #Hr1_c2R0_2, ⟨%fd0_2, Hd0_2, %hfd0_2⟩⟩
  sl_exec_parts
  -- wait: x phase half 0, slot 3
  ihave #HIw_c2R0_3 := (inv_dC m K c 5 0 (3)) $$ HI
  iapply (wp_dmawait m c 5 0 (3) (used5 c _) (K (c, some (5, 0, 3))) (owedFrom c 24) _ (dst := r2Slot 0 3) rfl) $$ [CrX0_3 HO At50_3]
  · isplitr; · iexact HIw_c2R0_3
    isplitl [CrX0_3]; · iexact CrX0_3
    isplitl [HO]; · iexact HO
    isplitr; · iapply (mayWait_c2R0 c 3 24 (by decide)); iexact Hlev
    iexact At50_3
  rw [show dmaPay m c 5 0 (3) = holds c (r2Slot 0 3) (red2 m (atXY c 3) 0) from rfl]
  unfold holds slotPts
  iintro ⟨HO, At50_3, #Hr1_c2R0_3, ⟨%fd0_3, Hd0_3, %hfd0_3⟩⟩
  sl_exec_parts
  -- wait: y phase half 1, from 1 steps on
  ihave #HIw_c1R1_1 := (inv_dC m K c 3 1 (yj c 1)) $$ HI
  iapply (wp_dmawait m c 3 1 (yj c 1) (used3_own_y1 c) (K (c, some (3, 1, yj c 1))) (owedFrom c 24) _ (dst := r1Slot 1 (yj c 1)) rfl) $$ [CrC1_1 HO At31_1]
  · isplitr; · iexact HIw_c1R1_1
    isplitl [CrC1_1]; · iexact CrC1_1
    isplitl [HO]; · iexact HO
    isplitr; · iapply (mayWait_c1R1 c (yj c 1) 24 (by decide)); iexact Hlev
    iexact At31_1
  rw [show dmaPay m c 3 1 (yj c 1) = holds c (r1Slot 1 (yj c 1)) (red2 m (atY c (yj c 1)) 1) from rfl]
  unfold holds slotPts
  iintro ⟨HO, At31_1, #Hr1_c1R1_1, ⟨%fc1_1, Hc1_1, %hfc1_1⟩⟩
  ihave Hsh := (r1_split' c 1 (yj c 1) fc1_1) $$ Hc1_1
  icases Hsh with ⟨Hc1_1, Hc1_1q⟩
  sl_exec_parts
  -- transfer x phase, half 1, relay of 1 steps on
  ihave #HIs_R1_1 := (inv_dC m K c 4 1 (yj c 1)) $$ HI
  ihave #HIr_R1_1 := (inv_dC m K (xP c) 5 1 (yj c 1)) $$ HI
  ihave #HRs_R1_1 := (reached_dC (F := F) c 4 1 (yj c 1)) $$ HR
  ihave #HRr_R1_1 := (reached_dC (F := F) (xP c) 5 1 (yj c 1)) $$ HR
  iapply (wp_xfer' m c (xP c) _ (Mesh.dev25_eq c) 4 1 (yj c 1) 5 1 (yj c 1) (used4 c _) (used5 (xP c) _) (K (c, some (4, 1, yj c 1))) (K (xP c, some (5, 1, yj c 1)))
      (src := r1Slot 1 (yj c 1)) (dst := r2Slot 1 (yj c 1)) rfl qR fc1_1 e1x1 (owedFrom c 24) (owedFrom c 25) rfl _
      (by rw [show dmaPay m c 4 1 (yj c 1) = anyPts c (r1Slot 1 (yj c 1)) qR from if_neg (yj_ne_yF1 c)]; exact to_any c _ _ _) (by rw [hfc1_1, ← red2_xr1 m c 1]; exact to_holds _ _ _ _)) $$ [Hc1_1q He1x_1 HO TsR1_1 TrR1_1]
  · isplitr; · iexact HIs_R1_1
    isplitr; · iexact HIr_R1_1
    isplitl [Hc1_1q]; · iexact Hc1_1q
    isplitl [He1x_1]; · iexact He1x_1
    isplitl [HO]; · iexact HO
    isplitl [TsR1_1]; · iexact TsR1_1
    isplitr; · iexact HRs_R1_1
    isplitl [TrR1_1]; · iexact TrR1_1
    iexact HRr_R1_1
  iintro ⟨CsR1_1, HO⟩
  sl_exec_parts
  -- wait: y phase half 1, from 2 steps on
  ihave #HIw_c1R1_2 := (inv_dC m K c 3 1 (yj c 2)) $$ HI
  iapply (wp_dmawait m c 3 1 (yj c 2) (used3_own_y2 c) (K (c, some (3, 1, yj c 2))) (owedFrom c 25) _ (dst := r1Slot 1 (yj c 2)) rfl) $$ [CrC1_2 HO At31_2]
  · isplitr; · iexact HIw_c1R1_2
    isplitl [CrC1_2]; · iexact CrC1_2
    isplitl [HO]; · iexact HO
    isplitr; · iapply (mayWait_c1R1 c (yj c 2) 25 (by decide)); iexact Hlev
    iexact At31_2
  rw [show dmaPay m c 3 1 (yj c 2) = holds c (r1Slot 1 (yj c 2)) (red2 m (atY c (yj c 2)) 1) from rfl]
  unfold holds slotPts
  iintro ⟨HO, At31_2, #Hr1_c1R1_2, ⟨%fc1_2, Hc1_2, %hfc1_2⟩⟩
  ihave Hsh := (r1_split' c 1 (yj c 2) fc1_2) $$ Hc1_2
  icases Hsh with ⟨Hc1_2, Hc1_2q⟩
  sl_exec_parts
  -- transfer x phase, half 1, relay of 2 steps on
  ihave #HIs_R1_2 := (inv_dC m K c 4 1 (yj c 2)) $$ HI
  ihave #HIr_R1_2 := (inv_dC m K (xP c) 5 1 (yj c 2)) $$ HI
  ihave #HRs_R1_2 := (reached_dC (F := F) c 4 1 (yj c 2)) $$ HR
  ihave #HRr_R1_2 := (reached_dC (F := F) (xP c) 5 1 (yj c 2)) $$ HR
  iapply (wp_xfer' m c (xP c) _ (Mesh.dev26_eq c) 4 1 (yj c 2) 5 1 (yj c 2) (used4 c _) (used5 (xP c) _) (K (c, some (4, 1, yj c 2))) (K (xP c, some (5, 1, yj c 2)))
      (src := r1Slot 1 (yj c 2)) (dst := r2Slot 1 (yj c 2)) rfl qR fc1_2 e1x2 (owedFrom c 25) (owedFrom c 26) rfl _
      (by rw [show dmaPay m c 4 1 (yj c 2) = anyPts c (r1Slot 1 (yj c 2)) qR from if_neg (yj_ne_yF2 c)]; exact to_any c _ _ _) (by rw [hfc1_2, ← red2_xr2 m c 1]; exact to_holds _ _ _ _)) $$ [Hc1_2q He1x_2 HO TsR1_2 TrR1_2]
  · isplitr; · iexact HIs_R1_2
    isplitr; · iexact HIr_R1_2
    isplitl [Hc1_2q]; · iexact Hc1_2q
    isplitl [He1x_2]; · iexact He1x_2
    isplitl [HO]; · iexact HO
    isplitl [TsR1_2]; · iexact TsR1_2
    isplitr; · iexact HRs_R1_2
    isplitl [TrR1_2]; · iexact TrR1_2
    iexact HRr_R1_2
  iintro ⟨CsR1_2, HO⟩
  sl_exec_parts
  -- wait: y phase half 1, from 3 steps on
  ihave #HIw_c1R1_3 := (inv_dC m K c 3 1 (yj c 3)) $$ HI
  iapply (wp_dmawait m c 3 1 (yj c 3) (used3_own_y3 c) (K (c, some (3, 1, yj c 3))) (owedFrom c 26) _ (dst := r1Slot 1 (yj c 3)) rfl) $$ [CrC1_3 HO At31_3]
  · isplitr; · iexact HIw_c1R1_3
    isplitl [CrC1_3]; · iexact CrC1_3
    isplitl [HO]; · iexact HO
    isplitr; · iapply (mayWait_c1R1 c (yj c 3) 26 (by decide)); iexact Hlev
    iexact At31_3
  rw [show dmaPay m c 3 1 (yj c 3) = holds c (r1Slot 1 (yj c 3)) (red2 m (atY c (yj c 3)) 1) from rfl]
  unfold holds slotPts
  iintro ⟨HO, At31_3, #Hr1_c1R1_3, ⟨%fc1_3, Hc1_3, %hfc1_3⟩⟩
  ihave Hsh := (r1_split' c 1 (yj c 3) fc1_3) $$ Hc1_3
  icases Hsh with ⟨Hc1_3, Hc1_3q⟩
  sl_exec_parts
  -- transfer x phase, half 1, relay of 3 steps on
  ihave #HIs_R1_3 := (inv_dC m K c 4 1 (yj c 3)) $$ HI
  ihave #HIr_R1_3 := (inv_dC m K (xP c) 5 1 (yj c 3)) $$ HI
  ihave #HRs_R1_3 := (reached_dC (F := F) c 4 1 (yj c 3)) $$ HR
  ihave #HRr_R1_3 := (reached_dC (F := F) (xP c) 5 1 (yj c 3)) $$ HR
  iapply (wp_xfer' m c (xP c) _ (Mesh.dev27_eq c) 4 1 (yj c 3) 5 1 (yj c 3) (used4 c _) (used5 (xP c) _) (K (c, some (4, 1, yj c 3))) (K (xP c, some (5, 1, yj c 3)))
      (src := r1Slot 1 (yj c 3)) (dst := r2Slot 1 (yj c 3)) rfl qR fc1_3 e1x3 (owedFrom c 26) (owedFrom c 27) rfl _
      (by rw [show dmaPay m c 4 1 (yj c 3) = anyPts c (r1Slot 1 (yj c 3)) qR from if_neg (yj_ne_yF3 c)]; exact to_any c _ _ _) (by rw [hfc1_3, ← red2_xr3 m c 1]; exact to_holds _ _ _ _)) $$ [Hc1_3q He1x_3 HO TsR1_3 TrR1_3]
  · isplitr; · iexact HIs_R1_3
    isplitr; · iexact HIr_R1_3
    isplitl [Hc1_3q]; · iexact Hc1_3q
    isplitl [He1x_3]; · iexact He1x_3
    isplitl [HO]; · iexact HO
    isplitl [TsR1_3]; · iexact TsR1_3
    isplitr; · iexact HRs_R1_3
    isplitl [TrR1_3]; · iexact TrR1_3
    iexact HRr_R1_3
  iintro ⟨CsR1_3, HO⟩
  sl_exec_parts
  -- wait: x phase half 1, slot 0
  ihave #HIw_c2R1_0 := (inv_dC m K c 5 1 (0)) $$ HI
  iapply (wp_dmawait m c 5 1 (0) (used5 c _) (K (c, some (5, 1, 0))) (owedFrom c 27) _ (dst := r2Slot 1 0) rfl) $$ [CrX1_0 HO At51_0]
  · isplitr; · iexact HIw_c2R1_0
    isplitl [CrX1_0]; · iexact CrX1_0
    isplitl [HO]; · iexact HO
    isplitr; · iapply (mayWait_c2R1 c 0); iexact Hlev
    iexact At51_0
  rw [show dmaPay m c 5 1 (0) = holds c (r2Slot 1 0) (red2 m (atXY c 0) 1) from rfl]
  unfold holds slotPts
  iintro ⟨HO, At51_0, #Hr1_c2R1_0, ⟨%fd1_0, Hd1_0, %hfd1_0⟩⟩
  sl_exec_parts
  -- wait: x phase half 1, slot 1
  ihave #HIw_c2R1_1 := (inv_dC m K c 5 1 (1)) $$ HI
  iapply (wp_dmawait m c 5 1 (1) (used5 c _) (K (c, some (5, 1, 1))) (owedFrom c 27) _ (dst := r2Slot 1 1) rfl) $$ [CrX1_1 HO At51_1]
  · isplitr; · iexact HIw_c2R1_1
    isplitl [CrX1_1]; · iexact CrX1_1
    isplitl [HO]; · iexact HO
    isplitr; · iapply (mayWait_c2R1 c 1); iexact Hlev
    iexact At51_1
  rw [show dmaPay m c 5 1 (1) = holds c (r2Slot 1 1) (red2 m (atXY c 1) 1) from rfl]
  unfold holds slotPts
  iintro ⟨HO, At51_1, #Hr1_c2R1_1, ⟨%fd1_1, Hd1_1, %hfd1_1⟩⟩
  sl_exec_parts
  -- wait: x phase half 1, slot 2
  ihave #HIw_c2R1_2 := (inv_dC m K c 5 1 (2)) $$ HI
  iapply (wp_dmawait m c 5 1 (2) (used5 c _) (K (c, some (5, 1, 2))) (owedFrom c 27) _ (dst := r2Slot 1 2) rfl) $$ [CrX1_2 HO At51_2]
  · isplitr; · iexact HIw_c2R1_2
    isplitl [CrX1_2]; · iexact CrX1_2
    isplitl [HO]; · iexact HO
    isplitr; · iapply (mayWait_c2R1 c 2); iexact Hlev
    iexact At51_2
  rw [show dmaPay m c 5 1 (2) = holds c (r2Slot 1 2) (red2 m (atXY c 2) 1) from rfl]
  unfold holds slotPts
  iintro ⟨HO, At51_2, #Hr1_c2R1_2, ⟨%fd1_2, Hd1_2, %hfd1_2⟩⟩
  sl_exec_parts
  -- wait: x phase half 1, slot 3
  ihave #HIw_c2R1_3 := (inv_dC m K c 5 1 (3)) $$ HI
  iapply (wp_dmawait m c 5 1 (3) (used5 c _) (K (c, some (5, 1, 3))) (owedFrom c 27) _ (dst := r2Slot 1 3) rfl) $$ [CrX1_3 HO At51_3]
  · isplitr; · iexact HIw_c2R1_3
    isplitl [CrX1_3]; · iexact CrX1_3
    isplitl [HO]; · iexact HO
    isplitr; · iapply (mayWait_c2R1 c 3); iexact Hlev
    iexact At51_3
  rw [show dmaPay m c 5 1 (3) = holds c (r2Slot 1 3) (red2 m (atXY c 3) 1) from rfl]
  unfold holds slotPts
  iintro ⟨HO, At51_3, #Hr1_c2R1_3, ⟨%fd1_3, Hd1_3, %hfd1_3⟩⟩
  sl_exec_parts
  -- send wait: z phase half 0, 1
  ihave #HIsw_B0_1 := (inv_dC m K c 0 0 (zj c 1)) $$ HI
  iapply (wp_dmawait m c 0 0 (zj c 1) (used0_z1 c) (K (c, some (0, 0, zj c 1))) (owedFrom c 27) _ (dst := pbSlot (zj c 1) 0) rfl) $$ [CsB0_1 HO At00_1]
  · isplitr; · iexact HIsw_B0_1
    isplitl [CsB0_1]; · iexact CsB0_1
    isplitl [HO]; · iexact HO
    isplitr; · iapply (mayWait_end c _); iexact Hlev
    iexact At00_1
  rw [show dmaPay m c 0 0 (zj c 1) = anyPts c (pbSlot (zj c 1) 0) fullShare from rfl]
  iintro ⟨HO, At00_1, #Hr1_sw_B0_1, PyB0_1⟩
  sl_exec_parts
  -- send wait: z phase half 0, 2
  ihave #HIsw_B0_2 := (inv_dC m K c 0 0 (zj c 2)) $$ HI
  iapply (wp_dmawait m c 0 0 (zj c 2) (used0_z2 c) (K (c, some (0, 0, zj c 2))) (owedFrom c 27) _ (dst := pbSlot (zj c 2) 0) rfl) $$ [CsB0_2 HO At00_2]
  · isplitr; · iexact HIsw_B0_2
    isplitl [CsB0_2]; · iexact CsB0_2
    isplitl [HO]; · iexact HO
    isplitr; · iapply (mayWait_end c _); iexact Hlev
    iexact At00_2
  rw [show dmaPay m c 0 0 (zj c 2) = anyPts c (pbSlot (zj c 2) 0) fullShare from rfl]
  iintro ⟨HO, At00_2, #Hr1_sw_B0_2, PyB0_2⟩
  sl_exec_parts
  -- send wait: z phase half 0, 3
  ihave #HIsw_B0_3 := (inv_dC m K c 0 0 (zj c 3)) $$ HI
  iapply (wp_dmawait m c 0 0 (zj c 3) (used0_z3 c) (K (c, some (0, 0, zj c 3))) (owedFrom c 27) _ (dst := pbSlot (zj c 3) 0) rfl) $$ [CsB0_3 HO At00_3]
  · isplitr; · iexact HIsw_B0_3
    isplitl [CsB0_3]; · iexact CsB0_3
    isplitl [HO]; · iexact HO
    isplitr; · iapply (mayWait_end c _); iexact Hlev
    iexact At00_3
  rw [show dmaPay m c 0 0 (zj c 3) = anyPts c (pbSlot (zj c 3) 0) fullShare from rfl]
  iintro ⟨HO, At00_3, #Hr1_sw_B0_3, PyB0_3⟩
  sl_exec_parts
  -- send wait: z phase half 1, 1
  ihave #HIsw_B1_1 := (inv_dC m K c 0 1 (zj c 1)) $$ HI
  iapply (wp_dmawait m c 0 1 (zj c 1) (used0_z1 c) (K (c, some (0, 1, zj c 1))) (owedFrom c 27) _ (dst := pbSlot (zj c 1) 1) rfl) $$ [CsB1_1 HO At01_1]
  · isplitr; · iexact HIsw_B1_1
    isplitl [CsB1_1]; · iexact CsB1_1
    isplitl [HO]; · iexact HO
    isplitr; · iapply (mayWait_end c _); iexact Hlev
    iexact At01_1
  rw [show dmaPay m c 0 1 (zj c 1) = anyPts c (pbSlot (zj c 1) 1) fullShare from rfl]
  iintro ⟨HO, At01_1, #Hr1_sw_B1_1, PyB1_1⟩
  sl_exec_parts
  -- send wait: z phase half 1, 2
  ihave #HIsw_B1_2 := (inv_dC m K c 0 1 (zj c 2)) $$ HI
  iapply (wp_dmawait m c 0 1 (zj c 2) (used0_z2 c) (K (c, some (0, 1, zj c 2))) (owedFrom c 27) _ (dst := pbSlot (zj c 2) 1) rfl) $$ [CsB1_2 HO At01_2]
  · isplitr; · iexact HIsw_B1_2
    isplitl [CsB1_2]; · iexact CsB1_2
    isplitl [HO]; · iexact HO
    isplitr; · iapply (mayWait_end c _); iexact Hlev
    iexact At01_2
  rw [show dmaPay m c 0 1 (zj c 2) = anyPts c (pbSlot (zj c 2) 1) fullShare from rfl]
  iintro ⟨HO, At01_2, #Hr1_sw_B1_2, PyB1_2⟩
  sl_exec_parts
  -- send wait: z phase half 1, 3
  ihave #HIsw_B1_3 := (inv_dC m K c 0 1 (zj c 3)) $$ HI
  iapply (wp_dmawait m c 0 1 (zj c 3) (used0_z3 c) (K (c, some (0, 1, zj c 3))) (owedFrom c 27) _ (dst := pbSlot (zj c 3) 1) rfl) $$ [CsB1_3 HO At01_3]
  · isplitr; · iexact HIsw_B1_3
    isplitl [CsB1_3]; · iexact CsB1_3
    isplitl [HO]; · iexact HO
    isplitr; · iapply (mayWait_end c _); iexact Hlev
    iexact At01_3
  rw [show dmaPay m c 0 1 (zj c 3) = anyPts c (pbSlot (zj c 3) 1) fullShare from rfl]
  iintro ⟨HO, At01_3, #Hr1_sw_B1_3, PyB1_3⟩
  sl_exec_parts
  -- send wait: y phase half 0, 1
  ihave #HIsw_C0_1 := (inv_dC m K c 2 0 (yj c 1)) $$ HI
  iapply (wp_dmawait m c 2 0 (yj c 1) (used2_y1 c) (K (c, some (2, 0, yj c 1))) (owedFrom c 27) _ (dst := redSlot 0) rfl) $$ [CsC0_1 HO At20_1]
  · isplitr; · iexact HIsw_C0_1
    isplitl [CsC0_1]; · iexact CsC0_1
    isplitl [HO]; · iexact HO
    isplitr; · iapply (mayWait_end c _); iexact Hlev
    iexact At20_1
  rw [show dmaPay m c 2 0 (yj c 1) = anyPts c (redSlot 0) (qS (yj c 1)) from rfl]
  iintro ⟨HO, At20_1, #Hr1_sw_C0_1, PyC0_1⟩
  sl_exec_parts
  -- send wait: y phase half 0, 2
  ihave #HIsw_C0_2 := (inv_dC m K c 2 0 (yj c 2)) $$ HI
  iapply (wp_dmawait m c 2 0 (yj c 2) (used2_y2 c) (K (c, some (2, 0, yj c 2))) (owedFrom c 27) _ (dst := redSlot 0) rfl) $$ [CsC0_2 HO At20_2]
  · isplitr; · iexact HIsw_C0_2
    isplitl [CsC0_2]; · iexact CsC0_2
    isplitl [HO]; · iexact HO
    isplitr; · iapply (mayWait_end c _); iexact Hlev
    iexact At20_2
  rw [show dmaPay m c 2 0 (yj c 2) = anyPts c (redSlot 0) (qS (yj c 2)) from rfl]
  iintro ⟨HO, At20_2, #Hr1_sw_C0_2, PyC0_2⟩
  sl_exec_parts
  -- send wait: y phase half 0, 3
  ihave #HIsw_C0_3 := (inv_dC m K c 2 0 (yj c 3)) $$ HI
  iapply (wp_dmawait m c 2 0 (yj c 3) (used2_y3 c) (K (c, some (2, 0, yj c 3))) (owedFrom c 27) _ (dst := redSlot 0) rfl) $$ [CsC0_3 HO At20_3]
  · isplitr; · iexact HIsw_C0_3
    isplitl [CsC0_3]; · iexact CsC0_3
    isplitl [HO]; · iexact HO
    isplitr; · iapply (mayWait_end c _); iexact Hlev
    iexact At20_3
  rw [show dmaPay m c 2 0 (yj c 3) = anyPts c (redSlot 0) (qS (yj c 3)) from rfl]
  iintro ⟨HO, At20_3, #Hr1_sw_C0_3, PyC0_3⟩
  sl_exec_parts
  -- send wait: x phase half 0, direct
  ihave #HIsw_X0 := (inv_dC m K c 4 0 (yF c)) $$ HI
  iapply (wp_dmawait m c 4 0 (yF c) (used4 c _) (K (c, some (4, 0, yF c))) (owedFrom c 27) _ (dst := redSlot 0) rfl) $$ [CsX0 HO At40_0]
  · isplitr; · iexact HIsw_X0
    isplitl [CsX0]; · iexact CsX0
    isplitl [HO]; · iexact HO
    isplitr; · iapply (mayWait_end c _); iexact Hlev
    iexact At40_0
  rw [show dmaPay m c 4 0 (yF c) = anyPts c (redSlot 0) (qS (yF c)) from if_pos rfl]
  iintro ⟨HO, At40_0, #Hr1_sw_X0, PyX0⟩
  sl_exec_parts
  -- send wait: x phase half 0, relay 1
  ihave #HIsw_R0_1 := (inv_dC m K c 4 0 (yj c 1)) $$ HI
  iapply (wp_dmawait m c 4 0 (yj c 1) (used4 c _) (K (c, some (4, 0, yj c 1))) (owedFrom c 27) _ (dst := r1Slot 0 (yj c 1)) rfl) $$ [CsR0_1 HO At40_1]
  · isplitr; · iexact HIsw_R0_1
    isplitl [CsR0_1]; · iexact CsR0_1
    isplitl [HO]; · iexact HO
    isplitr; · iapply (mayWait_end c _); iexact Hlev
    iexact At40_1
  rw [show dmaPay m c 4 0 (yj c 1) = anyPts c (r1Slot 0 (yj c 1)) qR from if_neg (yj_ne_yF1 c)]
  iintro ⟨HO, At40_1, #Hr1_sw_R0_1, PyR0_1⟩
  sl_exec_parts
  -- send wait: x phase half 0, relay 2
  ihave #HIsw_R0_2 := (inv_dC m K c 4 0 (yj c 2)) $$ HI
  iapply (wp_dmawait m c 4 0 (yj c 2) (used4 c _) (K (c, some (4, 0, yj c 2))) (owedFrom c 27) _ (dst := r1Slot 0 (yj c 2)) rfl) $$ [CsR0_2 HO At40_2]
  · isplitr; · iexact HIsw_R0_2
    isplitl [CsR0_2]; · iexact CsR0_2
    isplitl [HO]; · iexact HO
    isplitr; · iapply (mayWait_end c _); iexact Hlev
    iexact At40_2
  rw [show dmaPay m c 4 0 (yj c 2) = anyPts c (r1Slot 0 (yj c 2)) qR from if_neg (yj_ne_yF2 c)]
  iintro ⟨HO, At40_2, #Hr1_sw_R0_2, PyR0_2⟩
  sl_exec_parts
  -- send wait: x phase half 0, relay 3
  ihave #HIsw_R0_3 := (inv_dC m K c 4 0 (yj c 3)) $$ HI
  iapply (wp_dmawait m c 4 0 (yj c 3) (used4 c _) (K (c, some (4, 0, yj c 3))) (owedFrom c 27) _ (dst := r1Slot 0 (yj c 3)) rfl) $$ [CsR0_3 HO At40_3]
  · isplitr; · iexact HIsw_R0_3
    isplitl [CsR0_3]; · iexact CsR0_3
    isplitl [HO]; · iexact HO
    isplitr; · iapply (mayWait_end c _); iexact Hlev
    iexact At40_3
  rw [show dmaPay m c 4 0 (yj c 3) = anyPts c (r1Slot 0 (yj c 3)) qR from if_neg (yj_ne_yF3 c)]
  iintro ⟨HO, At40_3, #Hr1_sw_R0_3, PyR0_3⟩
  sl_exec_parts
  -- send wait: y phase half 1, 1
  ihave #HIsw_C1_1 := (inv_dC m K c 2 1 (yj c 1)) $$ HI
  iapply (wp_dmawait m c 2 1 (yj c 1) (used2_y1 c) (K (c, some (2, 1, yj c 1))) (owedFrom c 27) _ (dst := redSlot 1) rfl) $$ [CsC1_1 HO At21_1]
  · isplitr; · iexact HIsw_C1_1
    isplitl [CsC1_1]; · iexact CsC1_1
    isplitl [HO]; · iexact HO
    isplitr; · iapply (mayWait_end c _); iexact Hlev
    iexact At21_1
  rw [show dmaPay m c 2 1 (yj c 1) = anyPts c (redSlot 1) (qS (yj c 1)) from rfl]
  iintro ⟨HO, At21_1, #Hr1_sw_C1_1, PyC1_1⟩
  sl_exec_parts
  -- send wait: y phase half 1, 2
  ihave #HIsw_C1_2 := (inv_dC m K c 2 1 (yj c 2)) $$ HI
  iapply (wp_dmawait m c 2 1 (yj c 2) (used2_y2 c) (K (c, some (2, 1, yj c 2))) (owedFrom c 27) _ (dst := redSlot 1) rfl) $$ [CsC1_2 HO At21_2]
  · isplitr; · iexact HIsw_C1_2
    isplitl [CsC1_2]; · iexact CsC1_2
    isplitl [HO]; · iexact HO
    isplitr; · iapply (mayWait_end c _); iexact Hlev
    iexact At21_2
  rw [show dmaPay m c 2 1 (yj c 2) = anyPts c (redSlot 1) (qS (yj c 2)) from rfl]
  iintro ⟨HO, At21_2, #Hr1_sw_C1_2, PyC1_2⟩
  sl_exec_parts
  -- send wait: y phase half 1, 3
  ihave #HIsw_C1_3 := (inv_dC m K c 2 1 (yj c 3)) $$ HI
  iapply (wp_dmawait m c 2 1 (yj c 3) (used2_y3 c) (K (c, some (2, 1, yj c 3))) (owedFrom c 27) _ (dst := redSlot 1) rfl) $$ [CsC1_3 HO At21_3]
  · isplitr; · iexact HIsw_C1_3
    isplitl [CsC1_3]; · iexact CsC1_3
    isplitl [HO]; · iexact HO
    isplitr; · iapply (mayWait_end c _); iexact Hlev
    iexact At21_3
  rw [show dmaPay m c 2 1 (yj c 3) = anyPts c (redSlot 1) (qS (yj c 3)) from rfl]
  iintro ⟨HO, At21_3, #Hr1_sw_C1_3, PyC1_3⟩
  sl_exec_parts
  -- send wait: x phase half 1, direct
  ihave #HIsw_X1 := (inv_dC m K c 4 1 (yF c)) $$ HI
  iapply (wp_dmawait m c 4 1 (yF c) (used4 c _) (K (c, some (4, 1, yF c))) (owedFrom c 27) _ (dst := redSlot 1) rfl) $$ [CsX1 HO At41_0]
  · isplitr; · iexact HIsw_X1
    isplitl [CsX1]; · iexact CsX1
    isplitl [HO]; · iexact HO
    isplitr; · iapply (mayWait_end c _); iexact Hlev
    iexact At41_0
  rw [show dmaPay m c 4 1 (yF c) = anyPts c (redSlot 1) (qS (yF c)) from if_pos rfl]
  iintro ⟨HO, At41_0, #Hr1_sw_X1, PyX1⟩
  sl_exec_parts
  -- send wait: x phase half 1, relay 1
  ihave #HIsw_R1_1 := (inv_dC m K c 4 1 (yj c 1)) $$ HI
  iapply (wp_dmawait m c 4 1 (yj c 1) (used4 c _) (K (c, some (4, 1, yj c 1))) (owedFrom c 27) _ (dst := r1Slot 1 (yj c 1)) rfl) $$ [CsR1_1 HO At41_1]
  · isplitr; · iexact HIsw_R1_1
    isplitl [CsR1_1]; · iexact CsR1_1
    isplitl [HO]; · iexact HO
    isplitr; · iapply (mayWait_end c _); iexact Hlev
    iexact At41_1
  rw [show dmaPay m c 4 1 (yj c 1) = anyPts c (r1Slot 1 (yj c 1)) qR from if_neg (yj_ne_yF1 c)]
  iintro ⟨HO, At41_1, #Hr1_sw_R1_1, PyR1_1⟩
  sl_exec_parts
  -- send wait: x phase half 1, relay 2
  ihave #HIsw_R1_2 := (inv_dC m K c 4 1 (yj c 2)) $$ HI
  iapply (wp_dmawait m c 4 1 (yj c 2) (used4 c _) (K (c, some (4, 1, yj c 2))) (owedFrom c 27) _ (dst := r1Slot 1 (yj c 2)) rfl) $$ [CsR1_2 HO At41_2]
  · isplitr; · iexact HIsw_R1_2
    isplitl [CsR1_2]; · iexact CsR1_2
    isplitl [HO]; · iexact HO
    isplitr; · iapply (mayWait_end c _); iexact Hlev
    iexact At41_2
  rw [show dmaPay m c 4 1 (yj c 2) = anyPts c (r1Slot 1 (yj c 2)) qR from if_neg (yj_ne_yF2 c)]
  iintro ⟨HO, At41_2, #Hr1_sw_R1_2, PyR1_2⟩
  sl_exec_parts
  -- send wait: x phase half 1, relay 3
  ihave #HIsw_R1_3 := (inv_dC m K c 4 1 (yj c 3)) $$ HI
  iapply (wp_dmawait m c 4 1 (yj c 3) (used4 c _) (K (c, some (4, 1, yj c 3))) (owedFrom c 27) _ (dst := r1Slot 1 (yj c 3)) rfl) $$ [CsR1_3 HO At41_3]
  · isplitr; · iexact HIsw_R1_3
    isplitl [CsR1_3]; · iexact CsR1_3
    isplitl [HO]; · iexact HO
    isplitr; · iapply (mayWait_end c _); iexact Hlev
    iexact At41_3
  rw [show dmaPay m c 4 1 (yj c 3) = anyPts c (r1Slot 1 (yj c 3)) qR from if_neg (yj_ne_yF3 c)]
  iintro ⟨HO, At41_3, #Hr1_sw_R1_3, PyR1_3⟩
  -- the return: the own cells closed, the scratch buffers whole again
  imod (epilogue_rel m K c) $$ [At00_0 At00_1 At00_2 At00_3 At01_0 At01_1 At01_2 At01_3 At10_0 At10_1 At10_2 At10_3 At11_0 At11_1 At11_2 At11_3 At20_0 At20_1 At20_2 At20_3 At21_0 At21_1 At21_2 At21_3 At30_0 At30_1 At30_2 At30_3 At31_0 At31_1 At31_2 At31_3 At40_0 At40_1 At40_2 At40_3 At41_0 At41_1 At41_2 At41_3 At50_0 At50_1 At50_2 At50_3 At51_0 At51_1 At51_2 At51_3 Hp0_0 PyB0_1 PyB0_2 PyB0_3 Hp1_0 PyB1_1 PyB1_2 PyB1_3 Hred0_k PyX0 PyC0_1 PyC0_2 PyC0_3 Hred1_k PyX1 PyC1_1 PyC1_2 PyC1_3 Hb0_0 Hb0_1 Hb0_2 Hb0_3 Hb1_0 Hb1_1 Hb1_2 Hb1_3 Hc0_0 Hc0_1 PyR0_1 Hc0_2 PyR0_2 Hc0_3 PyR0_3 Hc1_0 Hc1_1 PyR1_1 Hc1_2 PyR1_2 Hc1_3 PyR1_3 Hd0_0 Hd0_1 Hd0_2 Hd0_3 Hd1_0 Hd1_1 Hd1_2 Hd1_3] with HΦ
  · isplitr
    · unfold records; isplitr <;> iassumption
    isplitl [At00_0 At00_1 At00_2 At00_3 At01_0 At01_1 At01_2 At01_3 At10_0 At10_1 At10_2 At10_3 At11_0 At11_1 At11_2 At11_3 At20_0 At20_1 At20_2 At20_3 At21_0 At21_1 At21_2 At21_3 At30_0 At30_1 At30_2 At30_3 At31_0 At31_1 At31_2 At31_3 At40_0 At40_1 At40_2 At40_3 At41_0 At41_1 At41_2 At41_3 At50_0 At50_1 At50_2 At50_3 At51_0 At51_1 At51_2 At51_3]
    · isplitl [At00_0 At00_1 At00_2 At00_3 At01_0 At01_1 At01_2 At01_3]
      · isplitl [At00_0 At00_1 At00_2 At00_3]
        · isplitl [At00_0]
          · iexact At00_0
          isplitl [At00_1]
          · iexact At00_1
          isplitl [At00_2]
          · iexact At00_2
          iexact At00_3
        isplitl [At01_0]
        · iexact At01_0
        isplitl [At01_1]
        · iexact At01_1
        isplitl [At01_2]
        · iexact At01_2
        iexact At01_3
      isplitl [At10_0 At10_1 At10_2 At10_3 At11_0 At11_1 At11_2 At11_3]
      · isplitl [At10_0 At10_1 At10_2 At10_3]
        · isplitl [At10_0]
          · iexact At10_0
          isplitl [At10_1]
          · iexact At10_1
          isplitl [At10_2]
          · iexact At10_2
          iexact At10_3
        isplitl [At11_0]
        · iexact At11_0
        isplitl [At11_1]
        · iexact At11_1
        isplitl [At11_2]
        · iexact At11_2
        iexact At11_3
      isplitl [At20_0 At20_1 At20_2 At20_3 At21_0 At21_1 At21_2 At21_3]
      · isplitl [At20_0 At20_1 At20_2 At20_3]
        · isplitl [At20_0]
          · iexact At20_0
          isplitl [At20_1]
          · iexact At20_1
          isplitl [At20_2]
          · iexact At20_2
          iexact At20_3
        isplitl [At21_0]
        · iexact At21_0
        isplitl [At21_1]
        · iexact At21_1
        isplitl [At21_2]
        · iexact At21_2
        iexact At21_3
      isplitl [At30_0 At30_1 At30_2 At30_3 At31_0 At31_1 At31_2 At31_3]
      · isplitl [At30_0 At30_1 At30_2 At30_3]
        · isplitl [At30_0]
          · iexact At30_0
          isplitl [At30_1]
          · iexact At30_1
          isplitl [At30_2]
          · iexact At30_2
          iexact At30_3
        isplitl [At31_0]
        · iexact At31_0
        isplitl [At31_1]
        · iexact At31_1
        isplitl [At31_2]
        · iexact At31_2
        iexact At31_3
      isplitl [At40_0 At40_1 At40_2 At40_3 At41_0 At41_1 At41_2 At41_3]
      · isplitl [At40_0 At40_1 At40_2 At40_3]
        · isplitl [At40_0]
          · iexact At40_0
          isplitl [At40_1]
          · iexact At40_1
          isplitl [At40_2]
          · iexact At40_2
          iexact At40_3
        isplitl [At41_0]
        · iexact At41_0
        isplitl [At41_1]
        · iexact At41_1
        isplitl [At41_2]
        · iexact At41_2
        iexact At41_3
      isplitl [At50_0 At50_1 At50_2 At50_3]
      · isplitl [At50_0]
        · iexact At50_0
        isplitl [At50_1]
        · iexact At50_1
        isplitl [At50_2]
        · iexact At50_2
        iexact At50_3
      isplitl [At51_0]
      · iexact At51_0
      isplitl [At51_1]
      · iexact At51_1
      isplitl [At51_2]
      · iexact At51_2
      iexact At51_3
    isplitl [Hp0_0 PyB0_1 PyB0_2 PyB0_3 Hp1_0 PyB1_1 PyB1_2 PyB1_3]
    · isplitl [Hp0_0 PyB0_1 PyB0_2 PyB0_3]
      · isplitl [Hp0_0]
        · iapply (to_any c _ _ _); iexact Hp0_0
        isplitl [PyB0_1]
        · iexact PyB0_1
        isplitl [PyB0_2]
        · iexact PyB0_2
        iexact PyB0_3
      isplitl [Hp1_0]
      · iapply (to_any c _ _ _); iexact Hp1_0
      isplitl [PyB1_1]
      · iexact PyB1_1
      isplitl [PyB1_2]
      · iexact PyB1_2
      iexact PyB1_3
    isplitl [Hred0_k PyX0 PyC0_1 PyC0_2 PyC0_3 Hred1_k PyX1 PyC1_1 PyC1_2 PyC1_3]
    · isplitl [Hred0_k PyX0 PyC0_1 PyC0_2 PyC0_3]
      · isplitl [Hred0_k]
        · iapply (to_any c _ _ _); iexact Hred0_k
        isplitl [PyX0]
        · iexact PyX0
        isplitl [PyC0_1]
        · iexact PyC0_1
        isplitl [PyC0_2]
        · iexact PyC0_2
        iexact PyC0_3
      isplitl [Hred1_k]
      · iapply (to_any c _ _ _); iexact Hred1_k
      isplitl [PyX1]
      · iexact PyX1
      isplitl [PyC1_1]
      · iexact PyC1_1
      isplitl [PyC1_2]
      · iexact PyC1_2
      iexact PyC1_3
    isplitl [Hb0_0 Hb0_1 Hb0_2 Hb0_3 Hb1_0 Hb1_1 Hb1_2 Hb1_3]
    · isplitl [Hb0_0 Hb0_1 Hb0_2 Hb0_3]
      · isplitl [Hb0_0]
        · iapply (to_any c _ _ _); iexact Hb0_0
        isplitl [Hb0_1]
        · iapply (to_any c _ _ _); iexact Hb0_1
        isplitl [Hb0_2]
        · iapply (to_any c _ _ _); iexact Hb0_2
        iapply (to_any c _ _ _); iexact Hb0_3
      isplitl [Hb1_0]
      · iapply (to_any c _ _ _); iexact Hb1_0
      isplitl [Hb1_1]
      · iapply (to_any c _ _ _); iexact Hb1_1
      isplitl [Hb1_2]
      · iapply (to_any c _ _ _); iexact Hb1_2
      iapply (to_any c _ _ _); iexact Hb1_3
    isplitl [Hc0_0 Hc0_1 PyR0_1 Hc0_2 PyR0_2 Hc0_3 PyR0_3 Hc1_0 Hc1_1 PyR1_1 Hc1_2 PyR1_2 Hc1_3 PyR1_3]
    · isplitl [Hc0_0 Hc0_1 PyR0_1 Hc0_2 PyR0_2 Hc0_3 PyR0_3]
      · isplitl [Hc0_0]
        · iapply (to_any c _ _ _); iexact Hc0_0
        isplitl [Hc0_1 PyR0_1]
        · isplitl [Hc0_1]
          · iapply (to_any c _ _ _); iexact Hc0_1
          iexact PyR0_1
        isplitl [Hc0_2 PyR0_2]
        · isplitl [Hc0_2]
          · iapply (to_any c _ _ _); iexact Hc0_2
          iexact PyR0_2
        isplitl [Hc0_3]
        · iapply (to_any c _ _ _); iexact Hc0_3
        iexact PyR0_3
      isplitl [Hc1_0]
      · iapply (to_any c _ _ _); iexact Hc1_0
      isplitl [Hc1_1 PyR1_1]
      · isplitl [Hc1_1]
        · iapply (to_any c _ _ _); iexact Hc1_1
        iexact PyR1_1
      isplitl [Hc1_2 PyR1_2]
      · isplitl [Hc1_2]
        · iapply (to_any c _ _ _); iexact Hc1_2
        iexact PyR1_2
      isplitl [Hc1_3]
      · iapply (to_any c _ _ _); iexact Hc1_3
      iexact PyR1_3
    isplitl [Hd0_0 Hd0_1 Hd0_2 Hd0_3]
    · isplitl [Hd0_0]
      · iapply (to_any c _ _ _); iexact Hd0_0
      isplitl [Hd0_1]
      · iapply (to_any c _ _ _); iexact Hd0_1
      isplitl [Hd0_2]
      · iapply (to_any c _ _ _); iexact Hd0_2
      iapply (to_any c _ _ _); iexact Hd0_3
    isplitl [Hd1_0]
    · iapply (to_any c _ _ _); iexact Hd1_0
    isplitl [Hd1_1]
    · iapply (to_any c _ _ _); iexact Hd1_1
    isplitl [Hd1_2]
    · iapply (to_any c _ _ _); iexact Hd1_2
    iapply (to_any c _ _ _); iexact Hd1_3
  sl_exec_parts
  sl_step
  iapply Hk
  unfold bodyPost
  isplitl [HΦ]; · iexact HΦ
  isplitl [HO]
  · unfold Dat.owesAt Pipeline.owesWithin
    iexists _
    isplitr
    rotate_left
    · iexact HO
    · ipureintro; exact fun _ _ => Or.inl (Set.mem_univ _)
  isplitl [HX]
  · iexists _; isplitr; · ipureintro; rfl
    iexact HX
  isplitl [HY]
  · iexists _; isplitr; · ipureintro; rfl
    iexact HY
  ihave HnO := (name_it _) $$ HOut
  icases HnO with ⟨%GO, %hGO, HOut⟩
  iexists GO; isplitr
  · ipureintro
    rw [hGO]
    have eu01 : ((r1M : Memref sig .tc .vmem S2x4x256x256 .bf16).view.readAt (Elt F) (Rect.unit (s := S2x4x256x256) (k0_off13 c 4#32 1#32) S1x1x256x256.size (k0_off13_inb c 1 0)).toLoadRect fc0_1) = up4 (red2 m (atY c (yj c 1)) 0) :=
      r1_load 0 (yj c 1) _ _ ((Mesh.off13_4_1 c).trans rfl) fc0_1 _ hfc0_1
    have eu02 : ((r1M : Memref sig .tc .vmem S2x4x256x256 .bf16).view.readAt (Elt F) (Rect.unit (s := S2x4x256x256) (k0_off13 c 4#32 2#32) S1x1x256x256.size (k0_off13_inb c 1 1)).toLoadRect fc0_2) = up4 (red2 m (atY c (yj c 2)) 0) :=
      r1_load 0 (yj c 2) _ _ ((Mesh.off13_4_2 c).trans rfl) fc0_2 _ hfc0_2
    have eu03 : ((r1M : Memref sig .tc .vmem S2x4x256x256 .bf16).view.readAt (Elt F) (Rect.unit (s := S2x4x256x256) (k0_off13 c 4#32 3#32) S1x1x256x256.size (k0_off13_inb c 1 2)).toLoadRect fc0_3) = up4 (red2 m (atY c (yj c 3)) 0) :=
      r1_load 0 (yj c 3) _ _ ((Mesh.off13_4_3 c).trans rfl) fc0_3 _ hfc0_3
    have eu11 : ((r1M : Memref sig .tc .vmem S2x4x256x256 .bf16).view.readAt (Elt F) (Rect.unit (s := S2x4x256x256) (k0_off19 c 4#32 1#32) S1x1x256x256.size (k0_off19_inb c 1 0)).toLoadRect fc1_1) = up4 (red2 m (atY c (yj c 1)) 1) :=
      r1_load 1 (yj c 1) _ _ ((Mesh.off19_4_1 c).trans rfl) fc1_1 _ hfc1_1
    have eu12 : ((r1M : Memref sig .tc .vmem S2x4x256x256 .bf16).view.readAt (Elt F) (Rect.unit (s := S2x4x256x256) (k0_off19 c 4#32 2#32) S1x1x256x256.size (k0_off19_inb c 1 1)).toLoadRect fc1_2) = up4 (red2 m (atY c (yj c 2)) 1) :=
      r1_load 1 (yj c 2) _ _ ((Mesh.off19_4_2 c).trans rfl) fc1_2 _ hfc1_2
    have eu13 : ((r1M : Memref sig .tc .vmem S2x4x256x256 .bf16).view.readAt (Elt F) (Rect.unit (s := S2x4x256x256) (k0_off19 c 4#32 3#32) S1x1x256x256.size (k0_off19_inb c 1 2)).toLoadRect fc1_3) = up4 (red2 m (atY c (yj c 3)) 1) :=
      r1_load 1 (yj c 3) _ _ ((Mesh.off19_4_3 c).trans rfl) fc1_3 _ hfc1_3
    have et00 : ((r2M : Memref sig .tc .vmem S2x4x256x256 .bf16).view.readAt (Elt F) (Rect.unit (s := S2x4x256x256) ![0, 0, 0, 0] S1x1x256x256.size inb_S2x4x256x256_S1x1x256x256_0_0_0_0).toLoadRect fd0_0) = up4 (red2 m (atXY c 0) 0) :=
      r2_load 0 0 _ _ rfl fd0_0 _ hfd0_0
    have et01 : ((r2M : Memref sig .tc .vmem S2x4x256x256 .bf16).view.readAt (Elt F) (Rect.unit (s := S2x4x256x256) ![0, 1, 0, 0] S1x1x256x256.size inb_S2x4x256x256_S1x1x256x256_0_1_0_0).toLoadRect fd0_1) = up4 (red2 m (atXY c 1) 0) :=
      r2_load 0 1 _ _ rfl fd0_1 _ hfd0_1
    have et02 : ((r2M : Memref sig .tc .vmem S2x4x256x256 .bf16).view.readAt (Elt F) (Rect.unit (s := S2x4x256x256) ![0, 2, 0, 0] S1x1x256x256.size inb_S2x4x256x256_S1x1x256x256_0_2_0_0).toLoadRect fd0_2) = up4 (red2 m (atXY c 2) 0) :=
      r2_load 0 2 _ _ rfl fd0_2 _ hfd0_2
    have et03 : ((r2M : Memref sig .tc .vmem S2x4x256x256 .bf16).view.readAt (Elt F) (Rect.unit (s := S2x4x256x256) ![0, 3, 0, 0] S1x1x256x256.size inb_S2x4x256x256_S1x1x256x256_0_3_0_0).toLoadRect fd0_3) = up4 (red2 m (atXY c 3) 0) :=
      r2_load 0 3 _ _ rfl fd0_3 _ hfd0_3
    have et10 : ((r2M : Memref sig .tc .vmem S2x4x256x256 .bf16).view.readAt (Elt F) (Rect.unit (s := S2x4x256x256) ![1, 0, 0, 0] S1x1x256x256.size inb_S2x4x256x256_S1x1x256x256_1_0_0_0).toLoadRect fd1_0) = up4 (red2 m (atXY c 0) 1) :=
      r2_load 1 0 _ _ rfl fd1_0 _ hfd1_0
    have et11 : ((r2M : Memref sig .tc .vmem S2x4x256x256 .bf16).view.readAt (Elt F) (Rect.unit (s := S2x4x256x256) ![1, 1, 0, 0] S1x1x256x256.size inb_S2x4x256x256_S1x1x256x256_1_1_0_0).toLoadRect fd1_1) = up4 (red2 m (atXY c 1) 1) :=
      r2_load 1 1 _ _ rfl fd1_1 _ hfd1_1
    have et12 : ((r2M : Memref sig .tc .vmem S2x4x256x256 .bf16).view.readAt (Elt F) (Rect.unit (s := S2x4x256x256) ![1, 2, 0, 0] S1x1x256x256.size inb_S2x4x256x256_S1x1x256x256_1_2_0_0).toLoadRect fd1_2) = up4 (red2 m (atXY c 2) 1) :=
      r2_load 1 2 _ _ rfl fd1_2 _ hfd1_2
    have et13 : ((r2M : Memref sig .tc .vmem S2x4x256x256 .bf16).view.readAt (Elt F) (Rect.unit (s := S2x4x256x256) ![1, 3, 0, 0] S1x1x256x256.size inb_S2x4x256x256_S1x1x256x256_1_3_0_0).toLoadRect fd1_3) = up4 (red2 m (atXY c 3) 1) :=
      r2_load 1 3 _ _ rfl fd1_3 _ hfd1_3
    have hu : ∀ (h : Fin 2) (d : Fin 3), (![![((r1M : Memref sig .tc .vmem S2x4x256x256 .bf16).view.readAt (Elt F) (Rect.unit (s := S2x4x256x256) (k0_off13 c 4#32 1#32) S1x1x256x256.size (k0_off13_inb c 1 0)).toLoadRect fc0_1), ((r1M : Memref sig .tc .vmem S2x4x256x256 .bf16).view.readAt (Elt F) (Rect.unit (s := S2x4x256x256) (k0_off13 c 4#32 2#32) S1x1x256x256.size (k0_off13_inb c 1 1)).toLoadRect fc0_2), ((r1M : Memref sig .tc .vmem S2x4x256x256 .bf16).view.readAt (Elt F) (Rect.unit (s := S2x4x256x256) (k0_off13 c 4#32 3#32) S1x1x256x256.size (k0_off13_inb c 1 2)).toLoadRect fc0_3)], ![((r1M : Memref sig .tc .vmem S2x4x256x256 .bf16).view.readAt (Elt F) (Rect.unit (s := S2x4x256x256) (k0_off19 c 4#32 1#32) S1x1x256x256.size (k0_off19_inb c 1 0)).toLoadRect fc1_1), ((r1M : Memref sig .tc .vmem S2x4x256x256 .bf16).view.readAt (Elt F) (Rect.unit (s := S2x4x256x256) (k0_off19 c 4#32 2#32) S1x1x256x256.size (k0_off19_inb c 1 1)).toLoadRect fc1_2), ((r1M : Memref sig .tc .vmem S2x4x256x256 .bf16).view.readAt (Elt F) (Rect.unit (s := S2x4x256x256) (k0_off19 c 4#32 3#32) S1x1x256x256.size (k0_off19_inb c 1 2)).toLoadRect fc1_3)]] : Fin 2 → Fin 3 → Vec F S1x1x256x256 .bf16) h d = up4 (red2 m (atY c (yj c (d.val + 1))) h) := by
      intro h d
      fin_cases h <;> fin_cases d
      · exact eu01
      · exact eu02
      · exact eu03
      · exact eu11
      · exact eu12
      · exact eu13
    have ht : ∀ (h : Fin 2) (ys : Fin 4), (![![((r2M : Memref sig .tc .vmem S2x4x256x256 .bf16).view.readAt (Elt F) (Rect.unit (s := S2x4x256x256) ![0, 0, 0, 0] S1x1x256x256.size inb_S2x4x256x256_S1x1x256x256_0_0_0_0).toLoadRect fd0_0), ((r2M : Memref sig .tc .vmem S2x4x256x256 .bf16).view.readAt (Elt F) (Rect.unit (s := S2x4x256x256) ![0, 1, 0, 0] S1x1x256x256.size inb_S2x4x256x256_S1x1x256x256_0_1_0_0).toLoadRect fd0_1), ((r2M : Memref sig .tc .vmem S2x4x256x256 .bf16).view.readAt (Elt F) (Rect.unit (s := S2x4x256x256) ![0, 2, 0, 0] S1x1x256x256.size inb_S2x4x256x256_S1x1x256x256_0_2_0_0).toLoadRect fd0_2), ((r2M : Memref sig .tc .vmem S2x4x256x256 .bf16).view.readAt (Elt F) (Rect.unit (s := S2x4x256x256) ![0, 3, 0, 0] S1x1x256x256.size inb_S2x4x256x256_S1x1x256x256_0_3_0_0).toLoadRect fd0_3)], ![((r2M : Memref sig .tc .vmem S2x4x256x256 .bf16).view.readAt (Elt F) (Rect.unit (s := S2x4x256x256) ![1, 0, 0, 0] S1x1x256x256.size inb_S2x4x256x256_S1x1x256x256_1_0_0_0).toLoadRect fd1_0), ((r2M : Memref sig .tc .vmem S2x4x256x256 .bf16).view.readAt (Elt F) (Rect.unit (s := S2x4x256x256) ![1, 1, 0, 0] S1x1x256x256.size inb_S2x4x256x256_S1x1x256x256_1_1_0_0).toLoadRect fd1_1), ((r2M : Memref sig .tc .vmem S2x4x256x256 .bf16).view.readAt (Elt F) (Rect.unit (s := S2x4x256x256) ![1, 2, 0, 0] S1x1x256x256.size inb_S2x4x256x256_S1x1x256x256_1_2_0_0).toLoadRect fd1_2), ((r2M : Memref sig .tc .vmem S2x4x256x256 .bf16).view.readAt (Elt F) (Rect.unit (s := S2x4x256x256) ![1, 3, 0, 0] S1x1x256x256.size inb_S2x4x256x256_S1x1x256x256_1_3_0_0).toLoadRect fd1_3)]] : Fin 2 → Fin 4 → Vec F S1x1x256x256 .bf16) h ys = up4 (red2 m (atXY c ys) h) := by
      intro h ys
      fin_cases h <;> fin_cases ys
      · exact et00
      · exact et01
      · exact et02
      · exact et03
      · exact et10
      · exact et11
      · exact et12
      · exact et13
    exact out_fact m c g2 _ _ (acc0_fact m c F0 hpb fb0_1 fb0_2 fb0_3 hfb0_1 hfb0_2 hfb0_3) (acc1_fact m c F0 hpb fb1_1 fb1_2 fb1_3 hfb1_1 hfb1_2 hfb1_3) (![![((r1M : Memref sig .tc .vmem S2x4x256x256 .bf16).view.readAt (Elt F) (Rect.unit (s := S2x4x256x256) (k0_off13 c 4#32 1#32) S1x1x256x256.size (k0_off13_inb c 1 0)).toLoadRect fc0_1), ((r1M : Memref sig .tc .vmem S2x4x256x256 .bf16).view.readAt (Elt F) (Rect.unit (s := S2x4x256x256) (k0_off13 c 4#32 2#32) S1x1x256x256.size (k0_off13_inb c 1 1)).toLoadRect fc0_2), ((r1M : Memref sig .tc .vmem S2x4x256x256 .bf16).view.readAt (Elt F) (Rect.unit (s := S2x4x256x256) (k0_off13 c 4#32 3#32) S1x1x256x256.size (k0_off13_inb c 1 2)).toLoadRect fc0_3)], ![((r1M : Memref sig .tc .vmem S2x4x256x256 .bf16).view.readAt (Elt F) (Rect.unit (s := S2x4x256x256) (k0_off19 c 4#32 1#32) S1x1x256x256.size (k0_off19_inb c 1 0)).toLoadRect fc1_1), ((r1M : Memref sig .tc .vmem S2x4x256x256 .bf16).view.readAt (Elt F) (Rect.unit (s := S2x4x256x256) (k0_off19 c 4#32 2#32) S1x1x256x256.size (k0_off19_inb c 1 1)).toLoadRect fc1_2), ((r1M : Memref sig .tc .vmem S2x4x256x256 .bf16).view.readAt (Elt F) (Rect.unit (s := S2x4x256x256) (k0_off19 c 4#32 3#32) S1x1x256x256.size (k0_off19_inb c 1 2)).toLoadRect fc1_3)]] : Fin 2 → Fin 3 → Vec F S1x1x256x256 .bf16) hu (![![((r2M : Memref sig .tc .vmem S2x4x256x256 .bf16).view.readAt (Elt F) (Rect.unit (s := S2x4x256x256) ![0, 0, 0, 0] S1x1x256x256.size inb_S2x4x256x256_S1x1x256x256_0_0_0_0).toLoadRect fd0_0), ((r2M : Memref sig .tc .vmem S2x4x256x256 .bf16).view.readAt (Elt F) (Rect.unit (s := S2x4x256x256) ![0, 1, 0, 0] S1x1x256x256.size inb_S2x4x256x256_S1x1x256x256_0_1_0_0).toLoadRect fd0_1), ((r2M : Memref sig .tc .vmem S2x4x256x256 .bf16).view.readAt (Elt F) (Rect.unit (s := S2x4x256x256) ![0, 2, 0, 0] S1x1x256x256.size inb_S2x4x256x256_S1x1x256x256_0_2_0_0).toLoadRect fd0_2), ((r2M : Memref sig .tc .vmem S2x4x256x256 .bf16).view.readAt (Elt F) (Rect.unit (s := S2x4x256x256) ![0, 3, 0, 0] S1x1x256x256.size inb_S2x4x256x256_S1x1x256x256_0_3_0_0).toLoadRect fd0_3)], ![((r2M : Memref sig .tc .vmem S2x4x256x256 .bf16).view.readAt (Elt F) (Rect.unit (s := S2x4x256x256) ![1, 0, 0, 0] S1x1x256x256.size inb_S2x4x256x256_S1x1x256x256_1_0_0_0).toLoadRect fd1_0), ((r2M : Memref sig .tc .vmem S2x4x256x256 .bf16).view.readAt (Elt F) (Rect.unit (s := S2x4x256x256) ![1, 1, 0, 0] S1x1x256x256.size inb_S2x4x256x256_S1x1x256x256_1_1_0_0).toLoadRect fd1_1), ((r2M : Memref sig .tc .vmem S2x4x256x256 .bf16).view.readAt (Elt F) (Rect.unit (s := S2x4x256x256) ![1, 2, 0, 0] S1x1x256x256.size inb_S2x4x256x256_S1x1x256x256_1_2_0_0).toLoadRect fd1_2), ((r2M : Memref sig .tc .vmem S2x4x256x256 .bf16).view.readAt (Elt F) (Rect.unit (s := S2x4x256x256) ![1, 3, 0, 0] S1x1x256x256.size inb_S2x4x256x256_S1x1x256x256_1_3_0_0).toLoadRect fd1_3)]] : Fin 2 → Fin 4 → Vec F S1x1x256x256 .bf16) ht
  iexact HOut

end Body

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The pipeline's body obligation at its one point. -/
theorem body_obligation (c : Dev nD) : BodyObligation (dats m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ
      (cc0_body xM (Memref.isWhole_whole _) yM (Memref.isWhole_whole _) oM (Memref.isWhole_whole _)
        pbM (Memref.isWhole_whole _) redM (Memref.isWhole_whole _) rbM (Memref.isWhole_whole _) r1M (Memref.isWhole_whole _) r2M (Memref.isWhole_whole _)
        cc0_scratch5 cc0_scratch6 cc0_scratch7 cc0_scratch8 cc0_scratch9 cc0_scratch10) (fun _ => bodyPost m ρ c)
  iintro H
  iapply (sound_body m ρ c (fun _ => bodyPost m ρ c))
  isplitl [H]; · iexact H
  iintro H; iexact H

end Cert.KernelIdeal.Coll

end
-- ==== Proof.Launch.lean ====
/- The launch. The ghost state of the protocol is funded for every cell of every device at once; the invariants of all
   cells are allocated under one update, because a cell's invariant is shared by its owner and by the devices that pay
   into it; the duty tokens minted at each owner are then dealt to the devices that pay those duties, and the credit dealt
   at launch is counted cell by cell from what every device owes. With that each device's body starts from `start`, and
   the run of the whole mesh ends with every window's array at the contents the proof data names. -/
import proofs.«901051_g7700000000001052_dist_rsdw_v7x_xyz2x4x4_z_m1024_d1024_f4096_bf16_1_alg».proof.Proof.Proto
import proofs.«901051_g7700000000001052_dist_rsdw_v7x_xyz2x4x4_z_m1024_d1024_f4096_bf16_1_alg».proof.Proof.Tables
import Idealize.ShloMosaic.Lib.Pipeline.Launch
import Idealize.ShloMosaic.Lib.Pipeline.Kit
import Idealize.ShloMosaic.Lib.Tactic

set_option Elab.async false

noncomputable section

namespace Cert.KernelIdeal.Coll

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## General facts about iterated separating conjunctions and lists -/

/-- Over an optional index: the summand at no index, and those at the indices. -/
theorem bigSep_option {M : Type} [URA M] {α : Type} [Fintype α] [DecidableEq α] (Ψ : Option α → sProp M) :
    bigSep Finset.univ Ψ = iprop(Ψ none ∗ bigSep Finset.univ fun a => Ψ (some a)) := by
  have h : (Finset.univ.erase (none : Option α)) = Finset.univ.map Function.Embedding.some := by
    ext x
    cases x with
    | none => simp
    | some a => simp
  rw [bigSep_univ_at Ψ none, h, bigSep_map]
  rfl

/-- The set of a mapped list is the image of the list's set. -/
theorem toFinset_map_image {α β : Type} [DecidableEq α] [DecidableEq β] (f : α → β) (l : List α) : (l.map f).toFinset = l.toFinset.image f := by
  ext b
  simp only [List.mem_toFinset, List.mem_map, Finset.mem_image]

/-- Over a union of pairwise disjoint sets: set by set. -/
theorem bigSep_biUnion_disjoint {M : Type} [URA M] {I J : Type} [DecidableEq I] [DecidableEq J] (s : Finset J) (t : J → Finset I) (Φ : I → sProp M)
    (h : ∀ j ∈ s, ∀ j' ∈ s, j ≠ j' → Disjoint (t j) (t j')) :
    bigSep (s.biUnion t) Φ = bigSep s fun j => bigSep (t j) Φ := by
  induction s using Finset.induction_on with
  | empty => rw [Finset.biUnion_empty, bigSep_empty, bigSep_empty]
  | insert j s hj ih =>
    have hd : Disjoint (t j) (s.biUnion t) :=
      (Finset.disjoint_biUnion_right _ _ _).mpr fun b hb =>
        h j (Finset.mem_insert_self _ _) b (Finset.mem_insert_of_mem hb) (fun e => hj (e ▸ hb))
    rw [Finset.biUnion_insert, bigSep_insert hj, bigSep_union hd,
      ih fun a ha b hb => h a (Finset.mem_insert_of_mem ha) b (Finset.mem_insert_of_mem hb)]

/-! ## The kernel's own semaphores, and all cells of the collective -/

/-- A DMA semaphore's place: which of the six arrays, which half, which slot. -/
abbrev CI : Type := Fin 6 × Fin 2 × Fin 4

/-- The forty-eight DMA semaphores of the kernel's six arrays: its own, scoped to the launch. -/
abbrev osem : CI → SemLoc sig := fun i => .dma (dsem i.1 i.2.1 i.2.2)

theorem ownSemFacts : Pipeline.OwnSemFacts cfg0.spec osem := by decide +kernel

theorem share_eq (c : Dev nD) (w : Fin cfg0.W) : (dats m ρ 0 c).share w = fullShare := by unfold Dat.share; split <;> rfl

theorem dsem_inj {a a' : Fin 6} {h h' : Fin 2} {j j' : Fin 4} (e : dsem a h j = dsem a' h' j') : a = a' ∧ h = h' ∧ j = j' := by
  have ha := congrArg aOf e
  have hh := congrArg hOf e
  have hj := congrArg jOf e
  rw [aOf_dsem, aOf_dsem] at ha
  rw [hOf_dsem, hOf_dsem] at hh
  rw [jOf_dsem, jOf_dsem] at hj
  exact ⟨ha, hh, hj⟩

theorem csem_injective : Function.Injective csem := by
  rintro (_ | ⟨a, h, j⟩) (_ | ⟨a', h', j'⟩) e
  · rfl
  · exact absurd (show (SemLoc.reg barS : SemLoc sig) = SemLoc.dma (dsem a' h' j') from e) (fun h => by cases h)
  · exact absurd (show (SemLoc.dma (dsem a h j) : SemLoc sig) = SemLoc.reg barS from e) (fun h => by cases h)
  · have e' : dsem a h j = dsem a' h' j' := SemLoc.dma.inj (show (SemLoc.dma (dsem a h j) : SemLoc sig) = SemLoc.dma (dsem a' h' j') from e)
    obtain ⟨rfl, rfl, rfl⟩ := dsem_inj e'
    rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The duty tokens as minted, per owner: its barrier cell's seven, and one for each of its DMA cells. -/
abbrev tokOf (x : Dev nD × (DN ⊕ CI)) : GSem nD τ sig × ℕ × DN := match x.2 with
  | .inl n => (barC x.1, 0, n)
  | .inr i => (dC x.1 i.1 i.2.1 i.2.2, 0, 0)

theorem tokOf_injective : Function.Injective (tokOf : Dev nD × (DN ⊕ CI) → GSem nD τ sig × ℕ × DN) := by
  rintro ⟨c, s⟩ ⟨c', s'⟩ h
  have h1 : c = c' := by
    have := congrArg (fun x : GSem nD τ sig × ℕ × DN => x.1.1.1) h
    cases s <;> cases s' <;> exact this
  subst h1
  cases s with
  | inl n =>
    cases s' with
    | inl n' =>
      have hn : n = n' := congrArg (fun x : GSem nD τ sig × ℕ × DN => x.2.2) h
      rw [hn]
    | inr i' =>
      exact absurd (show (SemLoc.reg barS : SemLoc sig) = SemLoc.dma (dsem i'.1 i'.2.1 i'.2.2) from congrArg (fun x : GSem nD τ sig × ℕ × DN => x.1.2) h)
        (fun h => by cases h)
  | inr i =>
    cases s' with
    | inl n' =>
      exact absurd (show (SemLoc.dma (dsem i.1 i.2.1 i.2.2) : SemLoc sig) = SemLoc.reg barS from congrArg (fun x : GSem nD τ sig × ℕ × DN => x.1.2) h)
        (fun h => by cases h)
    | inr i' =>
      have e : dsem i.1 i.2.1 i.2.2 = dsem i'.1 i'.2.1 i'.2.2 :=
        SemLoc.dma.inj (show (SemLoc.dma (dsem i.1 i.2.1 i.2.2) : SemLoc sig) = SemLoc.dma (dsem i'.1 i'.2.1 i'.2.2) from
          congrArg (fun x : GSem nD τ sig × ℕ × DN => x.1.2) h)
      obtain ⟨h1, h2, h3⟩ := dsem_inj e
      have : i = i' := Prod.ext h1 (Prod.ext h2 h3)
      rw [this]

def ringToks : Finset (GSem nD τ sig × ℕ × DN) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun n : DN => dutyTok ER (barC c) 0 n)
    ∗ bigSep Finset.univ fun i : CI => dutyTok ER (dC c i.1 i.2.1 i.2.2) 0 (0 : DN))

/-- What the launch element deals device `c`: the round state of each of its cells, its position at and the reached-mark of
    round 0 of each, and its own cells' tokens. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- What the step over all devices makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are its forty-eight DMA cells at zero; -/
theorem ownSems0_eq (c : Dev nD) : (Pipeline.ownSems0 (Ix := Unit) (Name := ℕ) (U := UU) (Lvl := ℕ) (Val := Elt F) (τ := τ) osem c : sProp 𝕄)
    = bigSep Finset.univ fun i : CI => semVal (dC c i.1 i.2.1 i.2.2) 0 := by
  unfold Pipeline.ownSems0; rfl

/-- the barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

instance records_persistent (K : Dev nD × CK → ℕ) : BI.Persistent (records m K) := by unfold records; infer_instance

theorem ghost_intro (K : Dev nD × CK → ℕ) (c : Dev nD) : iprop(records m K ∗ iprop(positions c ∗ payToks c)) ⊢ G' m c := by
  unfold G' ghost
  iintro ⟨HR, HP, HT⟩
  iexists K
  isplitl [HR]; · iexact HR
  isplitl [HP]; · iexact HP
  iexact HT

/-! ## The tokens dealt to their payers -/

/-- The receive cells device `c` sends into, in program order: the owner, and the cell's place in the owner's arrays. -/
def payCellsL (c : Dev nD) : List (Dev nD × CI) :=
  [ (zP c 1, (1, 0, zF c)), (zP c 2, (1, 0, zF c)), (zP c 3, (1, 0, zF c)),
    (zP c 1, (1, 1, zF c)), (zP c 2, (1, 1, zF c)), (zP c 3, (1, 1, zF c)),
    (yP c 1, (3, 0, yF c)), (yP c 2, (3, 0, yF c)), (yP c 3, (3, 0, yF c)),
    (xP c, (5, 0, yF c)),
    (xP c, (5, 0, yj c 1)), (xP c, (5, 0, yj c 2)), (xP c, (5, 0, yj c 3)),
    (yP c 1, (3, 1, yF c)), (yP c 2, (3, 1, yF c)), (yP c 3, (3, 1, yF c)),
    (xP c, (5, 1, yF c)),
    (xP c, (5, 1, yj c 1)), (xP c, (5, 1, yj c 2)), (xP c, (5, 1, yj c 3)) ]

/-- A receive cell with the credit of one block. -/
def gC (x : Dev nD × CI) : GSem nD τ sig × ℕ := (dC x.1 x.2.1 x.2.2.1 x.2.2.2, N)

theorem pays_drop (c : Dev nD) : (pays c).drop 7 = (payCellsL c).map gC := rfl

theorem gC_injective : Function.Injective gC := fun x y h => by
  have h1 : kcell (x.1, some x.2) = kcell (y.1, some y.2) := congrArg Prod.fst h
  have h2 := kcell_injective h1
  have e1 : x.1 = y.1 := congrArg (fun z : Dev nD × CK => z.1) h2
  have e2 : some x.2 = some y.2 := congrArg (fun z : Dev nD × CK => z.2) h2
  exact Prod.ext e1 (Option.some.inj e2)

/-- The device that sends into a receive cell: for the z phase's the device of the owner's x and y at the z coordinate the
    slot names; for the y phase's likewise along y; for the x phase's the owner's peer along x. -/
def sndr (x : Dev nD × CI) : Dev nD :=
  if x.2.1.val = 1 then atZ x.1 x.2.2.2 else if x.2.1.val = 3 then atY x.1 x.2.2.2 else xP x.1

theorem payCellsL_sndr_all : ∀ c : Dev nD, (payCellsL c).all (fun x => decide (sndr x = c)) = true := by decide +kernel
theorem payCellsL_odd_all : ∀ c : Dev nD, (payCellsL c).all (fun x => decide (¬ (x.2.1.val % 2 = 0))) = true := by decide +kernel

theorem payCellsL_sndr (c : Dev nD) : ∀ x ∈ payCellsL c, sndr x = c :=
  fun x hx => of_decide_eq_true (List.all_eq_true.mp (payCellsL_sndr_all c) x hx)
theorem payCellsL_odd (c : Dev nD) : ∀ x ∈ payCellsL c, ¬ (x.2.1.val % 2 = 0) :=
  fun x hx => of_decide_eq_true (List.all_eq_true.mp (payCellsL_odd_all c) x hx)

theorem payCells_disjoint (c c' : Dev nD) (h : c ≠ c') : Disjoint (payCellsL c).toFinset (payCellsL c').toFinset :=
  Finset.disjoint_left.mpr fun x hx hx' =>
    h ((payCellsL_sndr c x (List.mem_toFinset.mp hx)).symm.trans (payCellsL_sndr c' x (List.mem_toFinset.mp hx')))

/-- A device's barrier tokens go to its neighbours: the map (device, neighbour's name) ↦ (that neighbour, the device's name
    there) is its own inverse. -/
def nbEquiv : Dev nD × DN ≃ Dev nD × DN where
  toFun x := (nb x.1 x.2, inv x.2)
  invFun x := (nb x.1 x.2, inv x.2)
  left_inv x := Prod.ext (nb_nb x.1 x.2) (inv_inv x.2)
  right_inv x := Prod.ext (nb_nb x.1 x.2) (inv_inv x.2)

theorem toks_bar : (bigSep Finset.univ fun c : Dev nD => bigSep Finset.univ fun n : DN => (dutyTok ER (barC c) 0 n : sProp 𝕄))
    = bigSep Finset.univ fun c : Dev nD => bigSep Finset.univ fun n : DN => dutyTok ER (barC (nb c n)) 0 (inv n) := by
  rw [← bigSep_univ_prod (fun x : Dev nD × DN => (dutyTok ER (barC x.1) 0 x.2 : sProp 𝕄)), bigSep_univ_equiv nbEquiv, bigSep_univ_prod]
  rfl

/-- The tokens of the receive cells, each to the device that sends into the cell. -/
theorem toks_recv :
    (bigSep Finset.univ fun c : Dev nD => bigSep (Finset.univ.filter fun i : CI => ¬ (i.1.val % 2 = 0)) fun i => (dutyTok ER (dC c i.1 i.2.1 i.2.2) 0 (0 : DN) : sProp 𝕄))
      ⊢ bigSep Finset.univ fun c : Dev nD => bigSep ((pays c).drop 7).toFinset fun p => dutyTok ER p.1 0 (0 : DN) := by
  have h1 : (bigSep Finset.univ fun c : Dev nD => bigSep (Finset.univ.filter fun i : CI => ¬ (i.1.val % 2 = 0)) fun i => (dutyTok ER (dC c i.1 i.2.1 i.2.2) 0 (0 : DN) : sProp 𝕄))
      = bigSep Finset.univ fun x : Dev nD × CI => if ¬ (x.2.1.val % 2 = 0) then (dutyTok ER (dC x.1 x.2.1 x.2.2.1 x.2.2.2) 0 (0 : DN) : sProp 𝕄) else iprop(emp) := by
    rw [bigSep_univ_prod]
    exact bigSep_congr fun c _ => bigSep_filter _ _ _
  have h2 (c : Dev nD) : (bigSep ((pays c).drop 7).toFinset fun p => (dutyTok ER p.1 0 (0 : DN) : sProp 𝕄))
      = bigSep (payCellsL c).toFinset fun x => if ¬ (x.2.1.val % 2 = 0) then (dutyTok ER (dC x.1 x.2.1 x.2.2.1 x.2.2.2) 0 (0 : DN) : sProp 𝕄) else iprop(emp) := by
    rw [pays_drop, toFinset_map_image, bigSep_image_of_injOn (gC_injective.injOn)]
    exact bigSep_congr fun x hx => (if_pos (payCellsL_odd c x (List.mem_toFinset.mp hx))).symm
  rw [h1, bigSep_congr (s := Finset.univ) fun (c : Dev nD) _ => h2 c,
    ← bigSep_biUnion_disjoint Finset.univ (fun c : Dev nD => (payCellsL c).toFinset) _ (fun c _ c' _ h => payCells_disjoint c c' h)]
  exact bigSep_subset (Finset.subset_univ _)

/-- Every device's own tokens, dealt: a barrier token to the neighbour that pays it, a receive cell's token to the device
    that sends into it; a send cell's token stays with its owner. -/
theorem toks_regroup : (bigSep Finset.univ fun c : Dev nD => (toks c : sProp 𝕄)) ⊢ bigSep Finset.univ fun c : Dev nD => payToks c := by
  have hsplit (c : Dev nD) : (bigSep Finset.univ fun i : CI => (dutyTok ER (dC c i.1 i.2.1 i.2.2) 0 (0 : DN) : sProp 𝕄))
      = iprop((bigSep (Finset.univ.filter fun i : CI => i.1.val % 2 = 0) fun i => dutyTok ER (dC c i.1 i.2.1 i.2.2) 0 (0 : DN))
          ∗ bigSep (Finset.univ.filter fun i : CI => ¬ (i.1.val % 2 = 0)) fun i => dutyTok ER (dC c i.1 i.2.1 i.2.2) 0 (0 : DN)) :=
    bigSep_filter_split Finset.univ (fun i : CI => i.1.val % 2 = 0)
  have hsend (c : Dev nD) : (bigSep (Finset.univ.filter fun i : CI => i.1.val % 2 = 0) fun i => (dutyTok ER (dC c i.1 i.2.1 i.2.2) 0 (0 : DN) : sProp 𝕄))
      ⊢ bigSep (Finset.univ.filter fun i : CI => i.1.val % 2 = 0 ∧ used c i.1 i.2.2) fun i => dutyTok ER (dC c i.1 i.2.1 i.2.2) 0 (0 : DN) :=
    bigSep_subset fun i hi => Finset.mem_filter.mpr ⟨Finset.mem_univ _, (Finset.mem_filter.mp hi).2.1⟩
  unfold toks payToks
  rw [bigSep_sep', bigSep_sep', bigSep_sep', toks_bar, bigSep_congr (s := Finset.univ) fun (c : Dev nD) _ => hsplit c, bigSep_sep']
  iintro ⟨Hb, He, Ho⟩
  isplitl [Hb]; · iexact Hb
  isplitl [Ho]
  · iapply (toks_recv (F := F)); iexact Ho
  · have hE : (bigSep Finset.univ fun c : Dev nD => bigSep (Finset.univ.filter fun i : CI => i.1.val % 2 = 0) fun i => (dutyTok ER (dC c i.1 i.2.1 i.2.2) 0 (0 : DN) : sProp 𝕄))
        ⊢ bigSep Finset.univ fun c : Dev nD => bigSep (Finset.univ.filter fun i : CI => i.1.val % 2 = 0 ∧ used c i.1 i.2.2) fun i => dutyTok ER (dC c i.1 i.2.1 i.2.2) 0 (0 : DN) :=
      bigSep_mono fun c _ => hsend c
    iapply hE; iexact He

/-! ## The step over all devices -/

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_regroup (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- Own and unscoped semaphores of every device at once: all cells' invariants under one update. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What every device owes at launch. -/
def O0 (d : Dev nD) : CellTallies nD τ sig Unit := owedFrom d 0

/-- A cell's unit: one on a barrier cell, a block's credit on a DMA cell. -/
def amtOf : CK → ℕ
  | none => 1
  | some _ => N

/-- The cells device `c` pays, in program order, by (owner, which of the owner's cells). -/
def payKeysL (c : Dev nD) : List (Dev nD × CK) :=
  ([zP c 1, zP c 2, zP c 3, yP c 1, yP c 2, yP c 3, xP c].map fun p => (p, (none : CK)))
    ++ (payCellsL c).map fun x => (x.1, some x.2)

theorem pays_eq (c : Dev nD) : pays c = (payKeysL c).map fun y => (kcell y, amtOf y.2) := rfl

/-- How often a list names a cell. -/
def hits (y : Dev nD × CK) : List (Dev nD × CK) → ℕ
  | [] => 0
  | x :: l => hits y l + (if x = y then 1 else 0)

theorem tallies_keys (l : List (Dev nD × CK)) (y : Dev nD × CK) :
    tallies (l.map fun x => (kcell x, amtOf x.2)) (kcell y) () = hits y l * amtOf y.2 := by
  induction l with
  | nil =>
    show (0 : CellTallies nD τ sig Unit) (kcell y) () = 0 * amtOf y.2
    rw [Nat.zero_mul]; rfl
  | cons x l ih =>
    show (tallies (l.map fun x => (kcell x, amtOf x.2)) + tallyAt (kcell x) () (amtOf x.2)) (kcell y) ()
      = (hits y l + (if x = y then 1 else 0)) * amtOf y.2
    rw [Pi.add_apply, Finsupp.add_apply, ih, tallyAt_apply, Nat.add_mul]
    congr 1
    by_cases h : x = y
    · subst h; rw [if_pos ⟨rfl, rfl⟩, if_pos rfl, Nat.one_mul]
    · rw [if_neg (fun h' => h (kcell_injective h'.1).symm), if_neg h, Nat.zero_mul]

theorem owed_key (d : Dev nD) (y : Dev nD × CK) : O0 d (kcell y) () = hits y (payKeysL d) * amtOf y.2 := by
  show tallies (pays d) (kcell y) () = _
  rw [pays_eq]; exact tallies_keys _ y

theorem owed_bar (d c : Dev nD) : O0 d (barC c) () = hits (c, none) (payKeysL d) :=
  (owed_key d (c, none)).trans (Nat.mul_one _)
theorem owed_dma (d c : Dev nD) (i : CI) : O0 d (dC c i.1 i.2.1 i.2.2) () = hits (c, some i) (payKeysL d) * N :=
  owed_key d (c, some i)

theorem hits_eq_zero {y : Dev nD × CK} : ∀ {l : List (Dev nD × CK)}, y ∉ l → hits y l = 0
  | [], _ => rfl
  | x :: l, h => by
    have hx : x ≠ y := fun e => h (List.mem_cons.mpr (Or.inl e.symm))
    have hl : y ∉ l := fun e => h (List.mem_cons.mpr (Or.inr e))
    show hits y l + (if x = y then 1 else 0) = 0
    rw [hits_eq_zero hl, if_neg hx]

/-- A DMA cell a device pays is one of the receive cells it sends into. -/
theorem mem_payKeys_some {c d : Dev nD} {i : CI} (h : (c, some i) ∈ payKeysL d) : (c, i) ∈ payCellsL d := by
  unfold payKeysL at h
  rcases List.mem_append.mp h with h | h
  · obtain ⟨p, -, e⟩ := List.mem_map.mp h
    have e' : (none : CK) = some i := congrArg (fun z : Dev nD × CK => z.2) e
    cases e'
  · obtain ⟨x, hx, e⟩ := List.mem_map.mp h
    have e1 : x.1 = c := congrArg (fun z : Dev nD × CK => z.1) e
    have e2 : x.2 = i := Option.some.inj (congrArg (fun z : Dev nD × CK => z.2) e)
    have e3 : x = (c, i) := Prod.ext e1 e2
    exact e3 ▸ hx

/-- Exactly its seven neighbours pay a device's barrier cell, once each; -/
theorem bar_hits : ∀ c : Dev nD, (∑ d : Dev nD, hits (c, none) (payKeysL d)) = 7 := by decide +kernel

/-- the device that sends into a used receive cell pays it once, -/
theorem recv_at : ∀ (c : Dev nD) (i : CI), i.1.val % 2 = 1 → used c i.1 i.2.2 → hits (c, some i) (payKeysL (sndr (c, i))) = 1 := by
  decide +kernel

/-- and no other device pays it. -/
theorem recv_hits (c : Dev nD) (i : CI) (ho : i.1.val % 2 = 1) (hu : used c i.1 i.2.2) : (∑ d : Dev nD, hits (c, some i) (payKeysL d)) = 1 := by
  rw [Finset.sum_eq_single (sndr (c, i)) (fun d _ hd => hits_eq_zero fun h => hd (payCellsL_sndr d _ (mem_payKeys_some h)).symm)
    (fun h => absurd (Finset.mem_univ _) h)]
  exact recv_at c i ho hu

theorem launch_bar (c : Dev nD) :
    tallyOn (barC c) (launchCredit (Pipeline.owing O0) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owed_bar d c, bar_hits]

theorem launch_recv (c : Dev nD) (i : CI) (ho : i.1.val % 2 = 1) (hu : used c i.1 i.2.2) :
    tallyOn (dC c i.1 i.2.1 i.2.2) (launchCredit (Pipeline.owing O0) 0 (dC c i.1 i.2.1 i.2.2))
      = (tallyAt (dC c i.1 i.2.1 i.2.2) () N : CellTallies nD τ sig Unit) := by
  unfold tallyAt; refine congrArg _ (Finsupp.ext fun u => ?_); cases u
  rw [Pipeline.launchCredit_owing, Finsupp.single_eq_same, Finset.sum_congr rfl fun d _ => owed_dma d c i, ← Finset.sum_mul,
    recv_hits c i ho hu, Nat.one_mul]

theorem creds (c : Dev nD) : (Pipeline.launchCred O0 c : sProp 𝕄) ⊢ launchCreds c := by
  unfold Pipeline.launchCred launchCreds
  rw [bigSep_univ_at _ (SemLoc.reg barS), launch_bar]
  refine sep_mono_right ?_
  refine (bigSep_subset (t := (Finset.univ.filter fun i : CI => i.1.val % 2 = 1 ∧ used c i.1 i.2.2).map ⟨osem, ownSemFacts.inj⟩) ?_).trans ?_
  · intro sm h
    obtain ⟨i, -, rfl⟩ := Finset.mem_map.mp h
    have hne : (SemLoc.dma (dsem i.1 i.2.1 i.2.2) : SemLoc sig) ≠ SemLoc.reg barS := fun e => by cases e
    exact Finset.mem_erase.mpr ⟨hne, Finset.mem_univ _⟩
  · rw [bigSep_map]
    refine bigSep_mono fun i hi => ?_
    obtain ⟨-, ho, hu⟩ := Finset.mem_filter.mp hi
    exact Entails.of_eq (congrArg cred (launch_recv c i ho hu))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: given each
    device's body from its start, every weakly fair execution of the program terminates, and every final state has each
    device's three window arrays at the contents the proof data ends with. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The two argument arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_y (c : Dev nD) : finalA m ρ c (1 : Fin 3) = (s₀ m ρ).mem (win0_1.arr.view.loc (c : Thread nD τ)) :=
  (dats (F := F) m ρ 0 c).arrAt_in (1 : Fin 3) rfl _

/-- The result array after the run holds the device's sixteen pieces: the one point writes the whole staging buffer back. -/
theorem finalA_out (c : Dev nD) : finalA m ρ c (2 : Fin 3) = outAt m c := by
  have hf : (cfg0.win 2).flush t0_0 = true := by decide +kernel
  show (dats m ρ 0 c).arrAt 2 ((t0_0 : Fin cfg0.N).val + 1) = _
  rw [Dat.arrAt_succ, if_pos hf]
  have hz : (fun a => win0_2.index t0_0 a * main_v1.ty.shape.size a) = fun _ => 0 := funext fun a => by fin_cases a <;> decide
  exact Memref.write_access_unit_zero_univ (Elt F) main_v1 hz (fun a => by rw [congrFun hz a]; simp) _ (outAt m c)

/-- info: 'Cert.KernelIdeal.Coll.run_main' depends on axioms: [propext, Classical.choice, Quot.sound] -/
#guard_msgs in #print axioms run_main

end Cert.KernelIdeal.Coll

end
-- ==== Proof.FinalFrame.lean ====
/- The frame of the whole mesh: the run from the launch, read at the two argument arrays. Each is the whole array of an
   input window, and the proof data leaves an input window's array as the launch found it, so on every device both
   arguments end holding what they held. -/
import proofs.«901051_g7700000000001052_dist_rsdw_v7x_xyz2x4x4_z_m1024_d1024_f4096_bf16_1_alg».proof.Proof.Launch

noncomputable section

namespace Cert.KernelIdeal.Coll

open Cert.KernelIdeal Cert.KernelIdeal.Gen Cert.KernelIdeal.Mesh

open Idealize.ShloMosaic
open Idealize.ShloMosaic.TcCoe
open Idealize.SL.Sem
open Idealize.ShloMosaic.Pipeline (Dat Cfg Window BodyObligation cellOf)

/-- For any float values, from any memory with zero counters, given each device's body: every weakly fair execution of
    the program on the thirty-two devices terminates, and on every device the two argument arrays end unchanged. -/
theorem frameK {F : FTy → Type} [FloatOps F] (m : (ℓ : Loc nD τ sig) → Buf (Elt F) ℓ) (ρ : Dev nD → PrngReg)
    (hbody : ∀ c, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (0 : Fin 3)).trans (finalA_x m ρ c), (h c (1 : Fin 3)).trans (finalA_y m ρ c)⟩)
    (run_main m ρ hbody)

end Cert.KernelIdeal.Coll

end
-- ==== Proof.ValueMatmul.lean ====
/- The partial products at the exact values, entry by entry: a device's product of its block of x, transposed, with the
   256 columns of its block of dy it multiplies by in each half, read as the sum over the 1024 rows the two blocks
   share; and block j of its rows. -/
import proofs.«901051_g7700000000001052_dist_rsdw_v7x_xyz2x4x4_z_m1024_d1024_f4096_bf16_1_alg».proof.Proof.Vals
import Idealize.ShloMosaic.Lib.ValueIdx
import Idealize.ShloMosaic.Lib.Pipeline.Value
import Idealize.ShloMosaic.PureOps.Ideal.Laws

noncomputable section

namespace Cert.KernelIdeal.Coll

open Cert.KernelIdeal Cert.KernelIdeal.Gen Cert.KernelIdeal.Mesh

open Idealize.ShloMosaic
open Idealize.ShloMosaic.TcCoe
open Idealize.ShloMosaic.ValueIdx
open Idealize.SL.Sem
open scoped BigOperators

/-! ## The contraction: both operands contracted over their rows -/

theorem lhs_dot_0 (i : S1024x256.Idx) (q : dot_S1024x1024_S1024x256_S1024x256_0_0_1_1_n_n.contr.Idx) :
    (dot_S1024x1024_S1024x256_S1024x256_0_0_1_1_n_n.lhsIdx i q 0).val = (q ⟨0, by decide⟩).val :=
  dot_S1024x1024_S1024x256_S1024x256_0_0_1_1_n_n.lhsIdx_val_of_single rfl i q
theorem lhs_dot_1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch by decide), dif_pos (show (1 : Fin S1024x1024.rank) ∈ dot_S1024x1024_S1024x256_S1024x256_0_0_1_1_n_n.lhsNonContracting by decide)]
  rfl
theorem rhs_dot_0 (i : S1024x256.Idx) (q : dot_S1024x1024_S1024x256_S1024x256_0_0_1_1_n_n.contr.Idx) :
    (dot_S1024x1024_S1024x256_S1024x256_0_0_1_1_n_n.rhsIdx i q 0).val = (q ⟨0, by decide⟩).val :=
  dot_S1024x1024_S1024x256_S1024x256_0_0_1_1_n_n.rhsIdx_val_of_single rfl i q
theorem rhs_dot_1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch by decide), dif_pos (show (1 : Fin S1024x256.rank) ∈ dot_S1024x1024_S1024x256_S1024x256_0_0_1_1_n_n.rhsNonContracting by decide)]
  rfl

/-- The product into the zero accumulator, at row `p` and column `q`: the sum over the shared rows `k` of the left
    operand at `(k, p)` times the right at `(k, q)`. -/
theorem matmul_rows_apply {φ₁ φ₂ : FTy} (lhs : FVec Ideal S1024x1024 φ₁) (rhs : FVec Ideal S1024x256 φ₂) (p : Fin 1024) (q : Fin 256) :
    matmul dot_S1024x1024_S1024x256_S1024x256_0_0_1_1_n_n none lhs rhs (constant S1024x256 .f32 0x00000000#32) (ix2 p q)
      = ∑ k : Fin 1024, lhs (ix2 k p) * rhs (ix2 k q) := by
  simp only [matmul]
  rw [Ideal.matmul_constant_zero_apply, ← Equiv.sum_comp (contrEquiv1 dot_S1024x1024_S1024x256_S1024x256_0_0_1_1_n_n 1024 rfl rfl).symm]
  refine Finset.sum_congr rfl fun k _ => ?_
  have hk := contrEquiv1_symm_val dot_S1024x1024_S1024x256_S1024x256_0_0_1_1_n_n 1024 rfl rfl k
  have el : dot_S1024x1024_S1024x256_S1024x256_0_0_1_1_n_n.lhsIdx (ix2 p q) ((contrEquiv1 dot_S1024x1024_S1024x256_S1024x256_0_0_1_1_n_n 1024 rfl rfl).symm k) = ix2 k p := funext fun a => Fin.ext (by
    match a with
    | ⟨0, _⟩ => exact (lhs_dot_0 _ _).trans hk
    | ⟨1, _⟩ => exact lhs_dot_1 _ _)
  have er : dot_S1024x1024_S1024x256_S1024x256_0_0_1_1_n_n.rhsIdx (ix2 p q) ((contrEquiv1 dot_S1024x1024_S1024x256_S1024x256_0_0_1_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-! ## The three payloads of the product -/

/-- An element of a thirty-two-bit or sixteen-bit vector at the exact values, as the extended real it is. -/
abbrev r32 (x : Elt Ideal .f32) : EReal := x
abbrev r16 (x : Elt Ideal .bf16) : EReal := x

/-- The narrowed left operand is the operand. -/
theorem k0_pay1_apply (x : Vec Ideal S1024x1024 .f32) (i : S1024x1024.Idx) :
    k0_pay1 (F := Ideal) x i = x i := by
  unfold k0_pay1
  simp only [shapeCast_self]
  rfl

/-- Half 0's product at `(p, q)`. -/
theorem k0_pay2_apply (x : Vec Ideal S1024x1024 .f32) (y : Vec Ideal S1024x256 .f32) (p : Fin 1024) (q : Fin 256) :
    k0_pay2 (F := Ideal) x y (ix2 p q) = ∑ k : Fin 1024, r32 (x (ix2 k p)) * r32 (y (ix2 k q)) := by
  unfold k0_pay2
  simp only [shapeCast_self]
  refine Eq.trans (truncf_apply (ψ := FTy.bf16) _ bitsLt_bf16_f32 (ix2 p q)) ?_
  refine (matmul_rows_apply _ _ p q).trans ?_
  refine Finset.sum_congr rfl fun k _ => ?_
  rw [k0_pay1_apply] <;> rfl

/-- Half 1's product at `(p, q)`, the left operand already narrowed. -/
theorem k0_pay3_apply (x : FVec Ideal S1024x1024 .bf16) (y : Vec Ideal S1024x256 .f32) (p : Fin 1024) (q : Fin 256) :
    k0_pay3 (F := Ideal) x y (ix2 p q) = ∑ k : Fin 1024, (x (ix2 k p) : EReal) * r32 (y (ix2 k q)) := by
  unfold k0_pay3
  simp only [shapeCast_self]
  refine Eq.trans (truncf_apply (ψ := FTy.bf16) _ bitsLt_bf16_f32 (ix2 p q)) ?_
  refine (matmul_rows_apply _ _ p q).trans ?_
  rfl

/-! ## The columns of dy a device multiplies by -/

variable (m : (ℓ : Loc nD τ sig) → Buf (Elt Ideal) ℓ)

theorem col_lt (c : Dev nD) (h : Fin 2) (q : Fin 256) : 2048 * xc c + 512 * yc c + 256 * h.val + q.val < 4096 := by
  have := xc_lt c; have := yc_lt c; have := h.isLt; have := q.isLt; omega

/-- A device's block of x and of dy as arrays of extended reals. -/
abbrev xR (c : Dev nD) : S1024x1024.Idx → EReal := xV (F := Ideal) m c
abbrev yR (c : Dev nD) : S1024x4096.Idx → EReal := yV (F := Ideal) m c

/-- Half 0's columns read at `(k, q)`: column `2048 x + 512 y + q` of the block of dy. -/
theorem yHalf0_apply (c : Dev nD) (k : Fin 1024) (q : Fin 256) :
    r32 (yHalf0 (F := Ideal) m c (ix2 k q)) = yR m c (ix2 k ⟨2048 * xc c + 512 * yc c + 256 * (0 : Fin 2).val + q.val, col_lt c 0 q⟩) := by
  show yV (F := Ideal) m c ((Rect.unit (s := S1024x4096) (k0_off1 c 0#32) S1024x256.size (k0_off1_inb c 0)).toLoadRect.idx (ix2 k q)) = _
  refine congrArg (yV (F := Ideal) m c) (funext fun a => Fin.ext ?_)
  match a with
  | ⟨0, _⟩ =>
    show (k0_off1 c 0#32) 0 + 1 * k.val = k.val
    rw [off1_0 c]
    show 0 + 1 * k.val = k.val
    omega
  | ⟨1, _⟩ =>
    show (k0_off1 c 0#32) 1 + 1 * q.val = 2048 * xc c + 512 * yc c + 256 * 0 + q.val
    rw [off1_0 c]
    show 2048 * xc c + 512 * yc c + 0 + 1 * q.val = 2048 * xc c + 512 * yc c + 256 * 0 + q.val
    omega

/-- Half 1's columns read at `(k, q)`: column `2048 x + 512 y + 256 + q`. -/
theorem yHalf1_apply (c : Dev nD) (k : Fin 1024) (q : Fin 256) :
    r32 (yHalf1 (F := Ideal) m c (ix2 k q)) = yR m c (ix2 k ⟨2048 * xc c + 512 * yc c + 256 * (1 : Fin 2).val + q.val, col_lt c 1 q⟩) := by
  show yV (F := Ideal) m c ((Rect.unit (s := S1024x4096) (k0_off1 c 256#32) S1024x256.size (k0_off1_inb c 1)).toLoadRect.idx (ix2 k q)) = _
  refine congrArg (yV (F := Ideal) m c) (funext fun a => Fin.ext ?_)
  match a with
  | ⟨0, _⟩ =>
    show (k0_off1 c 256#32) 0 + 1 * k.val = k.val
    rw [off1_256 c]
    show 0 + 1 * k.val = k.val
    omega
  | ⟨1, _⟩ =>
    show (k0_off1 c 256#32) 1 + 1 * q.val = 2048 * xc c + 512 * yc c + 256 * 1 + q.val
    rw [off1_256 c]
    show 2048 * xc c + 512 * yc c + 256 + 1 * q.val = 2048 * xc c + 512 * yc c + 256 * 1 + q.val
    omega

/-! ## The partial product and its blocks -/

/-- The partial product of half `h` at `(p, q)`: the sum over the 1024 shared rows of x at `(k, p)` times dy at
    `(k, 2048 x + 512 y + 256 h + q)`. -/
theorem pbFull_apply (c : Dev nD) (h : Fin 2) (p : Fin 1024) (q : Fin 256) :
    pbFull (F := Ideal) m c h (ix2 p q)
      = ∑ k : Fin 1024, xR m c (ix2 k p) * yR m c (ix2 k ⟨2048 * xc c + 512 * yc c + 256 * h.val + q.val, col_lt c h q⟩) := by
  obtain ⟨h, hh⟩ := h
  match h, hh with
  | 0, _ =>
    show k0_pay2 (F := Ideal) (xV (F := Ideal) m c) (yHalf0 (F := Ideal) m c) (ix2 p q) = _
    rw [k0_pay2_apply]
    refine Finset.sum_congr rfl fun k _ => ?_
    rw [yHalf0_apply] <;> rfl
  | 1, _ =>
    show k0_pay3 (F := Ideal) (k0_pay1 (F := Ideal) (xV (F := Ideal) m c)) (yHalf1 (F := Ideal) m c) (ix2 p q) = _
    rw [k0_pay3_apply]
    refine Finset.sum_congr rfl fun k _ => ?_
    rw [k0_pay1_apply, yHalf1_apply] <;> rfl

theorem row_lt (j : Fin 4) (r : Fin 256) : 256 * j.val + r.val < 1024 := by
  have := j.isLt; have := r.isLt; omega

/-- Block `j` of the rows of the partial product, at `(r, q)`. -/
theorem pbVal_apply (c : Dev nD) (j : Fin 4) (h : Fin 2) (r q : Fin 256) :
    pbVal (F := Ideal) m c j h (ix2 r q)
      = ∑ k : Fin 1024, xR m c (ix2 k ⟨256 * j.val + r.val, row_lt j r⟩)
          * yR m c (ix2 k ⟨2048 * xc c + 512 * yc c + 256 * h.val + q.val, col_lt c h q⟩) :=
  pbFull_apply m c h ⟨256 * j.val + r.val, row_lt j r⟩ q

/-- info: 'Cert.KernelIdeal.Coll.pbVal_apply' depends on axioms: [propext, Classical.choice, Quot.sound] -/
#guard_msgs in #print axioms pbVal_apply

end Cert.KernelIdeal.Coll

end
-- ==== Proof.ValueSum.lean ====
/- The sums over the z axis at the exact values, entry by entry: a device's own block of its partial product plus the
   three blocks it receives, in the order the kernel adds them; the same sum read back from the sixteen-bit block a
   device stores and sends on; and a received block widened for the result. -/
import proofs.«901051_g7700000000001052_dist_rsdw_v7x_xyz2x4x4_z_m1024_d1024_f4096_bf16_1_alg».proof.Proof.ValueMatmul
import Mathlib.Tactic.Abel

noncomputable section

namespace Cert.KernelIdeal.Coll

open Cert.KernelIdeal Cert.KernelIdeal.Gen Cert.KernelIdeal.Mesh

open Idealize.ShloMosaic
open Idealize.ShloMosaic.TcCoe
open Idealize.ShloMosaic.ValueIdx
open Idealize.SL.Sem
open scoped BigOperators

/-! ## The two changes of shape around a 256 × 256 block -/

/-- A 1 × 1 × 256 × 256 vector viewed 256 × 256 reads `(0, 0, r, q)` at `(r, q)`. -/
theorem cast42_apply {α : Type} (w : S1x1x256x256.Idx → α) (h : S1x1x256x256.ShapeCasts S256x256) (r q : Fin 256) :
    shapeCast S256x256 w h (ix2 r q) = w (ix4 0 0 r q) := by
  refine shapeCast_apply w h (ix2 r q) (ix4 0 0 r q) ?_
  rw [Shape.rowMajor_val_four, Shape.rowMajor_val_two]
  show ((0 * 1 + 0) * 256 + r.val) * 256 + q.val = r.val * 256 + q.val
  omega

/-- A 256 × 256 vector viewed 1 × 256 × 256 reads `(r, q)` at `(0, r, q)`. -/
theorem cast23_apply {α : Type} (v : S256x256.Idx → α) (h : S256x256.ShapeCasts S1x256x256) (r q : Fin 256) :
    shapeCast S1x256x256 v h (ix3 0 r q) = v (ix2 r q) := by
  refine shapeCast_apply v h (ix3 0 r q) (ix2 r q) ?_
  rw [Shape.rowMajor_val_three, Shape.rowMajor_val_two]
  show r.val * 256 + q.val = (0 * 256 + r.val) * 256 + q.val
  omega

/-! ## The payloads of the sum -/

theorem k0_pay4_apply (v : Vec Ideal S256x256 .bf16) (i : S256x256.Idx) : k0_pay4 (F := Ideal) v i = r16 (v i) := rfl
theorem k0_pay12_apply (v : Vec Ideal S256x256 .bf16) (i : S256x256.Idx) : k0_pay12 (F := Ideal) v i = r16 (v i) := rfl

theorem k0_pay5_apply (a : FVec Ideal S256x256 .f32) (w : Vec Ideal S1x1x256x256 .bf16) (r q : Fin 256) :
    k0_pay5 (F := Ideal) a w (ix2 r q) = a (ix2 r q) + r16 (w (ix4 0 0 r q)) := by
  unfold k0_pay5
  refine (addf_apply _ _ _).trans ?_
  refine congrArg (fun x : EReal => a (ix2 r q) + x) ?_
  exact Eq.trans (extf_apply (ψ := FTy.f32) _ bitsLt_bf16_f32 (ix2 r q)) (cast42_apply w _ r q)

theorem k0_pay6_apply (a : FVec Ideal S256x256 .f32) (w : Vec Ideal S1x1x256x256 .bf16) (r q : Fin 256) :
    k0_pay6 (F := Ideal) a w (ix2 r q) = a (ix2 r q) + r16 (w (ix4 0 0 r q)) := by
  unfold k0_pay6
  refine (addf_apply _ _ _).trans ?_
  refine congrArg (fun x : EReal => a (ix2 r q) + x) ?_
  exact Eq.trans (extf_apply (ψ := FTy.f32) _ bitsLt_bf16_f32 (ix2 r q)) (cast42_apply w _ r q)

theorem k0_pay7_apply (a : FVec Ideal S256x256 .f32) (w : Vec Ideal S1x1x256x256 .bf16) (r q : Fin 256) :
    k0_pay7 (F := Ideal) a w (ix2 r q) = a (ix2 r q) + r16 (w (ix4 0 0 r q)) := by
  unfold k0_pay7
  refine (addf_apply _ _ _).trans ?_
  refine congrArg (fun x : EReal => a (ix2 r q) + x) ?_
  exact Eq.trans (extf_apply (ψ := FTy.f32) _ bitsLt_bf16_f32 (ix2 r q)) (cast42_apply w _ r q)

theorem k0_pay13_apply (a : FVec Ideal S256x256 .f32) (w : Vec Ideal S1x1x256x256 .bf16) (r q : Fin 256) :
    k0_pay13 (F := Ideal) a w (ix2 r q) = a (ix2 r q) + r16 (w (ix4 0 0 r q)) := by
  unfold k0_pay13
  refine (addf_apply _ _ _).trans ?_
  refine congrArg (fun x : EReal => a (ix2 r q) + x) ?_
  exact Eq.trans (extf_apply (ψ := FTy.f32) _ bitsLt_bf16_f32 (ix2 r q)) (cast42_apply w _ r q)

theorem k0_pay14_apply (a : FVec Ideal S256x256 .f32) (w : Vec Ideal S1x1x256x256 .bf16) (r q : Fin 256) :
    k0_pay14 (F := Ideal) a w (ix2 r q) = a (ix2 r q) + r16 (w (ix4 0 0 r q)) := by
  unfold k0_pay14
  refine (addf_apply _ _ _).trans ?_
  refine congrArg (fun x : EReal => a (ix2 r q) + x) ?_
  exact Eq.trans (extf_apply (ψ := FTy.f32) _ bitsLt_bf16_f32 (ix2 r q)) (cast42_apply w _ r q)

theorem k0_pay15_apply (a : FVec Ideal S256x256 .f32) (w : Vec Ideal S1x1x256x256 .bf16) (r q : Fin 256) :
    k0_pay15 (F := Ideal) a w (ix2 r q) = a (ix2 r q) + r16 (w (ix4 0 0 r q)) := by
  unfold k0_pay15
  refine (addf_apply _ _ _).trans ?_
  refine congrArg (fun x : EReal => a (ix2 r q) + x) ?_
  exact Eq.trans (extf_apply (ψ := FTy.f32) _ bitsLt_bf16_f32 (ix2 r q)) (cast42_apply w _ r q)

/-- The sum narrowed and viewed 1 × 256 × 256, read at `(0, r, q)`: the sum at `(r, q)`. -/
theorem k0_pay8_apply (a : FVec Ideal S256x256 .f32) (w : Vec Ideal S1x1x256x256 .bf16) (r q : Fin 256) :
    k0_pay8 (F := Ideal) a w (ix3 0 r q) = k0_pay7 (F := Ideal) a w (ix2 r q) := by
  unfold k0_pay8
  exact Eq.trans (cast23_apply _ _ r q) (truncf_apply (ψ := FTy.bf16) _ bitsLt_bf16_f32 (ix2 r q))
theorem k0_pay16_apply (a : FVec Ideal S256x256 .f32) (w : Vec Ideal S1x1x256x256 .bf16) (r q : Fin 256) :
    k0_pay16 (F := Ideal) a w (ix3 0 r q) = k0_pay15 (F := Ideal) a w (ix2 r q) := by
  unfold k0_pay16
  exact Eq.trans (cast23_apply _ _ r q) (truncf_apply (ψ := FTy.bf16) _ bitsLt_bf16_f32 (ix2 r q))

/-- A loaded slot widened, at `(r, q)`: the slot's `(0, 0, r, q)`. -/
theorem k0_pay9_apply (w : Vec Ideal S1x1x256x256 .bf16) (r q : Fin 256) :
    k0_pay9 (F := Ideal) w (ix2 r q) = r16 (w (ix4 0 0 r q)) := by
  unfold k0_pay9
  exact Eq.trans (extf_apply (ψ := FTy.f32) _ bitsLt_bf16_f32 (ix2 r q)) (cast42_apply w _ r q)

/-! ## The sum over the z axis -/

variable (m : (ℓ : Loc nD τ sig) → Buf (Elt Ideal) ℓ)

/-- Block `j`, half `h`, of device `c`'s partial product at `(r, q)`, as an extended real. -/
abbrev pbE (c : Dev nD) (j : Fin 4) (h : Fin 2) (r q : Fin 256) : EReal := pbVal (F := Ideal) m c j h (ix2 r q)

/-- The sum at `(r, q)`: the device's own block `z(c)` and the blocks `z(c)` of the devices one, two and three steps on
    along z. -/
theorem accVal_apply (c : Dev nD) (h : Fin 2) (r q : Fin 256) :
    accVal (F := Ideal) m c h (ix2 r q)
      = pbE m c (zF c) h r q + pbE m (atZ c (zj c 1)) (zF c) h r q + pbE m (atZ c (zj c 2)) (zF c) h r q
          + pbE m (atZ c (zj c 3)) (zF c) h r q := by
  obtain ⟨h, hh⟩ := h
  match h, hh with
  | 0, _ =>
    show k0_pay7 (F := Ideal) (k0_pay6 (F := Ideal) (k0_pay5 (F := Ideal) (k0_pay4 (F := Ideal) (pbVal (F := Ideal) m c (zF c) 0))
      (up4 (rbVal (F := Ideal) m c 0 (zj c 1)))) (up4 (rbVal (F := Ideal) m c 0 (zj c 2)))) (up4 (rbVal (F := Ideal) m c 0 (zj c 3))) (ix2 r q) = _
    rw [k0_pay7_apply, k0_pay6_apply, k0_pay5_apply] <;> rfl
  | 1, _ =>
    show k0_pay15 (F := Ideal) (k0_pay14 (F := Ideal) (k0_pay13 (F := Ideal) (k0_pay12 (F := Ideal) (pbVal (F := Ideal) m c (zF c) 1))
      (up4 (rbVal (F := Ideal) m c 1 (zj c 1)))) (up4 (rbVal (F := Ideal) m c 1 (zj c 2)))) (up4 (rbVal (F := Ideal) m c 1 (zj c 3))) (ix2 r q) = _
    rw [k0_pay15_apply, k0_pay14_apply, k0_pay13_apply] <;> rfl

/-- The sixteen-bit block a device stores and sends on, at `(r, q)`: the sum there. -/
theorem red2_apply (c : Dev nD) (h : Fin 2) (r q : Fin 256) :
    red2 (F := Ideal) m c h (ix2 r q) = accVal (F := Ideal) m c h (ix2 r q) := by
  obtain ⟨h, hh⟩ := h
  match h, hh with
  | 0, _ =>
    show k0_pay8 (F := Ideal) (k0_pay6 (F := Ideal) (k0_pay5 (F := Ideal) (k0_pay4 (F := Ideal) (pbVal (F := Ideal) m c (zF c) 0))
      (up4 (rbVal (F := Ideal) m c 0 (zj c 1)))) (up4 (rbVal (F := Ideal) m c 0 (zj c 2)))) (up4 (rbVal (F := Ideal) m c 0 (zj c 3))) (ix3 0 r q) = _
    exact k0_pay8_apply _ _ r q
  | 1, _ =>
    show k0_pay16 (F := Ideal) (k0_pay14 (F := Ideal) (k0_pay13 (F := Ideal) (k0_pay12 (F := Ideal) (pbVal (F := Ideal) m c (zF c) 1))
      (up4 (rbVal (F := Ideal) m c 1 (zj c 1)))) (up4 (rbVal (F := Ideal) m c 1 (zj c 2)))) (up4 (rbVal (F := Ideal) m c 1 (zj c 3))) (ix3 0 r q) = _
    exact k0_pay16_apply _ _ r q

/-- A received block widened for the result, at `(r, q)`: the block there. -/
theorem widen_apply (v : Vec Ideal S256x256 .bf16) (r q : Fin 256) : widen (F := Ideal) v (ix2 r q) = r16 (v (ix2 r q)) := by
  exact k0_pay9_apply (up4 v) r q

/-- What a device receives from device `d` over y or x, widened, at `(r, q)`: `d`'s sum. -/
theorem widen_red2_apply (d : Dev nD) (h : Fin 2) (r q : Fin 256) :
    widen (F := Ideal) (red2 (F := Ideal) m d h) (ix2 r q) = accVal (F := Ideal) m d h (ix2 r q) :=
  (widen_apply _ r q).trans (red2_apply m d h r q)

/-! ## Four terms around the z axis are all of it -/

/-- A sum over the four z coordinates, started at any of them. -/
theorem sum_rot4 {M : Type*} [AddCommMonoid M] (f : Fin 4 → M) (a b c d : Fin 4)
    (hb : b.val = (a.val + 1) % 4) (hc : c.val = (a.val + 2) % 4) (hd : d.val = (a.val + 3) % 4) :
    f a + f b + f c + f d = ∑ z : Fin 4, f z := by
  have key : ∀ a b c d : Fin 4, b.val = (a.val + 1) % 4 → c.val = (a.val + 2) % 4 → d.val = (a.val + 3) % 4 →
      (a = 0 ∧ b = 1 ∧ c = 2 ∧ d = 3) ∨ (a = 1 ∧ b = 2 ∧ c = 3 ∧ d = 0) ∨ (a = 2 ∧ b = 3 ∧ c = 0 ∧ d = 1)
        ∨ (a = 3 ∧ b = 0 ∧ c = 1 ∧ d = 2) := by decide
  rw [Fin.sum_univ_four]
  rcases key a b c d hb hc hd with ⟨rfl, rfl, rfl, rfl⟩ | ⟨rfl, rfl, rfl, rfl⟩ | ⟨rfl, rfl, rfl, rfl⟩ | ⟨rfl, rfl, rfl, rfl⟩
  · rfl
  · abel
  · abel
  · abel

/-- info: 'Cert.KernelIdeal.Coll.accVal_apply' depends on axioms: [propext, Classical.choice, Quot.sound] -/
#guard_msgs in #print axioms accVal_apply
/-- info: 'Cert.KernelIdeal.Coll.widen_red2_apply' depends on axioms: [propext, Classical.choice, Quot.sound] -/
#guard_msgs in #print axioms widen_red2_apply

end Cert.KernelIdeal.Coll

end
-- ==== Proof.ValueIdeal.lean ====
/- The value: at the exact values a device's result, as the pure term of the devices' argument blocks that the run
   names, is its block of x transposed times dy. A device's sum over the z axis is the sum over the four row blocks of
   the two arrays of the block products, at the rows its z coordinate names and the 512 columns its x and y
   coordinates name; the result is the sixteen such sums of the devices that share its z coordinate, side by side. -/
import proofs.«901051_g7700000000001052_dist_rsdw_v7x_xyz2x4x4_z_m1024_d1024_f4096_bf16_1_alg».proof.Proof.ValueSum
import proofs.«901051_g7700000000001052_dist_rsdw_v7x_xyz2x4x4_z_m1024_d1024_f4096_bf16_1_alg».proof.Proof.RefAlgebra
import Idealize.ShloMosaic.Lib.Layout

noncomputable section

namespace Cert.KernelIdeal.Coll

open Cert.KernelIdeal Cert.KernelIdeal.Gen Cert.KernelIdeal.Mesh

open Idealize.ShloMosaic
open Idealize.ShloMosaic.TcCoe
open Idealize.ShloMosaic.ValueIdx
open Idealize.SL.Sem
open scoped BigOperators

open Cert.RefValue

/-! ## The coordinates of the devices a sum or a piece comes from -/

theorem atZ_self (c : Dev nD) : atZ c (zF c) = c := Fin.ext (val_eq c).symm

theorem xc_atZ (c : Dev nD) (j : Fin 4) : xc (atZ c j) = xc c := by
  have := xc_lt c; have := yc_lt c; have := j.isLt
  show (16 * xc c + 4 * yc c + j.val) / 16 = xc c
  omega
theorem yc_atZ (c : Dev nD) (j : Fin 4) : yc (atZ c j) = yc c := by
  have := xc_lt c; have := yc_lt c; have := j.isLt
  show ((16 * xc c + 4 * yc c + j.val) / 4) % 4 = yc c
  omega
theorem mod_atZ (c : Dev nD) (j : Fin 4) : (atZ c j).val % 4 = j.val := by
  have := j.isLt
  show (16 * xc c + 4 * yc c + j.val) % 4 = j.val
  omega

theorem xc_atY (c : Dev nD) (j : Fin 4) : xc (atY c j) = xc c := by
  have := xc_lt c; have := zc_lt c; have := j.isLt
  show (16 * xc c + 4 * j.val + zc c) / 16 = xc c
  omega
theorem yc_atY (c : Dev nD) (j : Fin 4) : yc (atY c j) = j.val := by
  have := xc_lt c; have := zc_lt c; have := j.isLt
  show ((16 * xc c + 4 * j.val + zc c) / 4) % 4 = j.val
  omega
theorem mod_atY (c : Dev nD) (j : Fin 4) : (atY c j).val % 4 = c.val % 4 := by
  have := zc_lt c
  show (16 * xc c + 4 * j.val + zc c) % 4 = zc c
  omega

theorem xc_atXY (c : Dev nD) (j : Fin 4) : xc (atXY c j) = 1 - xc c := by
  have := xc_lt c; have := zc_lt c; have := j.isLt
  show (16 * (1 - xc c) + 4 * j.val + zc c) / 16 = 1 - xc c
  omega
theorem yc_atXY (c : Dev nD) (j : Fin 4) : yc (atXY c j) = j.val := by
  have := xc_lt c; have := zc_lt c; have := j.isLt
  show ((16 * (1 - xc c) + 4 * j.val + zc c) / 4) % 4 = j.val
  omega
theorem mod_atXY (c : Dev nD) (j : Fin 4) : (atXY c j).val % 4 = c.val % 4 := by
  have := zc_lt c
  show (16 * (1 - xc c) + 4 * j.val + zc c) % 4 = zc c
  omega

/-! ## The argument blocks as the staging buffers hold them -/

variable (m : (ℓ : Loc nD τ sig) → Buf (Elt Ideal) ℓ)

/-- The argument windows are the whole arrays: what a device's staging buffer holds of x is its argument buffer, -/
theorem xV_eq (c : Dev nD) : xV (F := Ideal) m c = m ((c : Thread nD τ).loc main_arg0) := by
  have hz : (fun a => (win0_0.index (0 : Fin 1)) a * main_arg0.ty.shape.size a) = fun _ => 0 :=
    funext fun a => Nat.zero_mul _
  exact Memref.read_access_unit_zero (Elt Ideal) main_arg0 hz _ _
/-- and of dy. -/
theorem yV_eq (c : Dev nD) : yV (F := Ideal) m c = m ((c : Thread nD τ).loc main_arg1) := by
  have hz : (fun a => (win0_1.index (0 : Fin 1)) a * main_arg1.ty.shape.size a) = fun _ => 0 :=
    funext fun a => Nat.zero_mul _
  exact Memref.read_access_unit_zero (Elt Ideal) main_arg1 hz _ _

/-! ## A device's sum is its part of the product of the whole arrays -/

section Spec

variable (X : (⟨2, ![4096, 1024]⟩ : Shape).Idx → EReal) (Y : (⟨2, ![4096, 4096]⟩ : Shape).Idx → EReal)

/-- Block `z(d)` of the partial product of the device at z coordinate `z'` beside `d`: the product of row blocks `z'` of
    the two arrays, at row `256 z(d) + r` and the column `col` that `d`'s x and y coordinates, the half and `q` name. -/
theorem pb_atZ_eq
    (hx : ∀ c : Dev nD, m ((c : Thread nD τ).loc main_arg0) = Layout.blockN ⟨2, ![1024, 1024]⟩ ⟨2, ![4096, 1024]⟩ (Layout.meshBlock [2, 4, 4] ![[2], []] c) X)
    (hy : ∀ c : Dev nD, m ((c : Thread nD τ).loc main_arg1) = Layout.blockN ⟨2, ![1024, 4096]⟩ ⟨2, ![4096, 4096]⟩ (Layout.meshBlock [2, 4, 4] ![[2], []] c) Y)
    (d : Dev nD) (z' : Fin 4) (h : Fin 2) (r q : Fin 256) (col : Fin 4096)
    (hcol : 2048 * xc d + 512 * yc d + 256 * h.val + q.val = col.val) :
    pbE m (atZ d z') (zF d) h r q
      = ∑ k : Fin 1024, (Layout.blockN ⟨2, ![1024, 1024]⟩ ⟨2, ![4096, 1024]⟩ (Layout.meshBlock [2, 4, 4] ![[2], []] (atZ d z')) X) (ix2 k (⟨256 * (d.val % 4) + r.val, by omega⟩ : Fin 1024))
          * (Layout.blockN ⟨2, ![1024, 4096]⟩ ⟨2, ![4096, 4096]⟩ (Layout.meshBlock [2, 4, 4] ![[2], []] (atZ d z')) Y) (ix2 k col) := by
  show pbVal (F := Ideal) m (atZ d z') (zF d) h (ix2 r q) = _
  rw [pbVal_apply]
  have ec : (⟨2048 * xc (atZ d z') + 512 * yc (atZ d z') + 256 * h.val + q.val, col_lt (atZ d z') h q⟩ : Fin 4096) = col :=
    Fin.ext (by show 2048 * xc (atZ d z') + 512 * yc (atZ d z') + 256 * h.val + q.val = col.val; rw [xc_atZ, yc_atZ]; exact hcol)
  rw [ec]
  have ex : xR m (atZ d z') = (Layout.blockN ⟨2, ![1024, 1024]⟩ ⟨2, ![4096, 1024]⟩ (Layout.meshBlock [2, 4, 4] ![[2], []] (atZ d z')) X) := (xV_eq m _).trans (hx _)
  have ey : yR m (atZ d z') = (Layout.blockN ⟨2, ![1024, 4096]⟩ ⟨2, ![4096, 4096]⟩ (Layout.meshBlock [2, 4, 4] ![[2], []] (atZ d z')) Y) := (yV_eq m _).trans (hy _)
  rw [ex, ey] <;> rfl

/-- Device `d`'s sum over the z axis at `(r, q)`, half `h`, is the product of the whole arrays at row `256 z(d) + r` and
    the column its coordinates name — for any device `c` with `d`'s z coordinate, in `c`'s terms. -/
theorem accVal_eq_spec
    (hx : ∀ c : Dev nD, m ((c : Thread nD τ).loc main_arg0) = Layout.blockN ⟨2, ![1024, 1024]⟩ ⟨2, ![4096, 1024]⟩ (Layout.meshBlock [2, 4, 4] ![[2], []] c) X)
    (hy : ∀ c : Dev nD, m ((c : Thread nD τ).loc main_arg1) = Layout.blockN ⟨2, ![1024, 4096]⟩ ⟨2, ![4096, 4096]⟩ (Layout.meshBlock [2, 4, 4] ![[2], []] c) Y)
    (c d : Dev nD) (hz : d.val % 4 = c.val % 4) (h : Fin 2) (r q : Fin 256) (col : Fin 4096)
    (hcol : 2048 * xc d + 512 * yc d + 256 * h.val + q.val = col.val) :
    accVal (F := Ideal) m d h (ix2 r q) = refSpec X Y (ix2 (⟨256 * (c.val % 4) + r.val, by omega⟩ : Fin 1024) col) := by
  have hrow : (⟨256 * (c.val % 4) + r.val, by omega⟩ : Fin 1024) = ⟨256 * (d.val % 4) + r.val, by omega⟩ :=
    Fin.ext (by show 256 * (c.val % 4) + r.val = 256 * (d.val % 4) + r.val; rw [hz])
  rw [hrow, spec_by_blocks_of X Y (fun z => atZ d z) (fun z => mod_atZ d z) d r col, accVal_apply]
  have h0 : pbE m d (zF d) h r q = pbE m (atZ d (zF d)) (zF d) h r q :=
    (congrArg (fun e => pbE m e (zF d) h r q) (atZ_self d)).symm
  rw [h0, pb_atZ_eq m X Y hx hy d (zF d) h r q col hcol, pb_atZ_eq m X Y hx hy d (zj d 1) h r q col hcol,
    pb_atZ_eq m X Y hx hy d (zj d 2) h r q col hcol, pb_atZ_eq m X Y hx hy d (zj d 3) h r q col hcol]
  exact sum_rot4
    (fun z => ∑ k : Fin 1024, (Layout.blockN ⟨2, ![1024, 1024]⟩ ⟨2, ![4096, 1024]⟩ (Layout.meshBlock [2, 4, 4] ![[2], []] (atZ d z)) X) (ix2 k (⟨256 * (d.val % 4) + r.val, by omega⟩ : Fin 1024))
      * (Layout.blockN ⟨2, ![1024, 4096]⟩ ⟨2, ![4096, 4096]⟩ (Layout.meshBlock [2, 4, 4] ![[2], []] (atZ d z)) Y) (ix2 k col))
    (zF d) (zj d 1) (zj d 2) (zj d 3) rfl rfl rfl

/-! ## The result -/

theorem q8_lt (col : Fin 4096) : col.val / 512 < 8 := by have := col.isLt; omega

/-- Column block `col / 512`, half `col / 256 % 2`, of device `c`'s result at row `r` and column `col % 256` of the block. -/
theorem outPiece_eq_spec
    (hx : ∀ c : Dev nD, m ((c : Thread nD τ).loc main_arg0) = Layout.blockN ⟨2, ![1024, 1024]⟩ ⟨2, ![4096, 1024]⟩ (Layout.meshBlock [2, 4, 4] ![[2], []] c) X)
    (hy : ∀ c : Dev nD, m ((c : Thread nD τ).loc main_arg1) = Layout.blockN ⟨2, ![1024, 4096]⟩ ⟨2, ![4096, 4096]⟩ (Layout.meshBlock [2, 4, 4] ![[2], []] c) Y)
    (c : Dev nD) (r : Fin 256) (col : Fin 4096) :
    outPiece (F := Ideal) m c ⟨col.val / 512, q8_lt col⟩ ⟨(col.val / 256) % 2, Nat.mod_lt _ (by decide)⟩
        (ix2 r ⟨col.val % 256, Nat.mod_lt _ (by decide)⟩)
      = refSpec X Y (ix2 (⟨256 * (c.val % 4) + r.val, by omega⟩ : Fin 1024) col) := by
  have hxc := xc_lt c
  have hyc := yc_lt c
  have hcl := col.isLt
  unfold outPiece
  by_cases h1 : (⟨col.val / 512, q8_lt col⟩ : Fin 8).val = 4 * xc c + yc c
  · have h1' : col.val / 512 = 4 * xc c + yc c := h1
    rw [if_pos h1]
    exact accVal_eq_spec m X Y hx hy c c rfl _ r _ col (by
      show 2048 * xc c + 512 * yc c + 256 * ((col.val / 256) % 2) + col.val % 256 = col.val
      omega)
  · have h1' : ¬ col.val / 512 = 4 * xc c + yc c := h1
    rw [if_neg h1]
    by_cases h2 : (⟨col.val / 512, q8_lt col⟩ : Fin 8).val / 4 = xc c
    · have h2' : col.val / 512 / 4 = xc c := h2
      rw [if_pos h2, widen_red2_apply]
      exact accVal_eq_spec m X Y hx hy c (atY c ⟨col.val / 512 % 4, Nat.mod_lt _ (by decide)⟩) (mod_atY c _) _ r _ col (by
        rw [xc_atY, yc_atY]
        show 2048 * xc c + 512 * (col.val / 512 % 4) + 256 * ((col.val / 256) % 2) + col.val % 256 = col.val
        omega)
    · have h2' : ¬ col.val / 512 / 4 = xc c := h2
      rw [if_neg h2, widen_red2_apply]
      exact accVal_eq_spec m X Y hx hy c (atXY c ⟨col.val / 512 % 4, Nat.mod_lt _ (by decide)⟩) (mod_atXY c _) _ r _ col (by
        rw [xc_atXY, yc_atXY]
        show 2048 * (1 - xc c) + 512 * (col.val / 512 % 4) + 256 * ((col.val / 256) % 2) + col.val % 256 = col.val
        omega)

/-- THE VALUE: device `c`'s result is its block of the product of the whole arrays. -/
theorem outAt_eq
    (hx : ∀ c : Dev nD, m ((c : Thread nD τ).loc main_arg0) = Layout.blockN ⟨2, ![1024, 1024]⟩ ⟨2, ![4096, 1024]⟩ (Layout.meshBlock [2, 4, 4] ![[2], []] c) X)
    (hy : ∀ c : Dev nD, m ((c : Thread nD τ).loc main_arg1) = Layout.blockN ⟨2, ![1024, 4096]⟩ ⟨2, ![4096, 4096]⟩ (Layout.meshBlock [2, 4, 4] ![[2], []] c) Y)
    (c : Dev nD) :
    outAt (F := Ideal) m c
      = Layout.blockN ⟨2, ![256, 4096]⟩ ⟨2, ![1024, 4096]⟩ (Layout.meshBlock [2, 4, 4] ![[2], []] c) (refSpec X Y) := by
  funext i
  obtain ⟨r, col, rfl⟩ : ∃ (r : Fin 256) (col : Fin 4096), i = ix2 r col := ⟨i 0, i 1, eq_ix2 i⟩
  rw [blk_out]
  exact outPiece_eq_spec m X Y hx hy c r col

end Spec

/-- info: 'Cert.KernelIdeal.Coll.outAt_eq' depends on axioms: [propext, Classical.choice, Quot.sound] -/
#guard_msgs in #print axioms outAt_eq

end Cert.KernelIdeal.Coll

end
-- ==== Proof.Final.lean ====
/- The value claim of the whole mesh: the run from the launch, read at the result array and at the two argument arrays.
   The result array is the whole array of the output window, which the proof data ends at the device's sixteen pieces;
   at the exact values those pieces are the device's block of x transposed times dy, where x and dy are the whole arrays
   of which every device's arguments are the blocks. -/
import proofs.«901051_g7700000000001052_dist_rsdw_v7x_xyz2x4x4_z_m1024_d1024_f4096_bf16_1_alg».proof.Proof.FinalFrame
import proofs.«901051_g7700000000001052_dist_rsdw_v7x_xyz2x4x4_z_m1024_d1024_f4096_bf16_1_alg».proof.Proof.ValueIdeal
import proofs.«901051_g7700000000001052_dist_rsdw_v7x_xyz2x4x4_z_m1024_d1024_f4096_bf16_1_alg».proof.Proof.RefAlgebra

noncomputable section

namespace Cert.KernelIdeal.Coll

open Cert.KernelIdeal Cert.KernelIdeal.Gen Cert.KernelIdeal.Mesh

open Idealize.ShloMosaic
open Idealize.ShloMosaic.TcCoe
open Idealize.SL.Sem
open Idealize.ShloMosaic.Pipeline (Dat Cfg Window BodyObligation cellOf)

open Cert.RefValue

/-- At the exact values, from any memory in which every device's two argument buffers are its blocks of whole arrays
    `X` and `Y`, given each device's body: every weakly fair execution terminates, every device's result ends as its block
    of `Xᵀ · Y`, and its arguments end unchanged. -/
theorem algK (m : (ℓ : Loc nD τ sig) → Buf (Elt Ideal) ℓ) (ρ : Dev nD → PrngReg)
    (hbody : ∀ c, BodyObligation (dats (F := Ideal) m ρ 0 c) (defs₀ (F := Ideal)) 𝒱₀ () Set.univ)
    (X : (⟨2, ![4096, 1024]⟩ : Shape).Idx → EReal) (Y : (⟨2, ![4096, 4096]⟩ : Shape).Idx → EReal)
    (hx : ∀ c : Dev nD, m ((c.tc : Thread nD τ).loc main_arg0) = Layout.blockN ⟨2, ![1024, 1024]⟩ ⟨2, ![4096, 1024]⟩ (Layout.meshBlock [2, 4, 4] ![[2], []] c) X)
    (hy : ∀ c : Dev nD, m ((c.tc : Thread nD τ).loc main_arg1) = Layout.blockN ⟨2, ![1024, 4096]⟩ ⟨2, ![4096, 4096]⟩ (Layout.meshBlock [2, 4, 4] ![[2], []] c) Y) :
    θ_run (defs (F := Ideal)) (onTc (τ := τ) (main (F := Ideal))) ⟨m, fun _ => 0, ρ⟩ (fun r => ∀ c : Dev nD,
      r.2.mem ((c.tc : Thread nD τ).loc main_v1) = Layout.blockN ⟨2, ![256, 4096]⟩ ⟨2, ![1024, 4096]⟩ (Layout.meshBlock [2, 4, 4] ![[2], []] c) (refSpec X Y)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (2 : Fin 3)).trans ((finalA_out m ρ c).trans (outAt_eq m X Y hx hy c)),
      (h c (0 : Fin 3)).trans (finalA_x m ρ c), (h c (1 : Fin 3)).trans (finalA_y m ρ c)⟩)
    (run_main m ρ hbody)

end Cert.KernelIdeal.Coll

end
-- ==== Proof.KMesh.lean ====
/- The mesh of thirty-two devices as 2 × 4 × 4: a device's three coordinates, its peers along each axis,
   and the closed forms of the device ids and slice offsets the kernel computes from its own position. -/
import proofs.«901051_g7700000000001052_dist_rsdw_v7x_xyz2x4x4_z_m1024_d1024_f4096_bf16_1_alg».proof.Proof.Gen.Kernel

noncomputable section

namespace Cert.Kernel.Mesh

open Cert.Kernel Cert.Kernel.Gen Idealize.ShloMosaic

/-- The x, y and z coordinates of device `c` = 16 x + 4 y + z. -/
def xc (c : Dev nD) : ℕ := c.val / 16
def yc (c : Dev nD) : ℕ := (c.val / 4) % 4
def zc (c : Dev nD) : ℕ := c.val % 4

theorem xc_lt (c : Dev nD) : xc c < 2 := by unfold xc; have : c.val < 32 := c.isLt; omega
theorem yc_lt (c : Dev nD) : yc c < 4 := by unfold yc; omega
theorem zc_lt (c : Dev nD) : zc c < 4 := by unfold zc; omega
theorem val_eq (c : Dev nD) : c.val = 16 * xc c + 4 * yc c + zc c := by unfold xc yc zc; omega

/-- The device `d` steps further along the z axis (cyclically), same x and y. -/
def zP (c : Dev nD) (d : ℕ) : Dev nD := ⟨16 * xc c + 4 * yc c + (zc c + d) % 4, by have := xc_lt c; have := yc_lt c; show _ < 32; omega⟩
/-- The device `d` steps further along the y axis (cyclically), same x and z. -/
def yP (c : Dev nD) (d : ℕ) : Dev nD := ⟨16 * xc c + 4 * ((yc c + d) % 4) + zc c, by have := xc_lt c; have := zc_lt c; show _ < 32; omega⟩
/-- The other device along the x axis, same y and z. -/
def xP (c : Dev nD) : Dev nD := ⟨16 * (1 - xc c) + 4 * yc c + zc c, by have := yc_lt c; have := zc_lt c; show _ < 32; omega⟩

theorem zP_zP (c : Dev nD) : ∀ d : Fin 4, zP (zP c d.val) (4 - d.val) = c := by revert c; decide
theorem yP_yP (c : Dev nD) : ∀ d : Fin 4, yP (yP c d.val) (4 - d.val) = c := by revert c; decide
theorem xP_xP (c : Dev nD) : xP (xP c) = c := by revert c; decide
theorem zc_zP (c : Dev nD) (d : ℕ) : zc (zP c d) = (zc c + d) % 4 := by have := xc_lt c; have := yc_lt c; have := zc_lt c; show (16 * xc c + 4 * yc c + (zc c + d) % 4) % 4 = _; omega
theorem yc_zP (c : Dev nD) (d : ℕ) : yc (zP c d) = yc c := by have := xc_lt c; have := yc_lt c; have := zc_lt c; show ((16 * xc c + 4 * yc c + (zc c + d) % 4) / 4) % 4 = _; omega
theorem xc_zP (c : Dev nD) (d : ℕ) : xc (zP c d) = xc c := by have := xc_lt c; have := yc_lt c; have := zc_lt c; show (16 * xc c + 4 * yc c + (zc c + d) % 4) / 16 = _; omega
theorem zc_yP (c : Dev nD) (d : ℕ) : zc (yP c d) = zc c := by have := xc_lt c; have := yc_lt c; have := zc_lt c; show (16 * xc c + 4 * ((yc c + d) % 4) + zc c) % 4 = _; omega
theorem yc_yP (c : Dev nD) (d : ℕ) : yc (yP c d) = (yc c + d) % 4 := by have := xc_lt c; have := yc_lt c; have := zc_lt c; show ((16 * xc c + 4 * ((yc c + d) % 4) + zc c) / 4) % 4 = _; omega
theorem xc_yP (c : Dev nD) (d : ℕ) : xc (yP c d) = xc c := by have := xc_lt c; have := yc_lt c; have := zc_lt c; show (16 * xc c + 4 * ((yc c + d) % 4) + zc c) / 16 = _; omega
theorem zc_xP (c : Dev nD) : zc (xP c) = zc c := by have := xc_lt c; have := yc_lt c; have := zc_lt c; show (16 * (1 - xc c) + 4 * yc c + zc c) % 4 = _; omega
theorem yc_xP (c : Dev nD) : yc (xP c) = yc c := by have := xc_lt c; have := yc_lt c; have := zc_lt c; show ((16 * (1 - xc c) + 4 * yc c + zc c) / 4) % 4 = _; omega
theorem xc_xP (c : Dev nD) : xc (xP c) = 1 - xc c := by have := xc_lt c; have := yc_lt c; have := zc_lt c; show (16 * (1 - xc c) + 4 * yc c + zc c) / 16 = _; omega

/-! ## The device ids the kernel computes -/

theorem dev1_eq : ∀ c : Dev nD, (⟨k0_dev1 c, k0_dev1_lt c⟩ : Dev nD) = zP c 1 := by decide +kernel
theorem dev2_eq : ∀ c : Dev nD, (⟨k0_dev2 c, k0_dev2_lt c⟩ : Dev nD) = zP c 2 := by decide +kernel
theorem dev3_eq : ∀ c : Dev nD, (⟨k0_dev3 c, k0_dev3_lt c⟩ : Dev nD) = zP c 3 := by decide +kernel
theorem dev4_eq : ∀ c : Dev nD, (⟨k0_dev4 c, k0_dev4_lt c⟩ : Dev nD) = yP c 1 := by decide +kernel
theorem dev5_eq : ∀ c : Dev nD, (⟨k0_dev5 c, k0_dev5_lt c⟩ : Dev nD) = yP c 2 := by decide +kernel
theorem dev6_eq : ∀ c : Dev nD, (⟨k0_dev6 c, k0_dev6_lt c⟩ : Dev nD) = yP c 3 := by decide +kernel
theorem dev7_eq : ∀ c : Dev nD, (⟨k0_dev7 c, k0_dev7_lt c⟩ : Dev nD) = xP c := by decide +kernel
theorem dev8_eq : ∀ c : Dev nD, (⟨k0_dev8 c, k0_dev8_lt c⟩ : Dev nD) = zP c 1 := by decide +kernel
theorem dev9_eq : ∀ c : Dev nD, (⟨k0_dev9 c, k0_dev9_lt c⟩ : Dev nD) = zP c 2 := by decide +kernel
theorem dev10_eq : ∀ c : Dev nD, (⟨k0_dev10 c, k0_dev10_lt c⟩ : Dev nD) = zP c 3 := by decide +kernel
theorem dev11_eq : ∀ c : Dev nD, (⟨k0_dev11 c, k0_dev11_lt c⟩ : Dev nD) = zP c 1 := by decide +kernel
theorem dev12_eq : ∀ c : Dev nD, (⟨k0_dev12 c, k0_dev12_lt c⟩ : Dev nD) = zP c 2 := by decide +kernel
theorem dev13_eq : ∀ c : Dev nD, (⟨k0_dev13 c, k0_dev13_lt c⟩ : Dev nD) = zP c 3 := by decide +kernel
theorem dev14_eq : ∀ c : Dev nD, (⟨k0_dev14 c, k0_dev14_lt c⟩ : Dev nD) = yP c 1 := by decide +kernel
theorem dev15_eq : ∀ c : Dev nD, (⟨k0_dev15 c, k0_dev15_lt c⟩ : Dev nD) = yP c 2 := by decide +kernel
theorem dev16_eq : ∀ c : Dev nD, (⟨k0_dev16 c, k0_dev16_lt c⟩ : Dev nD) = yP c 3 := by decide +kernel
theorem dev17_eq : ∀ c : Dev nD, (⟨k0_dev17 c, k0_dev17_lt c⟩ : Dev nD) = xP c := by decide +kernel
theorem dev18_eq : ∀ c : Dev nD, (⟨k0_dev18 c, k0_dev18_lt c⟩ : Dev nD) = xP c := by decide +kernel
theorem dev19_eq : ∀ c : Dev nD, (⟨k0_dev19 c, k0_dev19_lt c⟩ : Dev nD) = xP c := by decide +kernel
theorem dev20_eq : ∀ c : Dev nD, (⟨k0_dev20 c, k0_dev20_lt c⟩ : Dev nD) = xP c := by decide +kernel
theorem dev21_eq : ∀ c : Dev nD, (⟨k0_dev21 c, k0_dev21_lt c⟩ : Dev nD) = yP c 1 := by decide +kernel
theorem dev22_eq : ∀ c : Dev nD, (⟨k0_dev22 c, k0_dev22_lt c⟩ : Dev nD) = yP c 2 := by decide +kernel
theorem dev23_eq : ∀ c : Dev nD, (⟨k0_dev23 c, k0_dev23_lt c⟩ : Dev nD) = yP c 3 := by decide +kernel
theorem dev24_eq : ∀ c : Dev nD, (⟨k0_dev24 c, k0_dev24_lt c⟩ : Dev nD) = xP c := by decide +kernel
theorem dev25_eq : ∀ c : Dev nD, (⟨k0_dev25 c, k0_dev25_lt c⟩ : Dev nD) = xP c := by decide +kernel
theorem dev26_eq : ∀ c : Dev nD, (⟨k0_dev26 c, k0_dev26_lt c⟩ : Dev nD) = xP c := by decide +kernel
theorem dev27_eq : ∀ c : Dev nD, (⟨k0_dev27 c, k0_dev27_lt c⟩ : Dev nD) = xP c := by decide +kernel

/-! ## The slice offsets the kernel computes -/

theorem off2_1_1 : ∀ c : Dev nD, k0_off2 c 1#32 1#32 = ![0, (zc c + 1) % 4] := by decide +kernel
theorem off6_1_1 : ∀ c : Dev nD, k0_off6 c 1#32 1#32 = ![1, (zc c + 1) % 4] := by decide +kernel
theorem off11_1_1 : ∀ c : Dev nD, k0_off11 c 1#32 1#32 = ![0, (zc c + 1) % 4, 0, 0] := by decide +kernel
theorem off13_1_1 : ∀ c : Dev nD, k0_off13 c 1#32 1#32 = ![0, (zc c + 1) % 4, 0, 0] := by decide +kernel
theorem off17_1_1 : ∀ c : Dev nD, k0_off17 c 1#32 1#32 = ![1, (zc c + 1) % 4, 0, 0] := by decide +kernel
theorem off19_1_1 : ∀ c : Dev nD, k0_off19 c 1#32 1#32 = ![1, (zc c + 1) % 4, 0, 0] := by decide +kernel
theorem off2_1_2 : ∀ c : Dev nD, k0_off2 c 1#32 2#32 = ![0, (zc c + 2) % 4] := by decide +kernel
theorem off6_1_2 : ∀ c : Dev nD, k0_off6 c 1#32 2#32 = ![1, (zc c + 2) % 4] := by decide +kernel
theorem off11_1_2 : ∀ c : Dev nD, k0_off11 c 1#32 2#32 = ![0, (zc c + 2) % 4, 0, 0] := by decide +kernel
theorem off13_1_2 : ∀ c : Dev nD, k0_off13 c 1#32 2#32 = ![0, (zc c + 2) % 4, 0, 0] := by decide +kernel
theorem off17_1_2 : ∀ c : Dev nD, k0_off17 c 1#32 2#32 = ![1, (zc c + 2) % 4, 0, 0] := by decide +kernel
theorem off19_1_2 : ∀ c : Dev nD, k0_off19 c 1#32 2#32 = ![1, (zc c + 2) % 4, 0, 0] := by decide +kernel
theorem off2_1_3 : ∀ c : Dev nD, k0_off2 c 1#32 3#32 = ![0, (zc c + 3) % 4] := by decide +kernel
theorem off6_1_3 : ∀ c : Dev nD, k0_off6 c 1#32 3#32 = ![1, (zc c + 3) % 4] := by decide +kernel
theorem off11_1_3 : ∀ c : Dev nD, k0_off11 c 1#32 3#32 = ![0, (zc c + 3) % 4, 0, 0] := by decide +kernel
theorem off13_1_3 : ∀ c : Dev nD, k0_off13 c 1#32 3#32 = ![0, (zc c + 3) % 4, 0, 0] := by decide +kernel
theorem off17_1_3 : ∀ c : Dev nD, k0_off17 c 1#32 3#32 = ![1, (zc c + 3) % 4, 0, 0] := by decide +kernel
theorem off19_1_3 : ∀ c : Dev nD, k0_off19 c 1#32 3#32 = ![1, (zc c + 3) % 4, 0, 0] := by decide +kernel
theorem off3_1 : ∀ c : Dev nD, k0_off3 c 1#32 = ![0, zc c] := by decide +kernel
theorem off7_1 : ∀ c : Dev nD, k0_off7 c 1#32 = ![1, zc c] := by decide +kernel
theorem off4_1 : ∀ c : Dev nD, k0_off4 c 1#32 = ![0, zc c, 0, 0] := by decide +kernel
theorem off8_1 : ∀ c : Dev nD, k0_off8 c 1#32 = ![1, zc c, 0, 0] := by decide +kernel
theorem off2_4_1 : ∀ c : Dev nD, k0_off2 c 4#32 1#32 = ![0, (yc c + 1) % 4] := by decide +kernel
theorem off6_4_1 : ∀ c : Dev nD, k0_off6 c 4#32 1#32 = ![1, (yc c + 1) % 4] := by decide +kernel
theorem off11_4_1 : ∀ c : Dev nD, k0_off11 c 4#32 1#32 = ![0, (yc c + 1) % 4, 0, 0] := by decide +kernel
theorem off13_4_1 : ∀ c : Dev nD, k0_off13 c 4#32 1#32 = ![0, (yc c + 1) % 4, 0, 0] := by decide +kernel
theorem off17_4_1 : ∀ c : Dev nD, k0_off17 c 4#32 1#32 = ![1, (yc c + 1) % 4, 0, 0] := by decide +kernel
theorem off19_4_1 : ∀ c : Dev nD, k0_off19 c 4#32 1#32 = ![1, (yc c + 1) % 4, 0, 0] := by decide +kernel
theorem off2_4_2 : ∀ c : Dev nD, k0_off2 c 4#32 2#32 = ![0, (yc c + 2) % 4] := by decide +kernel
theorem off6_4_2 : ∀ c : Dev nD, k0_off6 c 4#32 2#32 = ![1, (yc c + 2) % 4] := by decide +kernel
theorem off11_4_2 : ∀ c : Dev nD, k0_off11 c 4#32 2#32 = ![0, (yc c + 2) % 4, 0, 0] := by decide +kernel
theorem off13_4_2 : ∀ c : Dev nD, k0_off13 c 4#32 2#32 = ![0, (yc c + 2) % 4, 0, 0] := by decide +kernel
theorem off17_4_2 : ∀ c : Dev nD, k0_off17 c 4#32 2#32 = ![1, (yc c + 2) % 4, 0, 0] := by decide +kernel
theorem off19_4_2 : ∀ c : Dev nD, k0_off19 c 4#32 2#32 = ![1, (yc c + 2) % 4, 0, 0] := by decide +kernel
theorem off2_4_3 : ∀ c : Dev nD, k0_off2 c 4#32 3#32 = ![0, (yc c + 3) % 4] := by decide +kernel
theorem off6_4_3 : ∀ c : Dev nD, k0_off6 c 4#32 3#32 = ![1, (yc c + 3) % 4] := by decide +kernel
theorem off11_4_3 : ∀ c : Dev nD, k0_off11 c 4#32 3#32 = ![0, (yc c + 3) % 4, 0, 0] := by decide +kernel
theorem off13_4_3 : ∀ c : Dev nD, k0_off13 c 4#32 3#32 = ![0, (yc c + 3) % 4, 0, 0] := by decide +kernel
theorem off17_4_3 : ∀ c : Dev nD, k0_off17 c 4#32 3#32 = ![1, (yc c + 3) % 4, 0, 0] := by decide +kernel
theorem off19_4_3 : ∀ c : Dev nD, k0_off19 c 4#32 3#32 = ![1, (yc c + 3) % 4, 0, 0] := by decide +kernel
theorem off3_4 : ∀ c : Dev nD, k0_off3 c 4#32 = ![0, yc c] := by decide +kernel
theorem off7_4 : ∀ c : Dev nD, k0_off7 c 4#32 = ![1, yc c] := by decide +kernel
theorem off4_4 : ∀ c : Dev nD, k0_off4 c 4#32 = ![0, yc c, 0, 0] := by decide +kernel
theorem off8_4 : ∀ c : Dev nD, k0_off8 c 4#32 = ![1, yc c, 0, 0] := by decide +kernel
theorem off5_1 : ∀ c : Dev nD, k0_off5 c 1#32 = ![256 * ((zc c + 1) % 4), 0] := by decide +kernel
theorem off9_1 : ∀ c : Dev nD, k0_off9 c 1#32 = ![256 * ((zc c + 1) % 4), 256] := by decide +kernel
theorem off5_2 : ∀ c : Dev nD, k0_off5 c 2#32 = ![256 * ((zc c + 2) % 4), 0] := by decide +kernel
theorem off9_2 : ∀ c : Dev nD, k0_off9 c 2#32 = ![256 * ((zc c + 2) % 4), 256] := by decide +kernel
theorem off5_3 : ∀ c : Dev nD, k0_off5 c 3#32 = ![256 * ((zc c + 3) % 4), 0] := by decide +kernel
theorem off9_3 : ∀ c : Dev nD, k0_off9 c 3#32 = ![256 * ((zc c + 3) % 4), 256] := by decide +kernel
theorem off10 : ∀ c : Dev nD, k0_off10 c = ![256 * zc c, 0] := by decide +kernel
theorem off12 : ∀ c : Dev nD, k0_off12 c = ![256 * zc c, 0] := by decide +kernel
theorem off16 : ∀ c : Dev nD, k0_off16 c = ![256 * zc c, 256] := by decide +kernel
theorem off18 : ∀ c : Dev nD, k0_off18 c = ![256 * zc c, 256] := by decide +kernel
theorem off1_0 : ∀ c : Dev nD, k0_off1 c 0#32 = ![0, 2048 * xc c + 512 * yc c + 0] := by decide +kernel
theorem off14_0 : ∀ c : Dev nD, k0_off14 c 0#32 = ![0, 2048 * xc c + 512 * yc c + 0] := by decide +kernel
theorem off15_1_0 : ∀ c : Dev nD, k0_off15 c 1#32 0#32 = ![0, 2048 * xc c + 512 * ((yc c + 1) % 4) + 0] := by decide +kernel
theorem off15_2_0 : ∀ c : Dev nD, k0_off15 c 2#32 0#32 = ![0, 2048 * xc c + 512 * ((yc c + 2) % 4) + 0] := by decide +kernel
theorem off15_3_0 : ∀ c : Dev nD, k0_off15 c 3#32 0#32 = ![0, 2048 * xc c + 512 * ((yc c + 3) % 4) + 0] := by decide +kernel
theorem off20_0_0 : ∀ c : Dev nD, k0_off20 c 0#32 0#32 = ![0, 2048 * (1 - xc c) + 512 * 0 + 0] := by decide +kernel
theorem off20_1_0 : ∀ c : Dev nD, k0_off20 c 1#32 0#32 = ![0, 2048 * (1 - xc c) + 512 * 1 + 0] := by decide +kernel
theorem off20_2_0 : ∀ c : Dev nD, k0_off20 c 2#32 0#32 = ![0, 2048 * (1 - xc c) + 512 * 2 + 0] := by decide +kernel
theorem off20_3_0 : ∀ c : Dev nD, k0_off20 c 3#32 0#32 = ![0, 2048 * (1 - xc c) + 512 * 3 + 0] := by decide +kernel
theorem off1_256 : ∀ c : Dev nD, k0_off1 c 256#32 = ![0, 2048 * xc c + 512 * yc c + 256] := by decide +kernel
theorem off14_256 : ∀ c : Dev nD, k0_off14 c 256#32 = ![0, 2048 * xc c + 512 * yc c + 256] := by decide +kernel
theorem off15_1_256 : ∀ c : Dev nD, k0_off15 c 1#32 256#32 = ![0, 2048 * xc c + 512 * ((yc c + 1) % 4) + 256] := by decide +kernel
theorem off15_2_256 : ∀ c : Dev nD, k0_off15 c 2#32 256#32 = ![0, 2048 * xc c + 512 * ((yc c + 2) % 4) + 256] := by decide +kernel
theorem off15_3_256 : ∀ c : Dev nD, k0_off15 c 3#32 256#32 = ![0, 2048 * xc c + 512 * ((yc c + 3) % 4) + 256] := by decide +kernel
theorem off20_0_256 : ∀ c : Dev nD, k0_off20 c 0#32 256#32 = ![0, 2048 * (1 - xc c) + 512 * 0 + 256] := by decide +kernel
theorem off20_1_256 : ∀ c : Dev nD, k0_off20 c 1#32 256#32 = ![0, 2048 * (1 - xc c) + 512 * 1 + 256] := by decide +kernel
theorem off20_2_256 : ∀ c : Dev nD, k0_off20 c 2#32 256#32 = ![0, 2048 * (1 - xc c) + 512 * 2 + 256] := by decide +kernel
theorem off20_3_256 : ∀ c : Dev nD, k0_off20 c 3#32 256#32 = ![0, 2048 * (1 - xc c) + 512 * 3 + 256] := by decide +kernel

end Cert.Kernel.Mesh

end
-- ==== Proof.KCells.lean ====
/- The collective's cells, buffers and values: the runtime's barrier semaphore and the forty-eight DMA semaphores of a
   device; the 256 × 256 slots of its scratch buffers through which blocks travel; and, per device, the values that
   travel — the partial products, the sums over the z axis, and what is gathered over y and exchanged over x. -/
import proofs.«901051_g7700000000001052_dist_rsdw_v7x_xyz2x4x4_z_m1024_d1024_f4096_bf16_1_alg».proof.Proof.KMesh
import proofs.«901051_g7700000000001052_dist_rsdw_v7x_xyz2x4x4_z_m1024_d1024_f4096_bf16_1_alg».proof.Proof.Gen.Kernel.Skeleton
import proofs.«901051_g7700000000001052_dist_rsdw_v7x_xyz2x4x4_z_m1024_d1024_f4096_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' (duties named by `Fin 7`: a barrier cell's seven
    neighbours; a DMA cell's one duty is `0`) -/

abbrev DN : Type := Fin 7
abbrev UB : Type := URounds (GSem nD τ sig) DN
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Coordinates as `Fin 4`, the neighbours -/

def zF (c : Dev nD) : Fin 4 := ⟨zc c, zc_lt c⟩
def yF (c : Dev nD) : Fin 4 := ⟨yc c, yc_lt c⟩
/-- The z coordinate `d` steps on. -/
def zj (c : Dev nD) (d : ℕ) : Fin 4 := ⟨(zc c + d) % 4, Nat.mod_lt _ (by decide)⟩
def yj (c : Dev nD) (d : ℕ) : Fin 4 := ⟨(yc c + d) % 4, Nat.mod_lt _ (by decide)⟩
/-- The device with `c`'s x and y and the z coordinate `j`; with its x and z and the y coordinate `j`; with the
    other x, the y coordinate `j` and its z. -/
def atZ (c : Dev nD) (j : Fin 4) : Dev nD := ⟨16 * xc c + 4 * yc c + j.val, by have := xc_lt c; have := yc_lt c; have := j.isLt; show _ < 32; omega⟩
def atY (c : Dev nD) (j : Fin 4) : Dev nD := ⟨16 * xc c + 4 * j.val + zc c, by have := xc_lt c; have := zc_lt c; have := j.isLt; show _ < 32; omega⟩
def atXY (c : Dev nD) (j : Fin 4) : Dev nD := ⟨16 * (1 - xc c) + 4 * j.val + zc c, by have := zc_lt c; have := j.isLt; show _ < 32; omega⟩

/-- A device's seven neighbours: three along z, three along y, one along x. -/
def nb (c : Dev nD) : DN → Dev nD
  | ⟨0, _⟩ => zP c 1 | ⟨1, _⟩ => zP c 2 | ⟨2, _⟩ => zP c 3
  | ⟨3, _⟩ => yP c 1 | ⟨4, _⟩ => yP c 2 | ⟨5, _⟩ => yP c 3
  | _ => xP c
/-- The name under which `c` is the neighbour of its `n`-th neighbour. -/
def inv : DN → DN
  | ⟨0, _⟩ => 2 | ⟨1, _⟩ => 1 | ⟨2, _⟩ => 0
  | ⟨3, _⟩ => 5 | ⟨4, _⟩ => 4 | ⟨5, _⟩ => 3
  | _ => 6
theorem nb_nb : ∀ (c : Dev nD) (n : DN), nb (nb c n) (inv n) = c := by decide
theorem inv_inv : ∀ n : DN, inv (inv n) = n := by decide

/-! ## The semaphores and cells -/

/-- The runtime's barrier semaphore of collective id 0. -/
abbrev barS : Sem sig := (SemArray.scalar (sig.barrier 0 rfl) : Sems sig S_).sem
/-- The DMA semaphore `[h, j]` of the kernel's `a`-th semaphore array (0, 1: the z phase's send and receive; 2, 3: the
    y phase's; 4, 5: the x phase's). -/
def dsem (a : Fin 6) (h : Fin 2) (j : Fin 4) : DmaSem sig :=
  ⟨3 + 8 * a.val + 4 * h.val + j.val, by have := a.isLt; have := h.isLt; have := j.isLt; show _ < 51; omega⟩

abbrev barC (c : Dev nD) : GSem nD τ sig := ((c : Thread nD τ), .reg barS)
abbrev dC (c : Dev nD) (a : Fin 6) (h : Fin 2) (j : Fin 4) : GSem nD τ sig := ((c : Thread nD τ), .dma (dsem a h j))

/-! ## The buffers and their slots -/

abbrev xM : Memref sig .tc .vmem S1024x1024 .f32 := Memref.whole cc0_stg0_0
abbrev yM : Memref sig .tc .vmem S1024x4096 .f32 := Memref.whole cc0_stg1_0
abbrev oM : Memref sig .tc .vmem S256x4096 .f32 := Memref.whole cc0_stg2_0
abbrev pbM : Memref sig .tc .vmem S1024x512 .bf16 := Memref.whole cc0_scratch0
abbrev redM : Memref sig .tc .vmem S2x256x256 .bf16 := Memref.whole cc0_scratch1
abbrev rbM : Memref sig .tc .vmem S2x4x256x256 .bf16 := Memref.whole cc0_scratch2
abbrev r1M : Memref sig .tc .vmem S2x4x256x256 .bf16 := Memref.whole cc0_scratch3
abbrev r2M : Memref sig .tc .vmem S2x4x256x256 .bf16 := Memref.whole cc0_scratch4

theorem pb_inb (j : Fin 4) (h : Fin 2) : ∀ a, (![256 * j.val, 256 * h.val] : Fin 2 → Nat) a + S256x256.size a ≤ S1024x512.size a := by
  revert j h; decide
theorem red_inb (h : Fin 2) : ∀ a, (![h.val, 0, 0] : Fin 3 → Nat) a + S1x256x256.size a ≤ S2x256x256.size a := by
  revert h; decide
theorem r4_inb (h : Fin 2) (j : Fin 4) : ∀ a, (![h.val, j.val, 0, 0] : Fin 4 → Nat) a + S1x1x256x256.size a ≤ S2x4x256x256.size a := by
  revert h j; decide
theorem o_inb (q : Fin 8) (h : Fin 2) : ∀ a, (![0, 512 * q.val + 256 * h.val] : Fin 2 → Nat) a + S256x256.size a ≤ S256x4096.size a := by
  revert q h; decide

/-- Block `(j, h)` of the partial products: rows `256 j …`, columns `256 h …`. -/
abbrev pbR (j : Fin 4) (h : Fin 2) : Rect S1024x512 := Rect.unit (s := S1024x512) ![256 * j.val, 256 * h.val] S256x256.size (pb_inb j h)
abbrev redR (h : Fin 2) : Rect S2x256x256 := Rect.unit (s := S2x256x256) ![h.val, 0, 0] S1x256x256.size (red_inb h)
abbrev r4R (h : Fin 2) (j : Fin 4) : Rect S2x4x256x256 := Rect.unit (s := S2x4x256x256) ![h.val, j.val, 0, 0] S1x1x256x256.size (r4_inb h j)
/-- Column block `q` (512 wide), half `h`, of the result. -/
abbrev oR (q : Fin 8) (h : Fin 2) : Rect S256x4096 := Rect.unit (s := S256x4096) ![0, 512 * q.val + 256 * h.val] S256x256.size (o_inb q h)

/-- The result's column blocks: the device's own, the one of the device `d` steps on along y, and the one of the device at y
    coordinate `ys` on the other side of x. -/
def qOwn (c : Dev nD) : Fin 8 := ⟨4 * xc c + yc c, by have := xc_lt c; have := yc_lt c; omega⟩
def qY (c : Dev nD) (d : ℕ) : Fin 8 := ⟨4 * xc c + (yc c + d) % 4, by have := xc_lt c; omega⟩
def qX (c : Dev nD) (ys : Fin 4) : Fin 8 := ⟨4 * (1 - xc c) + ys.val, by have := ys.isLt; omega⟩

theorem vec2_congr {a b : ℕ} (h : a = b) : (![0, a] : Fin 2 → ℕ) = ![0, b] := by rw [h]

/-- The slots as 256 × 256 memrefs: what a transfer names. -/
abbrev pbSlot (j : Fin 4) (h : Fin 2) : Memref sig .tc .vmem S256x256 .bf16 := pbM.slice (pbR j h) (fun _ => rfl)
abbrev redSlot (h : Fin 2) : Memref sig .tc .vmem S256x256 .bf16 := (redM.slice (redR h) (fun _ => rfl)).squeeze S256x256 squeezes_S1x256x256_S256x256
abbrev rbSlot (h : Fin 2) (j : Fin 4) : Memref sig .tc .vmem S256x256 .bf16 := (rbM.slice (r4R h j) (fun _ => rfl)).squeeze S256x256 squeezes_S1x1x256x256_S256x256
abbrev r1Slot (h : Fin 2) (j : Fin 4) : Memref sig .tc .vmem S256x256 .bf16 := (r1M.slice (r4R h j) (fun _ => rfl)).squeeze S256x256 squeezes_S1x1x256x256_S256x256
abbrev r2Slot (h : Fin 2) (j : Fin 4) : Memref sig .tc .vmem S256x256 .bf16 := (r2M.slice (r4R h j) (fun _ => rfl)).squeeze S256x256 squeezes_S1x1x256x256_S256x256

/-- The credit of one 256 × 256 transfer of sixteen-bit floats. -/
abbrev N : ℕ := (pbSlot 0 0 : Memref sig .tc .vmem S256x256 .bf16).view.dmaCredit
theorem N_pos : 0 < N := View.dmaCredit_pos _ (by decide)

/-- A slot of device `c` at contents `f` (of the whole buffer; only the slot's elements matter), at share `q`. -/
def slotPts {s : Shape} {e : EltTy} (c : Dev nD) (M : Memref sig .tc .vmem s e) (q : PosShare TreeShare) (f : Buf (Elt F) (M.view.loc (c : Thread nD τ))) : sProp 𝕄 :=
  M.view.loc (c : Thread nD τ) ↦[M.view.set]{q} f

end Cert.Kernel.Coll

end
-- ==== Proof.KVals.lean ====
/- The values that travel, per device, as pure terms of the devices' blocks of the two arguments: each device's partial
   product (its block of x, transposed, times the 512 columns of its block of dy that it is responsible for), cut in
   256 × 256 blocks; the sum of four devices' blocks along the z axis; and that sum as the sixteen-bit block that is then
   gathered along y and exchanged along x. -/
import proofs.«901051_g7700000000001052_dist_rsdw_v7x_xyz2x4x4_z_m1024_d1024_f4096_bf16_1_alg».proof.Proof.KCells
import Idealize.ShloMosaic.Lib.ValueIdx

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Device `c`'s block of x and of dy, as its staging buffers hold them. -/
def xV (c : Dev nD) : Vec F S1024x1024 .f32 :=
  (win0_0.blk (0 : Fin 1)).view.read (Elt F) (m ((c : Thread nD τ).loc main_arg0))
def yV (c : Dev nD) : Vec F S1024x4096 .f32 :=
  (win0_1.blk (0 : Fin 1)).view.read (Elt F) (m ((c : Thread nD τ).loc main_arg1))

/-- The 256 columns of dy a device multiplies by for half `0` and half `1`: columns `512 (4 x + y) + 256 h …`. -/
def yHalf0 (c : Dev nD) : Vec F S1024x256 .f32 :=
  (yM : Memref sig .tc .vmem S1024x4096 .f32).view.readAt (Elt F) (Rect.unit (s := S1024x4096) (k0_off1 c 0#32) S1024x256.size (k0_off1_inb c 0)).toLoadRect (yV m c)
def yHalf1 (c : Dev nD) : Vec F S1024x256 .f32 :=
  (yM : Memref sig .tc .vmem S1024x4096 .f32).view.readAt (Elt F) (Rect.unit (s := S1024x4096) (k0_off1 c 256#32) S1024x256.size (k0_off1_inb c 1)).toLoadRect (yV m c)

/-- The partial product, half `h`: 1024 rows (the columns of x) by 256 columns, in sixteen-bit floats. -/
def pbFull (c : Dev nD) : Fin 2 → Vec F S1024x256 .bf16
  | ⟨0, _⟩ => k0_pay2 (xV m c) (yHalf0 m c)
  | _ => k0_pay3 (k0_pay1 (xV m c)) (yHalf1 m c)

/-- Its block of rows `256 j …`. -/
def pbVal (c : Dev nD) (j : Fin 4) (h : Fin 2) : Vec F S256x256 .bf16 :=
  fun i => pbFull m c h (ValueIdx.ix2 ⟨256 * j.val + (i 0).val, by have := j.isLt; have : (i 0).val < 256 := (i 0).isLt; show _ < 1024; omega⟩ (i 1))

/-- A 256 × 256 vector as the 1 × 1 × 256 × 256 vector a load of a slot returns, and a 1 × 256 × 256 vector as 256 × 256. -/
def up4 {e : EltTy} (v : Vec F S256x256 e) : Vec F S1x1x256x256 e := fun i => v (ValueIdx.ix2 (i 2) (i 3))
def dn3 {e : EltTy} (v : Vec F S1x256x256 e) : Vec F S256x256 e := fun i => v (ValueIdx.ix3 0 (i 0) (i 1))

/-- What device `c` receives in slot `(h, j)` of its z-phase buffer: block `z(c)` of the partial product of the device at z
    coordinate `j`. -/
def rbVal (c : Dev nD) (h : Fin 2) (j : Fin 4) : Vec F S256x256 .bf16 := pbVal m (atZ c j) (zF c) h

/-- The sum over the z axis of block `z(c)`, half `h`, in the kernel's order — its own block, then the devices one, two and
    three steps on — as thirty-two-bit floats. -/
def accVal (c : Dev nD) : Fin 2 → FVec F S256x256 .f32
  | ⟨0, _⟩ => k0_pay7 (k0_pay6 (k0_pay5 (k0_pay4 (pbVal m c (zF c) 0)) (up4 (rbVal m c 0 (zj c 1)))) (up4 (rbVal m c 0 (zj c 2)))) (up4 (rbVal m c 0 (zj c 3)))
  | _ => k0_pay15 (k0_pay14 (k0_pay13 (k0_pay12 (pbVal m c (zF c) 1)) (up4 (rbVal m c 1 (zj c 1)))) (up4 (rbVal m c 1 (zj c 2)))) (up4 (rbVal m c 1 (zj c 3)))
/-- The same as the sixteen-bit block the device stores and sends on. -/
def redVal (c : Dev nD) : Fin 2 → Vec F S1x256x256 .bf16
  | ⟨0, _⟩ => k0_pay8 (k0_pay6 (k0_pay5 (k0_pay4 (pbVal m c (zF c) 0)) (up4 (rbVal m c 0 (zj c 1)))) (up4 (rbVal m c 0 (zj c 2)))) (up4 (rbVal m c 0 (zj c 3)))
  | _ => k0_pay16 (k0_pay14 (k0_pay13 (k0_pay12 (pbVal m c (zF c) 1)) (up4 (rbVal m c 1 (zj c 1)))) (up4 (rbVal m c 1 (zj c 2)))) (up4 (rbVal m c 1 (zj c 3)))
def red2 (c : Dev nD) (h : Fin 2) : Vec F S256x256 .bf16 := dn3 (redVal m c h)

/-- A received sixteen-bit block widened for the result (the kernel's own widening of a loaded slot). -/
def widen (v : Vec F S256x256 .bf16) : FVec F S256x256 .f32 := k0_pay9 (up4 v)

/-- Column block `q` = 4 x' + y' (512 columns), half `h`, of device `c`'s result: the z-sum of the device at `(x', y', z(c))`
    — its own in thirty-two bits, another's through the sixteen-bit block it sent. -/
def outPiece (c : Dev nD) (q : Fin 8) (h : Fin 2) : Vec F S256x256 .f32 :=
  if q.val = 4 * xc c + yc c then accVal m c h
  else if q.val / 4 = xc c then widen (red2 m (atY c ⟨q.val % 4, Nat.mod_lt _ (by decide)⟩) h)
  else widen (red2 m (atXY c ⟨q.val % 4, Nat.mod_lt _ (by decide)⟩) h)

/-- Device `c`'s whole result: its sixteen pieces side by side. -/
def outAt (c : Dev nD) : Vec F S256x4096 .f32 := fun i =>
  outPiece m c ⟨(i 1).val / 512, by have : (i 1).val < 4096 := (i 1).isLt; show _ < 8; omega⟩ ⟨((i 1).val / 256) % 2, Nat.mod_lt _ (by decide)⟩
    (ValueIdx.ix2 (i 0) ⟨(i 1).val % 256, Nat.mod_lt _ (by decide)⟩)

end Cert.Kernel.Coll

end
-- ==== Proof.KSched.lean ====
/- The protocol as a schedule of one round. A device's barrier cell has seven duties, one per neighbour, each of one
   unit: the neighbour's signal hands the device the slots of the neighbour's buffers that the device will write. A DMA
   cell that is used has one duty of a block's credit: a receive cell's hands its owner the slot with the block landed,
   a send cell's hands back the share of the source the transfer read. -/
import proofs.«901051_g7700000000001052_dist_rsdw_v7x_xyz2x4x4_z_m1024_d1024_f4096_bf16_1_alg».proof.Proof.KVals

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Shares: a sum block is read by four transfers at once, a gathered block by its relay and by a load -/

def qS (j : Fin 4) : PosShare TreeShare := Transfers.shareTokN fullShare j.val
/-- The share a relay lends of the gathered block it forwards. -/
def qR : PosShare TreeShare := Transfers.shareTokN fullShare 0

/-! ## Payloads -/

/-- A slot at some contents. -/
def anyPts {s : Shape} {e : EltTy} (c : Dev nD) (M : Memref sig .tc .vmem s e) (q : PosShare TreeShare) : sProp 𝕄 :=
  iprop(∃ f, slotPts c M q f)
/-- A 256 × 256 slot, whole, holding the block `v`. -/
def holds (c : Dev nD) (M : Memref sig .tc .vmem S256x256 .bf16) (v : Vec F S256x256 .bf16) : sProp 𝕄 :=
  iprop(∃ f, slotPts c M fullShare f ∗ ⌜M.view.read (Elt F) f = v⌝)

/-- What neighbour `n` of `c` (the device `p = nb c n`) hands `c` with its barrier signal: the slots of `p`'s receive buffers
    that `c` writes. -/
def barPay (c : Dev nD) (n : DN) : sProp 𝕄 :=
  if n.val < 3 then iprop(anyPts (nb c n) (rbSlot 0 (zF c)) fullShare ∗ anyPts (nb c n) (rbSlot 1 (zF c)) fullShare)
  else if n.val < 6 then iprop(anyPts (nb c n) (r1Slot 0 (yF c)) fullShare ∗ anyPts (nb c n) (r1Slot 1 (yF c)) fullShare)
  else iprop((anyPts (nb c n) (r2Slot 0 0) fullShare ∗ anyPts (nb c n) (r2Slot 0 1) fullShare ∗ anyPts (nb c n) (r2Slot 0 2) fullShare ∗ anyPts (nb c n) (r2Slot 0 3) fullShare)
    ∗ (anyPts (nb c n) (r2Slot 1 0) fullShare ∗ anyPts (nb c n) (r2Slot 1 1) fullShare ∗ anyPts (nb c n) (r2Slot 1 2) fullShare ∗ anyPts (nb c n) (r2Slot 1 3) fullShare))

/-- The payload of the one duty of DMA cell `(a, h, j)` of device `c`. -/
def dmaPay (c : Dev nD) (a : Fin 6) (h : Fin 2) (j : Fin 4) : sProp 𝕄 :=
  match a with
  | ⟨0, _⟩ => anyPts c (pbSlot j h) fullShare
  | ⟨1, _⟩ => holds c (rbSlot h j) (rbVal m c h j)
  | ⟨2, _⟩ => anyPts c (redSlot h) (qS j)
  | ⟨3, _⟩ => holds c (r1Slot h j) (red2 m (atY c j) h)
  | ⟨4, _⟩ => if j = yF c then anyPts c (redSlot h) (qS j) else anyPts c (r1Slot h j) qR
  | _ => holds c (r2Slot h j) (red2 m (atXY c j) h)

/-- Whether DMA cell `(a, h, j)` of `c` carries a transfer: the z phase skips the device's own z, the y phase its own y. -/
def used (c : Dev nD) (a : Fin 6) (j : Fin 4) : Prop :=
  if a.val < 2 then j ≠ zF c else if a.val < 4 then j ≠ yF c else True
instance (c : Dev nD) (a : Fin 6) (j : Fin 4) : Decidable (used c a j) := by unfold used; infer_instance

/-- A DMA semaphore's place in the kernel's arrays. -/
def aOf (s : DmaSem sig) : Fin 6 := ⟨((s.val - 3) / 8) % 6, Nat.mod_lt _ (by decide)⟩
def hOf (s : DmaSem sig) : Fin 2 := ⟨((s.val - 3) / 4) % 2, Nat.mod_lt _ (by decide)⟩
def jOf (s : DmaSem sig) : Fin 4 := ⟨(s.val - 3) % 4, Nat.mod_lt _ (by decide)⟩
theorem aOf_dsem : ∀ (a : Fin 6) (h : Fin 2) (j : Fin 4), aOf (dsem a h j) = a := by decide
theorem hOf_dsem : ∀ (a : Fin 6) (h : Fin 2) (j : Fin 4), hOf (dsem a h j) = h := by decide
theorem jOf_dsem : ∀ (a : Fin 6) (h : Fin 2) (j : Fin 4), jOf (dsem a h j) = j := by decide
theorem dsem_ge : ∀ (a : Fin 6) (h : Fin 2) (j : Fin 4), 3 ≤ (dsem a h j).val := by decide

/-- One round. -/
def Rd : Rounds.Schedule (GSem nD τ sig) DN 𝕄 where
  duties g r :=
    if r = 0 ∧ g.1.2 = .tc then
      match g.2 with
      | .reg s => if s = barS then Finset.univ else ∅
      | .dma s => if 3 ≤ s.val ∧ used g.1.1 (aOf s) (jOf s) then {0} else ∅
    else ∅
  unitless _ := False
  amount g _ _ := match g.2 with | .reg _ => 1 | .dma _ => N
  payload g _ d := match g.2 with
    | .reg _ => barPay g.1.1 d
    | .dma s => dmaPay m g.1.1 (aOf s) (hOf s) (jOf s)
  amount_pos g _ _ _ := by
    cases g.2 with
    | reg _ => exact Nat.one_pos
    | dma _ => exact N_pos

end Cert.Kernel.Coll

end
-- ==== Proof.KProto.lean ====
/- What each device owes at launch and in what order it pays; the levels that order the waits; the ghost state a device
   starts from; and the pipeline's proof data: one point, the result's staging buffer ending at the device's sixteen
   pieces. -/
import proofs.«901051_g7700000000001052_dist_rsdw_v7x_xyz2x4x4_z_m1024_d1024_f4096_bf16_1_alg».proof.Proof.KSched

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## What a device pays, in program order: its seven barrier signals, the six z-phase transfers, then per half the three
    y-phase transfers, the direct x-phase transfer and the three relays (half 0 before half 1) -/

def pays (c : Dev nD) : List (GSem nD τ sig × ℕ) :=
  [ (barC (zP c 1), 1), (barC (zP c 2), 1), (barC (zP c 3), 1), (barC (yP c 1), 1), (barC (yP c 2), 1), (barC (yP c 3), 1), (barC (xP c), 1),
    (dC (zP c 1) 1 0 (zF c), N), (dC (zP c 2) 1 0 (zF c), N), (dC (zP c 3) 1 0 (zF c), N),
    (dC (zP c 1) 1 1 (zF c), N), (dC (zP c 2) 1 1 (zF c), N), (dC (zP c 3) 1 1 (zF c), N),
    (dC (yP c 1) 3 0 (yF c), N), (dC (yP c 2) 3 0 (yF c), N), (dC (yP c 3) 3 0 (yF c), N),
    (dC (xP c) 5 0 (yF c), N),
    (dC (xP c) 5 0 (yj c 1), N), (dC (xP c) 5 0 (yj c 2), N), (dC (xP c) 5 0 (yj c 3), N),
    (dC (yP c 1) 3 1 (yF c), N), (dC (yP c 2) 3 1 (yF c), N), (dC (yP c 3) 3 1 (yF c), N),
    (dC (xP c) 5 1 (yF c), N),
    (dC (xP c) 5 1 (yj c 1), N), (dC (xP c) 5 1 (yj c 2), N), (dC (xP c) 5 1 (yj c 3), N) ]

/-- The tallies of a list of payments, the FIRST to be paid outermost on the right: `(… + t₂) + t₁`. -/
def tallies : List (GSem nD τ sig × ℕ) → CellTallies nD τ sig Unit
  | [] => 0
  | p :: l => tallies l + tallyAt p.1 () p.2

/-- What device `c` still owes after its first `k` payments. -/
def owedFrom (c : Dev nD) (k : ℕ) : CellTallies nD τ sig Unit := tallies ((pays c).drop k)

/-! ## Levels: the barrier below the z phase's receive cells, below the y phase's of half 0, below the x phase's of
    half 0, below the y phase's of half 1, below the x phase's of half 1; everything else (staging, send cells) lowest -/

def L (g : GSem nD τ sig) : Finset Unit := if g.1.2 = .tc then {()} else ∅
def lvD (s : DmaSem sig) : ℕ :=
  if s.val < 3 then 0
  else if (aOf s).val = 1 then 2
  else if (aOf s).val = 3 then (if (hOf s).val = 0 then 3 else 5)
  else if (aOf s).val = 5 then (if (hOf s).val = 0 then 4 else 6)
  else 0
def lv (g : GSem nD τ sig) (_ : Unit) : ℕ := match g.2 with | .reg _ => 1 | .dma s => lvD s

/-! ## The ghost state a device starts from -/

/-- Every cell of the collective: (device, barrier or DMA semaphore index). -/
abbrev CK : Type := Option (Fin 6 × Fin 2 × Fin 4)
def csem : CK → SemLoc sig
  | none => .reg barS
  | some i => .dma (dsem i.1 i.2.1 i.2.2)
abbrev kcell (ck : Dev nD × CK) : GSem nD τ sig := ((ck.1 : Thread nD τ), csem ck.2)

/-- The invariants of all cells of all devices, at the names the launch gave them, and that round 0 of each is reached:
    persistent, every device holds them. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

/-- The tokens of the duties device `c` pays: at its neighbours' barrier cells (under the name it has there), at the
    receive cells it sends to, and at its own send cells. -/
def payToks (c : Dev nD) : sProp 𝕄 :=
  iprop((bigSep Finset.univ fun n : DN => dutyTok ER (barC (nb c n)) 0 (inv n))
    ∗ (bigSep ((pays c).drop 7).toFinset fun p => dutyTok ER p.1 0 (0 : DN))
    ∗ bigSep (Finset.univ.filter fun i : Fin 6 × Fin 2 × Fin 4 => i.1.val % 2 = 0 ∧ used c i.1 i.2.2) fun i => dutyTok ER (dC c i.1 i.2.1 i.2.2) 0 (0 : DN))

/-- Its positions: at the start of round 0 of each of its cells. -/
def positions (c : Dev nD) : sProp 𝕄 :=
  bigSep Finset.univ fun k : CK => atPos ER (kcell (c, k)) 0 ∅ 0

def ghost (K : Dev nD × CK → ℕ) (c : Dev nD) : sProp 𝕄 :=
  iprop(records m K ∗ positions c ∗ payToks c)

/-- The credit dealt at launch for what others owe its cells: seven units on its barrier cell, a block's credit on each
    receive cell that is used. -/
def launchCreds (c : Dev nD) : sProp 𝕄 :=
  iprop(cred (tallyAt (barC c) () 7)
    ∗ bigSep (Finset.univ.filter fun i : Fin 6 × Fin 2 × Fin 4 => i.1.val % 2 = 1 ∧ used c i.1 i.2.2) fun i => cred (tallyAt (dC c i.1 i.2.1 i.2.2) () N))

/-- What device `c`'s body starts from. -/
def start (c : Dev nD) : sProp 𝕄 :=
  iprop((∃ K, ghost m K c) ∗ launchCreds c ∗ levAts L lv)

/-- The five scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

def Φ₀ (c : Dev nD) : sProp 𝕄 := iprop(start m c ∗ scratch c)
/-- After the point: the scratch buffers whole again, the forty-eight own cells closed at zero. -/
def Φ₁ (c : Dev nD) : sProp 𝕄 :=
  iprop(scratch c ∗ bigSep Finset.univ fun i : Fin 6 × Fin 2 × Fin 4 => semVal (dC c i.1 i.2.1 i.2.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xV m c
    | ⟨1, _⟩ => yV m c
    | ⟨2, _⟩ => outAt m c
  Φ t := match t with
    | ⟨0, _⟩ => Φ₀ m c
    | ⟨_ + 1, _⟩ => Φ₁ c
  q _ := fullShare
  owed t := match t with
    | ⟨0, _⟩ => owedFrom c 0
    | ⟨_ + 1, _⟩ => 0

abbrev 𝒱₀ : Variants := Variants.none

end Cert.Kernel.Coll

end
-- ==== Proof.KTables.lean ====
/- The schedule's one round, cell by cell: which duties a barrier cell and a DMA cell have, how much each contributes,
   what a round expects and what each duty hands over; that every payload can be stored in a cell's invariant; what a device
   still owes after each of its twenty-seven payments; and the order of the waits: a device's barrier cell lies below the
   z phase's receive cells, these below the y phase's of half 0, below the x phase's of half 0, below the y phase's of
   half 1, below the x phase's of half 1, so that at each wait everything the device still owes lies strictly above the
   cell it waits on. -/
import proofs.«901051_g7700000000001052_dist_rsdw_v7x_xyz2x4x4_z_m1024_d1024_f4096_bf16_1_alg».proof.Proof.KProto

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables of the one round -/

section Tables

theorem duties_bar (c : Dev nD) : (Rd (F := F) m).duties (barC c) 0 = Finset.univ := by
  dsimp only [Rd]
  rw [if_pos (⟨rfl, rfl⟩ : (0 : ℕ) = 0 ∧ (Proc.tc : Proc τ) = .tc)]
  exact if_pos rfl

theorem duties_dma (c : Dev nD) (a : Fin 6) (h : Fin 2) (j : Fin 4) (hu : used c a j) :
    (Rd (F := F) m).duties (dC c a h j) 0 = {0} := by
  dsimp only [Rd]
  rw [if_pos (⟨rfl, rfl⟩ : (0 : ℕ) = 0 ∧ (Proc.tc : Proc τ) = .tc)]
  exact if_pos ⟨dsem_ge a h j, by rw [aOf_dsem, jOf_dsem]; exact hu⟩

theorem duties_dma_unused (c : Dev nD) (a : Fin 6) (h : Fin 2) (j : Fin 4) (hu : ¬ used c a j) :
    (Rd (F := F) m).duties (dC c a h j) 0 = ∅ := by
  dsimp only [Rd]
  rw [if_pos (⟨rfl, rfl⟩ : (0 : ℕ) = 0 ∧ (Proc.tc : Proc τ) = .tc)]
  exact if_neg fun h' => hu (by have h2 := h'.2; rw [aOf_dsem, jOf_dsem] at h2; exact h2)

theorem duties_later (g : GSem nD τ sig) : ∀ r, 1 ≤ r → (Rd (F := F) m).duties g r = ∅ :=
  fun r hr => by dsimp only [Rd]; exact if_neg fun h => by have := h.1; omega

theorem duties_unused_all (c : Dev nD) (a : Fin 6) (h : Fin 2) (j : Fin 4) (hu : ¬ used c a j) :
    ∀ r, 0 ≤ r → (Rd (F := F) m).duties (dC c a h j) r = ∅ := fun r _ => by
  rcases Nat.eq_zero_or_pos r with rfl | hr
  · exact duties_dma_unused m c a h j hu
  · exact duties_later m _ r hr

theorem amount_bar (c : Dev nD) (d : DN) : (Rd (F := F) m).amount (barC c) 0 d = 1 := rfl
theorem amount_dma (c : Dev nD) (a : Fin 6) (h : Fin 2) (j : Fin 4) (d : DN) : (Rd (F := F) m).amount (dC c a h j) 0 d = N := rfl

theorem expect_bar (c : Dev nD) : (Rd (F := F) m).expect (barC c) 0 = 7 := by
  unfold Schedule.expect Schedule.amountOf
  rw [duties_bar, Finset.sum_congr rfl fun d _ => amount_bar m c d, Finset.sum_const, Finset.card_univ, Fintype.card_fin, smul_eq_mul]
theorem expect_dma (c : Dev nD) (a : Fin 6) (h : Fin 2) (j : Fin 4) (hu : used c a j) : (Rd (F := F) m).expect (dC c a h j) 0 = N := by
  unfold Schedule.expect Schedule.amountOf
  rw [duties_dma m c a h j hu, Finset.sum_singleton, amount_dma]

theorem payload_bar (c : Dev nD) (n : DN) : (Rd (F := F) m).payload (barC c) 0 n = barPay c n := rfl
theorem payload_dma (c : Dev nD) (a : Fin 6) (h : Fin 2) (j : Fin 4) (d : DN) : (Rd (F := F) m).payload (dC c a h j) 0 d = dmaPay m c a h j := by
  show dmaPay m c (aOf (dsem a h j)) (hOf (dsem a h j)) (jOf (dsem a h j)) = _
  rw [aOf_dsem, hOf_dsem, jOf_dsem]

/-- The whole of a barrier cell's round, no duty taken: the seven neighbours' payloads in the order of their names. -/
theorem rest_bar (c : Dev nD) :
    bigSep ((Rd (F := F) m).duties (barC c) 0 \ ∅) (fun d => (Rd (F := F) m).payload (barC c) 0 d)
      = iprop(barPay c 0 ∗ barPay c 1 ∗ barPay c 2 ∗ barPay c 3 ∗ barPay c 4 ∗ barPay c 5 ∗ barPay c 6) := by
  rw [Finset.sdiff_empty, duties_bar, bigSep_univ_eq_bigSepL [(0 : DN), 1, 2, 3, 4, 5, 6] (by decide) (by decide)]
  rfl
theorem rest_dma (c : Dev nD) (a : Fin 6) (h : Fin 2) (j : Fin 4) (hu : used c a j) :
    bigSep ((Rd (F := F) m).duties (dC c a h j) 0 \ ∅) (fun d => (Rd (F := F) m).payload (dC c a h j) 0 d) = dmaPay m c a h j := by
  rw [Finset.sdiff_empty, duties_dma m c a h j hu, bigSep_singleton, payload_dma]

end Tables

/-! ## Payloads can be stored in a cell's invariant -/

instance anyPts_storable {s : Shape} {e : EltTy} (c : Dev nD) (M : Memref sig .tc .vmem s e) (q : PosShare TreeShare) :
    BI.Storable (upEmb : UEmb _ 𝕄) (anyPts (F := F) c M q) := by unfold anyPts slotPts; infer_instance
instance holds_storable (c : Dev nD) (M : Memref sig .tc .vmem S256x256 .bf16) (v : Vec F S256x256 .bf16) :
    BI.Storable (upEmb : UEmb _ 𝕄) (holds c M v) := by unfold holds slotPts; infer_instance
instance barPay_storable (c : Dev nD) (n : DN) : BI.Storable (upEmb : UEmb _ 𝕄) (barPay (F := F) c n) := by
  unfold barPay
  split
  · infer_instance
  · split <;> infer_instance
instance dmaPay_storable (c : Dev nD) (a : Fin 6) (h : Fin 2) (j : Fin 4) : BI.Storable (upEmb : UEmb _ 𝕄) (dmaPay m c a h j) := by
  unfold dmaPay
  split <;> first | infer_instance | (split <;> infer_instance)
instance payload_storable (g : GSem nD τ sig) (r : ℕ) (d : DN) : BI.Storable (upEmb : UEmb _ 𝕄) ((Rd (F := F) m).payload g r d) := by
  rcases g with ⟨t, sm⟩
  cases sm with
  | reg s => exact barPay_storable t.1 d
  | dma s => exact dmaPay_storable m t.1 (aOf s) (hOf s) (jOf s)

attribute [sl_rounds] duties_bar amount_bar amount_dma expect_bar payload_bar payload_dma

/-! ## The barrier cell's payloads, name by name

    As the receiver reads them (`barPay c n`: what its `n`-th neighbour hands `c`), and as the payer reads them: the payload of
    the duty that `c` pays at a neighbour's barrier cell is made of `c`'s own slots. -/

theorem zF_zP (c : Dev nD) (d : ℕ) : zF (zP c d) = zj c d := Fin.ext (zc_zP c d)
theorem yF_yP (c : Dev nD) (d : ℕ) : yF (yP c d) = yj c d := Fin.ext (yc_yP c d)

theorem barPay_0 (c : Dev nD) : barPay (F := F) c 0 = iprop(anyPts (zP c 1) (rbSlot 0 (zF c)) fullShare ∗ anyPts (zP c 1) (rbSlot 1 (zF c)) fullShare) := rfl
theorem barPay_1 (c : Dev nD) : barPay (F := F) c 1 = iprop(anyPts (zP c 2) (rbSlot 0 (zF c)) fullShare ∗ anyPts (zP c 2) (rbSlot 1 (zF c)) fullShare) := rfl
theorem barPay_2 (c : Dev nD) : barPay (F := F) c 2 = iprop(anyPts (zP c 3) (rbSlot 0 (zF c)) fullShare ∗ anyPts (zP c 3) (rbSlot 1 (zF c)) fullShare) := rfl
theorem barPay_3 (c : Dev nD) : barPay (F := F) c 3 = iprop(anyPts (yP c 1) (r1Slot 0 (yF c)) fullShare ∗ anyPts (yP c 1) (r1Slot 1 (yF c)) fullShare) := rfl
theorem barPay_4 (c : Dev nD) : barPay (F := F) c 4 = iprop(anyPts (yP c 2) (r1Slot 0 (yF c)) fullShare ∗ anyPts (yP c 2) (r1Slot 1 (yF c)) fullShare) := rfl
theorem barPay_5 (c : Dev nD) : barPay (F := F) c 5 = iprop(anyPts (yP c 3) (r1Slot 0 (yF c)) fullShare ∗ anyPts (yP c 3) (r1Slot 1 (yF c)) fullShare) := rfl
theorem barPay_6 (c : Dev nD) : barPay (F := F) c 6 =
    iprop((anyPts (xP c) (r2Slot 0 0) fullShare ∗ anyPts (xP c) (r2Slot 0 1) fullShare ∗ anyPts (xP c) (r2Slot 0 2) fullShare ∗ anyPts (xP c) (r2Slot 0 3) fullShare)
      ∗ (anyPts (xP c) (r2Slot 1 0) fullShare ∗ anyPts (xP c) (r2Slot 1 1) fullShare ∗ anyPts (xP c) (r2Slot 1 2) fullShare ∗ anyPts (xP c) (r2Slot 1 3) fullShare)) := rfl

theorem pay_bar_z1 (c : Dev nD) : (Rd (F := F) m).payload (barC (zP c 1)) 0 2 = iprop(anyPts c (rbSlot 0 (zj c 1)) fullShare ∗ anyPts c (rbSlot 1 (zj c 1)) fullShare) := by
  have h1 : zP (zP c 1) 3 = c := nb_nb c 0
  show barPay (zP c 1) 2 = _
  rw [barPay_2, h1, zF_zP]
theorem pay_bar_z2 (c : Dev nD) : (Rd (F := F) m).payload (barC (zP c 2)) 0 1 = iprop(anyPts c (rbSlot 0 (zj c 2)) fullShare ∗ anyPts c (rbSlot 1 (zj c 2)) fullShare) := by
  have h1 : zP (zP c 2) 2 = c := nb_nb c 1
  show barPay (zP c 2) 1 = _
  rw [barPay_1, h1, zF_zP]
theorem pay_bar_z3 (c : Dev nD) : (Rd (F := F) m).payload (barC (zP c 3)) 0 0 = iprop(anyPts c (rbSlot 0 (zj c 3)) fullShare ∗ anyPts c (rbSlot 1 (zj c 3)) fullShare) := by
  have h1 : zP (zP c 3) 1 = c := nb_nb c 2
  show barPay (zP c 3) 0 = _
  rw [barPay_0, h1, zF_zP]
theorem pay_bar_y1 (c : Dev nD) : (Rd (F := F) m).payload (barC (yP c 1)) 0 5 = iprop(anyPts c (r1Slot 0 (yj c 1)) fullShare ∗ anyPts c (r1Slot 1 (yj c 1)) fullShare) := by
  have h1 : yP (yP c 1) 3 = c := nb_nb c 3
  show barPay (yP c 1) 5 = _
  rw [barPay_5, h1, yF_yP]
theorem pay_bar_y2 (c : Dev nD) : (Rd (F := F) m).payload (barC (yP c 2)) 0 4 = iprop(anyPts c (r1Slot 0 (yj c 2)) fullShare ∗ anyPts c (r1Slot 1 (yj c 2)) fullShare) := by
  have h1 : yP (yP c 2) 2 = c := nb_nb c 4
  show barPay (yP c 2) 4 = _
  rw [barPay_4, h1, yF_yP]
theorem pay_bar_y3 (c : Dev nD) : (Rd (F := F) m).payload (barC (yP c 3)) 0 3 = iprop(anyPts c (r1Slot 0 (yj c 3)) fullShare ∗ anyPts c (r1Slot 1 (yj c 3)) fullShare) := by
  have h1 : yP (yP c 3) 1 = c := nb_nb c 5
  show barPay (yP c 3) 3 = _
  rw [barPay_3, h1, yF_yP]
theorem pay_bar_x (c : Dev nD) : (Rd (F := F) m).payload (barC (xP c)) 0 6 =
    iprop((anyPts c (r2Slot 0 0) fullShare ∗ anyPts c (r2Slot 0 1) fullShare ∗ anyPts c (r2Slot 0 2) fullShare ∗ anyPts c (r2Slot 0 3) fullShare)
      ∗ (anyPts c (r2Slot 1 0) fullShare ∗ anyPts c (r2Slot 1 1) fullShare ∗ anyPts c (r2Slot 1 2) fullShare ∗ anyPts c (r2Slot 1 3) fullShare)) := by
  have h1 : xP (xP c) = c := nb_nb c 6
  show barPay (xP c) 6 = _
  rw [barPay_6, h1]

/-! ## What is owed, payment by payment -/

theorem pays_length (c : Dev nD) : (pays c).length = 27 := rfl

/-- All twenty-seven summands, the first payment outermost. -/
theorem owedFrom_zero_eq (c : Dev nD) : owedFrom c 0 =
    (0 : CellTallies nD τ sig Unit)
      + tallyAt (dC (xP c) 5 1 (yj c 3)) () N
      + tallyAt (dC (xP c) 5 1 (yj c 2)) () N
      + tallyAt (dC (xP c) 5 1 (yj c 1)) () N
      + tallyAt (dC (xP c) 5 1 (yF c)) () N
      + tallyAt (dC (yP c 3) 3 1 (yF c)) () N
      + tallyAt (dC (yP c 2) 3 1 (yF c)) () N
      + tallyAt (dC (yP c 1) 3 1 (yF c)) () N
      + tallyAt (dC (xP c) 5 0 (yj c 3)) () N
      + tallyAt (dC (xP c) 5 0 (yj c 2)) () N
      + tallyAt (dC (xP c) 5 0 (yj c 1)) () N
      + tallyAt (dC (xP c) 5 0 (yF c)) () N
      + tallyAt (dC (yP c 3) 3 0 (yF c)) () N
      + tallyAt (dC (yP c 2) 3 0 (yF c)) () N
      + tallyAt (dC (yP c 1) 3 0 (yF c)) () N
      + tallyAt (dC (zP c 3) 1 1 (zF c)) () N
      + tallyAt (dC (zP c 2) 1 1 (zF c)) () N
      + tallyAt (dC (zP c 1) 1 1 (zF c)) () N
      + tallyAt (dC (zP c 3) 1 0 (zF c)) () N
      + tallyAt (dC (zP c 2) 1 0 (zF c)) () N
      + tallyAt (dC (zP c 1) 1 0 (zF c)) () N
      + tallyAt (barC (xP c)) () 1
      + tallyAt (barC (yP c 3)) () 1
      + tallyAt (barC (yP c 2)) () 1
      + tallyAt (barC (yP c 1)) () 1
      + tallyAt (barC (zP c 3)) () 1
      + tallyAt (barC (zP c 2)) () 1
      + tallyAt (barC (zP c 1)) () 1 := rfl

theorem owedFrom_step (c : Dev nD) (k : Fin 27) :
    owedFrom c k.val = owedFrom c (k.val + 1)
      + tallyAt ((pays c).get ⟨k.val, by rw [pays_length]; exact k.isLt⟩).1 () ((pays c).get ⟨k.val, by rw [pays_length]; exact k.isLt⟩).2 := by
  fin_cases k <;> rfl

theorem owedFrom_end (c : Dev nD) : owedFrom c 27 = 0 := rfl

/-- A cell at which a list of payments tallies something is the cell of one of them. -/
theorem tallies_pos {l : List (GSem nD τ sig × ℕ)} {g : GSem nD τ sig} {u : Unit} (h : 0 < tallies l g u) : ∃ p ∈ l, g = p.1 := by
  induction l with
  | nil =>
    rw [tallies, Pi.zero_apply, Finsupp.coe_zero, Pi.zero_apply] at h
    exact absurd h (Nat.lt_irrefl 0)
  | cons p l ih =>
    rw [tallies, Pi.add_apply, Finsupp.add_apply, tallyAt_apply] at h
    by_cases hg : g = p.1
    · exact ⟨p, List.mem_cons.mpr (Or.inl rfl), hg⟩
    · rw [if_neg (fun h' => hg h'.1), Nat.add_zero] at h
      obtain ⟨q, hq, hgq⟩ := ih h
      exact ⟨q, List.mem_cons.mpr (Or.inr hq), hgq⟩

/-- Every payment is addressed to a TensorCore's cell. -/
theorem pays_tc (c : Dev nD) : ∀ p ∈ pays c, p.1.1.2 = Proc.tc := by
  intro p hp
  simp only [pays, List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl <;> rfl

/-! ## Levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := rfl
theorem lv_dC (c : Dev nD) (a : Fin 6) (h : Fin 2) (j : Fin 4) : lv (dC c a h j) ()
    = (if a.val = 1 then 2 else if a.val = 3 then (if h.val = 0 then 3 else 5) else if a.val = 5 then (if h.val = 0 then 4 else 6) else 0) := by
  show lvD (dsem a h j) = _
  unfold lvD
  rw [if_neg (Nat.not_lt.mpr (dsem_ge a h j)), aOf_dsem, hOf_dsem]
theorem lv_stage (c : Dev nD) (q : DmaSem sig) (hq : q.val < 3) : lv ((c : Thread nD τ), .dma q) () = 0 := by
  show lvD q = 0
  unfold lvD
  exact if_pos hq

/-- The levels of the twenty-seven payments, in order: they never fall. -/
theorem pays_lv (c : Dev nD) : (pays c).map (fun p => lv p.1 ())
    = [1, 1, 1, 1, 1, 1, 1, 2, 2, 2, 2, 2, 2, 3, 3, 3, 4, 4, 4, 4, 5, 5, 5, 6, 6, 6, 6] := by
  simp only [pays, List.map_cons, List.map_nil, lv_bar, lv_dC]
  rfl

theorem mem_drop_of_le {α : Type} {l : List α} {k₀ k : ℕ} (hk : k₀ ≤ k) {x : α} (hx : x ∈ l.drop k) : x ∈ l.drop k₀ := by
  exact (List.drop_suffix_drop_left l hk).subset hx

/-- From payment `k₀` on every payment's cell lies above `b`, if the levels from `k₀` on do. -/
theorem lv_lt_of_drop (c : Dev nD) (b k₀ : ℕ)
    (hdec : ∀ x ∈ ([1, 1, 1, 1, 1, 1, 1, 2, 2, 2, 2, 2, 2, 3, 3, 3, 4, 4, 4, 4, 5, 5, 5, 6, 6, 6, 6] : List ℕ).drop k₀, b < x)
    (k : ℕ) (hk : k₀ ≤ k) : ∀ p ∈ (pays c).drop k, b < lv p.1 () := by
  intro p hp
  have hp0 := mem_drop_of_le hk hp
  have hmem : lv p.1 () ∈ ((pays c).map (fun p => lv p.1 ())).drop k₀ := by
    rw [← List.map_drop]; exact List.mem_map.mpr ⟨p, hp0, rfl⟩
  rw [pays_lv] at hmem
  exact hdec _ hmem

/-- The wait lemma: a device may wait on a cell of its own that lies below every cell it still owes to. -/
theorem mayWait_from (c : Dev nD) (sm : SemLoc sig) (k : ℕ)
    (hlev : ∀ p ∈ (pays c).drop k, lv ((c : Thread nD τ), sm) () < lv p.1 ()) :
    (levAts L lv : sProp 𝕄) ⊢ MayWait (c : Thread nD τ) sm () (owedFrom c k) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := tallies_pos hg
      rw [L, if_pos (pays_tc c p (List.mem_of_mem_drop hp))]; exact Finset.mem_singleton_self _)
    (fun p hp => by obtain rfl := Finset.mem_singleton.mp hp; exact Nat.le_refl _)
    (fun g u hg => by
      obtain ⟨p, hp, rfl⟩ := tallies_pos hg
      exact hlev p hp)

theorem mayWait_bar (c : Dev nD) : (levAts L lv : sProp 𝕄) ⊢ MayWait (c : Thread nD τ) (.reg barS) () (owedFrom c 7) :=
  mayWait_from c (.reg barS) 7 (lv_lt_of_drop c 1 7 (by decide) 7 (Nat.le_refl _))

theorem mayWait_bR (c : Dev nD) (h : Fin 2) (j : Fin 4) (k : ℕ) (hk : 13 ≤ k) :
    (levAts L lv : sProp 𝕄) ⊢ MayWait (c : Thread nD τ) (.dma (dsem 1 h j)) () (owedFrom c k) :=
  mayWait_from c (.dma (dsem 1 h j)) k (by
    rw [show lv ((c : Thread nD τ), SemLoc.dma (dsem 1 h j)) () = 2 from (lv_dC c 1 h j).trans (if_pos rfl)]
    exact lv_lt_of_drop c 2 13 (by decide) k hk)

theorem mayWait_c1R0 (c : Dev nD) (j : Fin 4) (k : ℕ) (hk : 16 ≤ k) :
    (levAts L lv : sProp 𝕄) ⊢ MayWait (c : Thread nD τ) (.dma (dsem 3 0 j)) () (owedFrom c k) :=
  mayWait_from c (.dma (dsem 3 0 j)) k (by
    rw [show lv ((c : Thread nD τ), SemLoc.dma (dsem 3 0 j)) () = 3 from (lv_dC c 3 0 j).trans (by decide)]
    exact lv_lt_of_drop c 3 16 (by decide) k hk)

theorem mayWait_c2R0 (c : Dev nD) (j : Fin 4) (k : ℕ) (hk : 24 ≤ k) :
    (levAts L lv : sProp 𝕄) ⊢ MayWait (c : Thread nD τ) (.dma (dsem 5 0 j)) () (owedFrom c k) :=
  mayWait_from c (.dma (dsem 5 0 j)) k (by
    rw [show lv ((c : Thread nD τ), SemLoc.dma (dsem 5 0 j)) () = 4 from (lv_dC c 5 0 j).trans (by decide)]
    exact lv_lt_of_drop c 4 24 (by decide) k hk)

theorem mayWait_c1R1 (c : Dev nD) (j : Fin 4) (k : ℕ) (hk : 23 ≤ k) :
    (levAts L lv : sProp 𝕄) ⊢ MayWait (c : Thread nD τ) (.dma (dsem 3 1 j)) () (owedFrom c k) :=
  mayWait_from c (.dma (dsem 3 1 j)) k (by
    rw [show lv ((c : Thread nD τ), SemLoc.dma (dsem 3 1 j)) () = 5 from (lv_dC c 3 1 j).trans (by decide)]
    exact lv_lt_of_drop c 5 23 (by decide) k hk)

/-- After the last payment nothing is owed: any wait is allowed. -/
theorem mayWait_end (c : Dev nD) (sm : SemLoc sig) :
    (levAts L lv : sProp 𝕄) ⊢ MayWait (c : Thread nD τ) sm () (owedFrom c 27) := by
  rw [owedFrom_end, MayWait_zero]; iintro -; iempintro

theorem mayWait_c2R1 (c : Dev nD) (j : Fin 4) :
    (levAts L lv : sProp 𝕄) ⊢ MayWait (c : Thread nD τ) (.dma (dsem 5 1 j)) () (owedFrom c 27) := mayWait_end c _

/-- The pipeline's staging semaphores lie at level 0, below every cell a device ever pays. -/
theorem mayWait_stage_from (c : Dev nD) (q : DmaSem sig) (hq : q.val < 3) (k : ℕ) :
    (levAts L lv : sProp 𝕄) ⊢ MayWait (c : Thread nD τ) (.dma q) () (owedFrom c k) :=
  mayWait_from c (.dma q) k (by
    rw [lv_stage c q hq]
    exact lv_lt_of_drop c 0 0 (by decide) k (Nat.zero_le _))

theorem mayWait_stage (c : Dev nD) (q : DmaSem sig) (hq : q.val < 3) (O : CellTallies nD τ sig Unit) (hO : O = owedFrom c 0 ∨ O = 0) :
    (levAts L lv : sProp 𝕄) ⊢ MayWait (c : Thread nD τ) (.dma q) () O := by
  rcases hO with rfl | rfl
  · exact mayWait_stage_from c q hq 0
  · rw [MayWait_zero]; iintro -; iempintro

/-! ## What the main statements depend on: the three standard principles only -/

/-- info: 'Cert.Kernel.Coll.mayWait_from' depends on axioms: [propext, Classical.choice, Quot.sound] -/
#guard_msgs in #print axioms mayWait_from

/-- info: 'Cert.Kernel.Coll.payload_storable' depends on axioms: [propext, Classical.choice, Quot.sound] -/
#guard_msgs in #print axioms payload_storable

/-- info: 'Cert.Kernel.Coll.owedFrom_step' depends on axioms: [propext, Classical.choice, Quot.sound] -/
#guard_msgs in #print axioms owedFrom_step

end Cert.Kernel.Coll

end
-- ==== Proof.KCanon.lean ====
/- The kernel's slices at the offsets it computes from its own position, renamed to the slots and cells of Cells.lean:
   each printed slice of a scratch buffer is the slot at the coordinates the offset's closed form names, each printed
   slice of a semaphore array names the cell at those coordinates. -/
import proofs.«901051_g7700000000001052_dist_rsdw_v7x_xyz2x4x4_z_m1024_d1024_f4096_bf16_1_alg».proof.Proof.KCells

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

@[sl_canon] theorem c_arg10_off2_4_1 : ∀ c : Dev nD,
    ((cc0_scratch7.slice (Rect.unit (s := S2x4) (k0_off2 c 4#32 1#32) S1x1.size (k0_off2_inb c 1 0))).squeeze S_ squeezes_S1x1_S_).sem = dsem 2 0 (yj c 1) := by decide +kernel
@[sl_canon] theorem c_arg10_off2_4_2 : ∀ c : Dev nD,
    ((cc0_scratch7.slice (Rect.unit (s := S2x4) (k0_off2 c 4#32 2#32) S1x1.size (k0_off2_inb c 1 1))).squeeze S_ squeezes_S1x1_S_).sem = dsem 2 0 (yj c 2) := by decide +kernel
@[sl_canon] theorem c_arg10_off2_4_3 : ∀ c : Dev nD,
    ((cc0_scratch7.slice (Rect.unit (s := S2x4) (k0_off2 c 4#32 3#32) S1x1.size (k0_off2_inb c 1 2))).squeeze S_ squeezes_S1x1_S_).sem = dsem 2 0 (yj c 3) := by decide +kernel
@[sl_canon] theorem c_arg10_off6_4_1 : ∀ c : Dev nD,
    ((cc0_scratch7.slice (Rect.unit (s := S2x4) (k0_off6 c 4#32 1#32) S1x1.size (k0_off6_inb c 1 0))).squeeze S_ squeezes_S1x1_S_).sem = dsem 2 1 (yj c 1) := by decide +kernel
@[sl_canon] theorem c_arg10_off6_4_2 : ∀ c : Dev nD,
    ((cc0_scratch7.slice (Rect.unit (s := S2x4) (k0_off6 c 4#32 2#32) S1x1.size (k0_off6_inb c 1 1))).squeeze S_ squeezes_S1x1_S_).sem = dsem 2 1 (yj c 2) := by decide +kernel
@[sl_canon] theorem c_arg10_off6_4_3 : ∀ c : Dev nD,
    ((cc0_scratch7.slice (Rect.unit (s := S2x4) (k0_off6 c 4#32 3#32) S1x1.size (k0_off6_inb c 1 2))).squeeze S_ squeezes_S1x1_S_).sem = dsem 2 1 (yj c 3) := by decide +kernel
@[sl_canon] theorem c_arg11_off2_4_1 : ∀ c : Dev nD,
    ((cc0_scratch8.slice (Rect.unit (s := S2x4) (k0_off2 c 4#32 1#32) S1x1.size (k0_off2_inb c 1 0))).squeeze S_ squeezes_S1x1_S_).sem = dsem 3 0 (yj c 1) := by decide +kernel
@[sl_canon] theorem c_arg11_off2_4_2 : ∀ c : Dev nD,
    ((cc0_scratch8.slice (Rect.unit (s := S2x4) (k0_off2 c 4#32 2#32) S1x1.size (k0_off2_inb c 1 1))).squeeze S_ squeezes_S1x1_S_).sem = dsem 3 0 (yj c 2) := by decide +kernel
@[sl_canon] theorem c_arg11_off2_4_3 : ∀ c : Dev nD,
    ((cc0_scratch8.slice (Rect.unit (s := S2x4) (k0_off2 c 4#32 3#32) S1x1.size (k0_off2_inb c 1 2))).squeeze S_ squeezes_S1x1_S_).sem = dsem 3 0 (yj c 3) := by decide +kernel
@[sl_canon] theorem c_arg11_off3_4 : ∀ c : Dev nD,
    ((cc0_scratch8.slice (Rect.unit (s := S2x4) (k0_off3 c 4#32) S1x1.size (k0_off3_inb c 1))).squeeze S_ squeezes_S1x1_S_).sem = dsem 3 0 (yF c) := by decide +kernel
@[sl_canon] theorem c_arg11_off6_4_1 : ∀ c : Dev nD,
    ((cc0_scratch8.slice (Rect.unit (s := S2x4) (k0_off6 c 4#32 1#32) S1x1.size (k0_off6_inb c 1 0))).squeeze S_ squeezes_S1x1_S_).sem = dsem 3 1 (yj c 1) := by decide +kernel
@[sl_canon] theorem c_arg11_off6_4_2 : ∀ c : Dev nD,
    ((cc0_scratch8.slice (Rect.unit (s := S2x4) (k0_off6 c 4#32 2#32) S1x1.size (k0_off6_inb c 1 1))).squeeze S_ squeezes_S1x1_S_).sem = dsem 3 1 (yj c 2) := by decide +kernel
@[sl_canon] theorem c_arg11_off6_4_3 : ∀ c : Dev nD,
    ((cc0_scratch8.slice (Rect.unit (s := S2x4) (k0_off6 c 4#32 3#32) S1x1.size (k0_off6_inb c 1 2))).squeeze S_ squeezes_S1x1_S_).sem = dsem 3 1 (yj c 3) := by decide +kernel
@[sl_canon] theorem c_arg11_off7_4 : ∀ c : Dev nD,
    ((cc0_scratch8.slice (Rect.unit (s := S2x4) (k0_off7 c 4#32) S1x1.size (k0_off7_inb c 1))).squeeze S_ squeezes_S1x1_S_).sem = dsem 3 1 (yF c) := by decide +kernel
@[sl_canon] theorem c_arg12_off2_4_1 : ∀ c : Dev nD,
    ((cc0_scratch9.slice (Rect.unit (s := S2x4) (k0_off2 c 4#32 1#32) S1x1.size (k0_off2_inb c 1 0))).squeeze S_ squeezes_S1x1_S_).sem = dsem 4 0 (yj c 1) := by decide +kernel
@[sl_canon] theorem c_arg12_off2_4_2 : ∀ c : Dev nD,
    ((cc0_scratch9.slice (Rect.unit (s := S2x4) (k0_off2 c 4#32 2#32) S1x1.size (k0_off2_inb c 1 1))).squeeze S_ squeezes_S1x1_S_).sem = dsem 4 0 (yj c 2) := by decide +kernel
@[sl_canon] theorem c_arg12_off2_4_3 : ∀ c : Dev nD,
    ((cc0_scratch9.slice (Rect.unit (s := S2x4) (k0_off2 c 4#32 3#32) S1x1.size (k0_off2_inb c 1 2))).squeeze S_ squeezes_S1x1_S_).sem = dsem 4 0 (yj c 3) := by decide +kernel
@[sl_canon] theorem c_arg12_off3_4 : ∀ c : Dev nD,
    ((cc0_scratch9.slice (Rect.unit (s := S2x4) (k0_off3 c 4#32) S1x1.size (k0_off3_inb c 1))).squeeze S_ squeezes_S1x1_S_).sem = dsem 4 0 (yF c) := by decide +kernel
@[sl_canon] theorem c_arg12_off6_4_1 : ∀ c : Dev nD,
    ((cc0_scratch9.slice (Rect.unit (s := S2x4) (k0_off6 c 4#32 1#32) S1x1.size (k0_off6_inb c 1 0))).squeeze S_ squeezes_S1x1_S_).sem = dsem 4 1 (yj c 1) := by decide +kernel
@[sl_canon] theorem c_arg12_off6_4_2 : ∀ c : Dev nD,
    ((cc0_scratch9.slice (Rect.unit (s := S2x4) (k0_off6 c 4#32 2#32) S1x1.size (k0_off6_inb c 1 1))).squeeze S_ squeezes_S1x1_S_).sem = dsem 4 1 (yj c 2) := by decide +kernel
@[sl_canon] theorem c_arg12_off6_4_3 : ∀ c : Dev nD,
    ((cc0_scratch9.slice (Rect.unit (s := S2x4) (k0_off6 c 4#32 3#32) S1x1.size (k0_off6_inb c 1 2))).squeeze S_ squeezes_S1x1_S_).sem = dsem 4 1 (yj c 3) := by decide +kernel
@[sl_canon] theorem c_arg12_off7_4 : ∀ c : Dev nD,
    ((cc0_scratch9.slice (Rect.unit (s := S2x4) (k0_off7 c 4#32) S1x1.size (k0_off7_inb c 1))).squeeze S_ squeezes_S1x1_S_).sem = dsem 4 1 (yF c) := by decide +kernel
@[sl_canon] theorem c_arg13_off2_4_1 : ∀ c : Dev nD,
    ((cc0_scratch10.slice (Rect.unit (s := S2x4) (k0_off2 c 4#32 1#32) S1x1.size (k0_off2_inb c 1 0))).squeeze S_ squeezes_S1x1_S_).sem = dsem 5 0 (yj c 1) := by decide +kernel
@[sl_canon] theorem c_arg13_off2_4_2 : ∀ c : Dev nD,
    ((cc0_scratch10.slice (Rect.unit (s := S2x4) (k0_off2 c 4#32 2#32) S1x1.size (k0_off2_inb c 1 1))).squeeze S_ squeezes_S1x1_S_).sem = dsem 5 0 (yj c 2) := by decide +kernel
@[sl_canon] theorem c_arg13_off2_4_3 : ∀ c : Dev nD,
    ((cc0_scratch10.slice (Rect.unit (s := S2x4) (k0_off2 c 4#32 3#32) S1x1.size (k0_off2_inb c 1 2))).squeeze S_ squeezes_S1x1_S_).sem = dsem 5 0 (yj c 3) := by decide +kernel
@[sl_canon] theorem c_arg13_off3_4 : ∀ c : Dev nD,
    ((cc0_scratch10.slice (Rect.unit (s := S2x4) (k0_off3 c 4#32) S1x1.size (k0_off3_inb c 1))).squeeze S_ squeezes_S1x1_S_).sem = dsem 5 0 (yF c) := by decide +kernel
@[sl_canon] theorem c_arg13_off6_4_1 : ∀ c : Dev nD,
    ((cc0_scratch10.slice (Rect.unit (s := S2x4) (k0_off6 c 4#32 1#32) S1x1.size (k0_off6_inb c 1 0))).squeeze S_ squeezes_S1x1_S_).sem = dsem 5 1 (yj c 1) := by decide +kernel
@[sl_canon] theorem c_arg13_off6_4_2 : ∀ c : Dev nD,
    ((cc0_scratch10.slice (Rect.unit (s := S2x4) (k0_off6 c 4#32 2#32) S1x1.size (k0_off6_inb c 1 1))).squeeze S_ squeezes_S1x1_S_).sem = dsem 5 1 (yj c 2) := by decide +kernel
@[sl_canon] theorem c_arg13_off6_4_3 : ∀ c : Dev nD,
    ((cc0_scratch10.slice (Rect.unit (s := S2x4) (k0_off6 c 4#32 3#32) S1x1.size (k0_off6_inb c 1 2))).squeeze S_ squeezes_S1x1_S_).sem = dsem 5 1 (yj c 3) := by decide +kernel
@[sl_canon] theorem c_arg13_off7_4 : ∀ c : Dev nD,
    ((cc0_scratch10.slice (Rect.unit (s := S2x4) (k0_off7 c 4#32) S1x1.size (k0_off7_inb c 1))).squeeze S_ squeezes_S1x1_S_).sem = dsem 5 1 (yF c) := by decide +kernel
@[sl_canon] theorem c_arg3_off12 (c : Dev nD) (hs) :
    (pbM : Memref sig .tc .vmem S1024x512 .bf16).slice (Rect.unit (s := S1024x512) (k0_off12 c) S256x256.size (k0_off12_inb c)) hs = pbM.slice (pbR (zF c) 0) (fun _ => rfl) :=
  Memref.slice_unit_congr _ ((Mesh.off12 c).trans rfl) _ _ _ _
@[sl_canon] theorem c_arg3_off18 (c : Dev nD) (hs) :
    (pbM : Memref sig .tc .vmem S1024x512 .bf16).slice (Rect.unit (s := S1024x512) (k0_off18 c) S256x256.size (k0_off18_inb c)) hs = pbM.slice (pbR (zF c) 1) (fun _ => rfl) :=
  Memref.slice_unit_congr _ ((Mesh.off18 c).trans rfl) _ _ _ _
@[sl_canon] theorem c_arg3_off5_1 (c : Dev nD) (hs) :
    (pbM : Memref sig .tc .vmem S1024x512 .bf16).slice (Rect.unit (s := S1024x512) (k0_off5 c 1#32) S256x256.size (k0_off5_inb c 0)) hs = pbM.slice (pbR (zj c 1) 0) (fun _ => rfl) :=
  Memref.slice_unit_congr _ ((Mesh.off5_1 c).trans rfl) _ _ _ _
@[sl_canon] theorem c_arg3_off5_2 (c : Dev nD) (hs) :
    (pbM : Memref sig .tc .vmem S1024x512 .bf16).slice (Rect.unit (s := S1024x512) (k0_off5 c 2#32) S256x256.size (k0_off5_inb c 1)) hs = pbM.slice (pbR (zj c 2) 0) (fun _ => rfl) :=
  Memref.slice_unit_congr _ ((Mesh.off5_2 c).trans rfl) _ _ _ _
@[sl_canon] theorem c_arg3_off5_3 (c : Dev nD) (hs) :
    (pbM : Memref sig .tc .vmem S1024x512 .bf16).slice (Rect.unit (s := S1024x512) (k0_off5 c 3#32) S256x256.size (k0_off5_inb c 2)) hs = pbM.slice (pbR (zj c 3) 0) (fun _ => rfl) :=
  Memref.slice_unit_congr _ ((Mesh.off5_3 c).trans rfl) _ _ _ _
@[sl_canon] theorem c_arg3_off9_1 (c : Dev nD) (hs) :
    (pbM : Memref sig .tc .vmem S1024x512 .bf16).slice (Rect.unit (s := S1024x512) (k0_off9 c 1#32) S256x256.size (k0_off9_inb c 0)) hs = pbM.slice (pbR (zj c 1) 1) (fun _ => rfl) :=
  Memref.slice_unit_congr _ ((Mesh.off9_1 c).trans rfl) _ _ _ _
@[sl_canon] theorem c_arg3_off9_2 (c : Dev nD) (hs) :
    (pbM : Memref sig .tc .vmem S1024x512 .bf16).slice (Rect.unit (s := S1024x512) (k0_off9 c 2#32) S256x256.size (k0_off9_inb c 1)) hs = pbM.slice (pbR (zj c 2) 1) (fun _ => rfl) :=
  Memref.slice_unit_congr _ ((Mesh.off9_2 c).trans rfl) _ _ _ _
@[sl_canon] theorem c_arg3_off9_3 (c : Dev nD) (hs) :
    (pbM : Memref sig .tc .vmem S1024x512 .bf16).slice (Rect.unit (s := S1024x512) (k0_off9 c 3#32) S256x256.size (k0_off9_inb c 2)) hs = pbM.slice (pbR (zj c 3) 1) (fun _ => rfl) :=
  Memref.slice_unit_congr _ ((Mesh.off9_3 c).trans rfl) _ _ _ _
@[sl_canon] theorem c_arg5_off11_1_1 (c : Dev nD) (hs) :
    (rbM : Memref sig .tc .vmem S2x4x256x256 .bf16).slice (Rect.unit (s := S2x4x256x256) (k0_off11 c 1#32 1#32) S1x1x256x256.size (k0_off11_inb c 0 0)) hs = rbM.slice (r4R 0 (zj c 1)) (fun _ => rfl) :=
  Memref.slice_unit_congr _ ((Mesh.off11_1_1 c).trans rfl) _ _ _ _
@[sl_canon] theorem c_arg5_off11_1_2 (c : Dev nD) (hs) :
    (rbM : Memref sig .tc .vmem S2x4x256x256 .bf16).slice (Rect.unit (s := S2x4x256x256) (k0_off11 c 1#32 2#32) S1x1x256x256.size (k0_off11_inb c 0 1)) hs = rbM.slice (r4R 0 (zj c 2)) (fun _ => rfl) :=
  Memref.slice_unit_congr _ ((Mesh.off11_1_2 c).trans rfl) _ _ _ _
@[sl_canon] theorem c_arg5_off11_1_3 (c : Dev nD) (hs) :
    (rbM : Memref sig .tc .vmem S2x4x256x256 .bf16).slice (Rect.unit (s := S2x4x256x256) (k0_off11 c 1#32 3#32) S1x1x256x256.size (k0_off11_inb c 0 2)) hs = rbM.slice (r4R 0 (zj c 3)) (fun _ => rfl) :=
  Memref.slice_unit_congr _ ((Mesh.off11_1_3 c).trans rfl) _ _ _ _
@[sl_canon] theorem c_arg5_off17_1_1 (c : Dev nD) (hs) :
    (rbM : Memref sig .tc .vmem S2x4x256x256 .bf16).slice (Rect.unit (s := S2x4x256x256) (k0_off17 c 1#32 1#32) S1x1x256x256.size (k0_off17_inb c 0 0)) hs = rbM.slice (r4R 1 (zj c 1)) (fun _ => rfl) :=
  Memref.slice_unit_congr _ ((Mesh.off17_1_1 c).trans rfl) _ _ _ _
@[sl_canon] theorem c_arg5_off17_1_2 (c : Dev nD) (hs) :
    (rbM : Memref sig .tc .vmem S2x4x256x256 .bf16).slice (Rect.unit (s := S2x4x256x256) (k0_off17 c 1#32 2#32) S1x1x256x256.size (k0_off17_inb c 0 1)) hs = rbM.slice (r4R 1 (zj c 2)) (fun _ => rfl) :=
  Memref.slice_unit_congr _ ((Mesh.off17_1_2 c).trans rfl) _ _ _ _
@[sl_canon] theorem c_arg5_off17_1_3 (c : Dev nD) (hs) :
    (rbM : Memref sig .tc .vmem S2x4x256x256 .bf16).slice (Rect.unit (s := S2x4x256x256) (k0_off17 c 1#32 3#32) S1x1x256x256.size (k0_off17_inb c 0 2)) hs = rbM.slice (r4R 1 (zj c 3)) (fun _ => rfl) :=
  Memref.slice_unit_congr _ ((Mesh.off17_1_3 c).trans rfl) _ _ _ _
@[sl_canon] theorem c_arg5_off4_1 (c : Dev nD) (hs) :
    (rbM : Memref sig .tc .vmem S2x4x256x256 .bf16).slice (Rect.unit (s := S2x4x256x256) (k0_off4 c 1#32) S1x1x256x256.size (k0_off4_inb c 0)) hs = rbM.slice (r4R 0 (zF c)) (fun _ => rfl) :=
  Memref.slice_unit_congr _ ((Mesh.off4_1 c).trans rfl) _ _ _ _
@[sl_canon] theorem c_arg5_off8_1 (c : Dev nD) (hs) :
    (rbM : Memref sig .tc .vmem S2x4x256x256 .bf16).slice (Rect.unit (s := S2x4x256x256) (k0_off8 c 1#32) S1x1x256x256.size (k0_off8_inb c 0)) hs = rbM.slice (r4R 1 (zF c)) (fun _ => rfl) :=
  Memref.slice_unit_congr _ ((Mesh.off8_1 c).trans rfl) _ _ _ _
@[sl_canon] theorem c_arg6_off11_4_1 (c : Dev nD) (hs) :
    (r1M : Memref sig .tc .vmem S2x4x256x256 .bf16).slice (Rect.unit (s := S2x4x256x256) (k0_off11 c 4#32 1#32) S1x1x256x256.size (k0_off11_inb c 1 0)) hs = r1M.slice (r4R 0 (yj c 1)) (fun _ => rfl) :=
  Memref.slice_unit_congr _ ((Mesh.off11_4_1 c).trans rfl) _ _ _ _
@[sl_canon] theorem c_arg6_off11_4_2 (c : Dev nD) (hs) :
    (r1M : Memref sig .tc .vmem S2x4x256x256 .bf16).slice (Rect.unit (s := S2x4x256x256) (k0_off11 c 4#32 2#32) S1x1x256x256.size (k0_off11_inb c 1 1)) hs = r1M.slice (r4R 0 (yj c 2)) (fun _ => rfl) :=
  Memref.slice_unit_congr _ ((Mesh.off11_4_2 c).trans rfl) _ _ _ _
@[sl_canon] theorem c_arg6_off11_4_3 (c : Dev nD) (hs) :
    (r1M : Memref sig .tc .vmem S2x4x256x256 .bf16).slice (Rect.unit (s := S2x4x256x256) (k0_off11 c 4#32 3#32) S1x1x256x256.size (k0_off11_inb c 1 2)) hs = r1M.slice (r4R 0 (yj c 3)) (fun _ => rfl) :=
  Memref.slice_unit_congr _ ((Mesh.off11_4_3 c).trans rfl) _ _ _ _
@[sl_canon] theorem c_arg6_off17_4_1 (c : Dev nD) (hs) :
    (r1M : Memref sig .tc .vmem S2x4x256x256 .bf16).slice (Rect.unit (s := S2x4x256x256) (k0_off17 c 4#32 1#32) S1x1x256x256.size (k0_off17_inb c 1 0)) hs = r1M.slice (r4R 1 (yj c 1)) (fun _ => rfl) :=
  Memref.slice_unit_congr _ ((Mesh.off17_4_1 c).trans rfl) _ _ _ _
@[sl_canon] theorem c_arg6_off17_4_2 (c : Dev nD) (hs) :
    (r1M : Memref sig .tc .vmem S2x4x256x256 .bf16).slice (Rect.unit (s := S2x4x256x256) (k0_off17 c 4#32 2#32) S1x1x256x256.size (k0_off17_inb c 1 1)) hs = r1M.slice (r4R 1 (yj c 2)) (fun _ => rfl) :=
  Memref.slice_unit_congr _ ((Mesh.off17_4_2 c).trans rfl) _ _ _ _
@[sl_canon] theorem c_arg6_off17_4_3 (c : Dev nD) (hs) :
    (r1M : Memref sig .tc .vmem S2x4x256x256 .bf16).slice (Rect.unit (s := S2x4x256x256) (k0_off17 c 4#32 3#32) S1x1x256x256.size (k0_off17_inb c 1 2)) hs = r1M.slice (r4R 1 (yj c 3)) (fun _ => rfl) :=
  Memref.slice_unit_congr _ ((Mesh.off17_4_3 c).trans rfl) _ _ _ _
@[sl_canon] theorem c_arg6_off4_4 (c : Dev nD) (hs) :
    (r1M : Memref sig .tc .vmem S2x4x256x256 .bf16).slice (Rect.unit (s := S2x4x256x256) (k0_off4 c 4#32) S1x1x256x256.size (k0_off4_inb c 1)) hs = r1M.slice (r4R 0 (yF c)) (fun _ => rfl) :=
  Memref.slice_unit_congr _ ((Mesh.off4_4 c).trans rfl) _ _ _ _
@[sl_canon] theorem c_arg6_off8_4 (c : Dev nD) (hs) :
    (r1M : Memref sig .tc .vmem S2x4x256x256 .bf16).slice (Rect.unit (s := S2x4x256x256) (k0_off8 c 4#32) S1x1x256x256.size (k0_off8_inb c 1)) hs = r1M.slice (r4R 1 (yF c)) (fun _ => rfl) :=
  Memref.slice_unit_congr _ ((Mesh.off8_4 c).trans rfl) _ _ _ _
@[sl_canon] theorem c_arg7_off11_4_1 (c : Dev nD) (hs) :
    (r2M : Memref sig .tc .vmem S2x4x256x256 .bf16).slice (Rect.unit (s := S2x4x256x256) (k0_off11 c 4#32 1#32) S1x1x256x256.size (k0_off11_inb c 1 0)) hs = r2M.slice (r4R 0 (yj c 1)) (fun _ => rfl) :=
  Memref.slice_unit_congr _ ((Mesh.off11_4_1 c).trans rfl) _ _ _ _
@[sl_canon] theorem c_arg7_off11_4_2 (c : Dev nD) (hs) :
    (r2M : Memref sig .tc .vmem S2x4x256x256 .bf16).slice (Rect.unit (s := S2x4x256x256) (k0_off11 c 4#32 2#32) S1x1x256x256.size (k0_off11_inb c 1 1)) hs = r2M.slice (r4R 0 (yj c 2)) (fun _ => rfl) :=
  Memref.slice_unit_congr _ ((Mesh.off11_4_2 c).trans rfl) _ _ _ _
@[sl_canon] theorem c_arg7_off11_4_3 (c : Dev nD) (hs) :
    (r2M : Memref sig .tc .vmem S2x4x256x256 .bf16).slice (Rect.unit (s := S2x4x256x256) (k0_off11 c 4#32 3#32) S1x1x256x256.size (k0_off11_inb c 1 2)) hs = r2M.slice (r4R 0 (yj c 3)) (fun _ => rfl) :=
  Memref.slice_unit_congr _ ((Mesh.off11_4_3 c).trans rfl) _ _ _ _
@[sl_canon] theorem c_arg7_off17_4_1 (c : Dev nD) (hs) :
    (r2M : Memref sig .tc .vmem S2x4x256x256 .bf16).slice (Rect.unit (s := S2x4x256x256) (k0_off17 c 4#32 1#32) S1x1x256x256.size (k0_off17_inb c 1 0)) hs = r2M.slice (r4R 1 (yj c 1)) (fun _ => rfl) :=
  Memref.slice_unit_congr _ ((Mesh.off17_4_1 c).trans rfl) _ _ _ _
@[sl_canon] theorem c_arg7_off17_4_2 (c : Dev nD) (hs) :
    (r2M : Memref sig .tc .vmem S2x4x256x256 .bf16).slice (Rect.unit (s := S2x4x256x256) (k0_off17 c 4#32 2#32) S1x1x256x256.size (k0_off17_inb c 1 1)) hs = r2M.slice (r4R 1 (yj c 2)) (fun _ => rfl) :=
  Memref.slice_unit_congr _ ((Mesh.off17_4_2 c).trans rfl) _ _ _ _
@[sl_canon] theorem c_arg7_off17_4_3 (c : Dev nD) (hs) :
    (r2M : Memref sig .tc .vmem S2x4x256x256 .bf16).slice (Rect.unit (s := S2x4x256x256) (k0_off17 c 4#32 3#32) S1x1x256x256.size (k0_off17_inb c 1 2)) hs = r2M.slice (r4R 1 (yj c 3)) (fun _ => rfl) :=
  Memref.slice_unit_congr _ ((Mesh.off17_4_3 c).trans rfl) _ _ _ _
@[sl_canon] theorem c_arg7_off4_4 (c : Dev nD) (hs) :
    (r2M : Memref sig .tc .vmem S2x4x256x256 .bf16).slice (Rect.unit (s := S2x4x256x256) (k0_off4 c 4#32) S1x1x256x256.size (k0_off4_inb c 1)) hs = r2M.slice (r4R 0 (yF c)) (fun _ => rfl) :=
  Memref.slice_unit_congr _ ((Mesh.off4_4 c).trans rfl) _ _ _ _
@[sl_canon] theorem c_arg7_off8_4 (c : Dev nD) (hs) :
    (r2M : Memref sig .tc .vmem S2x4x256x256 .bf16).slice (Rect.unit (s := S2x4x256x256) (k0_off8 c 4#32) S1x1x256x256.size (k0_off8_inb c 1)) hs = r2M.slice (r4R 1 (yF c)) (fun _ => rfl) :=
  Memref.slice_unit_congr _ ((Mesh.off8_4 c).trans rfl) _ _ _ _
@[sl_canon] theorem c_arg8_off2_1_1 : ∀ c : Dev nD,
    ((cc0_scratch5.slice (Rect.unit (s := S2x4) (k0_off2 c 1#32 1#32) S1x1.size (k0_off2_inb c 0 0))).squeeze S_ squeezes_S1x1_S_).sem = dsem 0 0 (zj c 1) := by decide +kernel
@[sl_canon] theorem c_arg8_off2_1_2 : ∀ c : Dev nD,
    ((cc0_scratch5.slice (Rect.unit (s := S2x4) (k0_off2 c 1#32 2#32) S1x1.size (k0_off2_inb c 0 1))).squeeze S_ squeezes_S1x1_S_).sem = dsem 0 0 (zj c 2) := by decide +kernel
@[sl_canon] theorem c_arg8_off2_1_3 : ∀ c : Dev nD,
    ((cc0_scratch5.slice (Rect.unit (s := S2x4) (k0_off2 c 1#32 3#32) S1x1.size (k0_off2_inb c 0 2))).squeeze S_ squeezes_S1x1_S_).sem = dsem 0 0 (zj c 3) := by decide +kernel
@[sl_canon] theorem c_arg8_off6_1_1 : ∀ c : Dev nD,
    ((cc0_scratch5.slice (Rect.unit (s := S2x4) (k0_off6 c 1#32 1#32) S1x1.size (k0_off6_inb c 0 0))).squeeze S_ squeezes_S1x1_S_).sem = dsem 0 1 (zj c 1) := by decide +kernel
@[sl_canon] theorem c_arg8_off6_1_2 : ∀ c : Dev nD,
    ((cc0_scratch5.slice (Rect.unit (s := S2x4) (k0_off6 c 1#32 2#32) S1x1.size (k0_off6_inb c 0 1))).squeeze S_ squeezes_S1x1_S_).sem = dsem 0 1 (zj c 2) := by decide +kernel
@[sl_canon] theorem c_arg8_off6_1_3 : ∀ c : Dev nD,
    ((cc0_scratch5.slice (Rect.unit (s := S2x4) (k0_off6 c 1#32 3#32) S1x1.size (k0_off6_inb c 0 2))).squeeze S_ squeezes_S1x1_S_).sem = dsem 0 1 (zj c 3) := by decide +kernel
@[sl_canon] theorem c_arg9_off2_1_1 : ∀ c : Dev nD,
    ((cc0_scratch6.slice (Rect.unit (s := S2x4) (k0_off2 c 1#32 1#32) S1x1.size (k0_off2_inb c 0 0))).squeeze S_ squeezes_S1x1_S_).sem = dsem 1 0 (zj c 1) := by decide +kernel
@[sl_canon] theorem c_arg9_off2_1_2 : ∀ c : Dev nD,
    ((cc0_scratch6.slice (Rect.unit (s := S2x4) (k0_off2 c 1#32 2#32) S1x1.size (k0_off2_inb c 0 1))).squeeze S_ squeezes_S1x1_S_).sem = dsem 1 0 (zj c 2) := by decide +kernel
@[sl_canon] theorem c_arg9_off2_1_3 : ∀ c : Dev nD,
    ((cc0_scratch6.slice (Rect.unit (s := S2x4) (k0_off2 c 1#32 3#32) S1x1.size (k0_off2_inb c 0 2))).squeeze S_ squeezes_S1x1_S_).sem = dsem 1 0 (zj c 3) := by decide +kernel
@[sl_canon] theorem c_arg9_off3_1 : ∀ c : Dev nD,
    ((cc0_scratch6.slice (Rect.unit (s := S2x4) (k0_off3 c 1#32) S1x1.size (k0_off3_inb c 0))).squeeze S_ squeezes_S1x1_S_).sem = dsem 1 0 (zF c) := by decide +kernel
@[sl_canon] theorem c_arg9_off6_1_1 : ∀ c : Dev nD,
    ((cc0_scratch6.slice (Rect.unit (s := S2x4) (k0_off6 c 1#32 1#32) S1x1.size (k0_off6_inb c 0 0))).squeeze S_ squeezes_S1x1_S_).sem = dsem 1 1 (zj c 1) := by decide +kernel
@[sl_canon] theorem c_arg9_off6_1_2 : ∀ c : Dev nD,
    ((cc0_scratch6.slice (Rect.unit (s := S2x4) (k0_off6 c 1#32 2#32) S1x1.size (k0_off6_inb c 0 1))).squeeze S_ squeezes_S1x1_S_).sem = dsem 1 1 (zj c 2) := by decide +kernel
@[sl_canon] theorem c_arg9_off6_1_3 : ∀ c : Dev nD,
    ((cc0_scratch6.slice (Rect.unit (s := S2x4) (k0_off6 c 1#32 3#32) S1x1.size (k0_off6_inb c 0 2))).squeeze S_ squeezes_S1x1_S_).sem = dsem 1 1 (zj c 3) := by decide +kernel
@[sl_canon] theorem c_arg9_off7_1 : ∀ c : Dev nD,
    ((cc0_scratch6.slice (Rect.unit (s := S2x4) (k0_off7 c 1#32) S1x1.size (k0_off7_inb c 0))).squeeze S_ squeezes_S1x1_S_).sem = dsem 1 1 (zF c) := by decide +kernel
@[sl_canon] theorem c_r2lit_0_0 (hs) :
    (r2M : Memref sig .tc .vmem S2x4x256x256 .bf16).slice (Rect.unit (s := S2x4x256x256) ![0, 0, 0, 0] S1x1x256x256.size inb_S2x4x256x256_S1x1x256x256_0_0_0_0) hs = r2M.slice (r4R 0 0) (fun _ => rfl) :=
  Memref.slice_unit_congr _ rfl _ _ _ _
@[sl_canon] theorem c_c2Rlit_0_0 :
    ((cc0_scratch10.slice (Rect.unit (s := S2x4) ![0, 0] S1x1.size inb_S2x4_S1x1_0_0)).squeeze S_ squeezes_S1x1_S_).sem = dsem 5 0 0 := by decide +kernel
@[sl_canon] theorem c_r2lit_0_1 (hs) :
    (r2M : Memref sig .tc .vmem S2x4x256x256 .bf16).slice (Rect.unit (s := S2x4x256x256) ![0, 1, 0, 0] S1x1x256x256.size inb_S2x4x256x256_S1x1x256x256_0_1_0_0) hs = r2M.slice (r4R 0 1) (fun _ => rfl) :=
  Memref.slice_unit_congr _ rfl _ _ _ _
@[sl_canon] theorem c_c2Rlit_0_1 :
    ((cc0_scratch10.slice (Rect.unit (s := S2x4) ![0, 1] S1x1.size inb_S2x4_S1x1_0_1)).squeeze S_ squeezes_S1x1_S_).sem = dsem 5 0 1 := by decide +kernel
@[sl_canon] theorem c_r2lit_0_2 (hs) :
    (r2M : Memref sig .tc .vmem S2x4x256x256 .bf16).slice (Rect.unit (s := S2x4x256x256) ![0, 2, 0, 0] S1x1x256x256.size inb_S2x4x256x256_S1x1x256x256_0_2_0_0) hs = r2M.slice (r4R 0 2) (fun _ => rfl) :=
  Memref.slice_unit_congr _ rfl _ _ _ _
@[sl_canon] theorem c_c2Rlit_0_2 :
    ((cc0_scratch10.slice (Rect.unit (s := S2x4) ![0, 2] S1x1.size inb_S2x4_S1x1_0_2)).squeeze S_ squeezes_S1x1_S_).sem = dsem 5 0 2 := by decide +kernel
@[sl_canon] theorem c_r2lit_0_3 (hs) :
    (r2M : Memref sig .tc .vmem S2x4x256x256 .bf16).slice (Rect.unit (s := S2x4x256x256) ![0, 3, 0, 0] S1x1x256x256.size inb_S2x4x256x256_S1x1x256x256_0_3_0_0) hs = r2M.slice (r4R 0 3) (fun _ => rfl) :=
  Memref.slice_unit_congr _ rfl _ _ _ _
@[sl_canon] theorem c_c2Rlit_0_3 :
    ((cc0_scratch10.slice (Rect.unit (s := S2x4) ![0, 3] S1x1.size inb_S2x4_S1x1_0_3)).squeeze S_ squeezes_S1x1_S_).sem = dsem 5 0 3 := by decide +kernel
@[sl_canon] theorem c_r2lit_1_0 (hs) :
    (r2M : Memref sig .tc .vmem S2x4x256x256 .bf16).slice (Rect.unit (s := S2x4x256x256) ![1, 0, 0, 0] S1x1x256x256.size inb_S2x4x256x256_S1x1x256x256_1_0_0_0) hs = r2M.slice (r4R 1 0) (fun _ => rfl) :=
  Memref.slice_unit_congr _ rfl _ _ _ _
@[sl_canon] theorem c_c2Rlit_1_0 :
    ((cc0_scratch10.slice (Rect.unit (s := S2x4) ![1, 0] S1x1.size inb_S2x4_S1x1_1_0)).squeeze S_ squeezes_S1x1_S_).sem = dsem 5 1 0 := by decide +kernel
@[sl_canon] theorem c_r2lit_1_1 (hs) :
    (r2M : Memref sig .tc .vmem S2x4x256x256 .bf16).slice (Rect.unit (s := S2x4x256x256) ![1, 1, 0, 0] S1x1x256x256.size inb_S2x4x256x256_S1x1x256x256_1_1_0_0) hs = r2M.slice (r4R 1 1) (fun _ => rfl) :=
  Memref.slice_unit_congr _ rfl _ _ _ _
@[sl_canon] theorem c_c2Rlit_1_1 :
    ((cc0_scratch10.slice (Rect.unit (s := S2x4) ![1, 1] S1x1.size inb_S2x4_S1x1_1_1)).squeeze S_ squeezes_S1x1_S_).sem = dsem 5 1 1 := by decide +kernel
@[sl_canon] theorem c_r2lit_1_2 (hs) :
    (r2M : Memref sig .tc .vmem S2x4x256x256 .bf16).slice (Rect.unit (s := S2x4x256x256) ![1, 2, 0, 0] S1x1x256x256.size inb_S2x4x256x256_S1x1x256x256_1_2_0_0) hs = r2M.slice (r4R 1 2) (fun _ => rfl) :=
  Memref.slice_unit_congr _ rfl _ _ _ _
@[sl_canon] theorem c_c2Rlit_1_2 :
    ((cc0_scratch10.slice (Rect.unit (s := S2x4) ![1, 2] S1x1.size inb_S2x4_S1x1_1_2)).squeeze S_ squeezes_S1x1_S_).sem = dsem 5 1 2 := by decide +kernel
@[sl_canon] theorem c_r2lit_1_3 (hs) :
    (r2M : Memref sig .tc .vmem S2x4x256x256 .bf16).slice (Rect.unit (s := S2x4x256x256) ![1, 3, 0, 0] S1x1x256x256.size inb_S2x4x256x256_S1x1x256x256_1_3_0_0) hs = r2M.slice (r4R 1 3) (fun _ => rfl) :=
  Memref.slice_unit_congr _ rfl _ _ _ _
@[sl_canon] theorem c_c2Rlit_1_3 :
    ((cc0_scratch10.slice (Rect.unit (s := S2x4) ![1, 3] S1x1.size inb_S2x4_S1x1_1_3)).squeeze S_ squeezes_S1x1_S_).sem = dsem 5 1 3 := by decide +kernel
@[sl_canon] theorem c_redlit_0 (hs) :
    (redM : Memref sig .tc .vmem S2x256x256 .bf16).slice (Rect.unit (s := S2x256x256) ![0, 0, 0] S1x256x256.size inb_S2x256x256_S1x256x256_0_0_0) hs = redM.slice (redR 0) (fun _ => rfl) :=
  Memref.slice_unit_congr _ rfl _ _ _ _
@[sl_canon] theorem c_redlit_1 (hs) :
    (redM : Memref sig .tc .vmem S2x256x256 .bf16).slice (Rect.unit (s := S2x256x256) ![1, 0, 0] S1x256x256.size inb_S2x256x256_S1x256x256_1_0_0) hs = redM.slice (redR 1) (fun _ => rfl) :=
  Memref.slice_unit_congr _ rfl _ _ _ _

/-- The devices the kernel addresses, as the neighbours. -/
@[sl_canon] theorem c_dev1 (c : Dev nD) : (⟨k0_dev1 c, k0_dev1_lt c⟩ : Dev nD) = zP c 1 := Mesh.dev1_eq c
@[sl_canon] theorem c_dev2 (c : Dev nD) : (⟨k0_dev2 c, k0_dev2_lt c⟩ : Dev nD) = zP c 2 := Mesh.dev2_eq c
@[sl_canon] theorem c_dev3 (c : Dev nD) : (⟨k0_dev3 c, k0_dev3_lt c⟩ : Dev nD) = zP c 3 := Mesh.dev3_eq c
@[sl_canon] theorem c_dev4 (c : Dev nD) : (⟨k0_dev4 c, k0_dev4_lt c⟩ : Dev nD) = yP c 1 := Mesh.dev4_eq c
@[sl_canon] theorem c_dev5 (c : Dev nD) : (⟨k0_dev5 c, k0_dev5_lt c⟩ : Dev nD) = yP c 2 := Mesh.dev5_eq c
@[sl_canon] theorem c_dev6 (c : Dev nD) : (⟨k0_dev6 c, k0_dev6_lt c⟩ : Dev nD) = yP c 3 := Mesh.dev6_eq c
@[sl_canon] theorem c_dev7 (c : Dev nD) : (⟨k0_dev7 c, k0_dev7_lt c⟩ : Dev nD) = xP c := Mesh.dev7_eq c
@[sl_canon] theorem c_dev8 (c : Dev nD) : (⟨k0_dev8 c, k0_dev8_lt c⟩ : Dev nD) = zP c 1 := Mesh.dev8_eq c
@[sl_canon] theorem c_dev9 (c : Dev nD) : (⟨k0_dev9 c, k0_dev9_lt c⟩ : Dev nD) = zP c 2 := Mesh.dev9_eq c
@[sl_canon] theorem c_dev10 (c : Dev nD) : (⟨k0_dev10 c, k0_dev10_lt c⟩ : Dev nD) = zP c 3 := Mesh.dev10_eq c
@[sl_canon] theorem c_dev11 (c : Dev nD) : (⟨k0_dev11 c, k0_dev11_lt c⟩ : Dev nD) = zP c 1 := Mesh.dev11_eq c
@[sl_canon] theorem c_dev12 (c : Dev nD) : (⟨k0_dev12 c, k0_dev12_lt c⟩ : Dev nD) = zP c 2 := Mesh.dev12_eq c
@[sl_canon] theorem c_dev13 (c : Dev nD) : (⟨k0_dev13 c, k0_dev13_lt c⟩ : Dev nD) = zP c 3 := Mesh.dev13_eq c
@[sl_canon] theorem c_dev14 (c : Dev nD) : (⟨k0_dev14 c, k0_dev14_lt c⟩ : Dev nD) = yP c 1 := Mesh.dev14_eq c
@[sl_canon] theorem c_dev15 (c : Dev nD) : (⟨k0_dev15 c, k0_dev15_lt c⟩ : Dev nD) = yP c 2 := Mesh.dev15_eq c
@[sl_canon] theorem c_dev16 (c : Dev nD) : (⟨k0_dev16 c, k0_dev16_lt c⟩ : Dev nD) = yP c 3 := Mesh.dev16_eq c
@[sl_canon] theorem c_dev17 (c : Dev nD) : (⟨k0_dev17 c, k0_dev17_lt c⟩ : Dev nD) = xP c := Mesh.dev17_eq c
@[sl_canon] theorem c_dev18 (c : Dev nD) : (⟨k0_dev18 c, k0_dev18_lt c⟩ : Dev nD) = xP c := Mesh.dev18_eq c
@[sl_canon] theorem c_dev19 (c : Dev nD) : (⟨k0_dev19 c, k0_dev19_lt c⟩ : Dev nD) = xP c := Mesh.dev19_eq c
@[sl_canon] theorem c_dev20 (c : Dev nD) : (⟨k0_dev20 c, k0_dev20_lt c⟩ : Dev nD) = xP c := Mesh.dev20_eq c
@[sl_canon] theorem c_dev21 (c : Dev nD) : (⟨k0_dev21 c, k0_dev21_lt c⟩ : Dev nD) = yP c 1 := Mesh.dev21_eq c
@[sl_canon] theorem c_dev22 (c : Dev nD) : (⟨k0_dev22 c, k0_dev22_lt c⟩ : Dev nD) = yP c 2 := Mesh.dev22_eq c
@[sl_canon] theorem c_dev23 (c : Dev nD) : (⟨k0_dev23 c, k0_dev23_lt c⟩ : Dev nD) = yP c 3 := Mesh.dev23_eq c
@[sl_canon] theorem c_dev24 (c : Dev nD) : (⟨k0_dev24 c, k0_dev24_lt c⟩ : Dev nD) = xP c := Mesh.dev24_eq c
@[sl_canon] theorem c_dev25 (c : Dev nD) : (⟨k0_dev25 c, k0_dev25_lt c⟩ : Dev nD) = xP c := Mesh.dev25_eq c
@[sl_canon] theorem c_dev26 (c : Dev nD) : (⟨k0_dev26 c, k0_dev26_lt c⟩ : Dev nD) = xP c := Mesh.dev26_eq c
@[sl_canon] theorem c_dev27 (c : Dev nD) : (⟨k0_dev27 c, k0_dev27_lt c⟩ : Dev nD) = xP c := Mesh.dev27_eq c

end Cert.Kernel.Coll

end
-- ==== Proof.KSlots.lean ====
/- A device's scratch buffers held slot by slot. The element set of a 256 × 256 slot is a unit rectangle of its
   buffer, in closed form; the slots of one buffer are pairwise disjoint and cover it, so the buffer's points-to is
   the separating conjunction of its slots' and the slots held at any contents join back to the buffer; and a
   conjunction over the four coordinates of an axis may be listed from the device's own coordinate onwards. -/
import proofs.«901051_g7700000000001052_dist_rsdw_v7x_xyz2x4x4_z_m1024_d1024_f4096_bf16_1_alg».proof.Proof.KCells
import Idealize.ShloMosaic.Lib.Ring
import Idealize.ShloMosaic.Rules.PointsTo

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The element sets of the slots -/

theorem pbSlot_set (j : Fin 4) (h : Fin 2) : (pbSlot j h).view.set = (pbR j h).set :=
  View.set_slice_whole cc0_scratch0 (pbR j h)

theorem redSlot_set (h : Fin 2) : (redSlot h).view.set = (redR h).set :=
  (View.set_reshape (redM.slice (redR h) (fun _ => rfl)).view squeezes_S1x256x256_S256x256.numel_eq).trans
    (View.set_slice_whole cc0_scratch1 (redR h))

theorem rbSlot_set (h : Fin 2) (j : Fin 4) : (rbSlot h j).view.set = (r4R h j).set :=
  (View.set_reshape (rbM.slice (r4R h j) (fun _ => rfl)).view squeezes_S1x1x256x256_S256x256.numel_eq).trans
    (View.set_slice_whole cc0_scratch2 (r4R h j))

theorem r1Slot_set (h : Fin 2) (j : Fin 4) : (r1Slot h j).view.set = (r4R h j).set :=
  (View.set_reshape (r1M.slice (r4R h j) (fun _ => rfl)).view squeezes_S1x1x256x256_S256x256.numel_eq).trans
    (View.set_slice_whole cc0_scratch3 (r4R h j))

theorem r2Slot_set (h : Fin 2) (j : Fin 4) : (r2Slot h j).view.set = (r4R h j).set :=
  (View.set_reshape (r2M.slice (r4R h j) (fun _ => rfl)).view squeezes_S1x1x256x256_S256x256.numel_eq).trans
    (View.set_slice_whole cc0_scratch4 (r4R h j))

/-! ## Membership in closed form -/

theorem mem_r4R {h : Fin 2} {j : Fin 4} {i : S2x4x256x256.Idx} :
    i ∈ (r4R h j).set ↔ (i 0).val = h.val ∧ (i 1).val = j.val := by
  rw [Rect.mem_set_unit]
  constructor
  · intro H
    have h0 : h.val ≤ (i 0).val ∧ (i 0).val < h.val + 1 := H 0
    have h1 : j.val ≤ (i 1).val ∧ (i 1).val < j.val + 1 := H 1
    omega
  · rintro ⟨h0, h1⟩ a
    have h2 : (i 2).val < 256 := (i 2).isLt
    have h3 : (i 3).val < 256 := (i 3).isLt
    fin_cases a
    · show h.val ≤ (i 0).val ∧ (i 0).val < h.val + 1; omega
    · show j.val ≤ (i 1).val ∧ (i 1).val < j.val + 1; omega
    · show 0 ≤ (i 2).val ∧ (i 2).val < 0 + 256; omega
    · show 0 ≤ (i 3).val ∧ (i 3).val < 0 + 256; omega

theorem mem_pbR {j : Fin 4} {h : Fin 2} {i : S1024x512.Idx} :
    i ∈ (pbR j h).set ↔ 256 * j.val ≤ (i 0).val ∧ (i 0).val < 256 * j.val + 256 ∧ 256 * h.val ≤ (i 1).val ∧ (i 1).val < 256 * h.val + 256 := by
  rw [Rect.mem_set_unit]
  constructor
  · intro H
    have h0 : 256 * j.val ≤ (i 0).val ∧ (i 0).val < 256 * j.val + 256 := H 0
    have h1 : 256 * h.val ≤ (i 1).val ∧ (i 1).val < 256 * h.val + 256 := H 1
    exact ⟨h0.1, h0.2, h1.1, h1.2⟩
  · rintro ⟨h0, h0', h1, h1'⟩ a
    fin_cases a
    · exact ⟨h0, h0'⟩
    · exact ⟨h1, h1'⟩

theorem mem_redR {h : Fin 2} {i : S2x256x256.Idx} : i ∈ (redR h).set ↔ (i 0).val = h.val := by
  rw [Rect.mem_set_unit]
  constructor
  · intro H
    have h0 : h.val ≤ (i 0).val ∧ (i 0).val < h.val + 1 := H 0
    omega
  · intro h0 a
    have h1 : (i 1).val < 256 := (i 1).isLt
    have h2 : (i 2).val < 256 := (i 2).isLt
    fin_cases a
    · show h.val ≤ (i 0).val ∧ (i 0).val < h.val + 1; omega
    · show 0 ≤ (i 1).val ∧ (i 1).val < 0 + 256; omega
    · show 0 ≤ (i 2).val ∧ (i 2).val < 0 + 256; omega

theorem mem_oR {q : Fin 8} {h : Fin 2} {i : S256x4096.Idx} :
    i ∈ (oR q h).set ↔ 512 * q.val + 256 * h.val ≤ (i 1).val ∧ (i 1).val < 512 * q.val + 256 * h.val + 256 := by
  rw [Rect.mem_set_unit]
  constructor
  · intro H; exact H 1
  · intro h1 a
    have h0 : (i 0).val < 256 := (i 0).isLt
    fin_cases a
    · show 0 ≤ (i 0).val ∧ (i 0).val < 0 + 256; omega
    · exact h1

/-! ## The rectangles of one buffer: pairwise disjoint, and every element in one -/

theorem r4R_disjoint (a b : Fin 2 × Fin 4) (hab : a ≠ b) : Disjoint (r4R a.1 a.2).set (r4R b.1 b.2).set := by
  rw [Finset.disjoint_left]
  intro i hi hi'
  have h1 := mem_r4R.mp hi
  have h2 := mem_r4R.mp hi'
  exact hab (Prod.ext (Fin.ext (h1.1.symm.trans h2.1)) (Fin.ext (h1.2.symm.trans h2.2)))

theorem r4R_covers (i : S2x4x256x256.Idx) : ∃ a : Fin 2 × Fin 4, i ∈ (r4R a.1 a.2).set :=
  ⟨(⟨(i 0).val, (i 0).isLt⟩, ⟨(i 1).val, (i 1).isLt⟩), mem_r4R.mpr ⟨rfl, rfl⟩⟩

theorem redR_disjoint (a b : Fin 2) (hab : a ≠ b) : Disjoint (redR a).set (redR b).set := by
  rw [Finset.disjoint_left]
  intro i hi hi'
  exact hab (Fin.ext ((mem_redR.mp hi).symm.trans (mem_redR.mp hi')))

theorem redR_covers (i : S2x256x256.Idx) : ∃ a : Fin 2, i ∈ (redR a).set :=
  ⟨⟨(i 0).val, (i 0).isLt⟩, mem_redR.mpr rfl⟩

theorem pbR_disjoint (a b : Fin 4 × Fin 2) (hab : a ≠ b) : Disjoint (pbR a.1 a.2).set (pbR b.1 b.2).set := by
  rw [Finset.disjoint_left]
  intro i hi hi'
  have h1 := mem_pbR.mp hi
  have h2 := mem_pbR.mp hi'
  exact hab (Prod.ext (Fin.ext (by omega)) (Fin.ext (by omega)))

theorem pbR_covers (i : S1024x512.Idx) : ∃ a : Fin 4 × Fin 2, i ∈ (pbR a.1 a.2).set := by
  have h0 : (i 0).val < 1024 := (i 0).isLt
  have h1 : (i 1).val < 512 := (i 1).isLt
  refine ⟨(⟨(i 0).val / 256, by omega⟩, ⟨(i 1).val / 256, by omega⟩), mem_pbR.mpr ?_⟩
  show 256 * ((i 0).val / 256) ≤ (i 0).val ∧ (i 0).val < 256 * ((i 0).val / 256) + 256
    ∧ 256 * ((i 1).val / 256) ≤ (i 1).val ∧ (i 1).val < 256 * ((i 1).val / 256) + 256
  omega

/-! ## Conjunctions over small index types, listed -/

theorem bigSep_fin2 (Φ : Fin 2 → sProp 𝕄) : bigSep Finset.univ Φ = iprop(Φ 0 ∗ Φ 1) :=
  bigSep_univ_eq_bigSepL [0, 1] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_fin2x4 (Φ : Fin 2 × Fin 4 → sProp 𝕄) :
    bigSep Finset.univ Φ = iprop((Φ (0, 0) ∗ Φ (0, 1) ∗ Φ (0, 2) ∗ Φ (0, 3)) ∗ (Φ (1, 0) ∗ Φ (1, 1) ∗ Φ (1, 2) ∗ Φ (1, 3))) := by
  rw [bigSep_univ_prod, bigSep_fin2, bigSep_fin4, bigSep_fin4]

theorem bigSep_fin4x2 (Φ : Fin 4 × Fin 2 → sProp 𝕄) :
    bigSep Finset.univ Φ = iprop((Φ (0, 0) ∗ Φ (0, 1)) ∗ (Φ (1, 0) ∗ Φ (1, 1)) ∗ (Φ (2, 0) ∗ Φ (2, 1)) ∗ (Φ (3, 0) ∗ Φ (3, 1))) := by
  rw [bigSep_univ_prod, bigSep_fin4, bigSep_fin2, bigSep_fin2, bigSep_fin2, bigSep_fin2]

/-! ## The four coordinates of an axis, listed from the device's own -/

/-- `d ↦ (z + d) mod 4`: a rotation of the four z coordinates. -/
def zrot (c : Dev nD) : Fin 4 ≃ Fin 4 where
  toFun d := zj c d.val
  invFun k := ⟨(k.val + 4 - zc c) % 4, Nat.mod_lt _ (by decide)⟩
  left_inv d := by
    apply Fin.ext; have := zc_lt c; have := d.isLt
    show ((zc c + d.val) % 4 + 4 - zc c) % 4 = d.val
    omega
  right_inv k := by
    apply Fin.ext; have := zc_lt c; have := k.isLt
    show (zc c + (k.val + 4 - zc c) % 4) % 4 = k.val
    omega

/-- `d ↦ (y + d) mod 4`: a rotation of the four y coordinates. -/
def yrot (c : Dev nD) : Fin 4 ≃ Fin 4 where
  toFun d := yj c d.val
  invFun k := ⟨(k.val + 4 - yc c) % 4, Nat.mod_lt _ (by decide)⟩
  left_inv d := by
    apply Fin.ext; have := yc_lt c; have := d.isLt
    show ((yc c + d.val) % 4 + 4 - yc c) % 4 = d.val
    omega
  right_inv k := by
    apply Fin.ext; have := yc_lt c; have := k.isLt
    show (yc c + (k.val + 4 - yc c) % 4) % 4 = k.val
    omega

theorem zj_zero (c : Dev nD) : zj c 0 = zF c := Fin.ext (Nat.mod_eq_of_lt (zc_lt c))
theorem yj_zero (c : Dev nD) : yj c 0 = yF c := Fin.ext (Nat.mod_eq_of_lt (yc_lt c))

theorem bigSep_zrot (c : Dev nD) (Φ : Fin 4 → sProp 𝕄) :
    bigSep Finset.univ Φ = iprop(Φ (zF c) ∗ Φ (zj c 1) ∗ Φ (zj c 2) ∗ Φ (zj c 3)) := by
  rw [bigSep_univ_equiv (zrot c) Φ, bigSep_fin4, ← zj_zero c] <;> rfl

theorem bigSep_yrot (c : Dev nD) (Φ : Fin 4 → sProp 𝕄) :
    bigSep Finset.univ Φ = iprop(Φ (yF c) ∗ Φ (yj c 1) ∗ Φ (yj c 2) ∗ Φ (yj c 3)) := by
  rw [bigSep_univ_equiv (yrot c) Φ, bigSep_fin4, ← yj_zero c] <;> rfl

/-! ## A buffer as its blocks, and back -/

/-- Blocks each held at some contents join to the buffer at some contents; the contents a join over no block at all
    would have to name are read off a block that is there. -/
theorem blocks_join {ℓ : Loc nD τ sig} {B : Type} [Fintype B] [DecidableEq B] (I : B → Finset (Idealize.ShloMosaic.Idx ℓ))
    (hd : ∀ b b', b ≠ b' → Disjoint (I b) (I b')) (hc : Finset.univ.biUnion I = Finset.univ) (b0 : B) {q : PosShare TreeShare} :
    bigSep Finset.univ (fun b => iprop(∃ f, ℓ ↦[I b]{q} f)) ⊢ (iprop(∃ g, ℓ ↦{q} g) : sProp 𝕄) := by
  have hs : bigSep Finset.univ (fun b => (iprop(∃ f, ℓ ↦[I b]{q} f) : sProp 𝕄))
      = iprop((∃ f, ℓ ↦[I b0]{q} f) ∗ bigSep (Finset.univ.erase b0) (fun b => iprop(∃ f, ℓ ↦[I b]{q} f))) := by
    exact (congrArg (fun s : Finset B => bigSep s (fun b => (iprop(∃ f, ℓ ↦[I b]{q} f) : sProp 𝕄)))
      (Finset.insert_erase (Finset.mem_univ b0)).symm).trans (bigSep_insert (Finset.notMem_erase b0 _))
  refine (Entails.of_eq hs).trans ?_
  iintro ⟨⟨%f0, H0⟩, Hr⟩
  iapply (Ring.pointsTo_blocks_join_exists I hd hc f0)
  iapply (Entails.of_eq hs.symm)
  isplitl [H0]
  · iexists f0; iexact H0
  · iexact Hr

/-! ### The partial products `cc0_scratch0` by their eight blocks `pbSlot j h` -/

/-- The slots' element sets, as sets of elements of the device's buffer. -/
abbrev pbI (c : Dev nD) : Fin 4 × Fin 2 → Finset (Idealize.ShloMosaic.Idx ((c : Thread nD τ).loc cc0_scratch0)) :=
  fun a => (pbSlot a.1 a.2).view.set

theorem pb_hd (c : Dev nD) : ∀ a b : Fin 4 × Fin 2, a ≠ b → Disjoint (pbI c a) (pbI c b) := by
  intro a b hab
  show Disjoint (pbSlot a.1 a.2).view.set (pbSlot b.1 b.2).view.set
  rw [pbSlot_set, pbSlot_set]
  exact pbR_disjoint a b hab

theorem pb_hc (c : Dev nD) : Finset.univ.biUnion (pbI c) = Finset.univ := by
  ext i
  simp only [Finset.mem_biUnion, Finset.mem_univ, true_and, iff_true]
  obtain ⟨a, ha⟩ := pbR_covers i
  refine ⟨a, ?_⟩
  show i ∈ (pbSlot a.1 a.2).view.set
  rw [pbSlot_set]; exact ha

/-- The buffer held whole is its slots, each held by its own elements. -/
theorem pb_split (c : Dev nD) (q : PosShare TreeShare) (f : Buf (Elt F) ((c : Thread nD τ).loc cc0_scratch0)) :
    (((c : Thread nD τ).loc cc0_scratch0) ↦{q} f : sProp 𝕄)
      = bigSep Finset.univ fun jh : Fin 4 × Fin 2 => slotPts c (pbSlot jh.1 jh.2) q f :=
  Ring.pointsTo_blocks (pbI c) (pb_hd c) (pb_hc c) f

/-- The slots, each at some contents, are the buffer at some contents. -/
theorem pb_join (c : Dev nD) :
    bigSep Finset.univ (fun jh : Fin 4 × Fin 2 => iprop(∃ f, slotPts (F := F) c (pbSlot jh.1 jh.2) fullShare f))
      ⊢ iprop(∃ g, ((c : Thread nD τ).loc cc0_scratch0) ↦{fullShare} g) :=
  blocks_join (pbI c) (pb_hd c) (pb_hc c) (0, 0)

/-! ### The sums `cc0_scratch1` by their two halves `redSlot h` -/

/-- The slots' element sets, as sets of elements of the device's buffer. -/
abbrev redI (c : Dev nD) : Fin 2 → Finset (Idealize.ShloMosaic.Idx ((c : Thread nD τ).loc cc0_scratch1)) :=
  fun a => (redSlot a).view.set

theorem red_hd (c : Dev nD) : ∀ a b : Fin 2, a ≠ b → Disjoint (redI c a) (redI c b) := by
  intro a b hab
  show Disjoint (redSlot a).view.set (redSlot b).view.set
  rw [redSlot_set, redSlot_set]
  exact redR_disjoint a b hab

theorem red_hc (c : Dev nD) : Finset.univ.biUnion (redI c) = Finset.univ := by
  ext i
  simp only [Finset.mem_biUnion, Finset.mem_univ, true_and, iff_true]
  obtain ⟨a, ha⟩ := redR_covers i
  refine ⟨a, ?_⟩
  show i ∈ (redSlot a).view.set
  rw [redSlot_set]; exact ha

/-- The buffer held whole is its slots, each held by its own elements. -/
theorem red_split (c : Dev nD) (q : PosShare TreeShare) (f : Buf (Elt F) ((c : Thread nD τ).loc cc0_scratch1)) :
    (((c : Thread nD τ).loc cc0_scratch1) ↦{q} f : sProp 𝕄)
      = bigSep Finset.univ fun h : Fin 2 => slotPts c (redSlot h) q f :=
  Ring.pointsTo_blocks (redI c) (red_hd c) (red_hc c) f

/-- The slots, each at some contents, are the buffer at some contents. -/
theorem red_join (c : Dev nD) :
    bigSep Finset.univ (fun h : Fin 2 => iprop(∃ f, slotPts (F := F) c (redSlot h) fullShare f))
      ⊢ iprop(∃ g, ((c : Thread nD τ).loc cc0_scratch1) ↦{fullShare} g) :=
  blocks_join (redI c) (red_hd c) (red_hc c) 0

/-! ### The z phase's receive buffer `cc0_scratch2` by its eight slots `rbSlot h j` -/

/-- The slots' element sets, as sets of elements of the device's buffer. -/
abbrev rbI (c : Dev nD) : Fin 2 × Fin 4 → Finset (Idealize.ShloMosaic.Idx ((c : Thread nD τ).loc cc0_scratch2)) :=
  fun a => (rbSlot a.1 a.2).view.set

theorem rb_hd (c : Dev nD) : ∀ a b : Fin 2 × Fin 4, a ≠ b → Disjoint (rbI c a) (rbI c b) := by
  intro a b hab
  show Disjoint (rbSlot a.1 a.2).view.set (rbSlot b.1 b.2).view.set
  rw [rbSlot_set, rbSlot_set]
  exact r4R_disjoint a b hab

theorem rb_hc (c : Dev nD) : Finset.univ.biUnion (rbI c) = Finset.univ := by
  ext i
  simp only [Finset.mem_biUnion, Finset.mem_univ, true_and, iff_true]
  obtain ⟨a, ha⟩ := r4R_covers i
  refine ⟨a, ?_⟩
  show i ∈ (rbSlot a.1 a.2).view.set
  rw [rbSlot_set]; exact ha

/-- The buffer held whole is its slots, each held by its own elements. -/
theorem rb_split (c : Dev nD) (q : PosShare TreeShare) (f : Buf (Elt F) ((c : Thread nD τ).loc cc0_scratch2)) :
    (((c : Thread nD τ).loc cc0_scratch2) ↦{q} f : sProp 𝕄)
      = bigSep Finset.univ fun hj : Fin 2 × Fin 4 => slotPts c (rbSlot hj.1 hj.2) q f :=
  Ring.pointsTo_blocks (rbI c) (rb_hd c) (rb_hc c) f

/-- The slots, each at some contents, are the buffer at some contents. -/
theorem rb_join (c : Dev nD) :
    bigSep Finset.univ (fun hj : Fin 2 × Fin 4 => iprop(∃ f, slotPts (F := F) c (rbSlot hj.1 hj.2) fullShare f))
      ⊢ iprop(∃ g, ((c : Thread nD τ).loc cc0_scratch2) ↦{fullShare} g) :=
  blocks_join (rbI c) (rb_hd c) (rb_hc c) (0, 0)

/-! ### The y phase's receive buffer `cc0_scratch3` by its eight slots `r1Slot h j` -/

/-- The slots' element sets, as sets of elements of the device's buffer. -/
abbrev r1I (c : Dev nD) : Fin 2 × Fin 4 → Finset (Idealize.ShloMosaic.Idx ((c : Thread nD τ).loc cc0_scratch3)) :=
  fun a => (r1Slot a.1 a.2).view.set

theorem r1_hd (c : Dev nD) : ∀ a b : Fin 2 × Fin 4, a ≠ b → Disjoint (r1I c a) (r1I c b) := by
  intro a b hab
  show Disjoint (r1Slot a.1 a.2).view.set (r1Slot b.1 b.2).view.set
  rw [r1Slot_set, r1Slot_set]
  exact r4R_disjoint a b hab

theorem r1_hc (c : Dev nD) : Finset.univ.biUnion (r1I c) = Finset.univ := by
  ext i
  simp only [Finset.mem_biUnion, Finset.mem_univ, true_and, iff_true]
  obtain ⟨a, ha⟩ := r4R_covers i
  refine ⟨a, ?_⟩
  show i ∈ (r1Slot a.1 a.2).view.set
  rw [r1Slot_set]; exact ha

/-- The buffer held whole is its slots, each held by its own elements. -/
theorem r1_split (c : Dev nD) (q : PosShare TreeShare) (f : Buf (Elt F) ((c : Thread nD τ).loc cc0_scratch3)) :
    (((c : Thread nD τ).loc cc0_scratch3) ↦{q} f : sProp 𝕄)
      = bigSep Finset.univ fun hj : Fin 2 × Fin 4 => slotPts c (r1Slot hj.1 hj.2) q f :=
  Ring.pointsTo_blocks (r1I c) (r1_hd c) (r1_hc c) f

/-- The slots, each at some contents, are the buffer at some contents. -/
theorem r1_join (c : Dev nD) :
    bigSep Finset.univ (fun hj : Fin 2 × Fin 4 => iprop(∃ f, slotPts (F := F) c (r1Slot hj.1 hj.2) fullShare f))
      ⊢ iprop(∃ g, ((c : Thread nD τ).loc cc0_scratch3) ↦{fullShare} g) :=
  blocks_join (r1I c) (r1_hd c) (r1_hc c) (0, 0)

/-! ### The x phase's receive buffer `cc0_scratch4` by its eight slots `r2Slot h j` -/

/-- The slots' element sets, as sets of elements of the device's buffer. -/
abbrev r2I (c : Dev nD) : Fin 2 × Fin 4 → Finset (Idealize.ShloMosaic.Idx ((c : Thread nD τ).loc cc0_scratch4)) :=
  fun a => (r2Slot a.1 a.2).view.set

theorem r2_hd (c : Dev nD) : ∀ a b : Fin 2 × Fin 4, a ≠ b → Disjoint (r2I c a) (r2I c b) := by
  intro a b hab
  show Disjoint (r2Slot a.1 a.2).view.set (r2Slot b.1 b.2).view.set
  rw [r2Slot_set, r2Slot_set]
  exact r4R_disjoint a b hab

theorem r2_hc (c : Dev nD) : Finset.univ.biUnion (r2I c) = Finset.univ := by
  ext i
  simp only [Finset.mem_biUnion, Finset.mem_univ, true_and, iff_true]
  obtain ⟨a, ha⟩ := r4R_covers i
  refine ⟨a, ?_⟩
  show i ∈ (r2Slot a.1 a.2).view.set
  rw [r2Slot_set]; exact ha

/-- The buffer held whole is its slots, each held by its own elements. -/
theorem r2_split (c : Dev nD) (q : PosShare TreeShare) (f : Buf (Elt F) ((c : Thread nD τ).loc cc0_scratch4)) :
    (((c : Thread nD τ).loc cc0_scratch4) ↦{q} f : sProp 𝕄)
      = bigSep Finset.univ fun hj : Fin 2 × Fin 4 => slotPts c (r2Slot hj.1 hj.2) q f :=
  Ring.pointsTo_blocks (r2I c) (r2_hd c) (r2_hc c) f

/-- The slots, each at some contents, are the buffer at some contents. -/
theorem r2_join (c : Dev nD) :
    bigSep Finset.univ (fun hj : Fin 2 × Fin 4 => iprop(∃ f, slotPts (F := F) c (r2Slot hj.1 hj.2) fullShare f))
      ⊢ iprop(∃ g, ((c : Thread nD τ).loc cc0_scratch4) ↦{fullShare} g) :=
  blocks_join (r2I c) (r2_hd c) (r2_hc c) (0, 0)

/-- info: 'Cert.Kernel.Coll.rb_split' depends on axioms: [propext, Classical.choice, Quot.sound] -/
#guard_msgs in #print axioms rb_split

/-- info: 'Cert.Kernel.Coll.rb_join' depends on axioms: [propext, Classical.choice, Quot.sound] -/
#guard_msgs in #print axioms rb_join

end Cert.Kernel.Coll

end
-- ==== Proof.KSlotShares.lean ====
/- Shares of a slot. A sum block is read by four transfers at once and a gathered block by its relay and a load: the
   slot held in full is the remainder of the full share beside the read shares, and back; and two shares of the same
   elements, each at contents known only to exist, join to their composite at some contents, because holders of the
   same elements agree on what they hold. -/
import proofs.«901051_g7700000000001052_dist_rsdw_v7x_xyz2x4x4_z_m1024_d1024_f4096_bf16_1_alg».proof.Proof.KSched
import Idealize.ShloMosaic.Lib.Transfers
import Idealize.ShloMosaic.Rules.PointsTo

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ UU ℕ

/-! ## The full share as a remainder and read shares -/

/-- The full share of a sum block: what is kept beside the four shares its four transfers read through. -/
theorem red_shares (c : Dev nD) (h : Fin 2) (f : Buf (Elt F) ((redSlot h).view.loc (c : Thread nD τ))) :
    slotPts (F := F) c (redSlot h) fullShare f
      ⊣⊢ iprop(slotPts c (redSlot h) (Transfers.shareDrop fullShare 4) f ∗ slotPts c (redSlot h) (qS 0) f ∗ slotPts c (redSlot h) (qS 1) f
        ∗ slotPts c (redSlot h) (qS 2) f ∗ slotPts c (redSlot h) (qS 3) f) := by
  have hh := Transfers.pointsTo_toks (nD := nD) (τ := τ) (sig := sig) (Ix := Unit) (Val := Elt F) (Name := ℕ) (U := UU) (Lvl := ℕ)
    (ℓ := (redSlot h).view.loc (c : Thread nD τ)) (S := (redSlot h).view.set) (f := f) fullShare 4
  rw [bigSep_univ_eq_bigSepL [0, 1, 2, 3] (by decide) (by decide)] at hh
  exact hh

/-- The full share of a gathered block: what is kept beside the share its relay reads through. -/
theorem r1_shares (c : Dev nD) (h : Fin 2) (j : Fin 4) (f : Buf (Elt F) ((r1Slot h j).view.loc (c : Thread nD τ))) :
    slotPts (F := F) c (r1Slot h j) fullShare f
      ⊣⊢ iprop(slotPts c (r1Slot h j) (Transfers.shareDrop fullShare 1) f ∗ slotPts c (r1Slot h j) qR f) :=
  pointsTo_share (PosShare.mem_left_op_right fullShare)

/-! ## Joining shares held at contents known only to exist -/

section Join

variable {ℓ : Loc nD τ sig} {I : Finset (Idx ℓ)} {q q₁ q₂ : PosShare TreeShare}

/-- Two shares of the same elements, at contents that must agree there, are their composite at the first's contents. -/
theorem join_pair (hq : q ∈ q₁ ·? q₂) (f g : Buf (Elt F) ℓ) :
    iprop((ℓ ↦[I]{q₁} f) ∗ ℓ ↦[I]{q₂} g) ⊢ (ℓ ↦[I]{q} f : sProp 𝕄) :=
  Laws.pure_elim _ pointsTo_agree fun hfg => by
    have e : (ℓ ↦[I]{q₂} g : sProp 𝕄) = ℓ ↦[I]{q₂} f :=
      pointsTo_congr fun i hi => ((hfg i (Finset.mem_inter.mpr ⟨hi, hi⟩)).1).symm
    rw [e]; exact (pointsTo_share hq).2

theorem join_any (hq : q ∈ q₁ ·? q₂) :
    iprop((∃ f, ℓ ↦[I]{q₁} f) ∗ (∃ g, ℓ ↦[I]{q₂} g)) ⊢ (iprop(∃ f, ℓ ↦[I]{q} f) : sProp 𝕄) := by
  iintro ⟨⟨%f, H1⟩, ⟨%g, H2⟩⟩
  iexists f
  iapply (join_pair hq f g)
  isplitl [H1]
  · iexact H1
  · iexact H2

end Join

/-- info: 'Cert.Kernel.Coll.red_shares' depends on axioms: [propext, Classical.choice, Quot.sound] -/
#guard_msgs in #print axioms red_shares

/-- info: 'Cert.Kernel.Coll.join_any' depends on axioms: [propext, Classical.choice, Quot.sound] -/
#guard_msgs in #print axioms join_any

end Cert.Kernel.Coll

end
-- ==== Proof.KSlotsRel.lean ====
/- The scratch buffers of a device as the separating conjunction of their slots, written out as chains in the order the
   body meets them: the receive buffers of the z and y phases and the partial products by the coordinate counted from the
   device's own, the x phase's receive buffer by the eight slots as they are numbered, the sums by their two halves; and
   the same chains of slots, each at some contents, joined back to the buffer at some contents. -/
import proofs.«901051_g7700000000001052_dist_rsdw_v7x_xyz2x4x4_z_m1024_d1024_f4096_bf16_1_alg».proof.Proof.KSlots
import proofs.«901051_g7700000000001052_dist_rsdw_v7x_xyz2x4x4_z_m1024_d1024_f4096_bf16_1_alg».proof.Proof.KSched

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over two halves and four coordinates, the coordinates counted from the device's own -/

theorem bigSep_2x4_zrel (c : Dev nD) (Φ : Fin 2 × Fin 4 → sProp 𝕄) :
    bigSep Finset.univ Φ = iprop((Φ (0, zF c) ∗ Φ (0, zj c 1) ∗ Φ (0, zj c 2) ∗ Φ (0, zj c 3))
      ∗ (Φ (1, zF c) ∗ Φ (1, zj c 1) ∗ Φ (1, zj c 2) ∗ Φ (1, zj c 3))) := by
  rw [bigSep_univ_prod, bigSep_fin2, bigSep_zrot c, bigSep_zrot c]

theorem bigSep_2x4_yrel (c : Dev nD) (Φ : Fin 2 × Fin 4 → sProp 𝕄) :
    bigSep Finset.univ Φ = iprop((Φ (0, yF c) ∗ Φ (0, yj c 1) ∗ Φ (0, yj c 2) ∗ Φ (0, yj c 3))
      ∗ (Φ (1, yF c) ∗ Φ (1, yj c 1) ∗ Φ (1, yj c 2) ∗ Φ (1, yj c 3))) := by
  rw [bigSep_univ_prod, bigSep_fin2, bigSep_yrot c, bigSep_yrot c]

/-- The same with the coordinate first and the half second, the halves still outermost. -/
theorem bigSep_4x2_zrel (c : Dev nD) (Φ : Fin 4 × Fin 2 → sProp 𝕄) :
    bigSep Finset.univ Φ = iprop((Φ (zF c, 0) ∗ Φ (zj c 1, 0) ∗ Φ (zj c 2, 0) ∗ Φ (zj c 3, 0))
      ∗ (Φ (zF c, 1) ∗ Φ (zj c 1, 1) ∗ Φ (zj c 2, 1) ∗ Φ (zj c 3, 1))) := by
  rw [bigSep_univ_equiv (Equiv.prodComm (Fin 2) (Fin 4)) Φ, bigSep_univ_prod, bigSep_fin2, bigSep_zrot c, bigSep_zrot c] <;> rfl

/-! ## The buffers held whole as chains of slots -/

theorem rb_rel (c : Dev nD) (f : Buf (Elt F) ((c : Thread nD τ).loc cc0_scratch2)) :
    (((c : Thread nD τ).loc cc0_scratch2) ↦{fullShare} f : sProp 𝕄)
      = iprop((slotPts c (rbSlot 0 (zF c)) fullShare f ∗ slotPts c (rbSlot 0 (zj c 1)) fullShare f ∗ slotPts c (rbSlot 0 (zj c 2)) fullShare f ∗ slotPts c (rbSlot 0 (zj c 3)) fullShare f) ∗ (slotPts c (rbSlot 1 (zF c)) fullShare f ∗ slotPts c (rbSlot 1 (zj c 1)) fullShare f ∗ slotPts c (rbSlot 1 (zj c 2)) fullShare f ∗ slotPts c (rbSlot 1 (zj c 3)) fullShare f)) :=
  (rb_split c fullShare f).trans (bigSep_2x4_zrel c _)

theorem r1_rel (c : Dev nD) (f : Buf (Elt F) ((c : Thread nD τ).loc cc0_scratch3)) :
    (((c : Thread nD τ).loc cc0_scratch3) ↦{fullShare} f : sProp 𝕄)
      = iprop((slotPts c (r1Slot 0 (yF c)) fullShare f ∗ slotPts c (r1Slot 0 (yj c 1)) fullShare f ∗ slotPts c (r1Slot 0 (yj c 2)) fullShare f ∗ slotPts c (r1Slot 0 (yj c 3)) fullShare f) ∗ (slotPts c (r1Slot 1 (yF c)) fullShare f ∗ slotPts c (r1Slot 1 (yj c 1)) fullShare f ∗ slotPts c (r1Slot 1 (yj c 2)) fullShare f ∗ slotPts c (r1Slot 1 (yj c 3)) fullShare f)) :=
  (r1_split c fullShare f).trans (bigSep_2x4_yrel c _)

theorem r2_abs (c : Dev nD) (f : Buf (Elt F) ((c : Thread nD τ).loc cc0_scratch4)) :
    (((c : Thread nD τ).loc cc0_scratch4) ↦{fullShare} f : sProp 𝕄)
      = iprop((slotPts c (r2Slot 0 0) fullShare f ∗ slotPts c (r2Slot 0 1) fullShare f ∗ slotPts c (r2Slot 0 2) fullShare f ∗ slotPts c (r2Slot 0 3) fullShare f) ∗ (slotPts c (r2Slot 1 0) fullShare f ∗ slotPts c (r2Slot 1 1) fullShare f ∗ slotPts c (r2Slot 1 2) fullShare f ∗ slotPts c (r2Slot 1 3) fullShare f)) :=
  (r2_split c fullShare f).trans (bigSep_fin2x4 _)

theorem pb_rel (c : Dev nD) (f : Buf (Elt F) ((c : Thread nD τ).loc cc0_scratch0)) :
    (((c : Thread nD τ).loc cc0_scratch0) ↦{fullShare} f : sProp 𝕄)
      = iprop((slotPts c (pbSlot (zF c) 0) fullShare f ∗ slotPts c (pbSlot (zj c 1) 0) fullShare f ∗ slotPts c (pbSlot (zj c 2) 0) fullShare f ∗ slotPts c (pbSlot (zj c 3) 0) fullShare f) ∗ (slotPts c (pbSlot (zF c) 1) fullShare f ∗ slotPts c (pbSlot (zj c 1) 1) fullShare f ∗ slotPts c (pbSlot (zj c 2) 1) fullShare f ∗ slotPts c (pbSlot (zj c 3) 1) fullShare f)) :=
  (pb_split c fullShare f).trans (bigSep_4x2_zrel c _)

theorem red_two (c : Dev nD) (f : Buf (Elt F) ((c : Thread nD τ).loc cc0_scratch1)) :
    (((c : Thread nD τ).loc cc0_scratch1) ↦{fullShare} f : sProp 𝕄)
      = iprop(slotPts c (redSlot 0) fullShare f ∗ slotPts c (redSlot 1) fullShare f) :=
  (red_split c fullShare f).trans (bigSep_fin2 _)

/-! ## The chains of slots, each at some contents, joined back -/

theorem rb_rel_join (c : Dev nD) :
    iprop(((∃ f, slotPts (F := F) c (rbSlot 0 (zF c)) fullShare f) ∗ (∃ f, slotPts (F := F) c (rbSlot 0 (zj c 1)) fullShare f) ∗ (∃ f, slotPts (F := F) c (rbSlot 0 (zj c 2)) fullShare f) ∗ (∃ f, slotPts (F := F) c (rbSlot 0 (zj c 3)) fullShare f)) ∗ ((∃ f, slotPts (F := F) c (rbSlot 1 (zF c)) fullShare f) ∗ (∃ f, slotPts (F := F) c (rbSlot 1 (zj c 1)) fullShare f) ∗ (∃ f, slotPts (F := F) c (rbSlot 1 (zj c 2)) fullShare f) ∗ (∃ f, slotPts (F := F) c (rbSlot 1 (zj c 3)) fullShare f)))
      ⊢ iprop(∃ g, ((c : Thread nD τ).loc cc0_scratch2) ↦{fullShare} g) :=
  (Entails.of_eq (bigSep_2x4_zrel c (fun hj : Fin 2 × Fin 4 => iprop(∃ f, slotPts (F := F) c (rbSlot hj.1 hj.2) fullShare f))).symm).trans (rb_join c)

theorem r1_rel_join (c : Dev nD) :
    iprop(((∃ f, slotPts (F := F) c (r1Slot 0 (yF c)) fullShare f) ∗ (∃ f, slotPts (F := F) c (r1Slot 0 (yj c 1)) fullShare f) ∗ (∃ f, slotPts (F := F) c (r1Slot 0 (yj c 2)) fullShare f) ∗ (∃ f, slotPts (F := F) c (r1Slot 0 (yj c 3)) fullShare f)) ∗ ((∃ f, slotPts (F := F) c (r1Slot 1 (yF c)) fullShare f) ∗ (∃ f, slotPts (F := F) c (r1Slot 1 (yj c 1)) fullShare f) ∗ (∃ f, slotPts (F := F) c (r1Slot 1 (yj c 2)) fullShare f) ∗ (∃ f, slotPts (F := F) c (r1Slot 1 (yj c 3)) fullShare f)))
      ⊢ iprop(∃ g, ((c : Thread nD τ).loc cc0_scratch3) ↦{fullShare} g) :=
  (Entails.of_eq (bigSep_2x4_yrel c (fun hj : Fin 2 × Fin 4 => iprop(∃ f, slotPts (F := F) c (r1Slot hj.1 hj.2) fullShare f))).symm).trans (r1_join c)

theorem r2_abs_join (c : Dev nD) :
    iprop(((∃ f, slotPts (F := F) c (r2Slot 0 0) fullShare f) ∗ (∃ f, slotPts (F := F) c (r2Slot 0 1) fullShare f) ∗ (∃ f, slotPts (F := F) c (r2Slot 0 2) fullShare f) ∗ (∃ f, slotPts (F := F) c (r2Slot 0 3) fullShare f)) ∗ ((∃ f, slotPts (F := F) c (r2Slot 1 0) fullShare f) ∗ (∃ f, slotPts (F := F) c (r2Slot 1 1) fullShare f) ∗ (∃ f, slotPts (F := F) c (r2Slot 1 2) fullShare f) ∗ (∃ f, slotPts (F := F) c (r2Slot 1 3) fullShare f)))
      ⊢ iprop(∃ g, ((c : Thread nD τ).loc cc0_scratch4) ↦{fullShare} g) :=
  (Entails.of_eq (bigSep_fin2x4 (fun hj : Fin 2 × Fin 4 => iprop(∃ f, slotPts (F := F) c (r2Slot hj.1 hj.2) fullShare f))).symm).trans (r2_join c)

theorem pb_rel_join (c : Dev nD) :
    iprop(((∃ f, slotPts (F := F) c (pbSlot (zF c) 0) fullShare f) ∗ (∃ f, slotPts (F := F) c (pbSlot (zj c 1) 0) fullShare f) ∗ (∃ f, slotPts (F := F) c (pbSlot (zj c 2) 0) fullShare f) ∗ (∃ f, slotPts (F := F) c (pbSlot (zj c 3) 0) fullShare f)) ∗ ((∃ f, slotPts (F := F) c (pbSlot (zF c) 1) fullShare f) ∗ (∃ f, slotPts (F := F) c (pbSlot (zj c 1) 1) fullShare f) ∗ (∃ f, slotPts (F := F) c (pbSlot (zj c 2) 1) fullShare f) ∗ (∃ f, slotPts (F := F) c (pbSlot (zj c 3) 1) fullShare f)))
      ⊢ iprop(∃ g, ((c : Thread nD τ).loc cc0_scratch0) ↦{fullShare} g) :=
  (Entails.of_eq (bigSep_4x2_zrel c (fun jh : Fin 4 × Fin 2 => iprop(∃ f, slotPts (F := F) c (pbSlot jh.1 jh.2) fullShare f))).symm).trans (pb_join c)

theorem red_two_join (c : Dev nD) :
    iprop((∃ f, slotPts (F := F) c (redSlot 0) fullShare f) ∗ (∃ f, slotPts (F := F) c (redSlot 1) fullShare f))
      ⊢ iprop(∃ g, ((c : Thread nD τ).loc cc0_scratch1) ↦{fullShare} g) :=
  (Entails.of_eq (bigSep_fin2 (fun h : Fin 2 => iprop(∃ f, slotPts (F := F) c (redSlot h) fullShare f))).symm).trans (red_join c)

/-- info: 'Cert.Kernel.Coll.rb_rel' depends on axioms: [propext, Classical.choice, Quot.sound] -/
#guard_msgs in #print axioms rb_rel

/-- info: 'Cert.Kernel.Coll.pb_rel_join' depends on axioms: [propext, Classical.choice, Quot.sound] -/
#guard_msgs in #print axioms pb_rel_join

end Cert.Kernel.Coll

end
-- ==== Proof.KWire.lean ====
/- What a slot of a device's scratch buffers reads after a load, a store or a landed transfer. A slot is a 256 × 256
   rectangle of its buffer, seen with its leading unit axes dropped: a load through the whole buffer at the rectangle is
   the slot's contents with the unit axes put back, a store through the rectangle is read back through the slot as its
   payload with the unit axes dropped, and is not seen through a slot on a disjoint rectangle. A store of 1024 rows through
   one half of the partial-product buffer is read back block of rows by block of rows. Last, the result: an unmasked
   store through a rectangle changes the rectangle's elements to the payload and no others; the sixteen rectangles
   cover the result; and the result's value at an element of a rectangle is that piece's. -/
import proofs.«901051_g7700000000001052_dist_rsdw_v7x_xyz2x4x4_z_m1024_d1024_f4096_bf16_1_alg».proof.Proof.KVals
import Idealize.ShloMosaic.Lib.Pipeline.Value
import Idealize.ShloMosaic.Lib.ValueIdx
import Idealize.ShloMosaic.Lib.ValueLayout

noncomputable section

namespace Cert.Kernel.Coll

open Cert.Kernel Cert.Kernel.Gen Cert.Kernel.Mesh

open Idealize.ShloMosaic
open Idealize.ShloMosaic.TcCoe
open Idealize.ShloMosaic.ValueIdx

variable {F : FTy → Type} [FloatOps F]

namespace Wire

/-! ## Views: a rectangle of a view, re-indexed; two rectangles of one view -/

section Views
variable {sig' : RefSig} {κ : Kind} {sp : Space} {s : Shape} {e : EltTy} {Val : EltTy → Type}

/-- A read through a re-indexed view is the view's read, re-indexed. -/
theorem read_reshape (v : View sig' κ sp s e) (s' : Shape) (hn : s'.numel = s.numel) (g : v.ty.Contents Val) :
    (v.reshape s' hn).read Val g = shapeCast s' (v.read Val g) hn := rfl

/-- Written through a rectangle, read back through the same rectangle re-indexed: the payload, re-indexed. -/
theorem read_reshape_write_same (v : View sig' κ sp s e) (r : Rect s) (s' : Shape) (hn : s'.numel = r.shape.numel)
    (f : v.ty.Contents Val) (w : r.shape.Idx → Val e) :
    ((v.slice r).reshape s' hn).read Val ((v.slice r).write Val f w Finset.univ) = shapeCast s' w hn := by
  show shapeCast s' ((v.slice r).read Val ((v.slice r).write Val f w Finset.univ)) hn = _
  rw [View.read_write_univ]

/-- Disjoint rectangles of a view lie on disjoint elements of its buffer. -/
theorem disjoint_slice_sets (v : View sig' κ sp s e) (r r' : Rect s) (hd : Disjoint r'.set r.set) :
    Disjoint (v.slice r').set ((v.slice r).setOn Finset.univ) := by
  rw [View.setOn_univ, View.set_slice, View.set_slice]
  exact (Finset.disjoint_map v.emb).mpr hd

/-- A write through one rectangle is not seen through a disjoint one, -/
theorem read_slice_write_other (v : View sig' κ sp s e) (r r' : Rect s) (hd : Disjoint r'.set r.set)
    (f : v.ty.Contents Val) (w : r.shape.Idx → Val e) :
    (v.slice r').read Val ((v.slice r).write Val f w Finset.univ) = (v.slice r').read Val f :=
  View.read_slice_write_slice_of_disjoint r' r f w Finset.univ (disjoint_slice_sets v r r' hd)

/-- however the disjoint one is re-indexed. -/
theorem read_reshape_write_other (v : View sig' κ sp s e) (r r' : Rect s) (hd : Disjoint r'.set r.set) (s' : Shape)
    (hn : s'.numel = r'.shape.numel) (f : v.ty.Contents Val) (w : r.shape.Idx → Val e) :
    ((v.slice r').reshape s' hn).read Val ((v.slice r).write Val f w Finset.univ) = ((v.slice r').reshape s' hn).read Val f := by
  show shapeCast s' ((v.slice r').read Val ((v.slice r).write Val f w Finset.univ)) hn = shapeCast s' ((v.slice r').read Val f) hn
  rw [read_slice_write_other v r r' hd]

/-- Written through a rectangle R, read through a rectangle r at an index that R places where r does: the payload there. -/
theorem read_slice_write_sub (v : View sig' κ sp s e) (R r : Rect s) (f : v.ty.Contents Val) (w : R.shape.Idx → Val e)
    (i : r.shape.Idx) (x : R.shape.Idx) (hx : r.emb i = R.emb x) :
    (v.slice r).read Val ((v.slice R).write Val f w Finset.univ) i = w x := by
  show v.read Val ((v.slice R).write Val f w Finset.univ) (r.emb i) = w x
  rw [hx, View.read_slice_write_emb _ _ _ (Finset.mem_univ x)]

/-- An unmasked store through a rectangle of a whole buffer changes the rectangle's elements, to the payload, and no
    others: contents that agree with g on W, after a store of g's values on the rectangle, agree with g on both. -/
theorem write_whole_slice_agree (b : Ref sig' κ) (r : Rect b.ty.shape) (f : b.ty.Contents Val) (w : r.shape.Idx → Val b.ty.elt)
    (g : b.ty.Contents Val) (W : Finset b.ty.Idx) (hW : ∀ i ∈ W, f i = g i) (hw : ∀ y : r.shape.Idx, w y = g (r.emb y)) :
    ∀ i ∈ W ∪ r.set, ((View.whole b).slice r).write Val f w Finset.univ i = g i := by
  intro i hi
  by_cases hin : i ∈ r.set
  · rw [← Rect.map_emb_univ] at hin
    obtain ⟨y, -, rfl⟩ := Finset.mem_map.mp hin
    have := View.read_slice_write_emb (v := View.whole b) r f w (Finset.mem_univ y)
    rw [View.read_whole] at this
    rw [this, hw y]
  · rw [View.write_of_not_mem _ _ _ (by rw [View.setOn_univ, View.set_slice_whole]; exact hin)]
    exact hW i ((Finset.mem_union.mp hi).resolve_right hin)

end Views

/-! ## Unit axes put back and dropped -/

/-- A 256 × 256 vector as the 1 × 256 × 256 vector a load of a slot of a rank-3 buffer returns. -/
def up3 {e : EltTy} (v : Vec F S256x256 e) : Vec F S1x256x256 e := fun i => v (ix2 (i 1) (i 2))

theorem ix4_00 (i : S1x1x256x256.Idx) : ix4 (⟨0, Nat.one_pos⟩ : Fin 1) (⟨0, Nat.one_pos⟩ : Fin 1) (i 2) (i 3) = i := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem ix3_0 (i : S1x256x256.Idx) : ix3 (⟨0, Nat.one_pos⟩ : Fin 1) (i 1) (i 2) = i := by
  funext a
  match a with
  | ⟨0, _⟩ => exact Subsingleton.elim (α := Fin 1) _ _
  | ⟨1, _⟩ => rfl
  | ⟨2, _⟩ => rfl

/-- Two unit axes put back and dropped again: the vector. -/
theorem shapeCast_up4 {e : EltTy} (v : Vec F S256x256 e) :
    shapeCast S256x256 (up4 v) shapeCasts_S1x1x256x256_S256x256 = v := by
  funext j
  have hj : j = ix2 (j 0) (j 1) := eq_ix2 j
  have e1 : Shape.reshapeEquiv shapeCasts_S1x1x256x256_S256x256 (ix2 (j 0) (j 1))
      = ix4 (⟨0, Nat.one_pos⟩ : Fin 1) (⟨0, Nat.one_pos⟩ : Fin 1) (j 0) (j 1) :=
    reshapeEquiv_ix2_11ab (a := 256) (b := 256) shapeCasts_S1x1x256x256_S256x256 (j 0) (j 1)
  calc shapeCast S256x256 (up4 v) shapeCasts_S1x1x256x256_S256x256 j
      = up4 v (Shape.reshapeEquiv shapeCasts_S1x1x256x256_S256x256 (ix2 (j 0) (j 1))) :=
        congrArg (fun k => up4 v (Shape.reshapeEquiv shapeCasts_S1x1x256x256_S256x256 k)) hj
    _ = up4 v (ix4 (⟨0, Nat.one_pos⟩ : Fin 1) (⟨0, Nat.one_pos⟩ : Fin 1) (j 0) (j 1)) := congrArg (up4 v) e1
    _ = v (ix2 (j 0) (j 1)) := rfl
    _ = v j := congrArg v hj.symm

/-- Two unit axes dropped and put back: the vector. -/
theorem up4_shapeCast {e : EltTy} (w : Vec F S1x1x256x256 e) :
    up4 (shapeCast S256x256 w shapeCasts_S1x1x256x256_S256x256) = w := by
  funext i
  have e1 : Shape.reshapeEquiv shapeCasts_S1x1x256x256_S256x256 (ix2 (i 2) (i 3))
      = ix4 (⟨0, Nat.one_pos⟩ : Fin 1) (⟨0, Nat.one_pos⟩ : Fin 1) (i 2) (i 3) :=
    reshapeEquiv_ix2_11ab (a := 256) (b := 256) shapeCasts_S1x1x256x256_S256x256 (i 2) (i 3)
  calc up4 (shapeCast S256x256 w shapeCasts_S1x1x256x256_S256x256) i
      = w (Shape.reshapeEquiv shapeCasts_S1x1x256x256_S256x256 (ix2 (i 2) (i 3))) := rfl
    _ = w (ix4 (⟨0, Nat.one_pos⟩ : Fin 1) (⟨0, Nat.one_pos⟩ : Fin 1) (i 2) (i 3)) := congrArg w e1
    _ = w i := congrArg w (ix4_00 i)

/-- One unit axis dropped, by a cast of the vector: the vector read behind the coordinate 0. -/
theorem shapeCast_dn3 {e : EltTy} (w : Vec F S1x256x256 e) :
    shapeCast S256x256 w shapeCasts_S1x256x256_S256x256 = dn3 w := by
  funext j
  have hj : j = ix2 (j 0) (j 1) := eq_ix2 j
  have e1 : Shape.reshapeEquiv shapeCasts_S1x256x256_S256x256 (ix2 (j 0) (j 1)) = ix3 (⟨0, Nat.one_pos⟩ : Fin 1) (j 0) (j 1) :=
    reshapeEquiv_ix2_1ab (a := 256) (b := 256) shapeCasts_S1x256x256_S256x256 (j 0) (j 1)
  calc shapeCast S256x256 w shapeCasts_S1x256x256_S256x256 j
      = w (Shape.reshapeEquiv shapeCasts_S1x256x256_S256x256 (ix2 (j 0) (j 1))) :=
        congrArg (fun k => w (Shape.reshapeEquiv shapeCasts_S1x256x256_S256x256 k)) hj
    _ = w (ix3 (⟨0, Nat.one_pos⟩ : Fin 1) (j 0) (j 1)) := congrArg w e1
    _ = dn3 w j := rfl

/-- One unit axis dropped and put back: the vector. -/
theorem up3_shapeCast {e : EltTy} (w : Vec F S1x256x256 e) :
    up3 (shapeCast S256x256 w shapeCasts_S1x256x256_S256x256) = w := by
  funext i
  have e1 : Shape.reshapeEquiv shapeCasts_S1x256x256_S256x256 (ix2 (i 1) (i 2)) = ix3 (⟨0, Nat.one_pos⟩ : Fin 1) (i 1) (i 2) :=
    reshapeEquiv_ix2_1ab (a := 256) (b := 256) shapeCasts_S1x256x256_S256x256 (i 1) (i 2)
  calc up3 (shapeCast S256x256 w shapeCasts_S1x256x256_S256x256) i
      = w (Shape.reshapeEquiv shapeCasts_S1x256x256_S256x256 (ix2 (i 1) (i 2))) := rfl
    _ = w (ix3 (⟨0, Nat.one_pos⟩ : Fin 1) (i 1) (i 2)) := congrArg w e1
    _ = w i := congrArg w (ix3_0 i)

/-- One unit axis put back by a cast, then dropped: the vector. -/
theorem dn3_shapeCast {e : EltTy} (v : Vec F S256x256 e) :
    dn3 (shapeCast S1x256x256 v shapeCasts_S256x256_S1x256x256) = v := by
  funext j
  have hj : j = ix2 (j 0) (j 1) := eq_ix2 j
  calc dn3 (shapeCast S1x256x256 v shapeCasts_S256x256_S1x256x256) j
      = shapeCast S1x256x256 v shapeCasts_S256x256_S1x256x256 (ix3 (0 : Fin 1) (j 0) (j 1)) := rfl
    _ = v (ix2 (j 0) (j 1)) :=
        shapeCast_ab_1ab_apply (a := 256) (b := 256) v shapeCasts_S256x256_S1x256x256 (0 : Fin 1) (j 0) (j 1)
    _ = v j := congrArg v hj.symm

theorem dn3_up3 {e : EltTy} (v : Vec F S256x256 e) : dn3 (up3 v) = v := by
  funext j
  exact congrArg v (eq_ix2 j).symm

theorem up3_dn3 {e : EltTy} (w : Vec F S1x256x256 e) : up3 (dn3 w) = w := by
  funext i
  exact congrArg w (ix3_0 i)

end Wire

open Wire

/-! ## A landed transfer -/

/-- A view read back after an unmasked write through the same view: the payload. -/
theorem landed {s : Shape} {e : EltTy} (M : Memref sig .tc .vmem s e) (c : Dev nD)
    (fd : Buf (Elt F) (M.view.loc (c : Thread nD τ))) (v : Vec F s e) :
    M.view.read (Elt F) (M.view.write (Elt F) fd v Finset.univ) = v :=
  View.read_write_univ (v := M.view) (Val := Elt F) fd v

/-! ## Loads through the whole buffers at the slots' rectangles -/

/-- A load of slot (h, j) of the z phase's receive buffer: the slot's contents, two unit axes put back. -/
theorem rb_readAt (h : Fin 2) (j : Fin 4) (f : (cc0_scratch2 : Ref sig .tc).ty.Contents (Elt F)) :
    (rbM : Memref sig .tc .vmem S2x4x256x256 .bf16).view.readAt (Elt F) (r4R h j).toLoadRect f
      = up4 ((rbSlot h j).view.read (Elt F) f) := by
  have e1 := Memref.read_squeeze_slice (Val := Elt F) (rbM : Memref sig .tc .vmem S2x4x256x256 .bf16) (r4R h j) (fun _ => rfl)
    squeezes_S1x1x256x256_S256x256 shapeCasts_S1x1x256x256_S256x256 f
  exact ((congrArg (up4 (F := F) (e := .bf16)) e1).trans (up4_shapeCast _)).symm

/-- The same of the y phase's receive buffer, -/
theorem r1_readAt (h : Fin 2) (j : Fin 4) (f : (cc0_scratch3 : Ref sig .tc).ty.Contents (Elt F)) :
    (r1M : Memref sig .tc .vmem S2x4x256x256 .bf16).view.readAt (Elt F) (r4R h j).toLoadRect f
      = up4 ((r1Slot h j).view.read (Elt F) f) := by
  have e1 := Memref.read_squeeze_slice (Val := Elt F) (r1M : Memref sig .tc .vmem S2x4x256x256 .bf16) (r4R h j) (fun _ => rfl)
    squeezes_S1x1x256x256_S256x256 shapeCasts_S1x1x256x256_S256x256 f
  exact ((congrArg (up4 (F := F) (e := .bf16)) e1).trans (up4_shapeCast _)).symm

/-- and of the x phase's. -/
theorem r2_readAt (h : Fin 2) (j : Fin 4) (f : (cc0_scratch4 : Ref sig .tc).ty.Contents (Elt F)) :
    (r2M : Memref sig .tc .vmem S2x4x256x256 .bf16).view.readAt (Elt F) (r4R h j).toLoadRect f
      = up4 ((r2Slot h j).view.read (Elt F) f) := by
  have e1 := Memref.read_squeeze_slice (Val := Elt F) (r2M : Memref sig .tc .vmem S2x4x256x256 .bf16) (r4R h j) (fun _ => rfl)
    squeezes_S1x1x256x256_S256x256 shapeCasts_S1x1x256x256_S256x256 f
  exact ((congrArg (up4 (F := F) (e := .bf16)) e1).trans (up4_shapeCast _)).symm

/-- A load of block (j, h) of the partial products is the block's contents. -/
theorem pb_readAt (j : Fin 4) (h : Fin 2) (f : (cc0_scratch0 : Ref sig .tc).ty.Contents (Elt F)) :
    (pbM : Memref sig .tc .vmem S1024x512 .bf16).view.readAt (Elt F) (pbR j h).toLoadRect f = (pbSlot j h).view.read (Elt F) f :=
  rfl

/-- A load of half h of the sums: the slot's contents, the unit axis put back. -/
theorem red_readAt (h : Fin 2) (f : (cc0_scratch1 : Ref sig .tc).ty.Contents (Elt F)) :
    (redM : Memref sig .tc .vmem S2x256x256 .bf16).view.readAt (Elt F) (redR h).toLoadRect f
      = fun i => (redSlot h).view.read (Elt F) f (ix2 (i 1) (i 2)) := by
  show _ = up3 ((redSlot h).view.read (Elt F) f)
  have e1 := Memref.read_squeeze_slice (Val := Elt F) (redM : Memref sig .tc .vmem S2x256x256 .bf16) (redR h) (fun _ => rfl)
    squeezes_S1x256x256_S256x256 shapeCasts_S1x256x256_S256x256 f
  exact ((congrArg (up3 (F := F) (e := .bf16)) e1).trans (up3_shapeCast _)).symm

/-! ## Stores of the sums -/

theorem Wire.redR_disj (h h' : Fin 2) (hne : h' ≠ h) : Disjoint (redR h').set (redR h).set := by
  have hv : h'.val ≠ h.val := fun e => hne (Fin.ext e)
  refine Rect.unit_disjoint (s := S2x256x256) (0 : Fin 3) ?_
  show h'.val + 1 ≤ h.val ∨ h.val + 1 ≤ h'.val
  omega

/-- The sum of half h, stored, is read back through its slot with the unit axis dropped; -/
theorem red_store (h : Fin 2) (f : (cc0_scratch1 : Ref sig .tc).ty.Contents (Elt F)) (w : Vec F S1x256x256 .bf16) :
    (redSlot h).view.read (Elt F) (((redM : Memref sig .tc .vmem S2x256x256 .bf16).access (redR h)).write (Elt F) f w Finset.univ)
      = dn3 w :=
  (read_reshape_write_same (Val := Elt F) (redM : Memref sig .tc .vmem S2x256x256 .bf16).view (redR h) S256x256
      squeezes_S1x256x256_S256x256.numel_eq f w).trans (shapeCast_dn3 w)

/-- the other half's slot reads what it read. -/
theorem red_store_other (h h' : Fin 2) (hne : h' ≠ h) (f : (cc0_scratch1 : Ref sig .tc).ty.Contents (Elt F))
    (w : Vec F S1x256x256 .bf16) :
    (redSlot h').view.read (Elt F) (((redM : Memref sig .tc .vmem S2x256x256 .bf16).access (redR h)).write (Elt F) f w Finset.univ)
      = (redSlot h').view.read (Elt F) f :=
  read_reshape_write_other (Val := Elt F) (redM : Memref sig .tc .vmem S2x256x256 .bf16).view (redR h) (redR h')
    (Wire.redR_disj h h' hne) S256x256 squeezes_S1x256x256_S256x256.numel_eq f w

/-! ## The result -/

/-- A store of piece (q, h): contents that agree with g on W agree with it on W and the piece's rectangle after the
    store of g's values there. -/
theorem out_store (q : Fin 8) (h : Fin 2) (f : (cc0_stg2_0 : Ref sig .tc).ty.Contents (Elt F)) (w : Vec F S256x256 .f32)
    (g : Vec F S256x4096 .f32) (W : Finset S256x4096.Idx) (hW : ∀ i ∈ W, f i = g i)
    (hw : ∀ y : S256x256.Idx, w y = g ((oR q h).emb y)) :
    ∀ i ∈ W ∪ (oR q h).set, (((oM : Memref sig .tc .vmem S256x4096 .f32).access (oR q h)).write (Elt F) f w Finset.univ) i = g i :=
  write_whole_slice_agree (Val := Elt F) (cc0_stg2_0 : Ref sig .tc) (oR q h) f w g W hW hw

/-- The sixteen rectangles cover the result. -/
theorem out_cover : (Finset.univ : Finset (Fin 8 × Fin 2)).biUnion (fun qh => (oR qh.1 qh.2).set) = Finset.univ := by
  ext i
  simp only [Finset.mem_biUnion, Finset.mem_univ, true_and, iff_true]
  have h0 : (i 0).val < 256 := idx2_lt0 i
  have h1 : (i 1).val < 4096 := idx2_lt1 i
  refine ⟨(⟨(i 1).val / 512, by omega⟩, ⟨((i 1).val / 256) % 2, Nat.mod_lt _ (by decide)⟩), ?_⟩
  refine Rect.mem_set_unit.mpr fun a => ?_
  match a with
  | ⟨0, _⟩ =>
    show 0 ≤ (i 0).val ∧ (i 0).val < 0 + 256
    omega
  | ⟨1, _⟩ =>
    show 512 * ((i 1).val / 512) + 256 * (((i 1).val / 256) % 2) ≤ (i 1).val
      ∧ (i 1).val < 512 * ((i 1).val / 512) + 256 * (((i 1).val / 256) % 2) + 256
    omega

variable (m : (ℓ : Loc nD τ sig) → Buf (Elt F) ℓ)

theorem Wire.outPiece_congr (c : Dev nD) {q q' : Fin 8} {h h' : Fin 2} {y y' : S256x256.Idx} (eq : q = q') (eh : h = h')
    (ey : y = y') : outPiece m c q h y = outPiece m c q' h' y' := by
  subst eq eh ey; rfl

/-- The result at an element of piece (q, h)'s rectangle is the piece there. -/
theorem outAt_piece (c : Dev nD) (q : Fin 8) (h : Fin 2) (y : S256x256.Idx) :
    outAt m c ((oR q h).emb y) = outPiece m c q h y := by
  have hh := h.isLt
  have hy0 : (y 0).val < 256 := idx2_lt0 y
  have hy1 : (y 1).val < 256 := idx2_lt1 y
  have e0 : ((oR q h).emb y 0).val = (y 0).val := by
    show 0 + 1 * (y 0).val = (y 0).val
    omega
  have e1 : ((oR q h).emb y 1).val = 512 * q.val + 256 * h.val + (y 1).val := by
    show 512 * q.val + 256 * h.val + 1 * (y 1).val = 512 * q.val + 256 * h.val + (y 1).val
    omega
  refine Wire.outPiece_congr m c (Fin.ext ?_) (Fin.ext ?_) ?_
  · show ((oR q h).emb y 1).val / 512 = q.val
    rw [e1]; omega
  · show (((oR q h).emb y 1).val / 256) % 2 = h.val
    rw [e1]; omega
  · funext a
    match a with
    | ⟨0, _⟩ => exact Fin.ext e0
    | ⟨1, _⟩ =>
      refine Fin.ext ?_
      show ((oR q h).emb y 1).val % 256 = (y 1).val
      rw [e1]; omega

/-- The store of a piece's own value: contents that agree with the device's result on W agree with it on W and the
    piece's rectangle afterwards. -/
theorem out_store_piece (c : Dev nD) (q : Fin 8) (h : Fin 2) (f : (cc0_stg2_0 : Ref sig .tc).ty.Contents (Elt F))
    (W : Finset S256x4096.Idx) (hW : ∀ i ∈ W, f i = outAt m c i) :
    ∀ i ∈ W ∪ (oR q h).set,
      (((oM : Memref sig .tc .vmem S256x4096 .f32).access (oR q h)).write (Elt F) f (outPiece m c q h) Finset.univ) i = outAt m c i :=
  out_store q h f (outPiece m c q h) (outAt m c) W hW (fun y => (outAt_piece m c q h y).symm)

/-- Contents that agree with g on all sixteen rectangles are g. -/
theorem out_full (f : (cc0_stg2_0 : Ref sig .tc).ty.Contents (Elt F)) (g : Vec F S256x4096 .f32)
    (hfg : ∀ i ∈ (Finset.univ : Finset (Fin 8 × Fin 2)).biUnion (fun qh => (oR qh.1 qh.2).set), f i = g i) : f = g :=
  funext fun i => hfg i (out_cover ▸ Finset.mem_univ i)

/-! ## Stores of the partial products: 1024 rows through one half of the buffer, read back block by block -/

/-- The rectangles of the two stores: all 1024 rows, columns 0 … 255 and 256 … 511. -/
abbrev Wire.pbH0 : Rect S1024x512 := Rect.unit (s := S1024x512) ![0, 0] S1024x256.size inb_S1024x512_S1024x256_0_0
abbrev Wire.pbH1 : Rect S1024x512 := Rect.unit (s := S1024x512) ![0, 256] S1024x256.size inb_S1024x512_S1024x256_0_256

/-- Rows 256 j … of a 1024-row vector. -/
def Wire.rows4 {e : EltTy} (w : Vec F S1024x256 e) (j : Fin 4) : Vec F S256x256 e :=
  fun i => w (ix2 ⟨256 * j.val + (i 0).val, by have := j.isLt; have := idx2_lt0 i; omega⟩ (i 1))

theorem Wire.pbVal_eq (c : Dev nD) (j : Fin 4) (h : Fin 2) : pbVal m c j h = rows4 (pbFull m c h) j := rfl

theorem pb_store0 (j : Fin 4) (f : (cc0_scratch0 : Ref sig .tc).ty.Contents (Elt F)) (w : Vec F S1024x256 .bf16) :
    (pbSlot j 0).view.read (Elt F) (((pbM : Memref sig .tc .vmem S1024x512 .bf16).access pbH0).write (Elt F) f w Finset.univ)
      = rows4 w j := by
  funext i
  refine read_slice_write_sub (Val := Elt F) (pbM : Memref sig .tc .vmem S1024x512 .bf16).view pbH0 (pbR j 0) f w i _ ?_
  funext a
  match a with
  | ⟨0, _⟩ =>
    refine Fin.ext ?_
    show 256 * j.val + 1 * (i 0).val = 0 + 1 * (256 * j.val + (i 0).val)
    omega
  | ⟨1, _⟩ =>
    refine Fin.ext ?_
    show 256 * 0 + 1 * (i 1).val = 0 + 1 * (i 1).val
    omega

theorem pb_store1 (j : Fin 4) (f : (cc0_scratch0 : Ref sig .tc).ty.Contents (Elt F)) (w : Vec F S1024x256 .bf16) :
    (pbSlot j 1).view.read (Elt F) (((pbM : Memref sig .tc .vmem S1024x512 .bf16).access pbH1).write (Elt F) f w Finset.univ)
      = rows4 w j := by
  funext i
  refine read_slice_write_sub (Val := Elt F) (pbM : Memref sig .tc .vmem S1024x512 .bf16).view pbH1 (pbR j 1) f w i _ ?_
  funext a
  match a with
  | ⟨0, _⟩ =>
    refine Fin.ext ?_
    show 256 * j.val + 1 * (i 0).val = 0 + 1 * (256 * j.val + (i 0).val)
    omega
  | ⟨1, _⟩ =>
    refine Fin.ext ?_
    show 256 * 1 + 1 * (i 1).val = 256 + 1 * (i 1).val
    omega

/-- The store of half 1 leaves the blocks of half 0 as they were, -/
theorem pb_store1_other (j : Fin 4) (f : (cc0_scratch0 : Ref sig .tc).ty.Contents (Elt F)) (w : Vec F S1024x256 .bf16) :
    (pbSlot j 0).view.read (Elt F) (((pbM : Memref sig .tc .vmem S1024x512 .bf16).access pbH1).write (Elt F) f w Finset.univ)
      = (pbSlot j 0).view.read (Elt F) f :=
  read_slice_write_other (Val := Elt F) (pbM : Memref sig .tc .vmem S1024x512 .bf16).view pbH1 (pbR j 0)
    (Rect.unit_disjoint (s := S1024x512) (1 : Fin 2) (Or.inl (by show 256 * 0 + 256 ≤ 256; omega))) f w

/-- and the store of half 0 those of half 1. -/
theorem pb_store0_other (j : Fin 4) (f : (cc0_scratch0 : Ref sig .tc).ty.Contents (Elt F)) (w : Vec F S1024x256 .bf16) :
    (pbSlot j 1).view.read (Elt F) (((pbM : Memref sig .tc .vmem S1024x512 .bf16).access pbH0).write (Elt F) f w Finset.univ)
      = (pbSlot j 1).view.read (Elt F) f :=
  read_slice_write_other (Val := Elt F) (pbM : Memref sig .tc .vmem S1024x512 .bf16).view pbH0 (pbR j 1)
    (Rect.unit_disjoint (s := S1024x512) (1 : Fin 2) (Or.inr (by show 0 + 256 ≤ 256 * 1; omega))) f w

/-- After the two stores, of any two payloads, block (j, h) holds rows 256 j … of the payload of half h. -/
theorem Wire.pb_after' (f₀ : (cc0_scratch0 : Ref sig .tc).ty.Contents (Elt F)) (w0 w1 : Vec F S1024x256 .bf16) (j : Fin 4) :
    (pbSlot j 0).view.read (Elt F) (((pbM : Memref sig .tc .vmem S1024x512 .bf16).access pbH1).write (Elt F)
        (((pbM : Memref sig .tc .vmem S1024x512 .bf16).access pbH0).write (Elt F) f₀ w0 Finset.univ) w1 Finset.univ) = rows4 w0 j
    ∧ (pbSlot j 1).view.read (Elt F) (((pbM : Memref sig .tc .vmem S1024x512 .bf16).access pbH1).write (Elt F)
        (((pbM : Memref sig .tc .vmem S1024x512 .bf16).access pbH0).write (Elt F) f₀ w0 Finset.univ) w1 Finset.univ) = rows4 w1 j :=
  ⟨(pb_store1_other j _ w1).trans (pb_store0 j f₀ w0), pb_store1 j _ w1⟩

/-- After the two stores of the device's partial products, every block holds its value. -/
theorem pb_after (c : Dev nD) (f₀ : (cc0_scratch0 : Ref sig .tc).ty.Contents (Elt F)) (j : Fin 4) (h : Fin 2) :
    (pbSlot j h).view.read (Elt F) (((pbM : Memref sig .tc .vmem S1024x512 .bf16).access pbH1).write (Elt F)
        (((pbM : Memref sig .tc .vmem S1024x512 .bf16).access pbH0).write (Elt F) f₀ (pbFull m c 0) Finset.univ) (pbFull m c 1) Finset.univ)
      = pbVal m c j h := by
  match h with
  | ⟨0, _⟩ => exact (Wire.pb_after' f₀ (pbFull m c 0) (pbFull m c 1) j).1
  | ⟨1, _⟩ => exact (Wire.pb_after' f₀ (pbFull m c 0) (pbFull m c 1) j).2

/-- info: 'Cert.Kernel.Coll.pb_after' depends on axioms: [propext, Classical.choice, Quot.sound] -/
#guard_msgs in #print axioms pb_after

/-- info: 'Cert.Kernel.Coll.outAt_piece' depends on axioms: [propext, Classical.choice, Quot.sound] -/
#guard_msgs in #print axioms outAt_piece

end Cert.Kernel.Coll

end
-- ==== Proof.KWrap.lean ====
/- The rounds library's rules at this schedule's cells: a barrier signal to a neighbour, the barrier wait, a block's
   transfer to a peer's slot, and the waits on a receive cell and on a send cell — each with the schedule's side
   conditions discharged from its tables. -/
import proofs.«901051_g7700000000001052_dist_rsdw_v7x_xyz2x4x4_z_m1024_d1024_f4096_bf16_1_alg».proof.Proof.KTables

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

local notation "WP" => wp frame

section Wrap

/-- Device `c` signals neighbour `p`'s barrier cell, paying its duty `d` there with the duty's payload. -/
theorem wp_sig (c p : Dev nD) (d : DN) (κ : ℕ) (O O' : CellTallies nD τ sig Unit) (hO : O = O' + tallyAt (barC p) () 1) (W : Waits sig Unit)
    {α : Type} {Q : α → sProp 𝕄} {k : PUnit → Prog (TpuEff nD τ sig (Elt F) Λ₀ .tc) α} :
    iprop(cellInv ER (Rd m) κ (barC p) ∗ owes (c : Thread nD τ) O W ∗ dutyTok ER (barC p) 0 d ∗ barPay (F := F) p d ∗ reached ER (barC p) 0)
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (p : Thread nD τ) barS 1) k) Q) := by
  rw [← payload_bar m p d]
  exact Rounds.wp_signal 𝒱₀ ER (Rd m) (c : Thread nD τ) none (dst := (p : Thread nD τ)) (sem := barS) (κ := κ) (r := 0) (d := d)
    (by rw [duties_bar]; exact Finset.mem_univ _) (amount_bar m p d) () O' hO

/-- Device `c` waits for the seven units of its barrier cell, owing `O`: its neighbours' seven payloads come back. -/
theorem wp_barwait (c : Dev nD) (κ : ℕ) (O : CellTallies nD τ sig Unit) (W : Waits sig Unit)
    {α : Type} {Q : α → sProp 𝕄} {k : PUnit → Prog (TpuEff nD τ sig (Elt F) Λ₀ .tc) α} :
    iprop(cellInv ER (Rd m) κ (barC c) ∗ cred (tallyAt (barC c) () 7) ∗ owes (c : Thread nD τ) O W ∗ MayWait (c : Thread nD τ) (.reg barS) () O ∗ atPos ER (barC c) 0 ∅ 0)
      ⊢ iprop(((owes (c : Thread nD τ) O (insert (SemLoc.reg barS, ()) W) ∗ atPos ER (barC c) 1 ∅ 0 ∗ reached ER (barC c) 1
              ∗ (barPay (F := F) c 0 ∗ barPay c 1 ∗ barPay c 2 ∗ barPay c 3 ∗ barPay c 4 ∗ barPay c 5 ∗ barPay c 6))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  rw [← rest_bar m c]
  exact Rounds.wp_wait_rest_token 𝒱₀ ER (Rd m) (c : Thread nD τ) none (κ := κ)
    (wpE_semWait_eq 𝒱₀ (c : Thread nD τ) none Set.univ) (Set.mem_univ _) () (O := O) (W := W) (R := 0) (m := 0) (T := ∅)
    (by rw [Nat.zero_add, expect_bar])

/-- Device `c` waits on its used DMA cell `(a, h, j)` for a block's credit, owing `O`: the cell's payload comes back. -/
theorem wp_dmawait (c : Dev nD) (a : Fin 6) (h : Fin 2) (j : Fin 4) (hu : used c a j) (κ : ℕ) (O : CellTallies nD τ sig Unit) (W : Waits sig Unit)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (Rd m) κ (dC c a h j) ∗ cred (tallyAt (dC c a h j) () N) ∗ owes (c : Thread nD τ) O W ∗ MayWait (c : Thread nD τ) (.dma (dsem a h j)) () O ∗ atPos ER (dC c a h j) 0 ∅ 0)
      ⊢ iprop(((owes (c : Thread nD τ) O (insert (SemLoc.dma (dsem a h j), ()) W) ∗ atPos ER (dC c a h j) 1 ∅ 0 ∗ reached ER (dC c a h j) 1 ∗ dmaPay m c a h j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem a h j) src dst hsrc hdst) k) Q) := by
  rw [← rest_dma m c a h j hu, ← hN]
  exact Rounds.wp_wait_rest_token 𝒱₀ ER (Rd m) (c : Thread nD τ) none (κ := κ)
    (wpE_waitDma2_eq 𝒱₀ (c : Thread nD τ) none Set.univ) (Set.mem_univ _) () (O := O) (W := W) (R := 0) (m := 0) (T := ∅)
    (by rw [Nat.zero_add, hN, expect_dma m c a h j hu])

/-- Device `c` sends the block under `src` (held at share `q`, contents `fs`) into `dst` on device `p` (held whole, contents
    `fd`), paying the duty of its send cell `(as, hs, js)` with the source's share and the duty of `p`'s receive cell
    `(ar, hr, jr)` with the block landed. -/
theorem wp_xfer (c p : Dev nD) (a₁ : Fin 6) (h₁ : Fin 2) (j₁ : Fin 4) (a₂ : Fin 6) (h₂ : Fin 2) (j₂ : Fin 4)
    (hus : used c a₁ j₁) (hur : used p a₂ j₂) (κ₁ κ₂ : ℕ)
    {src : Memref sig .tc .vmem S256x256 .bf16} {dst : Memref sig .tc .vmem S256x256 .bf16} {hsc : dst.view.ref.isScScratch = false}
    {hsrc : src.view.WordExact} {hdst : dst.view.WordExact}
    {hsem : DmaTarget.Typed .vmem (.dma (dsem a₂ h₂ j₂)) (.remote (p : Thread nD τ) dst (.dma (dsem a₁ h₁ j₁)) hsc)}
    (hN : dst.view.dmaCredit = N) (q : PosShare TreeShare)
    (fs : Buf (Elt F) (src.view.loc (c : Thread nD τ))) (fd : Buf (Elt F) (dst.view.loc (p : Thread nD τ)))
    (O O' : CellTallies nD τ sig Unit) (hO : O = O' + tallyAt (dC p a₂ h₂ j₂) () N) (W : Waits sig Unit)
    (hpay₁ : (src.view.loc (c : Thread nD τ) ↦[src.view.set]{q} fs : sProp 𝕄) ⊢ dmaPay m c a₁ h₁ j₁)
    (hpay₂ : (dst.view.loc (p : Thread nD τ) ↦[dst.view.set]{fullShare} (dst.view.write (Elt F) fd (src.view.read (Elt F) fs) Finset.univ) : sProp 𝕄) ⊢ dmaPay m p a₂ h₂ j₂)
    {α : Type} {Q : α → sProp 𝕄} {k : PUnit → Prog (TpuEff nD τ sig (Elt F) Λ₀ .tc) α} :
    iprop(cellInv ER (Rd m) κ₁ (dC c a₁ h₁ j₁) ∗ cellInv ER (Rd m) κ₂ (dC p a₂ h₂ j₂)
        ∗ (src.view.loc (c : Thread nD τ) ↦[src.view.set]{q} fs) ∗ (dst.view.loc (p : Thread nD τ) ↦[dst.view.set]{fullShare} fd)
        ∗ owes (c : Thread nD τ) O W
        ∗ dutyTok ER (dC c a₁ h₁ j₁) 0 (0 : DN) ∗ reached ER (dC c a₁ h₁ j₁) 0
        ∗ dutyTok ER (dC p a₂ h₂ j₂) 0 (0 : DN) ∗ reached ER (dC p a₂ h₂ j₂) 0)
      ⊢ iprop(((cred (tallyAt (dC c a₁ h₁ j₁) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (p : Thread nD τ) dst (.dma (dsem a₁ h₁ j₁)) hsc) (.dma (dsem a₂ h₂ j₂)) hsrc hdst hsem) k) Q) :=
  Rounds.wp_send_pointsTo 𝒱₀ ER (Rd m) (c : Thread nD τ) none (κ₁ := κ₁) (κ₂ := κ₂)
    (r₁ := 0) (r₂ := 0) (d₁ := (0 : DN)) (d₂ := (0 : DN)) (fs := fs) (fd := fd) (q := q)
    (by rw [duties_dma m c a₁ h₁ j₁ hus]; exact Finset.mem_singleton_self _) (by rw [duties_dma m p a₂ h₂ j₂ hur]; exact Finset.mem_singleton_self _)
    () () N (show dst.view.amount (.dma (dsem a₂ h₂ j₂)) = N from hN) (amount_dma m c a₁ h₁ j₁ 0) (amount_dma m p a₂ h₂ j₂ 0) O' hO (W := W)
    (by rw [payload_dma]; exact hpay₁)
    (by rw [payload_dma]; exact hpay₂)

/-- The same with the peer named as the program names it, equal to `p`. -/
theorem wp_xfer' (c p p' : Dev nD) (hp : p' = p) (a₁ : Fin 6) (h₁ : Fin 2) (j₁ : Fin 4) (a₂ : Fin 6) (h₂ : Fin 2) (j₂ : Fin 4)
    (hus : used c a₁ j₁) (hur : used p a₂ j₂) (κ₁ κ₂ : ℕ)
    {src : Memref sig .tc .vmem S256x256 .bf16} {dst : Memref sig .tc .vmem S256x256 .bf16} {hsc : dst.view.ref.isScScratch = false}
    {hsrc : src.view.WordExact} {hdst : dst.view.WordExact}
    {hsem : DmaTarget.Typed .vmem (.dma (dsem a₂ h₂ j₂)) (.remote (p' : Thread nD τ) dst (.dma (dsem a₁ h₁ j₁)) hsc)}
    (hN : dst.view.dmaCredit = N) (q : PosShare TreeShare)
    (fs : Buf (Elt F) (src.view.loc (c : Thread nD τ))) (fd : Buf (Elt F) (dst.view.loc (p : Thread nD τ)))
    (O O' : CellTallies nD τ sig Unit) (hO : O = O' + tallyAt (dC p a₂ h₂ j₂) () N) (W : Waits sig Unit)
    (hpay₁ : (src.view.loc (c : Thread nD τ) ↦[src.view.set]{q} fs : sProp 𝕄) ⊢ dmaPay m c a₁ h₁ j₁)
    (hpay₂ : (dst.view.loc (p : Thread nD τ) ↦[dst.view.set]{fullShare} (dst.view.write (Elt F) fd (src.view.read (Elt F) fs) Finset.univ) : sProp 𝕄) ⊢ dmaPay m p a₂ h₂ j₂)
    {α : Type} {Q : α → sProp 𝕄} {k : PUnit → Prog (TpuEff nD τ sig (Elt F) Λ₀ .tc) α} :
    iprop(cellInv ER (Rd m) κ₁ (dC c a₁ h₁ j₁) ∗ cellInv ER (Rd m) κ₂ (dC p a₂ h₂ j₂)
        ∗ (src.view.loc (c : Thread nD τ) ↦[src.view.set]{q} fs) ∗ (dst.view.loc (p : Thread nD τ) ↦[dst.view.set]{fullShare} fd)
        ∗ owes (c : Thread nD τ) O W
        ∗ dutyTok ER (dC c a₁ h₁ j₁) 0 (0 : DN) ∗ reached ER (dC c a₁ h₁ j₁) 0
        ∗ dutyTok ER (dC p a₂ h₂ j₂) 0 (0 : DN) ∗ reached ER (dC p a₂ h₂ j₂) 0)
      ⊢ iprop(((cred (tallyAt (dC c a₁ h₁ j₁) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (p' : Thread nD τ) dst (.dma (dsem a₁ h₁ j₁)) hsc) (.dma (dsem a₂ h₂ j₂)) hsrc hdst hsem) k) Q) := by
  subst hp
  exact wp_xfer m c p' a₁ h₁ j₁ a₂ h₂ j₂ hus hur κ₁ κ₂ hN q fs fd O O' hO W hpay₁ hpay₂

end Wrap

end Cert.Kernel.Coll

end
-- ==== Proof.KBodyAux.lean ====
/- Small facts the body's transfers cite: which cells carry a transfer, that a block sent to a peer is the block the peer's
   schedule expects, and the two forms of a payload (a slot at some contents; a slot holding a named block). -/
import proofs.«901051_g7700000000001052_dist_rsdw_v7x_xyz2x4x4_z_m1024_d1024_f4096_bf16_1_alg».proof.Proof.KTables
import proofs.«901051_g7700000000001052_dist_rsdw_v7x_xyz2x4x4_z_m1024_d1024_f4096_bf16_1_alg».proof.Proof.KWire
import proofs.«901051_g7700000000001052_dist_rsdw_v7x_xyz2x4x4_z_m1024_d1024_f4096_bf16_1_alg».proof.Proof.KWrap

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem used0_z1 : ∀ c : Dev nD, used c 0 (zj c 1) := by decide
theorem used1_z1 : ∀ c : Dev nD, used (zP c 1) 1 (zF c) := by decide
theorem used1_own_z1 : ∀ c : Dev nD, used c 1 (zj c 1) := by decide
theorem used2_y1 : ∀ c : Dev nD, used c 2 (yj c 1) := by decide
theorem used3_y1 : ∀ c : Dev nD, used (yP c 1) 3 (yF c) := by decide
theorem used3_own_y1 : ∀ c : Dev nD, used c 3 (yj c 1) := by decide
theorem atZ_zP1 : ∀ c : Dev nD, atZ (zP c 1) (zF c) = c := by decide
theorem atY_yP1 : ∀ c : Dev nD, atY (yP c 1) (yF c) = c := by decide
theorem atXY_xP_y1 : ∀ c : Dev nD, atXY (xP c) (yj c 1) = atY c (yj c 1) := by decide
theorem zF_zP1 : ∀ c : Dev nD, zF (zP c 1) = zj c 1 := by decide
theorem used0_z2 : ∀ c : Dev nD, used c 0 (zj c 2) := by decide
theorem used1_z2 : ∀ c : Dev nD, used (zP c 2) 1 (zF c) := by decide
theorem used1_own_z2 : ∀ c : Dev nD, used c 1 (zj c 2) := by decide
theorem used2_y2 : ∀ c : Dev nD, used c 2 (yj c 2) := by decide
theorem used3_y2 : ∀ c : Dev nD, used (yP c 2) 3 (yF c) := by decide
theorem used3_own_y2 : ∀ c : Dev nD, used c 3 (yj c 2) := by decide
theorem atZ_zP2 : ∀ c : Dev nD, atZ (zP c 2) (zF c) = c := by decide
theorem atY_yP2 : ∀ c : Dev nD, atY (yP c 2) (yF c) = c := by decide
theorem atXY_xP_y2 : ∀ c : Dev nD, atXY (xP c) (yj c 2) = atY c (yj c 2) := by decide
theorem zF_zP2 : ∀ c : Dev nD, zF (zP c 2) = zj c 2 := by decide
theorem used0_z3 : ∀ c : Dev nD, used c 0 (zj c 3) := by decide
theorem used1_z3 : ∀ c : Dev nD, used (zP c 3) 1 (zF c) := by decide
theorem used1_own_z3 : ∀ c : Dev nD, used c 1 (zj c 3) := by decide
theorem used2_y3 : ∀ c : Dev nD, used c 2 (yj c 3) := by decide
theorem used3_y3 : ∀ c : Dev nD, used (yP c 3) 3 (yF c) := by decide
theorem used3_own_y3 : ∀ c : Dev nD, used c 3 (yj c 3) := by decide
theorem atZ_zP3 : ∀ c : Dev nD, atZ (zP c 3) (zF c) = c := by decide
theorem atY_yP3 : ∀ c : Dev nD, atY (yP c 3) (yF c) = c := by decide
theorem atXY_xP_y3 : ∀ c : Dev nD, atXY (xP c) (yj c 3) = atY c (yj c 3) := by decide
theorem zF_zP3 : ∀ c : Dev nD, zF (zP c 3) = zj c 3 := by decide
theorem atXY_xP : ∀ c : Dev nD, atXY (xP c) (yF c) = c := by decide
theorem used4 (c : Dev nD) (j : Fin 4) : used c 4 j := by unfold used; simp
theorem used5 (c : Dev nD) (j : Fin 4) : used c 5 j := by unfold used; simp

/-- A slot held at contents `f` is a slot at some contents. -/
theorem to_any {s : Shape} {e : EltTy} (c : Dev nD) (M : Memref sig .tc .vmem s e) (q : PosShare TreeShare) (f : Buf (Elt F) (M.view.loc (c : Thread nD τ))) :
    (M.view.loc (c : Thread nD τ) ↦[M.view.set]{q} f : sProp 𝕄) ⊢ anyPts c M q := by
  unfold anyPts slotPts; iintro H; iexists f; iexact H

/-- A slot into which the block `v` has landed holds `v`. -/
theorem to_holds (p : Dev nD) (M : Memref sig .tc .vmem S256x256 .bf16) (fd : Buf (Elt F) (M.view.loc (p : Thread nD τ))) (v : Vec F S256x256 .bf16) :
    (M.view.loc (p : Thread nD τ) ↦[M.view.set]{fullShare} (M.view.write (Elt F) fd v Finset.univ) : sProp 𝕄) ⊢ holds p M v := by
  unfold holds slotPts; iintro H; iexists _; isplitl [H]; · iexact H
  ipureintro; exact landed M p fd v

/-- What a device sends along z is what the receiver's schedule names. -/
theorem rbVal_z1 (c : Dev nD) (h : Fin 2) : rbVal m (zP c 1) h (zF c) = pbVal m c (zj c 1) h := by unfold rbVal; rw [atZ_zP1, zF_zP1]
theorem red2_y1 (c : Dev nD) (h : Fin 2) : red2 m (atY (yP c 1) (yF c)) h = red2 m c h := by rw [atY_yP1]
theorem red2_xr1 (c : Dev nD) (h : Fin 2) : red2 m (atXY (xP c) (yj c 1)) h = red2 m (atY c (yj c 1)) h := by rw [atXY_xP_y1]
theorem rbVal_z2 (c : Dev nD) (h : Fin 2) : rbVal m (zP c 2) h (zF c) = pbVal m c (zj c 2) h := by unfold rbVal; rw [atZ_zP2, zF_zP2]
theorem red2_y2 (c : Dev nD) (h : Fin 2) : red2 m (atY (yP c 2) (yF c)) h = red2 m c h := by rw [atY_yP2]
theorem red2_xr2 (c : Dev nD) (h : Fin 2) : red2 m (atXY (xP c) (yj c 2)) h = red2 m (atY c (yj c 2)) h := by rw [atXY_xP_y2]
theorem rbVal_z3 (c : Dev nD) (h : Fin 2) : rbVal m (zP c 3) h (zF c) = pbVal m c (zj c 3) h := by unfold rbVal; rw [atZ_zP3, zF_zP3]
theorem red2_y3 (c : Dev nD) (h : Fin 2) : red2 m (atY (yP c 3) (yF c)) h = red2 m c h := by rw [atY_yP3]
theorem red2_xr3 (c : Dev nD) (h : Fin 2) : red2 m (atXY (xP c) (yj c 3)) h = red2 m (atY c (yj c 3)) h := by rw [atXY_xP_y3]
theorem red2_x (c : Dev nD) (h : Fin 2) : red2 m (atXY (xP c) (yF c)) h = red2 m c h := by rw [atXY_xP]

end Cert.Kernel.Coll

end
-- ==== Proof.KFamilies.lean ====
/- The families of a device's launch, written out. Its positions, one per cell; the tokens of the duties it pays at the
   receive cells it sends to and at its own send cells; and the credit dealt at launch on its receive cells: each family
   over a finite index set is the separating conjunction of its members, listed here array by array, half by half, and
   within a half by the coordinate counted from the device's own (the x phase's by the coordinate as numbered). A cell that
   carries no transfer contributes nothing. -/
import proofs.«901051_g7700000000001052_dist_rsdw_v7x_xyz2x4x4_z_m1024_d1024_f4096_bf16_1_alg».proof.Proof.KTables
import proofs.«901051_g7700000000001052_dist_rsdw_v7x_xyz2x4x4_z_m1024_d1024_f4096_bf16_1_alg».proof.Proof.KSlotsRel

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions listed -/

theorem emp_sep_eq (P : sProp 𝕄) : iprop(emp ∗ P) = P := equiv_iff.mp emp_sep
theorem sep_emp_eq (P : sProp 𝕄) : iprop(P ∗ emp) = P := equiv_iff.mp sep_emp
theorem emp_sep_eq' (P : sProp 𝕄) : iprop((BI.emp : sProp 𝕄) ∗ P) = P := equiv_iff.mp emp_sep
theorem sep_emp_eq' (P : sProp 𝕄) : iprop(P ∗ (BI.emp : sProp 𝕄)) = P := equiv_iff.mp sep_emp

/-- Over an optional index: the member at no index, and those at the indices. -/
theorem bigSep_opt {α : Type} [Fintype α] [DecidableEq α] (Ψ : Option α → sProp 𝕄) :
    bigSep Finset.univ Ψ = iprop(Ψ none ∗ bigSep Finset.univ fun a => Ψ (some a)) := by
  have h : (Finset.univ.erase (none : Option α)) = Finset.univ.map Function.Embedding.some := by
    ext x
    cases x with
    | none => simp
    | some a => simp
  rw [bigSep_univ_at Ψ none, h, bigSep_map]
  rfl

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A family over a device's forty-eight DMA cells, listed: the z phase's arrays by the z coordinate counted from the device's
    own, the y phase's and the x phase's send array by the y coordinate so counted, the x phase's receive array as numbered. -/
theorem bigSep_cells (c : Dev nD) (T : Fin 6 → Fin 2 → Fin 4 → sProp 𝕄) :
    bigSep Finset.univ (fun i : Fin 6 × Fin 2 × Fin 4 => T i.1 i.2.1 i.2.2)
      = iprop(((T 0 0 (zF c) ∗ T 0 0 (zj c 1) ∗ T 0 0 (zj c 2) ∗ T 0 0 (zj c 3)) ∗ (T 0 1 (zF c) ∗ T 0 1 (zj c 1) ∗ T 0 1 (zj c 2) ∗ T 0 1 (zj c 3)))
      ∗ ((T 1 0 (zF c) ∗ T 1 0 (zj c 1) ∗ T 1 0 (zj c 2) ∗ T 1 0 (zj c 3)) ∗ (T 1 1 (zF c) ∗ T 1 1 (zj c 1) ∗ T 1 1 (zj c 2) ∗ T 1 1 (zj c 3)))
      ∗ ((T 2 0 (yF c) ∗ T 2 0 (yj c 1) ∗ T 2 0 (yj c 2) ∗ T 2 0 (yj c 3)) ∗ (T 2 1 (yF c) ∗ T 2 1 (yj c 1) ∗ T 2 1 (yj c 2) ∗ T 2 1 (yj c 3)))
      ∗ ((T 3 0 (yF c) ∗ T 3 0 (yj c 1) ∗ T 3 0 (yj c 2) ∗ T 3 0 (yj c 3)) ∗ (T 3 1 (yF c) ∗ T 3 1 (yj c 1) ∗ T 3 1 (yj c 2) ∗ T 3 1 (yj c 3)))
      ∗ ((T 4 0 (yF c) ∗ T 4 0 (yj c 1) ∗ T 4 0 (yj c 2) ∗ T 4 0 (yj c 3)) ∗ (T 4 1 (yF c) ∗ T 4 1 (yj c 1) ∗ T 4 1 (yj c 2) ∗ T 4 1 (yj c 3)))
      ∗ ((T 5 0 0 ∗ T 5 0 1 ∗ T 5 0 2 ∗ T 5 0 3) ∗ (T 5 1 0 ∗ T 5 1 1 ∗ T 5 1 2 ∗ T 5 1 3))) := by
  rw [bigSep_univ_prod, bigSep_fin6,
    bigSep_2x4_zrel c (fun hj => T 0 hj.1 hj.2), bigSep_2x4_zrel c (fun hj => T 1 hj.1 hj.2),
    bigSep_2x4_yrel c (fun hj => T 2 hj.1 hj.2), bigSep_2x4_yrel c (fun hj => T 3 hj.1 hj.2), bigSep_2x4_yrel c (fun hj => T 4 hj.1 hj.2),
    bigSep_fin2x4 (fun hj => T 5 hj.1 hj.2)] <;> rfl

/-! ## Which cells carry a transfer -/

theorem zj_ne (c : Dev nD) (d : ℕ) (hd : d % 4 ≠ 0) : zj c d ≠ zF c := fun h => by
  have h' : (zc c + d) % 4 = zc c := congrArg Fin.val h
  have := zc_lt c
  omega
theorem yj_ne (c : Dev nD) (d : ℕ) (hd : d % 4 ≠ 0) : yj c d ≠ yF c := fun h => by
  have h' : (yc c + d) % 4 = yc c := congrArg Fin.val h
  have := yc_lt c
  omega

theorem used_z (c : Dev nD) (a : Fin 6) (ha : a.val < 2) (j : Fin 4) : used c a j ↔ j ≠ zF c := by
  unfold used; rw [if_pos ha]
theorem used_y (c : Dev nD) (a : Fin 6) (ha : ¬ a.val < 2) (ha' : a.val < 4) (j : Fin 4) : used c a j ↔ j ≠ yF c := by
  unfold used; rw [if_neg ha, if_pos ha']
theorem used_x (c : Dev nD) (a : Fin 6) (ha : ¬ a.val < 2) (ha' : ¬ a.val < 4) (j : Fin 4) : used c a j := by
  unfold used; rw [if_neg ha, if_neg ha']; trivial

/-- A member chosen by a conjunction whose first part fails is nothing. -/
theorem sel_neg {P Q : Prop} [Decidable (P ∧ Q)] (hP : ¬ P) (X : sProp 𝕄) : (if P ∧ Q then X else (BI.emp : sProp 𝕄)) = iprop(emp) :=
  if_neg fun h => hP h.1
theorem sel_pos {P Q : Prop} [Decidable (P ∧ Q)] (hP : P) (hQ : Q) (X : sProp 𝕄) : (if P ∧ Q then X else (BI.emp : sProp 𝕄)) = X :=
  if_pos ⟨hP, hQ⟩
theorem sel_neg' {P Q : Prop} [Decidable (P ∧ Q)] (hQ : ¬ Q) (X : sProp 𝕄) : (if P ∧ Q then X else (BI.emp : sProp 𝕄)) = iprop(emp) :=
  if_neg fun h => hQ h.2

/-! ## The positions -/

theorem pos_rel (c : Dev nD) : positions (F := F) c
    = iprop(atPos ER (barC c) 0 ∅ 0
      ∗ ((atPos ER (dC c 0 0 (zF c)) 0 ∅ 0 ∗ atPos ER (dC c 0 0 (zj c 1)) 0 ∅ 0 ∗ atPos ER (dC c 0 0 (zj c 2)) 0 ∅ 0 ∗ atPos ER (dC c 0 0 (zj c 3)) 0 ∅ 0) ∗ (atPos ER (dC c 0 1 (zF c)) 0 ∅ 0 ∗ atPos ER (dC c 0 1 (zj c 1)) 0 ∅ 0 ∗ atPos ER (dC c 0 1 (zj c 2)) 0 ∅ 0 ∗ atPos ER (dC c 0 1 (zj c 3)) 0 ∅ 0))
      ∗ ((atPos ER (dC c 1 0 (zF c)) 0 ∅ 0 ∗ atPos ER (dC c 1 0 (zj c 1)) 0 ∅ 0 ∗ atPos ER (dC c 1 0 (zj c 2)) 0 ∅ 0 ∗ atPos ER (dC c 1 0 (zj c 3)) 0 ∅ 0) ∗ (atPos ER (dC c 1 1 (zF c)) 0 ∅ 0 ∗ atPos ER (dC c 1 1 (zj c 1)) 0 ∅ 0 ∗ atPos ER (dC c 1 1 (zj c 2)) 0 ∅ 0 ∗ atPos ER (dC c 1 1 (zj c 3)) 0 ∅ 0))
      ∗ ((atPos ER (dC c 2 0 (yF c)) 0 ∅ 0 ∗ atPos ER (dC c 2 0 (yj c 1)) 0 ∅ 0 ∗ atPos ER (dC c 2 0 (yj c 2)) 0 ∅ 0 ∗ atPos ER (dC c 2 0 (yj c 3)) 0 ∅ 0) ∗ (atPos ER (dC c 2 1 (yF c)) 0 ∅ 0 ∗ atPos ER (dC c 2 1 (yj c 1)) 0 ∅ 0 ∗ atPos ER (dC c 2 1 (yj c 2)) 0 ∅ 0 ∗ atPos ER (dC c 2 1 (yj c 3)) 0 ∅ 0))
      ∗ ((atPos ER (dC c 3 0 (yF c)) 0 ∅ 0 ∗ atPos ER (dC c 3 0 (yj c 1)) 0 ∅ 0 ∗ atPos ER (dC c 3 0 (yj c 2)) 0 ∅ 0 ∗ atPos ER (dC c 3 0 (yj c 3)) 0 ∅ 0) ∗ (atPos ER (dC c 3 1 (yF c)) 0 ∅ 0 ∗ atPos ER (dC c 3 1 (yj c 1)) 0 ∅ 0 ∗ atPos ER (dC c 3 1 (yj c 2)) 0 ∅ 0 ∗ atPos ER (dC c 3 1 (yj c 3)) 0 ∅ 0))
      ∗ ((atPos ER (dC c 4 0 (yF c)) 0 ∅ 0 ∗ atPos ER (dC c 4 0 (yj c 1)) 0 ∅ 0 ∗ atPos ER (dC c 4 0 (yj c 2)) 0 ∅ 0 ∗ atPos ER (dC c 4 0 (yj c 3)) 0 ∅ 0) ∗ (atPos ER (dC c 4 1 (yF c)) 0 ∅ 0 ∗ atPos ER (dC c 4 1 (yj c 1)) 0 ∅ 0 ∗ atPos ER (dC c 4 1 (yj c 2)) 0 ∅ 0 ∗ atPos ER (dC c 4 1 (yj c 3)) 0 ∅ 0))
      ∗ ((atPos ER (dC c 5 0 0) 0 ∅ 0 ∗ atPos ER (dC c 5 0 1) 0 ∅ 0 ∗ atPos ER (dC c 5 0 2) 0 ∅ 0 ∗ atPos ER (dC c 5 0 3) 0 ∅ 0) ∗ (atPos ER (dC c 5 1 0) 0 ∅ 0 ∗ atPos ER (dC c 5 1 1) 0 ∅ 0 ∗ atPos ER (dC c 5 1 2) 0 ∅ 0 ∗ atPos ER (dC c 5 1 3) 0 ∅ 0))) := by
  unfold positions
  rw [bigSep_opt]
  exact congrArg (fun X : sProp 𝕄 => iprop(atPos ER (barC c) 0 ∅ 0 ∗ X)) (bigSep_cells (F := F) c fun a h j => atPos ER (dC c a h j) 0 ∅ 0)

/-! ## The tokens of the duties paid at other devices' receive cells -/

/-- A payment's cell by two numbers: its device and its semaphore. -/
def cellKey (p : GSem nD τ sig × ℕ) : ℕ × ℕ := (p.1.1.1.val, match p.1.2 with | .reg s => s.val | .dma s => 1 + s.val)

theorem pays_drop7_keys_nodup : ∀ c : Dev nD, (((pays c).drop 7).map cellKey).Nodup := by decide +kernel

/-- The twenty transfers of a device go to twenty different cells. -/
theorem pays_drop7_nodup (c : Dev nD) : ((pays c).drop 7).Nodup := List.Nodup.of_map _ (pays_drop7_keys_nodup c)

theorem toks_recv_eq (c : Dev nD) :
    (bigSep ((pays c).drop 7).toFinset fun p => (dutyTok ER p.1 0 (0 : DN) : sProp 𝕄))
      = iprop(dutyTok ER (dC (zP c 1) 1 0 (zF c)) 0 (0 : DN)
      ∗ dutyTok ER (dC (zP c 2) 1 0 (zF c)) 0 (0 : DN)
      ∗ dutyTok ER (dC (zP c 3) 1 0 (zF c)) 0 (0 : DN)
      ∗ dutyTok ER (dC (zP c 1) 1 1 (zF c)) 0 (0 : DN)
      ∗ dutyTok ER (dC (zP c 2) 1 1 (zF c)) 0 (0 : DN)
      ∗ dutyTok ER (dC (zP c 3) 1 1 (zF c)) 0 (0 : DN)
      ∗ dutyTok ER (dC (yP c 1) 3 0 (yF c)) 0 (0 : DN)
      ∗ dutyTok ER (dC (yP c 2) 3 0 (yF c)) 0 (0 : DN)
      ∗ dutyTok ER (dC (yP c 3) 3 0 (yF c)) 0 (0 : DN)
      ∗ dutyTok ER (dC (xP c) 5 0 (yF c)) 0 (0 : DN)
      ∗ dutyTok ER (dC (xP c) 5 0 (yj c 1)) 0 (0 : DN)
      ∗ dutyTok ER (dC (xP c) 5 0 (yj c 2)) 0 (0 : DN)
      ∗ dutyTok ER (dC (xP c) 5 0 (yj c 3)) 0 (0 : DN)
      ∗ dutyTok ER (dC (yP c 1) 3 1 (yF c)) 0 (0 : DN)
      ∗ dutyTok ER (dC (yP c 2) 3 1 (yF c)) 0 (0 : DN)
      ∗ dutyTok ER (dC (yP c 3) 3 1 (yF c)) 0 (0 : DN)
      ∗ dutyTok ER (dC (xP c) 5 1 (yF c)) 0 (0 : DN)
      ∗ dutyTok ER (dC (xP c) 5 1 (yj c 1)) 0 (0 : DN)
      ∗ dutyTok ER (dC (xP c) 5 1 (yj c 2)) 0 (0 : DN)
      ∗ dutyTok ER (dC (xP c) 5 1 (yj c 3)) 0 (0 : DN)) := by
  rw [bigSep_eq_bigSepL _ (pays_drop7_nodup c)]
  rfl

theorem toks_recv_rel (c : Dev nD) :
    (bigSep ((pays c).drop 7).toFinset fun p => (dutyTok ER p.1 0 (0 : DN) : sProp 𝕄))
      ⊢ iprop(dutyTok ER (dC (zP c 1) 1 0 (zF c)) 0 (0 : DN)
      ∗ dutyTok ER (dC (zP c 2) 1 0 (zF c)) 0 (0 : DN)
      ∗ dutyTok ER (dC (zP c 3) 1 0 (zF c)) 0 (0 : DN)
      ∗ dutyTok ER (dC (zP c 1) 1 1 (zF c)) 0 (0 : DN)
      ∗ dutyTok ER (dC (zP c 2) 1 1 (zF c)) 0 (0 : DN)
      ∗ dutyTok ER (dC (zP c 3) 1 1 (zF c)) 0 (0 : DN)
      ∗ dutyTok ER (dC (yP c 1) 3 0 (yF c)) 0 (0 : DN)
      ∗ dutyTok ER (dC (yP c 2) 3 0 (yF c)) 0 (0 : DN)
      ∗ dutyTok ER (dC (yP c 3) 3 0 (yF c)) 0 (0 : DN)
      ∗ dutyTok ER (dC (xP c) 5 0 (yF c)) 0 (0 : DN)
      ∗ dutyTok ER (dC (xP c) 5 0 (yj c 1)) 0 (0 : DN)
      ∗ dutyTok ER (dC (xP c) 5 0 (yj c 2)) 0 (0 : DN)
      ∗ dutyTok ER (dC (xP c) 5 0 (yj c 3)) 0 (0 : DN)
      ∗ dutyTok ER (dC (yP c 1) 3 1 (yF c)) 0 (0 : DN)
      ∗ dutyTok ER (dC (yP c 2) 3 1 (yF c)) 0 (0 : DN)
      ∗ dutyTok ER (dC (yP c 3) 3 1 (yF c)) 0 (0 : DN)
      ∗ dutyTok ER (dC (xP c) 5 1 (yF c)) 0 (0 : DN)
      ∗ dutyTok ER (dC (xP c) 5 1 (yj c 1)) 0 (0 : DN)
      ∗ dutyTok ER (dC (xP c) 5 1 (yj c 2)) 0 (0 : DN)
      ∗ dutyTok ER (dC (xP c) 5 1 (yj c 3)) 0 (0 : DN)) := Entails.of_eq (toks_recv_eq c)

/-! ## The tokens of the duties paid at the device's own send cells -/

theorem toks_send_eq (c : Dev nD) :
    (bigSep (Finset.univ.filter fun i : Fin 6 × Fin 2 × Fin 4 => i.1.val % 2 = 0 ∧ used c i.1 i.2.2) fun i => (dutyTok ER (dC c i.1 i.2.1 i.2.2) 0 (0 : DN) : sProp 𝕄))
      = iprop(((dutyTok ER (dC c 0 0 (zj c 1)) 0 (0 : DN) ∗ dutyTok ER (dC c 0 0 (zj c 2)) 0 (0 : DN) ∗ dutyTok ER (dC c 0 0 (zj c 3)) 0 (0 : DN)) ∗ (dutyTok ER (dC c 0 1 (zj c 1)) 0 (0 : DN) ∗ dutyTok ER (dC c 0 1 (zj c 2)) 0 (0 : DN) ∗ dutyTok ER (dC c 0 1 (zj c 3)) 0 (0 : DN)))
      ∗ ((dutyTok ER (dC c 2 0 (yj c 1)) 0 (0 : DN) ∗ dutyTok ER (dC c 2 0 (yj c 2)) 0 (0 : DN) ∗ dutyTok ER (dC c 2 0 (yj c 3)) 0 (0 : DN)) ∗ (dutyTok ER (dC c 2 1 (yj c 1)) 0 (0 : DN) ∗ dutyTok ER (dC c 2 1 (yj c 2)) 0 (0 : DN) ∗ dutyTok ER (dC c 2 1 (yj c 3)) 0 (0 : DN)))
      ∗ ((dutyTok ER (dC c 4 0 (yF c)) 0 (0 : DN) ∗ dutyTok ER (dC c 4 0 (yj c 1)) 0 (0 : DN) ∗ dutyTok ER (dC c 4 0 (yj c 2)) 0 (0 : DN) ∗ dutyTok ER (dC c 4 0 (yj c 3)) 0 (0 : DN)) ∗ (dutyTok ER (dC c 4 1 (yF c)) 0 (0 : DN) ∗ dutyTok ER (dC c 4 1 (yj c 1)) 0 (0 : DN) ∗ dutyTok ER (dC c 4 1 (yj c 2)) 0 (0 : DN) ∗ dutyTok ER (dC c 4 1 (yj c 3)) 0 (0 : DN)))) := by
  rw [bigSep_filter, bigSep_cells (F := F) c (fun a h j => if a.val % 2 = 0 ∧ used c a j then (dutyTok ER (dC c a h j) 0 (0 : DN) : sProp 𝕄) else BI.emp)]
  simp only [sel_neg (show ¬ (1 : Fin 6).val % 2 = 0 by decide), sel_neg (show ¬ (3 : Fin 6).val % 2 = 0 by decide), sel_neg (show ¬ (5 : Fin 6).val % 2 = 0 by decide),
    sel_neg' (show ¬ used c 0 (zF c) from fun h => (used_z c 0 (by decide) _).mp h rfl),
    sel_pos (show (0 : Fin 6).val % 2 = 0 by decide) ((used_z c 0 (by decide) _).mpr (zj_ne c 1 (by decide))),
    sel_pos (show (0 : Fin 6).val % 2 = 0 by decide) ((used_z c 0 (by decide) _).mpr (zj_ne c 2 (by decide))),
    sel_pos (show (0 : Fin 6).val % 2 = 0 by decide) ((used_z c 0 (by decide) _).mpr (zj_ne c 3 (by decide))),
    sel_neg' (show ¬ used c 2 (yF c) from fun h => (used_y c 2 (by decide) (by decide) _).mp h rfl),
    sel_pos (show (2 : Fin 6).val % 2 = 0 by decide) ((used_y c 2 (by decide) (by decide) _).mpr (yj_ne c 1 (by decide))),
    sel_pos (show (2 : Fin 6).val % 2 = 0 by decide) ((used_y c 2 (by decide) (by decide) _).mpr (yj_ne c 2 (by decide))),
    sel_pos (show (2 : Fin 6).val % 2 = 0 by decide) ((used_y c 2 (by decide) (by decide) _).mpr (yj_ne c 3 (by decide))),
    sel_pos (show (4 : Fin 6).val % 2 = 0 by decide) (used_x c 4 (by decide) (by decide) (yF c)),
    sel_pos (show (4 : Fin 6).val % 2 = 0 by decide) (used_x c 4 (by decide) (by decide) (yj c 1)),
    sel_pos (show (4 : Fin 6).val % 2 = 0 by decide) (used_x c 4 (by decide) (by decide) (yj c 2)),
    sel_pos (show (4 : Fin 6).val % 2 = 0 by decide) (used_x c 4 (by decide) (by decide) (yj c 3)),
    emp_sep_eq, sep_emp_eq, emp_sep_eq', sep_emp_eq']

theorem toks_send_rel (c : Dev nD) :
    (bigSep (Finset.univ.filter fun i : Fin 6 × Fin 2 × Fin 4 => i.1.val % 2 = 0 ∧ used c i.1 i.2.2) fun i => (dutyTok ER (dC c i.1 i.2.1 i.2.2) 0 (0 : DN) : sProp 𝕄))
      ⊢ iprop(((dutyTok ER (dC c 0 0 (zj c 1)) 0 (0 : DN) ∗ dutyTok ER (dC c 0 0 (zj c 2)) 0 (0 : DN) ∗ dutyTok ER (dC c 0 0 (zj c 3)) 0 (0 : DN)) ∗ (dutyTok ER (dC c 0 1 (zj c 1)) 0 (0 : DN) ∗ dutyTok ER (dC c 0 1 (zj c 2)) 0 (0 : DN) ∗ dutyTok ER (dC c 0 1 (zj c 3)) 0 (0 : DN)))
      ∗ ((dutyTok ER (dC c 2 0 (yj c 1)) 0 (0 : DN) ∗ dutyTok ER (dC c 2 0 (yj c 2)) 0 (0 : DN) ∗ dutyTok ER (dC c 2 0 (yj c 3)) 0 (0 : DN)) ∗ (dutyTok ER (dC c 2 1 (yj c 1)) 0 (0 : DN) ∗ dutyTok ER (dC c 2 1 (yj c 2)) 0 (0 : DN) ∗ dutyTok ER (dC c 2 1 (yj c 3)) 0 (0 : DN)))
      ∗ ((dutyTok ER (dC c 4 0 (yF c)) 0 (0 : DN) ∗ dutyTok ER (dC c 4 0 (yj c 1)) 0 (0 : DN) ∗ dutyTok ER (dC c 4 0 (yj c 2)) 0 (0 : DN) ∗ dutyTok ER (dC c 4 0 (yj c 3)) 0 (0 : DN)) ∗ (dutyTok ER (dC c 4 1 (yF c)) 0 (0 : DN) ∗ dutyTok ER (dC c 4 1 (yj c 1)) 0 (0 : DN) ∗ dutyTok ER (dC c 4 1 (yj c 2)) 0 (0 : DN) ∗ dutyTok ER (dC c 4 1 (yj c 3)) 0 (0 : DN)))) := Entails.of_eq (toks_send_eq c)

/-! ## The credit dealt at launch on the device's receive cells -/

theorem creds_eq (c : Dev nD) :
    (bigSep (Finset.univ.filter fun i : Fin 6 × Fin 2 × Fin 4 => i.1.val % 2 = 1 ∧ used c i.1 i.2.2) fun i => (cred (tallyAt (dC c i.1 i.2.1 i.2.2) () N) : sProp 𝕄))
      = iprop(((cred (tallyAt (dC c 1 0 (zj c 1)) () N) ∗ cred (tallyAt (dC c 1 0 (zj c 2)) () N) ∗ cred (tallyAt (dC c 1 0 (zj c 3)) () N)) ∗ (cred (tallyAt (dC c 1 1 (zj c 1)) () N) ∗ cred (tallyAt (dC c 1 1 (zj c 2)) () N) ∗ cred (tallyAt (dC c 1 1 (zj c 3)) () N)))
      ∗ ((cred (tallyAt (dC c 3 0 (yj c 1)) () N) ∗ cred (tallyAt (dC c 3 0 (yj c 2)) () N) ∗ cred (tallyAt (dC c 3 0 (yj c 3)) () N)) ∗ (cred (tallyAt (dC c 3 1 (yj c 1)) () N) ∗ cred (tallyAt (dC c 3 1 (yj c 2)) () N) ∗ cred (tallyAt (dC c 3 1 (yj c 3)) () N)))
      ∗ ((cred (tallyAt (dC c 5 0 0) () N) ∗ cred (tallyAt (dC c 5 0 1) () N) ∗ cred (tallyAt (dC c 5 0 2) () N) ∗ cred (tallyAt (dC c 5 0 3) () N)) ∗ (cred (tallyAt (dC c 5 1 0) () N) ∗ cred (tallyAt (dC c 5 1 1) () N) ∗ cred (tallyAt (dC c 5 1 2) () N) ∗ cred (tallyAt (dC c 5 1 3) () N)))) := by
  rw [bigSep_filter, bigSep_cells (F := F) c (fun a h j => if a.val % 2 = 1 ∧ used c a j then (cred (tallyAt (dC c a h j) () N) : sProp 𝕄) else BI.emp)]
  simp only [sel_neg (show ¬ (0 : Fin 6).val % 2 = 1 by decide), sel_neg (show ¬ (2 : Fin 6).val % 2 = 1 by decide), sel_neg (show ¬ (4 : Fin 6).val % 2 = 1 by decide),
    sel_neg' (show ¬ used c 1 (zF c) from fun h => (used_z c 1 (by decide) _).mp h rfl),
    sel_pos (show (1 : Fin 6).val % 2 = 1 by decide) ((used_z c 1 (by decide) _).mpr (zj_ne c 1 (by decide))),
    sel_pos (show (1 : Fin 6).val % 2 = 1 by decide) ((used_z c 1 (by decide) _).mpr (zj_ne c 2 (by decide))),
    sel_pos (show (1 : Fin 6).val % 2 = 1 by decide) ((used_z c 1 (by decide) _).mpr (zj_ne c 3 (by decide))),
    sel_neg' (show ¬ used c 3 (yF c) from fun h => (used_y c 3 (by decide) (by decide) _).mp h rfl),
    sel_pos (show (3 : Fin 6).val % 2 = 1 by decide) ((used_y c 3 (by decide) (by decide) _).mpr (yj_ne c 1 (by decide))),
    sel_pos (show (3 : Fin 6).val % 2 = 1 by decide) ((used_y c 3 (by decide) (by decide) _).mpr (yj_ne c 2 (by decide))),
    sel_pos (show (3 : Fin 6).val % 2 = 1 by decide) ((used_y c 3 (by decide) (by decide) _).mpr (yj_ne c 3 (by decide))),
    sel_pos (show (5 : Fin 6).val % 2 = 1 by decide) (used_x c 5 (by decide) (by decide) 0),
    sel_pos (show (5 : Fin 6).val % 2 = 1 by decide) (used_x c 5 (by decide) (by decide) 1),
    sel_pos (show (5 : Fin 6).val % 2 = 1 by decide) (used_x c 5 (by decide) (by decide) 2),
    sel_pos (show (5 : Fin 6).val % 2 = 1 by decide) (used_x c 5 (by decide) (by decide) 3),
    emp_sep_eq, sep_emp_eq, emp_sep_eq', sep_emp_eq']

theorem creds_rel (c : Dev nD) :
    (bigSep (Finset.univ.filter fun i : Fin 6 × Fin 2 × Fin 4 => i.1.val % 2 = 1 ∧ used c i.1 i.2.2) fun i => (cred (tallyAt (dC c i.1 i.2.1 i.2.2) () N) : sProp 𝕄))
      ⊢ iprop(((cred (tallyAt (dC c 1 0 (zj c 1)) () N) ∗ cred (tallyAt (dC c 1 0 (zj c 2)) () N) ∗ cred (tallyAt (dC c 1 0 (zj c 3)) () N)) ∗ (cred (tallyAt (dC c 1 1 (zj c 1)) () N) ∗ cred (tallyAt (dC c 1 1 (zj c 2)) () N) ∗ cred (tallyAt (dC c 1 1 (zj c 3)) () N)))
      ∗ ((cred (tallyAt (dC c 3 0 (yj c 1)) () N) ∗ cred (tallyAt (dC c 3 0 (yj c 2)) () N) ∗ cred (tallyAt (dC c 3 0 (yj c 3)) () N)) ∗ (cred (tallyAt (dC c 3 1 (yj c 1)) () N) ∗ cred (tallyAt (dC c 3 1 (yj c 2)) () N) ∗ cred (tallyAt (dC c 3 1 (yj c 3)) () N)))
      ∗ ((cred (tallyAt (dC c 5 0 0) () N) ∗ cred (tallyAt (dC c 5 0 1) () N) ∗ cred (tallyAt (dC c 5 0 2) () N) ∗ cred (tallyAt (dC c 5 0 3) () N)) ∗ (cred (tallyAt (dC c 5 1 0) () N) ∗ cred (tallyAt (dC c 5 1 1) () N) ∗ cred (tallyAt (dC c 5 1 2) () N) ∗ cred (tallyAt (dC c 5 1 3) () N)))) := Entails.of_eq (creds_eq c)

/-- info: 'Cert.Kernel.Coll.pos_rel' depends on axioms: [propext, Classical.choice, Quot.sound] -/
#guard_msgs in #print axioms pos_rel

/-- info: 'Cert.Kernel.Coll.toks_recv_eq' depends on axioms: [propext, Classical.choice, Quot.sound] -/
#guard_msgs in #print axioms toks_recv_eq

/-- info: 'Cert.Kernel.Coll.toks_send_eq' depends on axioms: [propext, Classical.choice, Quot.sound] -/
#guard_msgs in #print axioms toks_send_eq

/-- info: 'Cert.Kernel.Coll.creds_eq' depends on axioms: [propext, Classical.choice, Quot.sound] -/
#guard_msgs in #print axioms creds_eq

end Cert.Kernel.Coll

end
-- ==== Proof.KIncl.lean ====
/- The rectangles a device's body loads and stores through its whole scratch and result buffers, at the offsets it computes
   from its own position, are the rectangles of the slots and of the result's pieces at the coordinates those offsets name;
   and the elements such an access goes through lie in the slot that holds them, so that the access needs the slot only. -/
import proofs.«901051_g7700000000001052_dist_rsdw_v7x_xyz2x4x4_z_m1024_d1024_f4096_bf16_1_alg».proof.Proof.KCanon
import proofs.«901051_g7700000000001052_dist_rsdw_v7x_xyz2x4x4_z_m1024_d1024_f4096_bf16_1_alg».proof.Proof.KSlots

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The rectangles, renamed -/

theorem rect_off10 (c : Dev nD) : Rect.unit (s := S1024x512) (k0_off10 c) S256x256.size (k0_off10_inb c) = pbR (zF c) 0 :=
  Rect.unit_congr ((Mesh.off10 c).trans rfl) _ _
theorem rect_off12 (c : Dev nD) : Rect.unit (s := S1024x512) (k0_off12 c) S256x256.size (k0_off12_inb c) = pbR (zF c) 0 :=
  Rect.unit_congr ((Mesh.off12 c).trans rfl) _ _
theorem rect_off16 (c : Dev nD) : Rect.unit (s := S1024x512) (k0_off16 c) S256x256.size (k0_off16_inb c) = pbR (zF c) 1 :=
  Rect.unit_congr ((Mesh.off16 c).trans rfl) _ _
theorem rect_off18 (c : Dev nD) : Rect.unit (s := S1024x512) (k0_off18 c) S256x256.size (k0_off18_inb c) = pbR (zF c) 1 :=
  Rect.unit_congr ((Mesh.off18 c).trans rfl) _ _
theorem rect_off13_1_1 (c : Dev nD) : Rect.unit (s := S2x4x256x256) (k0_off13 c 1#32 1#32) S1x1x256x256.size (k0_off13_inb c 0 0) = r4R 0 (zj c 1) :=
  Rect.unit_congr ((Mesh.off13_1_1 c).trans rfl) _ _
theorem rect_off13_1_2 (c : Dev nD) : Rect.unit (s := S2x4x256x256) (k0_off13 c 1#32 2#32) S1x1x256x256.size (k0_off13_inb c 0 1) = r4R 0 (zj c 2) :=
  Rect.unit_congr ((Mesh.off13_1_2 c).trans rfl) _ _
theorem rect_off13_1_3 (c : Dev nD) : Rect.unit (s := S2x4x256x256) (k0_off13 c 1#32 3#32) S1x1x256x256.size (k0_off13_inb c 0 2) = r4R 0 (zj c 3) :=
  Rect.unit_congr ((Mesh.off13_1_3 c).trans rfl) _ _
theorem rect_off13_4_1 (c : Dev nD) : Rect.unit (s := S2x4x256x256) (k0_off13 c 4#32 1#32) S1x1x256x256.size (k0_off13_inb c 1 0) = r4R 0 (yj c 1) :=
  Rect.unit_congr ((Mesh.off13_4_1 c).trans rfl) _ _
theorem rect_off13_4_2 (c : Dev nD) : Rect.unit (s := S2x4x256x256) (k0_off13 c 4#32 2#32) S1x1x256x256.size (k0_off13_inb c 1 1) = r4R 0 (yj c 2) :=
  Rect.unit_congr ((Mesh.off13_4_2 c).trans rfl) _ _
theorem rect_off13_4_3 (c : Dev nD) : Rect.unit (s := S2x4x256x256) (k0_off13 c 4#32 3#32) S1x1x256x256.size (k0_off13_inb c 1 2) = r4R 0 (yj c 3) :=
  Rect.unit_congr ((Mesh.off13_4_3 c).trans rfl) _ _
theorem rect_off19_1_1 (c : Dev nD) : Rect.unit (s := S2x4x256x256) (k0_off19 c 1#32 1#32) S1x1x256x256.size (k0_off19_inb c 0 0) = r4R 1 (zj c 1) :=
  Rect.unit_congr ((Mesh.off19_1_1 c).trans rfl) _ _
theorem rect_off19_1_2 (c : Dev nD) : Rect.unit (s := S2x4x256x256) (k0_off19 c 1#32 2#32) S1x1x256x256.size (k0_off19_inb c 0 1) = r4R 1 (zj c 2) :=
  Rect.unit_congr ((Mesh.off19_1_2 c).trans rfl) _ _
theorem rect_off19_1_3 (c : Dev nD) : Rect.unit (s := S2x4x256x256) (k0_off19 c 1#32 3#32) S1x1x256x256.size (k0_off19_inb c 0 2) = r4R 1 (zj c 3) :=
  Rect.unit_congr ((Mesh.off19_1_3 c).trans rfl) _ _
theorem rect_off19_4_1 (c : Dev nD) : Rect.unit (s := S2x4x256x256) (k0_off19 c 4#32 1#32) S1x1x256x256.size (k0_off19_inb c 1 0) = r4R 1 (yj c 1) :=
  Rect.unit_congr ((Mesh.off19_4_1 c).trans rfl) _ _
theorem rect_off19_4_2 (c : Dev nD) : Rect.unit (s := S2x4x256x256) (k0_off19 c 4#32 2#32) S1x1x256x256.size (k0_off19_inb c 1 1) = r4R 1 (yj c 2) :=
  Rect.unit_congr ((Mesh.off19_4_2 c).trans rfl) _ _
theorem rect_off19_4_3 (c : Dev nD) : Rect.unit (s := S2x4x256x256) (k0_off19 c 4#32 3#32) S1x1x256x256.size (k0_off19_inb c 1 2) = r4R 1 (yj c 3) :=
  Rect.unit_congr ((Mesh.off19_4_3 c).trans rfl) _ _
theorem rect_off14_0 (c : Dev nD) : Rect.unit (s := S256x4096) (k0_off14 c 0#32) S256x256.size (k0_off14_inb c 0) = oR (qOwn c) 0 :=
  Rect.unit_congr ((Mesh.off14_0 c).trans (vec2_congr (by show (2048 * xc c + 512 * yc c + 0 : ℕ) = 512 * (4 * xc c + yc c) + 256 * 0; omega))) _ _
theorem rect_off14_256 (c : Dev nD) : Rect.unit (s := S256x4096) (k0_off14 c 256#32) S256x256.size (k0_off14_inb c 1) = oR (qOwn c) 1 :=
  Rect.unit_congr ((Mesh.off14_256 c).trans (vec2_congr (by show (2048 * xc c + 512 * yc c + 256 : ℕ) = 512 * (4 * xc c + yc c) + 256 * 1; omega))) _ _
theorem rect_off15_1_0 (c : Dev nD) : Rect.unit (s := S256x4096) (k0_off15 c 1#32 0#32) S256x256.size (k0_off15_inb c 0 0) = oR (qY c 1) 0 :=
  Rect.unit_congr ((Mesh.off15_1_0 c).trans (vec2_congr (by show (2048 * xc c + 512 * ((yc c + 1) % 4) + 0 : ℕ) = 512 * (4 * xc c + (yc c + 1) % 4) + 256 * 0; omega))) _ _
theorem rect_off15_1_256 (c : Dev nD) : Rect.unit (s := S256x4096) (k0_off15 c 1#32 256#32) S256x256.size (k0_off15_inb c 0 1) = oR (qY c 1) 1 :=
  Rect.unit_congr ((Mesh.off15_1_256 c).trans (vec2_congr (by show (2048 * xc c + 512 * ((yc c + 1) % 4) + 256 : ℕ) = 512 * (4 * xc c + (yc c + 1) % 4) + 256 * 1; omega))) _ _
theorem rect_off15_2_0 (c : Dev nD) : Rect.unit (s := S256x4096) (k0_off15 c 2#32 0#32) S256x256.size (k0_off15_inb c 1 0) = oR (qY c 2) 0 :=
  Rect.unit_congr ((Mesh.off15_2_0 c).trans (vec2_congr (by show (2048 * xc c + 512 * ((yc c + 2) % 4) + 0 : ℕ) = 512 * (4 * xc c + (yc c + 2) % 4) + 256 * 0; omega))) _ _
theorem rect_off15_2_256 (c : Dev nD) : Rect.unit (s := S256x4096) (k0_off15 c 2#32 256#32) S256x256.size (k0_off15_inb c 1 1) = oR (qY c 2) 1 :=
  Rect.unit_congr ((Mesh.off15_2_256 c).trans (vec2_congr (by show (2048 * xc c + 512 * ((yc c + 2) % 4) + 256 : ℕ) = 512 * (4 * xc c + (yc c + 2) % 4) + 256 * 1; omega))) _ _
theorem rect_off15_3_0 (c : Dev nD) : Rect.unit (s := S256x4096) (k0_off15 c 3#32 0#32) S256x256.size (k0_off15_inb c 2 0) = oR (qY c 3) 0 :=
  Rect.unit_congr ((Mesh.off15_3_0 c).trans (vec2_congr (by show (2048 * xc c + 512 * ((yc c + 3) % 4) + 0 : ℕ) = 512 * (4 * xc c + (yc c + 3) % 4) + 256 * 0; omega))) _ _
theorem rect_off15_3_256 (c : Dev nD) : Rect.unit (s := S256x4096) (k0_off15 c 3#32 256#32) S256x256.size (k0_off15_inb c 2 1) = oR (qY c 3) 1 :=
  Rect.unit_congr ((Mesh.off15_3_256 c).trans (vec2_congr (by show (2048 * xc c + 512 * ((yc c + 3) % 4) + 256 : ℕ) = 512 * (4 * xc c + (yc c + 3) % 4) + 256 * 1; omega))) _ _
theorem rect_off20_0_0 (c : Dev nD) : Rect.unit (s := S256x4096) (k0_off20 c 0#32 0#32) S256x256.size (k0_off20_inb c 0 0) = oR (qX c 0) 0 :=
  Rect.unit_congr ((Mesh.off20_0_0 c).trans (vec2_congr (by show (2048 * (1 - xc c) + 512 * 0 + 0 : ℕ) = 512 * (4 * (1 - xc c) + 0) + 256 * 0; omega))) _ _
theorem rect_off20_0_256 (c : Dev nD) : Rect.unit (s := S256x4096) (k0_off20 c 0#32 256#32) S256x256.size (k0_off20_inb c 0 1) = oR (qX c 0) 1 :=
  Rect.unit_congr ((Mesh.off20_0_256 c).trans (vec2_congr (by show (2048 * (1 - xc c) + 512 * 0 + 256 : ℕ) = 512 * (4 * (1 - xc c) + 0) + 256 * 1; omega))) _ _
theorem rect_off20_1_0 (c : Dev nD) : Rect.unit (s := S256x4096) (k0_off20 c 1#32 0#32) S256x256.size (k0_off20_inb c 1 0) = oR (qX c 1) 0 :=
  Rect.unit_congr ((Mesh.off20_1_0 c).trans (vec2_congr (by show (2048 * (1 - xc c) + 512 * 1 + 0 : ℕ) = 512 * (4 * (1 - xc c) + 1) + 256 * 0; omega))) _ _
theorem rect_off20_1_256 (c : Dev nD) : Rect.unit (s := S256x4096) (k0_off20 c 1#32 256#32) S256x256.size (k0_off20_inb c 1 1) = oR (qX c 1) 1 :=
  Rect.unit_congr ((Mesh.off20_1_256 c).trans (vec2_congr (by show (2048 * (1 - xc c) + 512 * 1 + 256 : ℕ) = 512 * (4 * (1 - xc c) + 1) + 256 * 1; omega))) _ _
theorem rect_off20_2_0 (c : Dev nD) : Rect.unit (s := S256x4096) (k0_off20 c 2#32 0#32) S256x256.size (k0_off20_inb c 2 0) = oR (qX c 2) 0 :=
  Rect.unit_congr ((Mesh.off20_2_0 c).trans (vec2_congr (by show (2048 * (1 - xc c) + 512 * 2 + 0 : ℕ) = 512 * (4 * (1 - xc c) + 2) + 256 * 0; omega))) _ _
theorem rect_off20_2_256 (c : Dev nD) : Rect.unit (s := S256x4096) (k0_off20 c 2#32 256#32) S256x256.size (k0_off20_inb c 2 1) = oR (qX c 2) 1 :=
  Rect.unit_congr ((Mesh.off20_2_256 c).trans (vec2_congr (by show (2048 * (1 - xc c) + 512 * 2 + 256 : ℕ) = 512 * (4 * (1 - xc c) + 2) + 256 * 1; omega))) _ _
theorem rect_off20_3_0 (c : Dev nD) : Rect.unit (s := S256x4096) (k0_off20 c 3#32 0#32) S256x256.size (k0_off20_inb c 3 0) = oR (qX c 3) 0 :=
  Rect.unit_congr ((Mesh.off20_3_0 c).trans (vec2_congr (by show (2048 * (1 - xc c) + 512 * 3 + 0 : ℕ) = 512 * (4 * (1 - xc c) + 3) + 256 * 0; omega))) _ _
theorem rect_off20_3_256 (c : Dev nD) : Rect.unit (s := S256x4096) (k0_off20 c 3#32 256#32) S256x256.size (k0_off20_inb c 3 1) = oR (qX c 3) 1 :=
  Rect.unit_congr ((Mesh.off20_3_256 c).trans (vec2_congr (by show (2048 * (1 - xc c) + 512 * 3 + 256 : ℕ) = 512 * (4 * (1 - xc c) + 3) + 256 * 1; omega))) _ _

theorem rect_r4_0_0 : Rect.unit (s := S2x4x256x256) ![0, 0, 0, 0] S1x1x256x256.size inb_S2x4x256x256_S1x1x256x256_0_0_0_0 = r4R 0 0 :=
  Rect.unit_congr rfl _ _
theorem rect_r4_0_1 : Rect.unit (s := S2x4x256x256) ![0, 1, 0, 0] S1x1x256x256.size inb_S2x4x256x256_S1x1x256x256_0_1_0_0 = r4R 0 1 :=
  Rect.unit_congr rfl _ _
theorem rect_r4_0_2 : Rect.unit (s := S2x4x256x256) ![0, 2, 0, 0] S1x1x256x256.size inb_S2x4x256x256_S1x1x256x256_0_2_0_0 = r4R 0 2 :=
  Rect.unit_congr rfl _ _
theorem rect_r4_0_3 : Rect.unit (s := S2x4x256x256) ![0, 3, 0, 0] S1x1x256x256.size inb_S2x4x256x256_S1x1x256x256_0_3_0_0 = r4R 0 3 :=
  Rect.unit_congr rfl _ _
theorem rect_r4_1_0 : Rect.unit (s := S2x4x256x256) ![1, 0, 0, 0] S1x1x256x256.size inb_S2x4x256x256_S1x1x256x256_1_0_0_0 = r4R 1 0 :=
  Rect.unit_congr rfl _ _
theorem rect_r4_1_1 : Rect.unit (s := S2x4x256x256) ![1, 1, 0, 0] S1x1x256x256.size inb_S2x4x256x256_S1x1x256x256_1_1_0_0 = r4R 1 1 :=
  Rect.unit_congr rfl _ _
theorem rect_r4_1_2 : Rect.unit (s := S2x4x256x256) ![1, 2, 0, 0] S1x1x256x256.size inb_S2x4x256x256_S1x1x256x256_1_2_0_0 = r4R 1 2 :=
  Rect.unit_congr rfl _ _
theorem rect_r4_1_3 : Rect.unit (s := S2x4x256x256) ![1, 3, 0, 0] S1x1x256x256.size inb_S2x4x256x256_S1x1x256x256_1_3_0_0 = r4R 1 3 :=
  Rect.unit_congr rfl _ _
theorem rect_red_0 : Rect.unit (s := S2x256x256) ![0, 0, 0] S1x256x256.size inb_S2x256x256_S1x256x256_0_0_0 = redR 0 :=
  Rect.unit_congr rfl _ _
theorem rect_red_1 : Rect.unit (s := S2x256x256) ![1, 0, 0] S1x256x256.size inb_S2x256x256_S1x256x256_1_0_0 = redR 1 :=
  Rect.unit_congr rfl _ _

/-! ## An access through the whole buffer stays inside the slot -/

theorem incl_pb_acc (j : Fin 4) (h : Fin 2) : ((pbM : Memref sig .tc .vmem S1024x512 .bf16).access (pbR j h)).set ⊆ (pbSlot j h).view.set :=
  Finset.Subset.refl _
theorem incl_pb (j : Fin 4) (h : Fin 2) : (pbM : Memref sig .tc .vmem S1024x512 .bf16).view.setOn (pbR j h).set ⊆ (pbSlot j h).view.set :=
  (Finset.Subset.trans (View.set_slice (pbM : Memref sig .tc .vmem S1024x512 .bf16).view (pbR j h)).ge (incl_pb_acc j h))
theorem incl_pb_load (j : Fin 4) (h : Fin 2) : (pbM : Memref sig .tc .vmem S1024x512 .bf16).view.setOn (pbR j h).toLoadRect.set ⊆ (pbSlot j h).view.set :=
  incl_pb j h

theorem incl_red_acc (h : Fin 2) : ((redM : Memref sig .tc .vmem S2x256x256 .bf16).access (redR h)).set ⊆ (redSlot h).view.set :=
  (View.set_reshape ((redM : Memref sig .tc .vmem S2x256x256 .bf16).view.slice (redR h)) _).ge
theorem incl_red (h : Fin 2) : (redM : Memref sig .tc .vmem S2x256x256 .bf16).view.setOn (redR h).set ⊆ (redSlot h).view.set :=
  (Finset.Subset.trans (View.set_slice (redM : Memref sig .tc .vmem S2x256x256 .bf16).view (redR h)).ge (incl_red_acc h))
theorem incl_red_load (h : Fin 2) : (redM : Memref sig .tc .vmem S2x256x256 .bf16).view.setOn (redR h).toLoadRect.set ⊆ (redSlot h).view.set :=
  incl_red h

theorem incl_rb_acc (h : Fin 2) (j : Fin 4) : ((rbM : Memref sig .tc .vmem S2x4x256x256 .bf16).access (r4R h j)).set ⊆ (rbSlot h j).view.set :=
  (View.set_reshape ((rbM : Memref sig .tc .vmem S2x4x256x256 .bf16).view.slice (r4R h j)) _).ge
theorem incl_rb (h : Fin 2) (j : Fin 4) : (rbM : Memref sig .tc .vmem S2x4x256x256 .bf16).view.setOn (r4R h j).set ⊆ (rbSlot h j).view.set :=
  (Finset.Subset.trans (View.set_slice (rbM : Memref sig .tc .vmem S2x4x256x256 .bf16).view (r4R h j)).ge (incl_rb_acc h j))
theorem incl_rb_load (h : Fin 2) (j : Fin 4) : (rbM : Memref sig .tc .vmem S2x4x256x256 .bf16).view.setOn (r4R h j).toLoadRect.set ⊆ (rbSlot h j).view.set :=
  incl_rb h j

theorem incl_r1_acc (h : Fin 2) (j : Fin 4) : ((r1M : Memref sig .tc .vmem S2x4x256x256 .bf16).access (r4R h j)).set ⊆ (r1Slot h j).view.set :=
  (View.set_reshape ((r1M : Memref sig .tc .vmem S2x4x256x256 .bf16).view.slice (r4R h j)) _).ge
theorem incl_r1 (h : Fin 2) (j : Fin 4) : (r1M : Memref sig .tc .vmem S2x4x256x256 .bf16).view.setOn (r4R h j).set ⊆ (r1Slot h j).view.set :=
  (Finset.Subset.trans (View.set_slice (r1M : Memref sig .tc .vmem S2x4x256x256 .bf16).view (r4R h j)).ge (incl_r1_acc h j))
theorem incl_r1_load (h : Fin 2) (j : Fin 4) : (r1M : Memref sig .tc .vmem S2x4x256x256 .bf16).view.setOn (r4R h j).toLoadRect.set ⊆ (r1Slot h j).view.set :=
  incl_r1 h j

theorem incl_r2_acc (h : Fin 2) (j : Fin 4) : ((r2M : Memref sig .tc .vmem S2x4x256x256 .bf16).access (r4R h j)).set ⊆ (r2Slot h j).view.set :=
  (View.set_reshape ((r2M : Memref sig .tc .vmem S2x4x256x256 .bf16).view.slice (r4R h j)) _).ge
theorem incl_r2 (h : Fin 2) (j : Fin 4) : (r2M : Memref sig .tc .vmem S2x4x256x256 .bf16).view.setOn (r4R h j).set ⊆ (r2Slot h j).view.set :=
  (Finset.Subset.trans (View.set_slice (r2M : Memref sig .tc .vmem S2x4x256x256 .bf16).view (r4R h j)).ge (incl_r2_acc h j))
theorem incl_r2_load (h : Fin 2) (j : Fin 4) : (r2M : Memref sig .tc .vmem S2x4x256x256 .bf16).view.setOn (r4R h j).toLoadRect.set ⊆ (r2Slot h j).view.set :=
  incl_r2 h j

/-- info: 'Cert.Kernel.Coll.rect_off20_3_256' depends on axioms: [propext, Classical.choice, Quot.sound] -/
#guard_msgs in #print axioms rect_off20_3_256

/-- info: 'Cert.Kernel.Coll.incl_rb_load' depends on axioms: [propext, Classical.choice, Quot.sound] -/
#guard_msgs in #print axioms incl_rb_load

end Cert.Kernel.Coll

end
-- ==== Proof.KRot.lean ====
/- Chains over the four coordinates of an axis, re-listed from the device's own coordinate: the chain itself, the four
   read shares of a sum block, and the four slots of a neighbour's receive buffer along x. -/
import proofs.«901051_g7700000000001052_dist_rsdw_v7x_xyz2x4x4_z_m1024_d1024_f4096_bf16_1_alg».proof.Proof.KSlotsRel
import proofs.«901051_g7700000000001052_dist_rsdw_v7x_xyz2x4x4_z_m1024_d1024_f4096_bf16_1_alg».proof.Proof.KSlotShares

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem chain_yrot (c : Dev nD) (Φ : Fin 4 → sProp 𝕄) :
    iprop(Φ 0 ∗ Φ 1 ∗ Φ 2 ∗ Φ 3) = iprop(Φ (yF c) ∗ Φ (yj c 1) ∗ Φ (yj c 2) ∗ Φ (yj c 3)) :=
  (bigSep_fin4 Φ).symm.trans (bigSep_yrot c Φ)

theorem chain_zrot (c : Dev nD) (Φ : Fin 4 → sProp 𝕄) :
    iprop(Φ 0 ∗ Φ 1 ∗ Φ 2 ∗ Φ 3) = iprop(Φ (zF c) ∗ Φ (zj c 1) ∗ Φ (zj c 2) ∗ Φ (zj c 3)) :=
  (bigSep_fin4 Φ).symm.trans (bigSep_zrot c Φ)

/-- The full share of a sum block as the remainder and the four read shares, the shares listed from the device's own y
    coordinate. -/
theorem red_shares_rel (c : Dev nD) (h : Fin 2) (f : Buf (Elt F) ((redSlot h).view.loc (c : Thread nD τ))) :
    slotPts (F := F) c (redSlot h) fullShare f
      ⊢ iprop(slotPts c (redSlot h) (Transfers.shareDrop fullShare 4) f ∗ slotPts c (redSlot h) (qS (yF c)) f ∗ slotPts c (redSlot h) (qS (yj c 1)) f
        ∗ slotPts c (redSlot h) (qS (yj c 2)) f ∗ slotPts c (redSlot h) (qS (yj c 3)) f) := by
  have e : iprop(slotPts (F := F) c (redSlot h) (qS 0) f ∗ slotPts c (redSlot h) (qS 1) f ∗ slotPts c (redSlot h) (qS 2) f ∗ slotPts c (redSlot h) (qS 3) f)
      = iprop(slotPts c (redSlot h) (qS (yF c)) f ∗ slotPts c (redSlot h) (qS (yj c 1)) f ∗ slotPts c (redSlot h) (qS (yj c 2)) f ∗ slotPts c (redSlot h) (qS (yj c 3)) f) :=
    chain_yrot c (fun j : Fin 4 => slotPts (F := F) c (redSlot h) (qS j) f)
  iintro H
  ihave H' := (red_shares c h f).1 $$ H
  icases H' with ⟨Hd, Ht⟩
  isplitl [Hd]
  · iexact Hd
  · iapply (Entails.of_eq e); iexact Ht

/-- The four slots of a half of a device's x-phase receive buffer, re-listed from another device's y coordinate. -/
theorem xslots_rel (c p : Dev nD) (h : Fin 2) :
    iprop(anyPts (F := F) p (r2Slot h 0) fullShare ∗ anyPts p (r2Slot h 1) fullShare ∗ anyPts p (r2Slot h 2) fullShare ∗ anyPts p (r2Slot h 3) fullShare)
      ⊢ iprop(anyPts p (r2Slot h (yF c)) fullShare ∗ anyPts p (r2Slot h (yj c 1)) fullShare ∗ anyPts p (r2Slot h (yj c 2)) fullShare ∗ anyPts p (r2Slot h (yj c 3)) fullShare) :=
  Entails.of_eq (chain_yrot c (fun j : Fin 4 => anyPts (F := F) p (r2Slot h j) fullShare))

/-- info: 'Cert.Kernel.Coll.red_shares_rel' depends on axioms: [propext, Classical.choice, Quot.sound] -/
#guard_msgs in #print axioms red_shares_rel

end Cert.Kernel.Coll

end
-- ==== Proof.KEpilogue.lean ====
/- The end of a device's body. Its forty-eight DMA cells, each past its one round (or, where the cell carries no
   transfer, at a round from which it has no duty), are closed and hand back their counters at zero; and the five scratch
   buffers, held slot by slot — a sum block as the remainder of the full share beside the four shares its transfers read
   through, a gathered block as the remainder beside the share its relay read through — join back to whole buffers at some
   contents: shares of the same elements agree on what they hold, so their contents need not be known to be the same. -/
import proofs.«901051_g7700000000001052_dist_rsdw_v7x_xyz2x4x4_z_m1024_d1024_f4096_bf16_1_alg».proof.Proof.KTables
import proofs.«901051_g7700000000001052_dist_rsdw_v7x_xyz2x4x4_z_m1024_d1024_f4096_bf16_1_alg».proof.Proof.KSlots
import proofs.«901051_g7700000000001052_dist_rsdw_v7x_xyz2x4x4_z_m1024_d1024_f4096_bf16_1_alg».proof.Proof.KSlotShares

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device holds when its last wait is over: each own DMA cell at the start of the round after its last (round 1 if
    the cell carried a transfer, round 0 if it never had a duty), and every slot of its scratch buffers at some contents —
    the sum blocks and the relayed gathered blocks by the shares they were cut into. -/
def endState (c : Dev nD) : sProp 𝕄 := iprop(
  (bigSep Finset.univ fun i : Fin 6 × Fin 2 × Fin 4 => atPos ER (dC c i.1 i.2.1 i.2.2) (if used c i.1 i.2.2 then 1 else 0) ∅ 0)
  ∗ (bigSep Finset.univ fun jh : Fin 4 × Fin 2 => anyPts (F := F) c (pbSlot jh.1 jh.2) fullShare)
  ∗ (bigSep Finset.univ fun h : Fin 2 => iprop(anyPts (F := F) c (redSlot h) (Transfers.shareDrop fullShare 4) ∗ bigSep Finset.univ fun j : Fin 4 => anyPts (F := F) c (redSlot h) (qS j)))
  ∗ (bigSep Finset.univ fun hj : Fin 2 × Fin 4 => anyPts (F := F) c (rbSlot hj.1 hj.2) fullShare)
  ∗ (bigSep Finset.univ fun hj : Fin 2 × Fin 4 => if hj.2 = yF c then anyPts (F := F) c (r1Slot hj.1 hj.2) fullShare else iprop(anyPts (F := F) c (r1Slot hj.1 hj.2) (Transfers.shareDrop fullShare 1) ∗ anyPts (F := F) c (r1Slot hj.1 hj.2) qR))
  ∗ (bigSep Finset.univ fun hj : Fin 2 × Fin 4 => anyPts (F := F) c (r2Slot hj.1 hj.2) fullShare))

/-! ## The cells close -/

/-- One own DMA cell: from its invariant and its position past its last duty, the counter at zero. -/
theorem cell_close_one (K : Dev nD × CK → ℕ) (c : Dev nD) (i : Fin 6 × Fin 2 × Fin 4) :
    iprop(cellInv ER (Rd (F := F) m) (K (c, some i)) (dC c i.1 i.2.1 i.2.2) ∗ atPos ER (dC c i.1 i.2.1 i.2.2) (if used c i.1 i.2.2 then 1 else 0) ∅ 0)
      ⊢ |={Set.univ}=> semVal (dC c i.1 i.2.1 i.2.2) 0 := by
  by_cases hu : used c i.1 i.2.2
  · rw [if_pos hu]
    exact Rounds.cell_close ER (Rd m) (Set.mem_univ _) (fun h => h) (R := 1) (duties_later m _)
  · rw [if_neg hu]
    exact Rounds.cell_close ER (Rd m) (Set.mem_univ _) (fun h => h) (R := 0) (duties_unused_all m c i.1 i.2.1 i.2.2 hu)

/-- All forty-eight. -/
theorem cells_close (K : Dev nD × CK → ℕ) (c : Dev nD) :
    iprop(records (F := F) m K ∗ bigSep Finset.univ fun i : Fin 6 × Fin 2 × Fin 4 => atPos ER (dC c i.1 i.2.1 i.2.2) (if used c i.1 i.2.2 then 1 else 0) ∅ 0)
      ⊢ |={Set.univ}=> bigSep Finset.univ fun i : Fin 6 × Fin 2 × Fin 4 => semVal (dC c i.1 i.2.1 i.2.2) 0 := by
  haveI : BI.Persistent (records (F := F) m K) := by unfold records; infer_instance
  have hinv : records (F := F) m K ⊢ bigSep Finset.univ fun i : Fin 6 × Fin 2 × Fin 4 => cellInv ER (Rd (F := F) m) (K (c, some i)) (dC c i.1 i.2.1 i.2.2) :=
    bigSep_intro_persistent fun i _ => by
      unfold records
      have h1 : ∀ (A B : sProp 𝕄), iprop(A ∗ B) ⊢ A := fun A B => by iintro ⟨H, -⟩; iexact H
      exact (h1 _ _).trans (bigSep_elim (Finset.mem_univ ((c, some i) : Dev nD × CK)))
  refine (sep_mono_left hinv).trans ?_
  rw [← bigSep_sep']
  exact (bigSep_mono fun i _ => cell_close_one m K c i).trans (bigSep_fupd _ _)

/-! ## The scratch buffers whole again -/

/-- The remainder after `k + 1` read shares and the `k`-th read share, each at some contents, are the remainder after `k`. -/
theorem any_join_tok {s : Shape} {e : EltTy} (c : Dev nD) (M : Memref sig .tc .vmem s e) (q : PosShare TreeShare) (k : ℕ) :
    iprop(anyPts (F := F) c M (Transfers.shareDrop q (k + 1)) ∗ anyPts (F := F) c M (Transfers.shareTokN q k))
      ⊢ anyPts (F := F) c M (Transfers.shareDrop q k) := by
  unfold anyPts slotPts
  exact join_any (PosShare.mem_left_op_right (Transfers.shareDrop q k))

/-- A sum block: the remainder and the four read shares are the block in full. -/
theorem red_half (c : Dev nD) (h : Fin 2) :
    iprop(anyPts (F := F) c (redSlot h) (Transfers.shareDrop fullShare 4) ∗ bigSep Finset.univ fun j : Fin 4 => anyPts (F := F) c (redSlot h) (qS j))
      ⊢ iprop(∃ f, slotPts (F := F) c (redSlot h) fullShare f) := by
  rw [bigSep_fin4]
  show iprop(anyPts (F := F) c (redSlot h) (Transfers.shareDrop fullShare 4) ∗ anyPts (F := F) c (redSlot h) (Transfers.shareTokN fullShare 0)
      ∗ anyPts (F := F) c (redSlot h) (Transfers.shareTokN fullShare 1) ∗ anyPts (F := F) c (redSlot h) (Transfers.shareTokN fullShare 2)
      ∗ anyPts (F := F) c (redSlot h) (Transfers.shareTokN fullShare 3))
    ⊢ anyPts (F := F) c (redSlot h) (Transfers.shareDrop fullShare 0)
  iintro ⟨D4, T0, T1, T2, T3⟩
  ihave D3 := (any_join_tok (F := F) c (redSlot h) fullShare 3) $$ [D4 T3]
  · isplitl [D4] <;> iassumption
  ihave D2 := (any_join_tok (F := F) c (redSlot h) fullShare 2) $$ [D3 T2]
  · isplitl [D3] <;> iassumption
  ihave D1 := (any_join_tok (F := F) c (redSlot h) fullShare 1) $$ [D2 T1]
  · isplitl [D2] <;> iassumption
  ihave D0 := (any_join_tok (F := F) c (redSlot h) fullShare 0) $$ [D1 T0]
  · isplitl [D1] <;> iassumption
  iexact D0

/-- A gathered block: whole, or the remainder beside the share its relay read through. -/
theorem r1_slot_whole (c : Dev nD) (hj : Fin 2 × Fin 4) :
    (if hj.2 = yF c then anyPts (F := F) c (r1Slot hj.1 hj.2) fullShare
      else iprop(anyPts (F := F) c (r1Slot hj.1 hj.2) (Transfers.shareDrop fullShare 1) ∗ anyPts (F := F) c (r1Slot hj.1 hj.2) qR))
      ⊢ iprop(∃ f, slotPts (F := F) c (r1Slot hj.1 hj.2) fullShare f) := by
  split
  · exact .rfl
  · exact any_join_tok (F := F) c (r1Slot hj.1 hj.2) fullShare 0

theorem scratch_whole (c : Dev nD) :
    iprop((bigSep Finset.univ fun jh : Fin 4 × Fin 2 => anyPts (F := F) c (pbSlot jh.1 jh.2) fullShare)
      ∗ (bigSep Finset.univ fun h : Fin 2 => iprop(anyPts (F := F) c (redSlot h) (Transfers.shareDrop fullShare 4) ∗ bigSep Finset.univ fun j : Fin 4 => anyPts (F := F) c (redSlot h) (qS j)))
      ∗ (bigSep Finset.univ fun hj : Fin 2 × Fin 4 => anyPts (F := F) c (rbSlot hj.1 hj.2) fullShare)
      ∗ (bigSep Finset.univ fun hj : Fin 2 × Fin 4 => if hj.2 = yF c then anyPts (F := F) c (r1Slot hj.1 hj.2) fullShare else iprop(anyPts (F := F) c (r1Slot hj.1 hj.2) (Transfers.shareDrop fullShare 1) ∗ anyPts (F := F) c (r1Slot hj.1 hj.2) qR))
      ∗ (bigSep Finset.univ fun hj : Fin 2 × Fin 4 => anyPts (F := F) c (r2Slot hj.1 hj.2) fullShare))
      ⊢ scratch (F := F) c := by
  have hred : (bigSep Finset.univ fun h : Fin 2 => iprop(anyPts (F := F) c (redSlot h) (Transfers.shareDrop fullShare 4) ∗ bigSep Finset.univ fun j : Fin 4 => anyPts (F := F) c (redSlot h) (qS j)))
      ⊢ iprop(∃ g, ((c : Thread nD τ).loc cc0_scratch1) ↦{fullShare} g) :=
    (bigSep_mono fun h _ => red_half (F := F) c h).trans (red_join (F := F) c)
  have hr1 : (bigSep Finset.univ fun hj : Fin 2 × Fin 4 => if hj.2 = yF c then anyPts (F := F) c (r1Slot hj.1 hj.2) fullShare else iprop(anyPts (F := F) c (r1Slot hj.1 hj.2) (Transfers.shareDrop fullShare 1) ∗ anyPts (F := F) c (r1Slot hj.1 hj.2) qR))
      ⊢ iprop(∃ g, ((c : Thread nD τ).loc cc0_scratch3) ↦{fullShare} g) :=
    (bigSep_mono fun hj _ => r1_slot_whole (F := F) c hj).trans (r1_join (F := F) c)
  unfold scratch
  iintro ⟨Hpb, Hred, Hrb, Hr1, Hr2⟩
  isplitl [Hpb]
  · iapply (pb_join (F := F) c); iexact Hpb
  isplitl [Hred]
  · iapply hred; iexact Hred
  isplitl [Hrb]
  · iapply (rb_join (F := F) c); iexact Hrb
  isplitl [Hr1]
  · iapply hr1; iexact Hr1
  · iapply (r2_join (F := F) c); iexact Hr2

/-! ## The end -/

theorem epilogue (K : Dev nD × CK → ℕ) (c : Dev nD) :
    iprop(records (F := F) m K ∗ endState (F := F) c) ⊢ |={Set.univ}=> Φ₁ (F := F) c := by
  unfold endState Φ₁
  iintro ⟨Hrec, Hat, Hpb, Hred, Hrb, Hr1, Hr2⟩
  imod (cells_close (F := F) m K c) $$ [Hrec Hat] with Hsem
  · isplitl [Hrec] <;> iassumption
  imodintro
  isplitl [Hpb Hred Hrb Hr1 Hr2]
  · iapply (scratch_whole (F := F) c)
    isplitl [Hpb]; · iexact Hpb
    isplitl [Hred]; · iexact Hred
    isplitl [Hrb]; · iexact Hrb
    isplitl [Hr1] <;> iassumption
  · iexact Hsem

/-- info: 'Cert.Kernel.Coll.epilogue' depends on axioms: [propext, Classical.choice, Quot.sound] -/
#guard_msgs in #print axioms epilogue

end Cert.Kernel.Coll

end
-- ==== Proof.KEndPos.lean ====
/- The positions a device holds at its end, written out cell by cell: the family of final positions — each own DMA cell at
   round 1 if it carried a transfer, at round 0 if it never had a duty — is the chain of those positions, array by array. -/
import proofs.«901051_g7700000000001052_dist_rsdw_v7x_xyz2x4x4_z_m1024_d1024_f4096_bf16_1_alg».proof.Proof.KFamilies

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The final positions -/

theorem chain_sep_eq {A A' B B' : sProp 𝕄} (hA : A = A') (hB : B = B') : iprop(A ∗ B) = iprop(A' ∗ B') := by rw [hA, hB]
theorem atPos_round_eq (g : GSem nD τ sig) {R R' : ℕ} (h : R = R') : (atPos ER g R ∅ 0 : sProp 𝕄) = atPos ER g R' ∅ 0 := by rw [h]

/-- The chain of a device's DMA cells, each past its last duty — at round 1 where the cell carried a transfer, at round 0
    where it never had a duty — is the family of its final positions. -/
theorem end_pos_eq (c : Dev nD) :
    (bigSep Finset.univ fun i : Fin 6 × Fin 2 × Fin 4 => (atPos ER (dC c i.1 i.2.1 i.2.2) (if used c i.1 i.2.2 then 1 else 0) ∅ 0 : sProp 𝕄))
      = iprop(((atPos ER (dC c 0 0 (zF c)) 0 ∅ 0 ∗ atPos ER (dC c 0 0 (zj c 1)) 1 ∅ 0 ∗ atPos ER (dC c 0 0 (zj c 2)) 1 ∅ 0 ∗ atPos ER (dC c 0 0 (zj c 3)) 1 ∅ 0) ∗ (atPos ER (dC c 0 1 (zF c)) 0 ∅ 0 ∗ atPos ER (dC c 0 1 (zj c 1)) 1 ∅ 0 ∗ atPos ER (dC c 0 1 (zj c 2)) 1 ∅ 0 ∗ atPos ER (dC c 0 1 (zj c 3)) 1 ∅ 0))
      ∗ ((atPos ER (dC c 1 0 (zF c)) 0 ∅ 0 ∗ atPos ER (dC c 1 0 (zj c 1)) 1 ∅ 0 ∗ atPos ER (dC c 1 0 (zj c 2)) 1 ∅ 0 ∗ atPos ER (dC c 1 0 (zj c 3)) 1 ∅ 0) ∗ (atPos ER (dC c 1 1 (zF c)) 0 ∅ 0 ∗ atPos ER (dC c 1 1 (zj c 1)) 1 ∅ 0 ∗ atPos ER (dC c 1 1 (zj c 2)) 1 ∅ 0 ∗ atPos ER (dC c 1 1 (zj c 3)) 1 ∅ 0))
      ∗ ((atPos ER (dC c 2 0 (yF c)) 0 ∅ 0 ∗ atPos ER (dC c 2 0 (yj c 1)) 1 ∅ 0 ∗ atPos ER (dC c 2 0 (yj c 2)) 1 ∅ 0 ∗ atPos ER (dC c 2 0 (yj c 3)) 1 ∅ 0) ∗ (atPos ER (dC c 2 1 (yF c)) 0 ∅ 0 ∗ atPos ER (dC c 2 1 (yj c 1)) 1 ∅ 0 ∗ atPos ER (dC c 2 1 (yj c 2)) 1 ∅ 0 ∗ atPos ER (dC c 2 1 (yj c 3)) 1 ∅ 0))
      ∗ ((atPos ER (dC c 3 0 (yF c)) 0 ∅ 0 ∗ atPos ER (dC c 3 0 (yj c 1)) 1 ∅ 0 ∗ atPos ER (dC c 3 0 (yj c 2)) 1 ∅ 0 ∗ atPos ER (dC c 3 0 (yj c 3)) 1 ∅ 0) ∗ (atPos ER (dC c 3 1 (yF c)) 0 ∅ 0 ∗ atPos ER (dC c 3 1 (yj c 1)) 1 ∅ 0 ∗ atPos ER (dC c 3 1 (yj c 2)) 1 ∅ 0 ∗ atPos ER (dC c 3 1 (yj c 3)) 1 ∅ 0))
      ∗ ((atPos ER (dC c 4 0 (yF c)) 1 ∅ 0 ∗ atPos ER (dC c 4 0 (yj c 1)) 1 ∅ 0 ∗ atPos ER (dC c 4 0 (yj c 2)) 1 ∅ 0 ∗ atPos ER (dC c 4 0 (yj c 3)) 1 ∅ 0) ∗ (atPos ER (dC c 4 1 (yF c)) 1 ∅ 0 ∗ atPos ER (dC c 4 1 (yj c 1)) 1 ∅ 0 ∗ atPos ER (dC c 4 1 (yj c 2)) 1 ∅ 0 ∗ atPos ER (dC c 4 1 (yj c 3)) 1 ∅ 0))
      ∗ ((atPos ER (dC c 5 0 0) 1 ∅ 0 ∗ atPos ER (dC c 5 0 1) 1 ∅ 0 ∗ atPos ER (dC c 5 0 2) 1 ∅ 0 ∗ atPos ER (dC c 5 0 3) 1 ∅ 0) ∗ (atPos ER (dC c 5 1 0) 1 ∅ 0 ∗ atPos ER (dC c 5 1 1) 1 ∅ 0 ∗ atPos ER (dC c 5 1 2) 1 ∅ 0 ∗ atPos ER (dC c 5 1 3) 1 ∅ 0))) := by
  have z0 : ∀ a : Fin 6, a.val < 2 → (if used c a (zF c) then 1 else 0) = 0 := fun a ha => if_neg fun h => (used_z c a ha _).mp h rfl
  have z1 : ∀ a : Fin 6, a.val < 2 → ∀ d : ℕ, d % 4 ≠ 0 → (if used c a (zj c d) then 1 else 0) = 1 := fun a ha d hd => if_pos ((used_z c a ha _).mpr (zj_ne c d hd))
  have y0 : ∀ a : Fin 6, ¬ a.val < 2 → a.val < 4 → (if used c a (yF c) then 1 else 0) = 0 := fun a ha ha' => if_neg fun h => (used_y c a ha ha' _).mp h rfl
  have y1 : ∀ a : Fin 6, ¬ a.val < 2 → a.val < 4 → ∀ d : ℕ, d % 4 ≠ 0 → (if used c a (yj c d) then 1 else 0) = 1 := fun a ha ha' d hd => if_pos ((used_y c a ha ha' _).mpr (yj_ne c d hd))
  have x1 : ∀ a : Fin 6, ¬ a.val < 2 → ¬ a.val < 4 → ∀ j : Fin 4, (if used c a j then 1 else 0) = 1 := fun a ha ha' j => if_pos (used_x c a ha ha' j)
  refine (bigSep_cells (F := F) c fun a h j => atPos ER (dC c a h j) (if used c a j then 1 else 0) ∅ 0).trans ?_
  exact (chain_sep_eq (chain_sep_eq (chain_sep_eq (atPos_round_eq _ (z0 0 (by decide))) (chain_sep_eq (atPos_round_eq _ (z1 0 (by decide) 1 (by decide))) (chain_sep_eq (atPos_round_eq _ (z1 0 (by decide) 2 (by decide))) (atPos_round_eq _ (z1 0 (by decide) 3 (by decide)))))) (chain_sep_eq (atPos_round_eq _ (z0 0 (by decide))) (chain_sep_eq (atPos_round_eq _ (z1 0 (by decide) 1 (by decide))) (chain_sep_eq (atPos_round_eq _ (z1 0 (by decide) 2 (by decide))) (atPos_round_eq _ (z1 0 (by decide) 3 (by decide)))))))
    (chain_sep_eq (chain_sep_eq (chain_sep_eq (atPos_round_eq _ (z0 1 (by decide))) (chain_sep_eq (atPos_round_eq _ (z1 1 (by decide) 1 (by decide))) (chain_sep_eq (atPos_round_eq _ (z1 1 (by decide) 2 (by decide))) (atPos_round_eq _ (z1 1 (by decide) 3 (by decide)))))) (chain_sep_eq (atPos_round_eq _ (z0 1 (by decide))) (chain_sep_eq (atPos_round_eq _ (z1 1 (by decide) 1 (by decide))) (chain_sep_eq (atPos_round_eq _ (z1 1 (by decide) 2 (by decide))) (atPos_round_eq _ (z1 1 (by decide) 3 (by decide)))))))
    (chain_sep_eq (chain_sep_eq (chain_sep_eq (atPos_round_eq _ (y0 2 (by decide) (by decide))) (chain_sep_eq (atPos_round_eq _ (y1 2 (by decide) (by decide) 1 (by decide))) (chain_sep_eq (atPos_round_eq _ (y1 2 (by decide) (by decide) 2 (by decide))) (atPos_round_eq _ (y1 2 (by decide) (by decide) 3 (by decide)))))) (chain_sep_eq (atPos_round_eq _ (y0 2 (by decide) (by decide))) (chain_sep_eq (atPos_round_eq _ (y1 2 (by decide) (by decide) 1 (by decide))) (chain_sep_eq (atPos_round_eq _ (y1 2 (by decide) (by decide) 2 (by decide))) (atPos_round_eq _ (y1 2 (by decide) (by decide) 3 (by decide)))))))
    (chain_sep_eq (chain_sep_eq (chain_sep_eq (atPos_round_eq _ (y0 3 (by decide) (by decide))) (chain_sep_eq (atPos_round_eq _ (y1 3 (by decide) (by decide) 1 (by decide))) (chain_sep_eq (atPos_round_eq _ (y1 3 (by decide) (by decide) 2 (by decide))) (atPos_round_eq _ (y1 3 (by decide) (by decide) 3 (by decide)))))) (chain_sep_eq (atPos_round_eq _ (y0 3 (by decide) (by decide))) (chain_sep_eq (atPos_round_eq _ (y1 3 (by decide) (by decide) 1 (by decide))) (chain_sep_eq (atPos_round_eq _ (y1 3 (by decide) (by decide) 2 (by decide))) (atPos_round_eq _ (y1 3 (by decide) (by decide) 3 (by decide)))))))
    (chain_sep_eq (chain_sep_eq (chain_sep_eq (atPos_round_eq _ (x1 4 (by decide) (by decide) (yF c))) (chain_sep_eq (atPos_round_eq _ (x1 4 (by decide) (by decide) (yj c 1))) (chain_sep_eq (atPos_round_eq _ (x1 4 (by decide) (by decide) (yj c 2))) (atPos_round_eq _ (x1 4 (by decide) (by decide) (yj c 3)))))) (chain_sep_eq (atPos_round_eq _ (x1 4 (by decide) (by decide) (yF c))) (chain_sep_eq (atPos_round_eq _ (x1 4 (by decide) (by decide) (yj c 1))) (chain_sep_eq (atPos_round_eq _ (x1 4 (by decide) (by decide) (yj c 2))) (atPos_round_eq _ (x1 4 (by decide) (by decide) (yj c 3)))))))
    (chain_sep_eq (chain_sep_eq (atPos_round_eq _ (x1 5 (by decide) (by decide) 0)) (chain_sep_eq (atPos_round_eq _ (x1 5 (by decide) (by decide) 1)) (chain_sep_eq (atPos_round_eq _ (x1 5 (by decide) (by decide) 2)) (atPos_round_eq _ (x1 5 (by decide) (by decide) 3))))) (chain_sep_eq (atPos_round_eq _ (x1 5 (by decide) (by decide) 0)) (chain_sep_eq (atPos_round_eq _ (x1 5 (by decide) (by decide) 1)) (chain_sep_eq (atPos_round_eq _ (x1 5 (by decide) (by decide) 2)) (atPos_round_eq _ (x1 5 (by decide) (by decide) 3)))))))))))

/-- The direction the end of the body uses. -/
theorem end_pos (c : Dev nD) :
    iprop(((atPos ER (dC c 0 0 (zF c)) 0 ∅ 0 ∗ atPos ER (dC c 0 0 (zj c 1)) 1 ∅ 0 ∗ atPos ER (dC c 0 0 (zj c 2)) 1 ∅ 0 ∗ atPos ER (dC c 0 0 (zj c 3)) 1 ∅ 0) ∗ (atPos ER (dC c 0 1 (zF c)) 0 ∅ 0 ∗ atPos ER (dC c 0 1 (zj c 1)) 1 ∅ 0 ∗ atPos ER (dC c 0 1 (zj c 2)) 1 ∅ 0 ∗ atPos ER (dC c 0 1 (zj c 3)) 1 ∅ 0))
      ∗ ((atPos ER (dC c 1 0 (zF c)) 0 ∅ 0 ∗ atPos ER (dC c 1 0 (zj c 1)) 1 ∅ 0 ∗ atPos ER (dC c 1 0 (zj c 2)) 1 ∅ 0 ∗ atPos ER (dC c 1 0 (zj c 3)) 1 ∅ 0) ∗ (atPos ER (dC c 1 1 (zF c)) 0 ∅ 0 ∗ atPos ER (dC c 1 1 (zj c 1)) 1 ∅ 0 ∗ atPos ER (dC c 1 1 (zj c 2)) 1 ∅ 0 ∗ atPos ER (dC c 1 1 (zj c 3)) 1 ∅ 0))
      ∗ ((atPos ER (dC c 2 0 (yF c)) 0 ∅ 0 ∗ atPos ER (dC c 2 0 (yj c 1)) 1 ∅ 0 ∗ atPos ER (dC c 2 0 (yj c 2)) 1 ∅ 0 ∗ atPos ER (dC c 2 0 (yj c 3)) 1 ∅ 0) ∗ (atPos ER (dC c 2 1 (yF c)) 0 ∅ 0 ∗ atPos ER (dC c 2 1 (yj c 1)) 1 ∅ 0 ∗ atPos ER (dC c 2 1 (yj c 2)) 1 ∅ 0 ∗ atPos ER (dC c 2 1 (yj c 3)) 1 ∅ 0))
      ∗ ((atPos ER (dC c 3 0 (yF c)) 0 ∅ 0 ∗ atPos ER (dC c 3 0 (yj c 1)) 1 ∅ 0 ∗ atPos ER (dC c 3 0 (yj c 2)) 1 ∅ 0 ∗ atPos ER (dC c 3 0 (yj c 3)) 1 ∅ 0) ∗ (atPos ER (dC c 3 1 (yF c)) 0 ∅ 0 ∗ atPos ER (dC c 3 1 (yj c 1)) 1 ∅ 0 ∗ atPos ER (dC c 3 1 (yj c 2)) 1 ∅ 0 ∗ atPos ER (dC c 3 1 (yj c 3)) 1 ∅ 0))
      ∗ ((atPos ER (dC c 4 0 (yF c)) 1 ∅ 0 ∗ atPos ER (dC c 4 0 (yj c 1)) 1 ∅ 0 ∗ atPos ER (dC c 4 0 (yj c 2)) 1 ∅ 0 ∗ atPos ER (dC c 4 0 (yj c 3)) 1 ∅ 0) ∗ (atPos ER (dC c 4 1 (yF c)) 1 ∅ 0 ∗ atPos ER (dC c 4 1 (yj c 1)) 1 ∅ 0 ∗ atPos ER (dC c 4 1 (yj c 2)) 1 ∅ 0 ∗ atPos ER (dC c 4 1 (yj c 3)) 1 ∅ 0))
      ∗ ((atPos ER (dC c 5 0 0) 1 ∅ 0 ∗ atPos ER (dC c 5 0 1) 1 ∅ 0 ∗ atPos ER (dC c 5 0 2) 1 ∅ 0 ∗ atPos ER (dC c 5 0 3) 1 ∅ 0) ∗ (atPos ER (dC c 5 1 0) 1 ∅ 0 ∗ atPos ER (dC c 5 1 1) 1 ∅ 0 ∗ atPos ER (dC c 5 1 2) 1 ∅ 0 ∗ atPos ER (dC c 5 1 3) 1 ∅ 0)))
      ⊢ (bigSep Finset.univ fun i : Fin 6 × Fin 2 × Fin 4 => (atPos ER (dC c i.1 i.2.1 i.2.2) (if used c i.1 i.2.2 then 1 else 0) ∅ 0 : sProp 𝕄)) :=
  Entails.of_eq (end_pos_eq c).symm

/-- info: 'Cert.Kernel.Coll.end_pos_eq' depends on axioms: [propext, Classical.choice, Quot.sound] -/
#guard_msgs in #print axioms end_pos_eq

end Cert.Kernel.Coll

end
-- ==== Proof.KEpilogueRel.lean ====
/- The end of a device's body once more, from what the body holds as it stands there: its final positions and the slots of
   its scratch buffers as chains, listed array by array and by the coordinate counted from the device's own. -/
import proofs.«901051_g7700000000001052_dist_rsdw_v7x_xyz2x4x4_z_m1024_d1024_f4096_bf16_1_alg».proof.Proof.KEpilogue
import proofs.«901051_g7700000000001052_dist_rsdw_v7x_xyz2x4x4_z_m1024_d1024_f4096_bf16_1_alg».proof.Proof.KEndPos
import proofs.«901051_g7700000000001052_dist_rsdw_v7x_xyz2x4x4_z_m1024_d1024_f4096_bf16_1_alg».proof.Proof.KSlotsRel
import proofs.«901051_g7700000000001052_dist_rsdw_v7x_xyz2x4x4_z_m1024_d1024_f4096_bf16_1_alg».proof.Proof.KRot

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The scratch buffers from the chains of their slots -/

/-- A slot at some contents, spelt out. -/
theorem any_ex {s : Shape} {e : EltTy} (c : Dev nD) (M : Memref sig .tc .vmem s e) (q : PosShare TreeShare) :
    anyPts (F := F) c M q ⊢ iprop(∃ f, slotPts (F := F) c M q f) := by
  unfold anyPts; exact .rfl

/-- A sum block: the remainder and the four read shares, listed from the device's own y coordinate. -/
theorem red_half_rel (c : Dev nD) (h : Fin 2) :
    iprop(anyPts (F := F) c (redSlot h) (Transfers.shareDrop fullShare 4) ∗ anyPts (F := F) c (redSlot h) (qS (yF c)) ∗ anyPts (F := F) c (redSlot h) (qS (yj c 1)) ∗ anyPts (F := F) c (redSlot h) (qS (yj c 2)) ∗ anyPts (F := F) c (redSlot h) (qS (yj c 3)))
      ⊢ iprop(∃ f, slotPts (F := F) c (redSlot h) fullShare f) :=
  (sep_mono_right (Entails.of_eq (bigSep_yrot c (fun j : Fin 4 => anyPts (F := F) c (redSlot h) (qS j))).symm)).trans (red_half (F := F) c h)

/-- One half of the y phase's receive buffer: the device's own slot whole, the three gathered blocks each as the remainder
    beside the share its relay read through. -/
theorem r1_half_rel (c : Dev nD) (h : Fin 2) :
    iprop(anyPts (F := F) c (r1Slot h (yF c)) fullShare ∗ (anyPts (F := F) c (r1Slot h (yj c 1)) (Transfers.shareDrop fullShare 1) ∗ anyPts (F := F) c (r1Slot h (yj c 1)) qR) ∗ (anyPts (F := F) c (r1Slot h (yj c 2)) (Transfers.shareDrop fullShare 1) ∗ anyPts (F := F) c (r1Slot h (yj c 2)) qR) ∗ (anyPts (F := F) c (r1Slot h (yj c 3)) (Transfers.shareDrop fullShare 1) ∗ anyPts (F := F) c (r1Slot h (yj c 3)) qR))
      ⊢ iprop((∃ f, slotPts (F := F) c (r1Slot h (yF c)) fullShare f) ∗ (∃ f, slotPts (F := F) c (r1Slot h (yj c 1)) fullShare f) ∗ (∃ f, slotPts (F := F) c (r1Slot h (yj c 2)) fullShare f) ∗ (∃ f, slotPts (F := F) c (r1Slot h (yj c 3)) fullShare f)) :=
  BIClass.sep_mono (any_ex (F := F) c (r1Slot h (yF c)) fullShare) (BIClass.sep_mono (any_join_tok (F := F) c (r1Slot h (yj c 1)) fullShare 0)
    (BIClass.sep_mono (any_join_tok (F := F) c (r1Slot h (yj c 2)) fullShare 0) (any_join_tok (F := F) c (r1Slot h (yj c 3)) fullShare 0)))

theorem scratch_rel (c : Dev nD) :
    iprop(((anyPts (F := F) c (pbSlot (zF c) 0) fullShare ∗ anyPts (F := F) c (pbSlot (zj c 1) 0) fullShare ∗ anyPts (F := F) c (pbSlot (zj c 2) 0) fullShare ∗ anyPts (F := F) c (pbSlot (zj c 3) 0) fullShare) ∗ (anyPts (F := F) c (pbSlot (zF c) 1) fullShare ∗ anyPts (F := F) c (pbSlot (zj c 1) 1) fullShare ∗ anyPts (F := F) c (pbSlot (zj c 2) 1) fullShare ∗ anyPts (F := F) c (pbSlot (zj c 3) 1) fullShare))
      ∗ ((anyPts (F := F) c (redSlot 0) (Transfers.shareDrop fullShare 4) ∗ anyPts (F := F) c (redSlot 0) (qS (yF c)) ∗ anyPts (F := F) c (redSlot 0) (qS (yj c 1)) ∗ anyPts (F := F) c (redSlot 0) (qS (yj c 2)) ∗ anyPts (F := F) c (redSlot 0) (qS (yj c 3))) ∗ (anyPts (F := F) c (redSlot 1) (Transfers.shareDrop fullShare 4) ∗ anyPts (F := F) c (redSlot 1) (qS (yF c)) ∗ anyPts (F := F) c (redSlot 1) (qS (yj c 1)) ∗ anyPts (F := F) c (redSlot 1) (qS (yj c 2)) ∗ anyPts (F := F) c (redSlot 1) (qS (yj c 3))))
      ∗ ((anyPts (F := F) c (rbSlot 0 (zF c)) fullShare ∗ anyPts (F := F) c (rbSlot 0 (zj c 1)) fullShare ∗ anyPts (F := F) c (rbSlot 0 (zj c 2)) fullShare ∗ anyPts (F := F) c (rbSlot 0 (zj c 3)) fullShare) ∗ (anyPts (F := F) c (rbSlot 1 (zF c)) fullShare ∗ anyPts (F := F) c (rbSlot 1 (zj c 1)) fullShare ∗ anyPts (F := F) c (rbSlot 1 (zj c 2)) fullShare ∗ anyPts (F := F) c (rbSlot 1 (zj c 3)) fullShare))
      ∗ ((anyPts (F := F) c (r1Slot 0 (yF c)) fullShare ∗ (anyPts (F := F) c (r1Slot 0 (yj c 1)) (Transfers.shareDrop fullShare 1) ∗ anyPts (F := F) c (r1Slot 0 (yj c 1)) qR) ∗ (anyPts (F := F) c (r1Slot 0 (yj c 2)) (Transfers.shareDrop fullShare 1) ∗ anyPts (F := F) c (r1Slot 0 (yj c 2)) qR) ∗ (anyPts (F := F) c (r1Slot 0 (yj c 3)) (Transfers.shareDrop fullShare 1) ∗ anyPts (F := F) c (r1Slot 0 (yj c 3)) qR)) ∗ (anyPts (F := F) c (r1Slot 1 (yF c)) fullShare ∗ (anyPts (F := F) c (r1Slot 1 (yj c 1)) (Transfers.shareDrop fullShare 1) ∗ anyPts (F := F) c (r1Slot 1 (yj c 1)) qR) ∗ (anyPts (F := F) c (r1Slot 1 (yj c 2)) (Transfers.shareDrop fullShare 1) ∗ anyPts (F := F) c (r1Slot 1 (yj c 2)) qR) ∗ (anyPts (F := F) c (r1Slot 1 (yj c 3)) (Transfers.shareDrop fullShare 1) ∗ anyPts (F := F) c (r1Slot 1 (yj c 3)) qR)))
      ∗ ((anyPts (F := F) c (r2Slot 0 0) fullShare ∗ anyPts (F := F) c (r2Slot 0 1) fullShare ∗ anyPts (F := F) c (r2Slot 0 2) fullShare ∗ anyPts (F := F) c (r2Slot 0 3) fullShare) ∗ (anyPts (F := F) c (r2Slot 1 0) fullShare ∗ anyPts (F := F) c (r2Slot 1 1) fullShare ∗ anyPts (F := F) c (r2Slot 1 2) fullShare ∗ anyPts (F := F) c (r2Slot 1 3) fullShare)))
      ⊢ scratch (F := F) c := by
  unfold scratch
  exact BIClass.sep_mono (pb_rel_join (F := F) c)
    (BIClass.sep_mono ((BIClass.sep_mono (red_half_rel (F := F) c 0) (red_half_rel (F := F) c 1)).trans (red_two_join (F := F) c))
    (BIClass.sep_mono (rb_rel_join (F := F) c)
    (BIClass.sep_mono ((BIClass.sep_mono (r1_half_rel (F := F) c 0) (r1_half_rel (F := F) c 1)).trans (r1_rel_join (F := F) c))
    (r2_abs_join (F := F) c))))

/-! ## The end -/

theorem epilogue_rel (K : Dev nD × CK → ℕ) (c : Dev nD) :
    iprop(records (F := F) m K
      ∗ (((atPos ER (dC c 0 0 (zF c)) 0 ∅ 0 ∗ atPos ER (dC c 0 0 (zj c 1)) 1 ∅ 0 ∗ atPos ER (dC c 0 0 (zj c 2)) 1 ∅ 0 ∗ atPos ER (dC c 0 0 (zj c 3)) 1 ∅ 0) ∗ (atPos ER (dC c 0 1 (zF c)) 0 ∅ 0 ∗ atPos ER (dC c 0 1 (zj c 1)) 1 ∅ 0 ∗ atPos ER (dC c 0 1 (zj c 2)) 1 ∅ 0 ∗ atPos ER (dC c 0 1 (zj c 3)) 1 ∅ 0))
      ∗ ((atPos ER (dC c 1 0 (zF c)) 0 ∅ 0 ∗ atPos ER (dC c 1 0 (zj c 1)) 1 ∅ 0 ∗ atPos ER (dC c 1 0 (zj c 2)) 1 ∅ 0 ∗ atPos ER (dC c 1 0 (zj c 3)) 1 ∅ 0) ∗ (atPos ER (dC c 1 1 (zF c)) 0 ∅ 0 ∗ atPos ER (dC c 1 1 (zj c 1)) 1 ∅ 0 ∗ atPos ER (dC c 1 1 (zj c 2)) 1 ∅ 0 ∗ atPos ER (dC c 1 1 (zj c 3)) 1 ∅ 0))
      ∗ ((atPos ER (dC c 2 0 (yF c)) 0 ∅ 0 ∗ atPos ER (dC c 2 0 (yj c 1)) 1 ∅ 0 ∗ atPos ER (dC c 2 0 (yj c 2)) 1 ∅ 0 ∗ atPos ER (dC c 2 0 (yj c 3)) 1 ∅ 0) ∗ (atPos ER (dC c 2 1 (yF c)) 0 ∅ 0 ∗ atPos ER (dC c 2 1 (yj c 1)) 1 ∅ 0 ∗ atPos ER (dC c 2 1 (yj c 2)) 1 ∅ 0 ∗ atPos ER (dC c 2 1 (yj c 3)) 1 ∅ 0))
      ∗ ((atPos ER (dC c 3 0 (yF c)) 0 ∅ 0 ∗ atPos ER (dC c 3 0 (yj c 1)) 1 ∅ 0 ∗ atPos ER (dC c 3 0 (yj c 2)) 1 ∅ 0 ∗ atPos ER (dC c 3 0 (yj c 3)) 1 ∅ 0) ∗ (atPos ER (dC c 3 1 (yF c)) 0 ∅ 0 ∗ atPos ER (dC c 3 1 (yj c 1)) 1 ∅ 0 ∗ atPos ER (dC c 3 1 (yj c 2)) 1 ∅ 0 ∗ atPos ER (dC c 3 1 (yj c 3)) 1 ∅ 0))
      ∗ ((atPos ER (dC c 4 0 (yF c)) 1 ∅ 0 ∗ atPos ER (dC c 4 0 (yj c 1)) 1 ∅ 0 ∗ atPos ER (dC c 4 0 (yj c 2)) 1 ∅ 0 ∗ atPos ER (dC c 4 0 (yj c 3)) 1 ∅ 0) ∗ (atPos ER (dC c 4 1 (yF c)) 1 ∅ 0 ∗ atPos ER (dC c 4 1 (yj c 1)) 1 ∅ 0 ∗ atPos ER (dC c 4 1 (yj c 2)) 1 ∅ 0 ∗ atPos ER (dC c 4 1 (yj c 3)) 1 ∅ 0))
      ∗ ((atPos ER (dC c 5 0 0) 1 ∅ 0 ∗ atPos ER (dC c 5 0 1) 1 ∅ 0 ∗ atPos ER (dC c 5 0 2) 1 ∅ 0 ∗ atPos ER (dC c 5 0 3) 1 ∅ 0) ∗ (atPos ER (dC c 5 1 0) 1 ∅ 0 ∗ atPos ER (dC c 5 1 1) 1 ∅ 0 ∗ atPos ER (dC c 5 1 2) 1 ∅ 0 ∗ atPos ER (dC c 5 1 3) 1 ∅ 0)))
      ∗ ((anyPts (F := F) c (pbSlot (zF c) 0) fullShare ∗ anyPts (F := F) c (pbSlot (zj c 1) 0) fullShare ∗ anyPts (F := F) c (pbSlot (zj c 2) 0) fullShare ∗ anyPts (F := F) c (pbSlot (zj c 3) 0) fullShare) ∗ (anyPts (F := F) c (pbSlot (zF c) 1) fullShare ∗ anyPts (F := F) c (pbSlot (zj c 1) 1) fullShare ∗ anyPts (F := F) c (pbSlot (zj c 2) 1) fullShare ∗ anyPts (F := F) c (pbSlot (zj c 3) 1) fullShare))
      ∗ ((anyPts (F := F) c (redSlot 0) (Transfers.shareDrop fullShare 4) ∗ anyPts (F := F) c (redSlot 0) (qS (yF c)) ∗ anyPts (F := F) c (redSlot 0) (qS (yj c 1)) ∗ anyPts (F := F) c (redSlot 0) (qS (yj c 2)) ∗ anyPts (F := F) c (redSlot 0) (qS (yj c 3))) ∗ (anyPts (F := F) c (redSlot 1) (Transfers.shareDrop fullShare 4) ∗ anyPts (F := F) c (redSlot 1) (qS (yF c)) ∗ anyPts (F := F) c (redSlot 1) (qS (yj c 1)) ∗ anyPts (F := F) c (redSlot 1) (qS (yj c 2)) ∗ anyPts (F := F) c (redSlot 1) (qS (yj c 3))))
      ∗ ((anyPts (F := F) c (rbSlot 0 (zF c)) fullShare ∗ anyPts (F := F) c (rbSlot 0 (zj c 1)) fullShare ∗ anyPts (F := F) c (rbSlot 0 (zj c 2)) fullShare ∗ anyPts (F := F) c (rbSlot 0 (zj c 3)) fullShare) ∗ (anyPts (F := F) c (rbSlot 1 (zF c)) fullShare ∗ anyPts (F := F) c (rbSlot 1 (zj c 1)) fullShare ∗ anyPts (F := F) c (rbSlot 1 (zj c 2)) fullShare ∗ anyPts (F := F) c (rbSlot 1 (zj c 3)) fullShare))
      ∗ ((anyPts (F := F) c (r1Slot 0 (yF c)) fullShare ∗ (anyPts (F := F) c (r1Slot 0 (yj c 1)) (Transfers.shareDrop fullShare 1) ∗ anyPts (F := F) c (r1Slot 0 (yj c 1)) qR) ∗ (anyPts (F := F) c (r1Slot 0 (yj c 2)) (Transfers.shareDrop fullShare 1) ∗ anyPts (F := F) c (r1Slot 0 (yj c 2)) qR) ∗ (anyPts (F := F) c (r1Slot 0 (yj c 3)) (Transfers.shareDrop fullShare 1) ∗ anyPts (F := F) c (r1Slot 0 (yj c 3)) qR)) ∗ (anyPts (F := F) c (r1Slot 1 (yF c)) fullShare ∗ (anyPts (F := F) c (r1Slot 1 (yj c 1)) (Transfers.shareDrop fullShare 1) ∗ anyPts (F := F) c (r1Slot 1 (yj c 1)) qR) ∗ (anyPts (F := F) c (r1Slot 1 (yj c 2)) (Transfers.shareDrop fullShare 1) ∗ anyPts (F := F) c (r1Slot 1 (yj c 2)) qR) ∗ (anyPts (F := F) c (r1Slot 1 (yj c 3)) (Transfers.shareDrop fullShare 1) ∗ anyPts (F := F) c (r1Slot 1 (yj c 3)) qR)))
      ∗ ((anyPts (F := F) c (r2Slot 0 0) fullShare ∗ anyPts (F := F) c (r2Slot 0 1) fullShare ∗ anyPts (F := F) c (r2Slot 0 2) fullShare ∗ anyPts (F := F) c (r2Slot 0 3) fullShare) ∗ (anyPts (F := F) c (r2Slot 1 0) fullShare ∗ anyPts (F := F) c (r2Slot 1 1) fullShare ∗ anyPts (F := F) c (r2Slot 1 2) fullShare ∗ anyPts (F := F) c (r2Slot 1 3) fullShare)))
      ⊢ |={Set.univ}=> Φ₁ (F := F) c := by
  unfold Φ₁
  iintro ⟨Hrec, Hpos, Hpb, Hred, Hrb, Hr1, Hr2⟩
  ihave Hat := (end_pos (F := F) c) $$ Hpos
  imod (cells_close (F := F) m K c) $$ [Hrec Hat] with Hsem
  · isplitl [Hrec] <;> iassumption
  imodintro
  isplitl [Hpb Hred Hrb Hr1 Hr2]
  · iapply (scratch_rel (F := F) c)
    isplitl [Hpb]; · iexact Hpb
    isplitl [Hred]; · iexact Hred
    isplitl [Hrb]; · iexact Hrb
    isplitl [Hr1] <;> iassumption
  · iexact Hsem

/-- info: 'Cert.Kernel.Coll.epilogue_rel' depends on axioms: [propext, Classical.choice, Quot.sound] -/
#guard_msgs in #print axioms epilogue_rel

end Cert.Kernel.Coll

end
-- ==== Proof.KWire2.lean ====
/- The partial-product buffer and the result held as a list of stores over some earlier contents: after the two
   stores of 1024 rows, each 256 × 256 block of the partial products reads its rows of its half's payload; after stores
   that lay each of the sixteen pieces of the device's result on its rectangle, in any order and however the rectangles'
   offsets are spelt, the buffer holds the device's result. -/
import proofs.«901051_g7700000000001052_dist_rsdw_v7x_xyz2x4x4_z_m1024_d1024_f4096_bf16_1_alg».proof.Proof.KWire
import Idealize.ShloMosaic.Lib.Writes

noncomputable section

namespace Cert.Kernel.Coll

open Cert.Kernel Cert.Kernel.Gen Cert.Kernel.Mesh

open Idealize.ShloMosaic
open Idealize.ShloMosaic.TcCoe
open Idealize.ShloMosaic.ValueIdx
open Wire

variable {F : FTy → Type} [FloatOps F]

/-! ## The partial products after their two stores (the later store first in the list) -/

theorem pb_writes (f0 : (cc0_scratch0 : Ref sig .tc).ty.Contents (Elt F)) (w0 w1 : Vec F S1024x256 .bf16) (j : Fin 4) :
    (pbSlot j 0).view.read (Elt F)
        ((pbM : Memref sig .tc .vmem S1024x512 .bf16).view.writes (Elt F) f0 [⟨Wire.pbH1, w1⟩, ⟨Wire.pbH0, w0⟩]) = Wire.rows4 w0 j
    ∧ (pbSlot j 1).view.read (Elt F)
        ((pbM : Memref sig .tc .vmem S1024x512 .bf16).view.writes (Elt F) f0 [⟨Wire.pbH1, w1⟩, ⟨Wire.pbH0, w0⟩]) = Wire.rows4 w1 j :=
  Wire.pb_after' f0 w0 w1 j

/-- With the device's partial products as the payloads, every block holds its value. -/
theorem pb_writes_val (m : (ℓ : Loc nD τ sig) → Buf (Elt F) ℓ) (c : Dev nD) (f0 : (cc0_scratch0 : Ref sig .tc).ty.Contents (Elt F))
    (j : Fin 4) (h : Fin 2) :
    (pbSlot j h).view.read (Elt F)
        ((pbM : Memref sig .tc .vmem S1024x512 .bf16).view.writes (Elt F) f0 [⟨Wire.pbH1, pbFull m c 1⟩, ⟨Wire.pbH0, pbFull m c 0⟩])
      = pbVal m c j h :=
  pb_after m c f0 j h

/-! ## A load of a whole argument block -/

theorem Wire.vec00 : (![0, 0] : Fin 2 → ℕ) = fun _ => 0 := by
  funext a
  match a with
  | ⟨0, _⟩ => rfl
  | ⟨1, _⟩ => rfl

theorem x_readAt (f : (cc0_stg0_0 : Ref sig .tc).ty.Contents (Elt F)) :
    (xM : Memref sig .tc .vmem S1024x1024 .f32).view.readAt (Elt F)
        (Rect.unit (s := S1024x1024) ![0, 0] S1024x1024.size inb_S1024x1024_S1024x1024_0_0).toLoadRect f = f :=
  Memref.readAt_unit_zero (Elt F) (cc0_stg0_0 : Ref sig .tc) (off := ![0, 0]) Wire.vec00 inb_S1024x1024_S1024x1024_0_0 f

/-! ## The result after its sixteen stores -/

variable (m : (ℓ : Loc nD τ sig) → Buf (Elt F) ℓ)

/-- A store at offsets equal to piece (q, h)'s, of that piece's value: its payload is the device's result on its
    rectangle, and its rectangle has piece (q, h)'s elements. -/
theorem out_piece_ok (c : Dev nD) (q : Fin 8) (h : Fin 2) {off : Fin 2 → ℕ} {n : ℕ} (hoff : off = ![0, n])
    (hn : n = 512 * q.val + 256 * h.val) (inb : ∀ a, off a + S256x256.size a ≤ S256x4096.size a)
    (w : Vec F S256x256 .f32) (hw : w = outPiece m c q h) :
    (∀ x : S256x256.Idx, w x = outAt m c ((Rect.unit (s := S256x4096) off S256x256.size inb).emb x))
      ∧ (Rect.unit (s := S256x4096) off S256x256.size inb).set = (oR q h).set := by
  subst hn; subst hoff; subst hw
  exact ⟨fun x => (outAt_piece m c q h x).symm, rfl⟩

/-- The eight column blocks of a device's result: its own, those of the three devices further along y, and those of the
    four devices on the other side of x. -/
theorem q_cases : ∀ (c : Dev nD) (q : Fin 8),
    q = qOwn c ∨ q = qY c 1 ∨ q = qY c 2 ∨ q = qY c 3 ∨ q = qX c 0 ∨ q = qX c 1 ∨ q = qX c 2 ∨ q = qX c 3 := by
  decide

/-- Stores whose payloads are the device's result on their rectangles, and among whose rectangles each of the sixteen
    pieces' occurs, leave the device's result, whatever the buffer held and in whatever order they were made. -/
theorem out_writes (c : Dev nD) (g : (cc0_stg2_0 : Ref sig .tc).ty.Contents (Elt F))
    (L : List (View.Piece (Elt F) S256x4096 .f32))
    (hL : ∀ p ∈ L, ∀ x : p.1.shape.Idx, p.2 x = outAt m c (p.1.emb x))
    (hcov : ∀ (q : Fin 8) (h : Fin 2), ∃ p ∈ L, p.1.set = (oR q h).set) :
    (oM : Memref sig .tc .vmem S256x4096 .f32).view.writes (Elt F) g L = outAt m c := by
  funext y
  have hy : y ∈ (Finset.univ : Finset (Fin 8 × Fin 2)).biUnion (fun qh => (oR qh.1 qh.2).set) := by
    rw [out_cover]; exact Finset.mem_univ y
  obtain ⟨qh, -, hyq⟩ := Finset.mem_biUnion.mp hy
  obtain ⟨p, hp, hset⟩ := hcov qh.1 qh.2
  exact View.read_writes_apply_of_pieces (oM : Memref sig .tc .vmem S256x4096 .f32).view g (outAt m c) L hL y
    ⟨p, hp, hset ▸ hyq⟩

/-- In particular the sixteen pieces themselves, listed in any order. -/
theorem out_writes_pairs (c : Dev nD) (g : (cc0_stg2_0 : Ref sig .tc).ty.Contents (Elt F)) (P : List (Fin 8 × Fin 2))
    (hP : ∀ qh : Fin 8 × Fin 2, qh ∈ P) :
    (oM : Memref sig .tc .vmem S256x4096 .f32).view.writes (Elt F) g
        (P.map fun qh => (⟨oR qh.1 qh.2, outPiece m c qh.1 qh.2⟩ : View.Piece (Elt F) S256x4096 .f32)) = outAt m c :=
  out_writes m c g _
    (fun p hp => by
      obtain ⟨qh, -, rfl⟩ := List.mem_map.mp hp
      exact fun x => (outAt_piece m c qh.1 qh.2 x).symm)
    (fun q h => ⟨_, List.mem_map.mpr ⟨(q, h), hP (q, h), rfl⟩, rfl⟩)

/-- info: 'Cert.Kernel.Coll.out_writes' depends on axioms: [propext, Classical.choice, Quot.sound] -/
#guard_msgs in #print axioms out_writes

/-- info: 'Cert.Kernel.Coll.pb_writes' depends on axioms: [propext, Classical.choice, Quot.sound] -/
#guard_msgs in #print axioms pb_writes

end Cert.Kernel.Coll

end
-- ==== Proof.KValA.lean ====
/- The contents a device's body leaves in its partial-product buffer and in its result, as values: the two stores of
   the products of its block of x with the two halves of its columns of dy leave every block of the partial products at
   its value; the sixteen stores of the result — its own two sums, the six blocks gathered along y and the eight
   exchanged along x, each widened — leave the device's result. -/
import proofs.«901051_g7700000000001052_dist_rsdw_v7x_xyz2x4x4_z_m1024_d1024_f4096_bf16_1_alg».proof.Proof.KWire2
import proofs.«901051_g7700000000001052_dist_rsdw_v7x_xyz2x4x4_z_m1024_d1024_f4096_bf16_1_alg».proof.Proof.KIncl

noncomputable section

namespace Cert.Kernel.Coll

open Cert.Kernel Cert.Kernel.Gen Cert.Kernel.Mesh

open Idealize.ShloMosaic
open Idealize.ShloMosaic.TcCoe
open Idealize.ShloMosaic.ValueIdx
open Wire

variable {F : FTy → Type} [FloatOps F]

variable (m : (ℓ : Loc nD τ sig) → Buf (Elt F) ℓ)

/-! ## The partial products -/

theorem Wire.pb_fact' (c : Dev nD) (f0 : (cc0_scratch0 : Ref sig .tc).ty.Contents (Elt F)) (j : Fin 4) (h : Fin 2)
    (X : Vec F S1024x1024 .f32) (hX : X = xV m c) :
    (pbSlot j h).view.read (Elt F) ((Memref.whole cc0_scratch0).view.writes (Elt F) f0
      (⟨Rect.unit (s := S1024x512) ![0, 256] S1024x256.size inb_S1024x512_S1024x256_0_256, k0_pay3 (k0_pay1 X) (yHalf1 m c)⟩ ::
        [⟨Rect.unit (s := S1024x512) ![0, 0] S1024x256.size inb_S1024x512_S1024x256_0_0, k0_pay2 X (yHalf0 m c)⟩]))
      = pbVal m c j h := by
  subst hX
  exact pb_writes_val m c f0 j h

/-- After the two stores of the products of the loaded block of x with the two loaded halves of dy's columns, block
    (j, h) of the partial products holds its value. -/
theorem pb_fact (c : Dev nD) (f0 : (cc0_scratch0 : Ref sig .tc).ty.Contents (Elt F)) (j : Fin 4) (h : Fin 2) :
    (pbSlot j h).view.read (Elt F) ((Memref.whole cc0_scratch0).view.writes (Elt F) f0
      (⟨Rect.unit (s := S1024x512) ![0, 256] S1024x256.size inb_S1024x512_S1024x256_0_256,
          k0_pay3 (k0_pay1 ((xM : Memref sig .tc .vmem S1024x1024 .f32).view.readAt (Elt F) (Rect.unit (s := S1024x1024) ![0, 0] S1024x1024.size inb_S1024x1024_S1024x1024_0_0).toLoadRect (xV m c))) (yHalf1 m c)⟩ ::
        [⟨Rect.unit (s := S1024x512) ![0, 0] S1024x256.size inb_S1024x512_S1024x256_0_0,
          k0_pay2 ((xM : Memref sig .tc .vmem S1024x1024 .f32).view.readAt (Elt F) (Rect.unit (s := S1024x1024) ![0, 0] S1024x1024.size inb_S1024x1024_S1024x1024_0_0).toLoadRect (xV m c)) (yHalf0 m c)⟩]))
      = pbVal m c j h :=
  Wire.pb_fact' m c f0 j h _ (x_readAt (xV m c))

/-! ## The pieces of the result, by whose sum they are -/

theorem Wire.outPiece_own (c : Dev nD) (h : Fin 2) : outPiece m c (qOwn c) h = accVal m c h := by
  unfold outPiece
  exact if_pos rfl

theorem Wire.outPiece_Y (c : Dev nD) (d : ℕ) (hd : d % 4 ≠ 0) (h : Fin 2) :
    outPiece m c (qY c d) h = widen (red2 m (atY c (yj c d)) h) := by
  have hx := xc_lt c
  have hy := yc_lt c
  have e : (qY c d).val = 4 * xc c + (yc c + d) % 4 := rfl
  have h1 : ¬ ((qY c d).val = 4 * xc c + yc c) := by rw [e]; omega
  have h2 : (qY c d).val / 4 = xc c := by rw [e]; omega
  unfold outPiece
  rw [if_neg h1, if_pos h2]
  exact congrArg (fun j => widen (red2 m (atY c j) h)) (Fin.ext (by show (qY c d).val % 4 = (yc c + d) % 4; rw [e]; omega))

theorem Wire.outPiece_X (c : Dev nD) (ys : Fin 4) (h : Fin 2) :
    outPiece m c (qX c ys) h = widen (red2 m (atXY c ys) h) := by
  have hx := xc_lt c
  have hy := yc_lt c
  have hys := ys.isLt
  have e : (qX c ys).val = 4 * (1 - xc c) + ys.val := rfl
  have h1 : ¬ ((qX c ys).val = 4 * xc c + yc c) := by rw [e]; omega
  have h2 : ¬ ((qX c ys).val / 4 = xc c) := by rw [e]; omega
  unfold outPiece
  rw [if_neg h1, if_neg h2]
  exact congrArg (fun j => widen (red2 m (atXY c j) h)) (Fin.ext (by show (qX c ys).val % 4 = ys.val; rw [e]; omega))

/-! ## Lists of stores, one store at a time -/

theorem Wire.good_nil (c : Dev nD) :
    ∀ p ∈ ([] : List (View.Piece (Elt F) S256x4096 .f32)), ∀ x : p.1.shape.Idx, p.2 x = outAt m c (p.1.emb x) :=
  fun p hp => absurd hp List.not_mem_nil

theorem Wire.good_cons (c : Dev nD) {off : Fin 2 → ℕ} {inb : ∀ a, off a + S256x256.size a ≤ S256x4096.size a} {q : Fin 8}
    {h : Fin 2} (hR : Rect.unit (s := S256x4096) off S256x256.size inb = oR q h) {w : Vec F S256x256 .f32}
    (hw : w = outPiece m c q h) {L : List (View.Piece (Elt F) S256x4096 .f32)}
    (hL : ∀ p ∈ L, ∀ x : p.1.shape.Idx, p.2 x = outAt m c (p.1.emb x)) :
    ∀ p ∈ ((⟨Rect.unit (s := S256x4096) off S256x256.size inb, w⟩ : View.Piece (Elt F) S256x4096 .f32) :: L),
      ∀ x : p.1.shape.Idx, p.2 x = outAt m c (p.1.emb x) := by
  intro p hp
  rcases List.mem_cons.mp hp with rfl | hp
  · have hoff : off = ![0, 512 * q.val + 256 * h.val] := congrArg (fun r : Rect S256x4096 => r.off) hR
    exact (out_piece_ok m c q h hoff rfl inb w hw).1
  · exact hL p hp

theorem Wire.cov_here {off : Fin 2 → ℕ} {inb : ∀ a, off a + S256x256.size a ≤ S256x4096.size a} {q : Fin 8} {h : Fin 2}
    (hR : Rect.unit (s := S256x4096) off S256x256.size inb = oR q h) {w : Vec F S256x256 .f32}
    {L : List (View.Piece (Elt F) S256x4096 .f32)} :
    ∃ p ∈ ((⟨Rect.unit (s := S256x4096) off S256x256.size inb, w⟩ : View.Piece (Elt F) S256x4096 .f32) :: L),
      p.1.set = (oR q h).set :=
  ⟨_, List.mem_cons_self, congrArg (fun r : Rect S256x4096 => r.set) hR⟩

theorem Wire.cov_there {p₀ : View.Piece (Elt F) S256x4096 .f32} {L : List (View.Piece (Elt F) S256x4096 .f32)} {q : Fin 8}
    {h : Fin 2} (hc : ∃ p ∈ L, p.1.set = (oR q h).set) : ∃ p ∈ p₀ :: L, p.1.set = (oR q h).set :=
  let ⟨p, hp, hs⟩ := hc
  ⟨p, List.mem_cons_of_mem _ hp, hs⟩

/-! ## The result -/

/-- After the sixteen stores of the result, the last one first — the eight blocks received across x (half 1, then half
    0 further down), the six gathered along y, and the device's own two sums — the buffer holds the device's result. -/
theorem out_fact (c : Dev nD) (g : (cc0_stg2_0 : Ref sig .tc).ty.Contents (Elt F)) (a0 a1 : FVec F S256x256 .f32)
    (ha0 : a0 = accVal m c 0) (ha1 : a1 = accVal m c 1) (u : Fin 2 → Fin 3 → Vec F S1x1x256x256 .bf16)
    (hu : ∀ h d, u h d = up4 (red2 m (atY c (yj c (d.val + 1))) h)) (t : Fin 2 → Fin 4 → Vec F S1x1x256x256 .bf16)
    (ht : ∀ h ys, t h ys = up4 (red2 m (atXY c ys) h)) :
    (Memref.whole cc0_stg2_0).view.writes (Elt F) g [
        ⟨Rect.unit (s := S256x4096) (k0_off20 c 3#32 256#32) S256x256.size (k0_off20_inb c 3 1), k0_pay27 (t 1 3)⟩,
        ⟨Rect.unit (s := S256x4096) (k0_off20 c 2#32 256#32) S256x256.size (k0_off20_inb c 2 1), k0_pay26 (t 1 2)⟩,
        ⟨Rect.unit (s := S256x4096) (k0_off20 c 1#32 256#32) S256x256.size (k0_off20_inb c 1 1), k0_pay25 (t 1 1)⟩,
        ⟨Rect.unit (s := S256x4096) (k0_off20 c 0#32 256#32) S256x256.size (k0_off20_inb c 0 1), k0_pay24 (t 1 0)⟩,
        ⟨Rect.unit (s := S256x4096) (k0_off15 c 3#32 256#32) S256x256.size (k0_off15_inb c 2 1), k0_pay23 (u 1 2)⟩,
        ⟨Rect.unit (s := S256x4096) (k0_off15 c 2#32 256#32) S256x256.size (k0_off15_inb c 1 1), k0_pay22 (u 1 1)⟩,
        ⟨Rect.unit (s := S256x4096) (k0_off15 c 1#32 256#32) S256x256.size (k0_off15_inb c 0 1), k0_pay21 (u 1 0)⟩,
        ⟨Rect.unit (s := S256x4096) (k0_off20 c 3#32 0#32) S256x256.size (k0_off20_inb c 3 0), k0_pay20 (t 0 3)⟩,
        ⟨Rect.unit (s := S256x4096) (k0_off20 c 2#32 0#32) S256x256.size (k0_off20_inb c 2 0), k0_pay19 (t 0 2)⟩,
        ⟨Rect.unit (s := S256x4096) (k0_off20 c 1#32 0#32) S256x256.size (k0_off20_inb c 1 0), k0_pay18 (t 0 1)⟩,
        ⟨Rect.unit (s := S256x4096) (k0_off20 c 0#32 0#32) S256x256.size (k0_off20_inb c 0 0), k0_pay17 (t 0 0)⟩,
        ⟨Rect.unit (s := S256x4096) (k0_off14 c 256#32) S256x256.size (k0_off14_inb c 1), a1⟩,
        ⟨Rect.unit (s := S256x4096) (k0_off15 c 3#32 0#32) S256x256.size (k0_off15_inb c 2 0), k0_pay11 (u 0 2)⟩,
        ⟨Rect.unit (s := S256x4096) (k0_off15 c 2#32 0#32) S256x256.size (k0_off15_inb c 1 0), k0_pay10 (u 0 1)⟩,
        ⟨Rect.unit (s := S256x4096) (k0_off15 c 1#32 0#32) S256x256.size (k0_off15_inb c 0 0), k0_pay9 (u 0 0)⟩,
        ⟨Rect.unit (s := S256x4096) (k0_off14 c 0#32) S256x256.size (k0_off14_inb c 0), a0⟩]
      = outAt m c := by
  have hA0 : a0 = outPiece m c (qOwn c) 0 := ha0.trans (Wire.outPiece_own m c 0).symm
  have hA1 : a1 = outPiece m c (qOwn c) 1 := ha1.trans (Wire.outPiece_own m c 1).symm
  have wX : ∀ (h : Fin 2) (ys : Fin 4), k0_pay9 (t h ys) = outPiece m c (qX c ys) h := fun h ys => by
    rw [ht h ys, Wire.outPiece_X]; rfl
  have wY : ∀ (h : Fin 2) (d : Fin 3), k0_pay9 (u h d) = outPiece m c (qY c (d.val + 1)) h := fun h d => by
    rw [hu h d, Wire.outPiece_Y m c (d.val + 1) (by have := d.isLt; omega)]; rfl
  refine out_writes m c g _ ?_ ?_
  · exact Wire.good_cons m c (rect_off20_3_256 c) (wX 1 3) <|
      Wire.good_cons m c (rect_off20_2_256 c) (wX 1 2) <|
      Wire.good_cons m c (rect_off20_1_256 c) (wX 1 1) <|
      Wire.good_cons m c (rect_off20_0_256 c) (wX 1 0) <|
      Wire.good_cons m c (rect_off15_3_256 c) (wY 1 2) <|
      Wire.good_cons m c (rect_off15_2_256 c) (wY 1 1) <|
      Wire.good_cons m c (rect_off15_1_256 c) (wY 1 0) <|
      Wire.good_cons m c (rect_off20_3_0 c) (wX 0 3) <|
      Wire.good_cons m c (rect_off20_2_0 c) (wX 0 2) <|
      Wire.good_cons m c (rect_off20_1_0 c) (wX 0 1) <|
      Wire.good_cons m c (rect_off20_0_0 c) (wX 0 0) <|
      Wire.good_cons m c (rect_off14_256 c) (hA1) <|
      Wire.good_cons m c (rect_off15_3_0 c) (wY 0 2) <|
      Wire.good_cons m c (rect_off15_2_0 c) (wY 0 1) <|
      Wire.good_cons m c (rect_off15_1_0 c) (wY 0 0) <|
      Wire.good_cons m c (rect_off14_0 c) (hA0) <|
      Wire.good_nil m c
  · intro q h
    rcases q_cases c q with rfl | rfl | rfl | rfl | rfl | rfl | rfl | rfl
    · match h with
      | ⟨0, _⟩ => exact Wire.cov_there (Wire.cov_there (Wire.cov_there (Wire.cov_there (Wire.cov_there (Wire.cov_there (Wire.cov_there (Wire.cov_there (Wire.cov_there (Wire.cov_there (Wire.cov_there (Wire.cov_there (Wire.cov_there (Wire.cov_there (Wire.cov_there (Wire.cov_here (rect_off14_0 c))))))))))))))))
      | ⟨1, _⟩ => exact Wire.cov_there (Wire.cov_there (Wire.cov_there (Wire.cov_there (Wire.cov_there (Wire.cov_there (Wire.cov_there (Wire.cov_there (Wire.cov_there (Wire.cov_there (Wire.cov_there (Wire.cov_here (rect_off14_256 c))))))))))))
    · match h with
      | ⟨0, _⟩ => exact Wire.cov_there (Wire.cov_there (Wire.cov_there (Wire.cov_there (Wire.cov_there (Wire.cov_there (Wire.cov_there (Wire.cov_there (Wire.cov_there (Wire.cov_there (Wire.cov_there (Wire.cov_there (Wire.cov_there (Wire.cov_there (Wire.cov_here (rect_off15_1_0 c)))))))))))))))
      | ⟨1, _⟩ => exact Wire.cov_there (Wire.cov_there (Wire.cov_there (Wire.cov_there (Wire.cov_there (Wire.cov_there (Wire.cov_here (rect_off15_1_256 c)))))))
    · match h with
      | ⟨0, _⟩ => exact Wire.cov_there (Wire.cov_there (Wire.cov_there (Wire.cov_there (Wire.cov_there (Wire.cov_there (Wire.cov_there (Wire.cov_there (Wire.cov_there (Wire.cov_there (Wire.cov_there (Wire.cov_there (Wire.cov_there (Wire.cov_here (rect_off15_2_0 c))))))))))))))
      | ⟨1, _⟩ => exact Wire.cov_there (Wire.cov_there (Wire.cov_there (Wire.cov_there (Wire.cov_there (Wire.cov_here (rect_off15_2_256 c))))))
    · match h with
      | ⟨0, _⟩ => exact Wire.cov_there (Wire.cov_there (Wire.cov_there (Wire.cov_there (Wire.cov_there (Wire.cov_there (Wire.cov_there (Wire.cov_there (Wire.cov_there (Wire.cov_there (Wire.cov_there (Wire.cov_there (Wire.cov_here (rect_off15_3_0 c)))))))))))))
      | ⟨1, _⟩ => exact Wire.cov_there (Wire.cov_there (Wire.cov_there (Wire.cov_there (Wire.cov_here (rect_off15_3_256 c)))))
    · match h with
      | ⟨0, _⟩ => exact Wire.cov_there (Wire.cov_there (Wire.cov_there (Wire.cov_there (Wire.cov_there (Wire.cov_there (Wire.cov_there (Wire.cov_there (Wire.cov_there (Wire.cov_there (Wire.cov_here (rect_off20_0_0 c)))))))))))
      | ⟨1, _⟩ => exact Wire.cov_there (Wire.cov_there (Wire.cov_there (Wire.cov_here (rect_off20_0_256 c))))
    · match h with
      | ⟨0, _⟩ => exact Wire.cov_there (Wire.cov_there (Wire.cov_there (Wire.cov_there (Wire.cov_there (Wire.cov_there (Wire.cov_there (Wire.cov_there (Wire.cov_there (Wire.cov_here (rect_off20_1_0 c))))))))))
      | ⟨1, _⟩ => exact Wire.cov_there (Wire.cov_there (Wire.cov_here (rect_off20_1_256 c)))
    · match h with
      | ⟨0, _⟩ => exact Wire.cov_there (Wire.cov_there (Wire.cov_there (Wire.cov_there (Wire.cov_there (Wire.cov_there (Wire.cov_there (Wire.cov_there (Wire.cov_here (rect_off20_2_0 c)))))))))
      | ⟨1, _⟩ => exact Wire.cov_there (Wire.cov_here (rect_off20_2_256 c))
    · match h with
      | ⟨0, _⟩ => exact Wire.cov_there (Wire.cov_there (Wire.cov_there (Wire.cov_there (Wire.cov_there (Wire.cov_there (Wire.cov_there (Wire.cov_here (rect_off20_3_0 c))))))))
      | ⟨1, _⟩ => exact Wire.cov_here (rect_off20_3_256 c)

/-- info: 'Cert.Kernel.Coll.out_fact' depends on axioms: [propext, Classical.choice, Quot.sound] -/
#guard_msgs in #print axioms out_fact

/-- info: 'Cert.Kernel.Coll.pb_fact' depends on axioms: [propext, Classical.choice, Quot.sound] -/
#guard_msgs in #print axioms pb_fact

end Cert.Kernel.Coll

end
-- ==== Proof.KValB.lean ====
/- What a device's sum over the z axis is, read off what its loads return: its own block of the partial products and the
   three blocks received along z, summed in the kernel's order, are the device's z-sum — as thirty-two-bit floats for its own
   piece of the result, and, stored as sixteen-bit floats and read back through the sum's slot, the block it sends on. -/
import proofs.«901051_g7700000000001052_dist_rsdw_v7x_xyz2x4x4_z_m1024_d1024_f4096_bf16_1_alg».proof.Proof.KWire2
import proofs.«901051_g7700000000001052_dist_rsdw_v7x_xyz2x4x4_z_m1024_d1024_f4096_bf16_1_alg».proof.Proof.KBodyAux
import proofs.«901051_g7700000000001052_dist_rsdw_v7x_xyz2x4x4_z_m1024_d1024_f4096_bf16_1_alg».proof.Proof.KIncl

noncomputable section

namespace Cert.Kernel.Coll

open Cert.Kernel Cert.Kernel.Gen Cert.Kernel.Mesh

open Idealize.ShloMosaic
open Idealize.ShloMosaic.TcCoe
open Idealize.ShloMosaic.ValueIdx
open Wire

variable {F : FTy → Type} [FloatOps F]

variable (m : (ℓ : Loc nD τ sig) → Buf (Elt F) ℓ)

/-! ## The loads -/

/-- A load of the device's own block of the partial products, half `h`, at offsets that are that block's. -/
theorem pb_load_own (c : Dev nD) (F0 : (cc0_scratch0 : Ref sig .tc).ty.Contents (Elt F))
    (hpb : ∀ j h, (pbSlot j h).view.read (Elt F) F0 = pbVal m c j h) (h : Fin 2) (off : Fin 2 → ℕ)
    (p : ∀ a, off a + S256x256.size a ≤ S1024x512.size a) (hoff : off = ![256 * (zF c).val, 256 * h.val]) :
    (pbM : Memref sig .tc .vmem S1024x512 .bf16).view.readAt (Elt F) (Rect.unit (s := S1024x512) off S256x256.size p).toLoadRect F0 = pbVal m c (zF c) h := by
  subst hoff
  exact (pb_readAt (F := F) (zF c) h F0).trans (hpb _ _)

/-- A load of a slot of the z phase's receive buffer that holds the block it was sent. -/
theorem rb_load (c : Dev nD) (h : Fin 2) (j : Fin 4) (off : Fin 4 → ℕ)
    (p : ∀ a, off a + S1x1x256x256.size a ≤ S2x4x256x256.size a) (hoff : off = ![h.val, j.val, 0, 0])
    (fb : (cc0_scratch2 : Ref sig .tc).ty.Contents (Elt F)) (hfb : (rbSlot h j).view.read (Elt F) fb = rbVal m c h j) :
    (rbM : Memref sig .tc .vmem S2x4x256x256 .bf16).view.readAt (Elt F) (Rect.unit (s := S2x4x256x256) off S1x1x256x256.size p).toLoadRect fb = up4 (rbVal m c h j) := by
  subst hoff
  exact (rb_readAt (F := F) h j fb).trans (congrArg up4 hfb)

/-! ## The sums -/

theorem acc0_fact (c : Dev nD) (F0 : (cc0_scratch0 : Ref sig .tc).ty.Contents (Elt F))
    (hpb : ∀ j h, (pbSlot j h).view.read (Elt F) F0 = pbVal m c j h)
    (fb1 : Buf (Elt F) ((rbSlot 0 (zj c 1)).view.loc (c : Thread nD τ))) (fb2 : Buf (Elt F) ((rbSlot 0 (zj c 2)).view.loc (c : Thread nD τ))) (fb3 : Buf (Elt F) ((rbSlot 0 (zj c 3)).view.loc (c : Thread nD τ)))
    (h1 : (rbSlot 0 (zj c 1)).view.read (Elt F) fb1 = rbVal m c 0 (zj c 1)) (h2 : (rbSlot 0 (zj c 2)).view.read (Elt F) fb2 = rbVal m c 0 (zj c 2)) (h3 : (rbSlot 0 (zj c 3)).view.read (Elt F) fb3 = rbVal m c 0 (zj c 3)) :
    (k0_pay7 (k0_pay6 (k0_pay5 (k0_pay4 ((pbM : Memref sig .tc .vmem S1024x512 .bf16).view.readAt (Elt F) (Rect.unit (s := S1024x512) (k0_off10 c) S256x256.size (k0_off10_inb c)).toLoadRect F0)) ((rbM : Memref sig .tc .vmem S2x4x256x256 .bf16).view.readAt (Elt F) (Rect.unit (s := S2x4x256x256) (k0_off13 c 1#32 1#32) S1x1x256x256.size (k0_off13_inb c 0 0)).toLoadRect fb1)) ((rbM : Memref sig .tc .vmem S2x4x256x256 .bf16).view.readAt (Elt F) (Rect.unit (s := S2x4x256x256) (k0_off13 c 1#32 2#32) S1x1x256x256.size (k0_off13_inb c 0 1)).toLoadRect fb2)) ((rbM : Memref sig .tc .vmem S2x4x256x256 .bf16).view.readAt (Elt F) (Rect.unit (s := S2x4x256x256) (k0_off13 c 1#32 3#32) S1x1x256x256.size (k0_off13_inb c 0 2)).toLoadRect fb3)) = accVal m c 0 := by
  rw [pb_load_own m c F0 hpb 0 (k0_off10 c) (k0_off10_inb c) ((Mesh.off10 c).trans rfl),
    rb_load m c 0 (zj c 1) (k0_off13 c 1#32 1#32) (k0_off13_inb c 0 0) ((Mesh.off13_1_1 c).trans rfl) fb1 h1,
    rb_load m c 0 (zj c 2) (k0_off13 c 1#32 2#32) (k0_off13_inb c 0 1) ((Mesh.off13_1_2 c).trans rfl) fb2 h2,
    rb_load m c 0 (zj c 3) (k0_off13 c 1#32 3#32) (k0_off13_inb c 0 2) ((Mesh.off13_1_3 c).trans rfl) fb3 h3] <;> rfl

theorem red0_payload (c : Dev nD) (F0 : (cc0_scratch0 : Ref sig .tc).ty.Contents (Elt F))
    (hpb : ∀ j h, (pbSlot j h).view.read (Elt F) F0 = pbVal m c j h)
    (fb1 : Buf (Elt F) ((rbSlot 0 (zj c 1)).view.loc (c : Thread nD τ))) (fb2 : Buf (Elt F) ((rbSlot 0 (zj c 2)).view.loc (c : Thread nD τ))) (fb3 : Buf (Elt F) ((rbSlot 0 (zj c 3)).view.loc (c : Thread nD τ)))
    (h1 : (rbSlot 0 (zj c 1)).view.read (Elt F) fb1 = rbVal m c 0 (zj c 1)) (h2 : (rbSlot 0 (zj c 2)).view.read (Elt F) fb2 = rbVal m c 0 (zj c 2)) (h3 : (rbSlot 0 (zj c 3)).view.read (Elt F) fb3 = rbVal m c 0 (zj c 3)) :
    (k0_pay8 (k0_pay6 (k0_pay5 (k0_pay4 ((pbM : Memref sig .tc .vmem S1024x512 .bf16).view.readAt (Elt F) (Rect.unit (s := S1024x512) (k0_off10 c) S256x256.size (k0_off10_inb c)).toLoadRect F0)) ((rbM : Memref sig .tc .vmem S2x4x256x256 .bf16).view.readAt (Elt F) (Rect.unit (s := S2x4x256x256) (k0_off13 c 1#32 1#32) S1x1x256x256.size (k0_off13_inb c 0 0)).toLoadRect fb1)) ((rbM : Memref sig .tc .vmem S2x4x256x256 .bf16).view.readAt (Elt F) (Rect.unit (s := S2x4x256x256) (k0_off13 c 1#32 2#32) S1x1x256x256.size (k0_off13_inb c 0 1)).toLoadRect fb2)) ((rbM : Memref sig .tc .vmem S2x4x256x256 .bf16).view.readAt (Elt F) (Rect.unit (s := S2x4x256x256) (k0_off13 c 1#32 3#32) S1x1x256x256.size (k0_off13_inb c 0 2)).toLoadRect fb3)) = redVal m c 0 := by
  rw [pb_load_own m c F0 hpb 0 (k0_off10 c) (k0_off10_inb c) ((Mesh.off10 c).trans rfl),
    rb_load m c 0 (zj c 1) (k0_off13 c 1#32 1#32) (k0_off13_inb c 0 0) ((Mesh.off13_1_1 c).trans rfl) fb1 h1,
    rb_load m c 0 (zj c 2) (k0_off13 c 1#32 2#32) (k0_off13_inb c 0 1) ((Mesh.off13_1_2 c).trans rfl) fb2 h2,
    rb_load m c 0 (zj c 3) (k0_off13 c 1#32 3#32) (k0_off13_inb c 0 2) ((Mesh.off13_1_3 c).trans rfl) fb3 h3] <;> rfl

theorem red0_fact (c : Dev nD) (F0 : (cc0_scratch0 : Ref sig .tc).ty.Contents (Elt F))
    (hpb : ∀ j h, (pbSlot j h).view.read (Elt F) F0 = pbVal m c j h)
    (fb1 : Buf (Elt F) ((rbSlot 0 (zj c 1)).view.loc (c : Thread nD τ))) (fb2 : Buf (Elt F) ((rbSlot 0 (zj c 2)).view.loc (c : Thread nD τ))) (fb3 : Buf (Elt F) ((rbSlot 0 (zj c 3)).view.loc (c : Thread nD τ)))
    (h1 : (rbSlot 0 (zj c 1)).view.read (Elt F) fb1 = rbVal m c 0 (zj c 1)) (h2 : (rbSlot 0 (zj c 2)).view.read (Elt F) fb2 = rbVal m c 0 (zj c 2)) (h3 : (rbSlot 0 (zj c 3)).view.read (Elt F) fb3 = rbVal m c 0 (zj c 3)) (f1 : (cc0_scratch1 : Ref sig .tc).ty.Contents (Elt F)) :
    (redSlot 0).view.read (Elt F) ((Memref.whole cc0_scratch1 : Memref sig .tc .vmem S2x256x256 .bf16).view.writes (Elt F) f1
      [⟨Rect.unit (s := S2x256x256) ![0, 0, 0] S1x256x256.size inb_S2x256x256_S1x256x256_0_0_0, (k0_pay8 (k0_pay6 (k0_pay5 (k0_pay4 ((pbM : Memref sig .tc .vmem S1024x512 .bf16).view.readAt (Elt F) (Rect.unit (s := S1024x512) (k0_off10 c) S256x256.size (k0_off10_inb c)).toLoadRect F0)) ((rbM : Memref sig .tc .vmem S2x4x256x256 .bf16).view.readAt (Elt F) (Rect.unit (s := S2x4x256x256) (k0_off13 c 1#32 1#32) S1x1x256x256.size (k0_off13_inb c 0 0)).toLoadRect fb1)) ((rbM : Memref sig .tc .vmem S2x4x256x256 .bf16).view.readAt (Elt F) (Rect.unit (s := S2x4x256x256) (k0_off13 c 1#32 2#32) S1x1x256x256.size (k0_off13_inb c 0 1)).toLoadRect fb2)) ((rbM : Memref sig .tc .vmem S2x4x256x256 .bf16).view.readAt (Elt F) (Rect.unit (s := S2x4x256x256) (k0_off13 c 1#32 3#32) S1x1x256x256.size (k0_off13_inb c 0 2)).toLoadRect fb3))⟩]) = red2 m c 0 :=
  (red_store (F := F) 0 f1 (k0_pay8 (k0_pay6 (k0_pay5 (k0_pay4 ((pbM : Memref sig .tc .vmem S1024x512 .bf16).view.readAt (Elt F) (Rect.unit (s := S1024x512) (k0_off10 c) S256x256.size (k0_off10_inb c)).toLoadRect F0)) ((rbM : Memref sig .tc .vmem S2x4x256x256 .bf16).view.readAt (Elt F) (Rect.unit (s := S2x4x256x256) (k0_off13 c 1#32 1#32) S1x1x256x256.size (k0_off13_inb c 0 0)).toLoadRect fb1)) ((rbM : Memref sig .tc .vmem S2x4x256x256 .bf16).view.readAt (Elt F) (Rect.unit (s := S2x4x256x256) (k0_off13 c 1#32 2#32) S1x1x256x256.size (k0_off13_inb c 0 1)).toLoadRect fb2)) ((rbM : Memref sig .tc .vmem S2x4x256x256 .bf16).view.readAt (Elt F) (Rect.unit (s := S2x4x256x256) (k0_off13 c 1#32 3#32) S1x1x256x256.size (k0_off13_inb c 0 2)).toLoadRect fb3))).trans (congrArg dn3 (red0_payload m c F0 hpb fb1 fb2 fb3 h1 h2 h3))

theorem acc1_fact (c : Dev nD) (F0 : (cc0_scratch0 : Ref sig .tc).ty.Contents (Elt F))
    (hpb : ∀ j h, (pbSlot j h).view.read (Elt F) F0 = pbVal m c j h)
    (fb1' : Buf (Elt F) ((rbSlot 1 (zj c 1)).view.loc (c : Thread nD τ))) (fb2' : Buf (Elt F) ((rbSlot 1 (zj c 2)).view.loc (c : Thread nD τ))) (fb3' : Buf (Elt F) ((rbSlot 1 (zj c 3)).view.loc (c : Thread nD τ)))
    (h1 : (rbSlot 1 (zj c 1)).view.read (Elt F) fb1' = rbVal m c 1 (zj c 1)) (h2 : (rbSlot 1 (zj c 2)).view.read (Elt F) fb2' = rbVal m c 1 (zj c 2)) (h3 : (rbSlot 1 (zj c 3)).view.read (Elt F) fb3' = rbVal m c 1 (zj c 3)) :
    (k0_pay15 (k0_pay14 (k0_pay13 (k0_pay12 ((pbM : Memref sig .tc .vmem S1024x512 .bf16).view.readAt (Elt F) (Rect.unit (s := S1024x512) (k0_off16 c) S256x256.size (k0_off16_inb c)).toLoadRect F0)) ((rbM : Memref sig .tc .vmem S2x4x256x256 .bf16).view.readAt (Elt F) (Rect.unit (s := S2x4x256x256) (k0_off19 c 1#32 1#32) S1x1x256x256.size (k0_off19_inb c 0 0)).toLoadRect fb1')) ((rbM : Memref sig .tc .vmem S2x4x256x256 .bf16).view.readAt (Elt F) (Rect.unit (s := S2x4x256x256) (k0_off19 c 1#32 2#32) S1x1x256x256.size (k0_off19_inb c 0 1)).toLoadRect fb2')) ((rbM : Memref sig .tc .vmem S2x4x256x256 .bf16).view.readAt (Elt F) (Rect.unit (s := S2x4x256x256) (k0_off19 c 1#32 3#32) S1x1x256x256.size (k0_off19_inb c 0 2)).toLoadRect fb3')) = accVal m c 1 := by
  rw [pb_load_own m c F0 hpb 1 (k0_off16 c) (k0_off16_inb c) ((Mesh.off16 c).trans rfl),
    rb_load m c 1 (zj c 1) (k0_off19 c 1#32 1#32) (k0_off19_inb c 0 0) ((Mesh.off19_1_1 c).trans rfl) fb1' h1,
    rb_load m c 1 (zj c 2) (k0_off19 c 1#32 2#32) (k0_off19_inb c 0 1) ((Mesh.off19_1_2 c).trans rfl) fb2' h2,
    rb_load m c 1 (zj c 3) (k0_off19 c 1#32 3#32) (k0_off19_inb c 0 2) ((Mesh.off19_1_3 c).trans rfl) fb3' h3] <;> rfl

theorem red1_payload (c : Dev nD) (F0 : (cc0_scratch0 : Ref sig .tc).ty.Contents (Elt F))
    (hpb : ∀ j h, (pbSlot j h).view.read (Elt F) F0 = pbVal m c j h)
    (fb1' : Buf (Elt F) ((rbSlot 1 (zj c 1)).view.loc (c : Thread nD τ))) (fb2' : Buf (Elt F) ((rbSlot 1 (zj c 2)).view.loc (c : Thread nD τ))) (fb3' : Buf (Elt F) ((rbSlot 1 (zj c 3)).view.loc (c : Thread nD τ)))
    (h1 : (rbSlot 1 (zj c 1)).view.read (Elt F) fb1' = rbVal m c 1 (zj c 1)) (h2 : (rbSlot 1 (zj c 2)).view.read (Elt F) fb2' = rbVal m c 1 (zj c 2)) (h3 : (rbSlot 1 (zj c 3)).view.read (Elt F) fb3' = rbVal m c 1 (zj c 3)) :
    (k0_pay16 (k0_pay14 (k0_pay13 (k0_pay12 ((pbM : Memref sig .tc .vmem S1024x512 .bf16).view.readAt (Elt F) (Rect.unit (s := S1024x512) (k0_off16 c) S256x256.size (k0_off16_inb c)).toLoadRect F0)) ((rbM : Memref sig .tc .vmem S2x4x256x256 .bf16).view.readAt (Elt F) (Rect.unit (s := S2x4x256x256) (k0_off19 c 1#32 1#32) S1x1x256x256.size (k0_off19_inb c 0 0)).toLoadRect fb1')) ((rbM : Memref sig .tc .vmem S2x4x256x256 .bf16).view.readAt (Elt F) (Rect.unit (s := S2x4x256x256) (k0_off19 c 1#32 2#32) S1x1x256x256.size (k0_off19_inb c 0 1)).toLoadRect fb2')) ((rbM : Memref sig .tc .vmem S2x4x256x256 .bf16).view.readAt (Elt F) (Rect.unit (s := S2x4x256x256) (k0_off19 c 1#32 3#32) S1x1x256x256.size (k0_off19_inb c 0 2)).toLoadRect fb3')) = redVal m c 1 := by
  rw [pb_load_own m c F0 hpb 1 (k0_off16 c) (k0_off16_inb c) ((Mesh.off16 c).trans rfl),
    rb_load m c 1 (zj c 1) (k0_off19 c 1#32 1#32) (k0_off19_inb c 0 0) ((Mesh.off19_1_1 c).trans rfl) fb1' h1,
    rb_load m c 1 (zj c 2) (k0_off19 c 1#32 2#32) (k0_off19_inb c 0 1) ((Mesh.off19_1_2 c).trans rfl) fb2' h2,
    rb_load m c 1 (zj c 3) (k0_off19 c 1#32 3#32) (k0_off19_inb c 0 2) ((Mesh.off19_1_3 c).trans rfl) fb3' h3] <;> rfl

theorem red1_fact (c : Dev nD) (F0 : (cc0_scratch0 : Ref sig .tc).ty.Contents (Elt F))
    (hpb : ∀ j h, (pbSlot j h).view.read (Elt F) F0 = pbVal m c j h)
    (fb1' : Buf (Elt F) ((rbSlot 1 (zj c 1)).view.loc (c : Thread nD τ))) (fb2' : Buf (Elt F) ((rbSlot 1 (zj c 2)).view.loc (c : Thread nD τ))) (fb3' : Buf (Elt F) ((rbSlot 1 (zj c 3)).view.loc (c : Thread nD τ)))
    (h1 : (rbSlot 1 (zj c 1)).view.read (Elt F) fb1' = rbVal m c 1 (zj c 1)) (h2 : (rbSlot 1 (zj c 2)).view.read (Elt F) fb2' = rbVal m c 1 (zj c 2)) (h3 : (rbSlot 1 (zj c 3)).view.read (Elt F) fb3' = rbVal m c 1 (zj c 3)) (F1 : (cc0_scratch1 : Ref sig .tc).ty.Contents (Elt F)) :
    (redSlot 1).view.read (Elt F) (((redM : Memref sig .tc .vmem S2x256x256 .bf16).access (Rect.unit (s := S2x256x256) ![1, 0, 0] S1x256x256.size inb_S2x256x256_S1x256x256_1_0_0)).write (Elt F) F1
      (k0_pay16 (k0_pay14 (k0_pay13 (k0_pay12 ((pbM : Memref sig .tc .vmem S1024x512 .bf16).view.readAt (Elt F) (Rect.unit (s := S1024x512) (k0_off16 c) S256x256.size (k0_off16_inb c)).toLoadRect F0)) ((rbM : Memref sig .tc .vmem S2x4x256x256 .bf16).view.readAt (Elt F) (Rect.unit (s := S2x4x256x256) (k0_off19 c 1#32 1#32) S1x1x256x256.size (k0_off19_inb c 0 0)).toLoadRect fb1')) ((rbM : Memref sig .tc .vmem S2x4x256x256 .bf16).view.readAt (Elt F) (Rect.unit (s := S2x4x256x256) (k0_off19 c 1#32 2#32) S1x1x256x256.size (k0_off19_inb c 0 1)).toLoadRect fb2')) ((rbM : Memref sig .tc .vmem S2x4x256x256 .bf16).view.readAt (Elt F) (Rect.unit (s := S2x4x256x256) (k0_off19 c 1#32 3#32) S1x1x256x256.size (k0_off19_inb c 0 2)).toLoadRect fb3')) Finset.univ) = red2 m c 1 :=
  (red_store (F := F) 1 F1 (k0_pay16 (k0_pay14 (k0_pay13 (k0_pay12 ((pbM : Memref sig .tc .vmem S1024x512 .bf16).view.readAt (Elt F) (Rect.unit (s := S1024x512) (k0_off16 c) S256x256.size (k0_off16_inb c)).toLoadRect F0)) ((rbM : Memref sig .tc .vmem S2x4x256x256 .bf16).view.readAt (Elt F) (Rect.unit (s := S2x4x256x256) (k0_off19 c 1#32 1#32) S1x1x256x256.size (k0_off19_inb c 0 0)).toLoadRect fb1')) ((rbM : Memref sig .tc .vmem S2x4x256x256 .bf16).view.readAt (Elt F) (Rect.unit (s := S2x4x256x256) (k0_off19 c 1#32 2#32) S1x1x256x256.size (k0_off19_inb c 0 1)).toLoadRect fb2')) ((rbM : Memref sig .tc .vmem S2x4x256x256 .bf16).view.readAt (Elt F) (Rect.unit (s := S2x4x256x256) (k0_off19 c 1#32 3#32) S1x1x256x256.size (k0_off19_inb c 0 2)).toLoadRect fb3'))).trans (congrArg dn3 (red1_payload m c F0 hpb fb1' fb2' fb3' h1 h2 h3))

/-- info: 'Cert.Kernel.Coll.red0_fact' depends on axioms: [propext, Classical.choice, Quot.sound] -/
#guard_msgs in #print axioms red0_fact

/-- info: 'Cert.Kernel.Coll.red1_fact' depends on axioms: [propext, Classical.choice, Quot.sound] -/
#guard_msgs in #print axioms red1_fact

end Cert.Kernel.Coll

end
-- ==== Proof.KBody.lean ====
/- One device's body, run once at a symbolic device: from the ghost state and buffers the launch hands it to the result's
   staging buffer at the device's sixteen pieces, the scratch buffers whole again and its own cells closed. -/
import proofs.«901051_g7700000000001052_dist_rsdw_v7x_xyz2x4x4_z_m1024_d1024_f4096_bf16_1_alg».proof.Proof.KTables
import proofs.«901051_g7700000000001052_dist_rsdw_v7x_xyz2x4x4_z_m1024_d1024_f4096_bf16_1_alg».proof.Proof.KCanon
import proofs.«901051_g7700000000001052_dist_rsdw_v7x_xyz2x4x4_z_m1024_d1024_f4096_bf16_1_alg».proof.Proof.KSlots
import proofs.«901051_g7700000000001052_dist_rsdw_v7x_xyz2x4x4_z_m1024_d1024_f4096_bf16_1_alg».proof.Proof.KSlotShares
import proofs.«901051_g7700000000001052_dist_rsdw_v7x_xyz2x4x4_z_m1024_d1024_f4096_bf16_1_alg».proof.Proof.KSlotsRel
import proofs.«901051_g7700000000001052_dist_rsdw_v7x_xyz2x4x4_z_m1024_d1024_f4096_bf16_1_alg».proof.Proof.KWire
import proofs.«901051_g7700000000001052_dist_rsdw_v7x_xyz2x4x4_z_m1024_d1024_f4096_bf16_1_alg».proof.Proof.KWrap
import proofs.«901051_g7700000000001052_dist_rsdw_v7x_xyz2x4x4_z_m1024_d1024_f4096_bf16_1_alg».proof.Proof.KBodyAux
import proofs.«901051_g7700000000001052_dist_rsdw_v7x_xyz2x4x4_z_m1024_d1024_f4096_bf16_1_alg».proof.Proof.KFamilies
import proofs.«901051_g7700000000001052_dist_rsdw_v7x_xyz2x4x4_z_m1024_d1024_f4096_bf16_1_alg».proof.Proof.KIncl
import proofs.«901051_g7700000000001052_dist_rsdw_v7x_xyz2x4x4_z_m1024_d1024_f4096_bf16_1_alg».proof.Proof.KRot
import proofs.«901051_g7700000000001052_dist_rsdw_v7x_xyz2x4x4_z_m1024_d1024_f4096_bf16_1_alg».proof.Proof.KEpilogueRel
import proofs.«901051_g7700000000001052_dist_rsdw_v7x_xyz2x4x4_z_m1024_d1024_f4096_bf16_1_alg».proof.Proof.KValA
import proofs.«901051_g7700000000001052_dist_rsdw_v7x_xyz2x4x4_z_m1024_d1024_f4096_bf16_1_alg».proof.Proof.KValB
import proofs.«901051_g7700000000001052_dist_rsdw_v7x_xyz2x4x4_z_m1024_d1024_f4096_bf16_1_alg».proof.Proof.Gen.Kernel.Points

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xV m c) ∗ stg c cc0_stg1_0 (yV m c) ∗ stg c cc0_stg2_0 (outAt m c))

/-! ## Reading the launch's families -/

theorem inv_bar (K : Dev nD × CK → ℕ) (p : Dev nD) :
    (bigSep Finset.univ fun ck : Dev nD × CK => (cellInv ER (Rd m) (K ck) (kcell ck) : sProp 𝕄)) ⊢ cellInv ER (Rd m) (K (p, none)) (barC p) :=
  bigSep_elim (Φ := fun ck : Dev nD × CK => (cellInv ER (Rd m) (K ck) (kcell ck) : sProp 𝕄)) (Finset.mem_univ (p, none))
theorem inv_dC (K : Dev nD × CK → ℕ) (p : Dev nD) (a : Fin 6) (h : Fin 2) (j : Fin 4) :
    (bigSep Finset.univ fun ck : Dev nD × CK => (cellInv ER (Rd m) (K ck) (kcell ck) : sProp 𝕄)) ⊢ cellInv ER (Rd m) (K (p, some (a, h, j))) (dC p a h j) :=
  bigSep_elim (Φ := fun ck : Dev nD × CK => (cellInv ER (Rd m) (K ck) (kcell ck) : sProp 𝕄)) (Finset.mem_univ (p, some (a, h, j)))
theorem reached_bar (p : Dev nD) :
    (bigSep Finset.univ fun ck : Dev nD × CK => (reached ER (kcell ck) 0 : sProp 𝕄)) ⊢ reached ER (barC p) 0 :=
  bigSep_elim (Φ := fun ck : Dev nD × CK => (reached ER (kcell ck) 0 : sProp 𝕄)) (Finset.mem_univ (p, none))
theorem reached_dC (p : Dev nD) (a : Fin 6) (h : Fin 2) (j : Fin 4) :
    (bigSep Finset.univ fun ck : Dev nD × CK => (reached ER (kcell ck) 0 : sProp 𝕄)) ⊢ reached ER (dC p a h j) 0 :=
  bigSep_elim (Φ := fun ck : Dev nD × CK => (reached ER (kcell ck) 0 : sProp 𝕄)) (Finset.mem_univ (p, some (a, h, j)))

/-- The seven barrier tokens a device pays with, neighbour by neighbour. -/
theorem toks_bar_eq (c : Dev nD) : (bigSep Finset.univ fun n : DN => (dutyTok ER (barC (nb c n)) 0 (inv n) : sProp 𝕄))
    = iprop(dutyTok ER (barC (zP c 1)) 0 (2 : DN) ∗ dutyTok ER (barC (zP c 2)) 0 (1 : DN) ∗ dutyTok ER (barC (zP c 3)) 0 (0 : DN)
      ∗ dutyTok ER (barC (yP c 1)) 0 (5 : DN) ∗ dutyTok ER (barC (yP c 2)) 0 (4 : DN) ∗ dutyTok ER (barC (yP c 3)) 0 (3 : DN) ∗ dutyTok ER (barC (xP c)) 0 (6 : DN)) := by
  rw [bigSep_univ_eq_bigSepL [(0 : DN), 1, 2, 3, 4, 5, 6] (by decide) (by decide)]
  rfl

/-- What a device hands each neighbour with its barrier signal: its own slots the neighbour writes. -/
theorem bp_z1 (m : (ℓ : Loc nD τ sig) → Buf (Elt F) ℓ) (c : Dev nD) : barPay (F := F) (zP c 1) 2 = iprop(anyPts c (rbSlot 0 (zj c 1)) fullShare ∗ anyPts c (rbSlot 1 (zj c 1)) fullShare) := pay_bar_z1 m c
theorem bp_z2 (m : (ℓ : Loc nD τ sig) → Buf (Elt F) ℓ) (c : Dev nD) : barPay (F := F) (zP c 2) 1 = iprop(anyPts c (rbSlot 0 (zj c 2)) fullShare ∗ anyPts c (rbSlot 1 (zj c 2)) fullShare) := pay_bar_z2 m c
theorem bp_z3 (m : (ℓ : Loc nD τ sig) → Buf (Elt F) ℓ) (c : Dev nD) : barPay (F := F) (zP c 3) 0 = iprop(anyPts c (rbSlot 0 (zj c 3)) fullShare ∗ anyPts c (rbSlot 1 (zj c 3)) fullShare) := pay_bar_z3 m c
theorem bp_y1 (m : (ℓ : Loc nD τ sig) → Buf (Elt F) ℓ) (c : Dev nD) : barPay (F := F) (yP c 1) 5 = iprop(anyPts c (r1Slot 0 (yj c 1)) fullShare ∗ anyPts c (r1Slot 1 (yj c 1)) fullShare) := pay_bar_y1 m c
theorem bp_y2 (m : (ℓ : Loc nD τ sig) → Buf (Elt F) ℓ) (c : Dev nD) : barPay (F := F) (yP c 2) 4 = iprop(anyPts c (r1Slot 0 (yj c 2)) fullShare ∗ anyPts c (r1Slot 1 (yj c 2)) fullShare) := pay_bar_y2 m c
theorem bp_y3 (m : (ℓ : Loc nD τ sig) → Buf (Elt F) ℓ) (c : Dev nD) : barPay (F := F) (yP c 3) 3 = iprop(anyPts c (r1Slot 0 (yj c 3)) fullShare ∗ anyPts c (r1Slot 1 (yj c 3)) fullShare) := pay_bar_y3 m c
theorem bp_x (m : (ℓ : Loc nD τ sig) → Buf (Elt F) ℓ) (c : Dev nD) : barPay (F := F) (xP c) 6 =
    iprop((anyPts c (r2Slot 0 0) fullShare ∗ anyPts c (r2Slot 0 1) fullShare ∗ anyPts c (r2Slot 0 2) fullShare ∗ anyPts c (r2Slot 0 3) fullShare)
      ∗ (anyPts c (r2Slot 1 0) fullShare ∗ anyPts c (r2Slot 1 1) fullShare ∗ anyPts c (r2Slot 1 2) fullShare ∗ anyPts c (r2Slot 1 3) fullShare)) := pay_bar_x m c

theorem whole_pts (c : Dev nD) (b : Ref sig .tc) (f : Buf (Elt F) ((c : Thread nD τ).loc b)) :
    (((c : Thread nD τ).loc b) ↦{fullShare} f : sProp 𝕄) ⊢ ((Memref.whole b).view.loc (c : Thread nD τ) ↦{fullShare} f) := BI.Entails.refl _

theorem yj_ne_yF1 : ∀ c : Dev nD, ¬ yj c 1 = yF c := by decide
theorem yj_ne_yF2 : ∀ c : Dev nD, ¬ yj c 2 = yF c := by decide
theorem yj_ne_yF3 : ∀ c : Dev nD, ¬ yj c 3 = yF c := by decide

/-- The share splits, with the slots spelt as the points-to assertions themselves. -/
theorem red_split' (c : Dev nD) (h : Fin 2) (f : Buf (Elt F) ((redSlot h).view.loc (c : Thread nD τ))) :
    ((redSlot h).view.loc (c : Thread nD τ) ↦[(redSlot h).view.set]{fullShare} f : sProp 𝕄)
      ⊢ iprop(((redSlot h).view.loc (c : Thread nD τ) ↦[(redSlot h).view.set]{Transfers.shareDrop fullShare 4} f)
        ∗ ((redSlot h).view.loc (c : Thread nD τ) ↦[(redSlot h).view.set]{qS (yF c)} f)
        ∗ ((redSlot h).view.loc (c : Thread nD τ) ↦[(redSlot h).view.set]{qS (yj c 1)} f)
        ∗ ((redSlot h).view.loc (c : Thread nD τ) ↦[(redSlot h).view.set]{qS (yj c 2)} f)
        ∗ ((redSlot h).view.loc (c : Thread nD τ) ↦[(redSlot h).view.set]{qS (yj c 3)} f)) := red_shares_rel c h f
theorem r1_split' (c : Dev nD) (h : Fin 2) (j : Fin 4) (f : Buf (Elt F) ((r1Slot h j).view.loc (c : Thread nD τ))) :
    ((r1Slot h j).view.loc (c : Thread nD τ) ↦[(r1Slot h j).view.set]{fullShare} f : sProp 𝕄)
      ⊢ iprop(((r1Slot h j).view.loc (c : Thread nD τ) ↦[(r1Slot h j).view.set]{Transfers.shareDrop fullShare 1} f)
        ∗ ((r1Slot h j).view.loc (c : Thread nD τ) ↦[(r1Slot h j).view.set]{qR} f)) := (r1_shares c h j f).1

/-- A load of a gathered or exchanged slot at any offsets equal to the slot's reads the block the slot holds. -/
theorem r1_load (h : Fin 2) (j : Fin 4) (off : Fin 4 → ℕ) (p : ∀ a, off a + S1x1x256x256.size a ≤ S2x4x256x256.size a) (hoff : off = ![h.val, j.val, 0, 0])
    (fb : (cc0_scratch3 : Ref sig .tc).ty.Contents (Elt F)) (v : Vec F S256x256 .bf16) (hfb : (r1Slot h j).view.read (Elt F) fb = v) :
    (r1M : Memref sig .tc .vmem S2x4x256x256 .bf16).view.readAt (Elt F) (Rect.unit (s := S2x4x256x256) off S1x1x256x256.size p).toLoadRect fb = up4 v := by
  subst hoff; exact (r1_readAt (F := F) h j fb).trans (congrArg up4 hfb)
theorem r2_load (h : Fin 2) (j : Fin 4) (off : Fin 4 → ℕ) (p : ∀ a, off a + S1x1x256x256.size a ≤ S2x4x256x256.size a) (hoff : off = ![h.val, j.val, 0, 0])
    (fb : (cc0_scratch4 : Ref sig .tc).ty.Contents (Elt F)) (v : Vec F S256x256 .bf16) (hfb : (r2Slot h j).view.read (Elt F) fb = v) :
    (r2M : Memref sig .tc .vmem S2x4x256x256 .bf16).view.readAt (Elt F) (Rect.unit (s := S2x4x256x256) off S1x1x256x256.size p).toLoadRect fb = up4 v := by
  subst hoff; exact (r2_readAt (F := F) h j fb).trans (congrArg up4 hfb)

/-- Naming the contents a points-to holds. -/
theorem name_it {ℓ : Loc nD τ sig} {S : Finset (Idx ℓ)} {q : PosShare TreeShare} (f : Buf (Elt F) ℓ) :
    (ℓ ↦[S]{q} f : sProp 𝕄) ⊢ iprop(∃ g, ⌜g = f⌝ ∗ ℓ ↦[S]{q} g) := by
  iintro H; iexists f; isplitr
  · ipureintro; rfl
  iexact H

section Body

set_option maxHeartbeats 0 in
theorem sound_body (c : Dev nD) (Kt : PUnit → sProp 𝕄) :
    iprop(bodyPre' m ρ c ∗ (bodyPost m ρ c -∗ Kt ⟨⟩))
      ⊢ wp frame (wpE (defs₀ (F := F)) 𝒱₀ c none) Set.univ
          (cc0_body xM (Memref.isWhole_whole _) yM (Memref.isWhole_whole _) oM (Memref.isWhole_whole _)
            pbM (Memref.isWhole_whole _) redM (Memref.isWhole_whole _) rbM (Memref.isWhole_whole _) r1M (Memref.isWhole_whole _) r2M (Memref.isWhole_whole _)
            cc0_scratch5 cc0_scratch6 cc0_scratch7 cc0_scratch8 cc0_scratch9 cc0_scratch10) Kt := by
  -- the rectangles the body loads and stores through lie in the slots held
  have hi_pb0 : (pbM : Memref sig .tc .vmem S1024x512 .bf16).view.setOn (Rect.unit (s := S1024x512) (k0_off10 c) S256x256.size (k0_off10_inb c)).set ⊆ (pbSlot (zF c) 0).view.set := by rw [rect_off10]; exact incl_pb _ _
  have hi_pb1 : (pbM : Memref sig .tc .vmem S1024x512 .bf16).view.setOn (Rect.unit (s := S1024x512) (k0_off16 c) S256x256.size (k0_off16_inb c)).set ⊆ (pbSlot (zF c) 1).view.set := by rw [rect_off16]; exact incl_pb _ _
  have hi_rb0_1 : (rbM : Memref sig .tc .vmem S2x4x256x256 .bf16).view.setOn (Rect.unit (s := S2x4x256x256) (k0_off13 c 1#32 1#32) S1x1x256x256.size (k0_off13_inb c 0 0)).set ⊆ (rbSlot 0 (zj c 1)).view.set := by rw [rect_off13_1_1]; exact incl_rb _ _
  have hi_rb1_1 : (rbM : Memref sig .tc .vmem S2x4x256x256 .bf16).view.setOn (Rect.unit (s := S2x4x256x256) (k0_off19 c 1#32 1#32) S1x1x256x256.size (k0_off19_inb c 0 0)).set ⊆ (rbSlot 1 (zj c 1)).view.set := by rw [rect_off19_1_1]; exact incl_rb _ _
  have hi_r10_1 : (r1M : Memref sig .tc .vmem S2x4x256x256 .bf16).view.setOn (Rect.unit (s := S2x4x256x256) (k0_off13 c 4#32 1#32) S1x1x256x256.size (k0_off13_inb c 1 0)).set ⊆ (r1Slot 0 (yj c 1)).view.set := by rw [rect_off13_4_1]; exact incl_r1 _ _
  have hi_r11_1 : (r1M : Memref sig .tc .vmem S2x4x256x256 .bf16).view.setOn (Rect.unit (s := S2x4x256x256) (k0_off19 c 4#32 1#32) S1x1x256x256.size (k0_off19_inb c 1 0)).set ⊆ (r1Slot 1 (yj c 1)).view.set := by rw [rect_off19_4_1]; exact incl_r1 _ _
  have hi_rb0_2 : (rbM : Memref sig .tc .vmem S2x4x256x256 .bf16).view.setOn (Rect.unit (s := S2x4x256x256) (k0_off13 c 1#32 2#32) S1x1x256x256.size (k0_off13_inb c 0 1)).set ⊆ (rbSlot 0 (zj c 2)).view.set := by rw [rect_off13_1_2]; exact incl_rb _ _
  have hi_rb1_2 : (rbM : Memref sig .tc .vmem S2x4x256x256 .bf16).view.setOn (Rect.unit (s := S2x4x256x256) (k0_off19 c 1#32 2#32) S1x1x256x256.size (k0_off19_inb c 0 1)).set ⊆ (rbSlot 1 (zj c 2)).view.set := by rw [rect_off19_1_2]; exact incl_rb _ _
  have hi_r10_2 : (r1M : Memref sig .tc .vmem S2x4x256x256 .bf16).view.setOn (Rect.unit (s := S2x4x256x256) (k0_off13 c 4#32 2#32) S1x1x256x256.size (k0_off13_inb c 1 1)).set ⊆ (r1Slot 0 (yj c 2)).view.set := by rw [rect_off13_4_2]; exact incl_r1 _ _
  have hi_r11_2 : (r1M : Memref sig .tc .vmem S2x4x256x256 .bf16).view.setOn (Rect.unit (s := S2x4x256x256) (k0_off19 c 4#32 2#32) S1x1x256x256.size (k0_off19_inb c 1 1)).set ⊆ (r1Slot 1 (yj c 2)).view.set := by rw [rect_off19_4_2]; exact incl_r1 _ _
  have hi_rb0_3 : (rbM : Memref sig .tc .vmem S2x4x256x256 .bf16).view.setOn (Rect.unit (s := S2x4x256x256) (k0_off13 c 1#32 3#32) S1x1x256x256.size (k0_off13_inb c 0 2)).set ⊆ (rbSlot 0 (zj c 3)).view.set := by rw [rect_off13_1_3]; exact incl_rb _ _
  have hi_rb1_3 : (rbM : Memref sig .tc .vmem S2x4x256x256 .bf16).view.setOn (Rect.unit (s := S2x4x256x256) (k0_off19 c 1#32 3#32) S1x1x256x256.size (k0_off19_inb c 0 2)).set ⊆ (rbSlot 1 (zj c 3)).view.set := by rw [rect_off19_1_3]; exact incl_rb _ _
  have hi_r10_3 : (r1M : Memref sig .tc .vmem S2x4x256x256 .bf16).view.setOn (Rect.unit (s := S2x4x256x256) (k0_off13 c 4#32 3#32) S1x1x256x256.size (k0_off13_inb c 1 2)).set ⊆ (r1Slot 0 (yj c 3)).view.set := by rw [rect_off13_4_3]; exact incl_r1 _ _
  have hi_r11_3 : (r1M : Memref sig .tc .vmem S2x4x256x256 .bf16).view.setOn (Rect.unit (s := S2x4x256x256) (k0_off19 c 4#32 3#32) S1x1x256x256.size (k0_off19_inb c 1 2)).set ⊆ (r1Slot 1 (yj c 3)).view.set := by rw [rect_off19_4_3]; exact incl_r1 _ _
  have hi_r2_0_0 : (r2M : Memref sig .tc .vmem S2x4x256x256 .bf16).view.setOn (Rect.unit (s := S2x4x256x256) ![0, 0, 0, 0] S1x1x256x256.size inb_S2x4x256x256_S1x1x256x256_0_0_0_0).set ⊆ (r2Slot 0 0).view.set := by rw [rect_r4_0_0]; exact incl_r2 _ _
  have hi_r2_0_1 : (r2M : Memref sig .tc .vmem S2x4x256x256 .bf16).view.setOn (Rect.unit (s := S2x4x256x256) ![0, 1, 0, 0] S1x1x256x256.size inb_S2x4x256x256_S1x1x256x256_0_1_0_0).set ⊆ (r2Slot 0 1).view.set := by rw [rect_r4_0_1]; exact incl_r2 _ _
  have hi_r2_0_2 : (r2M : Memref sig .tc .vmem S2x4x256x256 .bf16).view.setOn (Rect.unit (s := S2x4x256x256) ![0, 2, 0, 0] S1x1x256x256.size inb_S2x4x256x256_S1x1x256x256_0_2_0_0).set ⊆ (r2Slot 0 2).view.set := by rw [rect_r4_0_2]; exact incl_r2 _ _
  have hi_r2_0_3 : (r2M : Memref sig .tc .vmem S2x4x256x256 .bf16).view.setOn (Rect.unit (s := S2x4x256x256) ![0, 3, 0, 0] S1x1x256x256.size inb_S2x4x256x256_S1x1x256x256_0_3_0_0).set ⊆ (r2Slot 0 3).view.set := by rw [rect_r4_0_3]; exact incl_r2 _ _
  have hi_red_0 : (redM : Memref sig .tc .vmem S2x256x256 .bf16).view.setOn (Rect.unit (s := S2x256x256) ![0, 0, 0] S1x256x256.size inb_S2x256x256_S1x256x256_0_0_0).set ⊆ (redSlot 0).view.set := by rw [rect_red_0]; exact incl_red _
  have hi_reds_0 : ((redM : Memref sig .tc .vmem S2x256x256 .bf16).access (Rect.unit (s := S2x256x256) ![0, 0, 0] S1x256x256.size inb_S2x256x256_S1x256x256_0_0_0)).set ⊆ (redSlot 0).view.set := by rw [rect_red_0]; exact incl_red_acc _
  have hi_r2_1_0 : (r2M : Memref sig .tc .vmem S2x4x256x256 .bf16).view.setOn (Rect.unit (s := S2x4x256x256) ![1, 0, 0, 0] S1x1x256x256.size inb_S2x4x256x256_S1x1x256x256_1_0_0_0).set ⊆ (r2Slot 1 0).view.set := by rw [rect_r4_1_0]; exact incl_r2 _ _
  have hi_r2_1_1 : (r2M : Memref sig .tc .vmem S2x4x256x256 .bf16).view.setOn (Rect.unit (s := S2x4x256x256) ![1, 1, 0, 0] S1x1x256x256.size inb_S2x4x256x256_S1x1x256x256_1_1_0_0).set ⊆ (r2Slot 1 1).view.set := by rw [rect_r4_1_1]; exact incl_r2 _ _
  have hi_r2_1_2 : (r2M : Memref sig .tc .vmem S2x4x256x256 .bf16).view.setOn (Rect.unit (s := S2x4x256x256) ![1, 2, 0, 0] S1x1x256x256.size inb_S2x4x256x256_S1x1x256x256_1_2_0_0).set ⊆ (r2Slot 1 2).view.set := by rw [rect_r4_1_2]; exact incl_r2 _ _
  have hi_r2_1_3 : (r2M : Memref sig .tc .vmem S2x4x256x256 .bf16).view.setOn (Rect.unit (s := S2x4x256x256) ![1, 3, 0, 0] S1x1x256x256.size inb_S2x4x256x256_S1x1x256x256_1_3_0_0).set ⊆ (r2Slot 1 3).view.set := by rw [rect_r4_1_3]; exact incl_r2 _ _
  have hi_red_1 : (redM : Memref sig .tc .vmem S2x256x256 .bf16).view.setOn (Rect.unit (s := S2x256x256) ![1, 0, 0] S1x256x256.size inb_S2x256x256_S1x256x256_1_0_0).set ⊆ (redSlot 1).view.set := by rw [rect_red_1]; exact incl_red _
  have hi_reds_1 : ((redM : Memref sig .tc .vmem S2x256x256 .bf16).access (Rect.unit (s := S2x256x256) ![1, 0, 0] S1x256x256.size inb_S2x256x256_S1x256x256_1_0_0)).set ⊆ (redSlot 1).view.set := by rw [rect_red_1]; exact incl_red_acc _
  unfold bodyPre' Φ₀ start ghost records payToks launchCreds scratch
  iintro ⟨⟨⟨⟨⟨%K, ⟨#HI, #HR⟩, Hpos, Htb, Htr, Hts⟩, ⟨HcB, HcR⟩, #Hlev⟩, ⟨⟨%f0, Hs0⟩, ⟨%f1, Hs1⟩, ⟨%f2, Hs2⟩, ⟨%f3, Hs3⟩, ⟨%f4, Hs4⟩⟩⟩, Ho, ⟨%d0, %g0, %hg0, Hx⟩, ⟨%d1, %g1, %hg1, Hy⟩, ⟨%d2, %g2, %hg2, Hout⟩⟩, Hk⟩
  unfold Dat.owesAt Pipeline.owesWithin
  icases Ho with ⟨%W, %hW, HO⟩
  rw [show (dats m ρ 0 c).owed t₀.castSucc = owedFrom c 0 from rfl, owedFrom_zero_eq]
  -- the seven barrier tokens; the receive buffers slot by slot
  ihave Htb' := (Entails.of_eq (toks_bar_eq c)) $$ Htb
  icases Htb' with ⟨Htz1, Htz2, Htz3, Hty1, Hty2, Hty3, Htx⟩
  ihave Hrb := (Entails.of_eq (rb_rel c f2)) $$ Hs2
  icases Hrb with ⟨⟨Hb0_0, Hb0_1, Hb0_2, Hb0_3⟩, ⟨Hb1_0, Hb1_1, Hb1_2, Hb1_3⟩⟩
  ihave Hr1 := (Entails.of_eq (r1_rel c f3)) $$ Hs3
  icases Hr1 with ⟨⟨Hc0_0, Hc0_1, Hc0_2, Hc0_3⟩, ⟨Hc1_0, Hc1_1, Hc1_2, Hc1_3⟩⟩
  ihave Hr2 := (Entails.of_eq (r2_abs c f4)) $$ Hs4
  icases Hr2 with ⟨⟨Hd00, Hd01, Hd02, Hd03⟩, ⟨Hd10, Hd11, Hd12, Hd13⟩⟩
  ihave Hpos' := (Entails.of_eq (pos_rel c)) $$ Hpos
  icases Hpos' with ⟨HatB, ⟨⟨At00_0, At00_1, At00_2, At00_3⟩, ⟨At01_0, At01_1, At01_2, At01_3⟩⟩, ⟨⟨At10_0, At10_1, At10_2, At10_3⟩, ⟨At11_0, At11_1, At11_2, At11_3⟩⟩,
    ⟨⟨At20_0, At20_1, At20_2, At20_3⟩, ⟨At21_0, At21_1, At21_2, At21_3⟩⟩, ⟨⟨At30_0, At30_1, At30_2, At30_3⟩, ⟨At31_0, At31_1, At31_2, At31_3⟩⟩,
    ⟨⟨At40_0, At40_1, At40_2, At40_3⟩, ⟨At41_0, At41_1, At41_2, At41_3⟩⟩, ⟨⟨At50_0, At50_1, At50_2, At50_3⟩, ⟨At51_0, At51_1, At51_2, At51_3⟩⟩⟩
  ihave Htr' := (toks_recv_rel c) $$ Htr
  icases Htr' with ⟨TrB0_1, TrB0_2, TrB0_3, TrB1_1, TrB1_2, TrB1_3, TrC0_1, TrC0_2, TrC0_3, TrX0, TrR0_1, TrR0_2, TrR0_3, TrC1_1, TrC1_2, TrC1_3, TrX1, TrR1_1, TrR1_2, TrR1_3⟩
  ihave Hts' := (toks_send_rel c) $$ Hts
  icases Hts' with ⟨⟨⟨TsB0_1, TsB0_2, TsB0_3⟩, ⟨TsB1_1, TsB1_2, TsB1_3⟩⟩, ⟨⟨TsC0_1, TsC0_2, TsC0_3⟩, ⟨TsC1_1, TsC1_2, TsC1_3⟩⟩, ⟨⟨TsX0, TsR0_1, TsR0_2, TsR0_3⟩, ⟨TsX1, TsR1_1, TsR1_2, TsR1_3⟩⟩⟩
  ihave HcR' := (creds_rel c) $$ HcR
  icases HcR' with ⟨⟨⟨CrB0_1, CrB0_2, CrB0_3⟩, ⟨CrB1_1, CrB1_2, CrB1_3⟩⟩, ⟨⟨CrC0_1, CrC0_2, CrC0_3⟩, ⟨CrC1_1, CrC1_2, CrC1_3⟩⟩, ⟨⟨CrX0_0, CrX0_1, CrX0_2, CrX0_3⟩, ⟨CrX1_0, CrX1_1, CrX1_2, CrX1_3⟩⟩⟩
  have hx : g0 = xV m c := by rw [hg0]; unfold Dat.before; rw [if_pos (Gen.fetch0_0 t₀)]; rfl
  have hy : g1 = yV m c := by rw [hg1]; unfold Dat.before; rw [if_pos (Gen.fetch0_1 t₀)]; rfl
  subst hx; subst hy
  ihave HX := (whole_pts c cc0_stg0_0 _) $$ Hx
  ihave HY := (whole_pts c cc0_stg1_0 _) $$ Hy
  ihave HOut := (whole_pts c cc0_stg2_0 _) $$ Hout
  ihave HPb := (whole_pts c cc0_scratch0 _) $$ Hs0
  ihave HRed := (whole_pts c cc0_scratch1 _) $$ Hs1
  sl_exec_parts
  -- signal 1: to zP c 1
  ihave #HI_zP1 := (inv_bar m K (zP c 1)) $$ HI
  ihave #HR_zP1 := (reached_bar (F := F) (zP c 1)) $$ HR
  iapply (wp_sig m c (zP c 1) 2 (K (zP c 1, none)) _ _ rfl W) $$ [HO Htz1 Hb0_1 Hb1_1]
  · isplitr; · iexact HI_zP1
    isplitl [HO]; · iexact HO
    isplitl [Htz1]; · iexact Htz1
    isplitr [HR_zP1]
    · rw [bp_z1 m c]; unfold anyPts
      isplitl [Hb0_1]; · iexists f2; iexact Hb0_1
      iexists f2; iexact Hb1_1
    iexact HR_zP1
  iintro HO
  rw [wp_ret]; imodintro
  sl_exec_parts
  -- signal 2: to zP c 2
  ihave #HI_zP2 := (inv_bar m K (zP c 2)) $$ HI
  ihave #HR_zP2 := (reached_bar (F := F) (zP c 2)) $$ HR
  iapply (wp_sig m c (zP c 2) 1 (K (zP c 2, none)) _ _ rfl W) $$ [HO Htz2 Hb0_2 Hb1_2]
  · isplitr; · iexact HI_zP2
    isplitl [HO]; · iexact HO
    isplitl [Htz2]; · iexact Htz2
    isplitr [HR_zP2]
    · rw [bp_z2 m c]; unfold anyPts
      isplitl [Hb0_2]; · iexists f2; iexact Hb0_2
      iexists f2; iexact Hb1_2
    iexact HR_zP2
  iintro HO
  rw [wp_ret]; imodintro
  sl_exec_parts
  -- signal 3: to zP c 3
  ihave #HI_zP3 := (inv_bar m K (zP c 3)) $$ HI
  ihave #HR_zP3 := (reached_bar (F := F) (zP c 3)) $$ HR
  iapply (wp_sig m c (zP c 3) 0 (K (zP c 3, none)) _ _ rfl W) $$ [HO Htz3 Hb0_3 Hb1_3]
  · isplitr; · iexact HI_zP3
    isplitl [HO]; · iexact HO
    isplitl [Htz3]; · iexact Htz3
    isplitr [HR_zP3]
    · rw [bp_z3 m c]; unfold anyPts
      isplitl [Hb0_3]; · iexists f2; iexact Hb0_3
      iexists f2; iexact Hb1_3
    iexact HR_zP3
  iintro HO
  rw [wp_ret]; imodintro
  sl_exec_parts
  -- signal 4: to yP c 1
  ihave #HI_yP1 := (inv_bar m K (yP c 1)) $$ HI
  ihave #HR_yP1 := (reached_bar (F := F) (yP c 1)) $$ HR
  iapply (wp_sig m c (yP c 1) 5 (K (yP c 1, none)) _ _ rfl W) $$ [HO Hty1 Hc0_1 Hc1_1]
  · isplitr; · iexact HI_yP1
    isplitl [HO]; · iexact HO
    isplitl [Hty1]; · iexact Hty1
    isplitr [HR_yP1]
    · rw [bp_y1 m c]; unfold anyPts
      isplitl [Hc0_1]; · iexists f3; iexact Hc0_1
      iexists f3; iexact Hc1_1
    iexact HR_yP1
  iintro HO
  rw [wp_ret]; imodintro
  sl_exec_parts
  -- signal 5: to yP c 2
  ihave #HI_yP2 := (inv_bar m K (yP c 2)) $$ HI
  ihave #HR_yP2 := (reached_bar (F := F) (yP c 2)) $$ HR
  iapply (wp_sig m c (yP c 2) 4 (K (yP c 2, none)) _ _ rfl W) $$ [HO Hty2 Hc0_2 Hc1_2]
  · isplitr; · iexact HI_yP2
    isplitl [HO]; · iexact HO
    isplitl [Hty2]; · iexact Hty2
    isplitr [HR_yP2]
    · rw [bp_y2 m c]; unfold anyPts
      isplitl [Hc0_2]; · iexists f3; iexact Hc0_2
      iexists f3; iexact Hc1_2
    iexact HR_yP2
  iintro HO
  rw [wp_ret]; imodintro
  sl_exec_parts
  -- signal 6: to yP c 3
  ihave #HI_yP3 := (inv_bar m K (yP c 3)) $$ HI
  ihave #HR_yP3 := (reached_bar (F := F) (yP c 3)) $$ HR
  iapply (wp_sig m c (yP c 3) 3 (K (yP c 3, none)) _ _ rfl W) $$ [HO Hty3 Hc0_3 Hc1_3]
  · isplitr; · iexact HI_yP3
    isplitl [HO]; · iexact HO
    isplitl [Hty3]; · iexact Hty3
    isplitr [HR_yP3]
    · rw [bp_y3 m c]; unfold anyPts
      isplitl [Hc0_3]; · iexists f3; iexact Hc0_3
      iexists f3; iexact Hc1_3
    iexact HR_yP3
  iintro HO
  rw [wp_ret]; imodintro
  sl_exec_parts
  -- signal 7: to xP c
  ihave #HI_xP := (inv_bar m K (xP c)) $$ HI
  ihave #HR_xP := (reached_bar (F := F) (xP c)) $$ HR
  iapply (wp_sig m c (xP c) 6 (K (xP c, none)) _ _ rfl W) $$ [HO Htx Hd00 Hd01 Hd02 Hd03 Hd10 Hd11 Hd12 Hd13]
  · isplitr; · iexact HI_xP
    isplitl [HO]; · iexact HO
    isplitl [Htx]; · iexact Htx
    isplitr [HR_xP]
    · rw [bp_x m c]; unfold anyPts
      isplitl [Hd00 Hd01 Hd02 Hd03]
      · isplitl [Hd00]; · iexists f4; iexact Hd00
        isplitl [Hd01]; · iexists f4; iexact Hd01
        isplitl [Hd02]; · iexists f4; iexact Hd02
        iexists f4; iexact Hd03
      · isplitl [Hd10]; · iexists f4; iexact Hd10
        isplitl [Hd11]; · iexists f4; iexact Hd11
        isplitl [Hd12]; · iexists f4; iexact Hd12
        iexists f4; iexact Hd13
    iexact HR_xP
  iintro HO
  rw [wp_ret]; imodintro
  sl_exec_parts
  -- the barrier wait: seven units, the neighbours' slots come back
  ihave #HI_c := (inv_bar m K c) $$ HI
  iapply (wp_barwait m c (K (c, none)) (owedFrom c 7) W) $$ [HcB HO HatB]
  · isplitr; · iexact HI_c
    isplitl [HcB]; · iexact HcB
    isplitl [HO]; · iexact HO
    isplitr; · iapply (mayWait_bar c); iexact Hlev
    iexact HatB
  iintro ⟨HO, HatB, #HrB1, Hpay⟩
  rw [barPay_0, barPay_1, barPay_2, barPay_3, barPay_4, barPay_5, barPay_6]
  icases Hpay with ⟨Hz1, Hz2, Hz3, Hy1, Hy2, Hy3, Hxs0, Hxs1⟩
  ihave Hxr0 := (xslots_rel c (xP c) 0) $$ Hxs0
  ihave Hxr1 := (xslots_rel c (xP c) 1) $$ Hxs1
  unfold anyPts
  icases Hz1 with ⟨⟨%e0z1, He0z1⟩, ⟨%e1z1, He1z1⟩⟩
  icases Hz2 with ⟨⟨%e0z2, He0z2⟩, ⟨%e1z2, He1z2⟩⟩
  icases Hz3 with ⟨⟨%e0z3, He0z3⟩, ⟨%e1z3, He1z3⟩⟩
  icases Hy1 with ⟨⟨%e0y1, He0y1⟩, ⟨%e1y1, He1y1⟩⟩
  icases Hy2 with ⟨⟨%e0y2, He0y2⟩, ⟨%e1y2, He1y2⟩⟩
  icases Hy3 with ⟨⟨%e0y3, He0y3⟩, ⟨%e1y3, He1y3⟩⟩
  icases Hxr0 with ⟨⟨%e0x0, He0x_0⟩, ⟨%e0x1, He0x_1⟩, ⟨%e0x2, He0x_2⟩, ⟨%e0x3, He0x_3⟩⟩
  icases Hxr1 with ⟨⟨%e1x0, He1x_0⟩, ⟨%e1x1, He1x_1⟩, ⟨%e1x2, He1x_2⟩, ⟨%e1x3, He1x_3⟩⟩
  rw [wp_ret]; imodintro
  sl_exec_parts
  -- the partial products, block by block
  generalize hF0 : (Memref.whole cc0_scratch0).view.writes (Elt F) f0 _ = F0
  have hpb : ∀ (j : Fin 4) (h : Fin 2), (pbSlot j h).view.read (Elt F) F0 = pbVal m c j h := by
    subst hF0; intro j h; exact pb_fact m c f0 j h
  ihave Hp := (Entails.of_eq (pb_rel c F0)) $$ HPb
  icases Hp with ⟨⟨Hp0_0, Hp0_1, Hp0_2, Hp0_3⟩, ⟨Hp1_0, Hp1_1, Hp1_2, Hp1_3⟩⟩
  unfold slotPts
  -- transfer z phase, half 0, 1 steps on
  ihave #HIs_B0_1 := (inv_dC m K c 0 0 (zj c 1)) $$ HI
  ihave #HIr_B0_1 := (inv_dC m K (zP c 1) 1 0 (zF c)) $$ HI
  ihave #HRs_B0_1 := (reached_dC (F := F) c 0 0 (zj c 1)) $$ HR
  ihave #HRr_B0_1 := (reached_dC (F := F) (zP c 1) 1 0 (zF c)) $$ HR
  iapply (wp_xfer' m c (zP c 1) _ (Mesh.dev8_eq c) 0 0 (zj c 1) 1 0 (zF c) (used0_z1 c) (used1_z1 c) (K (c, some (0, 0, zj c 1))) (K (zP c 1, some (1, 0, zF c)))
      (src := pbSlot (zj c 1) 0) (dst := rbSlot 0 (zF c)) rfl fullShare _ e0z1 (owedFrom c 7) (owedFrom c 8) rfl _
      (to_any c _ _ _) (by rw [hpb (zj c 1) 0, ← rbVal_z1 m c 0]; exact to_holds _ _ _ _)) $$ [Hp0_1 He0z1 HO TsB0_1 TrB0_1]
  · isplitr; · iexact HIs_B0_1
    isplitr; · iexact HIr_B0_1
    isplitl [Hp0_1]; · iexact Hp0_1
    isplitl [He0z1]; · iexact He0z1
    isplitl [HO]; · iexact HO
    isplitl [TsB0_1]; · iexact TsB0_1
    isplitr; · iexact HRs_B0_1
    isplitl [TrB0_1]; · iexact TrB0_1
    iexact HRr_B0_1
  iintro ⟨CsB0_1, HO⟩
  sl_exec_parts
  -- transfer z phase, half 0, 2 steps on
  ihave #HIs_B0_2 := (inv_dC m K c 0 0 (zj c 2)) $$ HI
  ihave #HIr_B0_2 := (inv_dC m K (zP c 2) 1 0 (zF c)) $$ HI
  ihave #HRs_B0_2 := (reached_dC (F := F) c 0 0 (zj c 2)) $$ HR
  ihave #HRr_B0_2 := (reached_dC (F := F) (zP c 2) 1 0 (zF c)) $$ HR
  iapply (wp_xfer' m c (zP c 2) _ (Mesh.dev9_eq c) 0 0 (zj c 2) 1 0 (zF c) (used0_z2 c) (used1_z2 c) (K (c, some (0, 0, zj c 2))) (K (zP c 2, some (1, 0, zF c)))
      (src := pbSlot (zj c 2) 0) (dst := rbSlot 0 (zF c)) rfl fullShare _ e0z2 (owedFrom c 8) (owedFrom c 9) rfl _
      (to_any c _ _ _) (by rw [hpb (zj c 2) 0, ← rbVal_z2 m c 0]; exact to_holds _ _ _ _)) $$ [Hp0_2 He0z2 HO TsB0_2 TrB0_2]
  · isplitr; · iexact HIs_B0_2
    isplitr; · iexact HIr_B0_2
    isplitl [Hp0_2]; · iexact Hp0_2
    isplitl [He0z2]; · iexact He0z2
    isplitl [HO]; · iexact HO
    isplitl [TsB0_2]; · iexact TsB0_2
    isplitr; · iexact HRs_B0_2
    isplitl [TrB0_2]; · iexact TrB0_2
    iexact HRr_B0_2
  iintro ⟨CsB0_2, HO⟩
  sl_exec_parts
  -- transfer z phase, half 0, 3 steps on
  ihave #HIs_B0_3 := (inv_dC m K c 0 0 (zj c 3)) $$ HI
  ihave #HIr_B0_3 := (inv_dC m K (zP c 3) 1 0 (zF c)) $$ HI
  ihave #HRs_B0_3 := (reached_dC (F := F) c 0 0 (zj c 3)) $$ HR
  ihave #HRr_B0_3 := (reached_dC (F := F) (zP c 3) 1 0 (zF c)) $$ HR
  iapply (wp_xfer' m c (zP c 3) _ (Mesh.dev10_eq c) 0 0 (zj c 3) 1 0 (zF c) (used0_z3 c) (used1_z3 c) (K (c, some (0, 0, zj c 3))) (K (zP c 3, some (1, 0, zF c)))
      (src := pbSlot (zj c 3) 0) (dst := rbSlot 0 (zF c)) rfl fullShare _ e0z3 (owedFrom c 9) (owedFrom c 10) rfl _
      (to_any c _ _ _) (by rw [hpb (zj c 3) 0, ← rbVal_z3 m c 0]; exact to_holds _ _ _ _)) $$ [Hp0_3 He0z3 HO TsB0_3 TrB0_3]
  · isplitr; · iexact HIs_B0_3
    isplitr; · iexact HIr_B0_3
    isplitl [Hp0_3]; · iexact Hp0_3
    isplitl [He0z3]; · iexact He0z3
    isplitl [HO]; · iexact HO
    isplitl [TsB0_3]; · iexact TsB0_3
    isplitr; · iexact HRs_B0_3
    isplitl [TrB0_3]; · iexact TrB0_3
    iexact HRr_B0_3
  iintro ⟨CsB0_3, HO⟩
  sl_exec_parts
  -- transfer z phase, half 1, 1 steps on
  ihave #HIs_B1_1 := (inv_dC m K c 0 1 (zj c 1)) $$ HI
  ihave #HIr_B1_1 := (inv_dC m K (zP c 1) 1 1 (zF c)) $$ HI
  ihave #HRs_B1_1 := (reached_dC (F := F) c 0 1 (zj c 1)) $$ HR
  ihave #HRr_B1_1 := (reached_dC (F := F) (zP c 1) 1 1 (zF c)) $$ HR
  iapply (wp_xfer' m c (zP c 1) _ (Mesh.dev11_eq c) 0 1 (zj c 1) 1 1 (zF c) (used0_z1 c) (used1_z1 c) (K (c, some (0, 1, zj c 1))) (K (zP c 1, some (1, 1, zF c)))
      (src := pbSlot (zj c 1) 1) (dst := rbSlot 1 (zF c)) rfl fullShare _ e1z1 (owedFrom c 10) (owedFrom c 11) rfl _
      (to_any c _ _ _) (by rw [hpb (zj c 1) 1, ← rbVal_z1 m c 1]; exact to_holds _ _ _ _)) $$ [Hp1_1 He1z1 HO TsB1_1 TrB1_1]
  · isplitr; · iexact HIs_B1_1
    isplitr; · iexact HIr_B1_1
    isplitl [Hp1_1]; · iexact Hp1_1
    isplitl [He1z1]; · iexact He1z1
    isplitl [HO]; · iexact HO
    isplitl [TsB1_1]; · iexact TsB1_1
    isplitr; · iexact HRs_B1_1
    isplitl [TrB1_1]; · iexact TrB1_1
    iexact HRr_B1_1
  iintro ⟨CsB1_1, HO⟩
  sl_exec_parts
  -- transfer z phase, half 1, 2 steps on
  ihave #HIs_B1_2 := (inv_dC m K c 0 1 (zj c 2)) $$ HI
  ihave #HIr_B1_2 := (inv_dC m K (zP c 2) 1 1 (zF c)) $$ HI
  ihave #HRs_B1_2 := (reached_dC (F := F) c 0 1 (zj c 2)) $$ HR
  ihave #HRr_B1_2 := (reached_dC (F := F) (zP c 2) 1 1 (zF c)) $$ HR
  iapply (wp_xfer' m c (zP c 2) _ (Mesh.dev12_eq c) 0 1 (zj c 2) 1 1 (zF c) (used0_z2 c) (used1_z2 c) (K (c, some (0, 1, zj c 2))) (K (zP c 2, some (1, 1, zF c)))
      (src := pbSlot (zj c 2) 1) (dst := rbSlot 1 (zF c)) rfl fullShare _ e1z2 (owedFrom c 11) (owedFrom c 12) rfl _
      (to_any c _ _ _) (by rw [hpb (zj c 2) 1, ← rbVal_z2 m c 1]; exact to_holds _ _ _ _)) $$ [Hp1_2 He1z2 HO TsB1_2 TrB1_2]
  · isplitr; · iexact HIs_B1_2
    isplitr; · iexact HIr_B1_2
    isplitl [Hp1_2]; · iexact Hp1_2
    isplitl [He1z2]; · iexact He1z2
    isplitl [HO]; · iexact HO
    isplitl [TsB1_2]; · iexact TsB1_2
    isplitr; · iexact HRs_B1_2
    isplitl [TrB1_2]; · iexact TrB1_2
    iexact HRr_B1_2
  iintro ⟨CsB1_2, HO⟩
  sl_exec_parts
  -- transfer z phase, half 1, 3 steps on
  ihave #HIs_B1_3 := (inv_dC m K c 0 1 (zj c 3)) $$ HI
  ihave #HIr_B1_3 := (inv_dC m K (zP c 3) 1 1 (zF c)) $$ HI
  ihave #HRs_B1_3 := (reached_dC (F := F) c 0 1 (zj c 3)) $$ HR
  ihave #HRr_B1_3 := (reached_dC (F := F) (zP c 3) 1 1 (zF c)) $$ HR
  iapply (wp_xfer' m c (zP c 3) _ (Mesh.dev13_eq c) 0 1 (zj c 3) 1 1 (zF c) (used0_z3 c) (used1_z3 c) (K (c, some (0, 1, zj c 3))) (K (zP c 3, some (1, 1, zF c)))
      (src := pbSlot (zj c 3) 1) (dst := rbSlot 1 (zF c)) rfl fullShare _ e1z3 (owedFrom c 12) (owedFrom c 13) rfl _
      (to_any c _ _ _) (by rw [hpb (zj c 3) 1, ← rbVal_z3 m c 1]; exact to_holds _ _ _ _)) $$ [Hp1_3 He1z3 HO TsB1_3 TrB1_3]
  · isplitr; · iexact HIs_B1_3
    isplitr; · iexact HIr_B1_3
    isplitl [Hp1_3]; · iexact Hp1_3
    isplitl [He1z3]; · iexact He1z3
    isplitl [HO]; · iexact HO
    isplitl [TsB1_3]; · iexact TsB1_3
    isplitr; · iexact HRs_B1_3
    isplitl [TrB1_3]; · iexact TrB1_3
    iexact HRr_B1_3
  iintro ⟨CsB1_3, HO⟩
  sl_exec_parts
  -- wait: z phase half 0, from 1 steps on
  ihave #HIw_bR0_1 := (inv_dC m K c 1 0 (zj c 1)) $$ HI
  iapply (wp_dmawait m c 1 0 (zj c 1) (used1_own_z1 c) (K (c, some (1, 0, zj c 1))) (owedFrom c 13) _ (dst := rbSlot 0 (zj c 1)) rfl) $$ [CrB0_1 HO At10_1]
  · isplitr; · iexact HIw_bR0_1
    isplitl [CrB0_1]; · iexact CrB0_1
    isplitl [HO]; · iexact HO
    isplitr; · iapply (mayWait_bR c 0 (zj c 1) 13 (by decide)); iexact Hlev
    iexact At10_1
  rw [show dmaPay m c 1 0 (zj c 1) = holds c (rbSlot 0 (zj c 1)) (rbVal m c 0 (zj c 1)) from rfl]
  unfold holds slotPts
  iintro ⟨HO, At10_1, #Hr1_bR0_1, ⟨%fb0_1, Hb0_1, %hfb0_1⟩⟩
  sl_exec_parts
  -- wait: z phase half 0, from 2 steps on
  ihave #HIw_bR0_2 := (inv_dC m K c 1 0 (zj c 2)) $$ HI
  iapply (wp_dmawait m c 1 0 (zj c 2) (used1_own_z2 c) (K (c, some (1, 0, zj c 2))) (owedFrom c 13) _ (dst := rbSlot 0 (zj c 2)) rfl) $$ [CrB0_2 HO At10_2]
  · isplitr; · iexact HIw_bR0_2
    isplitl [CrB0_2]; · iexact CrB0_2
    isplitl [HO]; · iexact HO
    isplitr; · iapply (mayWait_bR c 0 (zj c 2) 13 (by decide)); iexact Hlev
    iexact At10_2
  rw [show dmaPay m c 1 0 (zj c 2) = holds c (rbSlot 0 (zj c 2)) (rbVal m c 0 (zj c 2)) from rfl]
  unfold holds slotPts
  iintro ⟨HO, At10_2, #Hr1_bR0_2, ⟨%fb0_2, Hb0_2, %hfb0_2⟩⟩
  sl_exec_parts
  -- wait: z phase half 0, from 3 steps on
  ihave #HIw_bR0_3 := (inv_dC m K c 1 0 (zj c 3)) $$ HI
  iapply (wp_dmawait m c 1 0 (zj c 3) (used1_own_z3 c) (K (c, some (1, 0, zj c 3))) (owedFrom c 13) _ (dst := rbSlot 0 (zj c 3)) rfl) $$ [CrB0_3 HO At10_3]
  · isplitr; · iexact HIw_bR0_3
    isplitl [CrB0_3]; · iexact CrB0_3
    isplitl [HO]; · iexact HO
    isplitr; · iapply (mayWait_bR c 0 (zj c 3) 13 (by decide)); iexact Hlev
    iexact At10_3
  rw [show dmaPay m c 1 0 (zj c 3) = holds c (rbSlot 0 (zj c 3)) (rbVal m c 0 (zj c 3)) from rfl]
  unfold holds slotPts
  iintro ⟨HO, At10_3, #Hr1_bR0_3, ⟨%fb0_3, Hb0_3, %hfb0_3⟩⟩
  sl_exec_parts
  -- the sum of half 0: its slot, then its four lent shares
  generalize hF1 : (Memref.whole cc0_scratch1).view.writes (Elt F) f1 _ = F1
  have hred0 : (redSlot 0).view.read (Elt F) F1 = red2 m c 0 := by
    subst hF1; exact red0_fact m c F0 hpb fb0_1 fb0_2 fb0_3 hfb0_1 hfb0_2 hfb0_3 f1
  ihave Hr := (Entails.of_eq (red_two c F1)) $$ HRed
  icases Hr with ⟨Hred0, Hred1⟩
  unfold slotPts
  ihave Hr0 := (red_split' c 0 F1) $$ Hred0
  icases Hr0 with ⟨Hred0_k, Hred0_q0, Hred0_q1, Hred0_q2, Hred0_q3⟩
  -- transfer y phase, half 0, 1 steps on
  ihave #HIs_C0_1 := (inv_dC m K c 2 0 (yj c 1)) $$ HI
  ihave #HIr_C0_1 := (inv_dC m K (yP c 1) 3 0 (yF c)) $$ HI
  ihave #HRs_C0_1 := (reached_dC (F := F) c 2 0 (yj c 1)) $$ HR
  ihave #HRr_C0_1 := (reached_dC (F := F) (yP c 1) 3 0 (yF c)) $$ HR
  iapply (wp_xfer' m c (yP c 1) _ (Mesh.dev14_eq c) 2 0 (yj c 1) 3 0 (yF c) (used2_y1 c) (used3_y1 c) (K (c, some (2, 0, yj c 1))) (K (yP c 1, some (3, 0, yF c)))
      (src := redSlot 0) (dst := r1Slot 0 (yF c)) rfl (qS (yj c 1)) F1 e0y1 (owedFrom c 13) (owedFrom c 14) rfl _
      (to_any c _ _ _) (by rw [hred0, ← red2_y1 m c 0]; exact to_holds _ _ _ _)) $$ [Hred0_q1 He0y1 HO TsC0_1 TrC0_1]
  · isplitr; · iexact HIs_C0_1
    isplitr; · iexact HIr_C0_1
    isplitl [Hred0_q1]; · iexact Hred0_q1
    isplitl [He0y1]; · iexact He0y1
    isplitl [HO]; · iexact HO
    isplitl [TsC0_1]; · iexact TsC0_1
    isplitr; · iexact HRs_C0_1
    isplitl [TrC0_1]; · iexact TrC0_1
    iexact HRr_C0_1
  iintro ⟨CsC0_1, HO⟩
  sl_exec_parts
  -- transfer y phase, half 0, 2 steps on
  ihave #HIs_C0_2 := (inv_dC m K c 2 0 (yj c 2)) $$ HI
  ihave #HIr_C0_2 := (inv_dC m K (yP c 2) 3 0 (yF c)) $$ HI
  ihave #HRs_C0_2 := (reached_dC (F := F) c 2 0 (yj c 2)) $$ HR
  ihave #HRr_C0_2 := (reached_dC (F := F) (yP c 2) 3 0 (yF c)) $$ HR
  iapply (wp_xfer' m c (yP c 2) _ (Mesh.dev15_eq c) 2 0 (yj c 2) 3 0 (yF c) (used2_y2 c) (used3_y2 c) (K (c, some (2, 0, yj c 2))) (K (yP c 2, some (3, 0, yF c)))
      (src := redSlot 0) (dst := r1Slot 0 (yF c)) rfl (qS (yj c 2)) F1 e0y2 (owedFrom c 14) (owedFrom c 15) rfl _
      (to_any c _ _ _) (by rw [hred0, ← red2_y2 m c 0]; exact to_holds _ _ _ _)) $$ [Hred0_q2 He0y2 HO TsC0_2 TrC0_2]
  · isplitr; · iexact HIs_C0_2
    isplitr; · iexact HIr_C0_2
    isplitl [Hred0_q2]; · iexact Hred0_q2
    isplitl [He0y2]; · iexact He0y2
    isplitl [HO]; · iexact HO
    isplitl [TsC0_2]; · iexact TsC0_2
    isplitr; · iexact HRs_C0_2
    isplitl [TrC0_2]; · iexact TrC0_2
    iexact HRr_C0_2
  iintro ⟨CsC0_2, HO⟩
  sl_exec_parts
  -- transfer y phase, half 0, 3 steps on
  ihave #HIs_C0_3 := (inv_dC m K c 2 0 (yj c 3)) $$ HI
  ihave #HIr_C0_3 := (inv_dC m K (yP c 3) 3 0 (yF c)) $$ HI
  ihave #HRs_C0_3 := (reached_dC (F := F) c 2 0 (yj c 3)) $$ HR
  ihave #HRr_C0_3 := (reached_dC (F := F) (yP c 3) 3 0 (yF c)) $$ HR
  iapply (wp_xfer' m c (yP c 3) _ (Mesh.dev16_eq c) 2 0 (yj c 3) 3 0 (yF c) (used2_y3 c) (used3_y3 c) (K (c, some (2, 0, yj c 3))) (K (yP c 3, some (3, 0, yF c)))
      (src := redSlot 0) (dst := r1Slot 0 (yF c)) rfl (qS (yj c 3)) F1 e0y3 (owedFrom c 15) (owedFrom c 16) rfl _
      (to_any c _ _ _) (by rw [hred0, ← red2_y3 m c 0]; exact to_holds _ _ _ _)) $$ [Hred0_q3 He0y3 HO TsC0_3 TrC0_3]
  · isplitr; · iexact HIs_C0_3
    isplitr; · iexact HIr_C0_3
    isplitl [Hred0_q3]; · iexact Hred0_q3
    isplitl [He0y3]; · iexact He0y3
    isplitl [HO]; · iexact HO
    isplitl [TsC0_3]; · iexact TsC0_3
    isplitr; · iexact HRs_C0_3
    isplitl [TrC0_3]; · iexact TrC0_3
    iexact HRr_C0_3
  iintro ⟨CsC0_3, HO⟩
  sl_exec_parts
  -- transfer x phase, half 0, direct
  ihave #HIs_X0 := (inv_dC m K c 4 0 (yF c)) $$ HI
  ihave #HIr_X0 := (inv_dC m K (xP c) 5 0 (yF c)) $$ HI
  ihave #HRs_X0 := (reached_dC (F := F) c 4 0 (yF c)) $$ HR
  ihave #HRr_X0 := (reached_dC (F := F) (xP c) 5 0 (yF c)) $$ HR
  iapply (wp_xfer' m c (xP c) _ (Mesh.dev17_eq c) 4 0 (yF c) 5 0 (yF c) (used4 c _) (used5 (xP c) _) (K (c, some (4, 0, yF c))) (K (xP c, some (5, 0, yF c)))
      (src := redSlot 0) (dst := r2Slot 0 (yF c)) rfl (qS (yF c)) F1 e0x0 (owedFrom c 16) (owedFrom c 17) rfl _
      (by rw [show dmaPay m c 4 0 (yF c) = anyPts c (redSlot 0) (qS (yF c)) from if_pos rfl]; exact to_any c _ _ _) (by rw [hred0, ← red2_x m c 0]; exact to_holds _ _ _ _)) $$ [Hred0_q0 He0x_0 HO TsX0 TrX0]
  · isplitr; · iexact HIs_X0
    isplitr; · iexact HIr_X0
    isplitl [Hred0_q0]; · iexact Hred0_q0
    isplitl [He0x_0]; · iexact He0x_0
    isplitl [HO]; · iexact HO
    isplitl [TsX0]; · iexact TsX0
    isplitr; · iexact HRs_X0
    isplitl [TrX0]; · iexact TrX0
    iexact HRr_X0
  iintro ⟨CsX0, HO⟩
  sl_exec_parts
  -- wait: y phase half 0, from 1 steps on
  ihave #HIw_c1R0_1 := (inv_dC m K c 3 0 (yj c 1)) $$ HI
  iapply (wp_dmawait m c 3 0 (yj c 1) (used3_own_y1 c) (K (c, some (3, 0, yj c 1))) (owedFrom c 17) _ (dst := r1Slot 0 (yj c 1)) rfl) $$ [CrC0_1 HO At30_1]
  · isplitr; · iexact HIw_c1R0_1
    isplitl [CrC0_1]; · iexact CrC0_1
    isplitl [HO]; · iexact HO
    isplitr; · iapply (mayWait_c1R0 c (yj c 1) 17 (by decide)); iexact Hlev
    iexact At30_1
  rw [show dmaPay m c 3 0 (yj c 1) = holds c (r1Slot 0 (yj c 1)) (red2 m (atY c (yj c 1)) 0) from rfl]
  unfold holds slotPts
  iintro ⟨HO, At30_1, #Hr1_c1R0_1, ⟨%fc0_1, Hc0_1, %hfc0_1⟩⟩
  ihave Hsh := (r1_split' c 0 (yj c 1) fc0_1) $$ Hc0_1
  icases Hsh with ⟨Hc0_1, Hc0_1q⟩
  sl_exec_parts
  -- transfer x phase, half 0, relay of 1 steps on
  ihave #HIs_R0_1 := (inv_dC m K c 4 0 (yj c 1)) $$ HI
  ihave #HIr_R0_1 := (inv_dC m K (xP c) 5 0 (yj c 1)) $$ HI
  ihave #HRs_R0_1 := (reached_dC (F := F) c 4 0 (yj c 1)) $$ HR
  ihave #HRr_R0_1 := (reached_dC (F := F) (xP c) 5 0 (yj c 1)) $$ HR
  iapply (wp_xfer' m c (xP c) _ (Mesh.dev18_eq c) 4 0 (yj c 1) 5 0 (yj c 1) (used4 c _) (used5 (xP c) _) (K (c, some (4, 0, yj c 1))) (K (xP c, some (5, 0, yj c 1)))
      (src := r1Slot 0 (yj c 1)) (dst := r2Slot 0 (yj c 1)) rfl qR fc0_1 e0x1 (owedFrom c 17) (owedFrom c 18) rfl _
      (by rw [show dmaPay m c 4 0 (yj c 1) = anyPts c (r1Slot 0 (yj c 1)) qR from if_neg (yj_ne_yF1 c)]; exact to_any c _ _ _) (by rw [hfc0_1, ← red2_xr1 m c 0]; exact to_holds _ _ _ _)) $$ [Hc0_1q He0x_1 HO TsR0_1 TrR0_1]
  · isplitr; · iexact HIs_R0_1
    isplitr; · iexact HIr_R0_1
    isplitl [Hc0_1q]; · iexact Hc0_1q
    isplitl [He0x_1]; · iexact He0x_1
    isplitl [HO]; · iexact HO
    isplitl [TsR0_1]; · iexact TsR0_1
    isplitr; · iexact HRs_R0_1
    isplitl [TrR0_1]; · iexact TrR0_1
    iexact HRr_R0_1
  iintro ⟨CsR0_1, HO⟩
  sl_exec_parts
  -- wait: y phase half 0, from 2 steps on
  ihave #HIw_c1R0_2 := (inv_dC m K c 3 0 (yj c 2)) $$ HI
  iapply (wp_dmawait m c 3 0 (yj c 2) (used3_own_y2 c) (K (c, some (3, 0, yj c 2))) (owedFrom c 18) _ (dst := r1Slot 0 (yj c 2)) rfl) $$ [CrC0_2 HO At30_2]
  · isplitr; · iexact HIw_c1R0_2
    isplitl [CrC0_2]; · iexact CrC0_2
    isplitl [HO]; · iexact HO
    isplitr; · iapply (mayWait_c1R0 c (yj c 2) 18 (by decide)); iexact Hlev
    iexact At30_2
  rw [show dmaPay m c 3 0 (yj c 2) = holds c (r1Slot 0 (yj c 2)) (red2 m (atY c (yj c 2)) 0) from rfl]
  unfold holds slotPts
  iintro ⟨HO, At30_2, #Hr1_c1R0_2, ⟨%fc0_2, Hc0_2, %hfc0_2⟩⟩
  ihave Hsh := (r1_split' c 0 (yj c 2) fc0_2) $$ Hc0_2
  icases Hsh with ⟨Hc0_2, Hc0_2q⟩
  sl_exec_parts
  -- transfer x phase, half 0, relay of 2 steps on
  ihave #HIs_R0_2 := (inv_dC m K c 4 0 (yj c 2)) $$ HI
  ihave #HIr_R0_2 := (inv_dC m K (xP c) 5 0 (yj c 2)) $$ HI
  ihave #HRs_R0_2 := (reached_dC (F := F) c 4 0 (yj c 2)) $$ HR
  ihave #HRr_R0_2 := (reached_dC (F := F) (xP c) 5 0 (yj c 2)) $$ HR
  iapply (wp_xfer' m c (xP c) _ (Mesh.dev19_eq c) 4 0 (yj c 2) 5 0 (yj c 2) (used4 c _) (used5 (xP c) _) (K (c, some (4, 0, yj c 2))) (K (xP c, some (5, 0, yj c 2)))
      (src := r1Slot 0 (yj c 2)) (dst := r2Slot 0 (yj c 2)) rfl qR fc0_2 e0x2 (owedFrom c 18) (owedFrom c 19) rfl _
      (by rw [show dmaPay m c 4 0 (yj c 2) = anyPts c (r1Slot 0 (yj c 2)) qR from if_neg (yj_ne_yF2 c)]; exact to_any c _ _ _) (by rw [hfc0_2, ← red2_xr2 m c 0]; exact to_holds _ _ _ _)) $$ [Hc0_2q He0x_2 HO TsR0_2 TrR0_2]
  · isplitr; · iexact HIs_R0_2
    isplitr; · iexact HIr_R0_2
    isplitl [Hc0_2q]; · iexact Hc0_2q
    isplitl [He0x_2]; · iexact He0x_2
    isplitl [HO]; · iexact HO
    isplitl [TsR0_2]; · iexact TsR0_2
    isplitr; · iexact HRs_R0_2
    isplitl [TrR0_2]; · iexact TrR0_2
    iexact HRr_R0_2
  iintro ⟨CsR0_2, HO⟩
  sl_exec_parts
  -- wait: y phase half 0, from 3 steps on
  ihave #HIw_c1R0_3 := (inv_dC m K c 3 0 (yj c 3)) $$ HI
  iapply (wp_dmawait m c 3 0 (yj c 3) (used3_own_y3 c) (K (c, some (3, 0, yj c 3))) (owedFrom c 19) _ (dst := r1Slot 0 (yj c 3)) rfl) $$ [CrC0_3 HO At30_3]
  · isplitr; · iexact HIw_c1R0_3
    isplitl [CrC0_3]; · iexact CrC0_3
    isplitl [HO]; · iexact HO
    isplitr; · iapply (mayWait_c1R0 c (yj c 3) 19 (by decide)); iexact Hlev
    iexact At30_3
  rw [show dmaPay m c 3 0 (yj c 3) = holds c (r1Slot 0 (yj c 3)) (red2 m (atY c (yj c 3)) 0) from rfl]
  unfold holds slotPts
  iintro ⟨HO, At30_3, #Hr1_c1R0_3, ⟨%fc0_3, Hc0_3, %hfc0_3⟩⟩
  ihave Hsh := (r1_split' c 0 (yj c 3) fc0_3) $$ Hc0_3
  icases Hsh with ⟨Hc0_3, Hc0_3q⟩
  sl_exec_parts
  -- transfer x phase, half 0, relay of 3 steps on
  ihave #HIs_R0_3 := (inv_dC m K c 4 0 (yj c 3)) $$ HI
  ihave #HIr_R0_3 := (inv_dC m K (xP c) 5 0 (yj c 3)) $$ HI
  ihave #HRs_R0_3 := (reached_dC (F := F) c 4 0 (yj c 3)) $$ HR
  ihave #HRr_R0_3 := (reached_dC (F := F) (xP c) 5 0 (yj c 3)) $$ HR
  iapply (wp_xfer' m c (xP c) _ (Mesh.dev20_eq c) 4 0 (yj c 3) 5 0 (yj c 3) (used4 c _) (used5 (xP c) _) (K (c, some (4, 0, yj c 3))) (K (xP c, some (5, 0, yj c 3)))
      (src := r1Slot 0 (yj c 3)) (dst := r2Slot 0 (yj c 3)) rfl qR fc0_3 e0x3 (owedFrom c 19) (owedFrom c 20) rfl _
      (by rw [show dmaPay m c 4 0 (yj c 3) = anyPts c (r1Slot 0 (yj c 3)) qR from if_neg (yj_ne_yF3 c)]; exact to_any c _ _ _) (by rw [hfc0_3, ← red2_xr3 m c 0]; exact to_holds _ _ _ _)) $$ [Hc0_3q He0x_3 HO TsR0_3 TrR0_3]
  · isplitr; · iexact HIs_R0_3
    isplitr; · iexact HIr_R0_3
    isplitl [Hc0_3q]; · iexact Hc0_3q
    isplitl [He0x_3]; · iexact He0x_3
    isplitl [HO]; · iexact HO
    isplitl [TsR0_3]; · iexact TsR0_3
    isplitr; · iexact HRs_R0_3
    isplitl [TrR0_3]; · iexact TrR0_3
    iexact HRr_R0_3
  iintro ⟨CsR0_3, HO⟩
  sl_exec_parts
  -- wait: z phase half 1, from 1 steps on
  ihave #HIw_bR1_1 := (inv_dC m K c 1 1 (zj c 1)) $$ HI
  iapply (wp_dmawait m c 1 1 (zj c 1) (used1_own_z1 c) (K (c, some (1, 1, zj c 1))) (owedFrom c 20) _ (dst := rbSlot 1 (zj c 1)) rfl) $$ [CrB1_1 HO At11_1]
  · isplitr; · iexact HIw_bR1_1
    isplitl [CrB1_1]; · iexact CrB1_1
    isplitl [HO]; · iexact HO
    isplitr; · iapply (mayWait_bR c 1 (zj c 1) 20 (by decide)); iexact Hlev
    iexact At11_1
  rw [show dmaPay m c 1 1 (zj c 1) = holds c (rbSlot 1 (zj c 1)) (rbVal m c 1 (zj c 1)) from rfl]
  unfold holds slotPts
  iintro ⟨HO, At11_1, #Hr1_bR1_1, ⟨%fb1_1, Hb1_1, %hfb1_1⟩⟩
  sl_exec_parts
  -- wait: z phase half 1, from 2 steps on
  ihave #HIw_bR1_2 := (inv_dC m K c 1 1 (zj c 2)) $$ HI
  iapply (wp_dmawait m c 1 1 (zj c 2) (used1_own_z2 c) (K (c, some (1, 1, zj c 2))) (owedFrom c 20) _ (dst := rbSlot 1 (zj c 2)) rfl) $$ [CrB1_2 HO At11_2]
  · isplitr; · iexact HIw_bR1_2
    isplitl [CrB1_2]; · iexact CrB1_2
    isplitl [HO]; · iexact HO
    isplitr; · iapply (mayWait_bR c 1 (zj c 2) 20 (by decide)); iexact Hlev
    iexact At11_2
  rw [show dmaPay m c 1 1 (zj c 2) = holds c (rbSlot 1 (zj c 2)) (rbVal m c 1 (zj c 2)) from rfl]
  unfold holds slotPts
  iintro ⟨HO, At11_2, #Hr1_bR1_2, ⟨%fb1_2, Hb1_2, %hfb1_2⟩⟩
  sl_exec_parts
  -- wait: z phase half 1, from 3 steps on
  ihave #HIw_bR1_3 := (inv_dC m K c 1 1 (zj c 3)) $$ HI
  iapply (wp_dmawait m c 1 1 (zj c 3) (used1_own_z3 c) (K (c, some (1, 1, zj c 3))) (owedFrom c 20) _ (dst := rbSlot 1 (zj c 3)) rfl) $$ [CrB1_3 HO At11_3]
  · isplitr; · iexact HIw_bR1_3
    isplitl [CrB1_3]; · iexact CrB1_3
    isplitl [HO]; · iexact HO
    isplitr; · iapply (mayWait_bR c 1 (zj c 3) 20 (by decide)); iexact Hlev
    iexact At11_3
  rw [show dmaPay m c 1 1 (zj c 3) = holds c (rbSlot 1 (zj c 3)) (rbVal m c 1 (zj c 3)) from rfl]
  unfold holds slotPts
  iintro ⟨HO, At11_3, #Hr1_bR1_3, ⟨%fb1_3, Hb1_3, %hfb1_3⟩⟩
  sl_exec_parts
  -- the sum of half 1: its slot, then its four lent shares
  ihave Hn1 := (name_it _) $$ Hred1
  icases Hn1 with ⟨%F1', %hF1', Hred1⟩
  have hred1 : (redSlot 1).view.read (Elt F) F1' = red2 m c 1 := by
    rw [hF1']; exact red1_fact m c F0 hpb fb1_1 fb1_2 fb1_3 hfb1_1 hfb1_2 hfb1_3 F1
  ihave Hr1 := (red_split' c 1 F1') $$ Hred1
  icases Hr1 with ⟨Hred1_k, Hred1_q0, Hred1_q1, Hred1_q2, Hred1_q3⟩
  -- transfer y phase, half 1, 1 steps on
  ihave #HIs_C1_1 := (inv_dC m K c 2 1 (yj c 1)) $$ HI
  ihave #HIr_C1_1 := (inv_dC m K (yP c 1) 3 1 (yF c)) $$ HI
  ihave #HRs_C1_1 := (reached_dC (F := F) c 2 1 (yj c 1)) $$ HR
  ihave #HRr_C1_1 := (reached_dC (F := F) (yP c 1) 3 1 (yF c)) $$ HR
  iapply (wp_xfer' m c (yP c 1) _ (Mesh.dev21_eq c) 2 1 (yj c 1) 3 1 (yF c) (used2_y1 c) (used3_y1 c) (K (c, some (2, 1, yj c 1))) (K (yP c 1, some (3, 1, yF c)))
      (src := redSlot 1) (dst := r1Slot 1 (yF c)) rfl (qS (yj c 1)) F1' e1y1 (owedFrom c 20) (owedFrom c 21) rfl _
      (to_any c _ _ _) (by rw [hred1, ← red2_y1 m c 1]; exact to_holds _ _ _ _)) $$ [Hred1_q1 He1y1 HO TsC1_1 TrC1_1]
  · isplitr; · iexact HIs_C1_1
    isplitr; · iexact HIr_C1_1
    isplitl [Hred1_q1]; · iexact Hred1_q1
    isplitl [He1y1]; · iexact He1y1
    isplitl [HO]; · iexact HO
    isplitl [TsC1_1]; · iexact TsC1_1
    isplitr; · iexact HRs_C1_1
    isplitl [TrC1_1]; · iexact TrC1_1
    iexact HRr_C1_1
  iintro ⟨CsC1_1, HO⟩
  sl_exec_parts
  -- transfer y phase, half 1, 2 steps on
  ihave #HIs_C1_2 := (inv_dC m K c 2 1 (yj c 2)) $$ HI
  ihave #HIr_C1_2 := (inv_dC m K (yP c 2) 3 1 (yF c)) $$ HI
  ihave #HRs_C1_2 := (reached_dC (F := F) c 2 1 (yj c 2)) $$ HR
  ihave #HRr_C1_2 := (reached_dC (F := F) (yP c 2) 3 1 (yF c)) $$ HR
  iapply (wp_xfer' m c (yP c 2) _ (Mesh.dev22_eq c) 2 1 (yj c 2) 3 1 (yF c) (used2_y2 c) (used3_y2 c) (K (c, some (2, 1, yj c 2))) (K (yP c 2, some (3, 1, yF c)))
      (src := redSlot 1) (dst := r1Slot 1 (yF c)) rfl (qS (yj c 2)) F1' e1y2 (owedFrom c 21) (owedFrom c 22) rfl _
      (to_any c _ _ _) (by rw [hred1, ← red2_y2 m c 1]; exact to_holds _ _ _ _)) $$ [Hred1_q2 He1y2 HO TsC1_2 TrC1_2]
  · isplitr; · iexact HIs_C1_2
    isplitr; · iexact HIr_C1_2
    isplitl [Hred1_q2]; · iexact Hred1_q2
    isplitl [He1y2]; · iexact He1y2
    isplitl [HO]; · iexact HO
    isplitl [TsC1_2]; · iexact TsC1_2
    isplitr; · iexact HRs_C1_2
    isplitl [TrC1_2]; · iexact TrC1_2
    iexact HRr_C1_2
  iintro ⟨CsC1_2, HO⟩
  sl_exec_parts
  -- transfer y phase, half 1, 3 steps on
  ihave #HIs_C1_3 := (inv_dC m K c 2 1 (yj c 3)) $$ HI
  ihave #HIr_C1_3 := (inv_dC m K (yP c 3) 3 1 (yF c)) $$ HI
  ihave #HRs_C1_3 := (reached_dC (F := F) c 2 1 (yj c 3)) $$ HR
  ihave #HRr_C1_3 := (reached_dC (F := F) (yP c 3) 3 1 (yF c)) $$ HR
  iapply (wp_xfer' m c (yP c 3) _ (Mesh.dev23_eq c) 2 1 (yj c 3) 3 1 (yF c) (used2_y3 c) (used3_y3 c) (K (c, some (2, 1, yj c 3))) (K (yP c 3, some (3, 1, yF c)))
      (src := redSlot 1) (dst := r1Slot 1 (yF c)) rfl (qS (yj c 3)) F1' e1y3 (owedFrom c 22) (owedFrom c 23) rfl _
      (to_any c _ _ _) (by rw [hred1, ← red2_y3 m c 1]; exact to_holds _ _ _ _)) $$ [Hred1_q3 He1y3 HO TsC1_3 TrC1_3]
  · isplitr; · iexact HIs_C1_3
    isplitr; · iexact HIr_C1_3
    isplitl [Hred1_q3]; · iexact Hred1_q3
    isplitl [He1y3]; · iexact He1y3
    isplitl [HO]; · iexact HO
    isplitl [TsC1_3]; · iexact TsC1_3
    isplitr; · iexact HRs_C1_3
    isplitl [TrC1_3]; · iexact TrC1_3
    iexact HRr_C1_3
  iintro ⟨CsC1_3, HO⟩
  sl_exec_parts
  -- transfer x phase, half 1, direct
  ihave #HIs_X1 := (inv_dC m K c 4 1 (yF c)) $$ HI
  ihave #HIr_X1 := (inv_dC m K (xP c) 5 1 (yF c)) $$ HI
  ihave #HRs_X1 := (reached_dC (F := F) c 4 1 (yF c)) $$ HR
  ihave #HRr_X1 := (reached_dC (F := F) (xP c) 5 1 (yF c)) $$ HR
  iapply (wp_xfer' m c (xP c) _ (Mesh.dev24_eq c) 4 1 (yF c) 5 1 (yF c) (used4 c _) (used5 (xP c) _) (K (c, some (4, 1, yF c))) (K (xP c, some (5, 1, yF c)))
      (src := redSlot 1) (dst := r2Slot 1 (yF c)) rfl (qS (yF c)) F1' e1x0 (owedFrom c 23) (owedFrom c 24) rfl _
      (by rw [show dmaPay m c 4 1 (yF c) = anyPts c (redSlot 1) (qS (yF c)) from if_pos rfl]; exact to_any c _ _ _) (by rw [hred1, ← red2_x m c 1]; exact to_holds _ _ _ _)) $$ [Hred1_q0 He1x_0 HO TsX1 TrX1]
  · isplitr; · iexact HIs_X1
    isplitr; · iexact HIr_X1
    isplitl [Hred1_q0]; · iexact Hred1_q0
    isplitl [He1x_0]; · iexact He1x_0
    isplitl [HO]; · iexact HO
    isplitl [TsX1]; · iexact TsX1
    isplitr; · iexact HRs_X1
    isplitl [TrX1]; · iexact TrX1
    iexact HRr_X1
  iintro ⟨CsX1, HO⟩
  sl_exec_parts
  -- wait: x phase half 0, slot 0
  ihave #HIw_c2R0_0 := (inv_dC m K c 5 0 (0)) $$ HI
  iapply (wp_dmawait m c 5 0 (0) (used5 c _) (K (c, some (5, 0, 0))) (owedFrom c 24) _ (dst := r2Slot 0 0) rfl) $$ [CrX0_0 HO At50_0]
  · isplitr; · iexact HIw_c2R0_0
    isplitl [CrX0_0]; · iexact CrX0_0
    isplitl [HO]; · iexact HO
    isplitr; · iapply (mayWait_c2R0 c 0 24 (by decide)); iexact Hlev
    iexact At50_0
  rw [show dmaPay m c 5 0 (0) = holds c (r2Slot 0 0) (red2 m (atXY c 0) 0) from rfl]
  unfold holds slotPts
  iintro ⟨HO, At50_0, #Hr1_c2R0_0, ⟨%fd0_0, Hd0_0, %hfd0_0⟩⟩
  sl_exec_parts
  -- wait: x phase half 0, slot 1
  ihave #HIw_c2R0_1 := (inv_dC m K c 5 0 (1)) $$ HI
  iapply (wp_dmawait m c 5 0 (1) (used5 c _) (K (c, some (5, 0, 1))) (owedFrom c 24) _ (dst := r2Slot 0 1) rfl) $$ [CrX0_1 HO At50_1]
  · isplitr; · iexact HIw_c2R0_1
    isplitl [CrX0_1]; · iexact CrX0_1
    isplitl [HO]; · iexact HO
    isplitr; · iapply (mayWait_c2R0 c 1 24 (by decide)); iexact Hlev
    iexact At50_1
  rw [show dmaPay m c 5 0 (1) = holds c (r2Slot 0 1) (red2 m (atXY c 1) 0) from rfl]
  unfold holds slotPts
  iintro ⟨HO, At50_1, #Hr1_c2R0_1, ⟨%fd0_1, Hd0_1, %hfd0_1⟩⟩
  sl_exec_parts
  -- wait: x phase half 0, slot 2
  ihave #HIw_c2R0_2 := (inv_dC m K c 5 0 (2)) $$ HI
  iapply (wp_dmawait m c 5 0 (2) (used5 c _) (K (c, some (5, 0, 2))) (owedFrom c 24) _ (dst := r2Slot 0 2) rfl) $$ [CrX0_2 HO At50_2]
  · isplitr; · iexact HIw_c2R0_2
    isplitl [CrX0_2]; · iexact CrX0_2
    isplitl [HO]; · iexact HO
    isplitr; · iapply (mayWait_c2R0 c 2 24 (by decide)); iexact Hlev
    iexact At50_2
  rw [show dmaPay m c 5 0 (2) = holds c (r2Slot 0 2) (red2 m (atXY c 2) 0) from rfl]
  unfold holds slotPts
  iintro ⟨HO, At50_2, #Hr1_c2R0_2, ⟨%fd0_2, Hd0_2, %hfd0_2⟩⟩
  sl_exec_parts
  -- wait: x phase half 0, slot 3
  ihave #HIw_c2R0_3 := (inv_dC m K c 5 0 (3)) $$ HI
  iapply (wp_dmawait m c 5 0 (3) (used5 c _) (K (c, some (5, 0, 3))) (owedFrom c 24) _ (dst := r2Slot 0 3) rfl) $$ [CrX0_3 HO At50_3]
  · isplitr; · iexact HIw_c2R0_3
    isplitl [CrX0_3]; · iexact CrX0_3
    isplitl [HO]; · iexact HO
    isplitr; · iapply (mayWait_c2R0 c 3 24 (by decide)); iexact Hlev
    iexact At50_3
  rw [show dmaPay m c 5 0 (3) = holds c (r2Slot 0 3) (red2 m (atXY c 3) 0) from rfl]
  unfold holds slotPts
  iintro ⟨HO, At50_3, #Hr1_c2R0_3, ⟨%fd0_3, Hd0_3, %hfd0_3⟩⟩
  sl_exec_parts
  -- wait: y phase half 1, from 1 steps on
  ihave #HIw_c1R1_1 := (inv_dC m K c 3 1 (yj c 1)) $$ HI
  iapply (wp_dmawait m c 3 1 (yj c 1) (used3_own_y1 c) (K (c, some (3, 1, yj c 1))) (owedFrom c 24) _ (dst := r1Slot 1 (yj c 1)) rfl) $$ [CrC1_1 HO At31_1]
  · isplitr; · iexact HIw_c1R1_1
    isplitl [CrC1_1]; · iexact CrC1_1
    isplitl [HO]; · iexact HO
    isplitr; · iapply (mayWait_c1R1 c (yj c 1) 24 (by decide)); iexact Hlev
    iexact At31_1
  rw [show dmaPay m c 3 1 (yj c 1) = holds c (r1Slot 1 (yj c 1)) (red2 m (atY c (yj c 1)) 1) from rfl]
  unfold holds slotPts
  iintro ⟨HO, At31_1, #Hr1_c1R1_1, ⟨%fc1_1, Hc1_1, %hfc1_1⟩⟩
  ihave Hsh := (r1_split' c 1 (yj c 1) fc1_1) $$ Hc1_1
  icases Hsh with ⟨Hc1_1, Hc1_1q⟩
  sl_exec_parts
  -- transfer x phase, half 1, relay of 1 steps on
  ihave #HIs_R1_1 := (inv_dC m K c 4 1 (yj c 1)) $$ HI
  ihave #HIr_R1_1 := (inv_dC m K (xP c) 5 1 (yj c 1)) $$ HI
  ihave #HRs_R1_1 := (reached_dC (F := F) c 4 1 (yj c 1)) $$ HR
  ihave #HRr_R1_1 := (reached_dC (F := F) (xP c) 5 1 (yj c 1)) $$ HR
  iapply (wp_xfer' m c (xP c) _ (Mesh.dev25_eq c) 4 1 (yj c 1) 5 1 (yj c 1) (used4 c _) (used5 (xP c) _) (K (c, some (4, 1, yj c 1))) (K (xP c, some (5, 1, yj c 1)))
      (src := r1Slot 1 (yj c 1)) (dst := r2Slot 1 (yj c 1)) rfl qR fc1_1 e1x1 (owedFrom c 24) (owedFrom c 25) rfl _
      (by rw [show dmaPay m c 4 1 (yj c 1) = anyPts c (r1Slot 1 (yj c 1)) qR from if_neg (yj_ne_yF1 c)]; exact to_any c _ _ _) (by rw [hfc1_1, ← red2_xr1 m c 1]; exact to_holds _ _ _ _)) $$ [Hc1_1q He1x_1 HO TsR1_1 TrR1_1]
  · isplitr; · iexact HIs_R1_1
    isplitr; · iexact HIr_R1_1
    isplitl [Hc1_1q]; · iexact Hc1_1q
    isplitl [He1x_1]; · iexact He1x_1
    isplitl [HO]; · iexact HO
    isplitl [TsR1_1]; · iexact TsR1_1
    isplitr; · iexact HRs_R1_1
    isplitl [TrR1_1]; · iexact TrR1_1
    iexact HRr_R1_1
  iintro ⟨CsR1_1, HO⟩
  sl_exec_parts
  -- wait: y phase half 1, from 2 steps on
  ihave #HIw_c1R1_2 := (inv_dC m K c 3 1 (yj c 2)) $$ HI
  iapply (wp_dmawait m c 3 1 (yj c 2) (used3_own_y2 c) (K (c, some (3, 1, yj c 2))) (owedFrom c 25) _ (dst := r1Slot 1 (yj c 2)) rfl) $$ [CrC1_2 HO At31_2]
  · isplitr; · iexact HIw_c1R1_2
    isplitl [CrC1_2]; · iexact CrC1_2
    isplitl [HO]; · iexact HO
    isplitr; · iapply (mayWait_c1R1 c (yj c 2) 25 (by decide)); iexact Hlev
    iexact At31_2
  rw [show dmaPay m c 3 1 (yj c 2) = holds c (r1Slot 1 (yj c 2)) (red2 m (atY c (yj c 2)) 1) from rfl]
  unfold holds slotPts
  iintro ⟨HO, At31_2, #Hr1_c1R1_2, ⟨%fc1_2, Hc1_2, %hfc1_2⟩⟩
  ihave Hsh := (r1_split' c 1 (yj c 2) fc1_2) $$ Hc1_2
  icases Hsh with ⟨Hc1_2, Hc1_2q⟩
  sl_exec_parts
  -- transfer x phase, half 1, relay of 2 steps on
  ihave #HIs_R1_2 := (inv_dC m K c 4 1 (yj c 2)) $$ HI
  ihave #HIr_R1_2 := (inv_dC m K (xP c) 5 1 (yj c 2)) $$ HI
  ihave #HRs_R1_2 := (reached_dC (F := F) c 4 1 (yj c 2)) $$ HR
  ihave #HRr_R1_2 := (reached_dC (F := F) (xP c) 5 1 (yj c 2)) $$ HR
  iapply (wp_xfer' m c (xP c) _ (Mesh.dev26_eq c) 4 1 (yj c 2) 5 1 (yj c 2) (used4 c _) (used5 (xP c) _) (K (c, some (4, 1, yj c 2))) (K (xP c, some (5, 1, yj c 2)))
      (src := r1Slot 1 (yj c 2)) (dst := r2Slot 1 (yj c 2)) rfl qR fc1_2 e1x2 (owedFrom c 25) (owedFrom c 26) rfl _
      (by rw [show dmaPay m c 4 1 (yj c 2) = anyPts c (r1Slot 1 (yj c 2)) qR from if_neg (yj_ne_yF2 c)]; exact to_any c _ _ _) (by rw [hfc1_2, ← red2_xr2 m c 1]; exact to_holds _ _ _ _)) $$ [Hc1_2q He1x_2 HO TsR1_2 TrR1_2]
  · isplitr; · iexact HIs_R1_2
    isplitr; · iexact HIr_R1_2
    isplitl [Hc1_2q]; · iexact Hc1_2q
    isplitl [He1x_2]; · iexact He1x_2
    isplitl [HO]; · iexact HO
    isplitl [TsR1_2]; · iexact TsR1_2
    isplitr; · iexact HRs_R1_2
    isplitl [TrR1_2]; · iexact TrR1_2
    iexact HRr_R1_2
  iintro ⟨CsR1_2, HO⟩
  sl_exec_parts
  -- wait: y phase half 1, from 3 steps on
  ihave #HIw_c1R1_3 := (inv_dC m K c 3 1 (yj c 3)) $$ HI
  iapply (wp_dmawait m c 3 1 (yj c 3) (used3_own_y3 c) (K (c, some (3, 1, yj c 3))) (owedFrom c 26) _ (dst := r1Slot 1 (yj c 3)) rfl) $$ [CrC1_3 HO At31_3]
  · isplitr; · iexact HIw_c1R1_3
    isplitl [CrC1_3]; · iexact CrC1_3
    isplitl [HO]; · iexact HO
    isplitr; · iapply (mayWait_c1R1 c (yj c 3) 26 (by decide)); iexact Hlev
    iexact At31_3
  rw [show dmaPay m c 3 1 (yj c 3) = holds c (r1Slot 1 (yj c 3)) (red2 m (atY c (yj c 3)) 1) from rfl]
  unfold holds slotPts
  iintro ⟨HO, At31_3, #Hr1_c1R1_3, ⟨%fc1_3, Hc1_3, %hfc1_3⟩⟩
  ihave Hsh := (r1_split' c 1 (yj c 3) fc1_3) $$ Hc1_3
  icases Hsh with ⟨Hc1_3, Hc1_3q⟩
  sl_exec_parts
  -- transfer x phase, half 1, relay of 3 steps on
  ihave #HIs_R1_3 := (inv_dC m K c 4 1 (yj c 3)) $$ HI
  ihave #HIr_R1_3 := (inv_dC m K (xP c) 5 1 (yj c 3)) $$ HI
  ihave #HRs_R1_3 := (reached_dC (F := F) c 4 1 (yj c 3)) $$ HR
  ihave #HRr_R1_3 := (reached_dC (F := F) (xP c) 5 1 (yj c 3)) $$ HR
  iapply (wp_xfer' m c (xP c) _ (Mesh.dev27_eq c) 4 1 (yj c 3) 5 1 (yj c 3) (used4 c _) (used5 (xP c) _) (K (c, some (4, 1, yj c 3))) (K (xP c, some (5, 1, yj c 3)))
      (src := r1Slot 1 (yj c 3)) (dst := r2Slot 1 (yj c 3)) rfl qR fc1_3 e1x3 (owedFrom c 26) (owedFrom c 27) rfl _
      (by rw [show dmaPay m c 4 1 (yj c 3) = anyPts c (r1Slot 1 (yj c 3)) qR from if_neg (yj_ne_yF3 c)]; exact to_any c _ _ _) (by rw [hfc1_3, ← red2_xr3 m c 1]; exact to_holds _ _ _ _)) $$ [Hc1_3q He1x_3 HO TsR1_3 TrR1_3]
  · isplitr; · iexact HIs_R1_3
    isplitr; · iexact HIr_R1_3
    isplitl [Hc1_3q]; · iexact Hc1_3q
    isplitl [He1x_3]; · iexact He1x_3
    isplitl [HO]; · iexact HO
    isplitl [TsR1_3]; · iexact TsR1_3
    isplitr; · iexact HRs_R1_3
    isplitl [TrR1_3]; · iexact TrR1_3
    iexact HRr_R1_3
  iintro ⟨CsR1_3, HO⟩
  sl_exec_parts
  -- wait: x phase half 1, slot 0
  ihave #HIw_c2R1_0 := (inv_dC m K c 5 1 (0)) $$ HI
  iapply (wp_dmawait m c 5 1 (0) (used5 c _) (K (c, some (5, 1, 0))) (owedFrom c 27) _ (dst := r2Slot 1 0) rfl) $$ [CrX1_0 HO At51_0]
  · isplitr; · iexact HIw_c2R1_0
    isplitl [CrX1_0]; · iexact CrX1_0
    isplitl [HO]; · iexact HO
    isplitr; · iapply (mayWait_c2R1 c 0); iexact Hlev
    iexact At51_0
  rw [show dmaPay m c 5 1 (0) = holds c (r2Slot 1 0) (red2 m (atXY c 0) 1) from rfl]
  unfold holds slotPts
  iintro ⟨HO, At51_0, #Hr1_c2R1_0, ⟨%fd1_0, Hd1_0, %hfd1_0⟩⟩
  sl_exec_parts
  -- wait: x phase half 1, slot 1
  ihave #HIw_c2R1_1 := (inv_dC m K c 5 1 (1)) $$ HI
  iapply (wp_dmawait m c 5 1 (1) (used5 c _) (K (c, some (5, 1, 1))) (owedFrom c 27) _ (dst := r2Slot 1 1) rfl) $$ [CrX1_1 HO At51_1]
  · isplitr; · iexact HIw_c2R1_1
    isplitl [CrX1_1]; · iexact CrX1_1
    isplitl [HO]; · iexact HO
    isplitr; · iapply (mayWait_c2R1 c 1); iexact Hlev
    iexact At51_1
  rw [show dmaPay m c 5 1 (1) = holds c (r2Slot 1 1) (red2 m (atXY c 1) 1) from rfl]
  unfold holds slotPts
  iintro ⟨HO, At51_1, #Hr1_c2R1_1, ⟨%fd1_1, Hd1_1, %hfd1_1⟩⟩
  sl_exec_parts
  -- wait: x phase half 1, slot 2
  ihave #HIw_c2R1_2 := (inv_dC m K c 5 1 (2)) $$ HI
  iapply (wp_dmawait m c 5 1 (2) (used5 c _) (K (c, some (5, 1, 2))) (owedFrom c 27) _ (dst := r2Slot 1 2) rfl) $$ [CrX1_2 HO At51_2]
  · isplitr; · iexact HIw_c2R1_2
    isplitl [CrX1_2]; · iexact CrX1_2
    isplitl [HO]; · iexact HO
    isplitr; · iapply (mayWait_c2R1 c 2); iexact Hlev
    iexact At51_2
  rw [show dmaPay m c 5 1 (2) = holds c (r2Slot 1 2) (red2 m (atXY c 2) 1) from rfl]
  unfold holds slotPts
  iintro ⟨HO, At51_2, #Hr1_c2R1_2, ⟨%fd1_2, Hd1_2, %hfd1_2⟩⟩
  sl_exec_parts
  -- wait: x phase half 1, slot 3
  ihave #HIw_c2R1_3 := (inv_dC m K c 5 1 (3)) $$ HI
  iapply (wp_dmawait m c 5 1 (3) (used5 c _) (K (c, some (5, 1, 3))) (owedFrom c 27) _ (dst := r2Slot 1 3) rfl) $$ [CrX1_3 HO At51_3]
  · isplitr; · iexact HIw_c2R1_3
    isplitl [CrX1_3]; · iexact CrX1_3
    isplitl [HO]; · iexact HO
    isplitr; · iapply (mayWait_c2R1 c 3); iexact Hlev
    iexact At51_3
  rw [show dmaPay m c 5 1 (3) = holds c (r2Slot 1 3) (red2 m (atXY c 3) 1) from rfl]
  unfold holds slotPts
  iintro ⟨HO, At51_3, #Hr1_c2R1_3, ⟨%fd1_3, Hd1_3, %hfd1_3⟩⟩
  sl_exec_parts
  -- send wait: z phase half 0, 1
  ihave #HIsw_B0_1 := (inv_dC m K c 0 0 (zj c 1)) $$ HI
  iapply (wp_dmawait m c 0 0 (zj c 1) (used0_z1 c) (K (c, some (0, 0, zj c 1))) (owedFrom c 27) _ (dst := pbSlot (zj c 1) 0) rfl) $$ [CsB0_1 HO At00_1]
  · isplitr; · iexact HIsw_B0_1
    isplitl [CsB0_1]; · iexact CsB0_1
    isplitl [HO]; · iexact HO
    isplitr; · iapply (mayWait_end c _); iexact Hlev
    iexact At00_1
  rw [show dmaPay m c 0 0 (zj c 1) = anyPts c (pbSlot (zj c 1) 0) fullShare from rfl]
  iintro ⟨HO, At00_1, #Hr1_sw_B0_1, PyB0_1⟩
  sl_exec_parts
  -- send wait: z phase half 0, 2
  ihave #HIsw_B0_2 := (inv_dC m K c 0 0 (zj c 2)) $$ HI
  iapply (wp_dmawait m c 0 0 (zj c 2) (used0_z2 c) (K (c, some (0, 0, zj c 2))) (owedFrom c 27) _ (dst := pbSlot (zj c 2) 0) rfl) $$ [CsB0_2 HO At00_2]
  · isplitr; · iexact HIsw_B0_2
    isplitl [CsB0_2]; · iexact CsB0_2
    isplitl [HO]; · iexact HO
    isplitr; · iapply (mayWait_end c _); iexact Hlev
    iexact At00_2
  rw [show dmaPay m c 0 0 (zj c 2) = anyPts c (pbSlot (zj c 2) 0) fullShare from rfl]
  iintro ⟨HO, At00_2, #Hr1_sw_B0_2, PyB0_2⟩
  sl_exec_parts
  -- send wait: z phase half 0, 3
  ihave #HIsw_B0_3 := (inv_dC m K c 0 0 (zj c 3)) $$ HI
  iapply (wp_dmawait m c 0 0 (zj c 3) (used0_z3 c) (K (c, some (0, 0, zj c 3))) (owedFrom c 27) _ (dst := pbSlot (zj c 3) 0) rfl) $$ [CsB0_3 HO At00_3]
  · isplitr; · iexact HIsw_B0_3
    isplitl [CsB0_3]; · iexact CsB0_3
    isplitl [HO]; · iexact HO
    isplitr; · iapply (mayWait_end c _); iexact Hlev
    iexact At00_3
  rw [show dmaPay m c 0 0 (zj c 3) = anyPts c (pbSlot (zj c 3) 0) fullShare from rfl]
  iintro ⟨HO, At00_3, #Hr1_sw_B0_3, PyB0_3⟩
  sl_exec_parts
  -- send wait: z phase half 1, 1
  ihave #HIsw_B1_1 := (inv_dC m K c 0 1 (zj c 1)) $$ HI
  iapply (wp_dmawait m c 0 1 (zj c 1) (used0_z1 c) (K (c, some (0, 1, zj c 1))) (owedFrom c 27) _ (dst := pbSlot (zj c 1) 1) rfl) $$ [CsB1_1 HO At01_1]
  · isplitr; · iexact HIsw_B1_1
    isplitl [CsB1_1]; · iexact CsB1_1
    isplitl [HO]; · iexact HO
    isplitr; · iapply (mayWait_end c _); iexact Hlev
    iexact At01_1
  rw [show dmaPay m c 0 1 (zj c 1) = anyPts c (pbSlot (zj c 1) 1) fullShare from rfl]
  iintro ⟨HO, At01_1, #Hr1_sw_B1_1, PyB1_1⟩
  sl_exec_parts
  -- send wait: z phase half 1, 2
  ihave #HIsw_B1_2 := (inv_dC m K c 0 1 (zj c 2)) $$ HI
  iapply (wp_dmawait m c 0 1 (zj c 2) (used0_z2 c) (K (c, some (0, 1, zj c 2))) (owedFrom c 27) _ (dst := pbSlot (zj c 2) 1) rfl) $$ [CsB1_2 HO At01_2]
  · isplitr; · iexact HIsw_B1_2
    isplitl [CsB1_2]; · iexact CsB1_2
    isplitl [HO]; · iexact HO
    isplitr; · iapply (mayWait_end c _); iexact Hlev
    iexact At01_2
  rw [show dmaPay m c 0 1 (zj c 2) = anyPts c (pbSlot (zj c 2) 1) fullShare from rfl]
  iintro ⟨HO, At01_2, #Hr1_sw_B1_2, PyB1_2⟩
  sl_exec_parts
  -- send wait: z phase half 1, 3
  ihave #HIsw_B1_3 := (inv_dC m K c 0 1 (zj c 3)) $$ HI
  iapply (wp_dmawait m c 0 1 (zj c 3) (used0_z3 c) (K (c, some (0, 1, zj c 3))) (owedFrom c 27) _ (dst := pbSlot (zj c 3) 1) rfl) $$ [CsB1_3 HO At01_3]
  · isplitr; · iexact HIsw_B1_3
    isplitl [CsB1_3]; · iexact CsB1_3
    isplitl [HO]; · iexact HO
    isplitr; · iapply (mayWait_end c _); iexact Hlev
    iexact At01_3
  rw [show dmaPay m c 0 1 (zj c 3) = anyPts c (pbSlot (zj c 3) 1) fullShare from rfl]
  iintro ⟨HO, At01_3, #Hr1_sw_B1_3, PyB1_3⟩
  sl_exec_parts
  -- send wait: y phase half 0, 1
  ihave #HIsw_C0_1 := (inv_dC m K c 2 0 (yj c 1)) $$ HI
  iapply (wp_dmawait m c 2 0 (yj c 1) (used2_y1 c) (K (c, some (2, 0, yj c 1))) (owedFrom c 27) _ (dst := redSlot 0) rfl) $$ [CsC0_1 HO At20_1]
  · isplitr; · iexact HIsw_C0_1
    isplitl [CsC0_1]; · iexact CsC0_1
    isplitl [HO]; · iexact HO
    isplitr; · iapply (mayWait_end c _); iexact Hlev
    iexact At20_1
  rw [show dmaPay m c 2 0 (yj c 1) = anyPts c (redSlot 0) (qS (yj c 1)) from rfl]
  iintro ⟨HO, At20_1, #Hr1_sw_C0_1, PyC0_1⟩
  sl_exec_parts
  -- send wait: y phase half 0, 2
  ihave #HIsw_C0_2 := (inv_dC m K c 2 0 (yj c 2)) $$ HI
  iapply (wp_dmawait m c 2 0 (yj c 2) (used2_y2 c) (K (c, some (2, 0, yj c 2))) (owedFrom c 27) _ (dst := redSlot 0) rfl) $$ [CsC0_2 HO At20_2]
  · isplitr; · iexact HIsw_C0_2
    isplitl [CsC0_2]; · iexact CsC0_2
    isplitl [HO]; · iexact HO
    isplitr; · iapply (mayWait_end c _); iexact Hlev
    iexact At20_2
  rw [show dmaPay m c 2 0 (yj c 2) = anyPts c (redSlot 0) (qS (yj c 2)) from rfl]
  iintro ⟨HO, At20_2, #Hr1_sw_C0_2, PyC0_2⟩
  sl_exec_parts
  -- send wait: y phase half 0, 3
  ihave #HIsw_C0_3 := (inv_dC m K c 2 0 (yj c 3)) $$ HI
  iapply (wp_dmawait m c 2 0 (yj c 3) (used2_y3 c) (K (c, some (2, 0, yj c 3))) (owedFrom c 27) _ (dst := redSlot 0) rfl) $$ [CsC0_3 HO At20_3]
  · isplitr; · iexact HIsw_C0_3
    isplitl [CsC0_3]; · iexact CsC0_3
    isplitl [HO]; · iexact HO
    isplitr; · iapply (mayWait_end c _); iexact Hlev
    iexact At20_3
  rw [show dmaPay m c 2 0 (yj c 3) = anyPts c (redSlot 0) (qS (yj c 3)) from rfl]
  iintro ⟨HO, At20_3, #Hr1_sw_C0_3, PyC0_3⟩
  sl_exec_parts
  -- send wait: x phase half 0, direct
  ihave #HIsw_X0 := (inv_dC m K c 4 0 (yF c)) $$ HI
  iapply (wp_dmawait m c 4 0 (yF c) (used4 c _) (K (c, some (4, 0, yF c))) (owedFrom c 27) _ (dst := redSlot 0) rfl) $$ [CsX0 HO At40_0]
  · isplitr; · iexact HIsw_X0
    isplitl [CsX0]; · iexact CsX0
    isplitl [HO]; · iexact HO
    isplitr; · iapply (mayWait_end c _); iexact Hlev
    iexact At40_0
  rw [show dmaPay m c 4 0 (yF c) = anyPts c (redSlot 0) (qS (yF c)) from if_pos rfl]
  iintro ⟨HO, At40_0, #Hr1_sw_X0, PyX0⟩
  sl_exec_parts
  -- send wait: x phase half 0, relay 1
  ihave #HIsw_R0_1 := (inv_dC m K c 4 0 (yj c 1)) $$ HI
  iapply (wp_dmawait m c 4 0 (yj c 1) (used4 c _) (K (c, some (4, 0, yj c 1))) (owedFrom c 27) _ (dst := r1Slot 0 (yj c 1)) rfl) $$ [CsR0_1 HO At40_1]
  · isplitr; · iexact HIsw_R0_1
    isplitl [CsR0_1]; · iexact CsR0_1
    isplitl [HO]; · iexact HO
    isplitr; · iapply (mayWait_end c _); iexact Hlev
    iexact At40_1
  rw [show dmaPay m c 4 0 (yj c 1) = anyPts c (r1Slot 0 (yj c 1)) qR from if_neg (yj_ne_yF1 c)]
  iintro ⟨HO, At40_1, #Hr1_sw_R0_1, PyR0_1⟩
  sl_exec_parts
  -- send wait: x phase half 0, relay 2
  ihave #HIsw_R0_2 := (inv_dC m K c 4 0 (yj c 2)) $$ HI
  iapply (wp_dmawait m c 4 0 (yj c 2) (used4 c _) (K (c, some (4, 0, yj c 2))) (owedFrom c 27) _ (dst := r1Slot 0 (yj c 2)) rfl) $$ [CsR0_2 HO At40_2]
  · isplitr; · iexact HIsw_R0_2
    isplitl [CsR0_2]; · iexact CsR0_2
    isplitl [HO]; · iexact HO
    isplitr; · iapply (mayWait_end c _); iexact Hlev
    iexact At40_2
  rw [show dmaPay m c 4 0 (yj c 2) = anyPts c (r1Slot 0 (yj c 2)) qR from if_neg (yj_ne_yF2 c)]
  iintro ⟨HO, At40_2, #Hr1_sw_R0_2, PyR0_2⟩
  sl_exec_parts
  -- send wait: x phase half 0, relay 3
  ihave #HIsw_R0_3 := (inv_dC m K c 4 0 (yj c 3)) $$ HI
  iapply (wp_dmawait m c 4 0 (yj c 3) (used4 c _) (K (c, some (4, 0, yj c 3))) (owedFrom c 27) _ (dst := r1Slot 0 (yj c 3)) rfl) $$ [CsR0_3 HO At40_3]
  · isplitr; · iexact HIsw_R0_3
    isplitl [CsR0_3]; · iexact CsR0_3
    isplitl [HO]; · iexact HO
    isplitr; · iapply (mayWait_end c _); iexact Hlev
    iexact At40_3
  rw [show dmaPay m c 4 0 (yj c 3) = anyPts c (r1Slot 0 (yj c 3)) qR from if_neg (yj_ne_yF3 c)]
  iintro ⟨HO, At40_3, #Hr1_sw_R0_3, PyR0_3⟩
  sl_exec_parts
  -- send wait: y phase half 1, 1
  ihave #HIsw_C1_1 := (inv_dC m K c 2 1 (yj c 1)) $$ HI
  iapply (wp_dmawait m c 2 1 (yj c 1) (used2_y1 c) (K (c, some (2, 1, yj c 1))) (owedFrom c 27) _ (dst := redSlot 1) rfl) $$ [CsC1_1 HO At21_1]
  · isplitr; · iexact HIsw_C1_1
    isplitl [CsC1_1]; · iexact CsC1_1
    isplitl [HO]; · iexact HO
    isplitr; · iapply (mayWait_end c _); iexact Hlev
    iexact At21_1
  rw [show dmaPay m c 2 1 (yj c 1) = anyPts c (redSlot 1) (qS (yj c 1)) from rfl]
  iintro ⟨HO, At21_1, #Hr1_sw_C1_1, PyC1_1⟩
  sl_exec_parts
  -- send wait: y phase half 1, 2
  ihave #HIsw_C1_2 := (inv_dC m K c 2 1 (yj c 2)) $$ HI
  iapply (wp_dmawait m c 2 1 (yj c 2) (used2_y2 c) (K (c, some (2, 1, yj c 2))) (owedFrom c 27) _ (dst := redSlot 1) rfl) $$ [CsC1_2 HO At21_2]
  · isplitr; · iexact HIsw_C1_2
    isplitl [CsC1_2]; · iexact CsC1_2
    isplitl [HO]; · iexact HO
    isplitr; · iapply (mayWait_end c _); iexact Hlev
    iexact At21_2
  rw [show dmaPay m c 2 1 (yj c 2) = anyPts c (redSlot 1) (qS (yj c 2)) from rfl]
  iintro ⟨HO, At21_2, #Hr1_sw_C1_2, PyC1_2⟩
  sl_exec_parts
  -- send wait: y phase half 1, 3
  ihave #HIsw_C1_3 := (inv_dC m K c 2 1 (yj c 3)) $$ HI
  iapply (wp_dmawait m c 2 1 (yj c 3) (used2_y3 c) (K (c, some (2, 1, yj c 3))) (owedFrom c 27) _ (dst := redSlot 1) rfl) $$ [CsC1_3 HO At21_3]
  · isplitr; · iexact HIsw_C1_3
    isplitl [CsC1_3]; · iexact CsC1_3
    isplitl [HO]; · iexact HO
    isplitr; · iapply (mayWait_end c _); iexact Hlev
    iexact At21_3
  rw [show dmaPay m c 2 1 (yj c 3) = anyPts c (redSlot 1) (qS (yj c 3)) from rfl]
  iintro ⟨HO, At21_3, #Hr1_sw_C1_3, PyC1_3⟩
  sl_exec_parts
  -- send wait: x phase half 1, direct
  ihave #HIsw_X1 := (inv_dC m K c 4 1 (yF c)) $$ HI
  iapply (wp_dmawait m c 4 1 (yF c) (used4 c _) (K (c, some (4, 1, yF c))) (owedFrom c 27) _ (dst := redSlot 1) rfl) $$ [CsX1 HO At41_0]
  · isplitr; · iexact HIsw_X1
    isplitl [CsX1]; · iexact CsX1
    isplitl [HO]; · iexact HO
    isplitr; · iapply (mayWait_end c _); iexact Hlev
    iexact At41_0
  rw [show dmaPay m c 4 1 (yF c) = anyPts c (redSlot 1) (qS (yF c)) from if_pos rfl]
  iintro ⟨HO, At41_0, #Hr1_sw_X1, PyX1⟩
  sl_exec_parts
  -- send wait: x phase half 1, relay 1
  ihave #HIsw_R1_1 := (inv_dC m K c 4 1 (yj c 1)) $$ HI
  iapply (wp_dmawait m c 4 1 (yj c 1) (used4 c _) (K (c, some (4, 1, yj c 1))) (owedFrom c 27) _ (dst := r1Slot 1 (yj c 1)) rfl) $$ [CsR1_1 HO At41_1]
  · isplitr; · iexact HIsw_R1_1
    isplitl [CsR1_1]; · iexact CsR1_1
    isplitl [HO]; · iexact HO
    isplitr; · iapply (mayWait_end c _); iexact Hlev
    iexact At41_1
  rw [show dmaPay m c 4 1 (yj c 1) = anyPts c (r1Slot 1 (yj c 1)) qR from if_neg (yj_ne_yF1 c)]
  iintro ⟨HO, At41_1, #Hr1_sw_R1_1, PyR1_1⟩
  sl_exec_parts
  -- send wait: x phase half 1, relay 2
  ihave #HIsw_R1_2 := (inv_dC m K c 4 1 (yj c 2)) $$ HI
  iapply (wp_dmawait m c 4 1 (yj c 2) (used4 c _) (K (c, some (4, 1, yj c 2))) (owedFrom c 27) _ (dst := r1Slot 1 (yj c 2)) rfl) $$ [CsR1_2 HO At41_2]
  · isplitr; · iexact HIsw_R1_2
    isplitl [CsR1_2]; · iexact CsR1_2
    isplitl [HO]; · iexact HO
    isplitr; · iapply (mayWait_end c _); iexact Hlev
    iexact At41_2
  rw [show dmaPay m c 4 1 (yj c 2) = anyPts c (r1Slot 1 (yj c 2)) qR from if_neg (yj_ne_yF2 c)]
  iintro ⟨HO, At41_2, #Hr1_sw_R1_2, PyR1_2⟩
  sl_exec_parts
  -- send wait: x phase half 1, relay 3
  ihave #HIsw_R1_3 := (inv_dC m K c 4 1 (yj c 3)) $$ HI
  iapply (wp_dmawait m c 4 1 (yj c 3) (used4 c _) (K (c, some (4, 1, yj c 3))) (owedFrom c 27) _ (dst := r1Slot 1 (yj c 3)) rfl) $$ [CsR1_3 HO At41_3]
  · isplitr; · iexact HIsw_R1_3
    isplitl [CsR1_3]; · iexact CsR1_3
    isplitl [HO]; · iexact HO
    isplitr; · iapply (mayWait_end c _); iexact Hlev
    iexact At41_3
  rw [show dmaPay m c 4 1 (yj c 3) = anyPts c (r1Slot 1 (yj c 3)) qR from if_neg (yj_ne_yF3 c)]
  iintro ⟨HO, At41_3, #Hr1_sw_R1_3, PyR1_3⟩
  -- the return: the own cells closed, the scratch buffers whole again
  imod (epilogue_rel m K c) $$ [At00_0 At00_1 At00_2 At00_3 At01_0 At01_1 At01_2 At01_3 At10_0 At10_1 At10_2 At10_3 At11_0 At11_1 At11_2 At11_3 At20_0 At20_1 At20_2 At20_3 At21_0 At21_1 At21_2 At21_3 At30_0 At30_1 At30_2 At30_3 At31_0 At31_1 At31_2 At31_3 At40_0 At40_1 At40_2 At40_3 At41_0 At41_1 At41_2 At41_3 At50_0 At50_1 At50_2 At50_3 At51_0 At51_1 At51_2 At51_3 Hp0_0 PyB0_1 PyB0_2 PyB0_3 Hp1_0 PyB1_1 PyB1_2 PyB1_3 Hred0_k PyX0 PyC0_1 PyC0_2 PyC0_3 Hred1_k PyX1 PyC1_1 PyC1_2 PyC1_3 Hb0_0 Hb0_1 Hb0_2 Hb0_3 Hb1_0 Hb1_1 Hb1_2 Hb1_3 Hc0_0 Hc0_1 PyR0_1 Hc0_2 PyR0_2 Hc0_3 PyR0_3 Hc1_0 Hc1_1 PyR1_1 Hc1_2 PyR1_2 Hc1_3 PyR1_3 Hd0_0 Hd0_1 Hd0_2 Hd0_3 Hd1_0 Hd1_1 Hd1_2 Hd1_3] with HΦ
  · isplitr
    · unfold records; isplitr <;> iassumption
    isplitl [At00_0 At00_1 At00_2 At00_3 At01_0 At01_1 At01_2 At01_3 At10_0 At10_1 At10_2 At10_3 At11_0 At11_1 At11_2 At11_3 At20_0 At20_1 At20_2 At20_3 At21_0 At21_1 At21_2 At21_3 At30_0 At30_1 At30_2 At30_3 At31_0 At31_1 At31_2 At31_3 At40_0 At40_1 At40_2 At40_3 At41_0 At41_1 At41_2 At41_3 At50_0 At50_1 At50_2 At50_3 At51_0 At51_1 At51_2 At51_3]
    · isplitl [At00_0 At00_1 At00_2 At00_3 At01_0 At01_1 At01_2 At01_3]
      · isplitl [At00_0 At00_1 At00_2 At00_3]
        · isplitl [At00_0]
          · iexact At00_0
          isplitl [At00_1]
          · iexact At00_1
          isplitl [At00_2]
          · iexact At00_2
          iexact At00_3
        isplitl [At01_0]
        · iexact At01_0
        isplitl [At01_1]
        · iexact At01_1
        isplitl [At01_2]
        · iexact At01_2
        iexact At01_3
      isplitl [At10_0 At10_1 At10_2 At10_3 At11_0 At11_1 At11_2 At11_3]
      · isplitl [At10_0 At10_1 At10_2 At10_3]
        · isplitl [At10_0]
          · iexact At10_0
          isplitl [At10_1]
          · iexact At10_1
          isplitl [At10_2]
          · iexact At10_2
          iexact At10_3
        isplitl [At11_0]
        · iexact At11_0
        isplitl [At11_1]
        · iexact At11_1
        isplitl [At11_2]
        · iexact At11_2
        iexact At11_3
      isplitl [At20_0 At20_1 At20_2 At20_3 At21_0 At21_1 At21_2 At21_3]
      · isplitl [At20_0 At20_1 At20_2 At20_3]
        · isplitl [At20_0]
          · iexact At20_0
          isplitl [At20_1]
          · iexact At20_1
          isplitl [At20_2]
          · iexact At20_2
          iexact At20_3
        isplitl [At21_0]
        · iexact At21_0
        isplitl [At21_1]
        · iexact At21_1
        isplitl [At21_2]
        · iexact At21_2
        iexact At21_3
      isplitl [At30_0 At30_1 At30_2 At30_3 At31_0 At31_1 At31_2 At31_3]
      · isplitl [At30_0 At30_1 At30_2 At30_3]
        · isplitl [At30_0]
          · iexact At30_0
          isplitl [At30_1]
          · iexact At30_1
          isplitl [At30_2]
          · iexact At30_2
          iexact At30_3
        isplitl [At31_0]
        · iexact At31_0
        isplitl [At31_1]
        · iexact At31_1
        isplitl [At31_2]
        · iexact At31_2
        iexact At31_3
      isplitl [At40_0 At40_1 At40_2 At40_3 At41_0 At41_1 At41_2 At41_3]
      · isplitl [At40_0 At40_1 At40_2 At40_3]
        · isplitl [At40_0]
          · iexact At40_0
          isplitl [At40_1]
          · iexact At40_1
          isplitl [At40_2]
          · iexact At40_2
          iexact At40_3
        isplitl [At41_0]
        · iexact At41_0
        isplitl [At41_1]
        · iexact At41_1
        isplitl [At41_2]
        · iexact At41_2
        iexact At41_3
      isplitl [At50_0 At50_1 At50_2 At50_3]
      · isplitl [At50_0]
        · iexact At50_0
        isplitl [At50_1]
        · iexact At50_1
        isplitl [At50_2]
        · iexact At50_2
        iexact At50_3
      isplitl [At51_0]
      · iexact At51_0
      isplitl [At51_1]
      · iexact At51_1
      isplitl [At51_2]
      · iexact At51_2
      iexact At51_3
    isplitl [Hp0_0 PyB0_1 PyB0_2 PyB0_3 Hp1_0 PyB1_1 PyB1_2 PyB1_3]
    · isplitl [Hp0_0 PyB0_1 PyB0_2 PyB0_3]
      · isplitl [Hp0_0]
        · iapply (to_any c _ _ _); iexact Hp0_0
        isplitl [PyB0_1]
        · iexact PyB0_1
        isplitl [PyB0_2]
        · iexact PyB0_2
        iexact PyB0_3
      isplitl [Hp1_0]
      · iapply (to_any c _ _ _); iexact Hp1_0
      isplitl [PyB1_1]
      · iexact PyB1_1
      isplitl [PyB1_2]
      · iexact PyB1_2
      iexact PyB1_3
    isplitl [Hred0_k PyX0 PyC0_1 PyC0_2 PyC0_3 Hred1_k PyX1 PyC1_1 PyC1_2 PyC1_3]
    · isplitl [Hred0_k PyX0 PyC0_1 PyC0_2 PyC0_3]
      · isplitl [Hred0_k]
        · iapply (to_any c _ _ _); iexact Hred0_k
        isplitl [PyX0]
        · iexact PyX0
        isplitl [PyC0_1]
        · iexact PyC0_1
        isplitl [PyC0_2]
        · iexact PyC0_2
        iexact PyC0_3
      isplitl [Hred1_k]
      · iapply (to_any c _ _ _); iexact Hred1_k
      isplitl [PyX1]
      · iexact PyX1
      isplitl [PyC1_1]
      · iexact PyC1_1
      isplitl [PyC1_2]
      · iexact PyC1_2
      iexact PyC1_3
    isplitl [Hb0_0 Hb0_1 Hb0_2 Hb0_3 Hb1_0 Hb1_1 Hb1_2 Hb1_3]
    · isplitl [Hb0_0 Hb0_1 Hb0_2 Hb0_3]
      · isplitl [Hb0_0]
        · iapply (to_any c _ _ _); iexact Hb0_0
        isplitl [Hb0_1]
        · iapply (to_any c _ _ _); iexact Hb0_1
        isplitl [Hb0_2]
        · iapply (to_any c _ _ _); iexact Hb0_2
        iapply (to_any c _ _ _); iexact Hb0_3
      isplitl [Hb1_0]
      · iapply (to_any c _ _ _); iexact Hb1_0
      isplitl [Hb1_1]
      · iapply (to_any c _ _ _); iexact Hb1_1
      isplitl [Hb1_2]
      · iapply (to_any c _ _ _); iexact Hb1_2
      iapply (to_any c _ _ _); iexact Hb1_3
    isplitl [Hc0_0 Hc0_1 PyR0_1 Hc0_2 PyR0_2 Hc0_3 PyR0_3 Hc1_0 Hc1_1 PyR1_1 Hc1_2 PyR1_2 Hc1_3 PyR1_3]
    · isplitl [Hc0_0 Hc0_1 PyR0_1 Hc0_2 PyR0_2 Hc0_3 PyR0_3]
      · isplitl [Hc0_0]
        · iapply (to_any c _ _ _); iexact Hc0_0
        isplitl [Hc0_1 PyR0_1]
        · isplitl [Hc0_1]
          · iapply (to_any c _ _ _); iexact Hc0_1
          iexact PyR0_1
        isplitl [Hc0_2 PyR0_2]
        · isplitl [Hc0_2]
          · iapply (to_any c _ _ _); iexact Hc0_2
          iexact PyR0_2
        isplitl [Hc0_3]
        · iapply (to_any c _ _ _); iexact Hc0_3
        iexact PyR0_3
      isplitl [Hc1_0]
      · iapply (to_any c _ _ _); iexact Hc1_0
      isplitl [Hc1_1 PyR1_1]
      · isplitl [Hc1_1]
        · iapply (to_any c _ _ _); iexact Hc1_1
        iexact PyR1_1
      isplitl [Hc1_2 PyR1_2]
      · isplitl [Hc1_2]
        · iapply (to_any c _ _ _); iexact Hc1_2
        iexact PyR1_2
      isplitl [Hc1_3]
      · iapply (to_any c _ _ _); iexact Hc1_3
      iexact PyR1_3
    isplitl [Hd0_0 Hd0_1 Hd0_2 Hd0_3]
    · isplitl [Hd0_0]
      · iapply (to_any c _ _ _); iexact Hd0_0
      isplitl [Hd0_1]
      · iapply (to_any c _ _ _); iexact Hd0_1
      isplitl [Hd0_2]
      · iapply (to_any c _ _ _); iexact Hd0_2
      iapply (to_any c _ _ _); iexact Hd0_3
    isplitl [Hd1_0]
    · iapply (to_any c _ _ _); iexact Hd1_0
    isplitl [Hd1_1]
    · iapply (to_any c _ _ _); iexact Hd1_1
    isplitl [Hd1_2]
    · iapply (to_any c _ _ _); iexact Hd1_2
    iapply (to_any c _ _ _); iexact Hd1_3
  sl_exec_parts
  sl_step
  iapply Hk
  unfold bodyPost
  isplitl [HΦ]; · iexact HΦ
  isplitl [HO]
  · unfold Dat.owesAt Pipeline.owesWithin
    iexists _
    isplitr
    rotate_left
    · iexact HO
    · ipureintro; exact fun _ _ => Or.inl (Set.mem_univ _)
  isplitl [HX]
  · iexists _; isplitr; · ipureintro; rfl
    iexact HX
  isplitl [HY]
  · iexists _; isplitr; · ipureintro; rfl
    iexact HY
  ihave HnO := (name_it _) $$ HOut
  icases HnO with ⟨%GO, %hGO, HOut⟩
  iexists GO; isplitr
  · ipureintro
    rw [hGO]
    have eu01 : ((r1M : Memref sig .tc .vmem S2x4x256x256 .bf16).view.readAt (Elt F) (Rect.unit (s := S2x4x256x256) (k0_off13 c 4#32 1#32) S1x1x256x256.size (k0_off13_inb c 1 0)).toLoadRect fc0_1) = up4 (red2 m (atY c (yj c 1)) 0) :=
      r1_load 0 (yj c 1) _ _ ((Mesh.off13_4_1 c).trans rfl) fc0_1 _ hfc0_1
    have eu02 : ((r1M : Memref sig .tc .vmem S2x4x256x256 .bf16).view.readAt (Elt F) (Rect.unit (s := S2x4x256x256) (k0_off13 c 4#32 2#32) S1x1x256x256.size (k0_off13_inb c 1 1)).toLoadRect fc0_2) = up4 (red2 m (atY c (yj c 2)) 0) :=
      r1_load 0 (yj c 2) _ _ ((Mesh.off13_4_2 c).trans rfl) fc0_2 _ hfc0_2
    have eu03 : ((r1M : Memref sig .tc .vmem S2x4x256x256 .bf16).view.readAt (Elt F) (Rect.unit (s := S2x4x256x256) (k0_off13 c 4#32 3#32) S1x1x256x256.size (k0_off13_inb c 1 2)).toLoadRect fc0_3) = up4 (red2 m (atY c (yj c 3)) 0) :=
      r1_load 0 (yj c 3) _ _ ((Mesh.off13_4_3 c).trans rfl) fc0_3 _ hfc0_3
    have eu11 : ((r1M : Memref sig .tc .vmem S2x4x256x256 .bf16).view.readAt (Elt F) (Rect.unit (s := S2x4x256x256) (k0_off19 c 4#32 1#32) S1x1x256x256.size (k0_off19_inb c 1 0)).toLoadRect fc1_1) = up4 (red2 m (atY c (yj c 1)) 1) :=
      r1_load 1 (yj c 1) _ _ ((Mesh.off19_4_1 c).trans rfl) fc1_1 _ hfc1_1
    have eu12 : ((r1M : Memref sig .tc .vmem S2x4x256x256 .bf16).view.readAt (Elt F) (Rect.unit (s := S2x4x256x256) (k0_off19 c 4#32 2#32) S1x1x256x256.size (k0_off19_inb c 1 1)).toLoadRect fc1_2) = up4 (red2 m (atY c (yj c 2)) 1) :=
      r1_load 1 (yj c 2) _ _ ((Mesh.off19_4_2 c).trans rfl) fc1_2 _ hfc1_2
    have eu13 : ((r1M : Memref sig .tc .vmem S2x4x256x256 .bf16).view.readAt (Elt F) (Rect.unit (s := S2x4x256x256) (k0_off19 c 4#32 3#32) S1x1x256x256.size (k0_off19_inb c 1 2)).toLoadRect fc1_3) = up4 (red2 m (atY c (yj c 3)) 1) :=
      r1_load 1 (yj c 3) _ _ ((Mesh.off19_4_3 c).trans rfl) fc1_3 _ hfc1_3
    have et00 : ((r2M : Memref sig .tc .vmem S2x4x256x256 .bf16).view.readAt (Elt F) (Rect.unit (s := S2x4x256x256) ![0, 0, 0, 0] S1x1x256x256.size inb_S2x4x256x256_S1x1x256x256_0_0_0_0).toLoadRect fd0_0) = up4 (red2 m (atXY c 0) 0) :=
      r2_load 0 0 _ _ rfl fd0_0 _ hfd0_0
    have et01 : ((r2M : Memref sig .tc .vmem S2x4x256x256 .bf16).view.readAt (Elt F) (Rect.unit (s := S2x4x256x256) ![0, 1, 0, 0] S1x1x256x256.size inb_S2x4x256x256_S1x1x256x256_0_1_0_0).toLoadRect fd0_1) = up4 (red2 m (atXY c 1) 0) :=
      r2_load 0 1 _ _ rfl fd0_1 _ hfd0_1
    have et02 : ((r2M : Memref sig .tc .vmem S2x4x256x256 .bf16).view.readAt (Elt F) (Rect.unit (s := S2x4x256x256) ![0, 2, 0, 0] S1x1x256x256.size inb_S2x4x256x256_S1x1x256x256_0_2_0_0).toLoadRect fd0_2) = up4 (red2 m (atXY c 2) 0) :=
      r2_load 0 2 _ _ rfl fd0_2 _ hfd0_2
    have et03 : ((r2M : Memref sig .tc .vmem S2x4x256x256 .bf16).view.readAt (Elt F) (Rect.unit (s := S2x4x256x256) ![0, 3, 0, 0] S1x1x256x256.size inb_S2x4x256x256_S1x1x256x256_0_3_0_0).toLoadRect fd0_3) = up4 (red2 m (atXY c 3) 0) :=
      r2_load 0 3 _ _ rfl fd0_3 _ hfd0_3
    have et10 : ((r2M : Memref sig .tc .vmem S2x4x256x256 .bf16).view.readAt (Elt F) (Rect.unit (s := S2x4x256x256) ![1, 0, 0, 0] S1x1x256x256.size inb_S2x4x256x256_S1x1x256x256_1_0_0_0).toLoadRect fd1_0) = up4 (red2 m (atXY c 0) 1) :=
      r2_load 1 0 _ _ rfl fd1_0 _ hfd1_0
    have et11 : ((r2M : Memref sig .tc .vmem S2x4x256x256 .bf16).view.readAt (Elt F) (Rect.unit (s := S2x4x256x256) ![1, 1, 0, 0] S1x1x256x256.size inb_S2x4x256x256_S1x1x256x256_1_1_0_0).toLoadRect fd1_1) = up4 (red2 m (atXY c 1) 1) :=
      r2_load 1 1 _ _ rfl fd1_1 _ hfd1_1
    have et12 : ((r2M : Memref sig .tc .vmem S2x4x256x256 .bf16).view.readAt (Elt F) (Rect.unit (s := S2x4x256x256) ![1, 2, 0, 0] S1x1x256x256.size inb_S2x4x256x256_S1x1x256x256_1_2_0_0).toLoadRect fd1_2) = up4 (red2 m (atXY c 2) 1) :=
      r2_load 1 2 _ _ rfl fd1_2 _ hfd1_2
    have et13 : ((r2M : Memref sig .tc .vmem S2x4x256x256 .bf16).view.readAt (Elt F) (Rect.unit (s := S2x4x256x256) ![1, 3, 0, 0] S1x1x256x256.size inb_S2x4x256x256_S1x1x256x256_1_3_0_0).toLoadRect fd1_3) = up4 (red2 m (atXY c 3) 1) :=
      r2_load 1 3 _ _ rfl fd1_3 _ hfd1_3
    have hu : ∀ (h : Fin 2) (d : Fin 3), (![![((r1M : Memref sig .tc .vmem S2x4x256x256 .bf16).view.readAt (Elt F) (Rect.unit (s := S2x4x256x256) (k0_off13 c 4#32 1#32) S1x1x256x256.size (k0_off13_inb c 1 0)).toLoadRect fc0_1), ((r1M : Memref sig .tc .vmem S2x4x256x256 .bf16).view.readAt (Elt F) (Rect.unit (s := S2x4x256x256) (k0_off13 c 4#32 2#32) S1x1x256x256.size (k0_off13_inb c 1 1)).toLoadRect fc0_2), ((r1M : Memref sig .tc .vmem S2x4x256x256 .bf16).view.readAt (Elt F) (Rect.unit (s := S2x4x256x256) (k0_off13 c 4#32 3#32) S1x1x256x256.size (k0_off13_inb c 1 2)).toLoadRect fc0_3)], ![((r1M : Memref sig .tc .vmem S2x4x256x256 .bf16).view.readAt (Elt F) (Rect.unit (s := S2x4x256x256) (k0_off19 c 4#32 1#32) S1x1x256x256.size (k0_off19_inb c 1 0)).toLoadRect fc1_1), ((r1M : Memref sig .tc .vmem S2x4x256x256 .bf16).view.readAt (Elt F) (Rect.unit (s := S2x4x256x256) (k0_off19 c 4#32 2#32) S1x1x256x256.size (k0_off19_inb c 1 1)).toLoadRect fc1_2), ((r1M : Memref sig .tc .vmem S2x4x256x256 .bf16).view.readAt (Elt F) (Rect.unit (s := S2x4x256x256) (k0_off19 c 4#32 3#32) S1x1x256x256.size (k0_off19_inb c 1 2)).toLoadRect fc1_3)]] : Fin 2 → Fin 3 → Vec F S1x1x256x256 .bf16) h d = up4 (red2 m (atY c (yj c (d.val + 1))) h) := by
      intro h d
      fin_cases h <;> fin_cases d
      · exact eu01
      · exact eu02
      · exact eu03
      · exact eu11
      · exact eu12
      · exact eu13
    have ht : ∀ (h : Fin 2) (ys : Fin 4), (![![((r2M : Memref sig .tc .vmem S2x4x256x256 .bf16).view.readAt (Elt F) (Rect.unit (s := S2x4x256x256) ![0, 0, 0, 0] S1x1x256x256.size inb_S2x4x256x256_S1x1x256x256_0_0_0_0).toLoadRect fd0_0), ((r2M : Memref sig .tc .vmem S2x4x256x256 .bf16).view.readAt (Elt F) (Rect.unit (s := S2x4x256x256) ![0, 1, 0, 0] S1x1x256x256.size inb_S2x4x256x256_S1x1x256x256_0_1_0_0).toLoadRect fd0_1), ((r2M : Memref sig .tc .vmem S2x4x256x256 .bf16).view.readAt (Elt F) (Rect.unit (s := S2x4x256x256) ![0, 2, 0, 0] S1x1x256x256.size inb_S2x4x256x256_S1x1x256x256_0_2_0_0).toLoadRect fd0_2), ((r2M : Memref sig .tc .vmem S2x4x256x256 .bf16).view.readAt (Elt F) (Rect.unit (s := S2x4x256x256) ![0, 3, 0, 0] S1x1x256x256.size inb_S2x4x256x256_S1x1x256x256_0_3_0_0).toLoadRect fd0_3)], ![((r2M : Memref sig .tc .vmem S2x4x256x256 .bf16).view.readAt (Elt F) (Rect.unit (s := S2x4x256x256) ![1, 0, 0, 0] S1x1x256x256.size inb_S2x4x256x256_S1x1x256x256_1_0_0_0).toLoadRect fd1_0), ((r2M : Memref sig .tc .vmem S2x4x256x256 .bf16).view.readAt (Elt F) (Rect.unit (s := S2x4x256x256) ![1, 1, 0, 0] S1x1x256x256.size inb_S2x4x256x256_S1x1x256x256_1_1_0_0).toLoadRect fd1_1), ((r2M : Memref sig .tc .vmem S2x4x256x256 .bf16).view.readAt (Elt F) (Rect.unit (s := S2x4x256x256) ![1, 2, 0, 0] S1x1x256x256.size inb_S2x4x256x256_S1x1x256x256_1_2_0_0).toLoadRect fd1_2), ((r2M : Memref sig .tc .vmem S2x4x256x256 .bf16).view.readAt (Elt F) (Rect.unit (s := S2x4x256x256) ![1, 3, 0, 0] S1x1x256x256.size inb_S2x4x256x256_S1x1x256x256_1_3_0_0).toLoadRect fd1_3)]] : Fin 2 → Fin 4 → Vec F S1x1x256x256 .bf16) h ys = up4 (red2 m (atXY c ys) h) := by
      intro h ys
      fin_cases h <;> fin_cases ys
      · exact et00
      · exact et01
      · exact et02
      · exact et03
      · exact et10
      · exact et11
      · exact et12
      · exact et13
    exact out_fact m c g2 _ _ (acc0_fact m c F0 hpb fb0_1 fb0_2 fb0_3 hfb0_1 hfb0_2 hfb0_3) (acc1_fact m c F0 hpb fb1_1 fb1_2 fb1_3 hfb1_1 hfb1_2 hfb1_3) (![![((r1M : Memref sig .tc .vmem S2x4x256x256 .bf16).view.readAt (Elt F) (Rect.unit (s := S2x4x256x256) (k0_off13 c 4#32 1#32) S1x1x256x256.size (k0_off13_inb c 1 0)).toLoadRect fc0_1), ((r1M : Memref sig .tc .vmem S2x4x256x256 .bf16).view.readAt (Elt F) (Rect.unit (s := S2x4x256x256) (k0_off13 c 4#32 2#32) S1x1x256x256.size (k0_off13_inb c 1 1)).toLoadRect fc0_2), ((r1M : Memref sig .tc .vmem S2x4x256x256 .bf16).view.readAt (Elt F) (Rect.unit (s := S2x4x256x256) (k0_off13 c 4#32 3#32) S1x1x256x256.size (k0_off13_inb c 1 2)).toLoadRect fc0_3)], ![((r1M : Memref sig .tc .vmem S2x4x256x256 .bf16).view.readAt (Elt F) (Rect.unit (s := S2x4x256x256) (k0_off19 c 4#32 1#32) S1x1x256x256.size (k0_off19_inb c 1 0)).toLoadRect fc1_1), ((r1M : Memref sig .tc .vmem S2x4x256x256 .bf16).view.readAt (Elt F) (Rect.unit (s := S2x4x256x256) (k0_off19 c 4#32 2#32) S1x1x256x256.size (k0_off19_inb c 1 1)).toLoadRect fc1_2), ((r1M : Memref sig .tc .vmem S2x4x256x256 .bf16).view.readAt (Elt F) (Rect.unit (s := S2x4x256x256) (k0_off19 c 4#32 3#32) S1x1x256x256.size (k0_off19_inb c 1 2)).toLoadRect fc1_3)]] : Fin 2 → Fin 3 → Vec F S1x1x256x256 .bf16) hu (![![((r2M : Memref sig .tc .vmem S2x4x256x256 .bf16).view.readAt (Elt F) (Rect.unit (s := S2x4x256x256) ![0, 0, 0, 0] S1x1x256x256.size inb_S2x4x256x256_S1x1x256x256_0_0_0_0).toLoadRect fd0_0), ((r2M : Memref sig .tc .vmem S2x4x256x256 .bf16).view.readAt (Elt F) (Rect.unit (s := S2x4x256x256) ![0, 1, 0, 0] S1x1x256x256.size inb_S2x4x256x256_S1x1x256x256_0_1_0_0).toLoadRect fd0_1), ((r2M : Memref sig .tc .vmem S2x4x256x256 .bf16).view.readAt (Elt F) (Rect.unit (s := S2x4x256x256) ![0, 2, 0, 0] S1x1x256x256.size inb_S2x4x256x256_S1x1x256x256_0_2_0_0).toLoadRect fd0_2), ((r2M : Memref sig .tc .vmem S2x4x256x256 .bf16).view.readAt (Elt F) (Rect.unit (s := S2x4x256x256) ![0, 3, 0, 0] S1x1x256x256.size inb_S2x4x256x256_S1x1x256x256_0_3_0_0).toLoadRect fd0_3)], ![((r2M : Memref sig .tc .vmem S2x4x256x256 .bf16).view.readAt (Elt F) (Rect.unit (s := S2x4x256x256) ![1, 0, 0, 0] S1x1x256x256.size inb_S2x4x256x256_S1x1x256x256_1_0_0_0).toLoadRect fd1_0), ((r2M : Memref sig .tc .vmem S2x4x256x256 .bf16).view.readAt (Elt F) (Rect.unit (s := S2x4x256x256) ![1, 1, 0, 0] S1x1x256x256.size inb_S2x4x256x256_S1x1x256x256_1_1_0_0).toLoadRect fd1_1), ((r2M : Memref sig .tc .vmem S2x4x256x256 .bf16).view.readAt (Elt F) (Rect.unit (s := S2x4x256x256) ![1, 2, 0, 0] S1x1x256x256.size inb_S2x4x256x256_S1x1x256x256_1_2_0_0).toLoadRect fd1_2), ((r2M : Memref sig .tc .vmem S2x4x256x256 .bf16).view.readAt (Elt F) (Rect.unit (s := S2x4x256x256) ![1, 3, 0, 0] S1x1x256x256.size inb_S2x4x256x256_S1x1x256x256_1_3_0_0).toLoadRect fd1_3)]] : Fin 2 → Fin 4 → Vec F S1x1x256x256 .bf16) ht
  iexact HOut

end Body

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The pipeline's body obligation at its one point. -/
theorem body_obligation (c : Dev nD) : BodyObligation (dats m ρ 0 c) (defs₀ (F := F)) 𝒱₀ () Set.univ := fun t => by
  rw [fin_N t]
  rw [Gen.bigSep_W0, Gen.bigSep_W0]
  simp only [owns_whole_eq]
  show bodyPre' m ρ c ⊢ wp frame (wpE (defs₀ (F := F)) 𝒱₀ c none) Set.univ
      (cc0_body xM (Memref.isWhole_whole _) yM (Memref.isWhole_whole _) oM (Memref.isWhole_whole _)
        pbM (Memref.isWhole_whole _) redM (Memref.isWhole_whole _) rbM (Memref.isWhole_whole _) r1M (Memref.isWhole_whole _) r2M (Memref.isWhole_whole _)
        cc0_scratch5 cc0_scratch6 cc0_scratch7 cc0_scratch8 cc0_scratch9 cc0_scratch10) (fun _ => bodyPost m ρ c)
  iintro H
  iapply (sound_body m ρ c (fun _ => bodyPost m ρ c))
  isplitl [H]; · iexact H
  iintro H; iexact H

end Cert.Kernel.Coll

end
-- ==== Proof.KLaunch.lean ====
/- The launch. The ghost state of the protocol is funded for every cell of every device at once; the invariants of all
   cells are allocated under one update, because a cell's invariant is shared by its owner and by the devices that pay
   into it; the duty tokens minted at each owner are then dealt to the devices that pay those duties, and the credit dealt
   at launch is counted cell by cell from what every device owes. With that each device's body starts from `start`, and
   the run of the whole mesh ends with every window's array at the contents the proof data names. -/
import proofs.«901051_g7700000000001052_dist_rsdw_v7x_xyz2x4x4_z_m1024_d1024_f4096_bf16_1_alg».proof.Proof.KProto
import proofs.«901051_g7700000000001052_dist_rsdw_v7x_xyz2x4x4_z_m1024_d1024_f4096_bf16_1_alg».proof.Proof.KTables
import Idealize.ShloMosaic.Lib.Pipeline.Launch
import Idealize.ShloMosaic.Lib.Pipeline.Kit
import Idealize.ShloMosaic.Lib.Tactic

set_option Elab.async false

noncomputable section

namespace Cert.Kernel.Coll

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## General facts about iterated separating conjunctions and lists -/

/-- Over an optional index: the summand at no index, and those at the indices. -/
theorem bigSep_option {M : Type} [URA M] {α : Type} [Fintype α] [DecidableEq α] (Ψ : Option α → sProp M) :
    bigSep Finset.univ Ψ = iprop(Ψ none ∗ bigSep Finset.univ fun a => Ψ (some a)) := by
  have h : (Finset.univ.erase (none : Option α)) = Finset.univ.map Function.Embedding.some := by
    ext x
    cases x with
    | none => simp
    | some a => simp
  rw [bigSep_univ_at Ψ none, h, bigSep_map]
  rfl

/-- The set of a mapped list is the image of the list's set. -/
theorem toFinset_map_image {α β : Type} [DecidableEq α] [DecidableEq β] (f : α → β) (l : List α) : (l.map f).toFinset = l.toFinset.image f := by
  ext b
  simp only [List.mem_toFinset, List.mem_map, Finset.mem_image]

/-- Over a union of pairwise disjoint sets: set by set. -/
theorem bigSep_biUnion_disjoint {M : Type} [URA M] {I J : Type} [DecidableEq I] [DecidableEq J] (s : Finset J) (t : J → Finset I) (Φ : I → sProp M)
    (h : ∀ j ∈ s, ∀ j' ∈ s, j ≠ j' → Disjoint (t j) (t j')) :
    bigSep (s.biUnion t) Φ = bigSep s fun j => bigSep (t j) Φ := by
  induction s using Finset.induction_on with
  | empty => rw [Finset.biUnion_empty, bigSep_empty, bigSep_empty]
  | insert j s hj ih =>
    have hd : Disjoint (t j) (s.biUnion t) :=
      (Finset.disjoint_biUnion_right _ _ _).mpr fun b hb =>
        h j (Finset.mem_insert_self _ _) b (Finset.mem_insert_of_mem hb) (fun e => hj (e ▸ hb))
    rw [Finset.biUnion_insert, bigSep_insert hj, bigSep_union hd,
      ih fun a ha b hb => h a (Finset.mem_insert_of_mem ha) b (Finset.mem_insert_of_mem hb)]

/-! ## The kernel's own semaphores, and all cells of the collective -/

/-- A DMA semaphore's place: which of the six arrays, which half, which slot. -/
abbrev CI : Type := Fin 6 × Fin 2 × Fin 4

/-- The forty-eight DMA semaphores of the kernel's six arrays: its own, scoped to the launch. -/
abbrev osem : CI → SemLoc sig := fun i => .dma (dsem i.1 i.2.1 i.2.2)

theorem ownSemFacts : Pipeline.OwnSemFacts cfg0.spec osem := by decide +kernel

theorem share_eq (c : Dev nD) (w : Fin cfg0.W) : (dats m ρ 0 c).share w = fullShare := by unfold Dat.share; split <;> rfl

theorem dsem_inj {a a' : Fin 6} {h h' : Fin 2} {j j' : Fin 4} (e : dsem a h j = dsem a' h' j') : a = a' ∧ h = h' ∧ j = j' := by
  have ha := congrArg aOf e
  have hh := congrArg hOf e
  have hj := congrArg jOf e
  rw [aOf_dsem, aOf_dsem] at ha
  rw [hOf_dsem, hOf_dsem] at hh
  rw [jOf_dsem, jOf_dsem] at hj
  exact ⟨ha, hh, hj⟩

theorem csem_injective : Function.Injective csem := by
  rintro (_ | ⟨a, h, j⟩) (_ | ⟨a', h', j'⟩) e
  · rfl
  · exact absurd (show (SemLoc.reg barS : SemLoc sig) = SemLoc.dma (dsem a' h' j') from e) (fun h => by cases h)
  · exact absurd (show (SemLoc.dma (dsem a h j) : SemLoc sig) = SemLoc.reg barS from e) (fun h => by cases h)
  · have e' : dsem a h j = dsem a' h' j' := SemLoc.dma.inj (show (SemLoc.dma (dsem a h j) : SemLoc sig) = SemLoc.dma (dsem a' h' j') from e)
    obtain ⟨rfl, rfl, rfl⟩ := dsem_inj e'
    rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-- The duty tokens as minted, per owner: its barrier cell's seven, and one for each of its DMA cells. -/
abbrev tokOf (x : Dev nD × (DN ⊕ CI)) : GSem nD τ sig × ℕ × DN := match x.2 with
  | .inl n => (barC x.1, 0, n)
  | .inr i => (dC x.1 i.1 i.2.1 i.2.2, 0, 0)

theorem tokOf_injective : Function.Injective (tokOf : Dev nD × (DN ⊕ CI) → GSem nD τ sig × ℕ × DN) := by
  rintro ⟨c, s⟩ ⟨c', s'⟩ h
  have h1 : c = c' := by
    have := congrArg (fun x : GSem nD τ sig × ℕ × DN => x.1.1.1) h
    cases s <;> cases s' <;> exact this
  subst h1
  cases s with
  | inl n =>
    cases s' with
    | inl n' =>
      have hn : n = n' := congrArg (fun x : GSem nD τ sig × ℕ × DN => x.2.2) h
      rw [hn]
    | inr i' =>
      exact absurd (show (SemLoc.reg barS : SemLoc sig) = SemLoc.dma (dsem i'.1 i'.2.1 i'.2.2) from congrArg (fun x : GSem nD τ sig × ℕ × DN => x.1.2) h)
        (fun h => by cases h)
  | inr i =>
    cases s' with
    | inl n' =>
      exact absurd (show (SemLoc.dma (dsem i.1 i.2.1 i.2.2) : SemLoc sig) = SemLoc.reg barS from congrArg (fun x : GSem nD τ sig × ℕ × DN => x.1.2) h)
        (fun h => by cases h)
    | inr i' =>
      have e : dsem i.1 i.2.1 i.2.2 = dsem i'.1 i'.2.1 i'.2.2 :=
        SemLoc.dma.inj (show (SemLoc.dma (dsem i.1 i.2.1 i.2.2) : SemLoc sig) = SemLoc.dma (dsem i'.1 i'.2.1 i'.2.2) from
          congrArg (fun x : GSem nD τ sig × ℕ × DN => x.1.2) h)
      obtain ⟨h1, h2, h3⟩ := dsem_inj e
      have : i = i' := Prod.ext h1 (Prod.ext h2 h3)
      rw [this]

def ringToks : Finset (GSem nD τ sig × ℕ × DN) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun n : DN => dutyTok ER (barC c) 0 n)
    ∗ bigSep Finset.univ fun i : CI => dutyTok ER (dC c i.1 i.2.1 i.2.2) 0 (0 : DN))

/-- What the launch element deals device `c`: the round state of each of its cells, its position at and the reached-mark of
    round 0 of each, and its own cells' tokens. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- What the step over all devices makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero are its forty-eight DMA cells at zero; -/
theorem ownSems0_eq (c : Dev nD) : (Pipeline.ownSems0 (Ix := Unit) (Name := ℕ) (U := UU) (Lvl := ℕ) (Val := Elt F) (τ := τ) osem c : sProp 𝕄)
    = bigSep Finset.univ fun i : CI => semVal (dC c i.1 i.2.1 i.2.2) 0 := by
  unfold Pipeline.ownSems0; rfl

/-- the barrier semaphore is the launch's one unscoped semaphore. -/
theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_option]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

instance records_persistent (K : Dev nD × CK → ℕ) : BI.Persistent (records m K) := by unfold records; infer_instance

theorem ghost_intro (K : Dev nD × CK → ℕ) (c : Dev nD) : iprop(records m K ∗ iprop(positions c ∗ payToks c)) ⊢ G' m c := by
  unfold G' ghost
  iintro ⟨HR, HP, HT⟩
  iexists K
  isplitl [HR]; · iexact HR
  isplitl [HP]; · iexact HP
  iexact HT

/-! ## The tokens dealt to their payers -/

/-- The receive cells device `c` sends into, in program order: the owner, and the cell's place in the owner's arrays. -/
def payCellsL (c : Dev nD) : List (Dev nD × CI) :=
  [ (zP c 1, (1, 0, zF c)), (zP c 2, (1, 0, zF c)), (zP c 3, (1, 0, zF c)),
    (zP c 1, (1, 1, zF c)), (zP c 2, (1, 1, zF c)), (zP c 3, (1, 1, zF c)),
    (yP c 1, (3, 0, yF c)), (yP c 2, (3, 0, yF c)), (yP c 3, (3, 0, yF c)),
    (xP c, (5, 0, yF c)),
    (xP c, (5, 0, yj c 1)), (xP c, (5, 0, yj c 2)), (xP c, (5, 0, yj c 3)),
    (yP c 1, (3, 1, yF c)), (yP c 2, (3, 1, yF c)), (yP c 3, (3, 1, yF c)),
    (xP c, (5, 1, yF c)),
    (xP c, (5, 1, yj c 1)), (xP c, (5, 1, yj c 2)), (xP c, (5, 1, yj c 3)) ]

/-- A receive cell with the credit of one block. -/
def gC (x : Dev nD × CI) : GSem nD τ sig × ℕ := (dC x.1 x.2.1 x.2.2.1 x.2.2.2, N)

theorem pays_drop (c : Dev nD) : (pays c).drop 7 = (payCellsL c).map gC := rfl

theorem gC_injective : Function.Injective gC := fun x y h => by
  have h1 : kcell (x.1, some x.2) = kcell (y.1, some y.2) := congrArg Prod.fst h
  have h2 := kcell_injective h1
  have e1 : x.1 = y.1 := congrArg (fun z : Dev nD × CK => z.1) h2
  have e2 : some x.2 = some y.2 := congrArg (fun z : Dev nD × CK => z.2) h2
  exact Prod.ext e1 (Option.some.inj e2)

/-- The device that sends into a receive cell: for the z phase's the device of the owner's x and y at the z coordinate the
    slot names; for the y phase's likewise along y; for the x phase's the owner's peer along x. -/
def sndr (x : Dev nD × CI) : Dev nD :=
  if x.2.1.val = 1 then atZ x.1 x.2.2.2 else if x.2.1.val = 3 then atY x.1 x.2.2.2 else xP x.1

theorem payCellsL_sndr_all : ∀ c : Dev nD, (payCellsL c).all (fun x => decide (sndr x = c)) = true := by decide +kernel
theorem payCellsL_odd_all : ∀ c : Dev nD, (payCellsL c).all (fun x => decide (¬ (x.2.1.val % 2 = 0))) = true := by decide +kernel

theorem payCellsL_sndr (c : Dev nD) : ∀ x ∈ payCellsL c, sndr x = c :=
  fun x hx => of_decide_eq_true (List.all_eq_true.mp (payCellsL_sndr_all c) x hx)
theorem payCellsL_odd (c : Dev nD) : ∀ x ∈ payCellsL c, ¬ (x.2.1.val % 2 = 0) :=
  fun x hx => of_decide_eq_true (List.all_eq_true.mp (payCellsL_odd_all c) x hx)

theorem payCells_disjoint (c c' : Dev nD) (h : c ≠ c') : Disjoint (payCellsL c).toFinset (payCellsL c').toFinset :=
  Finset.disjoint_left.mpr fun x hx hx' =>
    h ((payCellsL_sndr c x (List.mem_toFinset.mp hx)).symm.trans (payCellsL_sndr c' x (List.mem_toFinset.mp hx')))

/-- A device's barrier tokens go to its neighbours: the map (device, neighbour's name) ↦ (that neighbour, the device's name
    there) is its own inverse. -/
def nbEquiv : Dev nD × DN ≃ Dev nD × DN where
  toFun x := (nb x.1 x.2, inv x.2)
  invFun x := (nb x.1 x.2, inv x.2)
  left_inv x := Prod.ext (nb_nb x.1 x.2) (inv_inv x.2)
  right_inv x := Prod.ext (nb_nb x.1 x.2) (inv_inv x.2)

theorem toks_bar : (bigSep Finset.univ fun c : Dev nD => bigSep Finset.univ fun n : DN => (dutyTok ER (barC c) 0 n : sProp 𝕄))
    = bigSep Finset.univ fun c : Dev nD => bigSep Finset.univ fun n : DN => dutyTok ER (barC (nb c n)) 0 (inv n) := by
  rw [← bigSep_univ_prod (fun x : Dev nD × DN => (dutyTok ER (barC x.1) 0 x.2 : sProp 𝕄)), bigSep_univ_equiv nbEquiv, bigSep_univ_prod]
  rfl

/-- The tokens of the receive cells, each to the device that sends into the cell. -/
theorem toks_recv :
    (bigSep Finset.univ fun c : Dev nD => bigSep (Finset.univ.filter fun i : CI => ¬ (i.1.val % 2 = 0)) fun i => (dutyTok ER (dC c i.1 i.2.1 i.2.2) 0 (0 : DN) : sProp 𝕄))
      ⊢ bigSep Finset.univ fun c : Dev nD => bigSep ((pays c).drop 7).toFinset fun p => dutyTok ER p.1 0 (0 : DN) := by
  have h1 : (bigSep Finset.univ fun c : Dev nD => bigSep (Finset.univ.filter fun i : CI => ¬ (i.1.val % 2 = 0)) fun i => (dutyTok ER (dC c i.1 i.2.1 i.2.2) 0 (0 : DN) : sProp 𝕄))
      = bigSep Finset.univ fun x : Dev nD × CI => if ¬ (x.2.1.val % 2 = 0) then (dutyTok ER (dC x.1 x.2.1 x.2.2.1 x.2.2.2) 0 (0 : DN) : sProp 𝕄) else iprop(emp) := by
    rw [bigSep_univ_prod]
    exact bigSep_congr fun c _ => bigSep_filter _ _ _
  have h2 (c : Dev nD) : (bigSep ((pays c).drop 7).toFinset fun p => (dutyTok ER p.1 0 (0 : DN) : sProp 𝕄))
      = bigSep (payCellsL c).toFinset fun x => if ¬ (x.2.1.val % 2 = 0) then (dutyTok ER (dC x.1 x.2.1 x.2.2.1 x.2.2.2) 0 (0 : DN) : sProp 𝕄) else iprop(emp) := by
    rw [pays_drop, toFinset_map_image, bigSep_image_of_injOn (gC_injective.injOn)]
    exact bigSep_congr fun x hx => (if_pos (payCellsL_odd c x (List.mem_toFinset.mp hx))).symm
  rw [h1, bigSep_congr (s := Finset.univ) fun (c : Dev nD) _ => h2 c,
    ← bigSep_biUnion_disjoint Finset.univ (fun c : Dev nD => (payCellsL c).toFinset) _ (fun c _ c' _ h => payCells_disjoint c c' h)]
  exact bigSep_subset (Finset.subset_univ _)

/-- Every device's own tokens, dealt: a barrier token to the neighbour that pays it, a receive cell's token to the device
    that sends into it; a send cell's token stays with its owner. -/
theorem toks_regroup : (bigSep Finset.univ fun c : Dev nD => (toks c : sProp 𝕄)) ⊢ bigSep Finset.univ fun c : Dev nD => payToks c := by
  have hsplit (c : Dev nD) : (bigSep Finset.univ fun i : CI => (dutyTok ER (dC c i.1 i.2.1 i.2.2) 0 (0 : DN) : sProp 𝕄))
      = iprop((bigSep (Finset.univ.filter fun i : CI => i.1.val % 2 = 0) fun i => dutyTok ER (dC c i.1 i.2.1 i.2.2) 0 (0 : DN))
          ∗ bigSep (Finset.univ.filter fun i : CI => ¬ (i.1.val % 2 = 0)) fun i => dutyTok ER (dC c i.1 i.2.1 i.2.2) 0 (0 : DN)) :=
    bigSep_filter_split Finset.univ (fun i : CI => i.1.val % 2 = 0)
  have hsend (c : Dev nD) : (bigSep (Finset.univ.filter fun i : CI => i.1.val % 2 = 0) fun i => (dutyTok ER (dC c i.1 i.2.1 i.2.2) 0 (0 : DN) : sProp 𝕄))
      ⊢ bigSep (Finset.univ.filter fun i : CI => i.1.val % 2 = 0 ∧ used c i.1 i.2.2) fun i => dutyTok ER (dC c i.1 i.2.1 i.2.2) 0 (0 : DN) :=
    bigSep_subset fun i hi => Finset.mem_filter.mpr ⟨Finset.mem_univ _, (Finset.mem_filter.mp hi).2.1⟩
  unfold toks payToks
  rw [bigSep_sep', bigSep_sep', bigSep_sep', toks_bar, bigSep_congr (s := Finset.univ) fun (c : Dev nD) _ => hsplit c, bigSep_sep']
  iintro ⟨Hb, He, Ho⟩
  isplitl [Hb]; · iexact Hb
  isplitl [Ho]
  · iapply (toks_recv (F := F)); iexact Ho
  · have hE : (bigSep Finset.univ fun c : Dev nD => bigSep (Finset.univ.filter fun i : CI => i.1.val % 2 = 0) fun i => (dutyTok ER (dC c i.1 i.2.1 i.2.2) 0 (0 : DN) : sProp 𝕄))
        ⊢ bigSep Finset.univ fun c : Dev nD => bigSep (Finset.univ.filter fun i : CI => i.1.val % 2 = 0 ∧ used c i.1 i.2.2) fun i => dutyTok ER (dC c i.1 i.2.1 i.2.2) 0 (0 : DN) :=
      bigSep_mono fun c _ => hsend c
    iapply hE; iexact He

/-! ## The step over all devices -/

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_regroup (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- Own and unscoped semaphores of every device at once: all cells' invariants under one update. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What every device owes at launch. -/
def O0 (d : Dev nD) : CellTallies nD τ sig Unit := owedFrom d 0

/-- A cell's unit: one on a barrier cell, a block's credit on a DMA cell. -/
def amtOf : CK → ℕ
  | none => 1
  | some _ => N

/-- The cells device `c` pays, in program order, by (owner, which of the owner's cells). -/
def payKeysL (c : Dev nD) : List (Dev nD × CK) :=
  ([zP c 1, zP c 2, zP c 3, yP c 1, yP c 2, yP c 3, xP c].map fun p => (p, (none : CK)))
    ++ (payCellsL c).map fun x => (x.1, some x.2)

theorem pays_eq (c : Dev nD) : pays c = (payKeysL c).map fun y => (kcell y, amtOf y.2) := rfl

/-- How often a list names a cell. -/
def hits (y : Dev nD × CK) : List (Dev nD × CK) → ℕ
  | [] => 0
  | x :: l => hits y l + (if x = y then 1 else 0)

theorem tallies_keys (l : List (Dev nD × CK)) (y : Dev nD × CK) :
    tallies (l.map fun x => (kcell x, amtOf x.2)) (kcell y) () = hits y l * amtOf y.2 := by
  induction l with
  | nil =>
    show (0 : CellTallies nD τ sig Unit) (kcell y) () = 0 * amtOf y.2
    rw [Nat.zero_mul]; rfl
  | cons x l ih =>
    show (tallies (l.map fun x => (kcell x, amtOf x.2)) + tallyAt (kcell x) () (amtOf x.2)) (kcell y) ()
      = (hits y l + (if x = y then 1 else 0)) * amtOf y.2
    rw [Pi.add_apply, Finsupp.add_apply, ih, tallyAt_apply, Nat.add_mul]
    congr 1
    by_cases h : x = y
    · subst h; rw [if_pos ⟨rfl, rfl⟩, if_pos rfl, Nat.one_mul]
    · rw [if_neg (fun h' => h (kcell_injective h'.1).symm), if_neg h, Nat.zero_mul]

theorem owed_key (d : Dev nD) (y : Dev nD × CK) : O0 d (kcell y) () = hits y (payKeysL d) * amtOf y.2 := by
  show tallies (pays d) (kcell y) () = _
  rw [pays_eq]; exact tallies_keys _ y

theorem owed_bar (d c : Dev nD) : O0 d (barC c) () = hits (c, none) (payKeysL d) :=
  (owed_key d (c, none)).trans (Nat.mul_one _)
theorem owed_dma (d c : Dev nD) (i : CI) : O0 d (dC c i.1 i.2.1 i.2.2) () = hits (c, some i) (payKeysL d) * N :=
  owed_key d (c, some i)

theorem hits_eq_zero {y : Dev nD × CK} : ∀ {l : List (Dev nD × CK)}, y ∉ l → hits y l = 0
  | [], _ => rfl
  | x :: l, h => by
    have hx : x ≠ y := fun e => h (List.mem_cons.mpr (Or.inl e.symm))
    have hl : y ∉ l := fun e => h (List.mem_cons.mpr (Or.inr e))
    show hits y l + (if x = y then 1 else 0) = 0
    rw [hits_eq_zero hl, if_neg hx]

/-- A DMA cell a device pays is one of the receive cells it sends into. -/
theorem mem_payKeys_some {c d : Dev nD} {i : CI} (h : (c, some i) ∈ payKeysL d) : (c, i) ∈ payCellsL d := by
  unfold payKeysL at h
  rcases List.mem_append.mp h with h | h
  · obtain ⟨p, -, e⟩ := List.mem_map.mp h
    have e' : (none : CK) = some i := congrArg (fun z : Dev nD × CK => z.2) e
    cases e'
  · obtain ⟨x, hx, e⟩ := List.mem_map.mp h
    have e1 : x.1 = c := congrArg (fun z : Dev nD × CK => z.1) e
    have e2 : x.2 = i := Option.some.inj (congrArg (fun z : Dev nD × CK => z.2) e)
    have e3 : x = (c, i) := Prod.ext e1 e2
    exact e3 ▸ hx

/-- Exactly its seven neighbours pay a device's barrier cell, once each; -/
theorem bar_hits : ∀ c : Dev nD, (∑ d : Dev nD, hits (c, none) (payKeysL d)) = 7 := by decide +kernel

/-- the device that sends into a used receive cell pays it once, -/
theorem recv_at : ∀ (c : Dev nD) (i : CI), i.1.val % 2 = 1 → used c i.1 i.2.2 → hits (c, some i) (payKeysL (sndr (c, i))) = 1 := by
  decide +kernel

/-- and no other device pays it. -/
theorem recv_hits (c : Dev nD) (i : CI) (ho : i.1.val % 2 = 1) (hu : used c i.1 i.2.2) : (∑ d : Dev nD, hits (c, some i) (payKeysL d)) = 1 := by
  rw [Finset.sum_eq_single (sndr (c, i)) (fun d _ hd => hits_eq_zero fun h => hd (payCellsL_sndr d _ (mem_payKeys_some h)).symm)
    (fun h => absurd (Finset.mem_univ _) h)]
  exact recv_at c i ho hu

theorem launch_bar (c : Dev nD) :
    tallyOn (barC c) (launchCredit (Pipeline.owing O0) 0 (barC c)) = (tallyAt (barC c) () 7 : CellTallies nD τ sig Unit) := by
  unfold tallyAt; refine congrArg _ (Finsupp.ext fun u => ?_); cases u
  rw [Pipeline.launchCredit_owing, Finsupp.single_eq_same, Finset.sum_congr rfl fun d _ => owed_bar d c, bar_hits]

theorem launch_recv (c : Dev nD) (i : CI) (ho : i.1.val % 2 = 1) (hu : used c i.1 i.2.2) :
    tallyOn (dC c i.1 i.2.1 i.2.2) (launchCredit (Pipeline.owing O0) 0 (dC c i.1 i.2.1 i.2.2))
      = (tallyAt (dC c i.1 i.2.1 i.2.2) () N : CellTallies nD τ sig Unit) := by
  unfold tallyAt; refine congrArg _ (Finsupp.ext fun u => ?_); cases u
  rw [Pipeline.launchCredit_owing, Finsupp.single_eq_same, Finset.sum_congr rfl fun d _ => owed_dma d c i, ← Finset.sum_mul,
    recv_hits c i ho hu, Nat.one_mul]

theorem creds (c : Dev nD) : (Pipeline.launchCred O0 c : sProp 𝕄) ⊢ launchCreds c := by
  unfold Pipeline.launchCred launchCreds
  rw [bigSep_univ_at _ (SemLoc.reg barS), launch_bar]
  refine sep_mono_right ?_
  refine (bigSep_subset (t := (Finset.univ.filter fun i : CI => i.1.val % 2 = 1 ∧ used c i.1 i.2.2).map ⟨osem, ownSemFacts.inj⟩) ?_).trans ?_
  · intro sm h
    obtain ⟨i, -, rfl⟩ := Finset.mem_map.mp h
    have hne : (SemLoc.dma (dsem i.1 i.2.1 i.2.2) : SemLoc sig) ≠ SemLoc.reg barS := fun e => by cases e
    exact Finset.mem_erase.mpr ⟨hne, Finset.mem_univ _⟩
  · rw [bigSep_map]
    refine bigSep_mono fun i hi => ?_
    obtain ⟨-, ho, hu⟩ := Finset.mem_filter.mp hi
    exact Entails.of_eq (congrArg cred (launch_recv c i ho hu))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: given each
    device's body from its start, every weakly fair execution of the program terminates, and every final state has each
    device's three window arrays at the contents the proof data ends with. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq m ρ)
    (hdistinct := winFacts0.arr_inj)
    (O₀ := O0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The two argument arrays after the run hold what they held. -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_y (c : Dev nD) : finalA m ρ c (1 : Fin 3) = (s₀ m ρ).mem (win0_1.arr.view.loc (c : Thread nD τ)) :=
  (dats (F := F) m ρ 0 c).arrAt_in (1 : Fin 3) rfl _

/-- The result array after the run holds the device's sixteen pieces: the one point writes the whole staging buffer back. -/
theorem finalA_out (c : Dev nD) : finalA m ρ c (2 : Fin 3) = outAt m c := by
  have hf : (cfg0.win 2).flush t0_0 = true := by decide +kernel
  show (dats m ρ 0 c).arrAt 2 ((t0_0 : Fin cfg0.N).val + 1) = _
  rw [Dat.arrAt_succ, if_pos hf]
  have hz : (fun a => win0_2.index t0_0 a * main_v1.ty.shape.size a) = fun _ => 0 := funext fun a => by fin_cases a <;> decide
  exact Memref.write_access_unit_zero_univ (Elt F) main_v1 hz (fun a => by rw [congrFun hz a]; simp) _ (outAt m c)

/-- info: 'Cert.Kernel.Coll.run_main' depends on axioms: [propext, Classical.choice, Quot.sound] -/
#guard_msgs in #print axioms run_main

end Cert.Kernel.Coll

end
-- ==== Proof.KFinalFrame.lean ====
/- The frame of the whole mesh: the run from the launch, read at the two argument arrays. Each is the whole array of an
   input window, and the proof data leaves an input window's array as the launch found it, so on every device both
   arguments end holding what they held. -/
import proofs.«901051_g7700000000001052_dist_rsdw_v7x_xyz2x4x4_z_m1024_d1024_f4096_bf16_1_alg».proof.Proof.KLaunch

noncomputable section

namespace Cert.Kernel.Coll

open Cert.Kernel Cert.Kernel.Gen Cert.Kernel.Mesh

open Idealize.ShloMosaic
open Idealize.ShloMosaic.TcCoe
open Idealize.SL.Sem
open Idealize.ShloMosaic.Pipeline (Dat Cfg Window BodyObligation cellOf)

/-- For any float values, from any memory with zero counters, given each device's body: every weakly fair execution of
    the program on the thirty-two devices terminates, and on every device the two argument arrays end unchanged. -/
theorem frameK {F : FTy → Type} [FloatOps F] (m : (ℓ : Loc nD τ sig) → Buf (Elt F) ℓ) (ρ : Dev nD → PrngReg)
    (hbody : ∀ c, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c (0 : Fin 3)).trans (finalA_x m ρ c), (h c (1 : Fin 3)).trans (finalA_y m ρ c)⟩)
    (run_main m ρ hbody)

end Cert.Kernel.Coll

end
-- ==== Proof.lean ====
/- The claim. On the 2 × 4 × 4 mesh every device multiplies its row block of x, transposed, by the 512 columns of its
   row block of dy that its x and y coordinates name; the four devices along the z axis add their products block by
   block, each keeping the 256 rows its z coordinate names; the sums are then gathered along y and exchanged along x, so
   that every device ends with its 256 rows of x transposed times dy. The frames of the two printed kernels are the run
   of the whole mesh read at the argument arrays; the reference's frame is its run with the value dropped; the ideal
   pass rewrote no operation; and the value claim is the run read at the result array, joined to the reference by
   splitting the contraction over the four row blocks (sums of extended reals regroup freely, so nothing asks the entries
   to be finite). -/
import proofs.«901051_g7700000000001052_dist_rsdw_v7x_xyz2x4x4_z_m1024_d1024_f4096_bf16_1_alg».proof.Defs
import proofs.«901051_g7700000000001052_dist_rsdw_v7x_xyz2x4x4_z_m1024_d1024_f4096_bf16_1_alg».proof.Proof.Gen.Kernel
import proofs.«901051_g7700000000001052_dist_rsdw_v7x_xyz2x4x4_z_m1024_d1024_f4096_bf16_1_alg».proof.Proof.Gen.Kernel.Skeleton
import proofs.«901051_g7700000000001052_dist_rsdw_v7x_xyz2x4x4_z_m1024_d1024_f4096_bf16_1_alg».proof.Proof.Gen.Kernel.Launch
import proofs.«901051_g7700000000001052_dist_rsdw_v7x_xyz2x4x4_z_m1024_d1024_f4096_bf16_1_alg».proof.Proof.Gen.Kernel.Points
import proofs.«901051_g7700000000001052_dist_rsdw_v7x_xyz2x4x4_z_m1024_d1024_f4096_bf16_1_alg».proof.Proof.Gen.Kernel.Frame
import proofs.«901051_g7700000000001052_dist_rsdw_v7x_xyz2x4x4_z_m1024_d1024_f4096_bf16_1_alg».proof.Proof.Gen.KernelIdeal
import proofs.«901051_g7700000000001052_dist_rsdw_v7x_xyz2x4x4_z_m1024_d1024_f4096_bf16_1_alg».proof.Proof.Gen.KernelIdeal.Skeleton
import proofs.«901051_g7700000000001052_dist_rsdw_v7x_xyz2x4x4_z_m1024_d1024_f4096_bf16_1_alg».proof.Proof.Gen.KernelIdeal.Launch
import proofs.«901051_g7700000000001052_dist_rsdw_v7x_xyz2x4x4_z_m1024_d1024_f4096_bf16_1_alg».proof.Proof.Gen.KernelIdeal.Points
import proofs.«901051_g7700000000001052_dist_rsdw_v7x_xyz2x4x4_z_m1024_d1024_f4096_bf16_1_alg».proof.Proof.Gen.KernelIdeal.Frame
import proofs.«901051_g7700000000001052_dist_rsdw_v7x_xyz2x4x4_z_m1024_d1024_f4096_bf16_1_alg».proof.Proof.Gen.ReferenceIdeal
import proofs.«901051_g7700000000001052_dist_rsdw_v7x_xyz2x4x4_z_m1024_d1024_f4096_bf16_1_alg».proof.Proof.Gen.Pre_finite_inputs_Kernel
import proofs.«901051_g7700000000001052_dist_rsdw_v7x_xyz2x4x4_z_m1024_d1024_f4096_bf16_1_alg».proof.Proof.Gen.Pre_finite_inputs_ReferenceIdeal
import proofs.«901051_g7700000000001052_dist_rsdw_v7x_xyz2x4x4_z_m1024_d1024_f4096_bf16_1_alg».proof.Proof.RefValue
import proofs.«901051_g7700000000001052_dist_rsdw_v7x_xyz2x4x4_z_m1024_d1024_f4096_bf16_1_alg».proof.Proof.Body
import proofs.«901051_g7700000000001052_dist_rsdw_v7x_xyz2x4x4_z_m1024_d1024_f4096_bf16_1_alg».proof.Proof.FinalFrame
import proofs.«901051_g7700000000001052_dist_rsdw_v7x_xyz2x4x4_z_m1024_d1024_f4096_bf16_1_alg».proof.Proof.Final
import proofs.«901051_g7700000000001052_dist_rsdw_v7x_xyz2x4x4_z_m1024_d1024_f4096_bf16_1_alg».proof.Proof.KBody
import proofs.«901051_g7700000000001052_dist_rsdw_v7x_xyz2x4x4_z_m1024_d1024_f4096_bf16_1_alg».proof.Proof.KFinalFrame
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    -- the word-level kernel runs and leaves its arguments unchanged
    fun m g _ => Cert.Kernel.Coll.frameK m g (Cert.Kernel.Coll.body_obligation m g),
    -- the same at the exact values
    fun m g _ => Cert.KernelIdeal.Coll.frameK m g (Cert.KernelIdeal.Coll.body_obligation m g),
    -- the reference runs and leaves its arguments unchanged
    Cert.RefValue.ref_frame,
    -- no operation was rewritten
    trivial,
    -- every device's result is its block of x transposed times dy, the reference's result
    fun m g m' g' _ hagree =>
      ⟨Cert.RefValue.refSpec
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)),
        Cert.KernelIdeal.Coll.algK m g (Cert.KernelIdeal.Coll.body_obligation m g) _ _
          (fun c => (hagree c).1) (fun c => (hagree c).2),
        Cert.RefValue.ref_run m' g'⟩⟩

end Cert.Proof

end
